-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v873)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v873) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1018) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1x257x257 : Shape := ⟨4, ![4, 1, 257, 257]⟩
abbrev S83521x16 : Shape := ⟨2, ![83521, 16]⟩
abbrev S_ : Shape := ⟨0, ![]⟩

class Facts : Prop where
  bcast_S_S83521x16 : S_.BroadcastsInDim S83521x16 (![] : Fin 0 → Fin S83521x16.rank)
  reducesTo_S83521x16_S_d0_1 : S83521x16.ReducesTo [0, 1] S_
  h_S_ : 0 < S_.numel
  bcast_S_S4x1x257x257 : S_.BroadcastsInDim S4x1x257x257 (![] : Fin 0 → Fin S4x1x257x257.rank)
  reducesTo_S4x1x257x257_S_d0_1_2_3 : S4x1x257x257.ReducesTo [0, 1, 2, 3] S_

variable [Facts]

def fn {F : FTy → Type} [FloatOps F] (main_arg0 : IVec S4x1x257x257 32) (main_arg1 : FVec F S83521x16 .f32) : IVec S_ 1 :=
  let main_v0 : FVec F S83521x16 .f32 := Host.absf main_arg1
  let main_cst : FVec F S_ .f32 := constant S_ .f32 0x7F800000#32
  let main_v1 : FVec F S83521x16 .f32 := broadcastInDim S83521x16 ![] bcast_S_S83521x16 main_cst
  let main_v2 : IVec S83521x16 1 := cmpf .olt main_v0 main_v1
  let main_c : IVec S_ 1 := constantI S_ 1 1#1
  let main_v3 : IVec S_ 1 := (fun x v => Host.reduce IntOp.andi x v reducesTo_S83521x16_S_d0_1 h_S_) main_v2 main_c
  let main_c_0 : IVec S_ 32 := constantI S_ 32 0#32
  let main_v4 : IVec S4x1x257x257 32 := broadcastInDim S4x1x257x257 ![] bcast_S_S4x1x257x257 main_c_0
  let main_v5 : IVec S4x1x257x257 1 := cmpi .sge main_arg0 main_v4
  let main_c_1 : IVec S_ 1 := constantI S_ 1 1#1
  let main_v6 : IVec S_ 1 := (fun x v => Host.reduce IntOp.andi x v reducesTo_S4x1x257x257_S_d0_1_2_3 h_S_) main_v5 main_c_1
  let main_v7 : IVec S_ 1 := andi main_v3 main_v6
  let main_c_2 : IVec S_ 32 := constantI S_ 32 255#32
  let main_v8 : IVec S4x1x257x257 32 := broadcastInDim S4x1x257x257 ![] bcast_S_S4x1x257x257 main_c_2
  let main_v9 : IVec S4x1x257x257 1 := cmpi .sle main_arg0 main_v8
  let main_c_3 : IVec S_ 1 := constantI S_ 1 1#1
  let main_v10 : IVec S_ 1 := (fun x v => Host.reduce IntOp.andi x v reducesTo_S4x1x257x257_S_d0_1_2_3 h_S_) main_v9 main_c_3
  let main_v11 : IVec S_ 1 := andi main_v7 main_v10
  main_v11
-- ==== Kernel.lean ====
abbrev S4x1x257x257 : Shape := ⟨4, ![4, 1, 257, 257]⟩
abbrev S83521x16 : Shape := ⟨2, ![83521, 16]⟩
abbrev S4x1x256x256 : Shape := ⟨4, ![4, 1, 256, 256]⟩
abbrev S_ : Shape := ⟨0, ![]⟩
abbrev S262144 : Shape := ⟨1, ![262144]⟩
abbrev S262144x1 : Shape := ⟨2, ![262144, 1]⟩
abbrev S262144x16 : Shape := ⟨2, ![262144, 16]⟩
abbrev S262144x16x1 : Shape := ⟨3, ![262144, 16, 1]⟩
abbrev S1 : Shape := ⟨1, ![1]⟩
abbrev S1x1x1 : Shape := ⟨3, ![1, 1, 1]⟩
abbrev S262144x16x16 : Shape := ⟨3, ![262144, 16, 16]⟩
abbrev S1024x16x16 : Shape := ⟨3, ![1024, 16, 16]⟩
abbrev S1024x16 : Shape := ⟨2, ![1024, 16]⟩
abbrev S1024x16x1 : Shape := ⟨3, ![1024, 16, 1]⟩
abbrev S4x1x256x256x4x4 : Shape := ⟨6, ![4, 1, 256, 256, 4, 4]⟩
abbrev S4x1x256x4x256x4 : Shape := ⟨6, ![4, 1, 256, 4, 256, 4]⟩
abbrev S4x1x1024x1024 : Shape := ⟨4, ![4, 1, 1024, 1024]⟩

abbrev nBuf : Space → Nat
  | .hbm => 1210
  | .vmem => 6
  | .smem => 0
  | _ => 0

abbrev hbmTy0_0 (i : Nat) : BufTy := match i % 128 with
  | 0 => ⟨S4x1x257x257, .i32⟩
  | 1 => ⟨S83521x16, .f32⟩
  | 2 => ⟨S4x1x256x256, .i32⟩
  | 3 => ⟨S4x1x256x256, .i32⟩
  | 4 => ⟨S4x1x256x256, .i32⟩
  | 5 => ⟨S4x1x256x256, .i32⟩
  | 6 => ⟨S_, .i32⟩
  | 7 => ⟨S_, .i32⟩
  | 8 => ⟨S4x1x256x256, .i32⟩
  | 9 => ⟨S4x1x256x256, .i32⟩
  | 10 => ⟨S4x1x256x256, .i32⟩
  | 11 => ⟨S_, .i32⟩
  | 12 => ⟨S4x1x256x256, .i32⟩
  | 13 => ⟨S4x1x256x256, .i1⟩
  | 14 => ⟨S4x1x256x256, .i32⟩
  | 15 => ⟨S4x1x256x256, .i32⟩
  | 16 => ⟨S_, .i32⟩
  | 17 => ⟨S4x1x256x256, .i32⟩
  | 18 => ⟨S4x1x256x256, .i1⟩
  | 19 => ⟨S4x1x256x256, .i1⟩
  | 20 => ⟨S_, .i32⟩
  | 21 => ⟨S4x1x256x256, .i32⟩
  | 22 => ⟨S4x1x256x256, .i32⟩
  | 23 => ⟨S4x1x256x256, .i32⟩
  | 24 => ⟨S262144, .i32⟩
  | 25 => ⟨S_, .i32⟩
  | 26 => ⟨S_, .i32⟩
  | 27 => ⟨S4x1x256x256, .i32⟩
  | 28 => ⟨S4x1x256x256, .i32⟩
  | 29 => ⟨S4x1x256x256, .i32⟩
  | 30 => ⟨S_, .i32⟩
  | 31 => ⟨S4x1x256x256, .i32⟩
  | 32 => ⟨S4x1x256x256, .i1⟩
  | 33 => ⟨S4x1x256x256, .i32⟩
  | 34 => ⟨S4x1x256x256, .i32⟩
  | 35 => ⟨S_, .i32⟩
  | 36 => ⟨S4x1x256x256, .i32⟩
  | 37 => ⟨S4x1x256x256, .i1⟩
  | 38 => ⟨S4x1x256x256, .i1⟩
  | 39 => ⟨S_, .i32⟩
  | 40 => ⟨S4x1x256x256, .i32⟩
  | 41 => ⟨S4x1x256x256, .i32⟩
  | 42 => ⟨S4x1x256x256, .i32⟩
  | 43 => ⟨S262144, .i32⟩
  | 44 => ⟨S_, .i32⟩
  | 45 => ⟨S_, .i32⟩
  | 46 => ⟨S4x1x256x256, .i32⟩
  | 47 => ⟨S4x1x256x256, .i32⟩
  | 48 => ⟨S4x1x256x256, .i32⟩
  | 49 => ⟨S_, .i32⟩
  | 50 => ⟨S4x1x256x256, .i32⟩
  | 51 => ⟨S4x1x256x256, .i1⟩
  | 52 => ⟨S4x1x256x256, .i32⟩
  | 53 => ⟨S4x1x256x256, .i32⟩
  | 54 => ⟨S_, .i32⟩
  | 55 => ⟨S4x1x256x256, .i32⟩
  | 56 => ⟨S4x1x256x256, .i1⟩
  | 57 => ⟨S4x1x256x256, .i1⟩
  | 58 => ⟨S_, .i32⟩
  | 59 => ⟨S4x1x256x256, .i32⟩
  | 60 => ⟨S4x1x256x256, .i32⟩
  | 61 => ⟨S4x1x256x256, .i32⟩
  | 62 => ⟨S262144, .i32⟩
  | 63 => ⟨S_, .i32⟩
  | 64 => ⟨S_, .i32⟩
  | 65 => ⟨S4x1x256x256, .i32⟩
  | 66 => ⟨S4x1x256x256, .i32⟩
  | 67 => ⟨S4x1x256x256, .i32⟩
  | 68 => ⟨S_, .i32⟩
  | 69 => ⟨S4x1x256x256, .i32⟩
  | 70 => ⟨S4x1x256x256, .i1⟩
  | 71 => ⟨S4x1x256x256, .i32⟩
  | 72 => ⟨S4x1x256x256, .i32⟩
  | 73 => ⟨S_, .i32⟩
  | 74 => ⟨S4x1x256x256, .i32⟩
  | 75 => ⟨S4x1x256x256, .i1⟩
  | 76 => ⟨S4x1x256x256, .i1⟩
  | 77 => ⟨S_, .i32⟩
  | 78 => ⟨S4x1x256x256, .i32⟩
  | 79 => ⟨S4x1x256x256, .i32⟩
  | 80 => ⟨S4x1x256x256, .i32⟩
  | 81 => ⟨S262144, .i32⟩
  | 82 => ⟨S_, .i32⟩
  | 83 => ⟨S_, .i32⟩
  | 84 => ⟨S_, .i32⟩
  | 85 => ⟨S_, .i1⟩
  | 86 => ⟨S_, .i32⟩
  | 87 => ⟨S_, .i32⟩
  | 88 => ⟨S4x1x256x256, .i32⟩
  | 89 => ⟨S4x1x256x256, .i32⟩
  | 90 => ⟨S_, .i32⟩
  | 91 => ⟨S4x1x256x256, .i32⟩
  | 92 => ⟨S4x1x256x256, .i1⟩
  | 93 => ⟨S_, .i32⟩
  | 94 => ⟨S4x1x256x256, .i32⟩
  | 95 => ⟨S4x1x256x256, .i1⟩
  | 96 => ⟨S_, .i32⟩
  | 97 => ⟨S_, .i1⟩
  | 98 => ⟨S4x1x256x256, .i1⟩
  | 99 => ⟨S4x1x256x256, .i1⟩
  | 100 => ⟨S4x1x256x256, .i1⟩
  | 101 => ⟨S4x1x256x256, .i32⟩
  | 102 => ⟨S4x1x256x256, .i32⟩
  | 103 => ⟨S4x1x256x256, .i32⟩
  | 104 => ⟨S262144, .i32⟩
  | 105 => ⟨S262144, .f32⟩
  | 106 => ⟨S_, .i32⟩
  | 107 => ⟨S_, .i32⟩
  | 108 => ⟨S_, .i32⟩
  | 109 => ⟨S_, .i1⟩
  | 110 => ⟨S_, .i32⟩
  | 111 => ⟨S_, .i32⟩
  | 112 => ⟨S4x1x256x256, .i32⟩
  | 113 => ⟨S4x1x256x256, .i32⟩
  | 114 => ⟨S_, .i32⟩
  | 115 => ⟨S4x1x256x256, .i32⟩
  | 116 => ⟨S4x1x256x256, .i1⟩
  | 117 => ⟨S_, .i32⟩
  | 118 => ⟨S4x1x256x256, .i32⟩
  | 119 => ⟨S4x1x256x256, .i1⟩
  | 120 => ⟨S_, .i32⟩
  | 121 => ⟨S_, .i1⟩
  | 122 => ⟨S4x1x256x256, .i1⟩
  | 123 => ⟨S4x1x256x256, .i1⟩
  | 124 => ⟨S4x1x256x256, .i1⟩
  | 125 => ⟨S4x1x256x256, .i32⟩
  | 126 => ⟨S4x1x256x256, .i32⟩
  | 127 => ⟨S4x1x256x256, .i32⟩
  | _ => ⟨S4x1x257x257, .i32⟩

abbrev hbmTy0_1 (i : Nat) : BufTy := match i % 128 with
  | 0 => ⟨S262144, .i32⟩
  | 1 => ⟨S262144, .f32⟩
  | 2 => ⟨S_, .i32⟩
  | 3 => ⟨S_, .i32⟩
  | 4 => ⟨S_, .i32⟩
  | 5 => ⟨S_, .i1⟩
  | 6 => ⟨S_, .i32⟩
  | 7 => ⟨S_, .i32⟩
  | 8 => ⟨S4x1x256x256, .i32⟩
  | 9 => ⟨S4x1x256x256, .i32⟩
  | 10 => ⟨S_, .i32⟩
  | 11 => ⟨S4x1x256x256, .i32⟩
  | 12 => ⟨S4x1x256x256, .i1⟩
  | 13 => ⟨S_, .i32⟩
  | 14 => ⟨S4x1x256x256, .i32⟩
  | 15 => ⟨S4x1x256x256, .i1⟩
  | 16 => ⟨S_, .i32⟩
  | 17 => ⟨S_, .i1⟩
  | 18 => ⟨S4x1x256x256, .i1⟩
  | 19 => ⟨S4x1x256x256, .i1⟩
  | 20 => ⟨S4x1x256x256, .i1⟩
  | 21 => ⟨S4x1x256x256, .i32⟩
  | 22 => ⟨S4x1x256x256, .i32⟩
  | 23 => ⟨S4x1x256x256, .i32⟩
  | 24 => ⟨S262144, .i32⟩
  | 25 => ⟨S262144, .f32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S4x1x256x256, .i32⟩
  | 33 => ⟨S4x1x256x256, .i32⟩
  | 34 => ⟨S_, .i32⟩
  | 35 => ⟨S4x1x256x256, .i32⟩
  | 36 => ⟨S4x1x256x256, .i1⟩
  | 37 => ⟨S_, .i32⟩
  | 38 => ⟨S4x1x256x256, .i32⟩
  | 39 => ⟨S4x1x256x256, .i1⟩
  | 40 => ⟨S_, .i32⟩
  | 41 => ⟨S_, .i1⟩
  | 42 => ⟨S4x1x256x256, .i1⟩
  | 43 => ⟨S4x1x256x256, .i1⟩
  | 44 => ⟨S4x1x256x256, .i1⟩
  | 45 => ⟨S4x1x256x256, .i32⟩
  | 46 => ⟨S4x1x256x256, .i32⟩
  | 47 => ⟨S4x1x256x256, .i32⟩
  | 48 => ⟨S262144, .i32⟩
  | 49 => ⟨S262144, .f32⟩
  | 50 => ⟨S262144, .i1⟩
  | 51 => ⟨S262144, .i1⟩
  | 52 => ⟨S262144, .i1⟩
  | 53 => ⟨S262144, .i1⟩
  | 54 => ⟨S262144, .i1⟩
  | 55 => ⟨S262144, .i1⟩
  | 56 => ⟨S262144, .i1⟩
  | 57 => ⟨S262144, .i1⟩
  | 58 => ⟨S262144, .i1⟩
  | 59 => ⟨S262144, .i1⟩
  | 60 => ⟨S262144, .i1⟩
  | 61 => ⟨S262144, .i1⟩
  | 62 => ⟨S262144, .i1⟩
  | 63 => ⟨S262144, .i1⟩
  | 64 => ⟨S262144, .i1⟩
  | 65 => ⟨S262144, .i1⟩
  | 66 => ⟨S262144, .i1⟩
  | 67 => ⟨S262144, .i1⟩
  | 68 => ⟨S262144, .i1⟩
  | 69 => ⟨S262144, .i1⟩
  | 70 => ⟨S262144, .i1⟩
  | 71 => ⟨S262144, .i1⟩
  | 72 => ⟨S262144, .i1⟩
  | 73 => ⟨S262144, .i1⟩
  | 74 => ⟨S262144, .i1⟩
  | 75 => ⟨S262144, .i1⟩
  | 76 => ⟨S262144, .i1⟩
  | 77 => ⟨S262144, .i1⟩
  | 78 => ⟨S262144, .i1⟩
  | 79 => ⟨S262144, .i1⟩
  | 80 => ⟨S262144, .i1⟩
  | 81 => ⟨S262144, .i1⟩
  | 82 => ⟨S262144, .i1⟩
  | 83 => ⟨S262144, .i1⟩
  | 84 => ⟨S262144, .i1⟩
  | 85 => ⟨S262144, .i1⟩
  | 86 => ⟨S262144, .i1⟩
  | 87 => ⟨S262144, .i1⟩
  | 88 => ⟨S262144, .i1⟩
  | 89 => ⟨S262144, .i1⟩
  | 90 => ⟨S262144, .i1⟩
  | 91 => ⟨S262144, .i1⟩
  | 92 => ⟨S262144, .i1⟩
  | 93 => ⟨S262144, .i1⟩
  | 94 => ⟨S262144, .i1⟩
  | 95 => ⟨S262144, .i1⟩
  | 96 => ⟨S262144, .i1⟩
  | 97 => ⟨S262144, .i1⟩
  | 98 => ⟨S262144, .i1⟩
  | 99 => ⟨S262144, .i1⟩
  | 100 => ⟨S262144, .i1⟩
  | 101 => ⟨S262144, .i1⟩
  | 102 => ⟨S262144, .i1⟩
  | 103 => ⟨S262144, .i1⟩
  | 104 => ⟨S262144, .i1⟩
  | 105 => ⟨S262144, .i1⟩
  | 106 => ⟨S262144, .i1⟩
  | 107 => ⟨S262144, .i1⟩
  | 108 => ⟨S262144, .i1⟩
  | 109 => ⟨S262144, .i1⟩
  | 110 => ⟨S262144, .i1⟩
  | 111 => ⟨S262144, .i1⟩
  | 112 => ⟨S262144, .i1⟩
  | 113 => ⟨S262144, .i1⟩
  | 114 => ⟨S262144, .i1⟩
  | 115 => ⟨S262144, .i1⟩
  | 116 => ⟨S262144, .i1⟩
  | 117 => ⟨S262144, .i1⟩
  | 118 => ⟨S262144, .i1⟩
  | 119 => ⟨S262144, .i1⟩
  | 120 => ⟨S262144, .i1⟩
  | 121 => ⟨S262144, .i1⟩
  | 122 => ⟨S262144, .i1⟩
  | 123 => ⟨S262144, .i1⟩
  | 124 => ⟨S262144, .i1⟩
  | 125 => ⟨S262144, .i1⟩
  | 126 => ⟨S262144, .i1⟩
  | 127 => ⟨S262144, .i1⟩
  | _ => ⟨S4x1x257x257, .i32⟩

abbrev hbmTy0_2 (i : Nat) : BufTy := match i % 128 with
  | 0 => ⟨S262144, .i1⟩
  | 1 => ⟨S262144, .i1⟩
  | 2 => ⟨S262144, .i1⟩
  | 3 => ⟨S262144, .i1⟩
  | 4 => ⟨S262144, .i1⟩
  | 5 => ⟨S262144, .i1⟩
  | 6 => ⟨S262144, .i1⟩
  | 7 => ⟨S262144, .i1⟩
  | 8 => ⟨S262144, .i1⟩
  | 9 => ⟨S262144, .i1⟩
  | 10 => ⟨S262144, .i1⟩
  | 11 => ⟨S262144, .i1⟩
  | 12 => ⟨S262144, .i1⟩
  | 13 => ⟨S262144, .i1⟩
  | 14 => ⟨S262144, .i1⟩
  | 15 => ⟨S262144, .i1⟩
  | 16 => ⟨S262144, .i1⟩
  | 17 => ⟨S262144, .i1⟩
  | 18 => ⟨S262144, .i1⟩
  | 19 => ⟨S262144, .i1⟩
  | 20 => ⟨S262144, .i1⟩
  | 21 => ⟨S262144, .i1⟩
  | 22 => ⟨S262144, .i1⟩
  | 23 => ⟨S262144, .i1⟩
  | 24 => ⟨S262144, .i1⟩
  | 25 => ⟨S262144, .i1⟩
  | 26 => ⟨S262144, .i1⟩
  | 27 => ⟨S262144, .i1⟩
  | 28 => ⟨S262144, .i1⟩
  | 29 => ⟨S262144, .i1⟩
  | 30 => ⟨S262144, .i1⟩
  | 31 => ⟨S262144, .i1⟩
  | 32 => ⟨S262144, .i1⟩
  | 33 => ⟨S262144, .i1⟩
  | 34 => ⟨S262144, .i1⟩
  | 35 => ⟨S262144, .i1⟩
  | 36 => ⟨S262144, .i1⟩
  | 37 => ⟨S262144, .i1⟩
  | 38 => ⟨S262144, .i1⟩
  | 39 => ⟨S262144, .i1⟩
  | 40 => ⟨S262144, .i1⟩
  | 41 => ⟨S262144, .i1⟩
  | 42 => ⟨S262144, .i1⟩
  | 43 => ⟨S262144, .i1⟩
  | 44 => ⟨S262144, .i1⟩
  | 45 => ⟨S262144, .i1⟩
  | 46 => ⟨S262144, .i1⟩
  | 47 => ⟨S262144, .i1⟩
  | 48 => ⟨S262144, .i1⟩
  | 49 => ⟨S262144, .i1⟩
  | 50 => ⟨S262144, .i1⟩
  | 51 => ⟨S262144, .i1⟩
  | 52 => ⟨S262144, .i1⟩
  | 53 => ⟨S262144, .i1⟩
  | 54 => ⟨S262144, .i1⟩
  | 55 => ⟨S262144, .i1⟩
  | 56 => ⟨S262144, .i1⟩
  | 57 => ⟨S_, .f32⟩
  | 58 => ⟨S262144, .f32⟩
  | 59 => ⟨S262144, .f32⟩
  | 60 => ⟨S262144, .f32⟩
  | 61 => ⟨S262144, .f32⟩
  | 62 => ⟨S262144, .f32⟩
  | 63 => ⟨S_, .f32⟩
  | 64 => ⟨S262144, .f32⟩
  | 65 => ⟨S262144, .f32⟩
  | 66 => ⟨S262144, .f32⟩
  | 67 => ⟨S262144, .f32⟩
  | 68 => ⟨S262144, .f32⟩
  | 69 => ⟨S_, .f32⟩
  | 70 => ⟨S262144, .f32⟩
  | 71 => ⟨S262144, .f32⟩
  | 72 => ⟨S262144, .f32⟩
  | 73 => ⟨S262144, .f32⟩
  | 74 => ⟨S262144, .f32⟩
  | 75 => ⟨S_, .f32⟩
  | 76 => ⟨S262144, .f32⟩
  | 77 => ⟨S262144, .f32⟩
  | 78 => ⟨S262144, .f32⟩
  | 79 => ⟨S262144, .f32⟩
  | 80 => ⟨S262144, .f32⟩
  | 81 => ⟨S_, .f32⟩
  | 82 => ⟨S262144, .f32⟩
  | 83 => ⟨S262144, .f32⟩
  | 84 => ⟨S262144, .f32⟩
  | 85 => ⟨S262144, .f32⟩
  | 86 => ⟨S262144, .f32⟩
  | 87 => ⟨S_, .f32⟩
  | 88 => ⟨S262144, .f32⟩
  | 89 => ⟨S262144, .f32⟩
  | 90 => ⟨S262144, .f32⟩
  | 91 => ⟨S262144, .f32⟩
  | 92 => ⟨S262144, .f32⟩
  | 93 => ⟨S_, .f32⟩
  | 94 => ⟨S262144, .f32⟩
  | 95 => ⟨S262144, .f32⟩
  | 96 => ⟨S262144, .f32⟩
  | 97 => ⟨S262144, .f32⟩
  | 98 => ⟨S262144, .f32⟩
  | 99 => ⟨S_, .f32⟩
  | 100 => ⟨S262144, .f32⟩
  | 101 => ⟨S262144, .f32⟩
  | 102 => ⟨S262144, .f32⟩
  | 103 => ⟨S262144, .f32⟩
  | 104 => ⟨S262144, .f32⟩
  | 105 => ⟨S_, .f32⟩
  | 106 => ⟨S262144, .f32⟩
  | 107 => ⟨S262144, .f32⟩
  | 108 => ⟨S262144, .f32⟩
  | 109 => ⟨S262144, .f32⟩
  | 110 => ⟨S262144, .f32⟩
  | 111 => ⟨S_, .f32⟩
  | 112 => ⟨S262144, .f32⟩
  | 113 => ⟨S262144, .f32⟩
  | 114 => ⟨S262144, .f32⟩
  | 115 => ⟨S262144, .f32⟩
  | 116 => ⟨S262144, .f32⟩
  | 117 => ⟨S_, .f32⟩
  | 118 => ⟨S262144, .f32⟩
  | 119 => ⟨S262144, .f32⟩
  | 120 => ⟨S262144, .f32⟩
  | 121 => ⟨S262144, .f32⟩
  | 122 => ⟨S262144, .f32⟩
  | 123 => ⟨S_, .f32⟩
  | 124 => ⟨S262144, .f32⟩
  | 125 => ⟨S262144, .f32⟩
  | 126 => ⟨S262144, .f32⟩
  | 127 => ⟨S262144, .f32⟩
  | _ => ⟨S4x1x257x257, .i32⟩

abbrev hbmTy0_3 (i : Nat) : BufTy := match i % 128 with
  | 0 => ⟨S262144, .f32⟩
  | 1 => ⟨S_, .f32⟩
  | 2 => ⟨S262144, .f32⟩
  | 3 => ⟨S262144, .f32⟩
  | 4 => ⟨S262144, .f32⟩
  | 5 => ⟨S262144, .f32⟩
  | 6 => ⟨S262144, .f32⟩
  | 7 => ⟨S_, .f32⟩
  | 8 => ⟨S262144, .f32⟩
  | 9 => ⟨S262144, .f32⟩
  | 10 => ⟨S262144, .f32⟩
  | 11 => ⟨S262144, .f32⟩
  | 12 => ⟨S262144, .f32⟩
  | 13 => ⟨S_, .f32⟩
  | 14 => ⟨S262144, .f32⟩
  | 15 => ⟨S262144, .f32⟩
  | 16 => ⟨S262144, .f32⟩
  | 17 => ⟨S262144, .f32⟩
  | 18 => ⟨S262144, .f32⟩
  | 19 => ⟨S_, .f32⟩
  | 20 => ⟨S262144, .f32⟩
  | 21 => ⟨S262144, .f32⟩
  | 22 => ⟨S262144, .f32⟩
  | 23 => ⟨S262144, .f32⟩
  | 24 => ⟨S262144, .f32⟩
  | 25 => ⟨S_, .f32⟩
  | 26 => ⟨S262144, .f32⟩
  | 27 => ⟨S262144, .f32⟩
  | 28 => ⟨S262144, .f32⟩
  | 29 => ⟨S262144, .f32⟩
  | 30 => ⟨S262144, .f32⟩
  | 31 => ⟨S_, .f32⟩
  | 32 => ⟨S262144, .f32⟩
  | 33 => ⟨S262144, .f32⟩
  | 34 => ⟨S262144, .f32⟩
  | 35 => ⟨S262144, .f32⟩
  | 36 => ⟨S262144, .f32⟩
  | 37 => ⟨S_, .f32⟩
  | 38 => ⟨S262144, .f32⟩
  | 39 => ⟨S262144, .f32⟩
  | 40 => ⟨S262144, .f32⟩
  | 41 => ⟨S262144, .f32⟩
  | 42 => ⟨S262144, .f32⟩
  | 43 => ⟨S_, .f32⟩
  | 44 => ⟨S262144, .f32⟩
  | 45 => ⟨S262144, .f32⟩
  | 46 => ⟨S262144, .f32⟩
  | 47 => ⟨S262144, .f32⟩
  | 48 => ⟨S262144, .f32⟩
  | 49 => ⟨S_, .f32⟩
  | 50 => ⟨S262144, .f32⟩
  | 51 => ⟨S262144, .f32⟩
  | 52 => ⟨S262144, .f32⟩
  | 53 => ⟨S262144, .f32⟩
  | 54 => ⟨S262144, .f32⟩
  | 55 => ⟨S_, .f32⟩
  | 56 => ⟨S262144, .f32⟩
  | 57 => ⟨S262144, .f32⟩
  | 58 => ⟨S262144, .f32⟩
  | 59 => ⟨S262144, .f32⟩
  | 60 => ⟨S262144, .f32⟩
  | 61 => ⟨S_, .f32⟩
  | 62 => ⟨S262144, .f32⟩
  | 63 => ⟨S262144, .f32⟩
  | 64 => ⟨S262144, .f32⟩
  | 65 => ⟨S262144, .f32⟩
  | 66 => ⟨S262144, .f32⟩
  | 67 => ⟨S_, .f32⟩
  | 68 => ⟨S262144, .f32⟩
  | 69 => ⟨S262144, .f32⟩
  | 70 => ⟨S262144, .f32⟩
  | 71 => ⟨S262144, .f32⟩
  | 72 => ⟨S262144, .f32⟩
  | 73 => ⟨S_, .f32⟩
  | 74 => ⟨S262144, .f32⟩
  | 75 => ⟨S_, .f32⟩
  | 76 => ⟨S262144, .f32⟩
  | 77 => ⟨S_, .f32⟩
  | 78 => ⟨S262144, .f32⟩
  | 79 => ⟨S_, .f32⟩
  | 80 => ⟨S262144, .f32⟩
  | 81 => ⟨S_, .f32⟩
  | 82 => ⟨S262144, .f32⟩
  | 83 => ⟨S_, .f32⟩
  | 84 => ⟨S262144, .f32⟩
  | 85 => ⟨S_, .f32⟩
  | 86 => ⟨S262144, .f32⟩
  | 87 => ⟨S_, .f32⟩
  | 88 => ⟨S262144, .f32⟩
  | 89 => ⟨S_, .f32⟩
  | 90 => ⟨S262144, .f32⟩
  | 91 => ⟨S_, .f32⟩
  | 92 => ⟨S262144, .f32⟩
  | 93 => ⟨S_, .f32⟩
  | 94 => ⟨S262144, .f32⟩
  | 95 => ⟨S_, .f32⟩
  | 96 => ⟨S262144, .f32⟩
  | 97 => ⟨S_, .f32⟩
  | 98 => ⟨S262144, .f32⟩
  | 99 => ⟨S_, .f32⟩
  | 100 => ⟨S262144, .f32⟩
  | 101 => ⟨S_, .f32⟩
  | 102 => ⟨S262144, .f32⟩
  | 103 => ⟨S_, .f32⟩
  | 104 => ⟨S262144, .f32⟩
  | 105 => ⟨S262144, .f32⟩
  | 106 => ⟨S262144, .f32⟩
  | 107 => ⟨S262144, .f32⟩
  | 108 => ⟨S262144, .f32⟩
  | 109 => ⟨S262144, .f32⟩
  | 110 => ⟨S262144, .f32⟩
  | 111 => ⟨S262144, .f32⟩
  | 112 => ⟨S262144, .f32⟩
  | 113 => ⟨S262144, .f32⟩
  | 114 => ⟨S262144, .f32⟩
  | 115 => ⟨S262144, .f32⟩
  | 116 => ⟨S262144, .f32⟩
  | 117 => ⟨S262144, .f32⟩
  | 118 => ⟨S262144, .f32⟩
  | 119 => ⟨S262144, .f32⟩
  | 120 => ⟨S262144, .f32⟩
  | 121 => ⟨S262144, .f32⟩
  | 122 => ⟨S262144, .f32⟩
  | 123 => ⟨S262144, .f32⟩
  | 124 => ⟨S262144, .f32⟩
  | 125 => ⟨S262144, .f32⟩
  | 126 => ⟨S262144, .f32⟩
  | 127 => ⟨S262144, .f32⟩
  | _ => ⟨S4x1x257x257, .i32⟩

abbrev hbmTy0_4 (i : Nat) : BufTy := match i % 128 with
  | 0 => ⟨S262144, .f32⟩
  | 1 => ⟨S262144, .f32⟩
  | 2 => ⟨S262144, .f32⟩
  | 3 => ⟨S262144, .f32⟩
  | 4 => ⟨S262144, .f32⟩
  | 5 => ⟨S262144, .f32⟩
  | 6 => ⟨S262144, .f32⟩
  | 7 => ⟨S262144, .f32⟩
  | 8 => ⟨S262144, .f32⟩
  | 9 => ⟨S262144, .f32⟩
  | 10 => ⟨S262144, .f32⟩
  | 11 => ⟨S262144, .f32⟩
  | 12 => ⟨S262144, .f32⟩
  | 13 => ⟨S262144, .f32⟩
  | 14 => ⟨S262144, .f32⟩
  | 15 => ⟨S262144, .f32⟩
  | 16 => ⟨S262144, .f32⟩
  | 17 => ⟨S262144, .f32⟩
  | 18 => ⟨S262144, .f32⟩
  | 19 => ⟨S262144, .f32⟩
  | 20 => ⟨S262144, .f32⟩
  | 21 => ⟨S262144, .f32⟩
  | 22 => ⟨S262144, .f32⟩
  | 23 => ⟨S262144, .f32⟩
  | 24 => ⟨S262144, .f32⟩
  | 25 => ⟨S262144, .f32⟩
  | 26 => ⟨S262144, .f32⟩
  | 27 => ⟨S262144, .f32⟩
  | 28 => ⟨S262144, .f32⟩
  | 29 => ⟨S262144, .f32⟩
  | 30 => ⟨S262144, .f32⟩
  | 31 => ⟨S262144, .f32⟩
  | 32 => ⟨S262144, .f32⟩
  | 33 => ⟨S262144, .f32⟩
  | 34 => ⟨S262144, .f32⟩
  | 35 => ⟨S262144, .f32⟩
  | 36 => ⟨S262144, .f32⟩
  | 37 => ⟨S262144, .f32⟩
  | 38 => ⟨S262144, .f32⟩
  | 39 => ⟨S262144, .f32⟩
  | 40 => ⟨S262144, .f32⟩
  | 41 => ⟨S262144, .f32⟩
  | 42 => ⟨S262144, .f32⟩
  | 43 => ⟨S262144, .f32⟩
  | 44 => ⟨S262144, .f32⟩
  | 45 => ⟨S262144, .f32⟩
  | 46 => ⟨S262144, .f32⟩
  | 47 => ⟨S262144, .f32⟩
  | 48 => ⟨S262144, .f32⟩
  | 49 => ⟨S262144, .f32⟩
  | 50 => ⟨S262144, .f32⟩
  | 51 => ⟨S262144, .f32⟩
  | 52 => ⟨S262144, .f32⟩
  | 53 => ⟨S262144, .f32⟩
  | 54 => ⟨S262144, .f32⟩
  | 55 => ⟨S262144, .f32⟩
  | 56 => ⟨S262144, .f32⟩
  | 57 => ⟨S262144, .f32⟩
  | 58 => ⟨S262144, .f32⟩
  | 59 => ⟨S262144, .f32⟩
  | 60 => ⟨S262144, .f32⟩
  | 61 => ⟨S262144, .f32⟩
  | 62 => ⟨S262144, .f32⟩
  | 63 => ⟨S262144, .f32⟩
  | 64 => ⟨S262144, .f32⟩
  | 65 => ⟨S262144, .f32⟩
  | 66 => ⟨S262144, .f32⟩
  | 67 => ⟨S262144, .f32⟩
  | 68 => ⟨S262144, .f32⟩
  | 69 => ⟨S262144, .f32⟩
  | 70 => ⟨S262144, .f32⟩
  | 71 => ⟨S262144, .f32⟩
  | 72 => ⟨S262144, .f32⟩
  | 73 => ⟨S262144, .f32⟩
  | 74 => ⟨S262144, .f32⟩
  | 75 => ⟨S262144, .f32⟩
  | 76 => ⟨S262144, .f32⟩
  | 77 => ⟨S262144, .f32⟩
  | 78 => ⟨S262144, .f32⟩
  | 79 => ⟨S262144, .f32⟩
  | 80 => ⟨S262144, .f32⟩
  | 81 => ⟨S262144, .f32⟩
  | 82 => ⟨S262144, .f32⟩
  | 83 => ⟨S262144, .f32⟩
  | 84 => ⟨S262144, .f32⟩
  | 85 => ⟨S262144, .f32⟩
  | 86 => ⟨S262144, .f32⟩
  | 87 => ⟨S262144, .f32⟩
  | 88 => ⟨S262144, .f32⟩
  | 89 => ⟨S262144, .f32⟩
  | 90 => ⟨S262144, .f32⟩
  | 91 => ⟨S262144, .f32⟩
  | 92 => ⟨S262144, .f32⟩
  | 93 => ⟨S262144, .f32⟩
  | 94 => ⟨S262144, .f32⟩
  | 95 => ⟨S262144, .f32⟩
  | 96 => ⟨S262144, .f32⟩
  | 97 => ⟨S262144, .f32⟩
  | 98 => ⟨S262144, .f32⟩
  | 99 => ⟨S262144, .f32⟩
  | 100 => ⟨S262144, .f32⟩
  | 101 => ⟨S262144, .f32⟩
  | 102 => ⟨S262144, .f32⟩
  | 103 => ⟨S262144, .f32⟩
  | 104 => ⟨S262144, .f32⟩
  | 105 => ⟨S262144, .f32⟩
  | 106 => ⟨S262144, .f32⟩
  | 107 => ⟨S262144, .f32⟩
  | 108 => ⟨S262144, .f32⟩
  | 109 => ⟨S262144, .f32⟩
  | 110 => ⟨S262144, .f32⟩
  | 111 => ⟨S262144, .f32⟩
  | 112 => ⟨S262144, .f32⟩
  | 113 => ⟨S262144, .f32⟩
  | 114 => ⟨S262144, .f32⟩
  | 115 => ⟨S262144, .f32⟩
  | 116 => ⟨S262144, .f32⟩
  | 117 => ⟨S262144, .f32⟩
  | 118 => ⟨S262144, .f32⟩
  | 119 => ⟨S262144, .f32⟩
  | 120 => ⟨S262144, .f32⟩
  | 121 => ⟨S262144, .f32⟩
  | 122 => ⟨S262144, .f32⟩
  | 123 => ⟨S262144, .f32⟩
  | 124 => ⟨S262144, .f32⟩
  | 125 => ⟨S262144, .f32⟩
  | 126 => ⟨S262144, .f32⟩
  | 127 => ⟨S262144, .f32⟩
  | _ => ⟨S4x1x257x257, .i32⟩

abbrev hbmTy0_5 (i : Nat) : BufTy := match i % 128 with
  | 0 => ⟨S262144, .f32⟩
  | 1 => ⟨S262144, .f32⟩
  | 2 => ⟨S262144, .f32⟩
  | 3 => ⟨S262144, .f32⟩
  | 4 => ⟨S262144, .f32⟩
  | 5 => ⟨S262144, .f32⟩
  | 6 => ⟨S262144, .f32⟩
  | 7 => ⟨S262144, .f32⟩
  | 8 => ⟨S262144, .f32⟩
  | 9 => ⟨S262144, .f32⟩
  | 10 => ⟨S262144, .f32⟩
  | 11 => ⟨S262144, .f32⟩
  | 12 => ⟨S262144, .f32⟩
  | 13 => ⟨S262144, .f32⟩
  | 14 => ⟨S262144, .f32⟩
  | 15 => ⟨S262144, .f32⟩
  | 16 => ⟨S262144, .f32⟩
  | 17 => ⟨S262144, .f32⟩
  | 18 => ⟨S262144, .f32⟩
  | 19 => ⟨S262144, .f32⟩
  | 20 => ⟨S262144, .f32⟩
  | 21 => ⟨S262144, .f32⟩
  | 22 => ⟨S262144, .f32⟩
  | 23 => ⟨S262144, .f32⟩
  | 24 => ⟨S262144, .f32⟩
  | 25 => ⟨S262144, .f32⟩
  | 26 => ⟨S262144, .f32⟩
  | 27 => ⟨S262144, .f32⟩
  | 28 => ⟨S262144, .f32⟩
  | 29 => ⟨S262144, .f32⟩
  | 30 => ⟨S262144, .f32⟩
  | 31 => ⟨S262144, .f32⟩
  | 32 => ⟨S262144, .f32⟩
  | 33 => ⟨S262144, .f32⟩
  | 34 => ⟨S262144, .f32⟩
  | 35 => ⟨S262144, .f32⟩
  | 36 => ⟨S262144, .f32⟩
  | 37 => ⟨S262144, .f32⟩
  | 38 => ⟨S262144, .f32⟩
  | 39 => ⟨S262144, .f32⟩
  | 40 => ⟨S262144, .f32⟩
  | 41 => ⟨S262144, .f32⟩
  | 42 => ⟨S262144, .f32⟩
  | 43 => ⟨S262144, .f32⟩
  | 44 => ⟨S262144, .f32⟩
  | 45 => ⟨S262144, .f32⟩
  | 46 => ⟨S262144, .f32⟩
  | 47 => ⟨S262144, .f32⟩
  | 48 => ⟨S262144, .f32⟩
  | 49 => ⟨S262144, .f32⟩
  | 50 => ⟨S262144, .f32⟩
  | 51 => ⟨S262144, .f32⟩
  | 52 => ⟨S262144, .f32⟩
  | 53 => ⟨S262144, .f32⟩
  | 54 => ⟨S262144, .f32⟩
  | 55 => ⟨S262144, .f32⟩
  | 56 => ⟨S262144, .f32⟩
  | 57 => ⟨S262144, .f32⟩
  | 58 => ⟨S262144, .f32⟩
  | 59 => ⟨S262144, .f32⟩
  | 60 => ⟨S262144, .f32⟩
  | 61 => ⟨S262144, .f32⟩
  | 62 => ⟨S262144, .f32⟩
  | 63 => ⟨S262144, .f32⟩
  | 64 => ⟨S262144, .f32⟩
  | 65 => ⟨S262144, .f32⟩
  | 66 => ⟨S262144, .f32⟩
  | 67 => ⟨S262144, .f32⟩
  | 68 => ⟨S262144, .f32⟩
  | 69 => ⟨S262144, .f32⟩
  | 70 => ⟨S262144, .f32⟩
  | 71 => ⟨S262144, .f32⟩
  | 72 => ⟨S262144, .f32⟩
  | 73 => ⟨S262144, .f32⟩
  | 74 => ⟨S262144, .f32⟩
  | 75 => ⟨S262144, .f32⟩
  | 76 => ⟨S262144, .f32⟩
  | 77 => ⟨S262144, .f32⟩
  | 78 => ⟨S262144, .f32⟩
  | 79 => ⟨S262144, .f32⟩
  | 80 => ⟨S262144, .f32⟩
  | 81 => ⟨S262144, .f32⟩
  | 82 => ⟨S262144, .f32⟩
  | 83 => ⟨S262144, .f32⟩
  | 84 => ⟨S262144, .f32⟩
  | 85 => ⟨S262144, .f32⟩
  | 86 => ⟨S262144, .f32⟩
  | 87 => ⟨S262144, .f32⟩
  | 88 => ⟨S262144, .f32⟩
  | 89 => ⟨S262144, .f32⟩
  | 90 => ⟨S262144, .f32⟩
  | 91 => ⟨S262144, .f32⟩
  | 92 => ⟨S262144, .f32⟩
  | 93 => ⟨S262144, .f32⟩
  | 94 => ⟨S262144, .f32⟩
  | 95 => ⟨S262144, .f32⟩
  | 96 => ⟨S262144, .f32⟩
  | 97 => ⟨S262144, .f32⟩
  | 98 => ⟨S262144, .f32⟩
  | 99 => ⟨S262144, .f32⟩
  | 100 => ⟨S262144, .f32⟩
  | 101 => ⟨S262144, .f32⟩
  | 102 => ⟨S262144, .f32⟩
  | 103 => ⟨S262144, .f32⟩
  | 104 => ⟨S262144, .f32⟩
  | 105 => ⟨S262144, .f32⟩
  | 106 => ⟨S262144, .f32⟩
  | 107 => ⟨S262144, .f32⟩
  | 108 => ⟨S262144, .f32⟩
  | 109 => ⟨S262144, .f32⟩
  | 110 => ⟨S262144, .f32⟩
  | 111 => ⟨S262144, .f32⟩
  | 112 => ⟨S262144, .f32⟩
  | 113 => ⟨S262144x1, .f32⟩
  | 114 => ⟨S262144x1, .f32⟩
  | 115 => ⟨S262144x1, .f32⟩
  | 116 => ⟨S262144x1, .f32⟩
  | 117 => ⟨S262144x1, .f32⟩
  | 118 => ⟨S262144x1, .f32⟩
  | 119 => ⟨S262144x1, .f32⟩
  | 120 => ⟨S262144x1, .f32⟩
  | 121 => ⟨S262144x1, .f32⟩
  | 122 => ⟨S262144x1, .f32⟩
  | 123 => ⟨S262144x1, .f32⟩
  | 124 => ⟨S262144x1, .f32⟩
  | 125 => ⟨S262144x1, .f32⟩
  | 126 => ⟨S262144x1, .f32⟩
  | 127 => ⟨S262144x1, .f32⟩
  | _ => ⟨S4x1x257x257, .i32⟩

abbrev hbmTy0_6 (i : Nat) : BufTy := match i % 128 with
  | 0 => ⟨S262144x1, .f32⟩
  | 1 => ⟨S262144x16, .f32⟩
  | 2 => ⟨S_, .f32⟩
  | 3 => ⟨S83521x16, .f32⟩
  | 4 => ⟨S83521x16, .f32⟩
  | 5 => ⟨S83521x16, .f32⟩
  | 6 => ⟨S_, .f32⟩
  | 7 => ⟨S_, .f32⟩
  | 8 => ⟨S_, .f32⟩
  | 9 => ⟨S83521x16, .f32⟩
  | 10 => ⟨S83521x16, .f32⟩
  | 11 => ⟨S_, .f32⟩
  | 12 => ⟨S83521x16, .f32⟩
  | 13 => ⟨S83521x16, .f32⟩
  | 14 => ⟨S_, .i32⟩
  | 15 => ⟨S262144, .i32⟩
  | 16 => ⟨S262144, .i32⟩
  | 17 => ⟨S_, .i32⟩
  | 18 => ⟨S262144, .i32⟩
  | 19 => ⟨S262144, .i32⟩
  | 20 => ⟨S_, .i32⟩
  | 21 => ⟨S262144, .i32⟩
  | 22 => ⟨S262144, .i32⟩
  | 23 => ⟨S_, .i32⟩
  | 24 => ⟨S262144, .i32⟩
  | 25 => ⟨S262144, .i32⟩
  | 26 => ⟨S262144, .i32⟩
  | 27 => ⟨S_, .i32⟩
  | 28 => ⟨S262144, .i32⟩
  | 29 => ⟨S262144, .i32⟩
  | 30 => ⟨S_, .i32⟩
  | 31 => ⟨S262144, .i32⟩
  | 32 => ⟨S262144, .i32⟩
  | 33 => ⟨S262144, .i32⟩
  | 34 => ⟨S_, .i32⟩
  | 35 => ⟨S262144, .i32⟩
  | 36 => ⟨S262144, .i32⟩
  | 37 => ⟨S262144, .i32⟩
  | 38 => ⟨S_, .i32⟩
  | 39 => ⟨S262144, .i32⟩
  | 40 => ⟨S262144, .i32⟩
  | 41 => ⟨S_, .i32⟩
  | 42 => ⟨S262144, .i32⟩
  | 43 => ⟨S262144, .i32⟩
  | 44 => ⟨S_, .i32⟩
  | 45 => ⟨S262144, .i32⟩
  | 46 => ⟨S262144, .i32⟩
  | 47 => ⟨S_, .i32⟩
  | 48 => ⟨S262144, .i32⟩
  | 49 => ⟨S262144, .i32⟩
  | 50 => ⟨S262144, .i32⟩
  | 51 => ⟨S_, .i32⟩
  | 52 => ⟨S262144, .i32⟩
  | 53 => ⟨S262144, .i32⟩
  | 54 => ⟨S_, .i32⟩
  | 55 => ⟨S262144, .i32⟩
  | 56 => ⟨S262144, .i32⟩
  | 57 => ⟨S262144, .i32⟩
  | 58 => ⟨S_, .i32⟩
  | 59 => ⟨S262144, .i32⟩
  | 60 => ⟨S262144, .i32⟩
  | 61 => ⟨S262144, .i32⟩
  | 62 => ⟨S_, .i32⟩
  | 63 => ⟨S262144, .i32⟩
  | 64 => ⟨S262144, .i32⟩
  | 65 => ⟨S_, .i32⟩
  | 66 => ⟨S262144, .i32⟩
  | 67 => ⟨S262144, .i32⟩
  | 68 => ⟨S_, .i32⟩
  | 69 => ⟨S262144, .i32⟩
  | 70 => ⟨S262144, .i32⟩
  | 71 => ⟨S_, .i32⟩
  | 72 => ⟨S262144, .i32⟩
  | 73 => ⟨S262144, .i32⟩
  | 74 => ⟨S262144, .i32⟩
  | 75 => ⟨S_, .i32⟩
  | 76 => ⟨S262144, .i32⟩
  | 77 => ⟨S262144, .i32⟩
  | 78 => ⟨S_, .i32⟩
  | 79 => ⟨S262144, .i32⟩
  | 80 => ⟨S262144, .i32⟩
  | 81 => ⟨S262144, .i32⟩
  | 82 => ⟨S_, .i32⟩
  | 83 => ⟨S262144, .i32⟩
  | 84 => ⟨S262144, .i32⟩
  | 85 => ⟨S262144, .i32⟩
  | 86 => ⟨S_, .i32⟩
  | 87 => ⟨S262144, .i32⟩
  | 88 => ⟨S262144, .i32⟩
  | 89 => ⟨S_, .i32⟩
  | 90 => ⟨S262144, .i32⟩
  | 91 => ⟨S262144, .i32⟩
  | 92 => ⟨S_, .i32⟩
  | 93 => ⟨S262144, .i32⟩
  | 94 => ⟨S262144, .i32⟩
  | 95 => ⟨S_, .i32⟩
  | 96 => ⟨S262144, .i32⟩
  | 97 => ⟨S262144, .i32⟩
  | 98 => ⟨S262144, .i32⟩
  | 99 => ⟨S_, .i32⟩
  | 100 => ⟨S262144, .i32⟩
  | 101 => ⟨S262144, .i32⟩
  | 102 => ⟨S_, .i32⟩
  | 103 => ⟨S262144, .i32⟩
  | 104 => ⟨S262144, .i32⟩
  | 105 => ⟨S262144, .i32⟩
  | 106 => ⟨S_, .i32⟩
  | 107 => ⟨S262144, .i32⟩
  | 108 => ⟨S262144, .i32⟩
  | 109 => ⟨S262144, .i32⟩
  | 110 => ⟨S_, .i32⟩
  | 111 => ⟨S262144, .i32⟩
  | 112 => ⟨S262144, .i32⟩
  | 113 => ⟨S_, .i32⟩
  | 114 => ⟨S262144, .i32⟩
  | 115 => ⟨S262144, .i32⟩
  | 116 => ⟨S_, .i32⟩
  | 117 => ⟨S262144, .i32⟩
  | 118 => ⟨S262144, .i32⟩
  | 119 => ⟨S_, .i32⟩
  | 120 => ⟨S262144, .i32⟩
  | 121 => ⟨S262144, .i32⟩
  | 122 => ⟨S262144, .i32⟩
  | 123 => ⟨S_, .i32⟩
  | 124 => ⟨S262144, .i32⟩
  | 125 => ⟨S262144, .i32⟩
  | 126 => ⟨S_, .i32⟩
  | 127 => ⟨S262144, .i32⟩
  | _ => ⟨S4x1x257x257, .i32⟩

abbrev hbmTy0_7 (i : Nat) : BufTy := match i % 128 with
  | 0 => ⟨S262144, .i32⟩
  | 1 => ⟨S262144, .i32⟩
  | 2 => ⟨S_, .i32⟩
  | 3 => ⟨S262144, .i32⟩
  | 4 => ⟨S262144, .i32⟩
  | 5 => ⟨S262144, .i32⟩
  | 6 => ⟨S_, .i32⟩
  | 7 => ⟨S262144, .i32⟩
  | 8 => ⟨S262144, .i32⟩
  | 9 => ⟨S_, .i32⟩
  | 10 => ⟨S262144, .i32⟩
  | 11 => ⟨S262144, .i32⟩
  | 12 => ⟨S_, .i32⟩
  | 13 => ⟨S262144, .i32⟩
  | 14 => ⟨S262144, .i32⟩
  | 15 => ⟨S_, .i32⟩
  | 16 => ⟨S262144, .i32⟩
  | 17 => ⟨S262144, .i32⟩
  | 18 => ⟨S262144, .i32⟩
  | 19 => ⟨S_, .i32⟩
  | 20 => ⟨S262144, .i32⟩
  | 21 => ⟨S262144, .i32⟩
  | 22 => ⟨S_, .i32⟩
  | 23 => ⟨S262144, .i32⟩
  | 24 => ⟨S262144, .i32⟩
  | 25 => ⟨S262144, .i32⟩
  | 26 => ⟨S_, .i32⟩
  | 27 => ⟨S262144, .i32⟩
  | 28 => ⟨S262144, .i32⟩
  | 29 => ⟨S262144, .i32⟩
  | 30 => ⟨S_, .i32⟩
  | 31 => ⟨S262144, .i32⟩
  | 32 => ⟨S262144, .i32⟩
  | 33 => ⟨S_, .i32⟩
  | 34 => ⟨S262144, .i32⟩
  | 35 => ⟨S262144, .i32⟩
  | 36 => ⟨S_, .i32⟩
  | 37 => ⟨S262144, .i32⟩
  | 38 => ⟨S262144, .i32⟩
  | 39 => ⟨S_, .i32⟩
  | 40 => ⟨S262144, .i32⟩
  | 41 => ⟨S262144, .i32⟩
  | 42 => ⟨S262144, .i32⟩
  | 43 => ⟨S_, .i32⟩
  | 44 => ⟨S262144, .i32⟩
  | 45 => ⟨S262144, .i32⟩
  | 46 => ⟨S_, .i32⟩
  | 47 => ⟨S262144, .i32⟩
  | 48 => ⟨S262144, .i32⟩
  | 49 => ⟨S262144, .i32⟩
  | 50 => ⟨S_, .i32⟩
  | 51 => ⟨S262144, .i32⟩
  | 52 => ⟨S262144, .i32⟩
  | 53 => ⟨S262144, .i32⟩
  | 54 => ⟨S_, .i32⟩
  | 55 => ⟨S262144, .i32⟩
  | 56 => ⟨S262144, .i32⟩
  | 57 => ⟨S_, .i32⟩
  | 58 => ⟨S262144, .i32⟩
  | 59 => ⟨S262144, .i32⟩
  | 60 => ⟨S_, .i32⟩
  | 61 => ⟨S262144, .i32⟩
  | 62 => ⟨S262144, .i32⟩
  | 63 => ⟨S_, .i32⟩
  | 64 => ⟨S262144, .i32⟩
  | 65 => ⟨S262144, .i32⟩
  | 66 => ⟨S262144, .i32⟩
  | 67 => ⟨S_, .i32⟩
  | 68 => ⟨S262144, .i32⟩
  | 69 => ⟨S262144, .i32⟩
  | 70 => ⟨S_, .i32⟩
  | 71 => ⟨S262144, .i32⟩
  | 72 => ⟨S262144, .i32⟩
  | 73 => ⟨S262144, .i32⟩
  | 74 => ⟨S_, .i32⟩
  | 75 => ⟨S262144, .i32⟩
  | 76 => ⟨S262144, .i32⟩
  | 77 => ⟨S262144, .i32⟩
  | 78 => ⟨S_, .i32⟩
  | 79 => ⟨S262144, .i32⟩
  | 80 => ⟨S262144, .i32⟩
  | 81 => ⟨S_, .i32⟩
  | 82 => ⟨S262144, .i32⟩
  | 83 => ⟨S262144, .i32⟩
  | 84 => ⟨S_, .i32⟩
  | 85 => ⟨S262144, .i32⟩
  | 86 => ⟨S262144, .i32⟩
  | 87 => ⟨S_, .i32⟩
  | 88 => ⟨S262144, .i32⟩
  | 89 => ⟨S262144, .i32⟩
  | 90 => ⟨S262144, .i32⟩
  | 91 => ⟨S_, .i32⟩
  | 92 => ⟨S262144, .i32⟩
  | 93 => ⟨S262144, .i32⟩
  | 94 => ⟨S_, .i32⟩
  | 95 => ⟨S262144, .i32⟩
  | 96 => ⟨S262144, .i32⟩
  | 97 => ⟨S262144, .i32⟩
  | 98 => ⟨S_, .i32⟩
  | 99 => ⟨S262144, .i32⟩
  | 100 => ⟨S262144, .i32⟩
  | 101 => ⟨S262144, .i32⟩
  | 102 => ⟨S_, .i32⟩
  | 103 => ⟨S262144, .i32⟩
  | 104 => ⟨S262144, .i32⟩
  | 105 => ⟨S_, .i32⟩
  | 106 => ⟨S262144, .i32⟩
  | 107 => ⟨S262144, .i32⟩
  | 108 => ⟨S_, .i32⟩
  | 109 => ⟨S262144, .i32⟩
  | 110 => ⟨S262144, .i32⟩
  | 111 => ⟨S_, .i32⟩
  | 112 => ⟨S262144, .i32⟩
  | 113 => ⟨S262144, .i32⟩
  | 114 => ⟨S262144, .i32⟩
  | 115 => ⟨S_, .i32⟩
  | 116 => ⟨S262144, .i32⟩
  | 117 => ⟨S262144, .i32⟩
  | 118 => ⟨S_, .i32⟩
  | 119 => ⟨S262144, .i32⟩
  | 120 => ⟨S262144, .i32⟩
  | 121 => ⟨S262144, .i32⟩
  | 122 => ⟨S_, .i32⟩
  | 123 => ⟨S262144, .i32⟩
  | 124 => ⟨S262144, .i32⟩
  | 125 => ⟨S262144, .i32⟩
  | 126 => ⟨S_, .i32⟩
  | 127 => ⟨S262144, .i32⟩
  | _ => ⟨S4x1x257x257, .i32⟩

abbrev hbmTy0_8 (i : Nat) : BufTy := match i % 128 with
  | 0 => ⟨S262144, .i32⟩
  | 1 => ⟨S_, .i32⟩
  | 2 => ⟨S262144, .i32⟩
  | 3 => ⟨S262144, .i32⟩
  | 4 => ⟨S_, .i32⟩
  | 5 => ⟨S262144, .i32⟩
  | 6 => ⟨S262144, .i32⟩
  | 7 => ⟨S_, .i32⟩
  | 8 => ⟨S262144, .i32⟩
  | 9 => ⟨S262144, .i32⟩
  | 10 => ⟨S262144, .i32⟩
  | 11 => ⟨S_, .i32⟩
  | 12 => ⟨S262144, .i32⟩
  | 13 => ⟨S262144, .i32⟩
  | 14 => ⟨S_, .i32⟩
  | 15 => ⟨S262144, .i32⟩
  | 16 => ⟨S262144, .i32⟩
  | 17 => ⟨S262144, .i32⟩
  | 18 => ⟨S_, .i32⟩
  | 19 => ⟨S262144, .i32⟩
  | 20 => ⟨S262144, .i32⟩
  | 21 => ⟨S262144, .i32⟩
  | 22 => ⟨S_, .i32⟩
  | 23 => ⟨S262144, .i32⟩
  | 24 => ⟨S262144, .i32⟩
  | 25 => ⟨S_, .i32⟩
  | 26 => ⟨S262144, .i32⟩
  | 27 => ⟨S262144, .i32⟩
  | 28 => ⟨S_, .i32⟩
  | 29 => ⟨S262144, .i32⟩
  | 30 => ⟨S262144, .i32⟩
  | 31 => ⟨S_, .i32⟩
  | 32 => ⟨S262144, .i32⟩
  | 33 => ⟨S262144, .i32⟩
  | 34 => ⟨S262144, .i32⟩
  | 35 => ⟨S_, .i32⟩
  | 36 => ⟨S262144, .i32⟩
  | 37 => ⟨S262144, .i32⟩
  | 38 => ⟨S_, .i32⟩
  | 39 => ⟨S262144, .i32⟩
  | 40 => ⟨S262144, .i32⟩
  | 41 => ⟨S262144, .i32⟩
  | 42 => ⟨S_, .i32⟩
  | 43 => ⟨S262144, .i32⟩
  | 44 => ⟨S262144, .i32⟩
  | 45 => ⟨S262144, .i32⟩
  | 46 => ⟨S_, .i32⟩
  | 47 => ⟨S262144, .i32⟩
  | 48 => ⟨S262144, .i32⟩
  | 49 => ⟨S_, .i32⟩
  | 50 => ⟨S262144, .i32⟩
  | 51 => ⟨S262144, .i32⟩
  | 52 => ⟨S_, .i32⟩
  | 53 => ⟨S262144, .i32⟩
  | 54 => ⟨S262144, .i32⟩
  | 55 => ⟨S_, .i32⟩
  | 56 => ⟨S262144, .i32⟩
  | 57 => ⟨S262144, .i32⟩
  | 58 => ⟨S262144, .i32⟩
  | 59 => ⟨S_, .i32⟩
  | 60 => ⟨S262144, .i32⟩
  | 61 => ⟨S262144, .i32⟩
  | 62 => ⟨S_, .i32⟩
  | 63 => ⟨S262144, .i32⟩
  | 64 => ⟨S262144, .i32⟩
  | 65 => ⟨S262144, .i32⟩
  | 66 => ⟨S_, .i32⟩
  | 67 => ⟨S262144, .i32⟩
  | 68 => ⟨S262144, .i32⟩
  | 69 => ⟨S262144, .i32⟩
  | 70 => ⟨S_, .i32⟩
  | 71 => ⟨S262144, .i32⟩
  | 72 => ⟨S262144, .i32⟩
  | 73 => ⟨S_, .i32⟩
  | 74 => ⟨S262144, .i32⟩
  | 75 => ⟨S262144, .i32⟩
  | 76 => ⟨S_, .i32⟩
  | 77 => ⟨S262144, .i32⟩
  | 78 => ⟨S262144, .i32⟩
  | 79 => ⟨S_, .i32⟩
  | 80 => ⟨S262144, .i32⟩
  | 81 => ⟨S262144, .i32⟩
  | 82 => ⟨S262144, .i32⟩
  | 83 => ⟨S_, .i32⟩
  | 84 => ⟨S262144, .i32⟩
  | 85 => ⟨S262144, .i32⟩
  | 86 => ⟨S_, .i32⟩
  | 87 => ⟨S262144, .i32⟩
  | 88 => ⟨S262144, .i32⟩
  | 89 => ⟨S262144, .i32⟩
  | 90 => ⟨S_, .i32⟩
  | 91 => ⟨S262144, .i32⟩
  | 92 => ⟨S262144, .i32⟩
  | 93 => ⟨S262144, .i32⟩
  | 94 => ⟨S_, .i32⟩
  | 95 => ⟨S262144, .i32⟩
  | 96 => ⟨S262144, .i32⟩
  | 97 => ⟨S_, .i32⟩
  | 98 => ⟨S262144, .i32⟩
  | 99 => ⟨S262144, .i32⟩
  | 100 => ⟨S_, .i32⟩
  | 101 => ⟨S262144, .i32⟩
  | 102 => ⟨S262144, .i32⟩
  | 103 => ⟨S_, .i32⟩
  | 104 => ⟨S262144, .i32⟩
  | 105 => ⟨S262144, .i32⟩
  | 106 => ⟨S262144, .i32⟩
  | 107 => ⟨S_, .i32⟩
  | 108 => ⟨S262144, .i32⟩
  | 109 => ⟨S262144, .i32⟩
  | 110 => ⟨S_, .i32⟩
  | 111 => ⟨S262144, .i32⟩
  | 112 => ⟨S262144, .i32⟩
  | 113 => ⟨S262144, .i32⟩
  | 114 => ⟨S_, .i32⟩
  | 115 => ⟨S262144, .i32⟩
  | 116 => ⟨S262144, .i32⟩
  | 117 => ⟨S262144, .i32⟩
  | 118 => ⟨S_, .i32⟩
  | 119 => ⟨S262144, .i32⟩
  | 120 => ⟨S262144, .i32⟩
  | 121 => ⟨S_, .i32⟩
  | 122 => ⟨S262144, .i32⟩
  | 123 => ⟨S262144, .i32⟩
  | 124 => ⟨S_, .i32⟩
  | 125 => ⟨S262144, .i32⟩
  | 126 => ⟨S262144, .i32⟩
  | 127 => ⟨S_, .i32⟩
  | _ => ⟨S4x1x257x257, .i32⟩

abbrev hbmTy0_9 (i : Nat) : BufTy := match i % 128 with
  | 0 => ⟨S262144, .i32⟩
  | 1 => ⟨S262144, .i32⟩
  | 2 => ⟨S262144, .i32⟩
  | 3 => ⟨S_, .i32⟩
  | 4 => ⟨S262144, .i32⟩
  | 5 => ⟨S262144, .i32⟩
  | 6 => ⟨S_, .i32⟩
  | 7 => ⟨S262144, .i32⟩
  | 8 => ⟨S262144, .i32⟩
  | 9 => ⟨S262144, .i32⟩
  | 10 => ⟨S_, .i32⟩
  | 11 => ⟨S262144, .i32⟩
  | 12 => ⟨S262144, .i32⟩
  | 13 => ⟨S262144, .i32⟩
  | 14 => ⟨S262144x1, .i32⟩
  | 15 => ⟨S262144x1, .i32⟩
  | 16 => ⟨S262144x1, .i32⟩
  | 17 => ⟨S262144x1, .i32⟩
  | 18 => ⟨S262144x1, .i32⟩
  | 19 => ⟨S262144x1, .i32⟩
  | 20 => ⟨S262144x1, .i32⟩
  | 21 => ⟨S262144x1, .i32⟩
  | 22 => ⟨S262144x1, .i32⟩
  | 23 => ⟨S262144x1, .i32⟩
  | 24 => ⟨S262144x1, .i32⟩
  | 25 => ⟨S262144x1, .i32⟩
  | 26 => ⟨S262144x1, .i32⟩
  | 27 => ⟨S262144x1, .i32⟩
  | 28 => ⟨S262144x1, .i32⟩
  | 29 => ⟨S262144x1, .i32⟩
  | 30 => ⟨S262144x16, .i32⟩
  | 31 => ⟨S_, .i32⟩
  | 32 => ⟨S262144x16, .i32⟩
  | 33 => ⟨S262144x16, .i1⟩
  | 34 => ⟨S_, .i32⟩
  | 35 => ⟨S262144x16, .i32⟩
  | 36 => ⟨S262144x16, .i32⟩
  | 37 => ⟨S262144x16, .i32⟩
  | 38 => ⟨S262144x16x1, .i32⟩
  | 39 => ⟨S1, .i32⟩
  | 40 => ⟨S_, .i32⟩
  | 41 => ⟨S262144x16x1, .i32⟩
  | 42 => ⟨S262144x16x1, .i1⟩
  | 43 => ⟨S1x1x1, .i32⟩
  | 44 => ⟨S262144x16x1, .i32⟩
  | 45 => ⟨S262144x16x1, .i1⟩
  | 46 => ⟨S262144x16x1, .i1⟩
  | 47 => ⟨S_, .i1⟩
  | 48 => ⟨S262144x16, .i1⟩
  | 49 => ⟨S262144x16x16, .f32⟩
  | 50 => ⟨S262144x16x16, .i1⟩
  | 51 => ⟨S_, .f32⟩
  | 52 => ⟨S262144x16x16, .f32⟩
  | 53 => ⟨S262144x16x16, .f32⟩
  | 54 => ⟨S262144x16, .f32⟩
  | 55 => ⟨S4x1x256x256x4x4, .f32⟩
  | 56 => ⟨S4x1x256x4x256x4, .f32⟩
  | 57 => ⟨S4x1x1024x1024, .f32⟩
  | _ => ⟨S4x1x257x257, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S4x1x257x257, .i32⟩

abbrev bufTy : (tb : Table) → Fin (tcTables nBuf tb) → BufTy
  | .hbm, ⟨i, _⟩ => hbmTy i
  | .local _ .vmem, ⟨0, _⟩ => ⟨S1024x16x16, .f32⟩
  | .local _ .vmem, ⟨1, _⟩ => ⟨S1024x16x16, .f32⟩
  | .local _ .vmem, ⟨2, _⟩ => ⟨S1024x16, .f32⟩
  | .local _ .vmem, ⟨3, _⟩ => ⟨S1024x16, .f32⟩
  | .local _ .vmem, ⟨4, _⟩ => ⟨S1024x16, .f32⟩
  | .local _ .vmem, ⟨5, _⟩ => ⟨S1024x16, .f32⟩
  | _, _ => ⟨S4x1x257x257, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_c : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_0 : Ref sig .tc := ⟨.hbm, 39, rfl⟩
abbrev main_call1_v12 : Ref sig .tc := ⟨.hbm, 40, rfl⟩
abbrev main_call1_v13 : Ref sig .tc := ⟨.hbm, 41, rfl⟩
abbrev main_v6 : Ref sig .tc := ⟨.hbm, 42, rfl⟩
abbrev main_v7 : Ref sig .tc := ⟨.hbm, 43, rfl⟩
abbrev main_c_1 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_v5 : Ref sig .tc := ⟨.hbm, 50, rfl⟩
abbrev main_call2_v6 : Ref sig .tc := ⟨.hbm, 51, rfl⟩
abbrev main_call2_v7 : Ref sig .tc := ⟨.hbm, 52, rfl⟩
abbrev main_call2_v8 : Ref sig .tc := ⟨.hbm, 53, rfl⟩
abbrev main_call2_c : Ref sig .tc := ⟨.hbm, 54, rfl⟩
abbrev main_call2_v9 : Ref sig .tc := ⟨.hbm, 55, rfl⟩
abbrev main_call2_v10 : Ref sig .tc := ⟨.hbm, 56, rfl⟩
abbrev main_call2_v11 : Ref sig .tc := ⟨.hbm, 57, rfl⟩
abbrev main_call2_c_0 : Ref sig .tc := ⟨.hbm, 58, rfl⟩
abbrev main_call2_v12 : Ref sig .tc := ⟨.hbm, 59, rfl⟩
abbrev main_call2_v13 : Ref sig .tc := ⟨.hbm, 60, rfl⟩
abbrev main_v8 : Ref sig .tc := ⟨.hbm, 61, rfl⟩
abbrev main_v9 : Ref sig .tc := ⟨.hbm, 62, rfl⟩
abbrev main_c_2 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_call3_v5 : Ref sig .tc := ⟨.hbm, 69, rfl⟩
abbrev main_call3_v6 : Ref sig .tc := ⟨.hbm, 70, rfl⟩
abbrev main_call3_v7 : Ref sig .tc := ⟨.hbm, 71, rfl⟩
abbrev main_call3_v8 : Ref sig .tc := ⟨.hbm, 72, rfl⟩
abbrev main_call3_c : Ref sig .tc := ⟨.hbm, 73, rfl⟩
abbrev main_call3_v9 : Ref sig .tc := ⟨.hbm, 74, rfl⟩
abbrev main_call3_v10 : Ref sig .tc := ⟨.hbm, 75, rfl⟩
abbrev main_call3_v11 : Ref sig .tc := ⟨.hbm, 76, rfl⟩
abbrev main_call3_c_0 : Ref sig .tc := ⟨.hbm, 77, rfl⟩
abbrev main_call3_v12 : Ref sig .tc := ⟨.hbm, 78, rfl⟩
abbrev main_call3_v13 : Ref sig .tc := ⟨.hbm, 79, rfl⟩
abbrev main_v10 : Ref sig .tc := ⟨.hbm, 80, rfl⟩
abbrev main_v11 : Ref sig .tc := ⟨.hbm, 81, rfl⟩
abbrev main_c_3 : Ref sig .tc := ⟨.hbm, 82, rfl⟩
abbrev main_call4_v0 : Ref sig .tc := ⟨.hbm, 83, rfl⟩
abbrev main_call4_c : Ref sig .tc := ⟨.hbm, 84, rfl⟩
abbrev main_call4_v1 : Ref sig .tc := ⟨.hbm, 85, rfl⟩
abbrev main_call4_c_0 : Ref sig .tc := ⟨.hbm, 86, rfl⟩
abbrev main_call4_v2 : Ref sig .tc := ⟨.hbm, 87, rfl⟩
abbrev main_call4_v3 : Ref sig .tc := ⟨.hbm, 88, rfl⟩
abbrev main_call4_v4 : Ref sig .tc := ⟨.hbm, 89, rfl⟩
abbrev main_call4_c_1 : Ref sig .tc := ⟨.hbm, 90, rfl⟩
abbrev main_call4_v5 : Ref sig .tc := ⟨.hbm, 91, rfl⟩
abbrev main_call4_v6 : Ref sig .tc := ⟨.hbm, 92, rfl⟩
abbrev main_call4_c_2 : Ref sig .tc := ⟨.hbm, 93, rfl⟩
abbrev main_call4_v7 : Ref sig .tc := ⟨.hbm, 94, rfl⟩
abbrev main_call4_v8 : Ref sig .tc := ⟨.hbm, 95, rfl⟩
abbrev main_call4_c_3 : Ref sig .tc := ⟨.hbm, 96, rfl⟩
abbrev main_call4_v9 : Ref sig .tc := ⟨.hbm, 97, rfl⟩
abbrev main_call4_v10 : Ref sig .tc := ⟨.hbm, 98, rfl⟩
abbrev main_call4_v11 : Ref sig .tc := ⟨.hbm, 99, rfl⟩
abbrev main_call4_v12 : Ref sig .tc := ⟨.hbm, 100, rfl⟩
abbrev main_call4_v13 : Ref sig .tc := ⟨.hbm, 101, rfl⟩
abbrev main_call4_v14 : Ref sig .tc := ⟨.hbm, 102, rfl⟩
abbrev main_v12 : Ref sig .tc := ⟨.hbm, 103, rfl⟩
abbrev main_v13 : Ref sig .tc := ⟨.hbm, 104, rfl⟩
abbrev main_v14 : Ref sig .tc := ⟨.hbm, 105, rfl⟩
abbrev main_c_4 : Ref sig .tc := ⟨.hbm, 106, rfl⟩
abbrev main_call5_v0 : Ref sig .tc := ⟨.hbm, 107, rfl⟩
abbrev main_call5_c : Ref sig .tc := ⟨.hbm, 108, rfl⟩
abbrev main_call5_v1 : Ref sig .tc := ⟨.hbm, 109, rfl⟩
abbrev main_call5_c_0 : Ref sig .tc := ⟨.hbm, 110, rfl⟩
abbrev main_call5_v2 : Ref sig .tc := ⟨.hbm, 111, rfl⟩
abbrev main_call5_v3 : Ref sig .tc := ⟨.hbm, 112, rfl⟩
abbrev main_call5_v4 : Ref sig .tc := ⟨.hbm, 113, rfl⟩
abbrev main_call5_c_1 : Ref sig .tc := ⟨.hbm, 114, rfl⟩
abbrev main_call5_v5 : Ref sig .tc := ⟨.hbm, 115, rfl⟩
abbrev main_call5_v6 : Ref sig .tc := ⟨.hbm, 116, rfl⟩
abbrev main_call5_c_2 : Ref sig .tc := ⟨.hbm, 117, rfl⟩
abbrev main_call5_v7 : Ref sig .tc := ⟨.hbm, 118, rfl⟩
abbrev main_call5_v8 : Ref sig .tc := ⟨.hbm, 119, rfl⟩
abbrev main_call5_c_3 : Ref sig .tc := ⟨.hbm, 120, rfl⟩
abbrev main_call5_v9 : Ref sig .tc := ⟨.hbm, 121, rfl⟩
abbrev main_call5_v10 : Ref sig .tc := ⟨.hbm, 122, rfl⟩
abbrev main_call5_v11 : Ref sig .tc := ⟨.hbm, 123, rfl⟩
abbrev main_call5_v12 : Ref sig .tc := ⟨.hbm, 124, rfl⟩
abbrev main_call5_v13 : Ref sig .tc := ⟨.hbm, 125, rfl⟩
abbrev main_call5_v14 : Ref sig .tc := ⟨.hbm, 126, rfl⟩
abbrev main_v15 : Ref sig .tc := ⟨.hbm, 127, rfl⟩
abbrev main_v16 : Ref sig .tc := ⟨.hbm, 128, rfl⟩
abbrev main_v17 : Ref sig .tc := ⟨.hbm, 129, rfl⟩
abbrev main_c_5 : Ref sig .tc := ⟨.hbm, 130, rfl⟩
abbrev main_call6_v0 : Ref sig .tc := ⟨.hbm, 131, rfl⟩
abbrev main_call6_c : Ref sig .tc := ⟨.hbm, 132, rfl⟩
abbrev main_call6_v1 : Ref sig .tc := ⟨.hbm, 133, rfl⟩
abbrev main_call6_c_0 : Ref sig .tc := ⟨.hbm, 134, rfl⟩
abbrev main_call6_v2 : Ref sig .tc := ⟨.hbm, 135, rfl⟩
abbrev main_call6_v3 : Ref sig .tc := ⟨.hbm, 136, rfl⟩
abbrev main_call6_v4 : Ref sig .tc := ⟨.hbm, 137, rfl⟩
abbrev main_call6_c_1 : Ref sig .tc := ⟨.hbm, 138, rfl⟩
abbrev main_call6_v5 : Ref sig .tc := ⟨.hbm, 139, rfl⟩
abbrev main_call6_v6 : Ref sig .tc := ⟨.hbm, 140, rfl⟩
abbrev main_call6_c_2 : Ref sig .tc := ⟨.hbm, 141, rfl⟩
abbrev main_call6_v7 : Ref sig .tc := ⟨.hbm, 142, rfl⟩
abbrev main_call6_v8 : Ref sig .tc := ⟨.hbm, 143, rfl⟩
abbrev main_call6_c_3 : Ref sig .tc := ⟨.hbm, 144, rfl⟩
abbrev main_call6_v9 : Ref sig .tc := ⟨.hbm, 145, rfl⟩
abbrev main_call6_v10 : Ref sig .tc := ⟨.hbm, 146, rfl⟩
abbrev main_call6_v11 : Ref sig .tc := ⟨.hbm, 147, rfl⟩
abbrev main_call6_v12 : Ref sig .tc := ⟨.hbm, 148, rfl⟩
abbrev main_call6_v13 : Ref sig .tc := ⟨.hbm, 149, rfl⟩
abbrev main_call6_v14 : Ref sig .tc := ⟨.hbm, 150, rfl⟩
abbrev main_v18 : Ref sig .tc := ⟨.hbm, 151, rfl⟩
abbrev main_v19 : Ref sig .tc := ⟨.hbm, 152, rfl⟩
abbrev main_v20 : Ref sig .tc := ⟨.hbm, 153, rfl⟩
abbrev main_c_6 : Ref sig .tc := ⟨.hbm, 154, rfl⟩
abbrev main_call7_v0 : Ref sig .tc := ⟨.hbm, 155, rfl⟩
abbrev main_call7_c : Ref sig .tc := ⟨.hbm, 156, rfl⟩
abbrev main_call7_v1 : Ref sig .tc := ⟨.hbm, 157, rfl⟩
abbrev main_call7_c_0 : Ref sig .tc := ⟨.hbm, 158, rfl⟩
abbrev main_call7_v2 : Ref sig .tc := ⟨.hbm, 159, rfl⟩
abbrev main_call7_v3 : Ref sig .tc := ⟨.hbm, 160, rfl⟩
abbrev main_call7_v4 : Ref sig .tc := ⟨.hbm, 161, rfl⟩
abbrev main_call7_c_1 : Ref sig .tc := ⟨.hbm, 162, rfl⟩
abbrev main_call7_v5 : Ref sig .tc := ⟨.hbm, 163, rfl⟩
abbrev main_call7_v6 : Ref sig .tc := ⟨.hbm, 164, rfl⟩
abbrev main_call7_c_2 : Ref sig .tc := ⟨.hbm, 165, rfl⟩
abbrev main_call7_v7 : Ref sig .tc := ⟨.hbm, 166, rfl⟩
abbrev main_call7_v8 : Ref sig .tc := ⟨.hbm, 167, rfl⟩
abbrev main_call7_c_3 : Ref sig .tc := ⟨.hbm, 168, rfl⟩
abbrev main_call7_v9 : Ref sig .tc := ⟨.hbm, 169, rfl⟩
abbrev main_call7_v10 : Ref sig .tc := ⟨.hbm, 170, rfl⟩
abbrev main_call7_v11 : Ref sig .tc := ⟨.hbm, 171, rfl⟩
abbrev main_call7_v12 : Ref sig .tc := ⟨.hbm, 172, rfl⟩
abbrev main_call7_v13 : Ref sig .tc := ⟨.hbm, 173, rfl⟩
abbrev main_call7_v14 : Ref sig .tc := ⟨.hbm, 174, rfl⟩
abbrev main_v21 : Ref sig .tc := ⟨.hbm, 175, rfl⟩
abbrev main_v22 : Ref sig .tc := ⟨.hbm, 176, rfl⟩
abbrev main_v23 : Ref sig .tc := ⟨.hbm, 177, rfl⟩
abbrev main_v24 : Ref sig .tc := ⟨.hbm, 178, rfl⟩
abbrev main_v25 : Ref sig .tc := ⟨.hbm, 179, rfl⟩
abbrev main_v26 : Ref sig .tc := ⟨.hbm, 180, rfl⟩
abbrev main_v27 : Ref sig .tc := ⟨.hbm, 181, rfl⟩
abbrev main_v28 : Ref sig .tc := ⟨.hbm, 182, rfl⟩
abbrev main_v29 : Ref sig .tc := ⟨.hbm, 183, rfl⟩
abbrev main_v30 : Ref sig .tc := ⟨.hbm, 184, rfl⟩
abbrev main_v31 : Ref sig .tc := ⟨.hbm, 185, rfl⟩
abbrev main_v32 : Ref sig .tc := ⟨.hbm, 186, rfl⟩
abbrev main_v33 : Ref sig .tc := ⟨.hbm, 187, rfl⟩
abbrev main_v34 : Ref sig .tc := ⟨.hbm, 188, rfl⟩
abbrev main_v35 : Ref sig .tc := ⟨.hbm, 189, rfl⟩
abbrev main_v36 : Ref sig .tc := ⟨.hbm, 190, rfl⟩
abbrev main_v37 : Ref sig .tc := ⟨.hbm, 191, rfl⟩
abbrev main_v38 : Ref sig .tc := ⟨.hbm, 192, rfl⟩
abbrev main_v39 : Ref sig .tc := ⟨.hbm, 193, rfl⟩
abbrev main_v40 : Ref sig .tc := ⟨.hbm, 194, rfl⟩
abbrev main_v41 : Ref sig .tc := ⟨.hbm, 195, rfl⟩
abbrev main_v42 : Ref sig .tc := ⟨.hbm, 196, rfl⟩
abbrev main_v43 : Ref sig .tc := ⟨.hbm, 197, rfl⟩
abbrev main_v44 : Ref sig .tc := ⟨.hbm, 198, rfl⟩
abbrev main_v45 : Ref sig .tc := ⟨.hbm, 199, rfl⟩
abbrev main_v46 : Ref sig .tc := ⟨.hbm, 200, rfl⟩
abbrev main_v47 : Ref sig .tc := ⟨.hbm, 201, rfl⟩
abbrev main_v48 : Ref sig .tc := ⟨.hbm, 202, rfl⟩
abbrev main_v49 : Ref sig .tc := ⟨.hbm, 203, rfl⟩
abbrev main_v50 : Ref sig .tc := ⟨.hbm, 204, rfl⟩
abbrev main_v51 : Ref sig .tc := ⟨.hbm, 205, rfl⟩
abbrev main_v52 : Ref sig .tc := ⟨.hbm, 206, rfl⟩
abbrev main_v53 : Ref sig .tc := ⟨.hbm, 207, rfl⟩
abbrev main_v54 : Ref sig .tc := ⟨.hbm, 208, rfl⟩
abbrev main_v55 : Ref sig .tc := ⟨.hbm, 209, rfl⟩
abbrev main_v56 : Ref sig .tc := ⟨.hbm, 210, rfl⟩
abbrev main_v57 : Ref sig .tc := ⟨.hbm, 211, rfl⟩
abbrev main_v58 : Ref sig .tc := ⟨.hbm, 212, rfl⟩
abbrev main_v59 : Ref sig .tc := ⟨.hbm, 213, rfl⟩
abbrev main_v60 : Ref sig .tc := ⟨.hbm, 214, rfl⟩
abbrev main_v61 : Ref sig .tc := ⟨.hbm, 215, rfl⟩
abbrev main_v62 : Ref sig .tc := ⟨.hbm, 216, rfl⟩
abbrev main_v63 : Ref sig .tc := ⟨.hbm, 217, rfl⟩
abbrev main_v64 : Ref sig .tc := ⟨.hbm, 218, rfl⟩
abbrev main_v65 : Ref sig .tc := ⟨.hbm, 219, rfl⟩
abbrev main_v66 : Ref sig .tc := ⟨.hbm, 220, rfl⟩
abbrev main_v67 : Ref sig .tc := ⟨.hbm, 221, rfl⟩
abbrev main_v68 : Ref sig .tc := ⟨.hbm, 222, rfl⟩
abbrev main_v69 : Ref sig .tc := ⟨.hbm, 223, rfl⟩
abbrev main_v70 : Ref sig .tc := ⟨.hbm, 224, rfl⟩
abbrev main_v71 : Ref sig .tc := ⟨.hbm, 225, rfl⟩
abbrev main_v72 : Ref sig .tc := ⟨.hbm, 226, rfl⟩
abbrev main_v73 : Ref sig .tc := ⟨.hbm, 227, rfl⟩
abbrev main_v74 : Ref sig .tc := ⟨.hbm, 228, rfl⟩
abbrev main_v75 : Ref sig .tc := ⟨.hbm, 229, rfl⟩
abbrev main_v76 : Ref sig .tc := ⟨.hbm, 230, rfl⟩
abbrev main_v77 : Ref sig .tc := ⟨.hbm, 231, rfl⟩
abbrev main_v78 : Ref sig .tc := ⟨.hbm, 232, rfl⟩
abbrev main_v79 : Ref sig .tc := ⟨.hbm, 233, rfl⟩
abbrev main_v80 : Ref sig .tc := ⟨.hbm, 234, rfl⟩
abbrev main_v81 : Ref sig .tc := ⟨.hbm, 235, rfl⟩
abbrev main_v82 : Ref sig .tc := ⟨.hbm, 236, rfl⟩
abbrev main_v83 : Ref sig .tc := ⟨.hbm, 237, rfl⟩
abbrev main_v84 : Ref sig .tc := ⟨.hbm, 238, rfl⟩
abbrev main_v85 : Ref sig .tc := ⟨.hbm, 239, rfl⟩
abbrev main_v86 : Ref sig .tc := ⟨.hbm, 240, rfl⟩
abbrev main_v87 : Ref sig .tc := ⟨.hbm, 241, rfl⟩
abbrev main_v88 : Ref sig .tc := ⟨.hbm, 242, rfl⟩
abbrev main_v89 : Ref sig .tc := ⟨.hbm, 243, rfl⟩
abbrev main_v90 : Ref sig .tc := ⟨.hbm, 244, rfl⟩
abbrev main_v91 : Ref sig .tc := ⟨.hbm, 245, rfl⟩
abbrev main_v92 : Ref sig .tc := ⟨.hbm, 246, rfl⟩
abbrev main_v93 : Ref sig .tc := ⟨.hbm, 247, rfl⟩
abbrev main_v94 : Ref sig .tc := ⟨.hbm, 248, rfl⟩
abbrev main_v95 : Ref sig .tc := ⟨.hbm, 249, rfl⟩
abbrev main_v96 : Ref sig .tc := ⟨.hbm, 250, rfl⟩
abbrev main_v97 : Ref sig .tc := ⟨.hbm, 251, rfl⟩
abbrev main_v98 : Ref sig .tc := ⟨.hbm, 252, rfl⟩
abbrev main_v99 : Ref sig .tc := ⟨.hbm, 253, rfl⟩
abbrev main_v100 : Ref sig .tc := ⟨.hbm, 254, rfl⟩
abbrev main_v101 : Ref sig .tc := ⟨.hbm, 255, rfl⟩
abbrev main_v102 : Ref sig .tc := ⟨.hbm, 256, rfl⟩
abbrev main_v103 : Ref sig .tc := ⟨.hbm, 257, rfl⟩
abbrev main_v104 : Ref sig .tc := ⟨.hbm, 258, rfl⟩
abbrev main_v105 : Ref sig .tc := ⟨.hbm, 259, rfl⟩
abbrev main_v106 : Ref sig .tc := ⟨.hbm, 260, rfl⟩
abbrev main_v107 : Ref sig .tc := ⟨.hbm, 261, rfl⟩
abbrev main_v108 : Ref sig .tc := ⟨.hbm, 262, rfl⟩
abbrev main_v109 : Ref sig .tc := ⟨.hbm, 263, rfl⟩
abbrev main_v110 : Ref sig .tc := ⟨.hbm, 264, rfl⟩
abbrev main_v111 : Ref sig .tc := ⟨.hbm, 265, rfl⟩
abbrev main_v112 : Ref sig .tc := ⟨.hbm, 266, rfl⟩
abbrev main_v113 : Ref sig .tc := ⟨.hbm, 267, rfl⟩
abbrev main_v114 : Ref sig .tc := ⟨.hbm, 268, rfl⟩
abbrev main_v115 : Ref sig .tc := ⟨.hbm, 269, rfl⟩
abbrev main_v116 : Ref sig .tc := ⟨.hbm, 270, rfl⟩
abbrev main_v117 : Ref sig .tc := ⟨.hbm, 271, rfl⟩
abbrev main_v118 : Ref sig .tc := ⟨.hbm, 272, rfl⟩
abbrev main_v119 : Ref sig .tc := ⟨.hbm, 273, rfl⟩
abbrev main_v120 : Ref sig .tc := ⟨.hbm, 274, rfl⟩
abbrev main_v121 : Ref sig .tc := ⟨.hbm, 275, rfl⟩
abbrev main_v122 : Ref sig .tc := ⟨.hbm, 276, rfl⟩
abbrev main_v123 : Ref sig .tc := ⟨.hbm, 277, rfl⟩
abbrev main_v124 : Ref sig .tc := ⟨.hbm, 278, rfl⟩
abbrev main_v125 : Ref sig .tc := ⟨.hbm, 279, rfl⟩
abbrev main_v126 : Ref sig .tc := ⟨.hbm, 280, rfl⟩
abbrev main_v127 : Ref sig .tc := ⟨.hbm, 281, rfl⟩
abbrev main_v128 : Ref sig .tc := ⟨.hbm, 282, rfl⟩
abbrev main_v129 : Ref sig .tc := ⟨.hbm, 283, rfl⟩
abbrev main_v130 : Ref sig .tc := ⟨.hbm, 284, rfl⟩
abbrev main_v131 : Ref sig .tc := ⟨.hbm, 285, rfl⟩
abbrev main_v132 : Ref sig .tc := ⟨.hbm, 286, rfl⟩
abbrev main_v133 : Ref sig .tc := ⟨.hbm, 287, rfl⟩
abbrev main_v134 : Ref sig .tc := ⟨.hbm, 288, rfl⟩
abbrev main_v135 : Ref sig .tc := ⟨.hbm, 289, rfl⟩
abbrev main_v136 : Ref sig .tc := ⟨.hbm, 290, rfl⟩
abbrev main_v137 : Ref sig .tc := ⟨.hbm, 291, rfl⟩
abbrev main_v138 : Ref sig .tc := ⟨.hbm, 292, rfl⟩
abbrev main_v139 : Ref sig .tc := ⟨.hbm, 293, rfl⟩
abbrev main_v140 : Ref sig .tc := ⟨.hbm, 294, rfl⟩
abbrev main_v141 : Ref sig .tc := ⟨.hbm, 295, rfl⟩
abbrev main_v142 : Ref sig .tc := ⟨.hbm, 296, rfl⟩
abbrev main_v143 : Ref sig .tc := ⟨.hbm, 297, rfl⟩
abbrev main_v144 : Ref sig .tc := ⟨.hbm, 298, rfl⟩
abbrev main_v145 : Ref sig .tc := ⟨.hbm, 299, rfl⟩
abbrev main_v146 : Ref sig .tc := ⟨.hbm, 300, rfl⟩
abbrev main_v147 : Ref sig .tc := ⟨.hbm, 301, rfl⟩
abbrev main_v148 : Ref sig .tc := ⟨.hbm, 302, rfl⟩
abbrev main_v149 : Ref sig .tc := ⟨.hbm, 303, rfl⟩
abbrev main_v150 : Ref sig .tc := ⟨.hbm, 304, rfl⟩
abbrev main_v151 : Ref sig .tc := ⟨.hbm, 305, rfl⟩
abbrev main_v152 : Ref sig .tc := ⟨.hbm, 306, rfl⟩
abbrev main_v153 : Ref sig .tc := ⟨.hbm, 307, rfl⟩
abbrev main_v154 : Ref sig .tc := ⟨.hbm, 308, rfl⟩
abbrev main_v155 : Ref sig .tc := ⟨.hbm, 309, rfl⟩
abbrev main_v156 : Ref sig .tc := ⟨.hbm, 310, rfl⟩
abbrev main_v157 : Ref sig .tc := ⟨.hbm, 311, rfl⟩
abbrev main_v158 : Ref sig .tc := ⟨.hbm, 312, rfl⟩
abbrev main_cst : Ref sig .tc := ⟨.hbm, 313, rfl⟩
abbrev main_v159 : Ref sig .tc := ⟨.hbm, 314, rfl⟩
abbrev main_v160 : Ref sig .tc := ⟨.hbm, 315, rfl⟩
abbrev main_v161 : Ref sig .tc := ⟨.hbm, 316, rfl⟩
abbrev main_v162 : Ref sig .tc := ⟨.hbm, 317, rfl⟩
abbrev main_v163 : Ref sig .tc := ⟨.hbm, 318, rfl⟩
abbrev main_cst_7 : Ref sig .tc := ⟨.hbm, 319, rfl⟩
abbrev main_v164 : Ref sig .tc := ⟨.hbm, 320, rfl⟩
abbrev main_v165 : Ref sig .tc := ⟨.hbm, 321, rfl⟩
abbrev main_v166 : Ref sig .tc := ⟨.hbm, 322, rfl⟩
abbrev main_v167 : Ref sig .tc := ⟨.hbm, 323, rfl⟩
abbrev main_v168 : Ref sig .tc := ⟨.hbm, 324, rfl⟩
abbrev main_cst_8 : Ref sig .tc := ⟨.hbm, 325, rfl⟩
abbrev main_v169 : Ref sig .tc := ⟨.hbm, 326, rfl⟩
abbrev main_v170 : Ref sig .tc := ⟨.hbm, 327, rfl⟩
abbrev main_v171 : Ref sig .tc := ⟨.hbm, 328, rfl⟩
abbrev main_v172 : Ref sig .tc := ⟨.hbm, 329, rfl⟩
abbrev main_v173 : Ref sig .tc := ⟨.hbm, 330, rfl⟩
abbrev main_cst_9 : Ref sig .tc := ⟨.hbm, 331, rfl⟩
abbrev main_v174 : Ref sig .tc := ⟨.hbm, 332, rfl⟩
abbrev main_v175 : Ref sig .tc := ⟨.hbm, 333, rfl⟩
abbrev main_v176 : Ref sig .tc := ⟨.hbm, 334, rfl⟩
abbrev main_v177 : Ref sig .tc := ⟨.hbm, 335, rfl⟩
abbrev main_v178 : Ref sig .tc := ⟨.hbm, 336, rfl⟩
abbrev main_cst_10 : Ref sig .tc := ⟨.hbm, 337, rfl⟩
abbrev main_v179 : Ref sig .tc := ⟨.hbm, 338, rfl⟩
abbrev main_v180 : Ref sig .tc := ⟨.hbm, 339, rfl⟩
abbrev main_v181 : Ref sig .tc := ⟨.hbm, 340, rfl⟩
abbrev main_v182 : Ref sig .tc := ⟨.hbm, 341, rfl⟩
abbrev main_v183 : Ref sig .tc := ⟨.hbm, 342, rfl⟩
abbrev main_cst_11 : Ref sig .tc := ⟨.hbm, 343, rfl⟩
abbrev main_v184 : Ref sig .tc := ⟨.hbm, 344, rfl⟩
abbrev main_v185 : Ref sig .tc := ⟨.hbm, 345, rfl⟩
abbrev main_v186 : Ref sig .tc := ⟨.hbm, 346, rfl⟩
abbrev main_v187 : Ref sig .tc := ⟨.hbm, 347, rfl⟩
abbrev main_v188 : Ref sig .tc := ⟨.hbm, 348, rfl⟩
abbrev main_cst_12 : Ref sig .tc := ⟨.hbm, 349, rfl⟩
abbrev main_v189 : Ref sig .tc := ⟨.hbm, 350, rfl⟩
abbrev main_v190 : Ref sig .tc := ⟨.hbm, 351, rfl⟩
abbrev main_v191 : Ref sig .tc := ⟨.hbm, 352, rfl⟩
abbrev main_v192 : Ref sig .tc := ⟨.hbm, 353, rfl⟩
abbrev main_v193 : Ref sig .tc := ⟨.hbm, 354, rfl⟩
abbrev main_cst_13 : Ref sig .tc := ⟨.hbm, 355, rfl⟩
abbrev main_v194 : Ref sig .tc := ⟨.hbm, 356, rfl⟩
abbrev main_v195 : Ref sig .tc := ⟨.hbm, 357, rfl⟩
abbrev main_v196 : Ref sig .tc := ⟨.hbm, 358, rfl⟩
abbrev main_v197 : Ref sig .tc := ⟨.hbm, 359, rfl⟩
abbrev main_v198 : Ref sig .tc := ⟨.hbm, 360, rfl⟩
abbrev main_cst_14 : Ref sig .tc := ⟨.hbm, 361, rfl⟩
abbrev main_v199 : Ref sig .tc := ⟨.hbm, 362, rfl⟩
abbrev main_v200 : Ref sig .tc := ⟨.hbm, 363, rfl⟩
abbrev main_v201 : Ref sig .tc := ⟨.hbm, 364, rfl⟩
abbrev main_v202 : Ref sig .tc := ⟨.hbm, 365, rfl⟩
abbrev main_v203 : Ref sig .tc := ⟨.hbm, 366, rfl⟩
abbrev main_cst_15 : Ref sig .tc := ⟨.hbm, 367, rfl⟩
abbrev main_v204 : Ref sig .tc := ⟨.hbm, 368, rfl⟩
abbrev main_v205 : Ref sig .tc := ⟨.hbm, 369, rfl⟩
abbrev main_v206 : Ref sig .tc := ⟨.hbm, 370, rfl⟩
abbrev main_v207 : Ref sig .tc := ⟨.hbm, 371, rfl⟩
abbrev main_v208 : Ref sig .tc := ⟨.hbm, 372, rfl⟩
abbrev main_cst_16 : Ref sig .tc := ⟨.hbm, 373, rfl⟩
abbrev main_v209 : Ref sig .tc := ⟨.hbm, 374, rfl⟩
abbrev main_v210 : Ref sig .tc := ⟨.hbm, 375, rfl⟩
abbrev main_v211 : Ref sig .tc := ⟨.hbm, 376, rfl⟩
abbrev main_v212 : Ref sig .tc := ⟨.hbm, 377, rfl⟩
abbrev main_v213 : Ref sig .tc := ⟨.hbm, 378, rfl⟩
abbrev main_cst_17 : Ref sig .tc := ⟨.hbm, 379, rfl⟩
abbrev main_v214 : Ref sig .tc := ⟨.hbm, 380, rfl⟩
abbrev main_v215 : Ref sig .tc := ⟨.hbm, 381, rfl⟩
abbrev main_v216 : Ref sig .tc := ⟨.hbm, 382, rfl⟩
abbrev main_v217 : Ref sig .tc := ⟨.hbm, 383, rfl⟩
abbrev main_v218 : Ref sig .tc := ⟨.hbm, 384, rfl⟩
abbrev main_cst_18 : Ref sig .tc := ⟨.hbm, 385, rfl⟩
abbrev main_v219 : Ref sig .tc := ⟨.hbm, 386, rfl⟩
abbrev main_v220 : Ref sig .tc := ⟨.hbm, 387, rfl⟩
abbrev main_v221 : Ref sig .tc := ⟨.hbm, 388, rfl⟩
abbrev main_v222 : Ref sig .tc := ⟨.hbm, 389, rfl⟩
abbrev main_v223 : Ref sig .tc := ⟨.hbm, 390, rfl⟩
abbrev main_cst_19 : Ref sig .tc := ⟨.hbm, 391, rfl⟩
abbrev main_v224 : Ref sig .tc := ⟨.hbm, 392, rfl⟩
abbrev main_v225 : Ref sig .tc := ⟨.hbm, 393, rfl⟩
abbrev main_v226 : Ref sig .tc := ⟨.hbm, 394, rfl⟩
abbrev main_v227 : Ref sig .tc := ⟨.hbm, 395, rfl⟩
abbrev main_v228 : Ref sig .tc := ⟨.hbm, 396, rfl⟩
abbrev main_cst_20 : Ref sig .tc := ⟨.hbm, 397, rfl⟩
abbrev main_v229 : Ref sig .tc := ⟨.hbm, 398, rfl⟩
abbrev main_v230 : Ref sig .tc := ⟨.hbm, 399, rfl⟩
abbrev main_v231 : Ref sig .tc := ⟨.hbm, 400, rfl⟩
abbrev main_v232 : Ref sig .tc := ⟨.hbm, 401, rfl⟩
abbrev main_v233 : Ref sig .tc := ⟨.hbm, 402, rfl⟩
abbrev main_cst_21 : Ref sig .tc := ⟨.hbm, 403, rfl⟩
abbrev main_v234 : Ref sig .tc := ⟨.hbm, 404, rfl⟩
abbrev main_v235 : Ref sig .tc := ⟨.hbm, 405, rfl⟩
abbrev main_v236 : Ref sig .tc := ⟨.hbm, 406, rfl⟩
abbrev main_v237 : Ref sig .tc := ⟨.hbm, 407, rfl⟩
abbrev main_v238 : Ref sig .tc := ⟨.hbm, 408, rfl⟩
abbrev main_cst_22 : Ref sig .tc := ⟨.hbm, 409, rfl⟩
abbrev main_v239 : Ref sig .tc := ⟨.hbm, 410, rfl⟩
abbrev main_v240 : Ref sig .tc := ⟨.hbm, 411, rfl⟩
abbrev main_v241 : Ref sig .tc := ⟨.hbm, 412, rfl⟩
abbrev main_v242 : Ref sig .tc := ⟨.hbm, 413, rfl⟩
abbrev main_v243 : Ref sig .tc := ⟨.hbm, 414, rfl⟩
abbrev main_cst_23 : Ref sig .tc := ⟨.hbm, 415, rfl⟩
abbrev main_v244 : Ref sig .tc := ⟨.hbm, 416, rfl⟩
abbrev main_v245 : Ref sig .tc := ⟨.hbm, 417, rfl⟩
abbrev main_v246 : Ref sig .tc := ⟨.hbm, 418, rfl⟩
abbrev main_v247 : Ref sig .tc := ⟨.hbm, 419, rfl⟩
abbrev main_v248 : Ref sig .tc := ⟨.hbm, 420, rfl⟩
abbrev main_cst_24 : Ref sig .tc := ⟨.hbm, 421, rfl⟩
abbrev main_v249 : Ref sig .tc := ⟨.hbm, 422, rfl⟩
abbrev main_v250 : Ref sig .tc := ⟨.hbm, 423, rfl⟩
abbrev main_v251 : Ref sig .tc := ⟨.hbm, 424, rfl⟩
abbrev main_v252 : Ref sig .tc := ⟨.hbm, 425, rfl⟩
abbrev main_v253 : Ref sig .tc := ⟨.hbm, 426, rfl⟩
abbrev main_cst_25 : Ref sig .tc := ⟨.hbm, 427, rfl⟩
abbrev main_v254 : Ref sig .tc := ⟨.hbm, 428, rfl⟩
abbrev main_v255 : Ref sig .tc := ⟨.hbm, 429, rfl⟩
abbrev main_v256 : Ref sig .tc := ⟨.hbm, 430, rfl⟩
abbrev main_v257 : Ref sig .tc := ⟨.hbm, 431, rfl⟩
abbrev main_v258 : Ref sig .tc := ⟨.hbm, 432, rfl⟩
abbrev main_cst_26 : Ref sig .tc := ⟨.hbm, 433, rfl⟩
abbrev main_v259 : Ref sig .tc := ⟨.hbm, 434, rfl⟩
abbrev main_v260 : Ref sig .tc := ⟨.hbm, 435, rfl⟩
abbrev main_v261 : Ref sig .tc := ⟨.hbm, 436, rfl⟩
abbrev main_v262 : Ref sig .tc := ⟨.hbm, 437, rfl⟩
abbrev main_v263 : Ref sig .tc := ⟨.hbm, 438, rfl⟩
abbrev main_cst_27 : Ref sig .tc := ⟨.hbm, 439, rfl⟩
abbrev main_v264 : Ref sig .tc := ⟨.hbm, 440, rfl⟩
abbrev main_v265 : Ref sig .tc := ⟨.hbm, 441, rfl⟩
abbrev main_v266 : Ref sig .tc := ⟨.hbm, 442, rfl⟩
abbrev main_v267 : Ref sig .tc := ⟨.hbm, 443, rfl⟩
abbrev main_v268 : Ref sig .tc := ⟨.hbm, 444, rfl⟩
abbrev main_cst_28 : Ref sig .tc := ⟨.hbm, 445, rfl⟩
abbrev main_v269 : Ref sig .tc := ⟨.hbm, 446, rfl⟩
abbrev main_v270 : Ref sig .tc := ⟨.hbm, 447, rfl⟩
abbrev main_v271 : Ref sig .tc := ⟨.hbm, 448, rfl⟩
abbrev main_v272 : Ref sig .tc := ⟨.hbm, 449, rfl⟩
abbrev main_v273 : Ref sig .tc := ⟨.hbm, 450, rfl⟩
abbrev main_cst_29 : Ref sig .tc := ⟨.hbm, 451, rfl⟩
abbrev main_v274 : Ref sig .tc := ⟨.hbm, 452, rfl⟩
abbrev main_v275 : Ref sig .tc := ⟨.hbm, 453, rfl⟩
abbrev main_v276 : Ref sig .tc := ⟨.hbm, 454, rfl⟩
abbrev main_v277 : Ref sig .tc := ⟨.hbm, 455, rfl⟩
abbrev main_v278 : Ref sig .tc := ⟨.hbm, 456, rfl⟩
abbrev main_cst_30 : Ref sig .tc := ⟨.hbm, 457, rfl⟩
abbrev main_v279 : Ref sig .tc := ⟨.hbm, 458, rfl⟩
abbrev main_cst_31 : Ref sig .tc := ⟨.hbm, 459, rfl⟩
abbrev main_v280 : Ref sig .tc := ⟨.hbm, 460, rfl⟩
abbrev main_cst_32 : Ref sig .tc := ⟨.hbm, 461, rfl⟩
abbrev main_v281 : Ref sig .tc := ⟨.hbm, 462, rfl⟩
abbrev main_cst_33 : Ref sig .tc := ⟨.hbm, 463, rfl⟩
abbrev main_v282 : Ref sig .tc := ⟨.hbm, 464, rfl⟩
abbrev main_cst_34 : Ref sig .tc := ⟨.hbm, 465, rfl⟩
abbrev main_v283 : Ref sig .tc := ⟨.hbm, 466, rfl⟩
abbrev main_cst_35 : Ref sig .tc := ⟨.hbm, 467, rfl⟩
abbrev main_v284 : Ref sig .tc := ⟨.hbm, 468, rfl⟩
abbrev main_cst_36 : Ref sig .tc := ⟨.hbm, 469, rfl⟩
abbrev main_v285 : Ref sig .tc := ⟨.hbm, 470, rfl⟩
abbrev main_cst_37 : Ref sig .tc := ⟨.hbm, 471, rfl⟩
abbrev main_v286 : Ref sig .tc := ⟨.hbm, 472, rfl⟩
abbrev main_cst_38 : Ref sig .tc := ⟨.hbm, 473, rfl⟩
abbrev main_v287 : Ref sig .tc := ⟨.hbm, 474, rfl⟩
abbrev main_cst_39 : Ref sig .tc := ⟨.hbm, 475, rfl⟩
abbrev main_v288 : Ref sig .tc := ⟨.hbm, 476, rfl⟩
abbrev main_cst_40 : Ref sig .tc := ⟨.hbm, 477, rfl⟩
abbrev main_v289 : Ref sig .tc := ⟨.hbm, 478, rfl⟩
abbrev main_cst_41 : Ref sig .tc := ⟨.hbm, 479, rfl⟩
abbrev main_v290 : Ref sig .tc := ⟨.hbm, 480, rfl⟩
abbrev main_cst_42 : Ref sig .tc := ⟨.hbm, 481, rfl⟩
abbrev main_v291 : Ref sig .tc := ⟨.hbm, 482, rfl⟩
abbrev main_cst_43 : Ref sig .tc := ⟨.hbm, 483, rfl⟩
abbrev main_v292 : Ref sig .tc := ⟨.hbm, 484, rfl⟩
abbrev main_cst_44 : Ref sig .tc := ⟨.hbm, 485, rfl⟩
abbrev main_v293 : Ref sig .tc := ⟨.hbm, 486, rfl⟩
abbrev main_cst_45 : Ref sig .tc := ⟨.hbm, 487, rfl⟩
abbrev main_v294 : Ref sig .tc := ⟨.hbm, 488, rfl⟩
abbrev main_v295 : Ref sig .tc := ⟨.hbm, 489, rfl⟩
abbrev main_v296 : Ref sig .tc := ⟨.hbm, 490, rfl⟩
abbrev main_v297 : Ref sig .tc := ⟨.hbm, 491, rfl⟩
abbrev main_v298 : Ref sig .tc := ⟨.hbm, 492, rfl⟩
abbrev main_v299 : Ref sig .tc := ⟨.hbm, 493, rfl⟩
abbrev main_v300 : Ref sig .tc := ⟨.hbm, 494, rfl⟩
abbrev main_v301 : Ref sig .tc := ⟨.hbm, 495, rfl⟩
abbrev main_v302 : Ref sig .tc := ⟨.hbm, 496, rfl⟩
abbrev main_v303 : Ref sig .tc := ⟨.hbm, 497, rfl⟩
abbrev main_v304 : Ref sig .tc := ⟨.hbm, 498, rfl⟩
abbrev main_v305 : Ref sig .tc := ⟨.hbm, 499, rfl⟩
abbrev main_v306 : Ref sig .tc := ⟨.hbm, 500, rfl⟩
abbrev main_v307 : Ref sig .tc := ⟨.hbm, 501, rfl⟩
abbrev main_v308 : Ref sig .tc := ⟨.hbm, 502, rfl⟩
abbrev main_v309 : Ref sig .tc := ⟨.hbm, 503, rfl⟩
abbrev main_v310 : Ref sig .tc := ⟨.hbm, 504, rfl⟩
abbrev main_v311 : Ref sig .tc := ⟨.hbm, 505, rfl⟩
abbrev main_v312 : Ref sig .tc := ⟨.hbm, 506, rfl⟩
abbrev main_v313 : Ref sig .tc := ⟨.hbm, 507, rfl⟩
abbrev main_v314 : Ref sig .tc := ⟨.hbm, 508, rfl⟩
abbrev main_v315 : Ref sig .tc := ⟨.hbm, 509, rfl⟩
abbrev main_v316 : Ref sig .tc := ⟨.hbm, 510, rfl⟩
abbrev main_v317 : Ref sig .tc := ⟨.hbm, 511, rfl⟩
abbrev main_v318 : Ref sig .tc := ⟨.hbm, 512, rfl⟩
abbrev main_v319 : Ref sig .tc := ⟨.hbm, 513, rfl⟩
abbrev main_v320 : Ref sig .tc := ⟨.hbm, 514, rfl⟩
abbrev main_v321 : Ref sig .tc := ⟨.hbm, 515, rfl⟩
abbrev main_v322 : Ref sig .tc := ⟨.hbm, 516, rfl⟩
abbrev main_v323 : Ref sig .tc := ⟨.hbm, 517, rfl⟩
abbrev main_v324 : Ref sig .tc := ⟨.hbm, 518, rfl⟩
abbrev main_v325 : Ref sig .tc := ⟨.hbm, 519, rfl⟩
abbrev main_v326 : Ref sig .tc := ⟨.hbm, 520, rfl⟩
abbrev main_v327 : Ref sig .tc := ⟨.hbm, 521, rfl⟩
abbrev main_v328 : Ref sig .tc := ⟨.hbm, 522, rfl⟩
abbrev main_v329 : Ref sig .tc := ⟨.hbm, 523, rfl⟩
abbrev main_v330 : Ref sig .tc := ⟨.hbm, 524, rfl⟩
abbrev main_v331 : Ref sig .tc := ⟨.hbm, 525, rfl⟩
abbrev main_v332 : Ref sig .tc := ⟨.hbm, 526, rfl⟩
abbrev main_v333 : Ref sig .tc := ⟨.hbm, 527, rfl⟩
abbrev main_v334 : Ref sig .tc := ⟨.hbm, 528, rfl⟩
abbrev main_v335 : Ref sig .tc := ⟨.hbm, 529, rfl⟩
abbrev main_v336 : Ref sig .tc := ⟨.hbm, 530, rfl⟩
abbrev main_v337 : Ref sig .tc := ⟨.hbm, 531, rfl⟩
abbrev main_v338 : Ref sig .tc := ⟨.hbm, 532, rfl⟩
abbrev main_v339 : Ref sig .tc := ⟨.hbm, 533, rfl⟩
abbrev main_v340 : Ref sig .tc := ⟨.hbm, 534, rfl⟩
abbrev main_v341 : Ref sig .tc := ⟨.hbm, 535, rfl⟩
abbrev main_v342 : Ref sig .tc := ⟨.hbm, 536, rfl⟩
abbrev main_v343 : Ref sig .tc := ⟨.hbm, 537, rfl⟩
abbrev main_v344 : Ref sig .tc := ⟨.hbm, 538, rfl⟩
abbrev main_v345 : Ref sig .tc := ⟨.hbm, 539, rfl⟩
abbrev main_v346 : Ref sig .tc := ⟨.hbm, 540, rfl⟩
abbrev main_v347 : Ref sig .tc := ⟨.hbm, 541, rfl⟩
abbrev main_v348 : Ref sig .tc := ⟨.hbm, 542, rfl⟩
abbrev main_v349 : Ref sig .tc := ⟨.hbm, 543, rfl⟩
abbrev main_v350 : Ref sig .tc := ⟨.hbm, 544, rfl⟩
abbrev main_v351 : Ref sig .tc := ⟨.hbm, 545, rfl⟩
abbrev main_v352 : Ref sig .tc := ⟨.hbm, 546, rfl⟩
abbrev main_v353 : Ref sig .tc := ⟨.hbm, 547, rfl⟩
abbrev main_v354 : Ref sig .tc := ⟨.hbm, 548, rfl⟩
abbrev main_v355 : Ref sig .tc := ⟨.hbm, 549, rfl⟩
abbrev main_v356 : Ref sig .tc := ⟨.hbm, 550, rfl⟩
abbrev main_v357 : Ref sig .tc := ⟨.hbm, 551, rfl⟩
abbrev main_v358 : Ref sig .tc := ⟨.hbm, 552, rfl⟩
abbrev main_v359 : Ref sig .tc := ⟨.hbm, 553, rfl⟩
abbrev main_v360 : Ref sig .tc := ⟨.hbm, 554, rfl⟩
abbrev main_v361 : Ref sig .tc := ⟨.hbm, 555, rfl⟩
abbrev main_v362 : Ref sig .tc := ⟨.hbm, 556, rfl⟩
abbrev main_v363 : Ref sig .tc := ⟨.hbm, 557, rfl⟩
abbrev main_v364 : Ref sig .tc := ⟨.hbm, 558, rfl⟩
abbrev main_v365 : Ref sig .tc := ⟨.hbm, 559, rfl⟩
abbrev main_v366 : Ref sig .tc := ⟨.hbm, 560, rfl⟩
abbrev main_v367 : Ref sig .tc := ⟨.hbm, 561, rfl⟩
abbrev main_v368 : Ref sig .tc := ⟨.hbm, 562, rfl⟩
abbrev main_v369 : Ref sig .tc := ⟨.hbm, 563, rfl⟩
abbrev main_v370 : Ref sig .tc := ⟨.hbm, 564, rfl⟩
abbrev main_v371 : Ref sig .tc := ⟨.hbm, 565, rfl⟩
abbrev main_v372 : Ref sig .tc := ⟨.hbm, 566, rfl⟩
abbrev main_v373 : Ref sig .tc := ⟨.hbm, 567, rfl⟩
abbrev main_v374 : Ref sig .tc := ⟨.hbm, 568, rfl⟩
abbrev main_v375 : Ref sig .tc := ⟨.hbm, 569, rfl⟩
abbrev main_v376 : Ref sig .tc := ⟨.hbm, 570, rfl⟩
abbrev main_v377 : Ref sig .tc := ⟨.hbm, 571, rfl⟩
abbrev main_v378 : Ref sig .tc := ⟨.hbm, 572, rfl⟩
abbrev main_v379 : Ref sig .tc := ⟨.hbm, 573, rfl⟩
abbrev main_v380 : Ref sig .tc := ⟨.hbm, 574, rfl⟩
abbrev main_v381 : Ref sig .tc := ⟨.hbm, 575, rfl⟩
abbrev main_v382 : Ref sig .tc := ⟨.hbm, 576, rfl⟩
abbrev main_v383 : Ref sig .tc := ⟨.hbm, 577, rfl⟩
abbrev main_v384 : Ref sig .tc := ⟨.hbm, 578, rfl⟩
abbrev main_v385 : Ref sig .tc := ⟨.hbm, 579, rfl⟩
abbrev main_v386 : Ref sig .tc := ⟨.hbm, 580, rfl⟩
abbrev main_v387 : Ref sig .tc := ⟨.hbm, 581, rfl⟩
abbrev main_v388 : Ref sig .tc := ⟨.hbm, 582, rfl⟩
abbrev main_v389 : Ref sig .tc := ⟨.hbm, 583, rfl⟩
abbrev main_v390 : Ref sig .tc := ⟨.hbm, 584, rfl⟩
abbrev main_v391 : Ref sig .tc := ⟨.hbm, 585, rfl⟩
abbrev main_v392 : Ref sig .tc := ⟨.hbm, 586, rfl⟩
abbrev main_v393 : Ref sig .tc := ⟨.hbm, 587, rfl⟩
abbrev main_v394 : Ref sig .tc := ⟨.hbm, 588, rfl⟩
abbrev main_v395 : Ref sig .tc := ⟨.hbm, 589, rfl⟩
abbrev main_v396 : Ref sig .tc := ⟨.hbm, 590, rfl⟩
abbrev main_v397 : Ref sig .tc := ⟨.hbm, 591, rfl⟩
abbrev main_v398 : Ref sig .tc := ⟨.hbm, 592, rfl⟩
abbrev main_v399 : Ref sig .tc := ⟨.hbm, 593, rfl⟩
abbrev main_v400 : Ref sig .tc := ⟨.hbm, 594, rfl⟩
abbrev main_v401 : Ref sig .tc := ⟨.hbm, 595, rfl⟩
abbrev main_v402 : Ref sig .tc := ⟨.hbm, 596, rfl⟩
abbrev main_v403 : Ref sig .tc := ⟨.hbm, 597, rfl⟩
abbrev main_v404 : Ref sig .tc := ⟨.hbm, 598, rfl⟩
abbrev main_v405 : Ref sig .tc := ⟨.hbm, 599, rfl⟩
abbrev main_v406 : Ref sig .tc := ⟨.hbm, 600, rfl⟩
abbrev main_v407 : Ref sig .tc := ⟨.hbm, 601, rfl⟩
abbrev main_v408 : Ref sig .tc := ⟨.hbm, 602, rfl⟩
abbrev main_v409 : Ref sig .tc := ⟨.hbm, 603, rfl⟩
abbrev main_v410 : Ref sig .tc := ⟨.hbm, 604, rfl⟩
abbrev main_v411 : Ref sig .tc := ⟨.hbm, 605, rfl⟩
abbrev main_v412 : Ref sig .tc := ⟨.hbm, 606, rfl⟩
abbrev main_v413 : Ref sig .tc := ⟨.hbm, 607, rfl⟩
abbrev main_v414 : Ref sig .tc := ⟨.hbm, 608, rfl⟩
abbrev main_v415 : Ref sig .tc := ⟨.hbm, 609, rfl⟩
abbrev main_v416 : Ref sig .tc := ⟨.hbm, 610, rfl⟩
abbrev main_v417 : Ref sig .tc := ⟨.hbm, 611, rfl⟩
abbrev main_v418 : Ref sig .tc := ⟨.hbm, 612, rfl⟩
abbrev main_v419 : Ref sig .tc := ⟨.hbm, 613, rfl⟩
abbrev main_v420 : Ref sig .tc := ⟨.hbm, 614, rfl⟩
abbrev main_v421 : Ref sig .tc := ⟨.hbm, 615, rfl⟩
abbrev main_v422 : Ref sig .tc := ⟨.hbm, 616, rfl⟩
abbrev main_v423 : Ref sig .tc := ⟨.hbm, 617, rfl⟩
abbrev main_v424 : Ref sig .tc := ⟨.hbm, 618, rfl⟩
abbrev main_v425 : Ref sig .tc := ⟨.hbm, 619, rfl⟩
abbrev main_v426 : Ref sig .tc := ⟨.hbm, 620, rfl⟩
abbrev main_v427 : Ref sig .tc := ⟨.hbm, 621, rfl⟩
abbrev main_v428 : Ref sig .tc := ⟨.hbm, 622, rfl⟩
abbrev main_v429 : Ref sig .tc := ⟨.hbm, 623, rfl⟩
abbrev main_v430 : Ref sig .tc := ⟨.hbm, 624, rfl⟩
abbrev main_v431 : Ref sig .tc := ⟨.hbm, 625, rfl⟩
abbrev main_v432 : Ref sig .tc := ⟨.hbm, 626, rfl⟩
abbrev main_v433 : Ref sig .tc := ⟨.hbm, 627, rfl⟩
abbrev main_v434 : Ref sig .tc := ⟨.hbm, 628, rfl⟩
abbrev main_v435 : Ref sig .tc := ⟨.hbm, 629, rfl⟩
abbrev main_v436 : Ref sig .tc := ⟨.hbm, 630, rfl⟩
abbrev main_v437 : Ref sig .tc := ⟨.hbm, 631, rfl⟩
abbrev main_v438 : Ref sig .tc := ⟨.hbm, 632, rfl⟩
abbrev main_v439 : Ref sig .tc := ⟨.hbm, 633, rfl⟩
abbrev main_v440 : Ref sig .tc := ⟨.hbm, 634, rfl⟩
abbrev main_v441 : Ref sig .tc := ⟨.hbm, 635, rfl⟩
abbrev main_v442 : Ref sig .tc := ⟨.hbm, 636, rfl⟩
abbrev main_v443 : Ref sig .tc := ⟨.hbm, 637, rfl⟩
abbrev main_v444 : Ref sig .tc := ⟨.hbm, 638, rfl⟩
abbrev main_v445 : Ref sig .tc := ⟨.hbm, 639, rfl⟩
abbrev main_v446 : Ref sig .tc := ⟨.hbm, 640, rfl⟩
abbrev main_v447 : Ref sig .tc := ⟨.hbm, 641, rfl⟩
abbrev main_v448 : Ref sig .tc := ⟨.hbm, 642, rfl⟩
abbrev main_v449 : Ref sig .tc := ⟨.hbm, 643, rfl⟩
abbrev main_v450 : Ref sig .tc := ⟨.hbm, 644, rfl⟩
abbrev main_v451 : Ref sig .tc := ⟨.hbm, 645, rfl⟩
abbrev main_v452 : Ref sig .tc := ⟨.hbm, 646, rfl⟩
abbrev main_v453 : Ref sig .tc := ⟨.hbm, 647, rfl⟩
abbrev main_v454 : Ref sig .tc := ⟨.hbm, 648, rfl⟩
abbrev main_v455 : Ref sig .tc := ⟨.hbm, 649, rfl⟩
abbrev main_v456 : Ref sig .tc := ⟨.hbm, 650, rfl⟩
abbrev main_v457 : Ref sig .tc := ⟨.hbm, 651, rfl⟩
abbrev main_v458 : Ref sig .tc := ⟨.hbm, 652, rfl⟩
abbrev main_v459 : Ref sig .tc := ⟨.hbm, 653, rfl⟩
abbrev main_v460 : Ref sig .tc := ⟨.hbm, 654, rfl⟩
abbrev main_v461 : Ref sig .tc := ⟨.hbm, 655, rfl⟩
abbrev main_v462 : Ref sig .tc := ⟨.hbm, 656, rfl⟩
abbrev main_v463 : Ref sig .tc := ⟨.hbm, 657, rfl⟩
abbrev main_v464 : Ref sig .tc := ⟨.hbm, 658, rfl⟩
abbrev main_v465 : Ref sig .tc := ⟨.hbm, 659, rfl⟩
abbrev main_v466 : Ref sig .tc := ⟨.hbm, 660, rfl⟩
abbrev main_v467 : Ref sig .tc := ⟨.hbm, 661, rfl⟩
abbrev main_v468 : Ref sig .tc := ⟨.hbm, 662, rfl⟩
abbrev main_v469 : Ref sig .tc := ⟨.hbm, 663, rfl⟩
abbrev main_v470 : Ref sig .tc := ⟨.hbm, 664, rfl⟩
abbrev main_v471 : Ref sig .tc := ⟨.hbm, 665, rfl⟩
abbrev main_v472 : Ref sig .tc := ⟨.hbm, 666, rfl⟩
abbrev main_v473 : Ref sig .tc := ⟨.hbm, 667, rfl⟩
abbrev main_v474 : Ref sig .tc := ⟨.hbm, 668, rfl⟩
abbrev main_v475 : Ref sig .tc := ⟨.hbm, 669, rfl⟩
abbrev main_v476 : Ref sig .tc := ⟨.hbm, 670, rfl⟩
abbrev main_v477 : Ref sig .tc := ⟨.hbm, 671, rfl⟩
abbrev main_v478 : Ref sig .tc := ⟨.hbm, 672, rfl⟩
abbrev main_v479 : Ref sig .tc := ⟨.hbm, 673, rfl⟩
abbrev main_v480 : Ref sig .tc := ⟨.hbm, 674, rfl⟩
abbrev main_v481 : Ref sig .tc := ⟨.hbm, 675, rfl⟩
abbrev main_v482 : Ref sig .tc := ⟨.hbm, 676, rfl⟩
abbrev main_v483 : Ref sig .tc := ⟨.hbm, 677, rfl⟩
abbrev main_v484 : Ref sig .tc := ⟨.hbm, 678, rfl⟩
abbrev main_v485 : Ref sig .tc := ⟨.hbm, 679, rfl⟩
abbrev main_v486 : Ref sig .tc := ⟨.hbm, 680, rfl⟩
abbrev main_v487 : Ref sig .tc := ⟨.hbm, 681, rfl⟩
abbrev main_v488 : Ref sig .tc := ⟨.hbm, 682, rfl⟩
abbrev main_v489 : Ref sig .tc := ⟨.hbm, 683, rfl⟩
abbrev main_v490 : Ref sig .tc := ⟨.hbm, 684, rfl⟩
abbrev main_v491 : Ref sig .tc := ⟨.hbm, 685, rfl⟩
abbrev main_v492 : Ref sig .tc := ⟨.hbm, 686, rfl⟩
abbrev main_v493 : Ref sig .tc := ⟨.hbm, 687, rfl⟩
abbrev main_v494 : Ref sig .tc := ⟨.hbm, 688, rfl⟩
abbrev main_v495 : Ref sig .tc := ⟨.hbm, 689, rfl⟩
abbrev main_v496 : Ref sig .tc := ⟨.hbm, 690, rfl⟩
abbrev main_v497 : Ref sig .tc := ⟨.hbm, 691, rfl⟩
abbrev main_v498 : Ref sig .tc := ⟨.hbm, 692, rfl⟩
abbrev main_v499 : Ref sig .tc := ⟨.hbm, 693, rfl⟩
abbrev main_v500 : Ref sig .tc := ⟨.hbm, 694, rfl⟩
abbrev main_v501 : Ref sig .tc := ⟨.hbm, 695, rfl⟩
abbrev main_v502 : Ref sig .tc := ⟨.hbm, 696, rfl⟩
abbrev main_v503 : Ref sig .tc := ⟨.hbm, 697, rfl⟩
abbrev main_v504 : Ref sig .tc := ⟨.hbm, 698, rfl⟩
abbrev main_v505 : Ref sig .tc := ⟨.hbm, 699, rfl⟩
abbrev main_v506 : Ref sig .tc := ⟨.hbm, 700, rfl⟩
abbrev main_v507 : Ref sig .tc := ⟨.hbm, 701, rfl⟩
abbrev main_v508 : Ref sig .tc := ⟨.hbm, 702, rfl⟩
abbrev main_v509 : Ref sig .tc := ⟨.hbm, 703, rfl⟩
abbrev main_v510 : Ref sig .tc := ⟨.hbm, 704, rfl⟩
abbrev main_v511 : Ref sig .tc := ⟨.hbm, 705, rfl⟩
abbrev main_v512 : Ref sig .tc := ⟨.hbm, 706, rfl⟩
abbrev main_v513 : Ref sig .tc := ⟨.hbm, 707, rfl⟩
abbrev main_v514 : Ref sig .tc := ⟨.hbm, 708, rfl⟩
abbrev main_v515 : Ref sig .tc := ⟨.hbm, 709, rfl⟩
abbrev main_v516 : Ref sig .tc := ⟨.hbm, 710, rfl⟩
abbrev main_v517 : Ref sig .tc := ⟨.hbm, 711, rfl⟩
abbrev main_v518 : Ref sig .tc := ⟨.hbm, 712, rfl⟩
abbrev main_v519 : Ref sig .tc := ⟨.hbm, 713, rfl⟩
abbrev main_v520 : Ref sig .tc := ⟨.hbm, 714, rfl⟩
abbrev main_v521 : Ref sig .tc := ⟨.hbm, 715, rfl⟩
abbrev main_v522 : Ref sig .tc := ⟨.hbm, 716, rfl⟩
abbrev main_v523 : Ref sig .tc := ⟨.hbm, 717, rfl⟩
abbrev main_v524 : Ref sig .tc := ⟨.hbm, 718, rfl⟩
abbrev main_v525 : Ref sig .tc := ⟨.hbm, 719, rfl⟩
abbrev main_v526 : Ref sig .tc := ⟨.hbm, 720, rfl⟩
abbrev main_v527 : Ref sig .tc := ⟨.hbm, 721, rfl⟩
abbrev main_v528 : Ref sig .tc := ⟨.hbm, 722, rfl⟩
abbrev main_v529 : Ref sig .tc := ⟨.hbm, 723, rfl⟩
abbrev main_v530 : Ref sig .tc := ⟨.hbm, 724, rfl⟩
abbrev main_v531 : Ref sig .tc := ⟨.hbm, 725, rfl⟩
abbrev main_v532 : Ref sig .tc := ⟨.hbm, 726, rfl⟩
abbrev main_v533 : Ref sig .tc := ⟨.hbm, 727, rfl⟩
abbrev main_v534 : Ref sig .tc := ⟨.hbm, 728, rfl⟩
abbrev main_v535 : Ref sig .tc := ⟨.hbm, 729, rfl⟩
abbrev main_v536 : Ref sig .tc := ⟨.hbm, 730, rfl⟩
abbrev main_v537 : Ref sig .tc := ⟨.hbm, 731, rfl⟩
abbrev main_v538 : Ref sig .tc := ⟨.hbm, 732, rfl⟩
abbrev main_v539 : Ref sig .tc := ⟨.hbm, 733, rfl⟩
abbrev main_v540 : Ref sig .tc := ⟨.hbm, 734, rfl⟩
abbrev main_v541 : Ref sig .tc := ⟨.hbm, 735, rfl⟩
abbrev main_v542 : Ref sig .tc := ⟨.hbm, 736, rfl⟩
abbrev main_v543 : Ref sig .tc := ⟨.hbm, 737, rfl⟩
abbrev main_v544 : Ref sig .tc := ⟨.hbm, 738, rfl⟩
abbrev main_v545 : Ref sig .tc := ⟨.hbm, 739, rfl⟩
abbrev main_v546 : Ref sig .tc := ⟨.hbm, 740, rfl⟩
abbrev main_v547 : Ref sig .tc := ⟨.hbm, 741, rfl⟩
abbrev main_v548 : Ref sig .tc := ⟨.hbm, 742, rfl⟩
abbrev main_v549 : Ref sig .tc := ⟨.hbm, 743, rfl⟩
abbrev main_v550 : Ref sig .tc := ⟨.hbm, 744, rfl⟩
abbrev main_v551 : Ref sig .tc := ⟨.hbm, 745, rfl⟩
abbrev main_v552 : Ref sig .tc := ⟨.hbm, 746, rfl⟩
abbrev main_v553 : Ref sig .tc := ⟨.hbm, 747, rfl⟩
abbrev main_v554 : Ref sig .tc := ⟨.hbm, 748, rfl⟩
abbrev main_v555 : Ref sig .tc := ⟨.hbm, 749, rfl⟩
abbrev main_v556 : Ref sig .tc := ⟨.hbm, 750, rfl⟩
abbrev main_v557 : Ref sig .tc := ⟨.hbm, 751, rfl⟩
abbrev main_v558 : Ref sig .tc := ⟨.hbm, 752, rfl⟩
abbrev main_v559 : Ref sig .tc := ⟨.hbm, 753, rfl⟩
abbrev main_v560 : Ref sig .tc := ⟨.hbm, 754, rfl⟩
abbrev main_v561 : Ref sig .tc := ⟨.hbm, 755, rfl⟩
abbrev main_v562 : Ref sig .tc := ⟨.hbm, 756, rfl⟩
abbrev main_v563 : Ref sig .tc := ⟨.hbm, 757, rfl⟩
abbrev main_v564 : Ref sig .tc := ⟨.hbm, 758, rfl⟩
abbrev main_v565 : Ref sig .tc := ⟨.hbm, 759, rfl⟩
abbrev main_v566 : Ref sig .tc := ⟨.hbm, 760, rfl⟩
abbrev main_v567 : Ref sig .tc := ⟨.hbm, 761, rfl⟩
abbrev main_v568 : Ref sig .tc := ⟨.hbm, 762, rfl⟩
abbrev main_v569 : Ref sig .tc := ⟨.hbm, 763, rfl⟩
abbrev main_v570 : Ref sig .tc := ⟨.hbm, 764, rfl⟩
abbrev main_v571 : Ref sig .tc := ⟨.hbm, 765, rfl⟩
abbrev main_v572 : Ref sig .tc := ⟨.hbm, 766, rfl⟩
abbrev main_v573 : Ref sig .tc := ⟨.hbm, 767, rfl⟩
abbrev main_v574 : Ref sig .tc := ⟨.hbm, 768, rfl⟩
abbrev main_v575 : Ref sig .tc := ⟨.hbm, 769, rfl⟩
abbrev main_cst_46 : Ref sig .tc := ⟨.hbm, 770, rfl⟩
abbrev main_v576 : Ref sig .tc := ⟨.hbm, 771, rfl⟩
abbrev main_v577 : Ref sig .tc := ⟨.hbm, 772, rfl⟩
abbrev main_v578 : Ref sig .tc := ⟨.hbm, 773, rfl⟩
abbrev main_cst_47 : Ref sig .tc := ⟨.hbm, 774, rfl⟩
abbrev main_cst_48 : Ref sig .tc := ⟨.hbm, 775, rfl⟩
abbrev main_call9_v0 : Ref sig .tc := ⟨.hbm, 776, rfl⟩
abbrev main_call9_v1 : Ref sig .tc := ⟨.hbm, 777, rfl⟩
abbrev main_call9_v2 : Ref sig .tc := ⟨.hbm, 778, rfl⟩
abbrev main_call9_v3 : Ref sig .tc := ⟨.hbm, 779, rfl⟩
abbrev main_call9_v4 : Ref sig .tc := ⟨.hbm, 780, rfl⟩
abbrev main_v579 : Ref sig .tc := ⟨.hbm, 781, rfl⟩
abbrev main_c_49 : Ref sig .tc := ⟨.hbm, 782, rfl⟩
abbrev main_v580 : Ref sig .tc := ⟨.hbm, 783, rfl⟩
abbrev main_v581 : Ref sig .tc := ⟨.hbm, 784, rfl⟩
abbrev main_c_50 : Ref sig .tc := ⟨.hbm, 785, rfl⟩
abbrev main_v582 : Ref sig .tc := ⟨.hbm, 786, rfl⟩
abbrev main_v583 : Ref sig .tc := ⟨.hbm, 787, rfl⟩
abbrev main_c_51 : Ref sig .tc := ⟨.hbm, 788, rfl⟩
abbrev main_v584 : Ref sig .tc := ⟨.hbm, 789, rfl⟩
abbrev main_v585 : Ref sig .tc := ⟨.hbm, 790, rfl⟩
abbrev main_c_52 : Ref sig .tc := ⟨.hbm, 791, rfl⟩
abbrev main_v586 : Ref sig .tc := ⟨.hbm, 792, rfl⟩
abbrev main_v587 : Ref sig .tc := ⟨.hbm, 793, rfl⟩
abbrev main_v588 : Ref sig .tc := ⟨.hbm, 794, rfl⟩
abbrev main_c_53 : Ref sig .tc := ⟨.hbm, 795, rfl⟩
abbrev main_v589 : Ref sig .tc := ⟨.hbm, 796, rfl⟩
abbrev main_v590 : Ref sig .tc := ⟨.hbm, 797, rfl⟩
abbrev main_c_54 : Ref sig .tc := ⟨.hbm, 798, rfl⟩
abbrev main_v591 : Ref sig .tc := ⟨.hbm, 799, rfl⟩
abbrev main_v592 : Ref sig .tc := ⟨.hbm, 800, rfl⟩
abbrev main_v593 : Ref sig .tc := ⟨.hbm, 801, rfl⟩
abbrev main_c_55 : Ref sig .tc := ⟨.hbm, 802, rfl⟩
abbrev main_v594 : Ref sig .tc := ⟨.hbm, 803, rfl⟩
abbrev main_v595 : Ref sig .tc := ⟨.hbm, 804, rfl⟩
abbrev main_v596 : Ref sig .tc := ⟨.hbm, 805, rfl⟩
abbrev main_c_56 : Ref sig .tc := ⟨.hbm, 806, rfl⟩
abbrev main_v597 : Ref sig .tc := ⟨.hbm, 807, rfl⟩
abbrev main_v598 : Ref sig .tc := ⟨.hbm, 808, rfl⟩
abbrev main_c_57 : Ref sig .tc := ⟨.hbm, 809, rfl⟩
abbrev main_v599 : Ref sig .tc := ⟨.hbm, 810, rfl⟩
abbrev main_v600 : Ref sig .tc := ⟨.hbm, 811, rfl⟩
abbrev main_c_58 : Ref sig .tc := ⟨.hbm, 812, rfl⟩
abbrev main_v601 : Ref sig .tc := ⟨.hbm, 813, rfl⟩
abbrev main_v602 : Ref sig .tc := ⟨.hbm, 814, rfl⟩
abbrev main_c_59 : Ref sig .tc := ⟨.hbm, 815, rfl⟩
abbrev main_v603 : Ref sig .tc := ⟨.hbm, 816, rfl⟩
abbrev main_v604 : Ref sig .tc := ⟨.hbm, 817, rfl⟩
abbrev main_v605 : Ref sig .tc := ⟨.hbm, 818, rfl⟩
abbrev main_c_60 : Ref sig .tc := ⟨.hbm, 819, rfl⟩
abbrev main_v606 : Ref sig .tc := ⟨.hbm, 820, rfl⟩
abbrev main_v607 : Ref sig .tc := ⟨.hbm, 821, rfl⟩
abbrev main_c_61 : Ref sig .tc := ⟨.hbm, 822, rfl⟩
abbrev main_v608 : Ref sig .tc := ⟨.hbm, 823, rfl⟩
abbrev main_v609 : Ref sig .tc := ⟨.hbm, 824, rfl⟩
abbrev main_v610 : Ref sig .tc := ⟨.hbm, 825, rfl⟩
abbrev main_c_62 : Ref sig .tc := ⟨.hbm, 826, rfl⟩
abbrev main_v611 : Ref sig .tc := ⟨.hbm, 827, rfl⟩
abbrev main_v612 : Ref sig .tc := ⟨.hbm, 828, rfl⟩
abbrev main_v613 : Ref sig .tc := ⟨.hbm, 829, rfl⟩
abbrev main_c_63 : Ref sig .tc := ⟨.hbm, 830, rfl⟩
abbrev main_v614 : Ref sig .tc := ⟨.hbm, 831, rfl⟩
abbrev main_v615 : Ref sig .tc := ⟨.hbm, 832, rfl⟩
abbrev main_c_64 : Ref sig .tc := ⟨.hbm, 833, rfl⟩
abbrev main_v616 : Ref sig .tc := ⟨.hbm, 834, rfl⟩
abbrev main_v617 : Ref sig .tc := ⟨.hbm, 835, rfl⟩
abbrev main_c_65 : Ref sig .tc := ⟨.hbm, 836, rfl⟩
abbrev main_v618 : Ref sig .tc := ⟨.hbm, 837, rfl⟩
abbrev main_v619 : Ref sig .tc := ⟨.hbm, 838, rfl⟩
abbrev main_c_66 : Ref sig .tc := ⟨.hbm, 839, rfl⟩
abbrev main_v620 : Ref sig .tc := ⟨.hbm, 840, rfl⟩
abbrev main_v621 : Ref sig .tc := ⟨.hbm, 841, rfl⟩
abbrev main_v622 : Ref sig .tc := ⟨.hbm, 842, rfl⟩
abbrev main_c_67 : Ref sig .tc := ⟨.hbm, 843, rfl⟩
abbrev main_v623 : Ref sig .tc := ⟨.hbm, 844, rfl⟩
abbrev main_v624 : Ref sig .tc := ⟨.hbm, 845, rfl⟩
abbrev main_c_68 : Ref sig .tc := ⟨.hbm, 846, rfl⟩
abbrev main_v625 : Ref sig .tc := ⟨.hbm, 847, rfl⟩
abbrev main_v626 : Ref sig .tc := ⟨.hbm, 848, rfl⟩
abbrev main_v627 : Ref sig .tc := ⟨.hbm, 849, rfl⟩
abbrev main_c_69 : Ref sig .tc := ⟨.hbm, 850, rfl⟩
abbrev main_v628 : Ref sig .tc := ⟨.hbm, 851, rfl⟩
abbrev main_v629 : Ref sig .tc := ⟨.hbm, 852, rfl⟩
abbrev main_v630 : Ref sig .tc := ⟨.hbm, 853, rfl⟩
abbrev main_c_70 : Ref sig .tc := ⟨.hbm, 854, rfl⟩
abbrev main_v631 : Ref sig .tc := ⟨.hbm, 855, rfl⟩
abbrev main_v632 : Ref sig .tc := ⟨.hbm, 856, rfl⟩
abbrev main_c_71 : Ref sig .tc := ⟨.hbm, 857, rfl⟩
abbrev main_v633 : Ref sig .tc := ⟨.hbm, 858, rfl⟩
abbrev main_v634 : Ref sig .tc := ⟨.hbm, 859, rfl⟩
abbrev main_c_72 : Ref sig .tc := ⟨.hbm, 860, rfl⟩
abbrev main_v635 : Ref sig .tc := ⟨.hbm, 861, rfl⟩
abbrev main_v636 : Ref sig .tc := ⟨.hbm, 862, rfl⟩
abbrev main_c_73 : Ref sig .tc := ⟨.hbm, 863, rfl⟩
abbrev main_v637 : Ref sig .tc := ⟨.hbm, 864, rfl⟩
abbrev main_v638 : Ref sig .tc := ⟨.hbm, 865, rfl⟩
abbrev main_v639 : Ref sig .tc := ⟨.hbm, 866, rfl⟩
abbrev main_c_74 : Ref sig .tc := ⟨.hbm, 867, rfl⟩
abbrev main_v640 : Ref sig .tc := ⟨.hbm, 868, rfl⟩
abbrev main_v641 : Ref sig .tc := ⟨.hbm, 869, rfl⟩
abbrev main_c_75 : Ref sig .tc := ⟨.hbm, 870, rfl⟩
abbrev main_v642 : Ref sig .tc := ⟨.hbm, 871, rfl⟩
abbrev main_v643 : Ref sig .tc := ⟨.hbm, 872, rfl⟩
abbrev main_v644 : Ref sig .tc := ⟨.hbm, 873, rfl⟩
abbrev main_c_76 : Ref sig .tc := ⟨.hbm, 874, rfl⟩
abbrev main_v645 : Ref sig .tc := ⟨.hbm, 875, rfl⟩
abbrev main_v646 : Ref sig .tc := ⟨.hbm, 876, rfl⟩
abbrev main_v647 : Ref sig .tc := ⟨.hbm, 877, rfl⟩
abbrev main_c_77 : Ref sig .tc := ⟨.hbm, 878, rfl⟩
abbrev main_v648 : Ref sig .tc := ⟨.hbm, 879, rfl⟩
abbrev main_v649 : Ref sig .tc := ⟨.hbm, 880, rfl⟩
abbrev main_c_78 : Ref sig .tc := ⟨.hbm, 881, rfl⟩
abbrev main_v650 : Ref sig .tc := ⟨.hbm, 882, rfl⟩
abbrev main_v651 : Ref sig .tc := ⟨.hbm, 883, rfl⟩
abbrev main_c_79 : Ref sig .tc := ⟨.hbm, 884, rfl⟩
abbrev main_v652 : Ref sig .tc := ⟨.hbm, 885, rfl⟩
abbrev main_v653 : Ref sig .tc := ⟨.hbm, 886, rfl⟩
abbrev main_c_80 : Ref sig .tc := ⟨.hbm, 887, rfl⟩
abbrev main_v654 : Ref sig .tc := ⟨.hbm, 888, rfl⟩
abbrev main_v655 : Ref sig .tc := ⟨.hbm, 889, rfl⟩
abbrev main_v656 : Ref sig .tc := ⟨.hbm, 890, rfl⟩
abbrev main_c_81 : Ref sig .tc := ⟨.hbm, 891, rfl⟩
abbrev main_v657 : Ref sig .tc := ⟨.hbm, 892, rfl⟩
abbrev main_v658 : Ref sig .tc := ⟨.hbm, 893, rfl⟩
abbrev main_c_82 : Ref sig .tc := ⟨.hbm, 894, rfl⟩
abbrev main_v659 : Ref sig .tc := ⟨.hbm, 895, rfl⟩
abbrev main_v660 : Ref sig .tc := ⟨.hbm, 896, rfl⟩
abbrev main_v661 : Ref sig .tc := ⟨.hbm, 897, rfl⟩
abbrev main_c_83 : Ref sig .tc := ⟨.hbm, 898, rfl⟩
abbrev main_v662 : Ref sig .tc := ⟨.hbm, 899, rfl⟩
abbrev main_v663 : Ref sig .tc := ⟨.hbm, 900, rfl⟩
abbrev main_v664 : Ref sig .tc := ⟨.hbm, 901, rfl⟩
abbrev main_c_84 : Ref sig .tc := ⟨.hbm, 902, rfl⟩
abbrev main_v665 : Ref sig .tc := ⟨.hbm, 903, rfl⟩
abbrev main_v666 : Ref sig .tc := ⟨.hbm, 904, rfl⟩
abbrev main_c_85 : Ref sig .tc := ⟨.hbm, 905, rfl⟩
abbrev main_v667 : Ref sig .tc := ⟨.hbm, 906, rfl⟩
abbrev main_v668 : Ref sig .tc := ⟨.hbm, 907, rfl⟩
abbrev main_c_86 : Ref sig .tc := ⟨.hbm, 908, rfl⟩
abbrev main_v669 : Ref sig .tc := ⟨.hbm, 909, rfl⟩
abbrev main_v670 : Ref sig .tc := ⟨.hbm, 910, rfl⟩
abbrev main_c_87 : Ref sig .tc := ⟨.hbm, 911, rfl⟩
abbrev main_v671 : Ref sig .tc := ⟨.hbm, 912, rfl⟩
abbrev main_v672 : Ref sig .tc := ⟨.hbm, 913, rfl⟩
abbrev main_v673 : Ref sig .tc := ⟨.hbm, 914, rfl⟩
abbrev main_c_88 : Ref sig .tc := ⟨.hbm, 915, rfl⟩
abbrev main_v674 : Ref sig .tc := ⟨.hbm, 916, rfl⟩
abbrev main_v675 : Ref sig .tc := ⟨.hbm, 917, rfl⟩
abbrev main_c_89 : Ref sig .tc := ⟨.hbm, 918, rfl⟩
abbrev main_v676 : Ref sig .tc := ⟨.hbm, 919, rfl⟩
abbrev main_v677 : Ref sig .tc := ⟨.hbm, 920, rfl⟩
abbrev main_v678 : Ref sig .tc := ⟨.hbm, 921, rfl⟩
abbrev main_c_90 : Ref sig .tc := ⟨.hbm, 922, rfl⟩
abbrev main_v679 : Ref sig .tc := ⟨.hbm, 923, rfl⟩
abbrev main_v680 : Ref sig .tc := ⟨.hbm, 924, rfl⟩
abbrev main_v681 : Ref sig .tc := ⟨.hbm, 925, rfl⟩
abbrev main_c_91 : Ref sig .tc := ⟨.hbm, 926, rfl⟩
abbrev main_v682 : Ref sig .tc := ⟨.hbm, 927, rfl⟩
abbrev main_v683 : Ref sig .tc := ⟨.hbm, 928, rfl⟩
abbrev main_c_92 : Ref sig .tc := ⟨.hbm, 929, rfl⟩
abbrev main_v684 : Ref sig .tc := ⟨.hbm, 930, rfl⟩
abbrev main_v685 : Ref sig .tc := ⟨.hbm, 931, rfl⟩
abbrev main_c_93 : Ref sig .tc := ⟨.hbm, 932, rfl⟩
abbrev main_v686 : Ref sig .tc := ⟨.hbm, 933, rfl⟩
abbrev main_v687 : Ref sig .tc := ⟨.hbm, 934, rfl⟩
abbrev main_c_94 : Ref sig .tc := ⟨.hbm, 935, rfl⟩
abbrev main_v688 : Ref sig .tc := ⟨.hbm, 936, rfl⟩
abbrev main_v689 : Ref sig .tc := ⟨.hbm, 937, rfl⟩
abbrev main_v690 : Ref sig .tc := ⟨.hbm, 938, rfl⟩
abbrev main_c_95 : Ref sig .tc := ⟨.hbm, 939, rfl⟩
abbrev main_v691 : Ref sig .tc := ⟨.hbm, 940, rfl⟩
abbrev main_v692 : Ref sig .tc := ⟨.hbm, 941, rfl⟩
abbrev main_c_96 : Ref sig .tc := ⟨.hbm, 942, rfl⟩
abbrev main_v693 : Ref sig .tc := ⟨.hbm, 943, rfl⟩
abbrev main_v694 : Ref sig .tc := ⟨.hbm, 944, rfl⟩
abbrev main_v695 : Ref sig .tc := ⟨.hbm, 945, rfl⟩
abbrev main_c_97 : Ref sig .tc := ⟨.hbm, 946, rfl⟩
abbrev main_v696 : Ref sig .tc := ⟨.hbm, 947, rfl⟩
abbrev main_v697 : Ref sig .tc := ⟨.hbm, 948, rfl⟩
abbrev main_v698 : Ref sig .tc := ⟨.hbm, 949, rfl⟩
abbrev main_c_98 : Ref sig .tc := ⟨.hbm, 950, rfl⟩
abbrev main_v699 : Ref sig .tc := ⟨.hbm, 951, rfl⟩
abbrev main_v700 : Ref sig .tc := ⟨.hbm, 952, rfl⟩
abbrev main_c_99 : Ref sig .tc := ⟨.hbm, 953, rfl⟩
abbrev main_v701 : Ref sig .tc := ⟨.hbm, 954, rfl⟩
abbrev main_v702 : Ref sig .tc := ⟨.hbm, 955, rfl⟩
abbrev main_c_100 : Ref sig .tc := ⟨.hbm, 956, rfl⟩
abbrev main_v703 : Ref sig .tc := ⟨.hbm, 957, rfl⟩
abbrev main_v704 : Ref sig .tc := ⟨.hbm, 958, rfl⟩
abbrev main_c_101 : Ref sig .tc := ⟨.hbm, 959, rfl⟩
abbrev main_v705 : Ref sig .tc := ⟨.hbm, 960, rfl⟩
abbrev main_v706 : Ref sig .tc := ⟨.hbm, 961, rfl⟩
abbrev main_v707 : Ref sig .tc := ⟨.hbm, 962, rfl⟩
abbrev main_c_102 : Ref sig .tc := ⟨.hbm, 963, rfl⟩
abbrev main_v708 : Ref sig .tc := ⟨.hbm, 964, rfl⟩
abbrev main_v709 : Ref sig .tc := ⟨.hbm, 965, rfl⟩
abbrev main_c_103 : Ref sig .tc := ⟨.hbm, 966, rfl⟩
abbrev main_v710 : Ref sig .tc := ⟨.hbm, 967, rfl⟩
abbrev main_v711 : Ref sig .tc := ⟨.hbm, 968, rfl⟩
abbrev main_v712 : Ref sig .tc := ⟨.hbm, 969, rfl⟩
abbrev main_c_104 : Ref sig .tc := ⟨.hbm, 970, rfl⟩
abbrev main_v713 : Ref sig .tc := ⟨.hbm, 971, rfl⟩
abbrev main_v714 : Ref sig .tc := ⟨.hbm, 972, rfl⟩
abbrev main_v715 : Ref sig .tc := ⟨.hbm, 973, rfl⟩
abbrev main_c_105 : Ref sig .tc := ⟨.hbm, 974, rfl⟩
abbrev main_v716 : Ref sig .tc := ⟨.hbm, 975, rfl⟩
abbrev main_v717 : Ref sig .tc := ⟨.hbm, 976, rfl⟩
abbrev main_c_106 : Ref sig .tc := ⟨.hbm, 977, rfl⟩
abbrev main_v718 : Ref sig .tc := ⟨.hbm, 978, rfl⟩
abbrev main_v719 : Ref sig .tc := ⟨.hbm, 979, rfl⟩
abbrev main_c_107 : Ref sig .tc := ⟨.hbm, 980, rfl⟩
abbrev main_v720 : Ref sig .tc := ⟨.hbm, 981, rfl⟩
abbrev main_v721 : Ref sig .tc := ⟨.hbm, 982, rfl⟩
abbrev main_c_108 : Ref sig .tc := ⟨.hbm, 983, rfl⟩
abbrev main_v722 : Ref sig .tc := ⟨.hbm, 984, rfl⟩
abbrev main_v723 : Ref sig .tc := ⟨.hbm, 985, rfl⟩
abbrev main_v724 : Ref sig .tc := ⟨.hbm, 986, rfl⟩
abbrev main_c_109 : Ref sig .tc := ⟨.hbm, 987, rfl⟩
abbrev main_v725 : Ref sig .tc := ⟨.hbm, 988, rfl⟩
abbrev main_v726 : Ref sig .tc := ⟨.hbm, 989, rfl⟩
abbrev main_c_110 : Ref sig .tc := ⟨.hbm, 990, rfl⟩
abbrev main_v727 : Ref sig .tc := ⟨.hbm, 991, rfl⟩
abbrev main_v728 : Ref sig .tc := ⟨.hbm, 992, rfl⟩
abbrev main_v729 : Ref sig .tc := ⟨.hbm, 993, rfl⟩
abbrev main_c_111 : Ref sig .tc := ⟨.hbm, 994, rfl⟩
abbrev main_v730 : Ref sig .tc := ⟨.hbm, 995, rfl⟩
abbrev main_v731 : Ref sig .tc := ⟨.hbm, 996, rfl⟩
abbrev main_v732 : Ref sig .tc := ⟨.hbm, 997, rfl⟩
abbrev main_c_112 : Ref sig .tc := ⟨.hbm, 998, rfl⟩
abbrev main_v733 : Ref sig .tc := ⟨.hbm, 999, rfl⟩
abbrev main_v734 : Ref sig .tc := ⟨.hbm, 1000, rfl⟩
abbrev main_c_113 : Ref sig .tc := ⟨.hbm, 1001, rfl⟩
abbrev main_v735 : Ref sig .tc := ⟨.hbm, 1002, rfl⟩
abbrev main_v736 : Ref sig .tc := ⟨.hbm, 1003, rfl⟩
abbrev main_c_114 : Ref sig .tc := ⟨.hbm, 1004, rfl⟩
abbrev main_v737 : Ref sig .tc := ⟨.hbm, 1005, rfl⟩
abbrev main_v738 : Ref sig .tc := ⟨.hbm, 1006, rfl⟩
abbrev main_c_115 : Ref sig .tc := ⟨.hbm, 1007, rfl⟩
abbrev main_v739 : Ref sig .tc := ⟨.hbm, 1008, rfl⟩
abbrev main_v740 : Ref sig .tc := ⟨.hbm, 1009, rfl⟩
abbrev main_v741 : Ref sig .tc := ⟨.hbm, 1010, rfl⟩
abbrev main_c_116 : Ref sig .tc := ⟨.hbm, 1011, rfl⟩
abbrev main_v742 : Ref sig .tc := ⟨.hbm, 1012, rfl⟩
abbrev main_v743 : Ref sig .tc := ⟨.hbm, 1013, rfl⟩
abbrev main_c_117 : Ref sig .tc := ⟨.hbm, 1014, rfl⟩
abbrev main_v744 : Ref sig .tc := ⟨.hbm, 1015, rfl⟩
abbrev main_v745 : Ref sig .tc := ⟨.hbm, 1016, rfl⟩
abbrev main_v746 : Ref sig .tc := ⟨.hbm, 1017, rfl⟩
abbrev main_c_118 : Ref sig .tc := ⟨.hbm, 1018, rfl⟩
abbrev main_v747 : Ref sig .tc := ⟨.hbm, 1019, rfl⟩
abbrev main_v748 : Ref sig .tc := ⟨.hbm, 1020, rfl⟩
abbrev main_v749 : Ref sig .tc := ⟨.hbm, 1021, rfl⟩
abbrev main_c_119 : Ref sig .tc := ⟨.hbm, 1022, rfl⟩
abbrev main_v750 : Ref sig .tc := ⟨.hbm, 1023, rfl⟩
abbrev main_v751 : Ref sig .tc := ⟨.hbm, 1024, rfl⟩
abbrev main_c_120 : Ref sig .tc := ⟨.hbm, 1025, rfl⟩
abbrev main_v752 : Ref sig .tc := ⟨.hbm, 1026, rfl⟩
abbrev main_v753 : Ref sig .tc := ⟨.hbm, 1027, rfl⟩
abbrev main_c_121 : Ref sig .tc := ⟨.hbm, 1028, rfl⟩
abbrev main_v754 : Ref sig .tc := ⟨.hbm, 1029, rfl⟩
abbrev main_v755 : Ref sig .tc := ⟨.hbm, 1030, rfl⟩
abbrev main_c_122 : Ref sig .tc := ⟨.hbm, 1031, rfl⟩
abbrev main_v756 : Ref sig .tc := ⟨.hbm, 1032, rfl⟩
abbrev main_v757 : Ref sig .tc := ⟨.hbm, 1033, rfl⟩
abbrev main_v758 : Ref sig .tc := ⟨.hbm, 1034, rfl⟩
abbrev main_c_123 : Ref sig .tc := ⟨.hbm, 1035, rfl⟩
abbrev main_v759 : Ref sig .tc := ⟨.hbm, 1036, rfl⟩
abbrev main_v760 : Ref sig .tc := ⟨.hbm, 1037, rfl⟩
abbrev main_c_124 : Ref sig .tc := ⟨.hbm, 1038, rfl⟩
abbrev main_v761 : Ref sig .tc := ⟨.hbm, 1039, rfl⟩
abbrev main_v762 : Ref sig .tc := ⟨.hbm, 1040, rfl⟩
abbrev main_v763 : Ref sig .tc := ⟨.hbm, 1041, rfl⟩
abbrev main_c_125 : Ref sig .tc := ⟨.hbm, 1042, rfl⟩
abbrev main_v764 : Ref sig .tc := ⟨.hbm, 1043, rfl⟩
abbrev main_v765 : Ref sig .tc := ⟨.hbm, 1044, rfl⟩
abbrev main_v766 : Ref sig .tc := ⟨.hbm, 1045, rfl⟩
abbrev main_c_126 : Ref sig .tc := ⟨.hbm, 1046, rfl⟩
abbrev main_v767 : Ref sig .tc := ⟨.hbm, 1047, rfl⟩
abbrev main_v768 : Ref sig .tc := ⟨.hbm, 1048, rfl⟩
abbrev main_c_127 : Ref sig .tc := ⟨.hbm, 1049, rfl⟩
abbrev main_v769 : Ref sig .tc := ⟨.hbm, 1050, rfl⟩
abbrev main_v770 : Ref sig .tc := ⟨.hbm, 1051, rfl⟩
abbrev main_c_128 : Ref sig .tc := ⟨.hbm, 1052, rfl⟩
abbrev main_v771 : Ref sig .tc := ⟨.hbm, 1053, rfl⟩
abbrev main_v772 : Ref sig .tc := ⟨.hbm, 1054, rfl⟩
abbrev main_c_129 : Ref sig .tc := ⟨.hbm, 1055, rfl⟩
abbrev main_v773 : Ref sig .tc := ⟨.hbm, 1056, rfl⟩
abbrev main_v774 : Ref sig .tc := ⟨.hbm, 1057, rfl⟩
abbrev main_v775 : Ref sig .tc := ⟨.hbm, 1058, rfl⟩
abbrev main_c_130 : Ref sig .tc := ⟨.hbm, 1059, rfl⟩
abbrev main_v776 : Ref sig .tc := ⟨.hbm, 1060, rfl⟩
abbrev main_v777 : Ref sig .tc := ⟨.hbm, 1061, rfl⟩
abbrev main_c_131 : Ref sig .tc := ⟨.hbm, 1062, rfl⟩
abbrev main_v778 : Ref sig .tc := ⟨.hbm, 1063, rfl⟩
abbrev main_v779 : Ref sig .tc := ⟨.hbm, 1064, rfl⟩
abbrev main_v780 : Ref sig .tc := ⟨.hbm, 1065, rfl⟩
abbrev main_c_132 : Ref sig .tc := ⟨.hbm, 1066, rfl⟩
abbrev main_v781 : Ref sig .tc := ⟨.hbm, 1067, rfl⟩
abbrev main_v782 : Ref sig .tc := ⟨.hbm, 1068, rfl⟩
abbrev main_v783 : Ref sig .tc := ⟨.hbm, 1069, rfl⟩
abbrev main_c_133 : Ref sig .tc := ⟨.hbm, 1070, rfl⟩
abbrev main_v784 : Ref sig .tc := ⟨.hbm, 1071, rfl⟩
abbrev main_v785 : Ref sig .tc := ⟨.hbm, 1072, rfl⟩
abbrev main_c_134 : Ref sig .tc := ⟨.hbm, 1073, rfl⟩
abbrev main_v786 : Ref sig .tc := ⟨.hbm, 1074, rfl⟩
abbrev main_v787 : Ref sig .tc := ⟨.hbm, 1075, rfl⟩
abbrev main_c_135 : Ref sig .tc := ⟨.hbm, 1076, rfl⟩
abbrev main_v788 : Ref sig .tc := ⟨.hbm, 1077, rfl⟩
abbrev main_v789 : Ref sig .tc := ⟨.hbm, 1078, rfl⟩
abbrev main_c_136 : Ref sig .tc := ⟨.hbm, 1079, rfl⟩
abbrev main_v790 : Ref sig .tc := ⟨.hbm, 1080, rfl⟩
abbrev main_v791 : Ref sig .tc := ⟨.hbm, 1081, rfl⟩
abbrev main_v792 : Ref sig .tc := ⟨.hbm, 1082, rfl⟩
abbrev main_c_137 : Ref sig .tc := ⟨.hbm, 1083, rfl⟩
abbrev main_v793 : Ref sig .tc := ⟨.hbm, 1084, rfl⟩
abbrev main_v794 : Ref sig .tc := ⟨.hbm, 1085, rfl⟩
abbrev main_c_138 : Ref sig .tc := ⟨.hbm, 1086, rfl⟩
abbrev main_v795 : Ref sig .tc := ⟨.hbm, 1087, rfl⟩
abbrev main_v796 : Ref sig .tc := ⟨.hbm, 1088, rfl⟩
abbrev main_v797 : Ref sig .tc := ⟨.hbm, 1089, rfl⟩
abbrev main_c_139 : Ref sig .tc := ⟨.hbm, 1090, rfl⟩
abbrev main_v798 : Ref sig .tc := ⟨.hbm, 1091, rfl⟩
abbrev main_v799 : Ref sig .tc := ⟨.hbm, 1092, rfl⟩
abbrev main_v800 : Ref sig .tc := ⟨.hbm, 1093, rfl⟩
abbrev main_c_140 : Ref sig .tc := ⟨.hbm, 1094, rfl⟩
abbrev main_v801 : Ref sig .tc := ⟨.hbm, 1095, rfl⟩
abbrev main_v802 : Ref sig .tc := ⟨.hbm, 1096, rfl⟩
abbrev main_c_141 : Ref sig .tc := ⟨.hbm, 1097, rfl⟩
abbrev main_v803 : Ref sig .tc := ⟨.hbm, 1098, rfl⟩
abbrev main_v804 : Ref sig .tc := ⟨.hbm, 1099, rfl⟩
abbrev main_c_142 : Ref sig .tc := ⟨.hbm, 1100, rfl⟩
abbrev main_v805 : Ref sig .tc := ⟨.hbm, 1101, rfl⟩
abbrev main_v806 : Ref sig .tc := ⟨.hbm, 1102, rfl⟩
abbrev main_c_143 : Ref sig .tc := ⟨.hbm, 1103, rfl⟩
abbrev main_v807 : Ref sig .tc := ⟨.hbm, 1104, rfl⟩
abbrev main_v808 : Ref sig .tc := ⟨.hbm, 1105, rfl⟩
abbrev main_v809 : Ref sig .tc := ⟨.hbm, 1106, rfl⟩
abbrev main_c_144 : Ref sig .tc := ⟨.hbm, 1107, rfl⟩
abbrev main_v810 : Ref sig .tc := ⟨.hbm, 1108, rfl⟩
abbrev main_v811 : Ref sig .tc := ⟨.hbm, 1109, rfl⟩
abbrev main_c_145 : Ref sig .tc := ⟨.hbm, 1110, rfl⟩
abbrev main_v812 : Ref sig .tc := ⟨.hbm, 1111, rfl⟩
abbrev main_v813 : Ref sig .tc := ⟨.hbm, 1112, rfl⟩
abbrev main_v814 : Ref sig .tc := ⟨.hbm, 1113, rfl⟩
abbrev main_c_146 : Ref sig .tc := ⟨.hbm, 1114, rfl⟩
abbrev main_v815 : Ref sig .tc := ⟨.hbm, 1115, rfl⟩
abbrev main_v816 : Ref sig .tc := ⟨.hbm, 1116, rfl⟩
abbrev main_v817 : Ref sig .tc := ⟨.hbm, 1117, rfl⟩
abbrev main_c_147 : Ref sig .tc := ⟨.hbm, 1118, rfl⟩
abbrev main_v818 : Ref sig .tc := ⟨.hbm, 1119, rfl⟩
abbrev main_v819 : Ref sig .tc := ⟨.hbm, 1120, rfl⟩
abbrev main_c_148 : Ref sig .tc := ⟨.hbm, 1121, rfl⟩
abbrev main_v820 : Ref sig .tc := ⟨.hbm, 1122, rfl⟩
abbrev main_v821 : Ref sig .tc := ⟨.hbm, 1123, rfl⟩
abbrev main_c_149 : Ref sig .tc := ⟨.hbm, 1124, rfl⟩
abbrev main_v822 : Ref sig .tc := ⟨.hbm, 1125, rfl⟩
abbrev main_v823 : Ref sig .tc := ⟨.hbm, 1126, rfl⟩
abbrev main_c_150 : Ref sig .tc := ⟨.hbm, 1127, rfl⟩
abbrev main_v824 : Ref sig .tc := ⟨.hbm, 1128, rfl⟩
abbrev main_v825 : Ref sig .tc := ⟨.hbm, 1129, rfl⟩
abbrev main_v826 : Ref sig .tc := ⟨.hbm, 1130, rfl⟩
abbrev main_c_151 : Ref sig .tc := ⟨.hbm, 1131, rfl⟩
abbrev main_v827 : Ref sig .tc := ⟨.hbm, 1132, rfl⟩
abbrev main_v828 : Ref sig .tc := ⟨.hbm, 1133, rfl⟩
abbrev main_c_152 : Ref sig .tc := ⟨.hbm, 1134, rfl⟩
abbrev main_v829 : Ref sig .tc := ⟨.hbm, 1135, rfl⟩
abbrev main_v830 : Ref sig .tc := ⟨.hbm, 1136, rfl⟩
abbrev main_v831 : Ref sig .tc := ⟨.hbm, 1137, rfl⟩
abbrev main_c_153 : Ref sig .tc := ⟨.hbm, 1138, rfl⟩
abbrev main_v832 : Ref sig .tc := ⟨.hbm, 1139, rfl⟩
abbrev main_v833 : Ref sig .tc := ⟨.hbm, 1140, rfl⟩
abbrev main_v834 : Ref sig .tc := ⟨.hbm, 1141, rfl⟩
abbrev main_c_154 : Ref sig .tc := ⟨.hbm, 1142, rfl⟩
abbrev main_v835 : Ref sig .tc := ⟨.hbm, 1143, rfl⟩
abbrev main_v836 : Ref sig .tc := ⟨.hbm, 1144, rfl⟩
abbrev main_c_155 : Ref sig .tc := ⟨.hbm, 1145, rfl⟩
abbrev main_v837 : Ref sig .tc := ⟨.hbm, 1146, rfl⟩
abbrev main_v838 : Ref sig .tc := ⟨.hbm, 1147, rfl⟩
abbrev main_c_156 : Ref sig .tc := ⟨.hbm, 1148, rfl⟩
abbrev main_v839 : Ref sig .tc := ⟨.hbm, 1149, rfl⟩
abbrev main_v840 : Ref sig .tc := ⟨.hbm, 1150, rfl⟩
abbrev main_c_157 : Ref sig .tc := ⟨.hbm, 1151, rfl⟩
abbrev main_v841 : Ref sig .tc := ⟨.hbm, 1152, rfl⟩
abbrev main_v842 : Ref sig .tc := ⟨.hbm, 1153, rfl⟩
abbrev main_v843 : Ref sig .tc := ⟨.hbm, 1154, rfl⟩
abbrev main_c_158 : Ref sig .tc := ⟨.hbm, 1155, rfl⟩
abbrev main_v844 : Ref sig .tc := ⟨.hbm, 1156, rfl⟩
abbrev main_v845 : Ref sig .tc := ⟨.hbm, 1157, rfl⟩
abbrev main_c_159 : Ref sig .tc := ⟨.hbm, 1158, rfl⟩
abbrev main_v846 : Ref sig .tc := ⟨.hbm, 1159, rfl⟩
abbrev main_v847 : Ref sig .tc := ⟨.hbm, 1160, rfl⟩
abbrev main_v848 : Ref sig .tc := ⟨.hbm, 1161, rfl⟩
abbrev main_c_160 : Ref sig .tc := ⟨.hbm, 1162, rfl⟩
abbrev main_v849 : Ref sig .tc := ⟨.hbm, 1163, rfl⟩
abbrev main_v850 : Ref sig .tc := ⟨.hbm, 1164, rfl⟩
abbrev main_v851 : Ref sig .tc := ⟨.hbm, 1165, rfl⟩
abbrev main_v852 : Ref sig .tc := ⟨.hbm, 1166, rfl⟩
abbrev main_v853 : Ref sig .tc := ⟨.hbm, 1167, rfl⟩
abbrev main_v854 : Ref sig .tc := ⟨.hbm, 1168, rfl⟩
abbrev main_v855 : Ref sig .tc := ⟨.hbm, 1169, rfl⟩
abbrev main_v856 : Ref sig .tc := ⟨.hbm, 1170, rfl⟩
abbrev main_v857 : Ref sig .tc := ⟨.hbm, 1171, rfl⟩
abbrev main_v858 : Ref sig .tc := ⟨.hbm, 1172, rfl⟩
abbrev main_v859 : Ref sig .tc := ⟨.hbm, 1173, rfl⟩
abbrev main_v860 : Ref sig .tc := ⟨.hbm, 1174, rfl⟩
abbrev main_v861 : Ref sig .tc := ⟨.hbm, 1175, rfl⟩
abbrev main_v862 : Ref sig .tc := ⟨.hbm, 1176, rfl⟩
abbrev main_v863 : Ref sig .tc := ⟨.hbm, 1177, rfl⟩
abbrev main_v864 : Ref sig .tc := ⟨.hbm, 1178, rfl⟩
abbrev main_v865 : Ref sig .tc := ⟨.hbm, 1179, rfl⟩
abbrev main_v866 : Ref sig .tc := ⟨.hbm, 1180, rfl⟩
abbrev main_v867 : Ref sig .tc := ⟨.hbm, 1181, rfl⟩
abbrev main_v868 : Ref sig .tc := ⟨.hbm, 1182, rfl⟩
abbrev main_call10_c : Ref sig .tc := ⟨.hbm, 1183, rfl⟩
abbrev main_call10_v0 : Ref sig .tc := ⟨.hbm, 1184, rfl⟩
abbrev main_call10_v1 : Ref sig .tc := ⟨.hbm, 1185, rfl⟩
abbrev main_call10_c_0 : Ref sig .tc := ⟨.hbm, 1186, rfl⟩
abbrev main_call10_v2 : Ref sig .tc := ⟨.hbm, 1187, rfl⟩
abbrev main_call10_v3 : Ref sig .tc := ⟨.hbm, 1188, rfl⟩
abbrev main_call10_v4 : Ref sig .tc := ⟨.hbm, 1189, rfl⟩
abbrev main_call10_v5 : Ref sig .tc := ⟨.hbm, 1190, rfl⟩
abbrev main_call10_c_1 : Ref sig .tc := ⟨.hbm, 1191, rfl⟩
abbrev main_call10_c_2 : Ref sig .tc := ⟨.hbm, 1192, rfl⟩
abbrev main_call10_v6 : Ref sig .tc := ⟨.hbm, 1193, rfl⟩
abbrev main_call10_v7 : Ref sig .tc := ⟨.hbm, 1194, rfl⟩
abbrev main_call10_v8 : Ref sig .tc := ⟨.hbm, 1195, rfl⟩
abbrev main_call10_v9 : Ref sig .tc := ⟨.hbm, 1196, rfl⟩
abbrev main_call10_v10 : Ref sig .tc := ⟨.hbm, 1197, rfl⟩
abbrev main_call10_v11 : Ref sig .tc := ⟨.hbm, 1198, rfl⟩
abbrev main_call10_c_3 : Ref sig .tc := ⟨.hbm, 1199, rfl⟩
abbrev main_call10_v12 : Ref sig .tc := ⟨.hbm, 1200, rfl⟩
abbrev main_call10_v13 : Ref sig .tc := ⟨.hbm, 1201, rfl⟩
abbrev main_call10_v14 : Ref sig .tc := ⟨.hbm, 1202, rfl⟩
abbrev main_call10_cst : Ref sig .tc := ⟨.hbm, 1203, rfl⟩
abbrev main_call10_v15 : Ref sig .tc := ⟨.hbm, 1204, rfl⟩
abbrev main_v869 : Ref sig .tc := ⟨.hbm, 1205, rfl⟩
abbrev main_v870 : Ref sig .tc := ⟨.hbm, 1206, rfl⟩
abbrev main_v871 : Ref sig .tc := ⟨.hbm, 1207, rfl⟩
abbrev main_v872 : Ref sig .tc := ⟨.hbm, 1208, rfl⟩
abbrev main_v873 : Ref sig .tc := ⟨.hbm, 1209, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x16x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S4x1x257x257_S4x1x256x256_0_0_0_0 : S4x1x257x257.Slices ![0, 0, 0, 0] S4x1x256x256
  slices_S4x1x257x257_S4x1x256x256_0_0_0_1 : S4x1x257x257.Slices ![0, 0, 0, 1] S4x1x256x256
  slices_S4x1x257x257_S4x1x256x256_0_0_1_0 : S4x1x257x257.Slices ![0, 0, 1, 0] S4x1x256x256
  slices_S4x1x257x257_S4x1x256x256_0_0_1_1 : S4x1x257x257.Slices ![0, 0, 1, 1] S4x1x256x256
  bcast_S_S4x1x256x256 : S_.BroadcastsInDim S4x1x256x256 (![] : Fin 0 → Fin S4x1x256x256.rank)
  shapeCasts_S4x1x256x256_S262144 : S4x1x256x256.ShapeCasts S262144
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x1_S262144x1_S262144x1_S262144x1_S262144x1_S262144x1_S262144x1_S262144x1_S262144x1_S262144x1_S262144x1_S262144x1_S262144x1_S262144x1_S262144x16_d1 : Shape.Concatenates [S262144x1, S262144x1, S262144x1, S262144x1, S262144x1, S262144x1, S262144x1, S262144x1, S262144x1, S262144x1, S262144x1, S262144x1, S262144x1, S262144x1, S262144x1, S262144x1] S262144x16 1
  bcast_S_S83521x16 : S_.BroadcastsInDim S83521x16 (![] : Fin 0 → Fin S83521x16.rank)
  bcast_S_S262144x16 : S_.BroadcastsInDim S262144x16 (![] : Fin 0 → Fin S262144x16.rank)
  bcast_S262144x16_S262144x16x1_0_1 : S262144x16.BroadcastsInDim S262144x16x1 (![0, 1] : Fin 2 → Fin S262144x16x1.rank)
  bcast_S_S262144x16x1 : S_.BroadcastsInDim S262144x16x1 (![] : Fin 0 → Fin S262144x16x1.rank)
  bcast_S1_S1x1x1_2 : S1.BroadcastsInDim S1x1x1 (![2] : Fin 1 → Fin S1x1x1.rank)
  bcast_S1x1x1_S262144x16x1_0_1_2 : S1x1x1.BroadcastsInDim S262144x16x1 (![0, 1, 2] : Fin 3 → Fin S262144x16x1.rank)
  reducesTo_S262144x16x1_S262144x16_d2 : S262144x16x1.ReducesTo [2] S262144x16
  h_S_ : 0 < S_.numel
  bcast_S262144x16_S262144x16x16_0_1 : S262144x16.BroadcastsInDim S262144x16x16 (![0, 1] : Fin 2 → Fin S262144x16x16.rank)
  bcast_S_S262144x16x16 : S_.BroadcastsInDim S262144x16x16 (![] : Fin 0 → Fin S262144x16x16.rank)
  inb_S1024x16x16_S1024x16x16_0_0_0 : ∀ a, (![0, 0, 0] : Fin 3 → Nat) a + S1024x16x16.size a ≤ S1024x16x16.size a
  h_S1024x16x16 : 0 < S1024x16x16.numel
  shapeCasts_S1024x16x16_S1024x16x16 : S1024x16x16.ShapeCasts S1024x16x16
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  shapeCasts_S1024x16_S1024x16x1 : S1024x16.ShapeCasts S1024x16x1
  broadcasts_S1024x16x1_S1024x16x16 : S1024x16x1.Broadcasts S1024x16x16
  reduces_S1024x16x16_S1024x16 : S1024x16x16.Reduces [1] S1024x16
  shapeCasts_S262144x16_S4x1x256x256x4x4 : S262144x16.ShapeCasts S4x1x256x256x4x4
  transposes_S4x1x256x256x4x4_S4x1x256x4x256x4_0_1_2_4_3_5 : S4x1x256x256x4x4.Transposes [0, 1, 2, 4, 3, 5] S4x1x256x4x256x4
  shapeCasts_S4x1x256x4x256x4_S4x1x1024x1024 : S4x1x256x4x256x4.ShapeCasts S4x1x1024x1024
  gather_S83521x16_S262144x16x1_S262144x16x16_2_0_n_n_0_2_116_wf : GatherDims.WF S83521x16 S262144x16x1 S262144x16x16 [2] [0] [] [0] [] 2 ![1, 16]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x16x16.size a ≤ S262144x16x16.size a
  hwx0_0 : ∀ i : grid0.Coords, EltTy.bits .f32 = 32 ∨ (Rect.block (s := S262144x16x16) S1024x16x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x16.size a ≤ S262144x16.size a
  hwx0_1 : ∀ i : grid0.Coords, EltTy.bits .f32 = 32 ∨ (Rect.block (s := S262144x16) S1024x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S262144x16.size a
  hwx0_2 : ∀ i : grid0.Coords, EltTy.bits .f32 = 32 ∨ (Rect.block (s := S262144x16) S1024x16.size (cc0_transform_2 i) (hinb0_2 i)).WholeWords (EltTy.packing .f32)

variable [Facts₀]

def gather_S83521x16_S262144x16x1_S262144x16x16_2_0_n_n_0_2_116 : GatherDims S83521x16 S262144x16x1 S262144x16x16 where
  offsetDims := [2]
  collapsedSliceDims := [0]
  operandBatchingDims := []
  startIndicesBatchingDims := []
  startIndexMap := [0]
  indexVectorDim := 2
  sliceSizes := ![1, 16]
  wf := gather_S83521x16_S262144x16x1_S262144x16x16_2_0_n_n_0_2_116_wf

abbrev win0_0 : Pipeline.Window sig grid0 :=
  Pipeline.Window.ofSpec (Memref.whole main_v869) S1024x16x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v575) S1024x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v870) S1024x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x1x257x257 : Shape := ⟨4, ![4, 1, 257, 257]⟩
abbrev S83521x16 : Shape := ⟨2, ![83521, 16]⟩
abbrev S_ : Shape := ⟨0, ![]⟩
abbrev S4x1x256x256 : Shape := ⟨4, ![4, 1, 256, 256]⟩
abbrev S262144 : Shape := ⟨1, ![262144]⟩
abbrev S262144x16 : Shape := ⟨2, ![262144, 16]⟩
abbrev S262144x1 : Shape := ⟨2, ![262144, 1]⟩
abbrev S4x1x256x256x4x4 : Shape := ⟨6, ![4, 1, 256, 256, 4, 4]⟩
abbrev S4x1x256x4x256x4 : Shape := ⟨6, ![4, 1, 256, 4, 256, 4]⟩
abbrev S4x1x1024x1024 : Shape := ⟨4, ![4, 1, 1024, 1024]⟩

abbrev nBuf : Space → Nat
  | .hbm => 1367
  | .vmem => 0
  | .smem => 0
  | _ => 0

abbrev hbmTy0_0 (i : Nat) : BufTy := match i % 128 with
  | 0 => ⟨S4x1x257x257, .i32⟩
  | 1 => ⟨S83521x16, .f32⟩
  | 2 => ⟨S_, .f32⟩
  | 3 => ⟨S83521x16, .f32⟩
  | 4 => ⟨S83521x16, .f32⟩
  | 5 => ⟨S83521x16, .f32⟩
  | 6 => ⟨S83521x16, .f32⟩
  | 7 => ⟨S83521x16, .f32⟩
  | 8 => ⟨S_, .f32⟩
  | 9 => ⟨S_, .f32⟩
  | 10 => ⟨S_, .f32⟩
  | 11 => ⟨S83521x16, .f32⟩
  | 12 => ⟨S83521x16, .f32⟩
  | 13 => ⟨S_, .f32⟩
  | 14 => ⟨S83521x16, .f32⟩
  | 15 => ⟨S83521x16, .f32⟩
  | 16 => ⟨S4x1x256x256, .i32⟩
  | 17 => ⟨S4x1x256x256, .i32⟩
  | 18 => ⟨S4x1x256x256, .i32⟩
  | 19 => ⟨S4x1x256x256, .i32⟩
  | 20 => ⟨S_, .i32⟩
  | 21 => ⟨S_, .i32⟩
  | 22 => ⟨S4x1x256x256, .i32⟩
  | 23 => ⟨S4x1x256x256, .i32⟩
  | 24 => ⟨S4x1x256x256, .i32⟩
  | 25 => ⟨S_, .i32⟩
  | 26 => ⟨S4x1x256x256, .i32⟩
  | 27 => ⟨S4x1x256x256, .i1⟩
  | 28 => ⟨S4x1x256x256, .i32⟩
  | 29 => ⟨S4x1x256x256, .i32⟩
  | 30 => ⟨S_, .i32⟩
  | 31 => ⟨S4x1x256x256, .i32⟩
  | 32 => ⟨S4x1x256x256, .i1⟩
  | 33 => ⟨S4x1x256x256, .i1⟩
  | 34 => ⟨S_, .i32⟩
  | 35 => ⟨S4x1x256x256, .i32⟩
  | 36 => ⟨S4x1x256x256, .i32⟩
  | 37 => ⟨S4x1x256x256, .i32⟩
  | 38 => ⟨S262144, .i32⟩
  | 39 => ⟨S_, .i32⟩
  | 40 => ⟨S_, .i32⟩
  | 41 => ⟨S4x1x256x256, .i32⟩
  | 42 => ⟨S4x1x256x256, .i32⟩
  | 43 => ⟨S4x1x256x256, .i32⟩
  | 44 => ⟨S_, .i32⟩
  | 45 => ⟨S4x1x256x256, .i32⟩
  | 46 => ⟨S4x1x256x256, .i1⟩
  | 47 => ⟨S4x1x256x256, .i32⟩
  | 48 => ⟨S4x1x256x256, .i32⟩
  | 49 => ⟨S_, .i32⟩
  | 50 => ⟨S4x1x256x256, .i32⟩
  | 51 => ⟨S4x1x256x256, .i1⟩
  | 52 => ⟨S4x1x256x256, .i1⟩
  | 53 => ⟨S_, .i32⟩
  | 54 => ⟨S4x1x256x256, .i32⟩
  | 55 => ⟨S4x1x256x256, .i32⟩
  | 56 => ⟨S4x1x256x256, .i32⟩
  | 57 => ⟨S262144, .i32⟩
  | 58 => ⟨S_, .i32⟩
  | 59 => ⟨S_, .i32⟩
  | 60 => ⟨S4x1x256x256, .i32⟩
  | 61 => ⟨S4x1x256x256, .i32⟩
  | 62 => ⟨S4x1x256x256, .i32⟩
  | 63 => ⟨S_, .i32⟩
  | 64 => ⟨S4x1x256x256, .i32⟩
  | 65 => ⟨S4x1x256x256, .i1⟩
  | 66 => ⟨S4x1x256x256, .i32⟩
  | 67 => ⟨S4x1x256x256, .i32⟩
  | 68 => ⟨S_, .i32⟩
  | 69 => ⟨S4x1x256x256, .i32⟩
  | 70 => ⟨S4x1x256x256, .i1⟩
  | 71 => ⟨S4x1x256x256, .i1⟩
  | 72 => ⟨S_, .i32⟩
  | 73 => ⟨S4x1x256x256, .i32⟩
  | 74 => ⟨S4x1x256x256, .i32⟩
  | 75 => ⟨S4x1x256x256, .i32⟩
  | 76 => ⟨S262144, .i32⟩
  | 77 => ⟨S_, .i32⟩
  | 78 => ⟨S_, .i32⟩
  | 79 => ⟨S4x1x256x256, .i32⟩
  | 80 => ⟨S4x1x256x256, .i32⟩
  | 81 => ⟨S4x1x256x256, .i32⟩
  | 82 => ⟨S_, .i32⟩
  | 83 => ⟨S4x1x256x256, .i32⟩
  | 84 => ⟨S4x1x256x256, .i1⟩
  | 85 => ⟨S4x1x256x256, .i32⟩
  | 86 => ⟨S4x1x256x256, .i32⟩
  | 87 => ⟨S_, .i32⟩
  | 88 => ⟨S4x1x256x256, .i32⟩
  | 89 => ⟨S4x1x256x256, .i1⟩
  | 90 => ⟨S4x1x256x256, .i1⟩
  | 91 => ⟨S_, .i32⟩
  | 92 => ⟨S4x1x256x256, .i32⟩
  | 93 => ⟨S4x1x256x256, .i32⟩
  | 94 => ⟨S4x1x256x256, .i32⟩
  | 95 => ⟨S262144, .i32⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S4x1x256x256, .i32⟩
  | 103 => ⟨S4x1x256x256, .i32⟩
  | 104 => ⟨S_, .i32⟩
  | 105 => ⟨S4x1x256x256, .i32⟩
  | 106 => ⟨S4x1x256x256, .i1⟩
  | 107 => ⟨S_, .i32⟩
  | 108 => ⟨S4x1x256x256, .i32⟩
  | 109 => ⟨S4x1x256x256, .i1⟩
  | 110 => ⟨S_, .i32⟩
  | 111 => ⟨S_, .i1⟩
  | 112 => ⟨S4x1x256x256, .i1⟩
  | 113 => ⟨S4x1x256x256, .i1⟩
  | 114 => ⟨S4x1x256x256, .i1⟩
  | 115 => ⟨S4x1x256x256, .i32⟩
  | 116 => ⟨S4x1x256x256, .i32⟩
  | 117 => ⟨S4x1x256x256, .i32⟩
  | 118 => ⟨S262144, .i32⟩
  | 119 => ⟨S262144, .f32⟩
  | 120 => ⟨S_, .i32⟩
  | 121 => ⟨S_, .i32⟩
  | 122 => ⟨S_, .i32⟩
  | 123 => ⟨S_, .i1⟩
  | 124 => ⟨S_, .i32⟩
  | 125 => ⟨S_, .i32⟩
  | 126 => ⟨S4x1x256x256, .i32⟩
  | 127 => ⟨S4x1x256x256, .i32⟩
  | _ => ⟨S4x1x257x257, .i32⟩

abbrev hbmTy0_1 (i : Nat) : BufTy := match i % 128 with
  | 0 => ⟨S_, .i32⟩
  | 1 => ⟨S4x1x256x256, .i32⟩
  | 2 => ⟨S4x1x256x256, .i1⟩
  | 3 => ⟨S_, .i32⟩
  | 4 => ⟨S4x1x256x256, .i32⟩
  | 5 => ⟨S4x1x256x256, .i1⟩
  | 6 => ⟨S_, .i32⟩
  | 7 => ⟨S_, .i1⟩
  | 8 => ⟨S4x1x256x256, .i1⟩
  | 9 => ⟨S4x1x256x256, .i1⟩
  | 10 => ⟨S4x1x256x256, .i1⟩
  | 11 => ⟨S4x1x256x256, .i32⟩
  | 12 => ⟨S4x1x256x256, .i32⟩
  | 13 => ⟨S4x1x256x256, .i32⟩
  | 14 => ⟨S262144, .i32⟩
  | 15 => ⟨S262144, .f32⟩
  | 16 => ⟨S_, .i32⟩
  | 17 => ⟨S_, .i32⟩
  | 18 => ⟨S_, .i32⟩
  | 19 => ⟨S_, .i1⟩
  | 20 => ⟨S_, .i32⟩
  | 21 => ⟨S_, .i32⟩
  | 22 => ⟨S4x1x256x256, .i32⟩
  | 23 => ⟨S4x1x256x256, .i32⟩
  | 24 => ⟨S_, .i32⟩
  | 25 => ⟨S4x1x256x256, .i32⟩
  | 26 => ⟨S4x1x256x256, .i1⟩
  | 27 => ⟨S_, .i32⟩
  | 28 => ⟨S4x1x256x256, .i32⟩
  | 29 => ⟨S4x1x256x256, .i1⟩
  | 30 => ⟨S_, .i32⟩
  | 31 => ⟨S_, .i1⟩
  | 32 => ⟨S4x1x256x256, .i1⟩
  | 33 => ⟨S4x1x256x256, .i1⟩
  | 34 => ⟨S4x1x256x256, .i1⟩
  | 35 => ⟨S4x1x256x256, .i32⟩
  | 36 => ⟨S4x1x256x256, .i32⟩
  | 37 => ⟨S4x1x256x256, .i32⟩
  | 38 => ⟨S262144, .i32⟩
  | 39 => ⟨S262144, .f32⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S4x1x256x256, .i32⟩
  | 47 => ⟨S4x1x256x256, .i32⟩
  | 48 => ⟨S_, .i32⟩
  | 49 => ⟨S4x1x256x256, .i32⟩
  | 50 => ⟨S4x1x256x256, .i1⟩
  | 51 => ⟨S_, .i32⟩
  | 52 => ⟨S4x1x256x256, .i32⟩
  | 53 => ⟨S4x1x256x256, .i1⟩
  | 54 => ⟨S_, .i32⟩
  | 55 => ⟨S_, .i1⟩
  | 56 => ⟨S4x1x256x256, .i1⟩
  | 57 => ⟨S4x1x256x256, .i1⟩
  | 58 => ⟨S4x1x256x256, .i1⟩
  | 59 => ⟨S4x1x256x256, .i32⟩
  | 60 => ⟨S4x1x256x256, .i32⟩
  | 61 => ⟨S4x1x256x256, .i32⟩
  | 62 => ⟨S262144, .i32⟩
  | 63 => ⟨S262144, .f32⟩
  | 64 => ⟨S262144, .i1⟩
  | 65 => ⟨S262144, .i1⟩
  | 66 => ⟨S262144, .i1⟩
  | 67 => ⟨S262144, .i1⟩
  | 68 => ⟨S262144, .i1⟩
  | 69 => ⟨S262144, .i1⟩
  | 70 => ⟨S262144, .i1⟩
  | 71 => ⟨S262144, .i1⟩
  | 72 => ⟨S262144, .i1⟩
  | 73 => ⟨S262144, .i1⟩
  | 74 => ⟨S262144, .i1⟩
  | 75 => ⟨S262144, .i1⟩
  | 76 => ⟨S262144, .i1⟩
  | 77 => ⟨S262144, .i1⟩
  | 78 => ⟨S262144, .i1⟩
  | 79 => ⟨S262144, .i1⟩
  | 80 => ⟨S262144, .i1⟩
  | 81 => ⟨S262144, .i1⟩
  | 82 => ⟨S262144, .i1⟩
  | 83 => ⟨S262144, .i1⟩
  | 84 => ⟨S262144, .i1⟩
  | 85 => ⟨S262144, .i1⟩
  | 86 => ⟨S262144, .i1⟩
  | 87 => ⟨S262144, .i1⟩
  | 88 => ⟨S262144, .i1⟩
  | 89 => ⟨S262144, .i1⟩
  | 90 => ⟨S262144, .i1⟩
  | 91 => ⟨S262144, .i1⟩
  | 92 => ⟨S262144, .i1⟩
  | 93 => ⟨S262144, .i1⟩
  | 94 => ⟨S262144, .i1⟩
  | 95 => ⟨S262144, .i1⟩
  | 96 => ⟨S262144, .i1⟩
  | 97 => ⟨S262144, .i1⟩
  | 98 => ⟨S262144, .i1⟩
  | 99 => ⟨S262144, .i1⟩
  | 100 => ⟨S262144, .i1⟩
  | 101 => ⟨S262144, .i1⟩
  | 102 => ⟨S262144, .i1⟩
  | 103 => ⟨S262144, .i1⟩
  | 104 => ⟨S262144, .i1⟩
  | 105 => ⟨S262144, .i1⟩
  | 106 => ⟨S262144, .i1⟩
  | 107 => ⟨S262144, .i1⟩
  | 108 => ⟨S262144, .i1⟩
  | 109 => ⟨S262144, .i1⟩
  | 110 => ⟨S262144, .i1⟩
  | 111 => ⟨S262144, .i1⟩
  | 112 => ⟨S262144, .i1⟩
  | 113 => ⟨S262144, .i1⟩
  | 114 => ⟨S262144, .i1⟩
  | 115 => ⟨S262144, .i1⟩
  | 116 => ⟨S262144, .i1⟩
  | 117 => ⟨S262144, .i1⟩
  | 118 => ⟨S262144, .i1⟩
  | 119 => ⟨S262144, .i1⟩
  | 120 => ⟨S262144, .i1⟩
  | 121 => ⟨S262144, .i1⟩
  | 122 => ⟨S262144, .i1⟩
  | 123 => ⟨S262144, .i1⟩
  | 124 => ⟨S262144, .i1⟩
  | 125 => ⟨S262144, .i1⟩
  | 126 => ⟨S262144, .i1⟩
  | 127 => ⟨S262144, .i1⟩
  | _ => ⟨S4x1x257x257, .i32⟩

abbrev hbmTy0_2 (i : Nat) : BufTy := match i % 128 with
  | 0 => ⟨S262144, .i1⟩
  | 1 => ⟨S262144, .i1⟩
  | 2 => ⟨S262144, .i1⟩
  | 3 => ⟨S262144, .i1⟩
  | 4 => ⟨S262144, .i1⟩
  | 5 => ⟨S262144, .i1⟩
  | 6 => ⟨S262144, .i1⟩
  | 7 => ⟨S262144, .i1⟩
  | 8 => ⟨S262144, .i1⟩
  | 9 => ⟨S262144, .i1⟩
  | 10 => ⟨S262144, .i1⟩
  | 11 => ⟨S262144, .i1⟩
  | 12 => ⟨S262144, .i1⟩
  | 13 => ⟨S262144, .i1⟩
  | 14 => ⟨S262144, .i1⟩
  | 15 => ⟨S262144, .i1⟩
  | 16 => ⟨S262144, .i1⟩
  | 17 => ⟨S262144, .i1⟩
  | 18 => ⟨S262144, .i1⟩
  | 19 => ⟨S262144, .i1⟩
  | 20 => ⟨S262144, .i1⟩
  | 21 => ⟨S262144, .i1⟩
  | 22 => ⟨S262144, .i1⟩
  | 23 => ⟨S262144, .i1⟩
  | 24 => ⟨S262144, .i1⟩
  | 25 => ⟨S262144, .i1⟩
  | 26 => ⟨S262144, .i1⟩
  | 27 => ⟨S262144, .i1⟩
  | 28 => ⟨S262144, .i1⟩
  | 29 => ⟨S262144, .i1⟩
  | 30 => ⟨S262144, .i1⟩
  | 31 => ⟨S262144, .i1⟩
  | 32 => ⟨S262144, .i1⟩
  | 33 => ⟨S262144, .i1⟩
  | 34 => ⟨S262144, .i1⟩
  | 35 => ⟨S262144, .i1⟩
  | 36 => ⟨S262144, .i1⟩
  | 37 => ⟨S262144, .i1⟩
  | 38 => ⟨S262144, .i1⟩
  | 39 => ⟨S262144, .i1⟩
  | 40 => ⟨S262144, .i1⟩
  | 41 => ⟨S262144, .i1⟩
  | 42 => ⟨S262144, .i1⟩
  | 43 => ⟨S262144, .i1⟩
  | 44 => ⟨S262144, .i1⟩
  | 45 => ⟨S262144, .i1⟩
  | 46 => ⟨S262144, .i1⟩
  | 47 => ⟨S262144, .i1⟩
  | 48 => ⟨S262144, .i1⟩
  | 49 => ⟨S262144, .i1⟩
  | 50 => ⟨S262144, .i1⟩
  | 51 => ⟨S262144, .i1⟩
  | 52 => ⟨S262144, .i1⟩
  | 53 => ⟨S262144, .i1⟩
  | 54 => ⟨S262144, .i1⟩
  | 55 => ⟨S262144, .i1⟩
  | 56 => ⟨S262144, .i1⟩
  | 57 => ⟨S262144, .i1⟩
  | 58 => ⟨S262144, .i1⟩
  | 59 => ⟨S262144, .i1⟩
  | 60 => ⟨S262144, .i1⟩
  | 61 => ⟨S262144, .i1⟩
  | 62 => ⟨S262144, .i1⟩
  | 63 => ⟨S262144, .i1⟩
  | 64 => ⟨S262144, .i1⟩
  | 65 => ⟨S262144, .i1⟩
  | 66 => ⟨S262144, .i1⟩
  | 67 => ⟨S262144, .i1⟩
  | 68 => ⟨S262144, .i1⟩
  | 69 => ⟨S262144, .i1⟩
  | 70 => ⟨S262144, .i1⟩
  | 71 => ⟨S_, .f32⟩
  | 72 => ⟨S262144, .f32⟩
  | 73 => ⟨S262144, .f32⟩
  | 74 => ⟨S262144, .f32⟩
  | 75 => ⟨S262144, .f32⟩
  | 76 => ⟨S262144, .f32⟩
  | 77 => ⟨S_, .f32⟩
  | 78 => ⟨S262144, .f32⟩
  | 79 => ⟨S262144, .f32⟩
  | 80 => ⟨S262144, .f32⟩
  | 81 => ⟨S262144, .f32⟩
  | 82 => ⟨S262144, .f32⟩
  | 83 => ⟨S_, .f32⟩
  | 84 => ⟨S262144, .f32⟩
  | 85 => ⟨S262144, .f32⟩
  | 86 => ⟨S262144, .f32⟩
  | 87 => ⟨S262144, .f32⟩
  | 88 => ⟨S262144, .f32⟩
  | 89 => ⟨S_, .f32⟩
  | 90 => ⟨S262144, .f32⟩
  | 91 => ⟨S262144, .f32⟩
  | 92 => ⟨S262144, .f32⟩
  | 93 => ⟨S262144, .f32⟩
  | 94 => ⟨S262144, .f32⟩
  | 95 => ⟨S_, .f32⟩
  | 96 => ⟨S262144, .f32⟩
  | 97 => ⟨S262144, .f32⟩
  | 98 => ⟨S262144, .f32⟩
  | 99 => ⟨S262144, .f32⟩
  | 100 => ⟨S262144, .f32⟩
  | 101 => ⟨S_, .f32⟩
  | 102 => ⟨S262144, .f32⟩
  | 103 => ⟨S262144, .f32⟩
  | 104 => ⟨S262144, .f32⟩
  | 105 => ⟨S262144, .f32⟩
  | 106 => ⟨S262144, .f32⟩
  | 107 => ⟨S_, .f32⟩
  | 108 => ⟨S262144, .f32⟩
  | 109 => ⟨S262144, .f32⟩
  | 110 => ⟨S262144, .f32⟩
  | 111 => ⟨S262144, .f32⟩
  | 112 => ⟨S262144, .f32⟩
  | 113 => ⟨S_, .f32⟩
  | 114 => ⟨S262144, .f32⟩
  | 115 => ⟨S262144, .f32⟩
  | 116 => ⟨S262144, .f32⟩
  | 117 => ⟨S262144, .f32⟩
  | 118 => ⟨S262144, .f32⟩
  | 119 => ⟨S_, .f32⟩
  | 120 => ⟨S262144, .f32⟩
  | 121 => ⟨S262144, .f32⟩
  | 122 => ⟨S262144, .f32⟩
  | 123 => ⟨S262144, .f32⟩
  | 124 => ⟨S262144, .f32⟩
  | 125 => ⟨S_, .f32⟩
  | 126 => ⟨S262144, .f32⟩
  | 127 => ⟨S262144, .f32⟩
  | _ => ⟨S4x1x257x257, .i32⟩

abbrev hbmTy0_3 (i : Nat) : BufTy := match i % 128 with
  | 0 => ⟨S262144, .f32⟩
  | 1 => ⟨S262144, .f32⟩
  | 2 => ⟨S262144, .f32⟩
  | 3 => ⟨S_, .f32⟩
  | 4 => ⟨S262144, .f32⟩
  | 5 => ⟨S262144, .f32⟩
  | 6 => ⟨S262144, .f32⟩
  | 7 => ⟨S262144, .f32⟩
  | 8 => ⟨S262144, .f32⟩
  | 9 => ⟨S_, .f32⟩
  | 10 => ⟨S262144, .f32⟩
  | 11 => ⟨S262144, .f32⟩
  | 12 => ⟨S262144, .f32⟩
  | 13 => ⟨S262144, .f32⟩
  | 14 => ⟨S262144, .f32⟩
  | 15 => ⟨S_, .f32⟩
  | 16 => ⟨S262144, .f32⟩
  | 17 => ⟨S262144, .f32⟩
  | 18 => ⟨S262144, .f32⟩
  | 19 => ⟨S262144, .f32⟩
  | 20 => ⟨S262144, .f32⟩
  | 21 => ⟨S_, .f32⟩
  | 22 => ⟨S262144, .f32⟩
  | 23 => ⟨S262144, .f32⟩
  | 24 => ⟨S262144, .f32⟩
  | 25 => ⟨S262144, .f32⟩
  | 26 => ⟨S262144, .f32⟩
  | 27 => ⟨S_, .f32⟩
  | 28 => ⟨S262144, .f32⟩
  | 29 => ⟨S262144, .f32⟩
  | 30 => ⟨S262144, .f32⟩
  | 31 => ⟨S262144, .f32⟩
  | 32 => ⟨S262144, .f32⟩
  | 33 => ⟨S_, .f32⟩
  | 34 => ⟨S262144, .f32⟩
  | 35 => ⟨S262144, .f32⟩
  | 36 => ⟨S262144, .f32⟩
  | 37 => ⟨S262144, .f32⟩
  | 38 => ⟨S262144, .f32⟩
  | 39 => ⟨S_, .f32⟩
  | 40 => ⟨S262144, .f32⟩
  | 41 => ⟨S262144, .f32⟩
  | 42 => ⟨S262144, .f32⟩
  | 43 => ⟨S262144, .f32⟩
  | 44 => ⟨S262144, .f32⟩
  | 45 => ⟨S_, .f32⟩
  | 46 => ⟨S262144, .f32⟩
  | 47 => ⟨S262144, .f32⟩
  | 48 => ⟨S262144, .f32⟩
  | 49 => ⟨S262144, .f32⟩
  | 50 => ⟨S262144, .f32⟩
  | 51 => ⟨S_, .f32⟩
  | 52 => ⟨S262144, .f32⟩
  | 53 => ⟨S262144, .f32⟩
  | 54 => ⟨S262144, .f32⟩
  | 55 => ⟨S262144, .f32⟩
  | 56 => ⟨S262144, .f32⟩
  | 57 => ⟨S_, .f32⟩
  | 58 => ⟨S262144, .f32⟩
  | 59 => ⟨S262144, .f32⟩
  | 60 => ⟨S262144, .f32⟩
  | 61 => ⟨S262144, .f32⟩
  | 62 => ⟨S262144, .f32⟩
  | 63 => ⟨S_, .f32⟩
  | 64 => ⟨S262144, .f32⟩
  | 65 => ⟨S262144, .f32⟩
  | 66 => ⟨S262144, .f32⟩
  | 67 => ⟨S262144, .f32⟩
  | 68 => ⟨S262144, .f32⟩
  | 69 => ⟨S_, .f32⟩
  | 70 => ⟨S262144, .f32⟩
  | 71 => ⟨S262144, .f32⟩
  | 72 => ⟨S262144, .f32⟩
  | 73 => ⟨S262144, .f32⟩
  | 74 => ⟨S262144, .f32⟩
  | 75 => ⟨S_, .f32⟩
  | 76 => ⟨S262144, .f32⟩
  | 77 => ⟨S262144, .f32⟩
  | 78 => ⟨S262144, .f32⟩
  | 79 => ⟨S262144, .f32⟩
  | 80 => ⟨S262144, .f32⟩
  | 81 => ⟨S_, .f32⟩
  | 82 => ⟨S262144, .f32⟩
  | 83 => ⟨S262144, .f32⟩
  | 84 => ⟨S262144, .f32⟩
  | 85 => ⟨S262144, .f32⟩
  | 86 => ⟨S262144, .f32⟩
  | 87 => ⟨S_, .f32⟩
  | 88 => ⟨S262144, .f32⟩
  | 89 => ⟨S_, .f32⟩
  | 90 => ⟨S262144, .f32⟩
  | 91 => ⟨S_, .f32⟩
  | 92 => ⟨S262144, .f32⟩
  | 93 => ⟨S_, .f32⟩
  | 94 => ⟨S262144, .f32⟩
  | 95 => ⟨S_, .f32⟩
  | 96 => ⟨S262144, .f32⟩
  | 97 => ⟨S_, .f32⟩
  | 98 => ⟨S262144, .f32⟩
  | 99 => ⟨S_, .f32⟩
  | 100 => ⟨S262144, .f32⟩
  | 101 => ⟨S_, .f32⟩
  | 102 => ⟨S262144, .f32⟩
  | 103 => ⟨S_, .f32⟩
  | 104 => ⟨S262144, .f32⟩
  | 105 => ⟨S_, .f32⟩
  | 106 => ⟨S262144, .f32⟩
  | 107 => ⟨S_, .f32⟩
  | 108 => ⟨S262144, .f32⟩
  | 109 => ⟨S_, .f32⟩
  | 110 => ⟨S262144, .f32⟩
  | 111 => ⟨S_, .f32⟩
  | 112 => ⟨S262144, .f32⟩
  | 113 => ⟨S_, .f32⟩
  | 114 => ⟨S262144, .f32⟩
  | 115 => ⟨S_, .f32⟩
  | 116 => ⟨S262144, .f32⟩
  | 117 => ⟨S_, .f32⟩
  | 118 => ⟨S262144, .f32⟩
  | 119 => ⟨S262144, .f32⟩
  | 120 => ⟨S262144, .f32⟩
  | 121 => ⟨S262144, .f32⟩
  | 122 => ⟨S262144, .f32⟩
  | 123 => ⟨S262144, .f32⟩
  | 124 => ⟨S262144, .f32⟩
  | 125 => ⟨S262144, .f32⟩
  | 126 => ⟨S262144, .f32⟩
  | 127 => ⟨S262144, .f32⟩
  | _ => ⟨S4x1x257x257, .i32⟩

abbrev hbmTy0_4 (i : Nat) : BufTy := match i % 128 with
  | 0 => ⟨S262144, .f32⟩
  | 1 => ⟨S262144, .f32⟩
  | 2 => ⟨S262144, .f32⟩
  | 3 => ⟨S262144, .f32⟩
  | 4 => ⟨S262144, .f32⟩
  | 5 => ⟨S262144, .f32⟩
  | 6 => ⟨S262144, .f32⟩
  | 7 => ⟨S262144, .f32⟩
  | 8 => ⟨S262144, .f32⟩
  | 9 => ⟨S262144, .f32⟩
  | 10 => ⟨S262144, .f32⟩
  | 11 => ⟨S262144, .f32⟩
  | 12 => ⟨S262144, .f32⟩
  | 13 => ⟨S262144, .f32⟩
  | 14 => ⟨S262144, .f32⟩
  | 15 => ⟨S262144, .f32⟩
  | 16 => ⟨S262144, .f32⟩
  | 17 => ⟨S262144, .f32⟩
  | 18 => ⟨S262144, .f32⟩
  | 19 => ⟨S262144, .f32⟩
  | 20 => ⟨S262144, .f32⟩
  | 21 => ⟨S262144, .f32⟩
  | 22 => ⟨S262144, .f32⟩
  | 23 => ⟨S262144, .f32⟩
  | 24 => ⟨S262144, .f32⟩
  | 25 => ⟨S262144, .f32⟩
  | 26 => ⟨S262144, .f32⟩
  | 27 => ⟨S262144, .f32⟩
  | 28 => ⟨S262144, .f32⟩
  | 29 => ⟨S262144, .f32⟩
  | 30 => ⟨S262144, .f32⟩
  | 31 => ⟨S262144, .f32⟩
  | 32 => ⟨S262144, .f32⟩
  | 33 => ⟨S262144, .f32⟩
  | 34 => ⟨S262144, .f32⟩
  | 35 => ⟨S262144, .f32⟩
  | 36 => ⟨S262144, .f32⟩
  | 37 => ⟨S262144, .f32⟩
  | 38 => ⟨S262144, .f32⟩
  | 39 => ⟨S262144, .f32⟩
  | 40 => ⟨S262144, .f32⟩
  | 41 => ⟨S262144, .f32⟩
  | 42 => ⟨S262144, .f32⟩
  | 43 => ⟨S262144, .f32⟩
  | 44 => ⟨S262144, .f32⟩
  | 45 => ⟨S262144, .f32⟩
  | 46 => ⟨S262144, .f32⟩
  | 47 => ⟨S262144, .f32⟩
  | 48 => ⟨S262144, .f32⟩
  | 49 => ⟨S262144, .f32⟩
  | 50 => ⟨S262144, .f32⟩
  | 51 => ⟨S262144, .f32⟩
  | 52 => ⟨S262144, .f32⟩
  | 53 => ⟨S262144, .f32⟩
  | 54 => ⟨S262144, .f32⟩
  | 55 => ⟨S262144, .f32⟩
  | 56 => ⟨S262144, .f32⟩
  | 57 => ⟨S262144, .f32⟩
  | 58 => ⟨S262144, .f32⟩
  | 59 => ⟨S262144, .f32⟩
  | 60 => ⟨S262144, .f32⟩
  | 61 => ⟨S262144, .f32⟩
  | 62 => ⟨S262144, .f32⟩
  | 63 => ⟨S262144, .f32⟩
  | 64 => ⟨S262144, .f32⟩
  | 65 => ⟨S262144, .f32⟩
  | 66 => ⟨S262144, .f32⟩
  | 67 => ⟨S262144, .f32⟩
  | 68 => ⟨S262144, .f32⟩
  | 69 => ⟨S262144, .f32⟩
  | 70 => ⟨S262144, .f32⟩
  | 71 => ⟨S262144, .f32⟩
  | 72 => ⟨S262144, .f32⟩
  | 73 => ⟨S262144, .f32⟩
  | 74 => ⟨S262144, .f32⟩
  | 75 => ⟨S262144, .f32⟩
  | 76 => ⟨S262144, .f32⟩
  | 77 => ⟨S262144, .f32⟩
  | 78 => ⟨S262144, .f32⟩
  | 79 => ⟨S262144, .f32⟩
  | 80 => ⟨S262144, .f32⟩
  | 81 => ⟨S262144, .f32⟩
  | 82 => ⟨S262144, .f32⟩
  | 83 => ⟨S262144, .f32⟩
  | 84 => ⟨S262144, .f32⟩
  | 85 => ⟨S262144, .f32⟩
  | 86 => ⟨S262144, .f32⟩
  | 87 => ⟨S262144, .f32⟩
  | 88 => ⟨S262144, .f32⟩
  | 89 => ⟨S262144, .f32⟩
  | 90 => ⟨S262144, .f32⟩
  | 91 => ⟨S262144, .f32⟩
  | 92 => ⟨S262144, .f32⟩
  | 93 => ⟨S262144, .f32⟩
  | 94 => ⟨S262144, .f32⟩
  | 95 => ⟨S262144, .f32⟩
  | 96 => ⟨S262144, .f32⟩
  | 97 => ⟨S262144, .f32⟩
  | 98 => ⟨S262144, .f32⟩
  | 99 => ⟨S262144, .f32⟩
  | 100 => ⟨S262144, .f32⟩
  | 101 => ⟨S262144, .f32⟩
  | 102 => ⟨S262144, .f32⟩
  | 103 => ⟨S262144, .f32⟩
  | 104 => ⟨S262144, .f32⟩
  | 105 => ⟨S262144, .f32⟩
  | 106 => ⟨S262144, .f32⟩
  | 107 => ⟨S262144, .f32⟩
  | 108 => ⟨S262144, .f32⟩
  | 109 => ⟨S262144, .f32⟩
  | 110 => ⟨S262144, .f32⟩
  | 111 => ⟨S262144, .f32⟩
  | 112 => ⟨S262144, .f32⟩
  | 113 => ⟨S262144, .f32⟩
  | 114 => ⟨S262144, .f32⟩
  | 115 => ⟨S262144, .f32⟩
  | 116 => ⟨S262144, .f32⟩
  | 117 => ⟨S262144, .f32⟩
  | 118 => ⟨S262144, .f32⟩
  | 119 => ⟨S262144, .f32⟩
  | 120 => ⟨S262144, .f32⟩
  | 121 => ⟨S262144, .f32⟩
  | 122 => ⟨S262144, .f32⟩
  | 123 => ⟨S262144, .f32⟩
  | 124 => ⟨S262144, .f32⟩
  | 125 => ⟨S262144, .f32⟩
  | 126 => ⟨S262144, .f32⟩
  | 127 => ⟨S262144, .f32⟩
  | _ => ⟨S4x1x257x257, .i32⟩

abbrev hbmTy0_5 (i : Nat) : BufTy := match i % 128 with
  | 0 => ⟨S262144, .f32⟩
  | 1 => ⟨S262144, .f32⟩
  | 2 => ⟨S262144, .f32⟩
  | 3 => ⟨S262144, .f32⟩
  | 4 => ⟨S262144, .f32⟩
  | 5 => ⟨S262144, .f32⟩
  | 6 => ⟨S262144, .f32⟩
  | 7 => ⟨S262144, .f32⟩
  | 8 => ⟨S262144, .f32⟩
  | 9 => ⟨S262144, .f32⟩
  | 10 => ⟨S262144, .f32⟩
  | 11 => ⟨S262144, .f32⟩
  | 12 => ⟨S262144, .f32⟩
  | 13 => ⟨S262144, .f32⟩
  | 14 => ⟨S262144, .f32⟩
  | 15 => ⟨S262144, .f32⟩
  | 16 => ⟨S262144, .f32⟩
  | 17 => ⟨S262144, .f32⟩
  | 18 => ⟨S262144, .f32⟩
  | 19 => ⟨S262144, .f32⟩
  | 20 => ⟨S262144, .f32⟩
  | 21 => ⟨S262144, .f32⟩
  | 22 => ⟨S262144, .f32⟩
  | 23 => ⟨S262144, .f32⟩
  | 24 => ⟨S262144, .f32⟩
  | 25 => ⟨S262144, .f32⟩
  | 26 => ⟨S262144, .f32⟩
  | 27 => ⟨S262144, .f32⟩
  | 28 => ⟨S262144, .f32⟩
  | 29 => ⟨S262144, .f32⟩
  | 30 => ⟨S262144, .f32⟩
  | 31 => ⟨S262144, .f32⟩
  | 32 => ⟨S262144, .f32⟩
  | 33 => ⟨S262144, .f32⟩
  | 34 => ⟨S262144, .f32⟩
  | 35 => ⟨S262144, .f32⟩
  | 36 => ⟨S262144, .f32⟩
  | 37 => ⟨S262144, .f32⟩
  | 38 => ⟨S262144, .f32⟩
  | 39 => ⟨S262144, .f32⟩
  | 40 => ⟨S262144, .f32⟩
  | 41 => ⟨S262144, .f32⟩
  | 42 => ⟨S262144, .f32⟩
  | 43 => ⟨S262144, .f32⟩
  | 44 => ⟨S262144, .f32⟩
  | 45 => ⟨S262144, .f32⟩
  | 46 => ⟨S262144, .f32⟩
  | 47 => ⟨S262144, .f32⟩
  | 48 => ⟨S262144, .f32⟩
  | 49 => ⟨S262144, .f32⟩
  | 50 => ⟨S262144, .f32⟩
  | 51 => ⟨S262144, .f32⟩
  | 52 => ⟨S262144, .f32⟩
  | 53 => ⟨S262144, .f32⟩
  | 54 => ⟨S262144, .f32⟩
  | 55 => ⟨S262144, .f32⟩
  | 56 => ⟨S262144, .f32⟩
  | 57 => ⟨S262144, .f32⟩
  | 58 => ⟨S262144, .f32⟩
  | 59 => ⟨S262144, .f32⟩
  | 60 => ⟨S262144, .f32⟩
  | 61 => ⟨S262144, .f32⟩
  | 62 => ⟨S262144, .f32⟩
  | 63 => ⟨S262144, .f32⟩
  | 64 => ⟨S262144, .f32⟩
  | 65 => ⟨S262144, .f32⟩
  | 66 => ⟨S262144, .f32⟩
  | 67 => ⟨S262144, .f32⟩
  | 68 => ⟨S262144, .f32⟩
  | 69 => ⟨S262144, .f32⟩
  | 70 => ⟨S262144, .f32⟩
  | 71 => ⟨S262144, .f32⟩
  | 72 => ⟨S262144, .f32⟩
  | 73 => ⟨S262144, .f32⟩
  | 74 => ⟨S262144, .f32⟩
  | 75 => ⟨S262144, .f32⟩
  | 76 => ⟨S262144, .f32⟩
  | 77 => ⟨S262144, .f32⟩
  | 78 => ⟨S262144, .f32⟩
  | 79 => ⟨S262144, .f32⟩
  | 80 => ⟨S262144, .f32⟩
  | 81 => ⟨S262144, .f32⟩
  | 82 => ⟨S262144, .f32⟩
  | 83 => ⟨S262144, .f32⟩
  | 84 => ⟨S262144, .f32⟩
  | 85 => ⟨S262144, .f32⟩
  | 86 => ⟨S262144, .f32⟩
  | 87 => ⟨S262144, .f32⟩
  | 88 => ⟨S262144, .f32⟩
  | 89 => ⟨S262144, .f32⟩
  | 90 => ⟨S262144, .f32⟩
  | 91 => ⟨S262144, .f32⟩
  | 92 => ⟨S262144, .f32⟩
  | 93 => ⟨S262144, .f32⟩
  | 94 => ⟨S262144, .f32⟩
  | 95 => ⟨S262144, .f32⟩
  | 96 => ⟨S262144, .f32⟩
  | 97 => ⟨S262144, .f32⟩
  | 98 => ⟨S262144, .f32⟩
  | 99 => ⟨S262144, .f32⟩
  | 100 => ⟨S262144, .f32⟩
  | 101 => ⟨S262144, .f32⟩
  | 102 => ⟨S262144, .f32⟩
  | 103 => ⟨S262144, .f32⟩
  | 104 => ⟨S262144, .f32⟩
  | 105 => ⟨S262144, .f32⟩
  | 106 => ⟨S262144, .f32⟩
  | 107 => ⟨S262144, .f32⟩
  | 108 => ⟨S262144, .f32⟩
  | 109 => ⟨S262144, .f32⟩
  | 110 => ⟨S262144, .f32⟩
  | 111 => ⟨S262144, .f32⟩
  | 112 => ⟨S262144, .f32⟩
  | 113 => ⟨S262144, .f32⟩
  | 114 => ⟨S262144, .f32⟩
  | 115 => ⟨S262144, .f32⟩
  | 116 => ⟨S262144, .f32⟩
  | 117 => ⟨S262144, .f32⟩
  | 118 => ⟨S262144, .f32⟩
  | 119 => ⟨S262144, .f32⟩
  | 120 => ⟨S262144, .f32⟩
  | 121 => ⟨S262144, .f32⟩
  | 122 => ⟨S262144, .f32⟩
  | 123 => ⟨S262144, .f32⟩
  | 124 => ⟨S262144, .f32⟩
  | 125 => ⟨S262144, .f32⟩
  | 126 => ⟨S262144, .f32⟩
  | 127 => ⟨S_, .f32⟩
  | _ => ⟨S4x1x257x257, .i32⟩

abbrev hbmTy0_6 (i : Nat) : BufTy := match i % 128 with
  | 0 => ⟨S262144x16, .f32⟩
  | 1 => ⟨S_, .i32⟩
  | 2 => ⟨S262144, .i32⟩
  | 3 => ⟨S262144, .i32⟩
  | 4 => ⟨S_, .i32⟩
  | 5 => ⟨S262144, .i32⟩
  | 6 => ⟨S262144, .i32⟩
  | 7 => ⟨S_, .i32⟩
  | 8 => ⟨S262144, .i32⟩
  | 9 => ⟨S262144, .i32⟩
  | 10 => ⟨S_, .i32⟩
  | 11 => ⟨S262144, .i32⟩
  | 12 => ⟨S262144, .i32⟩
  | 13 => ⟨S262144, .i32⟩
  | 14 => ⟨S_, .i32⟩
  | 15 => ⟨S262144, .i32⟩
  | 16 => ⟨S262144, .i32⟩
  | 17 => ⟨S_, .i32⟩
  | 18 => ⟨S262144, .i32⟩
  | 19 => ⟨S262144, .i32⟩
  | 20 => ⟨S262144, .i32⟩
  | 21 => ⟨S_, .i32⟩
  | 22 => ⟨S262144, .i32⟩
  | 23 => ⟨S262144, .i32⟩
  | 24 => ⟨S262144, .i32⟩
  | 25 => ⟨S262144x1, .f32⟩
  | 26 => ⟨S_, .i32⟩
  | 27 => ⟨S262144, .i32⟩
  | 28 => ⟨S262144, .i1⟩
  | 29 => ⟨S_, .i32⟩
  | 30 => ⟨S262144, .i32⟩
  | 31 => ⟨S262144, .i32⟩
  | 32 => ⟨S262144, .i32⟩
  | 33 => ⟨S262144x1, .i32⟩
  | 34 => ⟨S262144x16, .f32⟩
  | 35 => ⟨S262144x16, .f32⟩
  | 36 => ⟨S262144x16, .f32⟩
  | 37 => ⟨S262144x16, .f32⟩
  | 38 => ⟨S_, .i32⟩
  | 39 => ⟨S262144, .i32⟩
  | 40 => ⟨S262144, .i32⟩
  | 41 => ⟨S_, .i32⟩
  | 42 => ⟨S262144, .i32⟩
  | 43 => ⟨S262144, .i32⟩
  | 44 => ⟨S_, .i32⟩
  | 45 => ⟨S262144, .i32⟩
  | 46 => ⟨S262144, .i32⟩
  | 47 => ⟨S_, .i32⟩
  | 48 => ⟨S262144, .i32⟩
  | 49 => ⟨S262144, .i32⟩
  | 50 => ⟨S262144, .i32⟩
  | 51 => ⟨S_, .i32⟩
  | 52 => ⟨S262144, .i32⟩
  | 53 => ⟨S262144, .i32⟩
  | 54 => ⟨S_, .i32⟩
  | 55 => ⟨S262144, .i32⟩
  | 56 => ⟨S262144, .i32⟩
  | 57 => ⟨S262144, .i32⟩
  | 58 => ⟨S_, .i32⟩
  | 59 => ⟨S262144, .i32⟩
  | 60 => ⟨S262144, .i32⟩
  | 61 => ⟨S262144, .i32⟩
  | 62 => ⟨S262144x1, .f32⟩
  | 63 => ⟨S_, .i32⟩
  | 64 => ⟨S262144, .i32⟩
  | 65 => ⟨S262144, .i1⟩
  | 66 => ⟨S_, .i32⟩
  | 67 => ⟨S262144, .i32⟩
  | 68 => ⟨S262144, .i32⟩
  | 69 => ⟨S262144, .i32⟩
  | 70 => ⟨S262144x1, .i32⟩
  | 71 => ⟨S262144x16, .f32⟩
  | 72 => ⟨S262144x16, .f32⟩
  | 73 => ⟨S262144x16, .f32⟩
  | 74 => ⟨S262144x16, .f32⟩
  | 75 => ⟨S_, .i32⟩
  | 76 => ⟨S262144, .i32⟩
  | 77 => ⟨S262144, .i32⟩
  | 78 => ⟨S_, .i32⟩
  | 79 => ⟨S262144, .i32⟩
  | 80 => ⟨S262144, .i32⟩
  | 81 => ⟨S_, .i32⟩
  | 82 => ⟨S262144, .i32⟩
  | 83 => ⟨S262144, .i32⟩
  | 84 => ⟨S_, .i32⟩
  | 85 => ⟨S262144, .i32⟩
  | 86 => ⟨S262144, .i32⟩
  | 87 => ⟨S262144, .i32⟩
  | 88 => ⟨S_, .i32⟩
  | 89 => ⟨S262144, .i32⟩
  | 90 => ⟨S262144, .i32⟩
  | 91 => ⟨S_, .i32⟩
  | 92 => ⟨S262144, .i32⟩
  | 93 => ⟨S262144, .i32⟩
  | 94 => ⟨S262144, .i32⟩
  | 95 => ⟨S_, .i32⟩
  | 96 => ⟨S262144, .i32⟩
  | 97 => ⟨S262144, .i32⟩
  | 98 => ⟨S262144, .i32⟩
  | 99 => ⟨S262144x1, .f32⟩
  | 100 => ⟨S_, .i32⟩
  | 101 => ⟨S262144, .i32⟩
  | 102 => ⟨S262144, .i1⟩
  | 103 => ⟨S_, .i32⟩
  | 104 => ⟨S262144, .i32⟩
  | 105 => ⟨S262144, .i32⟩
  | 106 => ⟨S262144, .i32⟩
  | 107 => ⟨S262144x1, .i32⟩
  | 108 => ⟨S262144x16, .f32⟩
  | 109 => ⟨S262144x16, .f32⟩
  | 110 => ⟨S262144x16, .f32⟩
  | 111 => ⟨S262144x16, .f32⟩
  | 112 => ⟨S_, .i32⟩
  | 113 => ⟨S262144, .i32⟩
  | 114 => ⟨S262144, .i32⟩
  | 115 => ⟨S_, .i32⟩
  | 116 => ⟨S262144, .i32⟩
  | 117 => ⟨S262144, .i32⟩
  | 118 => ⟨S_, .i32⟩
  | 119 => ⟨S262144, .i32⟩
  | 120 => ⟨S262144, .i32⟩
  | 121 => ⟨S_, .i32⟩
  | 122 => ⟨S262144, .i32⟩
  | 123 => ⟨S262144, .i32⟩
  | 124 => ⟨S262144, .i32⟩
  | 125 => ⟨S_, .i32⟩
  | 126 => ⟨S262144, .i32⟩
  | 127 => ⟨S262144, .i32⟩
  | _ => ⟨S4x1x257x257, .i32⟩

abbrev hbmTy0_7 (i : Nat) : BufTy := match i % 128 with
  | 0 => ⟨S_, .i32⟩
  | 1 => ⟨S262144, .i32⟩
  | 2 => ⟨S262144, .i32⟩
  | 3 => ⟨S262144, .i32⟩
  | 4 => ⟨S_, .i32⟩
  | 5 => ⟨S262144, .i32⟩
  | 6 => ⟨S262144, .i32⟩
  | 7 => ⟨S262144, .i32⟩
  | 8 => ⟨S262144x1, .f32⟩
  | 9 => ⟨S_, .i32⟩
  | 10 => ⟨S262144, .i32⟩
  | 11 => ⟨S262144, .i1⟩
  | 12 => ⟨S_, .i32⟩
  | 13 => ⟨S262144, .i32⟩
  | 14 => ⟨S262144, .i32⟩
  | 15 => ⟨S262144, .i32⟩
  | 16 => ⟨S262144x1, .i32⟩
  | 17 => ⟨S262144x16, .f32⟩
  | 18 => ⟨S262144x16, .f32⟩
  | 19 => ⟨S262144x16, .f32⟩
  | 20 => ⟨S262144x16, .f32⟩
  | 21 => ⟨S_, .i32⟩
  | 22 => ⟨S262144, .i32⟩
  | 23 => ⟨S262144, .i32⟩
  | 24 => ⟨S_, .i32⟩
  | 25 => ⟨S262144, .i32⟩
  | 26 => ⟨S262144, .i32⟩
  | 27 => ⟨S_, .i32⟩
  | 28 => ⟨S262144, .i32⟩
  | 29 => ⟨S262144, .i32⟩
  | 30 => ⟨S_, .i32⟩
  | 31 => ⟨S262144, .i32⟩
  | 32 => ⟨S262144, .i32⟩
  | 33 => ⟨S262144, .i32⟩
  | 34 => ⟨S_, .i32⟩
  | 35 => ⟨S262144, .i32⟩
  | 36 => ⟨S262144, .i32⟩
  | 37 => ⟨S_, .i32⟩
  | 38 => ⟨S262144, .i32⟩
  | 39 => ⟨S262144, .i32⟩
  | 40 => ⟨S262144, .i32⟩
  | 41 => ⟨S_, .i32⟩
  | 42 => ⟨S262144, .i32⟩
  | 43 => ⟨S262144, .i32⟩
  | 44 => ⟨S262144, .i32⟩
  | 45 => ⟨S262144x1, .f32⟩
  | 46 => ⟨S_, .i32⟩
  | 47 => ⟨S262144, .i32⟩
  | 48 => ⟨S262144, .i1⟩
  | 49 => ⟨S_, .i32⟩
  | 50 => ⟨S262144, .i32⟩
  | 51 => ⟨S262144, .i32⟩
  | 52 => ⟨S262144, .i32⟩
  | 53 => ⟨S262144x1, .i32⟩
  | 54 => ⟨S262144x16, .f32⟩
  | 55 => ⟨S262144x16, .f32⟩
  | 56 => ⟨S262144x16, .f32⟩
  | 57 => ⟨S262144x16, .f32⟩
  | 58 => ⟨S_, .i32⟩
  | 59 => ⟨S262144, .i32⟩
  | 60 => ⟨S262144, .i32⟩
  | 61 => ⟨S_, .i32⟩
  | 62 => ⟨S262144, .i32⟩
  | 63 => ⟨S262144, .i32⟩
  | 64 => ⟨S_, .i32⟩
  | 65 => ⟨S262144, .i32⟩
  | 66 => ⟨S262144, .i32⟩
  | 67 => ⟨S_, .i32⟩
  | 68 => ⟨S262144, .i32⟩
  | 69 => ⟨S262144, .i32⟩
  | 70 => ⟨S262144, .i32⟩
  | 71 => ⟨S_, .i32⟩
  | 72 => ⟨S262144, .i32⟩
  | 73 => ⟨S262144, .i32⟩
  | 74 => ⟨S_, .i32⟩
  | 75 => ⟨S262144, .i32⟩
  | 76 => ⟨S262144, .i32⟩
  | 77 => ⟨S262144, .i32⟩
  | 78 => ⟨S_, .i32⟩
  | 79 => ⟨S262144, .i32⟩
  | 80 => ⟨S262144, .i32⟩
  | 81 => ⟨S262144, .i32⟩
  | 82 => ⟨S262144x1, .f32⟩
  | 83 => ⟨S_, .i32⟩
  | 84 => ⟨S262144, .i32⟩
  | 85 => ⟨S262144, .i1⟩
  | 86 => ⟨S_, .i32⟩
  | 87 => ⟨S262144, .i32⟩
  | 88 => ⟨S262144, .i32⟩
  | 89 => ⟨S262144, .i32⟩
  | 90 => ⟨S262144x1, .i32⟩
  | 91 => ⟨S262144x16, .f32⟩
  | 92 => ⟨S262144x16, .f32⟩
  | 93 => ⟨S262144x16, .f32⟩
  | 94 => ⟨S262144x16, .f32⟩
  | 95 => ⟨S_, .i32⟩
  | 96 => ⟨S262144, .i32⟩
  | 97 => ⟨S262144, .i32⟩
  | 98 => ⟨S_, .i32⟩
  | 99 => ⟨S262144, .i32⟩
  | 100 => ⟨S262144, .i32⟩
  | 101 => ⟨S_, .i32⟩
  | 102 => ⟨S262144, .i32⟩
  | 103 => ⟨S262144, .i32⟩
  | 104 => ⟨S_, .i32⟩
  | 105 => ⟨S262144, .i32⟩
  | 106 => ⟨S262144, .i32⟩
  | 107 => ⟨S262144, .i32⟩
  | 108 => ⟨S_, .i32⟩
  | 109 => ⟨S262144, .i32⟩
  | 110 => ⟨S262144, .i32⟩
  | 111 => ⟨S_, .i32⟩
  | 112 => ⟨S262144, .i32⟩
  | 113 => ⟨S262144, .i32⟩
  | 114 => ⟨S262144, .i32⟩
  | 115 => ⟨S_, .i32⟩
  | 116 => ⟨S262144, .i32⟩
  | 117 => ⟨S262144, .i32⟩
  | 118 => ⟨S262144, .i32⟩
  | 119 => ⟨S262144x1, .f32⟩
  | 120 => ⟨S_, .i32⟩
  | 121 => ⟨S262144, .i32⟩
  | 122 => ⟨S262144, .i1⟩
  | 123 => ⟨S_, .i32⟩
  | 124 => ⟨S262144, .i32⟩
  | 125 => ⟨S262144, .i32⟩
  | 126 => ⟨S262144, .i32⟩
  | 127 => ⟨S262144x1, .i32⟩
  | _ => ⟨S4x1x257x257, .i32⟩

abbrev hbmTy0_8 (i : Nat) : BufTy := match i % 128 with
  | 0 => ⟨S262144x16, .f32⟩
  | 1 => ⟨S262144x16, .f32⟩
  | 2 => ⟨S262144x16, .f32⟩
  | 3 => ⟨S262144x16, .f32⟩
  | 4 => ⟨S_, .i32⟩
  | 5 => ⟨S262144, .i32⟩
  | 6 => ⟨S262144, .i32⟩
  | 7 => ⟨S_, .i32⟩
  | 8 => ⟨S262144, .i32⟩
  | 9 => ⟨S262144, .i32⟩
  | 10 => ⟨S_, .i32⟩
  | 11 => ⟨S262144, .i32⟩
  | 12 => ⟨S262144, .i32⟩
  | 13 => ⟨S_, .i32⟩
  | 14 => ⟨S262144, .i32⟩
  | 15 => ⟨S262144, .i32⟩
  | 16 => ⟨S262144, .i32⟩
  | 17 => ⟨S_, .i32⟩
  | 18 => ⟨S262144, .i32⟩
  | 19 => ⟨S262144, .i32⟩
  | 20 => ⟨S_, .i32⟩
  | 21 => ⟨S262144, .i32⟩
  | 22 => ⟨S262144, .i32⟩
  | 23 => ⟨S262144, .i32⟩
  | 24 => ⟨S_, .i32⟩
  | 25 => ⟨S262144, .i32⟩
  | 26 => ⟨S262144, .i32⟩
  | 27 => ⟨S262144, .i32⟩
  | 28 => ⟨S262144x1, .f32⟩
  | 29 => ⟨S_, .i32⟩
  | 30 => ⟨S262144, .i32⟩
  | 31 => ⟨S262144, .i1⟩
  | 32 => ⟨S_, .i32⟩
  | 33 => ⟨S262144, .i32⟩
  | 34 => ⟨S262144, .i32⟩
  | 35 => ⟨S262144, .i32⟩
  | 36 => ⟨S262144x1, .i32⟩
  | 37 => ⟨S262144x16, .f32⟩
  | 38 => ⟨S262144x16, .f32⟩
  | 39 => ⟨S262144x16, .f32⟩
  | 40 => ⟨S262144x16, .f32⟩
  | 41 => ⟨S_, .i32⟩
  | 42 => ⟨S262144, .i32⟩
  | 43 => ⟨S262144, .i32⟩
  | 44 => ⟨S_, .i32⟩
  | 45 => ⟨S262144, .i32⟩
  | 46 => ⟨S262144, .i32⟩
  | 47 => ⟨S_, .i32⟩
  | 48 => ⟨S262144, .i32⟩
  | 49 => ⟨S262144, .i32⟩
  | 50 => ⟨S_, .i32⟩
  | 51 => ⟨S262144, .i32⟩
  | 52 => ⟨S262144, .i32⟩
  | 53 => ⟨S262144, .i32⟩
  | 54 => ⟨S_, .i32⟩
  | 55 => ⟨S262144, .i32⟩
  | 56 => ⟨S262144, .i32⟩
  | 57 => ⟨S_, .i32⟩
  | 58 => ⟨S262144, .i32⟩
  | 59 => ⟨S262144, .i32⟩
  | 60 => ⟨S262144, .i32⟩
  | 61 => ⟨S_, .i32⟩
  | 62 => ⟨S262144, .i32⟩
  | 63 => ⟨S262144, .i32⟩
  | 64 => ⟨S262144, .i32⟩
  | 65 => ⟨S262144x1, .f32⟩
  | 66 => ⟨S_, .i32⟩
  | 67 => ⟨S262144, .i32⟩
  | 68 => ⟨S262144, .i1⟩
  | 69 => ⟨S_, .i32⟩
  | 70 => ⟨S262144, .i32⟩
  | 71 => ⟨S262144, .i32⟩
  | 72 => ⟨S262144, .i32⟩
  | 73 => ⟨S262144x1, .i32⟩
  | 74 => ⟨S262144x16, .f32⟩
  | 75 => ⟨S262144x16, .f32⟩
  | 76 => ⟨S262144x16, .f32⟩
  | 77 => ⟨S262144x16, .f32⟩
  | 78 => ⟨S_, .i32⟩
  | 79 => ⟨S262144, .i32⟩
  | 80 => ⟨S262144, .i32⟩
  | 81 => ⟨S_, .i32⟩
  | 82 => ⟨S262144, .i32⟩
  | 83 => ⟨S262144, .i32⟩
  | 84 => ⟨S_, .i32⟩
  | 85 => ⟨S262144, .i32⟩
  | 86 => ⟨S262144, .i32⟩
  | 87 => ⟨S_, .i32⟩
  | 88 => ⟨S262144, .i32⟩
  | 89 => ⟨S262144, .i32⟩
  | 90 => ⟨S262144, .i32⟩
  | 91 => ⟨S_, .i32⟩
  | 92 => ⟨S262144, .i32⟩
  | 93 => ⟨S262144, .i32⟩
  | 94 => ⟨S_, .i32⟩
  | 95 => ⟨S262144, .i32⟩
  | 96 => ⟨S262144, .i32⟩
  | 97 => ⟨S262144, .i32⟩
  | 98 => ⟨S_, .i32⟩
  | 99 => ⟨S262144, .i32⟩
  | 100 => ⟨S262144, .i32⟩
  | 101 => ⟨S262144, .i32⟩
  | 102 => ⟨S262144x1, .f32⟩
  | 103 => ⟨S_, .i32⟩
  | 104 => ⟨S262144, .i32⟩
  | 105 => ⟨S262144, .i1⟩
  | 106 => ⟨S_, .i32⟩
  | 107 => ⟨S262144, .i32⟩
  | 108 => ⟨S262144, .i32⟩
  | 109 => ⟨S262144, .i32⟩
  | 110 => ⟨S262144x1, .i32⟩
  | 111 => ⟨S262144x16, .f32⟩
  | 112 => ⟨S262144x16, .f32⟩
  | 113 => ⟨S262144x16, .f32⟩
  | 114 => ⟨S262144x16, .f32⟩
  | 115 => ⟨S_, .i32⟩
  | 116 => ⟨S262144, .i32⟩
  | 117 => ⟨S262144, .i32⟩
  | 118 => ⟨S_, .i32⟩
  | 119 => ⟨S262144, .i32⟩
  | 120 => ⟨S262144, .i32⟩
  | 121 => ⟨S_, .i32⟩
  | 122 => ⟨S262144, .i32⟩
  | 123 => ⟨S262144, .i32⟩
  | 124 => ⟨S_, .i32⟩
  | 125 => ⟨S262144, .i32⟩
  | 126 => ⟨S262144, .i32⟩
  | 127 => ⟨S262144, .i32⟩
  | _ => ⟨S4x1x257x257, .i32⟩

abbrev hbmTy0_9 (i : Nat) : BufTy := match i % 128 with
  | 0 => ⟨S_, .i32⟩
  | 1 => ⟨S262144, .i32⟩
  | 2 => ⟨S262144, .i32⟩
  | 3 => ⟨S_, .i32⟩
  | 4 => ⟨S262144, .i32⟩
  | 5 => ⟨S262144, .i32⟩
  | 6 => ⟨S262144, .i32⟩
  | 7 => ⟨S_, .i32⟩
  | 8 => ⟨S262144, .i32⟩
  | 9 => ⟨S262144, .i32⟩
  | 10 => ⟨S262144, .i32⟩
  | 11 => ⟨S262144x1, .f32⟩
  | 12 => ⟨S_, .i32⟩
  | 13 => ⟨S262144, .i32⟩
  | 14 => ⟨S262144, .i1⟩
  | 15 => ⟨S_, .i32⟩
  | 16 => ⟨S262144, .i32⟩
  | 17 => ⟨S262144, .i32⟩
  | 18 => ⟨S262144, .i32⟩
  | 19 => ⟨S262144x1, .i32⟩
  | 20 => ⟨S262144x16, .f32⟩
  | 21 => ⟨S262144x16, .f32⟩
  | 22 => ⟨S262144x16, .f32⟩
  | 23 => ⟨S262144x16, .f32⟩
  | 24 => ⟨S_, .i32⟩
  | 25 => ⟨S262144, .i32⟩
  | 26 => ⟨S262144, .i32⟩
  | 27 => ⟨S_, .i32⟩
  | 28 => ⟨S262144, .i32⟩
  | 29 => ⟨S262144, .i32⟩
  | 30 => ⟨S_, .i32⟩
  | 31 => ⟨S262144, .i32⟩
  | 32 => ⟨S262144, .i32⟩
  | 33 => ⟨S_, .i32⟩
  | 34 => ⟨S262144, .i32⟩
  | 35 => ⟨S262144, .i32⟩
  | 36 => ⟨S262144, .i32⟩
  | 37 => ⟨S_, .i32⟩
  | 38 => ⟨S262144, .i32⟩
  | 39 => ⟨S262144, .i32⟩
  | 40 => ⟨S_, .i32⟩
  | 41 => ⟨S262144, .i32⟩
  | 42 => ⟨S262144, .i32⟩
  | 43 => ⟨S262144, .i32⟩
  | 44 => ⟨S_, .i32⟩
  | 45 => ⟨S262144, .i32⟩
  | 46 => ⟨S262144, .i32⟩
  | 47 => ⟨S262144, .i32⟩
  | 48 => ⟨S262144x1, .f32⟩
  | 49 => ⟨S_, .i32⟩
  | 50 => ⟨S262144, .i32⟩
  | 51 => ⟨S262144, .i1⟩
  | 52 => ⟨S_, .i32⟩
  | 53 => ⟨S262144, .i32⟩
  | 54 => ⟨S262144, .i32⟩
  | 55 => ⟨S262144, .i32⟩
  | 56 => ⟨S262144x1, .i32⟩
  | 57 => ⟨S262144x16, .f32⟩
  | 58 => ⟨S262144x16, .f32⟩
  | 59 => ⟨S262144x16, .f32⟩
  | 60 => ⟨S262144x16, .f32⟩
  | 61 => ⟨S_, .i32⟩
  | 62 => ⟨S262144, .i32⟩
  | 63 => ⟨S262144, .i32⟩
  | 64 => ⟨S_, .i32⟩
  | 65 => ⟨S262144, .i32⟩
  | 66 => ⟨S262144, .i32⟩
  | 67 => ⟨S_, .i32⟩
  | 68 => ⟨S262144, .i32⟩
  | 69 => ⟨S262144, .i32⟩
  | 70 => ⟨S_, .i32⟩
  | 71 => ⟨S262144, .i32⟩
  | 72 => ⟨S262144, .i32⟩
  | 73 => ⟨S262144, .i32⟩
  | 74 => ⟨S_, .i32⟩
  | 75 => ⟨S262144, .i32⟩
  | 76 => ⟨S262144, .i32⟩
  | 77 => ⟨S_, .i32⟩
  | 78 => ⟨S262144, .i32⟩
  | 79 => ⟨S262144, .i32⟩
  | 80 => ⟨S262144, .i32⟩
  | 81 => ⟨S_, .i32⟩
  | 82 => ⟨S262144, .i32⟩
  | 83 => ⟨S262144, .i32⟩
  | 84 => ⟨S262144, .i32⟩
  | 85 => ⟨S262144x1, .f32⟩
  | 86 => ⟨S_, .i32⟩
  | 87 => ⟨S262144, .i32⟩
  | 88 => ⟨S262144, .i1⟩
  | 89 => ⟨S_, .i32⟩
  | 90 => ⟨S262144, .i32⟩
  | 91 => ⟨S262144, .i32⟩
  | 92 => ⟨S262144, .i32⟩
  | 93 => ⟨S262144x1, .i32⟩
  | 94 => ⟨S262144x16, .f32⟩
  | 95 => ⟨S262144x16, .f32⟩
  | 96 => ⟨S262144x16, .f32⟩
  | 97 => ⟨S262144x16, .f32⟩
  | 98 => ⟨S_, .i32⟩
  | 99 => ⟨S262144, .i32⟩
  | 100 => ⟨S262144, .i32⟩
  | 101 => ⟨S_, .i32⟩
  | 102 => ⟨S262144, .i32⟩
  | 103 => ⟨S262144, .i32⟩
  | 104 => ⟨S_, .i32⟩
  | 105 => ⟨S262144, .i32⟩
  | 106 => ⟨S262144, .i32⟩
  | 107 => ⟨S_, .i32⟩
  | 108 => ⟨S262144, .i32⟩
  | 109 => ⟨S262144, .i32⟩
  | 110 => ⟨S262144, .i32⟩
  | 111 => ⟨S_, .i32⟩
  | 112 => ⟨S262144, .i32⟩
  | 113 => ⟨S262144, .i32⟩
  | 114 => ⟨S_, .i32⟩
  | 115 => ⟨S262144, .i32⟩
  | 116 => ⟨S262144, .i32⟩
  | 117 => ⟨S262144, .i32⟩
  | 118 => ⟨S_, .i32⟩
  | 119 => ⟨S262144, .i32⟩
  | 120 => ⟨S262144, .i32⟩
  | 121 => ⟨S262144, .i32⟩
  | 122 => ⟨S262144x1, .f32⟩
  | 123 => ⟨S_, .i32⟩
  | 124 => ⟨S262144, .i32⟩
  | 125 => ⟨S262144, .i1⟩
  | 126 => ⟨S_, .i32⟩
  | 127 => ⟨S262144, .i32⟩
  | _ => ⟨S4x1x257x257, .i32⟩

abbrev hbmTy0_10 (i : Nat) : BufTy := match i % 128 with
  | 0 => ⟨S262144, .i32⟩
  | 1 => ⟨S262144, .i32⟩
  | 2 => ⟨S262144x1, .i32⟩
  | 3 => ⟨S262144x16, .f32⟩
  | 4 => ⟨S262144x16, .f32⟩
  | 5 => ⟨S262144x16, .f32⟩
  | 6 => ⟨S262144x16, .f32⟩
  | 7 => ⟨S_, .i32⟩
  | 8 => ⟨S262144, .i32⟩
  | 9 => ⟨S262144, .i32⟩
  | 10 => ⟨S_, .i32⟩
  | 11 => ⟨S262144, .i32⟩
  | 12 => ⟨S262144, .i32⟩
  | 13 => ⟨S_, .i32⟩
  | 14 => ⟨S262144, .i32⟩
  | 15 => ⟨S262144, .i32⟩
  | 16 => ⟨S_, .i32⟩
  | 17 => ⟨S262144, .i32⟩
  | 18 => ⟨S262144, .i32⟩
  | 19 => ⟨S262144, .i32⟩
  | 20 => ⟨S_, .i32⟩
  | 21 => ⟨S262144, .i32⟩
  | 22 => ⟨S262144, .i32⟩
  | 23 => ⟨S_, .i32⟩
  | 24 => ⟨S262144, .i32⟩
  | 25 => ⟨S262144, .i32⟩
  | 26 => ⟨S262144, .i32⟩
  | 27 => ⟨S_, .i32⟩
  | 28 => ⟨S262144, .i32⟩
  | 29 => ⟨S262144, .i32⟩
  | 30 => ⟨S262144, .i32⟩
  | 31 => ⟨S262144x1, .f32⟩
  | 32 => ⟨S_, .i32⟩
  | 33 => ⟨S262144, .i32⟩
  | 34 => ⟨S262144, .i1⟩
  | 35 => ⟨S_, .i32⟩
  | 36 => ⟨S262144, .i32⟩
  | 37 => ⟨S262144, .i32⟩
  | 38 => ⟨S262144, .i32⟩
  | 39 => ⟨S262144x1, .i32⟩
  | 40 => ⟨S262144x16, .f32⟩
  | 41 => ⟨S262144x16, .f32⟩
  | 42 => ⟨S262144x16, .f32⟩
  | 43 => ⟨S262144x16, .f32⟩
  | 44 => ⟨S_, .i32⟩
  | 45 => ⟨S262144, .i32⟩
  | 46 => ⟨S262144, .i32⟩
  | 47 => ⟨S_, .i32⟩
  | 48 => ⟨S262144, .i32⟩
  | 49 => ⟨S262144, .i32⟩
  | 50 => ⟨S_, .i32⟩
  | 51 => ⟨S262144, .i32⟩
  | 52 => ⟨S262144, .i32⟩
  | 53 => ⟨S_, .i32⟩
  | 54 => ⟨S262144, .i32⟩
  | 55 => ⟨S262144, .i32⟩
  | 56 => ⟨S262144, .i32⟩
  | 57 => ⟨S_, .i32⟩
  | 58 => ⟨S262144, .i32⟩
  | 59 => ⟨S262144, .i32⟩
  | 60 => ⟨S_, .i32⟩
  | 61 => ⟨S262144, .i32⟩
  | 62 => ⟨S262144, .i32⟩
  | 63 => ⟨S262144, .i32⟩
  | 64 => ⟨S_, .i32⟩
  | 65 => ⟨S262144, .i32⟩
  | 66 => ⟨S262144, .i32⟩
  | 67 => ⟨S262144, .i32⟩
  | 68 => ⟨S262144x1, .f32⟩
  | 69 => ⟨S_, .i32⟩
  | 70 => ⟨S262144, .i32⟩
  | 71 => ⟨S262144, .i1⟩
  | 72 => ⟨S_, .i32⟩
  | 73 => ⟨S262144, .i32⟩
  | 74 => ⟨S262144, .i32⟩
  | 75 => ⟨S262144, .i32⟩
  | 76 => ⟨S262144x1, .i32⟩
  | 77 => ⟨S262144x16, .f32⟩
  | 78 => ⟨S262144x16, .f32⟩
  | 79 => ⟨S262144x16, .f32⟩
  | 80 => ⟨S262144x16, .f32⟩
  | 81 => ⟨S_, .f32⟩
  | 82 => ⟨S262144x16, .f32⟩
  | 83 => ⟨S262144x16, .f32⟩
  | 84 => ⟨S4x1x256x256x4x4, .f32⟩
  | 85 => ⟨S4x1x256x4x256x4, .f32⟩
  | 86 => ⟨S4x1x1024x1024, .f32⟩
  | _ => ⟨S4x1x257x257, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S4x1x257x257, .i32⟩

abbrev bufTy : (tb : Table) → Fin (tcTables nBuf tb) → BufTy
  | .hbm, ⟨i, _⟩ => hbmTy i
  | _, _ => ⟨S4x1x257x257, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_cst_1 : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_call2_v5 : Ref sig .tc := ⟨.hbm, 26, rfl⟩
abbrev main_call2_v6 : Ref sig .tc := ⟨.hbm, 27, rfl⟩
abbrev main_call2_v7 : Ref sig .tc := ⟨.hbm, 28, rfl⟩
abbrev main_call2_v8 : Ref sig .tc := ⟨.hbm, 29, rfl⟩
abbrev main_call2_c : Ref sig .tc := ⟨.hbm, 30, rfl⟩
abbrev main_call2_v9 : Ref sig .tc := ⟨.hbm, 31, rfl⟩
abbrev main_call2_v10 : Ref sig .tc := ⟨.hbm, 32, rfl⟩
abbrev main_call2_v11 : Ref sig .tc := ⟨.hbm, 33, rfl⟩
abbrev main_call2_c_0 : Ref sig .tc := ⟨.hbm, 34, rfl⟩
abbrev main_call2_v12 : Ref sig .tc := ⟨.hbm, 35, rfl⟩
abbrev main_call2_v13 : Ref sig .tc := ⟨.hbm, 36, rfl⟩
abbrev main_v10 : Ref sig .tc := ⟨.hbm, 37, rfl⟩
abbrev main_v11 : Ref sig .tc := ⟨.hbm, 38, rfl⟩
abbrev main_c_2 : Ref sig .tc := ⟨.hbm, 39, rfl⟩
abbrev main_call3_v0 : Ref sig .tc := ⟨.hbm, 40, rfl⟩
abbrev main_call3_v1 : Ref sig .tc := ⟨.hbm, 41, rfl⟩
abbrev main_call3_v2 : Ref sig .tc := ⟨.hbm, 42, rfl⟩
abbrev main_call3_v3 : Ref sig .tc := ⟨.hbm, 43, rfl⟩
abbrev main_call3_v4 : Ref sig .tc := ⟨.hbm, 44, rfl⟩
abbrev main_call3_v5 : Ref sig .tc := ⟨.hbm, 45, rfl⟩
abbrev main_call3_v6 : Ref sig .tc := ⟨.hbm, 46, rfl⟩
abbrev main_call3_v7 : Ref sig .tc := ⟨.hbm, 47, rfl⟩
abbrev main_call3_v8 : Ref sig .tc := ⟨.hbm, 48, rfl⟩
abbrev main_call3_c : Ref sig .tc := ⟨.hbm, 49, rfl⟩
abbrev main_call3_v9 : Ref sig .tc := ⟨.hbm, 50, rfl⟩
abbrev main_call3_v10 : Ref sig .tc := ⟨.hbm, 51, rfl⟩
abbrev main_call3_v11 : Ref sig .tc := ⟨.hbm, 52, rfl⟩
abbrev main_call3_c_0 : Ref sig .tc := ⟨.hbm, 53, rfl⟩
abbrev main_call3_v12 : Ref sig .tc := ⟨.hbm, 54, rfl⟩
abbrev main_call3_v13 : Ref sig .tc := ⟨.hbm, 55, rfl⟩
abbrev main_v12 : Ref sig .tc := ⟨.hbm, 56, rfl⟩
abbrev main_v13 : Ref sig .tc := ⟨.hbm, 57, rfl⟩
abbrev main_c_3 : Ref sig .tc := ⟨.hbm, 58, rfl⟩
abbrev main_call4_v0 : Ref sig .tc := ⟨.hbm, 59, rfl⟩
abbrev main_call4_v1 : Ref sig .tc := ⟨.hbm, 60, rfl⟩
abbrev main_call4_v2 : Ref sig .tc := ⟨.hbm, 61, rfl⟩
abbrev main_call4_v3 : Ref sig .tc := ⟨.hbm, 62, rfl⟩
abbrev main_call4_v4 : Ref sig .tc := ⟨.hbm, 63, rfl⟩
abbrev main_call4_v5 : Ref sig .tc := ⟨.hbm, 64, rfl⟩
abbrev main_call4_v6 : Ref sig .tc := ⟨.hbm, 65, rfl⟩
abbrev main_call4_v7 : Ref sig .tc := ⟨.hbm, 66, rfl⟩
abbrev main_call4_v8 : Ref sig .tc := ⟨.hbm, 67, rfl⟩
abbrev main_call4_c : Ref sig .tc := ⟨.hbm, 68, rfl⟩
abbrev main_call4_v9 : Ref sig .tc := ⟨.hbm, 69, rfl⟩
abbrev main_call4_v10 : Ref sig .tc := ⟨.hbm, 70, rfl⟩
abbrev main_call4_v11 : Ref sig .tc := ⟨.hbm, 71, rfl⟩
abbrev main_call4_c_0 : Ref sig .tc := ⟨.hbm, 72, rfl⟩
abbrev main_call4_v12 : Ref sig .tc := ⟨.hbm, 73, rfl⟩
abbrev main_call4_v13 : Ref sig .tc := ⟨.hbm, 74, rfl⟩
abbrev main_v14 : Ref sig .tc := ⟨.hbm, 75, rfl⟩
abbrev main_v15 : Ref sig .tc := ⟨.hbm, 76, rfl⟩
abbrev main_c_4 : Ref sig .tc := ⟨.hbm, 77, rfl⟩
abbrev main_call5_v0 : Ref sig .tc := ⟨.hbm, 78, rfl⟩
abbrev main_call5_v1 : Ref sig .tc := ⟨.hbm, 79, rfl⟩
abbrev main_call5_v2 : Ref sig .tc := ⟨.hbm, 80, rfl⟩
abbrev main_call5_v3 : Ref sig .tc := ⟨.hbm, 81, rfl⟩
abbrev main_call5_v4 : Ref sig .tc := ⟨.hbm, 82, rfl⟩
abbrev main_call5_v5 : Ref sig .tc := ⟨.hbm, 83, rfl⟩
abbrev main_call5_v6 : Ref sig .tc := ⟨.hbm, 84, rfl⟩
abbrev main_call5_v7 : Ref sig .tc := ⟨.hbm, 85, rfl⟩
abbrev main_call5_v8 : Ref sig .tc := ⟨.hbm, 86, rfl⟩
abbrev main_call5_c : Ref sig .tc := ⟨.hbm, 87, rfl⟩
abbrev main_call5_v9 : Ref sig .tc := ⟨.hbm, 88, rfl⟩
abbrev main_call5_v10 : Ref sig .tc := ⟨.hbm, 89, rfl⟩
abbrev main_call5_v11 : Ref sig .tc := ⟨.hbm, 90, rfl⟩
abbrev main_call5_c_0 : Ref sig .tc := ⟨.hbm, 91, rfl⟩
abbrev main_call5_v12 : Ref sig .tc := ⟨.hbm, 92, rfl⟩
abbrev main_call5_v13 : Ref sig .tc := ⟨.hbm, 93, rfl⟩
abbrev main_v16 : Ref sig .tc := ⟨.hbm, 94, rfl⟩
abbrev main_v17 : Ref sig .tc := ⟨.hbm, 95, rfl⟩
abbrev main_c_5 : Ref sig .tc := ⟨.hbm, 96, rfl⟩
abbrev main_call6_v0 : Ref sig .tc := ⟨.hbm, 97, rfl⟩
abbrev main_call6_c : Ref sig .tc := ⟨.hbm, 98, rfl⟩
abbrev main_call6_v1 : Ref sig .tc := ⟨.hbm, 99, rfl⟩
abbrev main_call6_c_0 : Ref sig .tc := ⟨.hbm, 100, rfl⟩
abbrev main_call6_v2 : Ref sig .tc := ⟨.hbm, 101, rfl⟩
abbrev main_call6_v3 : Ref sig .tc := ⟨.hbm, 102, rfl⟩
abbrev main_call6_v4 : Ref sig .tc := ⟨.hbm, 103, rfl⟩
abbrev main_call6_c_1 : Ref sig .tc := ⟨.hbm, 104, rfl⟩
abbrev main_call6_v5 : Ref sig .tc := ⟨.hbm, 105, rfl⟩
abbrev main_call6_v6 : Ref sig .tc := ⟨.hbm, 106, rfl⟩
abbrev main_call6_c_2 : Ref sig .tc := ⟨.hbm, 107, rfl⟩
abbrev main_call6_v7 : Ref sig .tc := ⟨.hbm, 108, rfl⟩
abbrev main_call6_v8 : Ref sig .tc := ⟨.hbm, 109, rfl⟩
abbrev main_call6_c_3 : Ref sig .tc := ⟨.hbm, 110, rfl⟩
abbrev main_call6_v9 : Ref sig .tc := ⟨.hbm, 111, rfl⟩
abbrev main_call6_v10 : Ref sig .tc := ⟨.hbm, 112, rfl⟩
abbrev main_call6_v11 : Ref sig .tc := ⟨.hbm, 113, rfl⟩
abbrev main_call6_v12 : Ref sig .tc := ⟨.hbm, 114, rfl⟩
abbrev main_call6_v13 : Ref sig .tc := ⟨.hbm, 115, rfl⟩
abbrev main_call6_v14 : Ref sig .tc := ⟨.hbm, 116, rfl⟩
abbrev main_v18 : Ref sig .tc := ⟨.hbm, 117, rfl⟩
abbrev main_v19 : Ref sig .tc := ⟨.hbm, 118, rfl⟩
abbrev main_v20 : Ref sig .tc := ⟨.hbm, 119, rfl⟩
abbrev main_c_6 : Ref sig .tc := ⟨.hbm, 120, rfl⟩
abbrev main_call7_v0 : Ref sig .tc := ⟨.hbm, 121, rfl⟩
abbrev main_call7_c : Ref sig .tc := ⟨.hbm, 122, rfl⟩
abbrev main_call7_v1 : Ref sig .tc := ⟨.hbm, 123, rfl⟩
abbrev main_call7_c_0 : Ref sig .tc := ⟨.hbm, 124, rfl⟩
abbrev main_call7_v2 : Ref sig .tc := ⟨.hbm, 125, rfl⟩
abbrev main_call7_v3 : Ref sig .tc := ⟨.hbm, 126, rfl⟩
abbrev main_call7_v4 : Ref sig .tc := ⟨.hbm, 127, rfl⟩
abbrev main_call7_c_1 : Ref sig .tc := ⟨.hbm, 128, rfl⟩
abbrev main_call7_v5 : Ref sig .tc := ⟨.hbm, 129, rfl⟩
abbrev main_call7_v6 : Ref sig .tc := ⟨.hbm, 130, rfl⟩
abbrev main_call7_c_2 : Ref sig .tc := ⟨.hbm, 131, rfl⟩
abbrev main_call7_v7 : Ref sig .tc := ⟨.hbm, 132, rfl⟩
abbrev main_call7_v8 : Ref sig .tc := ⟨.hbm, 133, rfl⟩
abbrev main_call7_c_3 : Ref sig .tc := ⟨.hbm, 134, rfl⟩
abbrev main_call7_v9 : Ref sig .tc := ⟨.hbm, 135, rfl⟩
abbrev main_call7_v10 : Ref sig .tc := ⟨.hbm, 136, rfl⟩
abbrev main_call7_v11 : Ref sig .tc := ⟨.hbm, 137, rfl⟩
abbrev main_call7_v12 : Ref sig .tc := ⟨.hbm, 138, rfl⟩
abbrev main_call7_v13 : Ref sig .tc := ⟨.hbm, 139, rfl⟩
abbrev main_call7_v14 : Ref sig .tc := ⟨.hbm, 140, rfl⟩
abbrev main_v21 : Ref sig .tc := ⟨.hbm, 141, rfl⟩
abbrev main_v22 : Ref sig .tc := ⟨.hbm, 142, rfl⟩
abbrev main_v23 : Ref sig .tc := ⟨.hbm, 143, rfl⟩
abbrev main_c_7 : Ref sig .tc := ⟨.hbm, 144, rfl⟩
abbrev main_call8_v0 : Ref sig .tc := ⟨.hbm, 145, rfl⟩
abbrev main_call8_c : Ref sig .tc := ⟨.hbm, 146, rfl⟩
abbrev main_call8_v1 : Ref sig .tc := ⟨.hbm, 147, rfl⟩
abbrev main_call8_c_0 : Ref sig .tc := ⟨.hbm, 148, rfl⟩
abbrev main_call8_v2 : Ref sig .tc := ⟨.hbm, 149, rfl⟩
abbrev main_call8_v3 : Ref sig .tc := ⟨.hbm, 150, rfl⟩
abbrev main_call8_v4 : Ref sig .tc := ⟨.hbm, 151, rfl⟩
abbrev main_call8_c_1 : Ref sig .tc := ⟨.hbm, 152, rfl⟩
abbrev main_call8_v5 : Ref sig .tc := ⟨.hbm, 153, rfl⟩
abbrev main_call8_v6 : Ref sig .tc := ⟨.hbm, 154, rfl⟩
abbrev main_call8_c_2 : Ref sig .tc := ⟨.hbm, 155, rfl⟩
abbrev main_call8_v7 : Ref sig .tc := ⟨.hbm, 156, rfl⟩
abbrev main_call8_v8 : Ref sig .tc := ⟨.hbm, 157, rfl⟩
abbrev main_call8_c_3 : Ref sig .tc := ⟨.hbm, 158, rfl⟩
abbrev main_call8_v9 : Ref sig .tc := ⟨.hbm, 159, rfl⟩
abbrev main_call8_v10 : Ref sig .tc := ⟨.hbm, 160, rfl⟩
abbrev main_call8_v11 : Ref sig .tc := ⟨.hbm, 161, rfl⟩
abbrev main_call8_v12 : Ref sig .tc := ⟨.hbm, 162, rfl⟩
abbrev main_call8_v13 : Ref sig .tc := ⟨.hbm, 163, rfl⟩
abbrev main_call8_v14 : Ref sig .tc := ⟨.hbm, 164, rfl⟩
abbrev main_v24 : Ref sig .tc := ⟨.hbm, 165, rfl⟩
abbrev main_v25 : Ref sig .tc := ⟨.hbm, 166, rfl⟩
abbrev main_v26 : Ref sig .tc := ⟨.hbm, 167, rfl⟩
abbrev main_c_8 : Ref sig .tc := ⟨.hbm, 168, rfl⟩
abbrev main_call9_v0 : Ref sig .tc := ⟨.hbm, 169, rfl⟩
abbrev main_call9_c : Ref sig .tc := ⟨.hbm, 170, rfl⟩
abbrev main_call9_v1 : Ref sig .tc := ⟨.hbm, 171, rfl⟩
abbrev main_call9_c_0 : Ref sig .tc := ⟨.hbm, 172, rfl⟩
abbrev main_call9_v2 : Ref sig .tc := ⟨.hbm, 173, rfl⟩
abbrev main_call9_v3 : Ref sig .tc := ⟨.hbm, 174, rfl⟩
abbrev main_call9_v4 : Ref sig .tc := ⟨.hbm, 175, rfl⟩
abbrev main_call9_c_1 : Ref sig .tc := ⟨.hbm, 176, rfl⟩
abbrev main_call9_v5 : Ref sig .tc := ⟨.hbm, 177, rfl⟩
abbrev main_call9_v6 : Ref sig .tc := ⟨.hbm, 178, rfl⟩
abbrev main_call9_c_2 : Ref sig .tc := ⟨.hbm, 179, rfl⟩
abbrev main_call9_v7 : Ref sig .tc := ⟨.hbm, 180, rfl⟩
abbrev main_call9_v8 : Ref sig .tc := ⟨.hbm, 181, rfl⟩
abbrev main_call9_c_3 : Ref sig .tc := ⟨.hbm, 182, rfl⟩
abbrev main_call9_v9 : Ref sig .tc := ⟨.hbm, 183, rfl⟩
abbrev main_call9_v10 : Ref sig .tc := ⟨.hbm, 184, rfl⟩
abbrev main_call9_v11 : Ref sig .tc := ⟨.hbm, 185, rfl⟩
abbrev main_call9_v12 : Ref sig .tc := ⟨.hbm, 186, rfl⟩
abbrev main_call9_v13 : Ref sig .tc := ⟨.hbm, 187, rfl⟩
abbrev main_call9_v14 : Ref sig .tc := ⟨.hbm, 188, rfl⟩
abbrev main_v27 : Ref sig .tc := ⟨.hbm, 189, rfl⟩
abbrev main_v28 : Ref sig .tc := ⟨.hbm, 190, rfl⟩
abbrev main_v29 : Ref sig .tc := ⟨.hbm, 191, rfl⟩
abbrev main_v30 : Ref sig .tc := ⟨.hbm, 192, rfl⟩
abbrev main_v31 : Ref sig .tc := ⟨.hbm, 193, rfl⟩
abbrev main_v32 : Ref sig .tc := ⟨.hbm, 194, rfl⟩
abbrev main_v33 : Ref sig .tc := ⟨.hbm, 195, rfl⟩
abbrev main_v34 : Ref sig .tc := ⟨.hbm, 196, rfl⟩
abbrev main_v35 : Ref sig .tc := ⟨.hbm, 197, rfl⟩
abbrev main_v36 : Ref sig .tc := ⟨.hbm, 198, rfl⟩
abbrev main_v37 : Ref sig .tc := ⟨.hbm, 199, rfl⟩
abbrev main_v38 : Ref sig .tc := ⟨.hbm, 200, rfl⟩
abbrev main_v39 : Ref sig .tc := ⟨.hbm, 201, rfl⟩
abbrev main_v40 : Ref sig .tc := ⟨.hbm, 202, rfl⟩
abbrev main_v41 : Ref sig .tc := ⟨.hbm, 203, rfl⟩
abbrev main_v42 : Ref sig .tc := ⟨.hbm, 204, rfl⟩
abbrev main_v43 : Ref sig .tc := ⟨.hbm, 205, rfl⟩
abbrev main_v44 : Ref sig .tc := ⟨.hbm, 206, rfl⟩
abbrev main_v45 : Ref sig .tc := ⟨.hbm, 207, rfl⟩
abbrev main_v46 : Ref sig .tc := ⟨.hbm, 208, rfl⟩
abbrev main_v47 : Ref sig .tc := ⟨.hbm, 209, rfl⟩
abbrev main_v48 : Ref sig .tc := ⟨.hbm, 210, rfl⟩
abbrev main_v49 : Ref sig .tc := ⟨.hbm, 211, rfl⟩
abbrev main_v50 : Ref sig .tc := ⟨.hbm, 212, rfl⟩
abbrev main_v51 : Ref sig .tc := ⟨.hbm, 213, rfl⟩
abbrev main_v52 : Ref sig .tc := ⟨.hbm, 214, rfl⟩
abbrev main_v53 : Ref sig .tc := ⟨.hbm, 215, rfl⟩
abbrev main_v54 : Ref sig .tc := ⟨.hbm, 216, rfl⟩
abbrev main_v55 : Ref sig .tc := ⟨.hbm, 217, rfl⟩
abbrev main_v56 : Ref sig .tc := ⟨.hbm, 218, rfl⟩
abbrev main_v57 : Ref sig .tc := ⟨.hbm, 219, rfl⟩
abbrev main_v58 : Ref sig .tc := ⟨.hbm, 220, rfl⟩
abbrev main_v59 : Ref sig .tc := ⟨.hbm, 221, rfl⟩
abbrev main_v60 : Ref sig .tc := ⟨.hbm, 222, rfl⟩
abbrev main_v61 : Ref sig .tc := ⟨.hbm, 223, rfl⟩
abbrev main_v62 : Ref sig .tc := ⟨.hbm, 224, rfl⟩
abbrev main_v63 : Ref sig .tc := ⟨.hbm, 225, rfl⟩
abbrev main_v64 : Ref sig .tc := ⟨.hbm, 226, rfl⟩
abbrev main_v65 : Ref sig .tc := ⟨.hbm, 227, rfl⟩
abbrev main_v66 : Ref sig .tc := ⟨.hbm, 228, rfl⟩
abbrev main_v67 : Ref sig .tc := ⟨.hbm, 229, rfl⟩
abbrev main_v68 : Ref sig .tc := ⟨.hbm, 230, rfl⟩
abbrev main_v69 : Ref sig .tc := ⟨.hbm, 231, rfl⟩
abbrev main_v70 : Ref sig .tc := ⟨.hbm, 232, rfl⟩
abbrev main_v71 : Ref sig .tc := ⟨.hbm, 233, rfl⟩
abbrev main_v72 : Ref sig .tc := ⟨.hbm, 234, rfl⟩
abbrev main_v73 : Ref sig .tc := ⟨.hbm, 235, rfl⟩
abbrev main_v74 : Ref sig .tc := ⟨.hbm, 236, rfl⟩
abbrev main_v75 : Ref sig .tc := ⟨.hbm, 237, rfl⟩
abbrev main_v76 : Ref sig .tc := ⟨.hbm, 238, rfl⟩
abbrev main_v77 : Ref sig .tc := ⟨.hbm, 239, rfl⟩
abbrev main_v78 : Ref sig .tc := ⟨.hbm, 240, rfl⟩
abbrev main_v79 : Ref sig .tc := ⟨.hbm, 241, rfl⟩
abbrev main_v80 : Ref sig .tc := ⟨.hbm, 242, rfl⟩
abbrev main_v81 : Ref sig .tc := ⟨.hbm, 243, rfl⟩
abbrev main_v82 : Ref sig .tc := ⟨.hbm, 244, rfl⟩
abbrev main_v83 : Ref sig .tc := ⟨.hbm, 245, rfl⟩
abbrev main_v84 : Ref sig .tc := ⟨.hbm, 246, rfl⟩
abbrev main_v85 : Ref sig .tc := ⟨.hbm, 247, rfl⟩
abbrev main_v86 : Ref sig .tc := ⟨.hbm, 248, rfl⟩
abbrev main_v87 : Ref sig .tc := ⟨.hbm, 249, rfl⟩
abbrev main_v88 : Ref sig .tc := ⟨.hbm, 250, rfl⟩
abbrev main_v89 : Ref sig .tc := ⟨.hbm, 251, rfl⟩
abbrev main_v90 : Ref sig .tc := ⟨.hbm, 252, rfl⟩
abbrev main_v91 : Ref sig .tc := ⟨.hbm, 253, rfl⟩
abbrev main_v92 : Ref sig .tc := ⟨.hbm, 254, rfl⟩
abbrev main_v93 : Ref sig .tc := ⟨.hbm, 255, rfl⟩
abbrev main_v94 : Ref sig .tc := ⟨.hbm, 256, rfl⟩
abbrev main_v95 : Ref sig .tc := ⟨.hbm, 257, rfl⟩
abbrev main_v96 : Ref sig .tc := ⟨.hbm, 258, rfl⟩
abbrev main_v97 : Ref sig .tc := ⟨.hbm, 259, rfl⟩
abbrev main_v98 : Ref sig .tc := ⟨.hbm, 260, rfl⟩
abbrev main_v99 : Ref sig .tc := ⟨.hbm, 261, rfl⟩
abbrev main_v100 : Ref sig .tc := ⟨.hbm, 262, rfl⟩
abbrev main_v101 : Ref sig .tc := ⟨.hbm, 263, rfl⟩
abbrev main_v102 : Ref sig .tc := ⟨.hbm, 264, rfl⟩
abbrev main_v103 : Ref sig .tc := ⟨.hbm, 265, rfl⟩
abbrev main_v104 : Ref sig .tc := ⟨.hbm, 266, rfl⟩
abbrev main_v105 : Ref sig .tc := ⟨.hbm, 267, rfl⟩
abbrev main_v106 : Ref sig .tc := ⟨.hbm, 268, rfl⟩
abbrev main_v107 : Ref sig .tc := ⟨.hbm, 269, rfl⟩
abbrev main_v108 : Ref sig .tc := ⟨.hbm, 270, rfl⟩
abbrev main_v109 : Ref sig .tc := ⟨.hbm, 271, rfl⟩
abbrev main_v110 : Ref sig .tc := ⟨.hbm, 272, rfl⟩
abbrev main_v111 : Ref sig .tc := ⟨.hbm, 273, rfl⟩
abbrev main_v112 : Ref sig .tc := ⟨.hbm, 274, rfl⟩
abbrev main_v113 : Ref sig .tc := ⟨.hbm, 275, rfl⟩
abbrev main_v114 : Ref sig .tc := ⟨.hbm, 276, rfl⟩
abbrev main_v115 : Ref sig .tc := ⟨.hbm, 277, rfl⟩
abbrev main_v116 : Ref sig .tc := ⟨.hbm, 278, rfl⟩
abbrev main_v117 : Ref sig .tc := ⟨.hbm, 279, rfl⟩
abbrev main_v118 : Ref sig .tc := ⟨.hbm, 280, rfl⟩
abbrev main_v119 : Ref sig .tc := ⟨.hbm, 281, rfl⟩
abbrev main_v120 : Ref sig .tc := ⟨.hbm, 282, rfl⟩
abbrev main_v121 : Ref sig .tc := ⟨.hbm, 283, rfl⟩
abbrev main_v122 : Ref sig .tc := ⟨.hbm, 284, rfl⟩
abbrev main_v123 : Ref sig .tc := ⟨.hbm, 285, rfl⟩
abbrev main_v124 : Ref sig .tc := ⟨.hbm, 286, rfl⟩
abbrev main_v125 : Ref sig .tc := ⟨.hbm, 287, rfl⟩
abbrev main_v126 : Ref sig .tc := ⟨.hbm, 288, rfl⟩
abbrev main_v127 : Ref sig .tc := ⟨.hbm, 289, rfl⟩
abbrev main_v128 : Ref sig .tc := ⟨.hbm, 290, rfl⟩
abbrev main_v129 : Ref sig .tc := ⟨.hbm, 291, rfl⟩
abbrev main_v130 : Ref sig .tc := ⟨.hbm, 292, rfl⟩
abbrev main_v131 : Ref sig .tc := ⟨.hbm, 293, rfl⟩
abbrev main_v132 : Ref sig .tc := ⟨.hbm, 294, rfl⟩
abbrev main_v133 : Ref sig .tc := ⟨.hbm, 295, rfl⟩
abbrev main_v134 : Ref sig .tc := ⟨.hbm, 296, rfl⟩
abbrev main_v135 : Ref sig .tc := ⟨.hbm, 297, rfl⟩
abbrev main_v136 : Ref sig .tc := ⟨.hbm, 298, rfl⟩
abbrev main_v137 : Ref sig .tc := ⟨.hbm, 299, rfl⟩
abbrev main_v138 : Ref sig .tc := ⟨.hbm, 300, rfl⟩
abbrev main_v139 : Ref sig .tc := ⟨.hbm, 301, rfl⟩
abbrev main_v140 : Ref sig .tc := ⟨.hbm, 302, rfl⟩
abbrev main_v141 : Ref sig .tc := ⟨.hbm, 303, rfl⟩
abbrev main_v142 : Ref sig .tc := ⟨.hbm, 304, rfl⟩
abbrev main_v143 : Ref sig .tc := ⟨.hbm, 305, rfl⟩
abbrev main_v144 : Ref sig .tc := ⟨.hbm, 306, rfl⟩
abbrev main_v145 : Ref sig .tc := ⟨.hbm, 307, rfl⟩
abbrev main_v146 : Ref sig .tc := ⟨.hbm, 308, rfl⟩
abbrev main_v147 : Ref sig .tc := ⟨.hbm, 309, rfl⟩
abbrev main_v148 : Ref sig .tc := ⟨.hbm, 310, rfl⟩
abbrev main_v149 : Ref sig .tc := ⟨.hbm, 311, rfl⟩
abbrev main_v150 : Ref sig .tc := ⟨.hbm, 312, rfl⟩
abbrev main_v151 : Ref sig .tc := ⟨.hbm, 313, rfl⟩
abbrev main_v152 : Ref sig .tc := ⟨.hbm, 314, rfl⟩
abbrev main_v153 : Ref sig .tc := ⟨.hbm, 315, rfl⟩
abbrev main_v154 : Ref sig .tc := ⟨.hbm, 316, rfl⟩
abbrev main_v155 : Ref sig .tc := ⟨.hbm, 317, rfl⟩
abbrev main_v156 : Ref sig .tc := ⟨.hbm, 318, rfl⟩
abbrev main_v157 : Ref sig .tc := ⟨.hbm, 319, rfl⟩
abbrev main_v158 : Ref sig .tc := ⟨.hbm, 320, rfl⟩
abbrev main_v159 : Ref sig .tc := ⟨.hbm, 321, rfl⟩
abbrev main_v160 : Ref sig .tc := ⟨.hbm, 322, rfl⟩
abbrev main_v161 : Ref sig .tc := ⟨.hbm, 323, rfl⟩
abbrev main_v162 : Ref sig .tc := ⟨.hbm, 324, rfl⟩
abbrev main_v163 : Ref sig .tc := ⟨.hbm, 325, rfl⟩
abbrev main_v164 : Ref sig .tc := ⟨.hbm, 326, rfl⟩
abbrev main_cst_9 : Ref sig .tc := ⟨.hbm, 327, rfl⟩
abbrev main_v165 : Ref sig .tc := ⟨.hbm, 328, rfl⟩
abbrev main_v166 : Ref sig .tc := ⟨.hbm, 329, rfl⟩
abbrev main_v167 : Ref sig .tc := ⟨.hbm, 330, rfl⟩
abbrev main_v168 : Ref sig .tc := ⟨.hbm, 331, rfl⟩
abbrev main_v169 : Ref sig .tc := ⟨.hbm, 332, rfl⟩
abbrev main_cst_10 : Ref sig .tc := ⟨.hbm, 333, rfl⟩
abbrev main_v170 : Ref sig .tc := ⟨.hbm, 334, rfl⟩
abbrev main_v171 : Ref sig .tc := ⟨.hbm, 335, rfl⟩
abbrev main_v172 : Ref sig .tc := ⟨.hbm, 336, rfl⟩
abbrev main_v173 : Ref sig .tc := ⟨.hbm, 337, rfl⟩
abbrev main_v174 : Ref sig .tc := ⟨.hbm, 338, rfl⟩
abbrev main_cst_11 : Ref sig .tc := ⟨.hbm, 339, rfl⟩
abbrev main_v175 : Ref sig .tc := ⟨.hbm, 340, rfl⟩
abbrev main_v176 : Ref sig .tc := ⟨.hbm, 341, rfl⟩
abbrev main_v177 : Ref sig .tc := ⟨.hbm, 342, rfl⟩
abbrev main_v178 : Ref sig .tc := ⟨.hbm, 343, rfl⟩
abbrev main_v179 : Ref sig .tc := ⟨.hbm, 344, rfl⟩
abbrev main_cst_12 : Ref sig .tc := ⟨.hbm, 345, rfl⟩
abbrev main_v180 : Ref sig .tc := ⟨.hbm, 346, rfl⟩
abbrev main_v181 : Ref sig .tc := ⟨.hbm, 347, rfl⟩
abbrev main_v182 : Ref sig .tc := ⟨.hbm, 348, rfl⟩
abbrev main_v183 : Ref sig .tc := ⟨.hbm, 349, rfl⟩
abbrev main_v184 : Ref sig .tc := ⟨.hbm, 350, rfl⟩
abbrev main_cst_13 : Ref sig .tc := ⟨.hbm, 351, rfl⟩
abbrev main_v185 : Ref sig .tc := ⟨.hbm, 352, rfl⟩
abbrev main_v186 : Ref sig .tc := ⟨.hbm, 353, rfl⟩
abbrev main_v187 : Ref sig .tc := ⟨.hbm, 354, rfl⟩
abbrev main_v188 : Ref sig .tc := ⟨.hbm, 355, rfl⟩
abbrev main_v189 : Ref sig .tc := ⟨.hbm, 356, rfl⟩
abbrev main_cst_14 : Ref sig .tc := ⟨.hbm, 357, rfl⟩
abbrev main_v190 : Ref sig .tc := ⟨.hbm, 358, rfl⟩
abbrev main_v191 : Ref sig .tc := ⟨.hbm, 359, rfl⟩
abbrev main_v192 : Ref sig .tc := ⟨.hbm, 360, rfl⟩
abbrev main_v193 : Ref sig .tc := ⟨.hbm, 361, rfl⟩
abbrev main_v194 : Ref sig .tc := ⟨.hbm, 362, rfl⟩
abbrev main_cst_15 : Ref sig .tc := ⟨.hbm, 363, rfl⟩
abbrev main_v195 : Ref sig .tc := ⟨.hbm, 364, rfl⟩
abbrev main_v196 : Ref sig .tc := ⟨.hbm, 365, rfl⟩
abbrev main_v197 : Ref sig .tc := ⟨.hbm, 366, rfl⟩
abbrev main_v198 : Ref sig .tc := ⟨.hbm, 367, rfl⟩
abbrev main_v199 : Ref sig .tc := ⟨.hbm, 368, rfl⟩
abbrev main_cst_16 : Ref sig .tc := ⟨.hbm, 369, rfl⟩
abbrev main_v200 : Ref sig .tc := ⟨.hbm, 370, rfl⟩
abbrev main_v201 : Ref sig .tc := ⟨.hbm, 371, rfl⟩
abbrev main_v202 : Ref sig .tc := ⟨.hbm, 372, rfl⟩
abbrev main_v203 : Ref sig .tc := ⟨.hbm, 373, rfl⟩
abbrev main_v204 : Ref sig .tc := ⟨.hbm, 374, rfl⟩
abbrev main_cst_17 : Ref sig .tc := ⟨.hbm, 375, rfl⟩
abbrev main_v205 : Ref sig .tc := ⟨.hbm, 376, rfl⟩
abbrev main_v206 : Ref sig .tc := ⟨.hbm, 377, rfl⟩
abbrev main_v207 : Ref sig .tc := ⟨.hbm, 378, rfl⟩
abbrev main_v208 : Ref sig .tc := ⟨.hbm, 379, rfl⟩
abbrev main_v209 : Ref sig .tc := ⟨.hbm, 380, rfl⟩
abbrev main_cst_18 : Ref sig .tc := ⟨.hbm, 381, rfl⟩
abbrev main_v210 : Ref sig .tc := ⟨.hbm, 382, rfl⟩
abbrev main_v211 : Ref sig .tc := ⟨.hbm, 383, rfl⟩
abbrev main_v212 : Ref sig .tc := ⟨.hbm, 384, rfl⟩
abbrev main_v213 : Ref sig .tc := ⟨.hbm, 385, rfl⟩
abbrev main_v214 : Ref sig .tc := ⟨.hbm, 386, rfl⟩
abbrev main_cst_19 : Ref sig .tc := ⟨.hbm, 387, rfl⟩
abbrev main_v215 : Ref sig .tc := ⟨.hbm, 388, rfl⟩
abbrev main_v216 : Ref sig .tc := ⟨.hbm, 389, rfl⟩
abbrev main_v217 : Ref sig .tc := ⟨.hbm, 390, rfl⟩
abbrev main_v218 : Ref sig .tc := ⟨.hbm, 391, rfl⟩
abbrev main_v219 : Ref sig .tc := ⟨.hbm, 392, rfl⟩
abbrev main_cst_20 : Ref sig .tc := ⟨.hbm, 393, rfl⟩
abbrev main_v220 : Ref sig .tc := ⟨.hbm, 394, rfl⟩
abbrev main_v221 : Ref sig .tc := ⟨.hbm, 395, rfl⟩
abbrev main_v222 : Ref sig .tc := ⟨.hbm, 396, rfl⟩
abbrev main_v223 : Ref sig .tc := ⟨.hbm, 397, rfl⟩
abbrev main_v224 : Ref sig .tc := ⟨.hbm, 398, rfl⟩
abbrev main_cst_21 : Ref sig .tc := ⟨.hbm, 399, rfl⟩
abbrev main_v225 : Ref sig .tc := ⟨.hbm, 400, rfl⟩
abbrev main_v226 : Ref sig .tc := ⟨.hbm, 401, rfl⟩
abbrev main_v227 : Ref sig .tc := ⟨.hbm, 402, rfl⟩
abbrev main_v228 : Ref sig .tc := ⟨.hbm, 403, rfl⟩
abbrev main_v229 : Ref sig .tc := ⟨.hbm, 404, rfl⟩
abbrev main_cst_22 : Ref sig .tc := ⟨.hbm, 405, rfl⟩
abbrev main_v230 : Ref sig .tc := ⟨.hbm, 406, rfl⟩
abbrev main_v231 : Ref sig .tc := ⟨.hbm, 407, rfl⟩
abbrev main_v232 : Ref sig .tc := ⟨.hbm, 408, rfl⟩
abbrev main_v233 : Ref sig .tc := ⟨.hbm, 409, rfl⟩
abbrev main_v234 : Ref sig .tc := ⟨.hbm, 410, rfl⟩
abbrev main_cst_23 : Ref sig .tc := ⟨.hbm, 411, rfl⟩
abbrev main_v235 : Ref sig .tc := ⟨.hbm, 412, rfl⟩
abbrev main_v236 : Ref sig .tc := ⟨.hbm, 413, rfl⟩
abbrev main_v237 : Ref sig .tc := ⟨.hbm, 414, rfl⟩
abbrev main_v238 : Ref sig .tc := ⟨.hbm, 415, rfl⟩
abbrev main_v239 : Ref sig .tc := ⟨.hbm, 416, rfl⟩
abbrev main_cst_24 : Ref sig .tc := ⟨.hbm, 417, rfl⟩
abbrev main_v240 : Ref sig .tc := ⟨.hbm, 418, rfl⟩
abbrev main_v241 : Ref sig .tc := ⟨.hbm, 419, rfl⟩
abbrev main_v242 : Ref sig .tc := ⟨.hbm, 420, rfl⟩
abbrev main_v243 : Ref sig .tc := ⟨.hbm, 421, rfl⟩
abbrev main_v244 : Ref sig .tc := ⟨.hbm, 422, rfl⟩
abbrev main_cst_25 : Ref sig .tc := ⟨.hbm, 423, rfl⟩
abbrev main_v245 : Ref sig .tc := ⟨.hbm, 424, rfl⟩
abbrev main_v246 : Ref sig .tc := ⟨.hbm, 425, rfl⟩
abbrev main_v247 : Ref sig .tc := ⟨.hbm, 426, rfl⟩
abbrev main_v248 : Ref sig .tc := ⟨.hbm, 427, rfl⟩
abbrev main_v249 : Ref sig .tc := ⟨.hbm, 428, rfl⟩
abbrev main_cst_26 : Ref sig .tc := ⟨.hbm, 429, rfl⟩
abbrev main_v250 : Ref sig .tc := ⟨.hbm, 430, rfl⟩
abbrev main_v251 : Ref sig .tc := ⟨.hbm, 431, rfl⟩
abbrev main_v252 : Ref sig .tc := ⟨.hbm, 432, rfl⟩
abbrev main_v253 : Ref sig .tc := ⟨.hbm, 433, rfl⟩
abbrev main_v254 : Ref sig .tc := ⟨.hbm, 434, rfl⟩
abbrev main_cst_27 : Ref sig .tc := ⟨.hbm, 435, rfl⟩
abbrev main_v255 : Ref sig .tc := ⟨.hbm, 436, rfl⟩
abbrev main_v256 : Ref sig .tc := ⟨.hbm, 437, rfl⟩
abbrev main_v257 : Ref sig .tc := ⟨.hbm, 438, rfl⟩
abbrev main_v258 : Ref sig .tc := ⟨.hbm, 439, rfl⟩
abbrev main_v259 : Ref sig .tc := ⟨.hbm, 440, rfl⟩
abbrev main_cst_28 : Ref sig .tc := ⟨.hbm, 441, rfl⟩
abbrev main_v260 : Ref sig .tc := ⟨.hbm, 442, rfl⟩
abbrev main_v261 : Ref sig .tc := ⟨.hbm, 443, rfl⟩
abbrev main_v262 : Ref sig .tc := ⟨.hbm, 444, rfl⟩
abbrev main_v263 : Ref sig .tc := ⟨.hbm, 445, rfl⟩
abbrev main_v264 : Ref sig .tc := ⟨.hbm, 446, rfl⟩
abbrev main_cst_29 : Ref sig .tc := ⟨.hbm, 447, rfl⟩
abbrev main_v265 : Ref sig .tc := ⟨.hbm, 448, rfl⟩
abbrev main_v266 : Ref sig .tc := ⟨.hbm, 449, rfl⟩
abbrev main_v267 : Ref sig .tc := ⟨.hbm, 450, rfl⟩
abbrev main_v268 : Ref sig .tc := ⟨.hbm, 451, rfl⟩
abbrev main_v269 : Ref sig .tc := ⟨.hbm, 452, rfl⟩
abbrev main_cst_30 : Ref sig .tc := ⟨.hbm, 453, rfl⟩
abbrev main_v270 : Ref sig .tc := ⟨.hbm, 454, rfl⟩
abbrev main_v271 : Ref sig .tc := ⟨.hbm, 455, rfl⟩
abbrev main_v272 : Ref sig .tc := ⟨.hbm, 456, rfl⟩
abbrev main_v273 : Ref sig .tc := ⟨.hbm, 457, rfl⟩
abbrev main_v274 : Ref sig .tc := ⟨.hbm, 458, rfl⟩
abbrev main_cst_31 : Ref sig .tc := ⟨.hbm, 459, rfl⟩
abbrev main_v275 : Ref sig .tc := ⟨.hbm, 460, rfl⟩
abbrev main_v276 : Ref sig .tc := ⟨.hbm, 461, rfl⟩
abbrev main_v277 : Ref sig .tc := ⟨.hbm, 462, rfl⟩
abbrev main_v278 : Ref sig .tc := ⟨.hbm, 463, rfl⟩
abbrev main_v279 : Ref sig .tc := ⟨.hbm, 464, rfl⟩
abbrev main_cst_32 : Ref sig .tc := ⟨.hbm, 465, rfl⟩
abbrev main_v280 : Ref sig .tc := ⟨.hbm, 466, rfl⟩
abbrev main_v281 : Ref sig .tc := ⟨.hbm, 467, rfl⟩
abbrev main_v282 : Ref sig .tc := ⟨.hbm, 468, rfl⟩
abbrev main_v283 : Ref sig .tc := ⟨.hbm, 469, rfl⟩
abbrev main_v284 : Ref sig .tc := ⟨.hbm, 470, rfl⟩
abbrev main_cst_33 : Ref sig .tc := ⟨.hbm, 471, rfl⟩
abbrev main_v285 : Ref sig .tc := ⟨.hbm, 472, rfl⟩
abbrev main_cst_34 : Ref sig .tc := ⟨.hbm, 473, rfl⟩
abbrev main_v286 : Ref sig .tc := ⟨.hbm, 474, rfl⟩
abbrev main_cst_35 : Ref sig .tc := ⟨.hbm, 475, rfl⟩
abbrev main_v287 : Ref sig .tc := ⟨.hbm, 476, rfl⟩
abbrev main_cst_36 : Ref sig .tc := ⟨.hbm, 477, rfl⟩
abbrev main_v288 : Ref sig .tc := ⟨.hbm, 478, rfl⟩
abbrev main_cst_37 : Ref sig .tc := ⟨.hbm, 479, rfl⟩
abbrev main_v289 : Ref sig .tc := ⟨.hbm, 480, rfl⟩
abbrev main_cst_38 : Ref sig .tc := ⟨.hbm, 481, rfl⟩
abbrev main_v290 : Ref sig .tc := ⟨.hbm, 482, rfl⟩
abbrev main_cst_39 : Ref sig .tc := ⟨.hbm, 483, rfl⟩
abbrev main_v291 : Ref sig .tc := ⟨.hbm, 484, rfl⟩
abbrev main_cst_40 : Ref sig .tc := ⟨.hbm, 485, rfl⟩
abbrev main_v292 : Ref sig .tc := ⟨.hbm, 486, rfl⟩
abbrev main_cst_41 : Ref sig .tc := ⟨.hbm, 487, rfl⟩
abbrev main_v293 : Ref sig .tc := ⟨.hbm, 488, rfl⟩
abbrev main_cst_42 : Ref sig .tc := ⟨.hbm, 489, rfl⟩
abbrev main_v294 : Ref sig .tc := ⟨.hbm, 490, rfl⟩
abbrev main_cst_43 : Ref sig .tc := ⟨.hbm, 491, rfl⟩
abbrev main_v295 : Ref sig .tc := ⟨.hbm, 492, rfl⟩
abbrev main_cst_44 : Ref sig .tc := ⟨.hbm, 493, rfl⟩
abbrev main_v296 : Ref sig .tc := ⟨.hbm, 494, rfl⟩
abbrev main_cst_45 : Ref sig .tc := ⟨.hbm, 495, rfl⟩
abbrev main_v297 : Ref sig .tc := ⟨.hbm, 496, rfl⟩
abbrev main_cst_46 : Ref sig .tc := ⟨.hbm, 497, rfl⟩
abbrev main_v298 : Ref sig .tc := ⟨.hbm, 498, rfl⟩
abbrev main_cst_47 : Ref sig .tc := ⟨.hbm, 499, rfl⟩
abbrev main_v299 : Ref sig .tc := ⟨.hbm, 500, rfl⟩
abbrev main_cst_48 : Ref sig .tc := ⟨.hbm, 501, rfl⟩
abbrev main_v300 : Ref sig .tc := ⟨.hbm, 502, rfl⟩
abbrev main_v301 : Ref sig .tc := ⟨.hbm, 503, rfl⟩
abbrev main_v302 : Ref sig .tc := ⟨.hbm, 504, rfl⟩
abbrev main_v303 : Ref sig .tc := ⟨.hbm, 505, rfl⟩
abbrev main_v304 : Ref sig .tc := ⟨.hbm, 506, rfl⟩
abbrev main_v305 : Ref sig .tc := ⟨.hbm, 507, rfl⟩
abbrev main_v306 : Ref sig .tc := ⟨.hbm, 508, rfl⟩
abbrev main_v307 : Ref sig .tc := ⟨.hbm, 509, rfl⟩
abbrev main_v308 : Ref sig .tc := ⟨.hbm, 510, rfl⟩
abbrev main_v309 : Ref sig .tc := ⟨.hbm, 511, rfl⟩
abbrev main_v310 : Ref sig .tc := ⟨.hbm, 512, rfl⟩
abbrev main_v311 : Ref sig .tc := ⟨.hbm, 513, rfl⟩
abbrev main_v312 : Ref sig .tc := ⟨.hbm, 514, rfl⟩
abbrev main_v313 : Ref sig .tc := ⟨.hbm, 515, rfl⟩
abbrev main_v314 : Ref sig .tc := ⟨.hbm, 516, rfl⟩
abbrev main_v315 : Ref sig .tc := ⟨.hbm, 517, rfl⟩
abbrev main_v316 : Ref sig .tc := ⟨.hbm, 518, rfl⟩
abbrev main_v317 : Ref sig .tc := ⟨.hbm, 519, rfl⟩
abbrev main_v318 : Ref sig .tc := ⟨.hbm, 520, rfl⟩
abbrev main_v319 : Ref sig .tc := ⟨.hbm, 521, rfl⟩
abbrev main_v320 : Ref sig .tc := ⟨.hbm, 522, rfl⟩
abbrev main_v321 : Ref sig .tc := ⟨.hbm, 523, rfl⟩
abbrev main_v322 : Ref sig .tc := ⟨.hbm, 524, rfl⟩
abbrev main_v323 : Ref sig .tc := ⟨.hbm, 525, rfl⟩
abbrev main_v324 : Ref sig .tc := ⟨.hbm, 526, rfl⟩
abbrev main_v325 : Ref sig .tc := ⟨.hbm, 527, rfl⟩
abbrev main_v326 : Ref sig .tc := ⟨.hbm, 528, rfl⟩
abbrev main_v327 : Ref sig .tc := ⟨.hbm, 529, rfl⟩
abbrev main_v328 : Ref sig .tc := ⟨.hbm, 530, rfl⟩
abbrev main_v329 : Ref sig .tc := ⟨.hbm, 531, rfl⟩
abbrev main_v330 : Ref sig .tc := ⟨.hbm, 532, rfl⟩
abbrev main_v331 : Ref sig .tc := ⟨.hbm, 533, rfl⟩
abbrev main_v332 : Ref sig .tc := ⟨.hbm, 534, rfl⟩
abbrev main_v333 : Ref sig .tc := ⟨.hbm, 535, rfl⟩
abbrev main_v334 : Ref sig .tc := ⟨.hbm, 536, rfl⟩
abbrev main_v335 : Ref sig .tc := ⟨.hbm, 537, rfl⟩
abbrev main_v336 : Ref sig .tc := ⟨.hbm, 538, rfl⟩
abbrev main_v337 : Ref sig .tc := ⟨.hbm, 539, rfl⟩
abbrev main_v338 : Ref sig .tc := ⟨.hbm, 540, rfl⟩
abbrev main_v339 : Ref sig .tc := ⟨.hbm, 541, rfl⟩
abbrev main_v340 : Ref sig .tc := ⟨.hbm, 542, rfl⟩
abbrev main_v341 : Ref sig .tc := ⟨.hbm, 543, rfl⟩
abbrev main_v342 : Ref sig .tc := ⟨.hbm, 544, rfl⟩
abbrev main_v343 : Ref sig .tc := ⟨.hbm, 545, rfl⟩
abbrev main_v344 : Ref sig .tc := ⟨.hbm, 546, rfl⟩
abbrev main_v345 : Ref sig .tc := ⟨.hbm, 547, rfl⟩
abbrev main_v346 : Ref sig .tc := ⟨.hbm, 548, rfl⟩
abbrev main_v347 : Ref sig .tc := ⟨.hbm, 549, rfl⟩
abbrev main_v348 : Ref sig .tc := ⟨.hbm, 550, rfl⟩
abbrev main_v349 : Ref sig .tc := ⟨.hbm, 551, rfl⟩
abbrev main_v350 : Ref sig .tc := ⟨.hbm, 552, rfl⟩
abbrev main_v351 : Ref sig .tc := ⟨.hbm, 553, rfl⟩
abbrev main_v352 : Ref sig .tc := ⟨.hbm, 554, rfl⟩
abbrev main_v353 : Ref sig .tc := ⟨.hbm, 555, rfl⟩
abbrev main_v354 : Ref sig .tc := ⟨.hbm, 556, rfl⟩
abbrev main_v355 : Ref sig .tc := ⟨.hbm, 557, rfl⟩
abbrev main_v356 : Ref sig .tc := ⟨.hbm, 558, rfl⟩
abbrev main_v357 : Ref sig .tc := ⟨.hbm, 559, rfl⟩
abbrev main_v358 : Ref sig .tc := ⟨.hbm, 560, rfl⟩
abbrev main_v359 : Ref sig .tc := ⟨.hbm, 561, rfl⟩
abbrev main_v360 : Ref sig .tc := ⟨.hbm, 562, rfl⟩
abbrev main_v361 : Ref sig .tc := ⟨.hbm, 563, rfl⟩
abbrev main_v362 : Ref sig .tc := ⟨.hbm, 564, rfl⟩
abbrev main_v363 : Ref sig .tc := ⟨.hbm, 565, rfl⟩
abbrev main_v364 : Ref sig .tc := ⟨.hbm, 566, rfl⟩
abbrev main_v365 : Ref sig .tc := ⟨.hbm, 567, rfl⟩
abbrev main_v366 : Ref sig .tc := ⟨.hbm, 568, rfl⟩
abbrev main_v367 : Ref sig .tc := ⟨.hbm, 569, rfl⟩
abbrev main_v368 : Ref sig .tc := ⟨.hbm, 570, rfl⟩
abbrev main_v369 : Ref sig .tc := ⟨.hbm, 571, rfl⟩
abbrev main_v370 : Ref sig .tc := ⟨.hbm, 572, rfl⟩
abbrev main_v371 : Ref sig .tc := ⟨.hbm, 573, rfl⟩
abbrev main_v372 : Ref sig .tc := ⟨.hbm, 574, rfl⟩
abbrev main_v373 : Ref sig .tc := ⟨.hbm, 575, rfl⟩
abbrev main_v374 : Ref sig .tc := ⟨.hbm, 576, rfl⟩
abbrev main_v375 : Ref sig .tc := ⟨.hbm, 577, rfl⟩
abbrev main_v376 : Ref sig .tc := ⟨.hbm, 578, rfl⟩
abbrev main_v377 : Ref sig .tc := ⟨.hbm, 579, rfl⟩
abbrev main_v378 : Ref sig .tc := ⟨.hbm, 580, rfl⟩
abbrev main_v379 : Ref sig .tc := ⟨.hbm, 581, rfl⟩
abbrev main_v380 : Ref sig .tc := ⟨.hbm, 582, rfl⟩
abbrev main_v381 : Ref sig .tc := ⟨.hbm, 583, rfl⟩
abbrev main_v382 : Ref sig .tc := ⟨.hbm, 584, rfl⟩
abbrev main_v383 : Ref sig .tc := ⟨.hbm, 585, rfl⟩
abbrev main_v384 : Ref sig .tc := ⟨.hbm, 586, rfl⟩
abbrev main_v385 : Ref sig .tc := ⟨.hbm, 587, rfl⟩
abbrev main_v386 : Ref sig .tc := ⟨.hbm, 588, rfl⟩
abbrev main_v387 : Ref sig .tc := ⟨.hbm, 589, rfl⟩
abbrev main_v388 : Ref sig .tc := ⟨.hbm, 590, rfl⟩
abbrev main_v389 : Ref sig .tc := ⟨.hbm, 591, rfl⟩
abbrev main_v390 : Ref sig .tc := ⟨.hbm, 592, rfl⟩
abbrev main_v391 : Ref sig .tc := ⟨.hbm, 593, rfl⟩
abbrev main_v392 : Ref sig .tc := ⟨.hbm, 594, rfl⟩
abbrev main_v393 : Ref sig .tc := ⟨.hbm, 595, rfl⟩
abbrev main_v394 : Ref sig .tc := ⟨.hbm, 596, rfl⟩
abbrev main_v395 : Ref sig .tc := ⟨.hbm, 597, rfl⟩
abbrev main_v396 : Ref sig .tc := ⟨.hbm, 598, rfl⟩
abbrev main_v397 : Ref sig .tc := ⟨.hbm, 599, rfl⟩
abbrev main_v398 : Ref sig .tc := ⟨.hbm, 600, rfl⟩
abbrev main_v399 : Ref sig .tc := ⟨.hbm, 601, rfl⟩
abbrev main_v400 : Ref sig .tc := ⟨.hbm, 602, rfl⟩
abbrev main_v401 : Ref sig .tc := ⟨.hbm, 603, rfl⟩
abbrev main_v402 : Ref sig .tc := ⟨.hbm, 604, rfl⟩
abbrev main_v403 : Ref sig .tc := ⟨.hbm, 605, rfl⟩
abbrev main_v404 : Ref sig .tc := ⟨.hbm, 606, rfl⟩
abbrev main_v405 : Ref sig .tc := ⟨.hbm, 607, rfl⟩
abbrev main_v406 : Ref sig .tc := ⟨.hbm, 608, rfl⟩
abbrev main_v407 : Ref sig .tc := ⟨.hbm, 609, rfl⟩
abbrev main_v408 : Ref sig .tc := ⟨.hbm, 610, rfl⟩
abbrev main_v409 : Ref sig .tc := ⟨.hbm, 611, rfl⟩
abbrev main_v410 : Ref sig .tc := ⟨.hbm, 612, rfl⟩
abbrev main_v411 : Ref sig .tc := ⟨.hbm, 613, rfl⟩
abbrev main_v412 : Ref sig .tc := ⟨.hbm, 614, rfl⟩
abbrev main_v413 : Ref sig .tc := ⟨.hbm, 615, rfl⟩
abbrev main_v414 : Ref sig .tc := ⟨.hbm, 616, rfl⟩
abbrev main_v415 : Ref sig .tc := ⟨.hbm, 617, rfl⟩
abbrev main_v416 : Ref sig .tc := ⟨.hbm, 618, rfl⟩
abbrev main_v417 : Ref sig .tc := ⟨.hbm, 619, rfl⟩
abbrev main_v418 : Ref sig .tc := ⟨.hbm, 620, rfl⟩
abbrev main_v419 : Ref sig .tc := ⟨.hbm, 621, rfl⟩
abbrev main_v420 : Ref sig .tc := ⟨.hbm, 622, rfl⟩
abbrev main_v421 : Ref sig .tc := ⟨.hbm, 623, rfl⟩
abbrev main_v422 : Ref sig .tc := ⟨.hbm, 624, rfl⟩
abbrev main_v423 : Ref sig .tc := ⟨.hbm, 625, rfl⟩
abbrev main_v424 : Ref sig .tc := ⟨.hbm, 626, rfl⟩
abbrev main_v425 : Ref sig .tc := ⟨.hbm, 627, rfl⟩
abbrev main_v426 : Ref sig .tc := ⟨.hbm, 628, rfl⟩
abbrev main_v427 : Ref sig .tc := ⟨.hbm, 629, rfl⟩
abbrev main_v428 : Ref sig .tc := ⟨.hbm, 630, rfl⟩
abbrev main_v429 : Ref sig .tc := ⟨.hbm, 631, rfl⟩
abbrev main_v430 : Ref sig .tc := ⟨.hbm, 632, rfl⟩
abbrev main_v431 : Ref sig .tc := ⟨.hbm, 633, rfl⟩
abbrev main_v432 : Ref sig .tc := ⟨.hbm, 634, rfl⟩
abbrev main_v433 : Ref sig .tc := ⟨.hbm, 635, rfl⟩
abbrev main_v434 : Ref sig .tc := ⟨.hbm, 636, rfl⟩
abbrev main_v435 : Ref sig .tc := ⟨.hbm, 637, rfl⟩
abbrev main_v436 : Ref sig .tc := ⟨.hbm, 638, rfl⟩
abbrev main_v437 : Ref sig .tc := ⟨.hbm, 639, rfl⟩
abbrev main_v438 : Ref sig .tc := ⟨.hbm, 640, rfl⟩
abbrev main_v439 : Ref sig .tc := ⟨.hbm, 641, rfl⟩
abbrev main_v440 : Ref sig .tc := ⟨.hbm, 642, rfl⟩
abbrev main_v441 : Ref sig .tc := ⟨.hbm, 643, rfl⟩
abbrev main_v442 : Ref sig .tc := ⟨.hbm, 644, rfl⟩
abbrev main_v443 : Ref sig .tc := ⟨.hbm, 645, rfl⟩
abbrev main_v444 : Ref sig .tc := ⟨.hbm, 646, rfl⟩
abbrev main_v445 : Ref sig .tc := ⟨.hbm, 647, rfl⟩
abbrev main_v446 : Ref sig .tc := ⟨.hbm, 648, rfl⟩
abbrev main_v447 : Ref sig .tc := ⟨.hbm, 649, rfl⟩
abbrev main_v448 : Ref sig .tc := ⟨.hbm, 650, rfl⟩
abbrev main_v449 : Ref sig .tc := ⟨.hbm, 651, rfl⟩
abbrev main_v450 : Ref sig .tc := ⟨.hbm, 652, rfl⟩
abbrev main_v451 : Ref sig .tc := ⟨.hbm, 653, rfl⟩
abbrev main_v452 : Ref sig .tc := ⟨.hbm, 654, rfl⟩
abbrev main_v453 : Ref sig .tc := ⟨.hbm, 655, rfl⟩
abbrev main_v454 : Ref sig .tc := ⟨.hbm, 656, rfl⟩
abbrev main_v455 : Ref sig .tc := ⟨.hbm, 657, rfl⟩
abbrev main_v456 : Ref sig .tc := ⟨.hbm, 658, rfl⟩
abbrev main_v457 : Ref sig .tc := ⟨.hbm, 659, rfl⟩
abbrev main_v458 : Ref sig .tc := ⟨.hbm, 660, rfl⟩
abbrev main_v459 : Ref sig .tc := ⟨.hbm, 661, rfl⟩
abbrev main_v460 : Ref sig .tc := ⟨.hbm, 662, rfl⟩
abbrev main_v461 : Ref sig .tc := ⟨.hbm, 663, rfl⟩
abbrev main_v462 : Ref sig .tc := ⟨.hbm, 664, rfl⟩
abbrev main_v463 : Ref sig .tc := ⟨.hbm, 665, rfl⟩
abbrev main_v464 : Ref sig .tc := ⟨.hbm, 666, rfl⟩
abbrev main_v465 : Ref sig .tc := ⟨.hbm, 667, rfl⟩
abbrev main_v466 : Ref sig .tc := ⟨.hbm, 668, rfl⟩
abbrev main_v467 : Ref sig .tc := ⟨.hbm, 669, rfl⟩
abbrev main_v468 : Ref sig .tc := ⟨.hbm, 670, rfl⟩
abbrev main_v469 : Ref sig .tc := ⟨.hbm, 671, rfl⟩
abbrev main_v470 : Ref sig .tc := ⟨.hbm, 672, rfl⟩
abbrev main_v471 : Ref sig .tc := ⟨.hbm, 673, rfl⟩
abbrev main_v472 : Ref sig .tc := ⟨.hbm, 674, rfl⟩
abbrev main_v473 : Ref sig .tc := ⟨.hbm, 675, rfl⟩
abbrev main_v474 : Ref sig .tc := ⟨.hbm, 676, rfl⟩
abbrev main_v475 : Ref sig .tc := ⟨.hbm, 677, rfl⟩
abbrev main_v476 : Ref sig .tc := ⟨.hbm, 678, rfl⟩
abbrev main_v477 : Ref sig .tc := ⟨.hbm, 679, rfl⟩
abbrev main_v478 : Ref sig .tc := ⟨.hbm, 680, rfl⟩
abbrev main_v479 : Ref sig .tc := ⟨.hbm, 681, rfl⟩
abbrev main_v480 : Ref sig .tc := ⟨.hbm, 682, rfl⟩
abbrev main_v481 : Ref sig .tc := ⟨.hbm, 683, rfl⟩
abbrev main_v482 : Ref sig .tc := ⟨.hbm, 684, rfl⟩
abbrev main_v483 : Ref sig .tc := ⟨.hbm, 685, rfl⟩
abbrev main_v484 : Ref sig .tc := ⟨.hbm, 686, rfl⟩
abbrev main_v485 : Ref sig .tc := ⟨.hbm, 687, rfl⟩
abbrev main_v486 : Ref sig .tc := ⟨.hbm, 688, rfl⟩
abbrev main_v487 : Ref sig .tc := ⟨.hbm, 689, rfl⟩
abbrev main_v488 : Ref sig .tc := ⟨.hbm, 690, rfl⟩
abbrev main_v489 : Ref sig .tc := ⟨.hbm, 691, rfl⟩
abbrev main_v490 : Ref sig .tc := ⟨.hbm, 692, rfl⟩
abbrev main_v491 : Ref sig .tc := ⟨.hbm, 693, rfl⟩
abbrev main_v492 : Ref sig .tc := ⟨.hbm, 694, rfl⟩
abbrev main_v493 : Ref sig .tc := ⟨.hbm, 695, rfl⟩
abbrev main_v494 : Ref sig .tc := ⟨.hbm, 696, rfl⟩
abbrev main_v495 : Ref sig .tc := ⟨.hbm, 697, rfl⟩
abbrev main_v496 : Ref sig .tc := ⟨.hbm, 698, rfl⟩
abbrev main_v497 : Ref sig .tc := ⟨.hbm, 699, rfl⟩
abbrev main_v498 : Ref sig .tc := ⟨.hbm, 700, rfl⟩
abbrev main_v499 : Ref sig .tc := ⟨.hbm, 701, rfl⟩
abbrev main_v500 : Ref sig .tc := ⟨.hbm, 702, rfl⟩
abbrev main_v501 : Ref sig .tc := ⟨.hbm, 703, rfl⟩
abbrev main_v502 : Ref sig .tc := ⟨.hbm, 704, rfl⟩
abbrev main_v503 : Ref sig .tc := ⟨.hbm, 705, rfl⟩
abbrev main_v504 : Ref sig .tc := ⟨.hbm, 706, rfl⟩
abbrev main_v505 : Ref sig .tc := ⟨.hbm, 707, rfl⟩
abbrev main_v506 : Ref sig .tc := ⟨.hbm, 708, rfl⟩
abbrev main_v507 : Ref sig .tc := ⟨.hbm, 709, rfl⟩
abbrev main_v508 : Ref sig .tc := ⟨.hbm, 710, rfl⟩
abbrev main_v509 : Ref sig .tc := ⟨.hbm, 711, rfl⟩
abbrev main_v510 : Ref sig .tc := ⟨.hbm, 712, rfl⟩
abbrev main_v511 : Ref sig .tc := ⟨.hbm, 713, rfl⟩
abbrev main_v512 : Ref sig .tc := ⟨.hbm, 714, rfl⟩
abbrev main_v513 : Ref sig .tc := ⟨.hbm, 715, rfl⟩
abbrev main_v514 : Ref sig .tc := ⟨.hbm, 716, rfl⟩
abbrev main_v515 : Ref sig .tc := ⟨.hbm, 717, rfl⟩
abbrev main_v516 : Ref sig .tc := ⟨.hbm, 718, rfl⟩
abbrev main_v517 : Ref sig .tc := ⟨.hbm, 719, rfl⟩
abbrev main_v518 : Ref sig .tc := ⟨.hbm, 720, rfl⟩
abbrev main_v519 : Ref sig .tc := ⟨.hbm, 721, rfl⟩
abbrev main_v520 : Ref sig .tc := ⟨.hbm, 722, rfl⟩
abbrev main_v521 : Ref sig .tc := ⟨.hbm, 723, rfl⟩
abbrev main_v522 : Ref sig .tc := ⟨.hbm, 724, rfl⟩
abbrev main_v523 : Ref sig .tc := ⟨.hbm, 725, rfl⟩
abbrev main_v524 : Ref sig .tc := ⟨.hbm, 726, rfl⟩
abbrev main_v525 : Ref sig .tc := ⟨.hbm, 727, rfl⟩
abbrev main_v526 : Ref sig .tc := ⟨.hbm, 728, rfl⟩
abbrev main_v527 : Ref sig .tc := ⟨.hbm, 729, rfl⟩
abbrev main_v528 : Ref sig .tc := ⟨.hbm, 730, rfl⟩
abbrev main_v529 : Ref sig .tc := ⟨.hbm, 731, rfl⟩
abbrev main_v530 : Ref sig .tc := ⟨.hbm, 732, rfl⟩
abbrev main_v531 : Ref sig .tc := ⟨.hbm, 733, rfl⟩
abbrev main_v532 : Ref sig .tc := ⟨.hbm, 734, rfl⟩
abbrev main_v533 : Ref sig .tc := ⟨.hbm, 735, rfl⟩
abbrev main_v534 : Ref sig .tc := ⟨.hbm, 736, rfl⟩
abbrev main_v535 : Ref sig .tc := ⟨.hbm, 737, rfl⟩
abbrev main_v536 : Ref sig .tc := ⟨.hbm, 738, rfl⟩
abbrev main_v537 : Ref sig .tc := ⟨.hbm, 739, rfl⟩
abbrev main_v538 : Ref sig .tc := ⟨.hbm, 740, rfl⟩
abbrev main_v539 : Ref sig .tc := ⟨.hbm, 741, rfl⟩
abbrev main_v540 : Ref sig .tc := ⟨.hbm, 742, rfl⟩
abbrev main_v541 : Ref sig .tc := ⟨.hbm, 743, rfl⟩
abbrev main_v542 : Ref sig .tc := ⟨.hbm, 744, rfl⟩
abbrev main_v543 : Ref sig .tc := ⟨.hbm, 745, rfl⟩
abbrev main_v544 : Ref sig .tc := ⟨.hbm, 746, rfl⟩
abbrev main_v545 : Ref sig .tc := ⟨.hbm, 747, rfl⟩
abbrev main_v546 : Ref sig .tc := ⟨.hbm, 748, rfl⟩
abbrev main_v547 : Ref sig .tc := ⟨.hbm, 749, rfl⟩
abbrev main_v548 : Ref sig .tc := ⟨.hbm, 750, rfl⟩
abbrev main_v549 : Ref sig .tc := ⟨.hbm, 751, rfl⟩
abbrev main_v550 : Ref sig .tc := ⟨.hbm, 752, rfl⟩
abbrev main_v551 : Ref sig .tc := ⟨.hbm, 753, rfl⟩
abbrev main_v552 : Ref sig .tc := ⟨.hbm, 754, rfl⟩
abbrev main_v553 : Ref sig .tc := ⟨.hbm, 755, rfl⟩
abbrev main_v554 : Ref sig .tc := ⟨.hbm, 756, rfl⟩
abbrev main_v555 : Ref sig .tc := ⟨.hbm, 757, rfl⟩
abbrev main_v556 : Ref sig .tc := ⟨.hbm, 758, rfl⟩
abbrev main_v557 : Ref sig .tc := ⟨.hbm, 759, rfl⟩
abbrev main_v558 : Ref sig .tc := ⟨.hbm, 760, rfl⟩
abbrev main_v559 : Ref sig .tc := ⟨.hbm, 761, rfl⟩
abbrev main_v560 : Ref sig .tc := ⟨.hbm, 762, rfl⟩
abbrev main_v561 : Ref sig .tc := ⟨.hbm, 763, rfl⟩
abbrev main_v562 : Ref sig .tc := ⟨.hbm, 764, rfl⟩
abbrev main_v563 : Ref sig .tc := ⟨.hbm, 765, rfl⟩
abbrev main_v564 : Ref sig .tc := ⟨.hbm, 766, rfl⟩
abbrev main_cst_49 : Ref sig .tc := ⟨.hbm, 767, rfl⟩
abbrev main_v565 : Ref sig .tc := ⟨.hbm, 768, rfl⟩
abbrev main_c_50 : Ref sig .tc := ⟨.hbm, 769, rfl⟩
abbrev main_v566 : Ref sig .tc := ⟨.hbm, 770, rfl⟩
abbrev main_v567 : Ref sig .tc := ⟨.hbm, 771, rfl⟩
abbrev main_c_51 : Ref sig .tc := ⟨.hbm, 772, rfl⟩
abbrev main_v568 : Ref sig .tc := ⟨.hbm, 773, rfl⟩
abbrev main_v569 : Ref sig .tc := ⟨.hbm, 774, rfl⟩
abbrev main_c_52 : Ref sig .tc := ⟨.hbm, 775, rfl⟩
abbrev main_v570 : Ref sig .tc := ⟨.hbm, 776, rfl⟩
abbrev main_v571 : Ref sig .tc := ⟨.hbm, 777, rfl⟩
abbrev main_c_53 : Ref sig .tc := ⟨.hbm, 778, rfl⟩
abbrev main_v572 : Ref sig .tc := ⟨.hbm, 779, rfl⟩
abbrev main_v573 : Ref sig .tc := ⟨.hbm, 780, rfl⟩
abbrev main_v574 : Ref sig .tc := ⟨.hbm, 781, rfl⟩
abbrev main_c_54 : Ref sig .tc := ⟨.hbm, 782, rfl⟩
abbrev main_v575 : Ref sig .tc := ⟨.hbm, 783, rfl⟩
abbrev main_v576 : Ref sig .tc := ⟨.hbm, 784, rfl⟩
abbrev main_c_55 : Ref sig .tc := ⟨.hbm, 785, rfl⟩
abbrev main_v577 : Ref sig .tc := ⟨.hbm, 786, rfl⟩
abbrev main_v578 : Ref sig .tc := ⟨.hbm, 787, rfl⟩
abbrev main_v579 : Ref sig .tc := ⟨.hbm, 788, rfl⟩
abbrev main_c_56 : Ref sig .tc := ⟨.hbm, 789, rfl⟩
abbrev main_v580 : Ref sig .tc := ⟨.hbm, 790, rfl⟩
abbrev main_v581 : Ref sig .tc := ⟨.hbm, 791, rfl⟩
abbrev main_v582 : Ref sig .tc := ⟨.hbm, 792, rfl⟩
abbrev main_v583 : Ref sig .tc := ⟨.hbm, 793, rfl⟩
abbrev main_c_57 : Ref sig .tc := ⟨.hbm, 794, rfl⟩
abbrev main_v584 : Ref sig .tc := ⟨.hbm, 795, rfl⟩
abbrev main_v585 : Ref sig .tc := ⟨.hbm, 796, rfl⟩
abbrev main_c_58 : Ref sig .tc := ⟨.hbm, 797, rfl⟩
abbrev main_v586 : Ref sig .tc := ⟨.hbm, 798, rfl⟩
abbrev main_v587 : Ref sig .tc := ⟨.hbm, 799, rfl⟩
abbrev main_v588 : Ref sig .tc := ⟨.hbm, 800, rfl⟩
abbrev main_v589 : Ref sig .tc := ⟨.hbm, 801, rfl⟩
abbrev main_v590 : Ref sig .tc := ⟨.hbm, 802, rfl⟩
abbrev main_v591 : Ref sig .tc := ⟨.hbm, 803, rfl⟩
abbrev main_v592 : Ref sig .tc := ⟨.hbm, 804, rfl⟩
abbrev main_v593 : Ref sig .tc := ⟨.hbm, 805, rfl⟩
abbrev main_c_59 : Ref sig .tc := ⟨.hbm, 806, rfl⟩
abbrev main_v594 : Ref sig .tc := ⟨.hbm, 807, rfl⟩
abbrev main_v595 : Ref sig .tc := ⟨.hbm, 808, rfl⟩
abbrev main_c_60 : Ref sig .tc := ⟨.hbm, 809, rfl⟩
abbrev main_v596 : Ref sig .tc := ⟨.hbm, 810, rfl⟩
abbrev main_v597 : Ref sig .tc := ⟨.hbm, 811, rfl⟩
abbrev main_c_61 : Ref sig .tc := ⟨.hbm, 812, rfl⟩
abbrev main_v598 : Ref sig .tc := ⟨.hbm, 813, rfl⟩
abbrev main_v599 : Ref sig .tc := ⟨.hbm, 814, rfl⟩
abbrev main_c_62 : Ref sig .tc := ⟨.hbm, 815, rfl⟩
abbrev main_v600 : Ref sig .tc := ⟨.hbm, 816, rfl⟩
abbrev main_v601 : Ref sig .tc := ⟨.hbm, 817, rfl⟩
abbrev main_v602 : Ref sig .tc := ⟨.hbm, 818, rfl⟩
abbrev main_c_63 : Ref sig .tc := ⟨.hbm, 819, rfl⟩
abbrev main_v603 : Ref sig .tc := ⟨.hbm, 820, rfl⟩
abbrev main_v604 : Ref sig .tc := ⟨.hbm, 821, rfl⟩
abbrev main_c_64 : Ref sig .tc := ⟨.hbm, 822, rfl⟩
abbrev main_v605 : Ref sig .tc := ⟨.hbm, 823, rfl⟩
abbrev main_v606 : Ref sig .tc := ⟨.hbm, 824, rfl⟩
abbrev main_v607 : Ref sig .tc := ⟨.hbm, 825, rfl⟩
abbrev main_c_65 : Ref sig .tc := ⟨.hbm, 826, rfl⟩
abbrev main_v608 : Ref sig .tc := ⟨.hbm, 827, rfl⟩
abbrev main_v609 : Ref sig .tc := ⟨.hbm, 828, rfl⟩
abbrev main_v610 : Ref sig .tc := ⟨.hbm, 829, rfl⟩
abbrev main_v611 : Ref sig .tc := ⟨.hbm, 830, rfl⟩
abbrev main_c_66 : Ref sig .tc := ⟨.hbm, 831, rfl⟩
abbrev main_v612 : Ref sig .tc := ⟨.hbm, 832, rfl⟩
abbrev main_v613 : Ref sig .tc := ⟨.hbm, 833, rfl⟩
abbrev main_c_67 : Ref sig .tc := ⟨.hbm, 834, rfl⟩
abbrev main_v614 : Ref sig .tc := ⟨.hbm, 835, rfl⟩
abbrev main_v615 : Ref sig .tc := ⟨.hbm, 836, rfl⟩
abbrev main_v616 : Ref sig .tc := ⟨.hbm, 837, rfl⟩
abbrev main_v617 : Ref sig .tc := ⟨.hbm, 838, rfl⟩
abbrev main_v618 : Ref sig .tc := ⟨.hbm, 839, rfl⟩
abbrev main_v619 : Ref sig .tc := ⟨.hbm, 840, rfl⟩
abbrev main_v620 : Ref sig .tc := ⟨.hbm, 841, rfl⟩
abbrev main_v621 : Ref sig .tc := ⟨.hbm, 842, rfl⟩
abbrev main_c_68 : Ref sig .tc := ⟨.hbm, 843, rfl⟩
abbrev main_v622 : Ref sig .tc := ⟨.hbm, 844, rfl⟩
abbrev main_v623 : Ref sig .tc := ⟨.hbm, 845, rfl⟩
abbrev main_c_69 : Ref sig .tc := ⟨.hbm, 846, rfl⟩
abbrev main_v624 : Ref sig .tc := ⟨.hbm, 847, rfl⟩
abbrev main_v625 : Ref sig .tc := ⟨.hbm, 848, rfl⟩
abbrev main_c_70 : Ref sig .tc := ⟨.hbm, 849, rfl⟩
abbrev main_v626 : Ref sig .tc := ⟨.hbm, 850, rfl⟩
abbrev main_v627 : Ref sig .tc := ⟨.hbm, 851, rfl⟩
abbrev main_c_71 : Ref sig .tc := ⟨.hbm, 852, rfl⟩
abbrev main_v628 : Ref sig .tc := ⟨.hbm, 853, rfl⟩
abbrev main_v629 : Ref sig .tc := ⟨.hbm, 854, rfl⟩
abbrev main_v630 : Ref sig .tc := ⟨.hbm, 855, rfl⟩
abbrev main_c_72 : Ref sig .tc := ⟨.hbm, 856, rfl⟩
abbrev main_v631 : Ref sig .tc := ⟨.hbm, 857, rfl⟩
abbrev main_v632 : Ref sig .tc := ⟨.hbm, 858, rfl⟩
abbrev main_c_73 : Ref sig .tc := ⟨.hbm, 859, rfl⟩
abbrev main_v633 : Ref sig .tc := ⟨.hbm, 860, rfl⟩
abbrev main_v634 : Ref sig .tc := ⟨.hbm, 861, rfl⟩
abbrev main_v635 : Ref sig .tc := ⟨.hbm, 862, rfl⟩
abbrev main_c_74 : Ref sig .tc := ⟨.hbm, 863, rfl⟩
abbrev main_v636 : Ref sig .tc := ⟨.hbm, 864, rfl⟩
abbrev main_v637 : Ref sig .tc := ⟨.hbm, 865, rfl⟩
abbrev main_v638 : Ref sig .tc := ⟨.hbm, 866, rfl⟩
abbrev main_v639 : Ref sig .tc := ⟨.hbm, 867, rfl⟩
abbrev main_c_75 : Ref sig .tc := ⟨.hbm, 868, rfl⟩
abbrev main_v640 : Ref sig .tc := ⟨.hbm, 869, rfl⟩
abbrev main_v641 : Ref sig .tc := ⟨.hbm, 870, rfl⟩
abbrev main_c_76 : Ref sig .tc := ⟨.hbm, 871, rfl⟩
abbrev main_v642 : Ref sig .tc := ⟨.hbm, 872, rfl⟩
abbrev main_v643 : Ref sig .tc := ⟨.hbm, 873, rfl⟩
abbrev main_v644 : Ref sig .tc := ⟨.hbm, 874, rfl⟩
abbrev main_v645 : Ref sig .tc := ⟨.hbm, 875, rfl⟩
abbrev main_v646 : Ref sig .tc := ⟨.hbm, 876, rfl⟩
abbrev main_v647 : Ref sig .tc := ⟨.hbm, 877, rfl⟩
abbrev main_v648 : Ref sig .tc := ⟨.hbm, 878, rfl⟩
abbrev main_v649 : Ref sig .tc := ⟨.hbm, 879, rfl⟩
abbrev main_c_77 : Ref sig .tc := ⟨.hbm, 880, rfl⟩
abbrev main_v650 : Ref sig .tc := ⟨.hbm, 881, rfl⟩
abbrev main_v651 : Ref sig .tc := ⟨.hbm, 882, rfl⟩
abbrev main_c_78 : Ref sig .tc := ⟨.hbm, 883, rfl⟩
abbrev main_v652 : Ref sig .tc := ⟨.hbm, 884, rfl⟩
abbrev main_v653 : Ref sig .tc := ⟨.hbm, 885, rfl⟩
abbrev main_c_79 : Ref sig .tc := ⟨.hbm, 886, rfl⟩
abbrev main_v654 : Ref sig .tc := ⟨.hbm, 887, rfl⟩
abbrev main_v655 : Ref sig .tc := ⟨.hbm, 888, rfl⟩
abbrev main_c_80 : Ref sig .tc := ⟨.hbm, 889, rfl⟩
abbrev main_v656 : Ref sig .tc := ⟨.hbm, 890, rfl⟩
abbrev main_v657 : Ref sig .tc := ⟨.hbm, 891, rfl⟩
abbrev main_v658 : Ref sig .tc := ⟨.hbm, 892, rfl⟩
abbrev main_c_81 : Ref sig .tc := ⟨.hbm, 893, rfl⟩
abbrev main_v659 : Ref sig .tc := ⟨.hbm, 894, rfl⟩
abbrev main_v660 : Ref sig .tc := ⟨.hbm, 895, rfl⟩
abbrev main_c_82 : Ref sig .tc := ⟨.hbm, 896, rfl⟩
abbrev main_v661 : Ref sig .tc := ⟨.hbm, 897, rfl⟩
abbrev main_v662 : Ref sig .tc := ⟨.hbm, 898, rfl⟩
abbrev main_v663 : Ref sig .tc := ⟨.hbm, 899, rfl⟩
abbrev main_c_83 : Ref sig .tc := ⟨.hbm, 900, rfl⟩
abbrev main_v664 : Ref sig .tc := ⟨.hbm, 901, rfl⟩
abbrev main_v665 : Ref sig .tc := ⟨.hbm, 902, rfl⟩
abbrev main_v666 : Ref sig .tc := ⟨.hbm, 903, rfl⟩
abbrev main_v667 : Ref sig .tc := ⟨.hbm, 904, rfl⟩
abbrev main_c_84 : Ref sig .tc := ⟨.hbm, 905, rfl⟩
abbrev main_v668 : Ref sig .tc := ⟨.hbm, 906, rfl⟩
abbrev main_v669 : Ref sig .tc := ⟨.hbm, 907, rfl⟩
abbrev main_c_85 : Ref sig .tc := ⟨.hbm, 908, rfl⟩
abbrev main_v670 : Ref sig .tc := ⟨.hbm, 909, rfl⟩
abbrev main_v671 : Ref sig .tc := ⟨.hbm, 910, rfl⟩
abbrev main_v672 : Ref sig .tc := ⟨.hbm, 911, rfl⟩
abbrev main_v673 : Ref sig .tc := ⟨.hbm, 912, rfl⟩
abbrev main_v674 : Ref sig .tc := ⟨.hbm, 913, rfl⟩
abbrev main_v675 : Ref sig .tc := ⟨.hbm, 914, rfl⟩
abbrev main_v676 : Ref sig .tc := ⟨.hbm, 915, rfl⟩
abbrev main_v677 : Ref sig .tc := ⟨.hbm, 916, rfl⟩
abbrev main_c_86 : Ref sig .tc := ⟨.hbm, 917, rfl⟩
abbrev main_v678 : Ref sig .tc := ⟨.hbm, 918, rfl⟩
abbrev main_v679 : Ref sig .tc := ⟨.hbm, 919, rfl⟩
abbrev main_c_87 : Ref sig .tc := ⟨.hbm, 920, rfl⟩
abbrev main_v680 : Ref sig .tc := ⟨.hbm, 921, rfl⟩
abbrev main_v681 : Ref sig .tc := ⟨.hbm, 922, rfl⟩
abbrev main_c_88 : Ref sig .tc := ⟨.hbm, 923, rfl⟩
abbrev main_v682 : Ref sig .tc := ⟨.hbm, 924, rfl⟩
abbrev main_v683 : Ref sig .tc := ⟨.hbm, 925, rfl⟩
abbrev main_c_89 : Ref sig .tc := ⟨.hbm, 926, rfl⟩
abbrev main_v684 : Ref sig .tc := ⟨.hbm, 927, rfl⟩
abbrev main_v685 : Ref sig .tc := ⟨.hbm, 928, rfl⟩
abbrev main_v686 : Ref sig .tc := ⟨.hbm, 929, rfl⟩
abbrev main_c_90 : Ref sig .tc := ⟨.hbm, 930, rfl⟩
abbrev main_v687 : Ref sig .tc := ⟨.hbm, 931, rfl⟩
abbrev main_v688 : Ref sig .tc := ⟨.hbm, 932, rfl⟩
abbrev main_c_91 : Ref sig .tc := ⟨.hbm, 933, rfl⟩
abbrev main_v689 : Ref sig .tc := ⟨.hbm, 934, rfl⟩
abbrev main_v690 : Ref sig .tc := ⟨.hbm, 935, rfl⟩
abbrev main_v691 : Ref sig .tc := ⟨.hbm, 936, rfl⟩
abbrev main_c_92 : Ref sig .tc := ⟨.hbm, 937, rfl⟩
abbrev main_v692 : Ref sig .tc := ⟨.hbm, 938, rfl⟩
abbrev main_v693 : Ref sig .tc := ⟨.hbm, 939, rfl⟩
abbrev main_v694 : Ref sig .tc := ⟨.hbm, 940, rfl⟩
abbrev main_v695 : Ref sig .tc := ⟨.hbm, 941, rfl⟩
abbrev main_c_93 : Ref sig .tc := ⟨.hbm, 942, rfl⟩
abbrev main_v696 : Ref sig .tc := ⟨.hbm, 943, rfl⟩
abbrev main_v697 : Ref sig .tc := ⟨.hbm, 944, rfl⟩
abbrev main_c_94 : Ref sig .tc := ⟨.hbm, 945, rfl⟩
abbrev main_v698 : Ref sig .tc := ⟨.hbm, 946, rfl⟩
abbrev main_v699 : Ref sig .tc := ⟨.hbm, 947, rfl⟩
abbrev main_v700 : Ref sig .tc := ⟨.hbm, 948, rfl⟩
abbrev main_v701 : Ref sig .tc := ⟨.hbm, 949, rfl⟩
abbrev main_v702 : Ref sig .tc := ⟨.hbm, 950, rfl⟩
abbrev main_v703 : Ref sig .tc := ⟨.hbm, 951, rfl⟩
abbrev main_v704 : Ref sig .tc := ⟨.hbm, 952, rfl⟩
abbrev main_v705 : Ref sig .tc := ⟨.hbm, 953, rfl⟩
abbrev main_c_95 : Ref sig .tc := ⟨.hbm, 954, rfl⟩
abbrev main_v706 : Ref sig .tc := ⟨.hbm, 955, rfl⟩
abbrev main_v707 : Ref sig .tc := ⟨.hbm, 956, rfl⟩
abbrev main_c_96 : Ref sig .tc := ⟨.hbm, 957, rfl⟩
abbrev main_v708 : Ref sig .tc := ⟨.hbm, 958, rfl⟩
abbrev main_v709 : Ref sig .tc := ⟨.hbm, 959, rfl⟩
abbrev main_c_97 : Ref sig .tc := ⟨.hbm, 960, rfl⟩
abbrev main_v710 : Ref sig .tc := ⟨.hbm, 961, rfl⟩
abbrev main_v711 : Ref sig .tc := ⟨.hbm, 962, rfl⟩
abbrev main_c_98 : Ref sig .tc := ⟨.hbm, 963, rfl⟩
abbrev main_v712 : Ref sig .tc := ⟨.hbm, 964, rfl⟩
abbrev main_v713 : Ref sig .tc := ⟨.hbm, 965, rfl⟩
abbrev main_v714 : Ref sig .tc := ⟨.hbm, 966, rfl⟩
abbrev main_c_99 : Ref sig .tc := ⟨.hbm, 967, rfl⟩
abbrev main_v715 : Ref sig .tc := ⟨.hbm, 968, rfl⟩
abbrev main_v716 : Ref sig .tc := ⟨.hbm, 969, rfl⟩
abbrev main_c_100 : Ref sig .tc := ⟨.hbm, 970, rfl⟩
abbrev main_v717 : Ref sig .tc := ⟨.hbm, 971, rfl⟩
abbrev main_v718 : Ref sig .tc := ⟨.hbm, 972, rfl⟩
abbrev main_v719 : Ref sig .tc := ⟨.hbm, 973, rfl⟩
abbrev main_c_101 : Ref sig .tc := ⟨.hbm, 974, rfl⟩
abbrev main_v720 : Ref sig .tc := ⟨.hbm, 975, rfl⟩
abbrev main_v721 : Ref sig .tc := ⟨.hbm, 976, rfl⟩
abbrev main_v722 : Ref sig .tc := ⟨.hbm, 977, rfl⟩
abbrev main_v723 : Ref sig .tc := ⟨.hbm, 978, rfl⟩
abbrev main_c_102 : Ref sig .tc := ⟨.hbm, 979, rfl⟩
abbrev main_v724 : Ref sig .tc := ⟨.hbm, 980, rfl⟩
abbrev main_v725 : Ref sig .tc := ⟨.hbm, 981, rfl⟩
abbrev main_c_103 : Ref sig .tc := ⟨.hbm, 982, rfl⟩
abbrev main_v726 : Ref sig .tc := ⟨.hbm, 983, rfl⟩
abbrev main_v727 : Ref sig .tc := ⟨.hbm, 984, rfl⟩
abbrev main_v728 : Ref sig .tc := ⟨.hbm, 985, rfl⟩
abbrev main_v729 : Ref sig .tc := ⟨.hbm, 986, rfl⟩
abbrev main_v730 : Ref sig .tc := ⟨.hbm, 987, rfl⟩
abbrev main_v731 : Ref sig .tc := ⟨.hbm, 988, rfl⟩
abbrev main_v732 : Ref sig .tc := ⟨.hbm, 989, rfl⟩
abbrev main_v733 : Ref sig .tc := ⟨.hbm, 990, rfl⟩
abbrev main_c_104 : Ref sig .tc := ⟨.hbm, 991, rfl⟩
abbrev main_v734 : Ref sig .tc := ⟨.hbm, 992, rfl⟩
abbrev main_v735 : Ref sig .tc := ⟨.hbm, 993, rfl⟩
abbrev main_c_105 : Ref sig .tc := ⟨.hbm, 994, rfl⟩
abbrev main_v736 : Ref sig .tc := ⟨.hbm, 995, rfl⟩
abbrev main_v737 : Ref sig .tc := ⟨.hbm, 996, rfl⟩
abbrev main_c_106 : Ref sig .tc := ⟨.hbm, 997, rfl⟩
abbrev main_v738 : Ref sig .tc := ⟨.hbm, 998, rfl⟩
abbrev main_v739 : Ref sig .tc := ⟨.hbm, 999, rfl⟩
abbrev main_c_107 : Ref sig .tc := ⟨.hbm, 1000, rfl⟩
abbrev main_v740 : Ref sig .tc := ⟨.hbm, 1001, rfl⟩
abbrev main_v741 : Ref sig .tc := ⟨.hbm, 1002, rfl⟩
abbrev main_v742 : Ref sig .tc := ⟨.hbm, 1003, rfl⟩
abbrev main_c_108 : Ref sig .tc := ⟨.hbm, 1004, rfl⟩
abbrev main_v743 : Ref sig .tc := ⟨.hbm, 1005, rfl⟩
abbrev main_v744 : Ref sig .tc := ⟨.hbm, 1006, rfl⟩
abbrev main_c_109 : Ref sig .tc := ⟨.hbm, 1007, rfl⟩
abbrev main_v745 : Ref sig .tc := ⟨.hbm, 1008, rfl⟩
abbrev main_v746 : Ref sig .tc := ⟨.hbm, 1009, rfl⟩
abbrev main_v747 : Ref sig .tc := ⟨.hbm, 1010, rfl⟩
abbrev main_c_110 : Ref sig .tc := ⟨.hbm, 1011, rfl⟩
abbrev main_v748 : Ref sig .tc := ⟨.hbm, 1012, rfl⟩
abbrev main_v749 : Ref sig .tc := ⟨.hbm, 1013, rfl⟩
abbrev main_v750 : Ref sig .tc := ⟨.hbm, 1014, rfl⟩
abbrev main_v751 : Ref sig .tc := ⟨.hbm, 1015, rfl⟩
abbrev main_c_111 : Ref sig .tc := ⟨.hbm, 1016, rfl⟩
abbrev main_v752 : Ref sig .tc := ⟨.hbm, 1017, rfl⟩
abbrev main_v753 : Ref sig .tc := ⟨.hbm, 1018, rfl⟩
abbrev main_c_112 : Ref sig .tc := ⟨.hbm, 1019, rfl⟩
abbrev main_v754 : Ref sig .tc := ⟨.hbm, 1020, rfl⟩
abbrev main_v755 : Ref sig .tc := ⟨.hbm, 1021, rfl⟩
abbrev main_v756 : Ref sig .tc := ⟨.hbm, 1022, rfl⟩
abbrev main_v757 : Ref sig .tc := ⟨.hbm, 1023, rfl⟩
abbrev main_v758 : Ref sig .tc := ⟨.hbm, 1024, rfl⟩
abbrev main_v759 : Ref sig .tc := ⟨.hbm, 1025, rfl⟩
abbrev main_v760 : Ref sig .tc := ⟨.hbm, 1026, rfl⟩
abbrev main_v761 : Ref sig .tc := ⟨.hbm, 1027, rfl⟩
abbrev main_c_113 : Ref sig .tc := ⟨.hbm, 1028, rfl⟩
abbrev main_v762 : Ref sig .tc := ⟨.hbm, 1029, rfl⟩
abbrev main_v763 : Ref sig .tc := ⟨.hbm, 1030, rfl⟩
abbrev main_c_114 : Ref sig .tc := ⟨.hbm, 1031, rfl⟩
abbrev main_v764 : Ref sig .tc := ⟨.hbm, 1032, rfl⟩
abbrev main_v765 : Ref sig .tc := ⟨.hbm, 1033, rfl⟩
abbrev main_c_115 : Ref sig .tc := ⟨.hbm, 1034, rfl⟩
abbrev main_v766 : Ref sig .tc := ⟨.hbm, 1035, rfl⟩
abbrev main_v767 : Ref sig .tc := ⟨.hbm, 1036, rfl⟩
abbrev main_c_116 : Ref sig .tc := ⟨.hbm, 1037, rfl⟩
abbrev main_v768 : Ref sig .tc := ⟨.hbm, 1038, rfl⟩
abbrev main_v769 : Ref sig .tc := ⟨.hbm, 1039, rfl⟩
abbrev main_v770 : Ref sig .tc := ⟨.hbm, 1040, rfl⟩
abbrev main_c_117 : Ref sig .tc := ⟨.hbm, 1041, rfl⟩
abbrev main_v771 : Ref sig .tc := ⟨.hbm, 1042, rfl⟩
abbrev main_v772 : Ref sig .tc := ⟨.hbm, 1043, rfl⟩
abbrev main_c_118 : Ref sig .tc := ⟨.hbm, 1044, rfl⟩
abbrev main_v773 : Ref sig .tc := ⟨.hbm, 1045, rfl⟩
abbrev main_v774 : Ref sig .tc := ⟨.hbm, 1046, rfl⟩
abbrev main_v775 : Ref sig .tc := ⟨.hbm, 1047, rfl⟩
abbrev main_c_119 : Ref sig .tc := ⟨.hbm, 1048, rfl⟩
abbrev main_v776 : Ref sig .tc := ⟨.hbm, 1049, rfl⟩
abbrev main_v777 : Ref sig .tc := ⟨.hbm, 1050, rfl⟩
abbrev main_v778 : Ref sig .tc := ⟨.hbm, 1051, rfl⟩
abbrev main_v779 : Ref sig .tc := ⟨.hbm, 1052, rfl⟩
abbrev main_c_120 : Ref sig .tc := ⟨.hbm, 1053, rfl⟩
abbrev main_v780 : Ref sig .tc := ⟨.hbm, 1054, rfl⟩
abbrev main_v781 : Ref sig .tc := ⟨.hbm, 1055, rfl⟩
abbrev main_c_121 : Ref sig .tc := ⟨.hbm, 1056, rfl⟩
abbrev main_v782 : Ref sig .tc := ⟨.hbm, 1057, rfl⟩
abbrev main_v783 : Ref sig .tc := ⟨.hbm, 1058, rfl⟩
abbrev main_v784 : Ref sig .tc := ⟨.hbm, 1059, rfl⟩
abbrev main_v785 : Ref sig .tc := ⟨.hbm, 1060, rfl⟩
abbrev main_v786 : Ref sig .tc := ⟨.hbm, 1061, rfl⟩
abbrev main_v787 : Ref sig .tc := ⟨.hbm, 1062, rfl⟩
abbrev main_v788 : Ref sig .tc := ⟨.hbm, 1063, rfl⟩
abbrev main_v789 : Ref sig .tc := ⟨.hbm, 1064, rfl⟩
abbrev main_c_122 : Ref sig .tc := ⟨.hbm, 1065, rfl⟩
abbrev main_v790 : Ref sig .tc := ⟨.hbm, 1066, rfl⟩
abbrev main_v791 : Ref sig .tc := ⟨.hbm, 1067, rfl⟩
abbrev main_c_123 : Ref sig .tc := ⟨.hbm, 1068, rfl⟩
abbrev main_v792 : Ref sig .tc := ⟨.hbm, 1069, rfl⟩
abbrev main_v793 : Ref sig .tc := ⟨.hbm, 1070, rfl⟩
abbrev main_c_124 : Ref sig .tc := ⟨.hbm, 1071, rfl⟩
abbrev main_v794 : Ref sig .tc := ⟨.hbm, 1072, rfl⟩
abbrev main_v795 : Ref sig .tc := ⟨.hbm, 1073, rfl⟩
abbrev main_c_125 : Ref sig .tc := ⟨.hbm, 1074, rfl⟩
abbrev main_v796 : Ref sig .tc := ⟨.hbm, 1075, rfl⟩
abbrev main_v797 : Ref sig .tc := ⟨.hbm, 1076, rfl⟩
abbrev main_v798 : Ref sig .tc := ⟨.hbm, 1077, rfl⟩
abbrev main_c_126 : Ref sig .tc := ⟨.hbm, 1078, rfl⟩
abbrev main_v799 : Ref sig .tc := ⟨.hbm, 1079, rfl⟩
abbrev main_v800 : Ref sig .tc := ⟨.hbm, 1080, rfl⟩
abbrev main_c_127 : Ref sig .tc := ⟨.hbm, 1081, rfl⟩
abbrev main_v801 : Ref sig .tc := ⟨.hbm, 1082, rfl⟩
abbrev main_v802 : Ref sig .tc := ⟨.hbm, 1083, rfl⟩
abbrev main_v803 : Ref sig .tc := ⟨.hbm, 1084, rfl⟩
abbrev main_c_128 : Ref sig .tc := ⟨.hbm, 1085, rfl⟩
abbrev main_v804 : Ref sig .tc := ⟨.hbm, 1086, rfl⟩
abbrev main_v805 : Ref sig .tc := ⟨.hbm, 1087, rfl⟩
abbrev main_v806 : Ref sig .tc := ⟨.hbm, 1088, rfl⟩
abbrev main_v807 : Ref sig .tc := ⟨.hbm, 1089, rfl⟩
abbrev main_c_129 : Ref sig .tc := ⟨.hbm, 1090, rfl⟩
abbrev main_v808 : Ref sig .tc := ⟨.hbm, 1091, rfl⟩
abbrev main_v809 : Ref sig .tc := ⟨.hbm, 1092, rfl⟩
abbrev main_c_130 : Ref sig .tc := ⟨.hbm, 1093, rfl⟩
abbrev main_v810 : Ref sig .tc := ⟨.hbm, 1094, rfl⟩
abbrev main_v811 : Ref sig .tc := ⟨.hbm, 1095, rfl⟩
abbrev main_v812 : Ref sig .tc := ⟨.hbm, 1096, rfl⟩
abbrev main_v813 : Ref sig .tc := ⟨.hbm, 1097, rfl⟩
abbrev main_v814 : Ref sig .tc := ⟨.hbm, 1098, rfl⟩
abbrev main_v815 : Ref sig .tc := ⟨.hbm, 1099, rfl⟩
abbrev main_v816 : Ref sig .tc := ⟨.hbm, 1100, rfl⟩
abbrev main_v817 : Ref sig .tc := ⟨.hbm, 1101, rfl⟩
abbrev main_c_131 : Ref sig .tc := ⟨.hbm, 1102, rfl⟩
abbrev main_v818 : Ref sig .tc := ⟨.hbm, 1103, rfl⟩
abbrev main_v819 : Ref sig .tc := ⟨.hbm, 1104, rfl⟩
abbrev main_c_132 : Ref sig .tc := ⟨.hbm, 1105, rfl⟩
abbrev main_v820 : Ref sig .tc := ⟨.hbm, 1106, rfl⟩
abbrev main_v821 : Ref sig .tc := ⟨.hbm, 1107, rfl⟩
abbrev main_c_133 : Ref sig .tc := ⟨.hbm, 1108, rfl⟩
abbrev main_v822 : Ref sig .tc := ⟨.hbm, 1109, rfl⟩
abbrev main_v823 : Ref sig .tc := ⟨.hbm, 1110, rfl⟩
abbrev main_c_134 : Ref sig .tc := ⟨.hbm, 1111, rfl⟩
abbrev main_v824 : Ref sig .tc := ⟨.hbm, 1112, rfl⟩
abbrev main_v825 : Ref sig .tc := ⟨.hbm, 1113, rfl⟩
abbrev main_v826 : Ref sig .tc := ⟨.hbm, 1114, rfl⟩
abbrev main_c_135 : Ref sig .tc := ⟨.hbm, 1115, rfl⟩
abbrev main_v827 : Ref sig .tc := ⟨.hbm, 1116, rfl⟩
abbrev main_v828 : Ref sig .tc := ⟨.hbm, 1117, rfl⟩
abbrev main_c_136 : Ref sig .tc := ⟨.hbm, 1118, rfl⟩
abbrev main_v829 : Ref sig .tc := ⟨.hbm, 1119, rfl⟩
abbrev main_v830 : Ref sig .tc := ⟨.hbm, 1120, rfl⟩
abbrev main_v831 : Ref sig .tc := ⟨.hbm, 1121, rfl⟩
abbrev main_c_137 : Ref sig .tc := ⟨.hbm, 1122, rfl⟩
abbrev main_v832 : Ref sig .tc := ⟨.hbm, 1123, rfl⟩
abbrev main_v833 : Ref sig .tc := ⟨.hbm, 1124, rfl⟩
abbrev main_v834 : Ref sig .tc := ⟨.hbm, 1125, rfl⟩
abbrev main_v835 : Ref sig .tc := ⟨.hbm, 1126, rfl⟩
abbrev main_c_138 : Ref sig .tc := ⟨.hbm, 1127, rfl⟩
abbrev main_v836 : Ref sig .tc := ⟨.hbm, 1128, rfl⟩
abbrev main_v837 : Ref sig .tc := ⟨.hbm, 1129, rfl⟩
abbrev main_c_139 : Ref sig .tc := ⟨.hbm, 1130, rfl⟩
abbrev main_v838 : Ref sig .tc := ⟨.hbm, 1131, rfl⟩
abbrev main_v839 : Ref sig .tc := ⟨.hbm, 1132, rfl⟩
abbrev main_v840 : Ref sig .tc := ⟨.hbm, 1133, rfl⟩
abbrev main_v841 : Ref sig .tc := ⟨.hbm, 1134, rfl⟩
abbrev main_v842 : Ref sig .tc := ⟨.hbm, 1135, rfl⟩
abbrev main_v843 : Ref sig .tc := ⟨.hbm, 1136, rfl⟩
abbrev main_v844 : Ref sig .tc := ⟨.hbm, 1137, rfl⟩
abbrev main_v845 : Ref sig .tc := ⟨.hbm, 1138, rfl⟩
abbrev main_c_140 : Ref sig .tc := ⟨.hbm, 1139, rfl⟩
abbrev main_v846 : Ref sig .tc := ⟨.hbm, 1140, rfl⟩
abbrev main_v847 : Ref sig .tc := ⟨.hbm, 1141, rfl⟩
abbrev main_c_141 : Ref sig .tc := ⟨.hbm, 1142, rfl⟩
abbrev main_v848 : Ref sig .tc := ⟨.hbm, 1143, rfl⟩
abbrev main_v849 : Ref sig .tc := ⟨.hbm, 1144, rfl⟩
abbrev main_c_142 : Ref sig .tc := ⟨.hbm, 1145, rfl⟩
abbrev main_v850 : Ref sig .tc := ⟨.hbm, 1146, rfl⟩
abbrev main_v851 : Ref sig .tc := ⟨.hbm, 1147, rfl⟩
abbrev main_c_143 : Ref sig .tc := ⟨.hbm, 1148, rfl⟩
abbrev main_v852 : Ref sig .tc := ⟨.hbm, 1149, rfl⟩
abbrev main_v853 : Ref sig .tc := ⟨.hbm, 1150, rfl⟩
abbrev main_v854 : Ref sig .tc := ⟨.hbm, 1151, rfl⟩
abbrev main_c_144 : Ref sig .tc := ⟨.hbm, 1152, rfl⟩
abbrev main_v855 : Ref sig .tc := ⟨.hbm, 1153, rfl⟩
abbrev main_v856 : Ref sig .tc := ⟨.hbm, 1154, rfl⟩
abbrev main_c_145 : Ref sig .tc := ⟨.hbm, 1155, rfl⟩
abbrev main_v857 : Ref sig .tc := ⟨.hbm, 1156, rfl⟩
abbrev main_v858 : Ref sig .tc := ⟨.hbm, 1157, rfl⟩
abbrev main_v859 : Ref sig .tc := ⟨.hbm, 1158, rfl⟩
abbrev main_c_146 : Ref sig .tc := ⟨.hbm, 1159, rfl⟩
abbrev main_v860 : Ref sig .tc := ⟨.hbm, 1160, rfl⟩
abbrev main_v861 : Ref sig .tc := ⟨.hbm, 1161, rfl⟩
abbrev main_v862 : Ref sig .tc := ⟨.hbm, 1162, rfl⟩
abbrev main_v863 : Ref sig .tc := ⟨.hbm, 1163, rfl⟩
abbrev main_c_147 : Ref sig .tc := ⟨.hbm, 1164, rfl⟩
abbrev main_v864 : Ref sig .tc := ⟨.hbm, 1165, rfl⟩
abbrev main_v865 : Ref sig .tc := ⟨.hbm, 1166, rfl⟩
abbrev main_c_148 : Ref sig .tc := ⟨.hbm, 1167, rfl⟩
abbrev main_v866 : Ref sig .tc := ⟨.hbm, 1168, rfl⟩
abbrev main_v867 : Ref sig .tc := ⟨.hbm, 1169, rfl⟩
abbrev main_v868 : Ref sig .tc := ⟨.hbm, 1170, rfl⟩
abbrev main_v869 : Ref sig .tc := ⟨.hbm, 1171, rfl⟩
abbrev main_v870 : Ref sig .tc := ⟨.hbm, 1172, rfl⟩
abbrev main_v871 : Ref sig .tc := ⟨.hbm, 1173, rfl⟩
abbrev main_v872 : Ref sig .tc := ⟨.hbm, 1174, rfl⟩
abbrev main_v873 : Ref sig .tc := ⟨.hbm, 1175, rfl⟩
abbrev main_c_149 : Ref sig .tc := ⟨.hbm, 1176, rfl⟩
abbrev main_v874 : Ref sig .tc := ⟨.hbm, 1177, rfl⟩
abbrev main_v875 : Ref sig .tc := ⟨.hbm, 1178, rfl⟩
abbrev main_c_150 : Ref sig .tc := ⟨.hbm, 1179, rfl⟩
abbrev main_v876 : Ref sig .tc := ⟨.hbm, 1180, rfl⟩
abbrev main_v877 : Ref sig .tc := ⟨.hbm, 1181, rfl⟩
abbrev main_c_151 : Ref sig .tc := ⟨.hbm, 1182, rfl⟩
abbrev main_v878 : Ref sig .tc := ⟨.hbm, 1183, rfl⟩
abbrev main_v879 : Ref sig .tc := ⟨.hbm, 1184, rfl⟩
abbrev main_c_152 : Ref sig .tc := ⟨.hbm, 1185, rfl⟩
abbrev main_v880 : Ref sig .tc := ⟨.hbm, 1186, rfl⟩
abbrev main_v881 : Ref sig .tc := ⟨.hbm, 1187, rfl⟩
abbrev main_v882 : Ref sig .tc := ⟨.hbm, 1188, rfl⟩
abbrev main_c_153 : Ref sig .tc := ⟨.hbm, 1189, rfl⟩
abbrev main_v883 : Ref sig .tc := ⟨.hbm, 1190, rfl⟩
abbrev main_v884 : Ref sig .tc := ⟨.hbm, 1191, rfl⟩
abbrev main_c_154 : Ref sig .tc := ⟨.hbm, 1192, rfl⟩
abbrev main_v885 : Ref sig .tc := ⟨.hbm, 1193, rfl⟩
abbrev main_v886 : Ref sig .tc := ⟨.hbm, 1194, rfl⟩
abbrev main_v887 : Ref sig .tc := ⟨.hbm, 1195, rfl⟩
abbrev main_c_155 : Ref sig .tc := ⟨.hbm, 1196, rfl⟩
abbrev main_v888 : Ref sig .tc := ⟨.hbm, 1197, rfl⟩
abbrev main_v889 : Ref sig .tc := ⟨.hbm, 1198, rfl⟩
abbrev main_v890 : Ref sig .tc := ⟨.hbm, 1199, rfl⟩
abbrev main_v891 : Ref sig .tc := ⟨.hbm, 1200, rfl⟩
abbrev main_c_156 : Ref sig .tc := ⟨.hbm, 1201, rfl⟩
abbrev main_v892 : Ref sig .tc := ⟨.hbm, 1202, rfl⟩
abbrev main_v893 : Ref sig .tc := ⟨.hbm, 1203, rfl⟩
abbrev main_c_157 : Ref sig .tc := ⟨.hbm, 1204, rfl⟩
abbrev main_v894 : Ref sig .tc := ⟨.hbm, 1205, rfl⟩
abbrev main_v895 : Ref sig .tc := ⟨.hbm, 1206, rfl⟩
abbrev main_v896 : Ref sig .tc := ⟨.hbm, 1207, rfl⟩
abbrev main_v897 : Ref sig .tc := ⟨.hbm, 1208, rfl⟩
abbrev main_v898 : Ref sig .tc := ⟨.hbm, 1209, rfl⟩
abbrev main_v899 : Ref sig .tc := ⟨.hbm, 1210, rfl⟩
abbrev main_v900 : Ref sig .tc := ⟨.hbm, 1211, rfl⟩
abbrev main_v901 : Ref sig .tc := ⟨.hbm, 1212, rfl⟩
abbrev main_c_158 : Ref sig .tc := ⟨.hbm, 1213, rfl⟩
abbrev main_v902 : Ref sig .tc := ⟨.hbm, 1214, rfl⟩
abbrev main_v903 : Ref sig .tc := ⟨.hbm, 1215, rfl⟩
abbrev main_c_159 : Ref sig .tc := ⟨.hbm, 1216, rfl⟩
abbrev main_v904 : Ref sig .tc := ⟨.hbm, 1217, rfl⟩
abbrev main_v905 : Ref sig .tc := ⟨.hbm, 1218, rfl⟩
abbrev main_c_160 : Ref sig .tc := ⟨.hbm, 1219, rfl⟩
abbrev main_v906 : Ref sig .tc := ⟨.hbm, 1220, rfl⟩
abbrev main_v907 : Ref sig .tc := ⟨.hbm, 1221, rfl⟩
abbrev main_c_161 : Ref sig .tc := ⟨.hbm, 1222, rfl⟩
abbrev main_v908 : Ref sig .tc := ⟨.hbm, 1223, rfl⟩
abbrev main_v909 : Ref sig .tc := ⟨.hbm, 1224, rfl⟩
abbrev main_v910 : Ref sig .tc := ⟨.hbm, 1225, rfl⟩
abbrev main_c_162 : Ref sig .tc := ⟨.hbm, 1226, rfl⟩
abbrev main_v911 : Ref sig .tc := ⟨.hbm, 1227, rfl⟩
abbrev main_v912 : Ref sig .tc := ⟨.hbm, 1228, rfl⟩
abbrev main_c_163 : Ref sig .tc := ⟨.hbm, 1229, rfl⟩
abbrev main_v913 : Ref sig .tc := ⟨.hbm, 1230, rfl⟩
abbrev main_v914 : Ref sig .tc := ⟨.hbm, 1231, rfl⟩
abbrev main_v915 : Ref sig .tc := ⟨.hbm, 1232, rfl⟩
abbrev main_c_164 : Ref sig .tc := ⟨.hbm, 1233, rfl⟩
abbrev main_v916 : Ref sig .tc := ⟨.hbm, 1234, rfl⟩
abbrev main_v917 : Ref sig .tc := ⟨.hbm, 1235, rfl⟩
abbrev main_v918 : Ref sig .tc := ⟨.hbm, 1236, rfl⟩
abbrev main_v919 : Ref sig .tc := ⟨.hbm, 1237, rfl⟩
abbrev main_c_165 : Ref sig .tc := ⟨.hbm, 1238, rfl⟩
abbrev main_v920 : Ref sig .tc := ⟨.hbm, 1239, rfl⟩
abbrev main_v921 : Ref sig .tc := ⟨.hbm, 1240, rfl⟩
abbrev main_c_166 : Ref sig .tc := ⟨.hbm, 1241, rfl⟩
abbrev main_v922 : Ref sig .tc := ⟨.hbm, 1242, rfl⟩
abbrev main_v923 : Ref sig .tc := ⟨.hbm, 1243, rfl⟩
abbrev main_v924 : Ref sig .tc := ⟨.hbm, 1244, rfl⟩
abbrev main_v925 : Ref sig .tc := ⟨.hbm, 1245, rfl⟩
abbrev main_v926 : Ref sig .tc := ⟨.hbm, 1246, rfl⟩
abbrev main_v927 : Ref sig .tc := ⟨.hbm, 1247, rfl⟩
abbrev main_v928 : Ref sig .tc := ⟨.hbm, 1248, rfl⟩
abbrev main_v929 : Ref sig .tc := ⟨.hbm, 1249, rfl⟩
abbrev main_c_167 : Ref sig .tc := ⟨.hbm, 1250, rfl⟩
abbrev main_v930 : Ref sig .tc := ⟨.hbm, 1251, rfl⟩
abbrev main_v931 : Ref sig .tc := ⟨.hbm, 1252, rfl⟩
abbrev main_c_168 : Ref sig .tc := ⟨.hbm, 1253, rfl⟩
abbrev main_v932 : Ref sig .tc := ⟨.hbm, 1254, rfl⟩
abbrev main_v933 : Ref sig .tc := ⟨.hbm, 1255, rfl⟩
abbrev main_c_169 : Ref sig .tc := ⟨.hbm, 1256, rfl⟩
abbrev main_v934 : Ref sig .tc := ⟨.hbm, 1257, rfl⟩
abbrev main_v935 : Ref sig .tc := ⟨.hbm, 1258, rfl⟩
abbrev main_c_170 : Ref sig .tc := ⟨.hbm, 1259, rfl⟩
abbrev main_v936 : Ref sig .tc := ⟨.hbm, 1260, rfl⟩
abbrev main_v937 : Ref sig .tc := ⟨.hbm, 1261, rfl⟩
abbrev main_v938 : Ref sig .tc := ⟨.hbm, 1262, rfl⟩
abbrev main_c_171 : Ref sig .tc := ⟨.hbm, 1263, rfl⟩
abbrev main_v939 : Ref sig .tc := ⟨.hbm, 1264, rfl⟩
abbrev main_v940 : Ref sig .tc := ⟨.hbm, 1265, rfl⟩
abbrev main_c_172 : Ref sig .tc := ⟨.hbm, 1266, rfl⟩
abbrev main_v941 : Ref sig .tc := ⟨.hbm, 1267, rfl⟩
abbrev main_v942 : Ref sig .tc := ⟨.hbm, 1268, rfl⟩
abbrev main_v943 : Ref sig .tc := ⟨.hbm, 1269, rfl⟩
abbrev main_c_173 : Ref sig .tc := ⟨.hbm, 1270, rfl⟩
abbrev main_v944 : Ref sig .tc := ⟨.hbm, 1271, rfl⟩
abbrev main_v945 : Ref sig .tc := ⟨.hbm, 1272, rfl⟩
abbrev main_v946 : Ref sig .tc := ⟨.hbm, 1273, rfl⟩
abbrev main_v947 : Ref sig .tc := ⟨.hbm, 1274, rfl⟩
abbrev main_c_174 : Ref sig .tc := ⟨.hbm, 1275, rfl⟩
abbrev main_v948 : Ref sig .tc := ⟨.hbm, 1276, rfl⟩
abbrev main_v949 : Ref sig .tc := ⟨.hbm, 1277, rfl⟩
abbrev main_c_175 : Ref sig .tc := ⟨.hbm, 1278, rfl⟩
abbrev main_v950 : Ref sig .tc := ⟨.hbm, 1279, rfl⟩
abbrev main_v951 : Ref sig .tc := ⟨.hbm, 1280, rfl⟩
abbrev main_v952 : Ref sig .tc := ⟨.hbm, 1281, rfl⟩
abbrev main_v953 : Ref sig .tc := ⟨.hbm, 1282, rfl⟩
abbrev main_v954 : Ref sig .tc := ⟨.hbm, 1283, rfl⟩
abbrev main_v955 : Ref sig .tc := ⟨.hbm, 1284, rfl⟩
abbrev main_v956 : Ref sig .tc := ⟨.hbm, 1285, rfl⟩
abbrev main_v957 : Ref sig .tc := ⟨.hbm, 1286, rfl⟩
abbrev main_c_176 : Ref sig .tc := ⟨.hbm, 1287, rfl⟩
abbrev main_v958 : Ref sig .tc := ⟨.hbm, 1288, rfl⟩
abbrev main_v959 : Ref sig .tc := ⟨.hbm, 1289, rfl⟩
abbrev main_c_177 : Ref sig .tc := ⟨.hbm, 1290, rfl⟩
abbrev main_v960 : Ref sig .tc := ⟨.hbm, 1291, rfl⟩
abbrev main_v961 : Ref sig .tc := ⟨.hbm, 1292, rfl⟩
abbrev main_c_178 : Ref sig .tc := ⟨.hbm, 1293, rfl⟩
abbrev main_v962 : Ref sig .tc := ⟨.hbm, 1294, rfl⟩
abbrev main_v963 : Ref sig .tc := ⟨.hbm, 1295, rfl⟩
abbrev main_c_179 : Ref sig .tc := ⟨.hbm, 1296, rfl⟩
abbrev main_v964 : Ref sig .tc := ⟨.hbm, 1297, rfl⟩
abbrev main_v965 : Ref sig .tc := ⟨.hbm, 1298, rfl⟩
abbrev main_v966 : Ref sig .tc := ⟨.hbm, 1299, rfl⟩
abbrev main_c_180 : Ref sig .tc := ⟨.hbm, 1300, rfl⟩
abbrev main_v967 : Ref sig .tc := ⟨.hbm, 1301, rfl⟩
abbrev main_v968 : Ref sig .tc := ⟨.hbm, 1302, rfl⟩
abbrev main_c_181 : Ref sig .tc := ⟨.hbm, 1303, rfl⟩
abbrev main_v969 : Ref sig .tc := ⟨.hbm, 1304, rfl⟩
abbrev main_v970 : Ref sig .tc := ⟨.hbm, 1305, rfl⟩
abbrev main_v971 : Ref sig .tc := ⟨.hbm, 1306, rfl⟩
abbrev main_c_182 : Ref sig .tc := ⟨.hbm, 1307, rfl⟩
abbrev main_v972 : Ref sig .tc := ⟨.hbm, 1308, rfl⟩
abbrev main_v973 : Ref sig .tc := ⟨.hbm, 1309, rfl⟩
abbrev main_v974 : Ref sig .tc := ⟨.hbm, 1310, rfl⟩
abbrev main_v975 : Ref sig .tc := ⟨.hbm, 1311, rfl⟩
abbrev main_c_183 : Ref sig .tc := ⟨.hbm, 1312, rfl⟩
abbrev main_v976 : Ref sig .tc := ⟨.hbm, 1313, rfl⟩
abbrev main_v977 : Ref sig .tc := ⟨.hbm, 1314, rfl⟩
abbrev main_c_184 : Ref sig .tc := ⟨.hbm, 1315, rfl⟩
abbrev main_v978 : Ref sig .tc := ⟨.hbm, 1316, rfl⟩
abbrev main_v979 : Ref sig .tc := ⟨.hbm, 1317, rfl⟩
abbrev main_v980 : Ref sig .tc := ⟨.hbm, 1318, rfl⟩
abbrev main_v981 : Ref sig .tc := ⟨.hbm, 1319, rfl⟩
abbrev main_v982 : Ref sig .tc := ⟨.hbm, 1320, rfl⟩
abbrev main_v983 : Ref sig .tc := ⟨.hbm, 1321, rfl⟩
abbrev main_v984 : Ref sig .tc := ⟨.hbm, 1322, rfl⟩
abbrev main_v985 : Ref sig .tc := ⟨.hbm, 1323, rfl⟩
abbrev main_c_185 : Ref sig .tc := ⟨.hbm, 1324, rfl⟩
abbrev main_v986 : Ref sig .tc := ⟨.hbm, 1325, rfl⟩
abbrev main_v987 : Ref sig .tc := ⟨.hbm, 1326, rfl⟩
abbrev main_c_186 : Ref sig .tc := ⟨.hbm, 1327, rfl⟩
abbrev main_v988 : Ref sig .tc := ⟨.hbm, 1328, rfl⟩
abbrev main_v989 : Ref sig .tc := ⟨.hbm, 1329, rfl⟩
abbrev main_c_187 : Ref sig .tc := ⟨.hbm, 1330, rfl⟩
abbrev main_v990 : Ref sig .tc := ⟨.hbm, 1331, rfl⟩
abbrev main_v991 : Ref sig .tc := ⟨.hbm, 1332, rfl⟩
abbrev main_c_188 : Ref sig .tc := ⟨.hbm, 1333, rfl⟩
abbrev main_v992 : Ref sig .tc := ⟨.hbm, 1334, rfl⟩
abbrev main_v993 : Ref sig .tc := ⟨.hbm, 1335, rfl⟩
abbrev main_v994 : Ref sig .tc := ⟨.hbm, 1336, rfl⟩
abbrev main_c_189 : Ref sig .tc := ⟨.hbm, 1337, rfl⟩
abbrev main_v995 : Ref sig .tc := ⟨.hbm, 1338, rfl⟩
abbrev main_v996 : Ref sig .tc := ⟨.hbm, 1339, rfl⟩
abbrev main_c_190 : Ref sig .tc := ⟨.hbm, 1340, rfl⟩
abbrev main_v997 : Ref sig .tc := ⟨.hbm, 1341, rfl⟩
abbrev main_v998 : Ref sig .tc := ⟨.hbm, 1342, rfl⟩
abbrev main_v999 : Ref sig .tc := ⟨.hbm, 1343, rfl⟩
abbrev main_c_191 : Ref sig .tc := ⟨.hbm, 1344, rfl⟩
abbrev main_v1000 : Ref sig .tc := ⟨.hbm, 1345, rfl⟩
abbrev main_v1001 : Ref sig .tc := ⟨.hbm, 1346, rfl⟩
abbrev main_v1002 : Ref sig .tc := ⟨.hbm, 1347, rfl⟩
abbrev main_v1003 : Ref sig .tc := ⟨.hbm, 1348, rfl⟩
abbrev main_c_192 : Ref sig .tc := ⟨.hbm, 1349, rfl⟩
abbrev main_v1004 : Ref sig .tc := ⟨.hbm, 1350, rfl⟩
abbrev main_v1005 : Ref sig .tc := ⟨.hbm, 1351, rfl⟩
abbrev main_c_193 : Ref sig .tc := ⟨.hbm, 1352, rfl⟩
abbrev main_v1006 : Ref sig .tc := ⟨.hbm, 1353, rfl⟩
abbrev main_v1007 : Ref sig .tc := ⟨.hbm, 1354, rfl⟩
abbrev main_v1008 : Ref sig .tc := ⟨.hbm, 1355, rfl⟩
abbrev main_v1009 : Ref sig .tc := ⟨.hbm, 1356, rfl⟩
abbrev main_v1010 : Ref sig .tc := ⟨.hbm, 1357, rfl⟩
abbrev main_v1011 : Ref sig .tc := ⟨.hbm, 1358, rfl⟩
abbrev main_v1012 : Ref sig .tc := ⟨.hbm, 1359, rfl⟩
abbrev main_v1013 : Ref sig .tc := ⟨.hbm, 1360, rfl⟩
abbrev main_cst_194 : Ref sig .tc := ⟨.hbm, 1361, rfl⟩
abbrev main_v1014 : Ref sig .tc := ⟨.hbm, 1362, rfl⟩
abbrev main_v1015 : Ref sig .tc := ⟨.hbm, 1363, rfl⟩
abbrev main_v1016 : Ref sig .tc := ⟨.hbm, 1364, rfl⟩
abbrev main_v1017 : Ref sig .tc := ⟨.hbm, 1365, rfl⟩
abbrev main_v1018 : Ref sig .tc := ⟨.hbm, 1366, rfl⟩

abbrev nD : Nat := 1
abbrev τ : Topo := Topo.v7x

variable {F : FTy → Type} [FloatOps F]

class Facts₀ : Prop where
  bcast_S_S83521x16 : S_.BroadcastsInDim S83521x16 (![] : Fin 0 → Fin S83521x16.rank)
  slices_S4x1x257x257_S4x1x256x256_0_0_0_0 : S4x1x257x257.Slices ![0, 0, 0, 0] S4x1x256x256
  slices_S4x1x257x257_S4x1x256x256_0_0_0_1 : S4x1x257x257.Slices ![0, 0, 0, 1] S4x1x256x256
  slices_S4x1x257x257_S4x1x256x256_0_0_1_0 : S4x1x257x257.Slices ![0, 0, 1, 0] S4x1x256x256
  slices_S4x1x257x257_S4x1x256x256_0_0_1_1 : S4x1x257x257.Slices ![0, 0, 1, 1] S4x1x256x256
  bcast_S_S4x1x256x256 : S_.BroadcastsInDim S4x1x256x256 (![] : Fin 0 → Fin S4x1x256x256.rank)
  shapeCasts_S4x1x256x256_S262144 : S4x1x256x256.ShapeCasts S262144
  bcast_S_S262144 : S_.BroadcastsInDim S262144 (![] : Fin 0 → Fin S262144.rank)
  bcast_S_S262144x16 : S_.BroadcastsInDim S262144x16 (![] : Fin 0 → Fin S262144x16.rank)
  bcast_S262144_S262144x1_0 : S262144.BroadcastsInDim S262144x1 (![0] : Fin 1 → Fin S262144x1.rank)
  bcast_S262144x1_S262144x16_0_1 : S262144x1.BroadcastsInDim S262144x16 (![0, 1] : Fin 2 → Fin S262144x16.rank)
  shapeCasts_S262144x16_S4x1x256x256x4x4 : S262144x16.ShapeCasts S4x1x256x256x4x4
  transposes_S4x1x256x256x4x4_S4x1x256x4x256x4_0_1_2_4_3_5 : S4x1x256x256x4x4.Transposes [0, 1, 2, 4, 3, 5] S4x1x256x4x256x4
  shapeCasts_S4x1x256x4x256x4_S4x1x1024x1024 : S4x1x256x4x256x4.ShapeCasts S4x1x1024x1024
  gather_S83521x16_S262144x1_S262144x16_1_0_n_n_0_1_116_wf : GatherDims.WF S83521x16 S262144x1 S262144x16 [1] [0] [] [0] [] 1 ![1, 16]

variable [Facts₀]

def gather_S83521x16_S262144x1_S262144x16_1_0_n_n_0_1_116 : GatherDims S83521x16 S262144x1 S262144x16 where
  offsetDims := [1]
  collapsedSliceDims := [0]
  operandBatchingDims := []
  startIndicesBatchingDims := []
  startIndexMap := [0]
  indexVectorDim := 1
  sliceSizes := ![1, 16]
  wf := gather_S83521x16_S262144x1_S262144x16_1_0_n_n_0_1_116_wf

class Facts : Prop extends Facts₀ where

variable [Facts]
-- ==== Proof.KFrameBits.lean ====
import proofs.«409975_j2585570312579_2_alg».proof.Proof.Gen.Kernel.Launch
import proofs.«409975_j2585570312579_2_alg».proof.Proof.Gen.Kernel.Skeleton
import proofs.«409975_j2585570312579_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-! # The frame of the program: @main around its one region

@main is a long straight line of host operations, then one region over a grid of 256 points, then three
host operations. The two argument arrays are read by the line before the region and written by nothing:
every operation of @main writes one buffer, its own result, which is neither argument; the region writes
only its output window's array. So both end as launched. The region's body reads its two input blocks
whole and overwrites its output block whole with a value of the two; what it leaves there is the one
piece that covers the block. -/

-- the long stretches are conjunctions nested once per operation, and a rectangle's membership recurses
-- once per coordinate of its long axis
set_option maxRecDepth 16384

noncomputable section

namespace Cert.Kernel.GenH

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered, as a valuation: the launch contents
    carried through the 22 stretches of host operations before the region, in order. -/
abbrev V0 (c : Dev nD) : Valuation τ sig (Elt F) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21]) (fun b => m (c, b))
/-- The same read at a TensorCore reference. -/
abbrev V (c : Dev nD) (b : Ref sig .tc) : Buf (Elt F) ((c : Thread nD τ).loc b) := V0 m c (Proc.devRef .tc b)

/-! ### No operation allocates

Each operation is a plain StableHLO operation: the set of buffers it leaves undetermined is empty by
definition. One conjunct per operation, stretch by stretch. -/

theorem hostOps0_fresh : (hostOps0 : List (HloOp τ sig (Elt F))).Forall fun op => op.fresh = ∅ :=
  ⟨rfl, rfl, rfl, rfl, rfl⟩
theorem hostOps0_1_fresh : (hostOps0_1 : List (HloOp τ sig (Elt F))).Forall fun op => op.fresh = ∅ :=
  ⟨rfl, rfl, rfl, rfl, rfl, rfl, rfl, rfl, rfl, rfl, rfl, rfl, rfl, rfl, rfl, rfl, rfl⟩
theorem hostOps0_2_fresh : (hostOps0_2 : List (HloOp τ sig (Elt F))).Forall fun op => op.fresh = ∅ :=
  ⟨rfl, rfl⟩
theorem hostOps0_3_fresh : (hostOps0_3 : List (HloOp τ sig (Elt F))).Forall fun op => op.fresh = ∅ :=
  ⟨rfl, rfl, rfl, rfl, rfl, rfl, rfl, rfl, rfl, rfl, rfl, rfl, rfl, rfl, rfl, rfl, rfl⟩
theorem hostOps0_4_fresh : (hostOps0_4 : List (HloOp τ sig (Elt F))).Forall fun op => op.fresh = ∅ :=
  ⟨rfl, rfl⟩
theorem hostOps0_5_fresh : (hostOps0_5 : List (HloOp τ sig (Elt F))).Forall fun op => op.fresh = ∅ :=
  ⟨rfl, rfl, rfl, rfl, rfl, rfl, rfl, rfl, rfl, rfl, rfl, rfl, rfl, rfl, rfl, rfl, rfl⟩
theorem hostOps0_6_fresh : (hostOps0_6 : List (HloOp τ sig (Elt F))).Forall fun op => op.fresh = ∅ :=
  ⟨rfl, rfl⟩
theorem hostOps0_7_fresh : (hostOps0_7 : List (HloOp τ sig (Elt F))).Forall fun op => op.fresh = ∅ :=
  ⟨rfl, rfl, rfl, rfl, rfl, rfl, rfl, rfl, rfl, rfl, rfl, rfl, rfl, rfl, rfl, rfl, rfl⟩
theorem hostOps0_8_fresh : (hostOps0_8 : List (HloOp τ sig (Elt F))).Forall fun op => op.fresh = ∅ :=
  ⟨rfl, rfl⟩
theorem hostOps0_9_fresh : (hostOps0_9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
theorem hostOps0_10_fresh : (hostOps0_10 : List (HloOp τ sig (Elt F))).Forall fun op => op.fresh = ∅ :=
  ⟨rfl, rfl, rfl⟩
theorem hostOps0_11_fresh : (hostOps0_11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
theorem hostOps0_12_fresh : (hostOps0_12 : List (HloOp τ sig (Elt F))).Forall fun op => op.fresh = ∅ :=
  ⟨rfl, rfl, rfl⟩
theorem hostOps0_13_fresh : (hostOps0_13 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
theorem hostOps0_14_fresh : (hostOps0_14 : List (HloOp τ sig (Elt F))).Forall fun op => op.fresh = ∅ :=
  ⟨rfl, rfl, rfl⟩
theorem hostOps0_15_fresh : (hostOps0_15 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
set_option maxHeartbeats 40000000 in
theorem hostOps0_16_fresh : (hostOps0_16 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps0_17_fresh : (hostOps0_17 : List (HloOp τ sig (Elt F))).Forall fun op => op.fresh = ∅ :=
  rfl
theorem hostOps0_18_fresh : (hostOps0_18 : List (HloOp τ sig (Elt F))).Forall fun op => op.fresh = ∅ :=
  ⟨rfl, rfl⟩
theorem hostOps0_19_fresh : (hostOps0_19 : List (HloOp τ sig (Elt F))).Forall fun op => op.fresh = ∅ :=
  ⟨rfl, rfl, rfl, rfl, rfl, rfl⟩
set_option maxHeartbeats 40000000 in
theorem hostOps0_20_fresh : (hostOps0_20 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps0_21_fresh : (hostOps0_21 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
theorem hostOps1_fresh : (hostOps1 : List (HloOp τ sig (Elt F))).Forall fun op => op.fresh = ∅ :=
  ⟨rfl, rfl, rfl⟩

/-! ### No operation before the region writes an argument array

Each operation writes exactly one buffer, its result, and that reference is neither `main_arg0` nor
`main_arg1` (references are compared by evaluation). One conjunct per operation, stretch by stretch. -/

/-- An operation leaves both argument arrays alone. -/
abbrev KeepsArgs (op : HloOp τ sig (Elt F)) : Prop :=
  Proc.devRef .tc main_arg0 ∉ op.writes ∧ Proc.devRef .tc main_arg1 ∉ op.writes

/-- An operation whose one written buffer `y` is neither argument array leaves both alone. -/
theorem keeps_of {op : HloOp τ sig (Elt F)} {y : Ref sig .tc} (hw : op.writes = {Proc.devRef .tc y})
    (h0 : main_arg0 ≠ y) (h1 : main_arg1 ≠ y) : KeepsArgs op := by
  unfold KeepsArgs
  rw [hw, Finset.mem_singleton, Finset.mem_singleton]
  exact ⟨StableHlo.devRef_ne_of_ne h0, StableHlo.devRef_ne_of_ne h1⟩

/-- The one-operation step: the written set is a singleton by unfolding, the two disequalities by evaluation. -/
local macro "κ" : term => `(keeps_of rfl (by decide) (by decide))

theorem hostOps0_keeps : (hostOps0 : List (HloOp τ sig (Elt F))).Forall KeepsArgs :=
  ⟨κ, κ, κ, κ, κ⟩
theorem hostOps0_1_keeps : (hostOps0_1 : List (HloOp τ sig (Elt F))).Forall KeepsArgs :=
  ⟨κ, κ, κ, κ, κ, κ, κ, κ, κ, κ, κ, κ, κ, κ, κ, κ, κ⟩
theorem hostOps0_2_keeps : (hostOps0_2 : List (HloOp τ sig (Elt F))).Forall KeepsArgs :=
  ⟨κ, κ⟩
theorem hostOps0_3_keeps : (hostOps0_3 : List (HloOp τ sig (Elt F))).Forall KeepsArgs :=
  ⟨κ, κ, κ, κ, κ, κ, κ, κ, κ, κ, κ, κ, κ, κ, κ, κ, κ⟩
theorem hostOps0_4_keeps : (hostOps0_4 : List (HloOp τ sig (Elt F))).Forall KeepsArgs :=
  ⟨κ, κ⟩
theorem hostOps0_5_keeps : (hostOps0_5 : List (HloOp τ sig (Elt F))).Forall KeepsArgs :=
  ⟨κ, κ, κ, κ, κ, κ, κ, κ, κ, κ, κ, κ, κ, κ, κ, κ, κ⟩
theorem hostOps0_6_keeps : (hostOps0_6 : List (HloOp τ sig (Elt F))).Forall KeepsArgs :=
  ⟨κ, κ⟩
theorem hostOps0_7_keeps : (hostOps0_7 : List (HloOp τ sig (Elt F))).Forall KeepsArgs :=
  ⟨κ, κ, κ, κ, κ, κ, κ, κ, κ, κ, κ, κ, κ, κ, κ, κ, κ⟩
theorem hostOps0_8_keeps : (hostOps0_8 : List (HloOp τ sig (Elt F))).Forall KeepsArgs :=
  ⟨κ, κ⟩
theorem hostOps0_9_keeps : (hostOps0_9 : List (HloOp τ sig (Elt F))).Forall KeepsArgs :=
  ⟨κ, κ, κ, κ, κ, κ, κ, κ, κ, κ, κ, κ, κ, κ, κ, κ, κ, κ, κ, κ, κ⟩
theorem hostOps0_10_keeps : (hostOps0_10 : List (HloOp τ sig (Elt F))).Forall KeepsArgs :=
  ⟨κ, κ, κ⟩
theorem hostOps0_11_keeps : (hostOps0_11 : List (HloOp τ sig (Elt F))).Forall KeepsArgs :=
  ⟨κ, κ, κ, κ, κ, κ, κ, κ, κ, κ, κ, κ, κ, κ, κ, κ, κ, κ, κ, κ, κ⟩
theorem hostOps0_12_keeps : (hostOps0_12 : List (HloOp τ sig (Elt F))).Forall KeepsArgs :=
  ⟨κ, κ, κ⟩
theorem hostOps0_13_keeps : (hostOps0_13 : List (HloOp τ sig (Elt F))).Forall KeepsArgs :=
  ⟨κ, κ, κ, κ, κ, κ, κ, κ, κ, κ, κ, κ, κ, κ, κ, κ, κ, κ, κ, κ, κ⟩
theorem hostOps0_14_keeps : (hostOps0_14 : List (HloOp τ sig (Elt F))).Forall KeepsArgs :=
  ⟨κ, κ, κ⟩
theorem hostOps0_15_keeps : (hostOps0_15 : List (HloOp τ sig (Elt F))).Forall KeepsArgs :=
  ⟨κ, κ, κ, κ, κ, κ, κ, κ, κ, κ, κ, κ, κ, κ, κ, κ, κ, κ, κ, κ, κ⟩
set_option maxHeartbeats 40000000 in
theorem hostOps0_16_keeps : (hostOps0_16 : List (HloOp τ sig (Elt F))).Forall KeepsArgs :=
  ⟨κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ⟩
theorem hostOps0_17_keeps : (hostOps0_17 : List (HloOp τ sig (Elt F))).Forall KeepsArgs :=
  κ
theorem hostOps0_18_keeps : (hostOps0_18 : List (HloOp τ sig (Elt F))).Forall KeepsArgs :=
  ⟨κ, κ⟩
theorem hostOps0_19_keeps : (hostOps0_19 : List (HloOp τ sig (Elt F))).Forall KeepsArgs :=
  ⟨κ, κ, κ, κ, κ, κ⟩
set_option maxHeartbeats 40000000 in
theorem hostOps0_20_keeps : (hostOps0_20 : List (HloOp τ sig (Elt F))).Forall KeepsArgs :=
  ⟨κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ⟩
theorem hostOps0_21_keeps : (hostOps0_21 : List (HloOp τ sig (Elt F))).Forall KeepsArgs :=
  ⟨κ, κ, κ, κ, κ, κ, κ, κ, κ, κ, κ, κ, κ, κ, κ, κ, κ, κ, κ, κ, κ, κ, κ⟩

/-- Every stretch before the region, every operation of it. -/
theorem prefix_keeps : ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21] : List (List (HloOp τ sig (Elt F)))).Forall fun ops => ops.Forall KeepsArgs :=
  ⟨hostOps0_keeps, hostOps0_1_keeps, hostOps0_2_keeps, hostOps0_3_keeps, hostOps0_4_keeps, hostOps0_5_keeps, hostOps0_6_keeps, hostOps0_7_keeps, hostOps0_8_keeps, hostOps0_9_keeps, hostOps0_10_keeps, hostOps0_11_keeps, hostOps0_12_keeps, hostOps0_13_keeps, hostOps0_14_keeps, hostOps0_15_keeps, hostOps0_16_keeps, hostOps0_17_keeps, hostOps0_18_keeps, hostOps0_19_keeps, hostOps0_20_keeps, hostOps0_21_keeps⟩

/-- So for an operation of the flattened line. -/
theorem prefix_keeps_mem (op : HloOp τ sig (Elt F))
    (hop : op ∈ List.flatten ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21] : List (List (HloOp τ sig (Elt F))))) : KeepsArgs op := by
  obtain ⟨ops, hops, hmem⟩ := List.mem_flatten.mp hop
  exact (List.forall_iff_forall_mem.mp ((List.forall_iff_forall_mem.mp prefix_keeps) ops hops)) op hmem

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ fun op hop => (prefix_keeps_mem op hop).1
/-- Nor `main_arg1`. -/
theorem V_main_arg1 (c : Dev nD) : V m c main_arg1 = m ((c : Thread nD τ).loc main_arg1) :=
  StableHlo.after_of_forall_not_mem (b := Proc.devRef .tc main_arg1) _ _ fun op hop => (prefix_keeps_mem op hop).2

/-- @main around the region, at the certificate's variants `𝒱₀`: the host lines before it, the region, the host
    lines after it: it reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21] [hostOps1]
    ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub⟩
    ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh⟩ main_chain

/-! ## The lines after the region -/

/-- The lines after the region touch the pipeline's arrays and the bypassing buffers only (each operation's buffers
    are unscoped TensorCore references, and with nothing prefetched every such reference is one or the other). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And write no array of the pipeline: each writes only its own result buffer, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl
  all_goals
    intro w
    fin_cases w <;>
      simp only [StableHlo.unary_writes, StableHlo.reshape_writes, Finset.mem_singleton] <;>
      exact StableHlo.devRef_ne_of_ne (by decide)

/-- No host operation after the region writes an argument array either. -/
theorem hostOps1_keeps : (hostOps1 : List (HloOp τ sig (Elt F))).Forall KeepsArgs := ⟨κ, κ, κ⟩

/-- No host operation after the region writes `main_arg0`, and it is no window's array: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (fun op hop => by
      rw [List.flatten_cons, List.flatten_nil, List.append_nil] at hop
      exact ((List.forall_iff_forall_mem.mp hostOps1_keeps) op hop).1),
    Pipeline.withArrays_of_ne _ c (V0 m c) _ main_arg0 (by exact (by decide : ∀ w, Pipeline.arrRef spec0 w ≠ main_arg0))]
  exact V_main_arg0 m c
/-- Nor `main_arg1`. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (fun op hop => by
      rw [List.flatten_cons, List.flatten_nil, List.append_nil] at hop
      exact ((List.forall_iff_forall_mem.mp hostOps1_keeps) op hop).2),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is `V`'s (`hA`) and whose body leaves the block in place (`hafter`): the window is uncut,
    never idle, and fetched at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same of input window 1. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: neither argument array is a window's array, so the run's post reads each as the
    lines after the region leave it, which is as launched (`W_main_arg0`, `W_main_arg1`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The body's accesses -/

/-- The whole of the first input's staging buffer: what the body's first load reads. -/
abbrev r0_0 : Rect S1024x16x16 := Rect.unit (s := S1024x16x16) ![0, 0, 0] S1024x16x16.size inb_S1024x16x16_S1024x16x16_0_0_0
/-- The whole of the second input's staging buffer: what its second load reads. -/
abbrev r0_1 : Rect S1024x16 := Rect.unit (s := S1024x16) ![0, 0] S1024x16.size inb_S1024x16_S1024x16_0_0
/-- The whole of the output's staging buffer: what its third load reads and its store writes. -/
abbrev r0_2 : Rect S1024x16 := Rect.unit (s := S1024x16) ![0, 0] S1024x16.size inb_S1024x16_S1024x16_0_0

/-! ## What the body leaves in the output window's buffer -/

/-- Window 2's staging buffer after the body, from the input windows' blocks: its one store as a piece. -/
def out0_2 (x0 : Vec F S1024x16x16 .f32) (x1 : Vec F S1024x16 .f32) : Vec F S1024x16 .f32 :=
  View.canon [⟨r0_2, k0_pay1 (View.ld x0 r0_0) (View.ld x1 r0_1)⟩]

/-- The store's rectangle is the whole buffer, so it covers it. -/
theorem cover0_2 (p0 : Vec F S1024x16 .f32) (y : S1024x16.Idx) :
    ∃ pc ∈ ([⟨r0_2, p0⟩] : List (View.Piece (Elt F) S1024x16 .f32)), y ∈ pc.1.set :=
  View.cover_of_tiled [⟨r0_2, p0⟩] S1024x16.size (by rfl) y

/-! ## The body's triple -/

set_option maxHeartbeats 1000000 in
/-- The kernel body on whole staging memrefs, the inputs' at read contents `x0`, `x1` and the output's at anything,
    runs to the continuation holding the inputs' as they were and the output's at `out0_2` of them: three loads
    (the third, of the output's old contents, is not used) and one covering store. -/
theorem sound_kernel (c : Dev nD) (E : Set ℕ) (i : grid0.Coords) (arg1 : Memref sig .tc .vmem S1024x16x16 .f32) (harg1 : arg1.IsWhole) (arg2 : Memref sig .tc .vmem S1024x16 .f32) (harg2 : arg2.IsWhole) (arg3 : Memref sig .tc .vmem S1024x16 .f32) (harg3 : arg3.IsWhole)
    (x0 : Vec F S1024x16x16 .f32) (x1 : Vec F S1024x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__combine_kernel i arg1 harg1 arg2 harg2 arg3 harg3) K := by
  simp only [cc0__combine_kernel_eq_skeleton]; unfold cc0__combine_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the one pipeline on core `c`: the arrays as the region finds them (`V`); after the body at
    point `t` each input's buffer at its block and the output's at `out0_2` of the input blocks; the invariant the
    class's (the scoped rest and the generator register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the region-entry contents: the definition projected, so that `V` — a fold over the
    long host prefix — is never unfolded to check it. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks (`before0_0`, `before0_1`), so `sound_kernel` applies;
    the invariant and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the statement below fixes the library theorem's implicit arguments only up to unfolding plain definitions
set_option backward.isDefEq.respectTransparency.types false in
/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.Kernel.GenH.run_main' depends on axioms: [propext, Classical.choice, Quot.sound] -/
#guard_msgs in #print axioms run_main

/-- THE FRAME: the program runs and both argument arrays end as launched, at any float instance `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.GenH

end
-- ==== Proof.KFrame.lean ====
import proofs.«409975_j2585570312579_2_alg».proof.Proof.Gen.KernelIdeal.Launch
import proofs.«409975_j2585570312579_2_alg».proof.Proof.Gen.KernelIdeal.Skeleton
import proofs.«409975_j2585570312579_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-! # The frame of the program: @main around its one region

@main is a long straight line of host operations, then one region over a grid of 256 points, then three
host operations. The two argument arrays are read by the line before the region and written by nothing:
every operation of @main writes one buffer, its own result, which is neither argument; the region writes
only its output window's array. So both end as launched. The region's body reads its two input blocks
whole and overwrites its output block whole with a value of the two; what it leaves there is the one
piece that covers the block. -/

-- the long stretches are conjunctions nested once per operation, and a rectangle's membership recurses
-- once per coordinate of its long axis
set_option maxRecDepth 16384

noncomputable section

namespace Cert.KernelIdeal.GenH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered, as a valuation: the launch contents
    carried through the 22 stretches of host operations before the region, in order. -/
abbrev V0 (c : Dev nD) : Valuation τ sig (Elt F) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21]) (fun b => m (c, b))
/-- The same read at a TensorCore reference. -/
abbrev V (c : Dev nD) (b : Ref sig .tc) : Buf (Elt F) ((c : Thread nD τ).loc b) := V0 m c (Proc.devRef .tc b)

/-! ### No operation allocates

Each operation is a plain StableHLO operation: the set of buffers it leaves undetermined is empty by
definition. One conjunct per operation, stretch by stretch. -/

theorem hostOps0_fresh : (hostOps0 : List (HloOp τ sig (Elt F))).Forall fun op => op.fresh = ∅ :=
  ⟨rfl, rfl, rfl, rfl, rfl⟩
theorem hostOps0_1_fresh : (hostOps0_1 : List (HloOp τ sig (Elt F))).Forall fun op => op.fresh = ∅ :=
  ⟨rfl, rfl, rfl, rfl, rfl, rfl, rfl, rfl, rfl, rfl, rfl, rfl, rfl, rfl, rfl, rfl, rfl⟩
theorem hostOps0_2_fresh : (hostOps0_2 : List (HloOp τ sig (Elt F))).Forall fun op => op.fresh = ∅ :=
  ⟨rfl, rfl⟩
theorem hostOps0_3_fresh : (hostOps0_3 : List (HloOp τ sig (Elt F))).Forall fun op => op.fresh = ∅ :=
  ⟨rfl, rfl, rfl, rfl, rfl, rfl, rfl, rfl, rfl, rfl, rfl, rfl, rfl, rfl, rfl, rfl, rfl⟩
theorem hostOps0_4_fresh : (hostOps0_4 : List (HloOp τ sig (Elt F))).Forall fun op => op.fresh = ∅ :=
  ⟨rfl, rfl⟩
theorem hostOps0_5_fresh : (hostOps0_5 : List (HloOp τ sig (Elt F))).Forall fun op => op.fresh = ∅ :=
  ⟨rfl, rfl, rfl, rfl, rfl, rfl, rfl, rfl, rfl, rfl, rfl, rfl, rfl, rfl, rfl, rfl, rfl⟩
theorem hostOps0_6_fresh : (hostOps0_6 : List (HloOp τ sig (Elt F))).Forall fun op => op.fresh = ∅ :=
  ⟨rfl, rfl⟩
theorem hostOps0_7_fresh : (hostOps0_7 : List (HloOp τ sig (Elt F))).Forall fun op => op.fresh = ∅ :=
  ⟨rfl, rfl, rfl, rfl, rfl, rfl, rfl, rfl, rfl, rfl, rfl, rfl, rfl, rfl, rfl, rfl, rfl⟩
theorem hostOps0_8_fresh : (hostOps0_8 : List (HloOp τ sig (Elt F))).Forall fun op => op.fresh = ∅ :=
  ⟨rfl, rfl⟩
theorem hostOps0_9_fresh : (hostOps0_9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
theorem hostOps0_10_fresh : (hostOps0_10 : List (HloOp τ sig (Elt F))).Forall fun op => op.fresh = ∅ :=
  ⟨rfl, rfl, rfl⟩
theorem hostOps0_11_fresh : (hostOps0_11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
theorem hostOps0_12_fresh : (hostOps0_12 : List (HloOp τ sig (Elt F))).Forall fun op => op.fresh = ∅ :=
  ⟨rfl, rfl, rfl⟩
theorem hostOps0_13_fresh : (hostOps0_13 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
theorem hostOps0_14_fresh : (hostOps0_14 : List (HloOp τ sig (Elt F))).Forall fun op => op.fresh = ∅ :=
  ⟨rfl, rfl, rfl⟩
theorem hostOps0_15_fresh : (hostOps0_15 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
set_option maxHeartbeats 40000000 in
theorem hostOps0_16_fresh : (hostOps0_16 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps0_17_fresh : (hostOps0_17 : List (HloOp τ sig (Elt F))).Forall fun op => op.fresh = ∅ :=
  rfl
theorem hostOps0_18_fresh : (hostOps0_18 : List (HloOp τ sig (Elt F))).Forall fun op => op.fresh = ∅ :=
  ⟨rfl, rfl⟩
theorem hostOps0_19_fresh : (hostOps0_19 : List (HloOp τ sig (Elt F))).Forall fun op => op.fresh = ∅ :=
  ⟨rfl, rfl, rfl, rfl, rfl, rfl⟩
set_option maxHeartbeats 40000000 in
theorem hostOps0_20_fresh : (hostOps0_20 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps0_21_fresh : (hostOps0_21 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
theorem hostOps1_fresh : (hostOps1 : List (HloOp τ sig (Elt F))).Forall fun op => op.fresh = ∅ :=
  ⟨rfl, rfl, rfl⟩

/-! ### No operation before the region writes an argument array

Each operation writes exactly one buffer, its result, and that reference is neither `main_arg0` nor
`main_arg1` (references are compared by evaluation). One conjunct per operation, stretch by stretch. -/

/-- An operation leaves both argument arrays alone. -/
abbrev KeepsArgs (op : HloOp τ sig (Elt F)) : Prop :=
  Proc.devRef .tc main_arg0 ∉ op.writes ∧ Proc.devRef .tc main_arg1 ∉ op.writes

/-- An operation whose one written buffer `y` is neither argument array leaves both alone. -/
theorem keeps_of {op : HloOp τ sig (Elt F)} {y : Ref sig .tc} (hw : op.writes = {Proc.devRef .tc y})
    (h0 : main_arg0 ≠ y) (h1 : main_arg1 ≠ y) : KeepsArgs op := by
  unfold KeepsArgs
  rw [hw, Finset.mem_singleton, Finset.mem_singleton]
  exact ⟨StableHlo.devRef_ne_of_ne h0, StableHlo.devRef_ne_of_ne h1⟩

/-- The one-operation step: the written set is a singleton by unfolding, the two disequalities by evaluation. -/
local macro "κ" : term => `(keeps_of rfl (by decide) (by decide))

theorem hostOps0_keeps : (hostOps0 : List (HloOp τ sig (Elt F))).Forall KeepsArgs :=
  ⟨κ, κ, κ, κ, κ⟩
theorem hostOps0_1_keeps : (hostOps0_1 : List (HloOp τ sig (Elt F))).Forall KeepsArgs :=
  ⟨κ, κ, κ, κ, κ, κ, κ, κ, κ, κ, κ, κ, κ, κ, κ, κ, κ⟩
theorem hostOps0_2_keeps : (hostOps0_2 : List (HloOp τ sig (Elt F))).Forall KeepsArgs :=
  ⟨κ, κ⟩
theorem hostOps0_3_keeps : (hostOps0_3 : List (HloOp τ sig (Elt F))).Forall KeepsArgs :=
  ⟨κ, κ, κ, κ, κ, κ, κ, κ, κ, κ, κ, κ, κ, κ, κ, κ, κ⟩
theorem hostOps0_4_keeps : (hostOps0_4 : List (HloOp τ sig (Elt F))).Forall KeepsArgs :=
  ⟨κ, κ⟩
theorem hostOps0_5_keeps : (hostOps0_5 : List (HloOp τ sig (Elt F))).Forall KeepsArgs :=
  ⟨κ, κ, κ, κ, κ, κ, κ, κ, κ, κ, κ, κ, κ, κ, κ, κ, κ⟩
theorem hostOps0_6_keeps : (hostOps0_6 : List (HloOp τ sig (Elt F))).Forall KeepsArgs :=
  ⟨κ, κ⟩
theorem hostOps0_7_keeps : (hostOps0_7 : List (HloOp τ sig (Elt F))).Forall KeepsArgs :=
  ⟨κ, κ, κ, κ, κ, κ, κ, κ, κ, κ, κ, κ, κ, κ, κ, κ, κ⟩
theorem hostOps0_8_keeps : (hostOps0_8 : List (HloOp τ sig (Elt F))).Forall KeepsArgs :=
  ⟨κ, κ⟩
theorem hostOps0_9_keeps : (hostOps0_9 : List (HloOp τ sig (Elt F))).Forall KeepsArgs :=
  ⟨κ, κ, κ, κ, κ, κ, κ, κ, κ, κ, κ, κ, κ, κ, κ, κ, κ, κ, κ, κ, κ⟩
theorem hostOps0_10_keeps : (hostOps0_10 : List (HloOp τ sig (Elt F))).Forall KeepsArgs :=
  ⟨κ, κ, κ⟩
theorem hostOps0_11_keeps : (hostOps0_11 : List (HloOp τ sig (Elt F))).Forall KeepsArgs :=
  ⟨κ, κ, κ, κ, κ, κ, κ, κ, κ, κ, κ, κ, κ, κ, κ, κ, κ, κ, κ, κ, κ⟩
theorem hostOps0_12_keeps : (hostOps0_12 : List (HloOp τ sig (Elt F))).Forall KeepsArgs :=
  ⟨κ, κ, κ⟩
theorem hostOps0_13_keeps : (hostOps0_13 : List (HloOp τ sig (Elt F))).Forall KeepsArgs :=
  ⟨κ, κ, κ, κ, κ, κ, κ, κ, κ, κ, κ, κ, κ, κ, κ, κ, κ, κ, κ, κ, κ⟩
theorem hostOps0_14_keeps : (hostOps0_14 : List (HloOp τ sig (Elt F))).Forall KeepsArgs :=
  ⟨κ, κ, κ⟩
theorem hostOps0_15_keeps : (hostOps0_15 : List (HloOp τ sig (Elt F))).Forall KeepsArgs :=
  ⟨κ, κ, κ, κ, κ, κ, κ, κ, κ, κ, κ, κ, κ, κ, κ, κ, κ, κ, κ, κ, κ⟩
set_option maxHeartbeats 40000000 in
theorem hostOps0_16_keeps : (hostOps0_16 : List (HloOp τ sig (Elt F))).Forall KeepsArgs :=
  ⟨κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ⟩
theorem hostOps0_17_keeps : (hostOps0_17 : List (HloOp τ sig (Elt F))).Forall KeepsArgs :=
  κ
theorem hostOps0_18_keeps : (hostOps0_18 : List (HloOp τ sig (Elt F))).Forall KeepsArgs :=
  ⟨κ, κ⟩
theorem hostOps0_19_keeps : (hostOps0_19 : List (HloOp τ sig (Elt F))).Forall KeepsArgs :=
  ⟨κ, κ, κ, κ, κ, κ⟩
set_option maxHeartbeats 40000000 in
theorem hostOps0_20_keeps : (hostOps0_20 : List (HloOp τ sig (Elt F))).Forall KeepsArgs :=
  ⟨κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ, κ⟩
theorem hostOps0_21_keeps : (hostOps0_21 : List (HloOp τ sig (Elt F))).Forall KeepsArgs :=
  ⟨κ, κ, κ, κ, κ, κ, κ, κ, κ, κ, κ, κ, κ, κ, κ, κ, κ, κ, κ, κ, κ, κ, κ⟩

/-- Every stretch before the region, every operation of it. -/
theorem prefix_keeps : ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21] : List (List (HloOp τ sig (Elt F)))).Forall fun ops => ops.Forall KeepsArgs :=
  ⟨hostOps0_keeps, hostOps0_1_keeps, hostOps0_2_keeps, hostOps0_3_keeps, hostOps0_4_keeps, hostOps0_5_keeps, hostOps0_6_keeps, hostOps0_7_keeps, hostOps0_8_keeps, hostOps0_9_keeps, hostOps0_10_keeps, hostOps0_11_keeps, hostOps0_12_keeps, hostOps0_13_keeps, hostOps0_14_keeps, hostOps0_15_keeps, hostOps0_16_keeps, hostOps0_17_keeps, hostOps0_18_keeps, hostOps0_19_keeps, hostOps0_20_keeps, hostOps0_21_keeps⟩

/-- So for an operation of the flattened line. -/
theorem prefix_keeps_mem (op : HloOp τ sig (Elt F))
    (hop : op ∈ List.flatten ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21] : List (List (HloOp τ sig (Elt F))))) : KeepsArgs op := by
  obtain ⟨ops, hops, hmem⟩ := List.mem_flatten.mp hop
  exact (List.forall_iff_forall_mem.mp ((List.forall_iff_forall_mem.mp prefix_keeps) ops hops)) op hmem

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ fun op hop => (prefix_keeps_mem op hop).1
/-- Nor `main_arg1`. -/
theorem V_main_arg1 (c : Dev nD) : V m c main_arg1 = m ((c : Thread nD τ).loc main_arg1) :=
  StableHlo.after_of_forall_not_mem (b := Proc.devRef .tc main_arg1) _ _ fun op hop => (prefix_keeps_mem op hop).2

/-- @main around the region, at the certificate's variants `𝒱₀`: the host lines before it, the region, the host
    lines after it: it reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21] [hostOps1]
    ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub⟩
    ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh⟩ main_chain

/-! ## The lines after the region -/

/-- The lines after the region touch the pipeline's arrays and the bypassing buffers only (each operation's buffers
    are unscoped TensorCore references, and with nothing prefetched every such reference is one or the other). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And write no array of the pipeline: each writes only its own result buffer, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl
  all_goals
    intro w
    fin_cases w <;>
      simp only [StableHlo.unary_writes, StableHlo.reshape_writes, Finset.mem_singleton] <;>
      exact StableHlo.devRef_ne_of_ne (by decide)

/-- No host operation after the region writes an argument array either. -/
theorem hostOps1_keeps : (hostOps1 : List (HloOp τ sig (Elt F))).Forall KeepsArgs := ⟨κ, κ, κ⟩

/-- No host operation after the region writes `main_arg0`, and it is no window's array: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (fun op hop => by
      rw [List.flatten_cons, List.flatten_nil, List.append_nil] at hop
      exact ((List.forall_iff_forall_mem.mp hostOps1_keeps) op hop).1),
    Pipeline.withArrays_of_ne _ c (V0 m c) _ main_arg0 (by exact (by decide : ∀ w, Pipeline.arrRef spec0 w ≠ main_arg0))]
  exact V_main_arg0 m c
/-- Nor `main_arg1`. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (fun op hop => by
      rw [List.flatten_cons, List.flatten_nil, List.append_nil] at hop
      exact ((List.forall_iff_forall_mem.mp hostOps1_keeps) op hop).2),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is `V`'s (`hA`) and whose body leaves the block in place (`hafter`): the window is uncut,
    never idle, and fetched at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same of input window 1. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: neither argument array is a window's array, so the run's post reads each as the
    lines after the region leave it, which is as launched (`W_main_arg0`, `W_main_arg1`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The body's accesses -/

/-- The whole of the first input's staging buffer: what the body's first load reads. -/
abbrev r0_0 : Rect S1024x16x16 := Rect.unit (s := S1024x16x16) ![0, 0, 0] S1024x16x16.size inb_S1024x16x16_S1024x16x16_0_0_0
/-- The whole of the second input's staging buffer: what its second load reads. -/
abbrev r0_1 : Rect S1024x16 := Rect.unit (s := S1024x16) ![0, 0] S1024x16.size inb_S1024x16_S1024x16_0_0
/-- The whole of the output's staging buffer: what its third load reads and its store writes. -/
abbrev r0_2 : Rect S1024x16 := Rect.unit (s := S1024x16) ![0, 0] S1024x16.size inb_S1024x16_S1024x16_0_0

/-! ## What the body leaves in the output window's buffer -/

/-- Window 2's staging buffer after the body, from the input windows' blocks: its one store as a piece. -/
def out0_2 (x0 : Vec F S1024x16x16 .f32) (x1 : Vec F S1024x16 .f32) : Vec F S1024x16 .f32 :=
  View.canon [⟨r0_2, k0_pay1 (View.ld x0 r0_0) (View.ld x1 r0_1)⟩]

/-- The store's rectangle is the whole buffer, so it covers it. -/
theorem cover0_2 (p0 : Vec F S1024x16 .f32) (y : S1024x16.Idx) :
    ∃ pc ∈ ([⟨r0_2, p0⟩] : List (View.Piece (Elt F) S1024x16 .f32)), y ∈ pc.1.set :=
  View.cover_of_tiled [⟨r0_2, p0⟩] S1024x16.size (by rfl) y

/-! ## The body's triple -/

set_option maxHeartbeats 1000000 in
/-- The kernel body on whole staging memrefs, the inputs' at read contents `x0`, `x1` and the output's at anything,
    runs to the continuation holding the inputs' as they were and the output's at `out0_2` of them: three loads
    (the third, of the output's old contents, is not used) and one covering store. -/
theorem sound_kernel (c : Dev nD) (E : Set ℕ) (i : grid0.Coords) (arg1 : Memref sig .tc .vmem S1024x16x16 .f32) (harg1 : arg1.IsWhole) (arg2 : Memref sig .tc .vmem S1024x16 .f32) (harg2 : arg2.IsWhole) (arg3 : Memref sig .tc .vmem S1024x16 .f32) (harg3 : arg3.IsWhole)
    (x0 : Vec F S1024x16x16 .f32) (x1 : Vec F S1024x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__combine_kernel i arg1 harg1 arg2 harg2 arg3 harg3) K := by
  simp only [cc0__combine_kernel_eq_skeleton]; unfold cc0__combine_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the one pipeline on core `c`: the arrays as the region finds them (`V`); after the body at
    point `t` each input's buffer at its block and the output's at `out0_2` of the input blocks; the invariant the
    class's (the scoped rest and the generator register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the region-entry contents: the definition projected, so that `V` — a fold over the
    long host prefix — is never unfolded to check it. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks (`before0_0`, `before0_1`), so `sound_kernel` applies;
    the invariant and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the statement below fixes the library theorem's implicit arguments only up to unfolding plain definitions
set_option backward.isDefEq.respectTransparency.types false in
/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.KernelIdeal.GenH.run_main' depends on axioms: [propext, Classical.choice, Quot.sound] -/
#guard_msgs in #print axioms run_main

/-- THE FRAME: the program runs and both argument arrays end as launched, at any float instance `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.GenH

end
-- ==== Proof.RefRun.lean ====
import proofs.«409975_j2585570312579_2_alg».proof.Proof.RefOps
import Idealize.ShloMosaic.Lib.StableHlo.Run
import Idealize.ShloMosaic.Lib.Pipeline.Regions
import Mathlib.Data.List.Basic

/-!
# The run of the idealized reference program

The reference's host program is a straight line of 1365 tensor operations: 1206 of its own and the
bodies of the ten calls it makes of module-local functions (a rounding, a clip, four floor divisions and
four remainders; a floor division and a remainder each call a select), every call standing for its
callee's body over the call's operands and buffers. The program is printed in 21 consecutive windows.

This module shows, in order:

* each window is the sequence of its stretches of operations, a stretch ending where a call begins or
  ends (`main_partJ_chain`), and so the whole program is the sequence of all 41 stretches
  (`main_chain_windows`);
* a sequence of stretches run one after the other is the concatenation of their operations run as one
  line (`chain_map_seq`), so the program is the line `ops` (`main_eq`);
* every operation of the line touches TensorCore buffers only (`ops_sub`), determines what it writes
  and writes neither argument of the program (`ops_ok`);
* hence every fair execution terminates with each buffer at the fold of the operations' results over the
  launch contents (`run`), the fold leaves the two arguments as they were (`arg0_kept`, `arg1_kept`), and
  the program ends with its arguments unchanged (`frame`).
-/

-- a literal list of sixty operations, and the signature's fourteen hundred references, recurse past the default depth
set_option maxRecDepth 10152

noncomputable section

namespace Cert.ReferenceIdeal.RunH

open Idealize.ShloMosaic Idealize.SL.Sem Cert.ReferenceIdeal Cert.ReferenceIdeal.Gen

variable {F : FTy → Type} [FloatOps F]

/-! ## Lists of operations: three general facts -/

section Lists

variable {n : Nat} {t : Topo} {s : RefSig} {Val : EltTy → Type} {L : Labels}

/-- Lines of operations run one after the other are their concatenation run as one line: by induction on
    the list of lines, two lines at a time by `StableHlo.seq_append`. -/
theorem chain_map_seq (Ls : List (List (HloOp t s Val))) :
    Pipeline.chain (Ls.map fun l => (StableHlo.seq l : Prog (TpuEff n t s Val L .tc) PUnit)) = StableHlo.seq Ls.flatten := by
  induction Ls with
  | nil => rfl
  | cons l Ls ih => rw [List.map_cons, Pipeline.chain_cons, ih, List.flatten_cons, StableHlo.seq_append]

/-- The contents after a concatenation are the contents after its second part from those after its first. -/
theorem after_append (l₁ l₂ : List (HloOp t s Val)) (V : Valuation t s Val) :
    StableHlo.after (l₁ ++ l₂) V = StableHlo.after l₂ (StableHlo.after l₁ V) := by
  induction l₁ generalizing V with
  | nil => rfl
  | cons op l ih => exact ih _

/-- A property of every element of every list holds of every element of their concatenation. -/
theorem forall_flatten {α : Type} {P : α → Prop} (Ls : List (List α)) (h : Ls.Forall fun l => l.Forall P) :
    Ls.flatten.Forall P := by
  rw [List.forall_iff_forall_mem] at h ⊢
  intro x hx
  obtain ⟨l, hl, hxl⟩ := List.mem_flatten.mp hx
  exact (List.forall_iff_forall_mem.mp (h l hl)) x hxl

end Lists

/-! ## Each window is the sequence of its stretches

A window's statements, read in order, are exactly the operations of its stretches: the two sides unfold to
the same term (a call unfolds to its callee's body over the call's buffers), an equation closed by
reflexivity. -/

/-- Window 0: three operations, the rounding, four, the clip, five, then four floor divisions and four
    remainders with the operations between them, and the 21 operations that follow. -/
theorem main_part0_chain (c : Dev nD) : main_part0 (F := F) c = (Pipeline.chainK
  [ StableHlo.seq main_part0_ops0,
    StableHlo.seq main_part0_ops1,
    StableHlo.seq main_part0_ops2,
    StableHlo.seq main_part0_ops3,
    StableHlo.seq main_part0_ops4,
    StableHlo.seq main_part0_ops5,
    StableHlo.seq main_part0_ops6,
    StableHlo.seq main_part0_ops7,
    StableHlo.seq main_part0_ops8,
    StableHlo.seq main_part0_ops9,
    StableHlo.seq main_part0_ops10,
    StableHlo.seq main_part0_ops11,
    StableHlo.seq main_part0_ops12,
    StableHlo.seq main_part0_ops13,
    StableHlo.seq main_part0_ops14,
    StableHlo.seq main_part0_ops15,
    StableHlo.seq main_part0_ops16,
    StableHlo.seq main_part0_ops17,
    StableHlo.seq main_part0_ops18,
    StableHlo.seq main_part0_ops19 ]
  (StableHlo.seq main_part0_ops20) : Prog (TpuEff nD τ sig (Elt F) (Pipeline.Sig Λ₀ (Fin 0) fun p => (pcfgs (F := F) p).Adm) .tc) PUnit) := by
  chain_rfl

/-- Window 1: one stretch of sixty operations. -/
theorem main_part1_chain (c : Dev nD) : main_part1 (F := F) c = (Pipeline.chainK [] (StableHlo.seq main_part1_ops0) : Prog (TpuEff nD τ sig (Elt F) (Pipeline.Sig Λ₀ (Fin 0) fun p => (pcfgs (F := F) p).Adm) .tc) PUnit) := by
  chain_rfl

/-- Window 2: one stretch of sixty operations. -/
theorem main_part2_chain (c : Dev nD) : main_part2 (F := F) c = (Pipeline.chainK [] (StableHlo.seq main_part2_ops0) : Prog (TpuEff nD τ sig (Elt F) (Pipeline.Sig Λ₀ (Fin 0) fun p => (pcfgs (F := F) p).Adm) .tc) PUnit) := by
  chain_rfl

/-- Window 3: one stretch of sixty operations. -/
theorem main_part3_chain (c : Dev nD) : main_part3 (F := F) c = (Pipeline.chainK [] (StableHlo.seq main_part3_ops0) : Prog (TpuEff nD τ sig (Elt F) (Pipeline.Sig Λ₀ (Fin 0) fun p => (pcfgs (F := F) p).Adm) .tc) PUnit) := by
  chain_rfl

/-- Window 4: one stretch of sixty operations. -/
theorem main_part4_chain (c : Dev nD) : main_part4 (F := F) c = (Pipeline.chainK [] (StableHlo.seq main_part4_ops0) : Prog (TpuEff nD τ sig (Elt F) (Pipeline.Sig Λ₀ (Fin 0) fun p => (pcfgs (F := F) p).Adm) .tc) PUnit) := by
  chain_rfl

/-- Window 5: one stretch of sixty operations. -/
theorem main_part5_chain (c : Dev nD) : main_part5 (F := F) c = (Pipeline.chainK [] (StableHlo.seq main_part5_ops0) : Prog (TpuEff nD τ sig (Elt F) (Pipeline.Sig Λ₀ (Fin 0) fun p => (pcfgs (F := F) p).Adm) .tc) PUnit) := by
  chain_rfl

/-- Window 6: one stretch of sixty operations. -/
theorem main_part6_chain (c : Dev nD) : main_part6 (F := F) c = (Pipeline.chainK [] (StableHlo.seq main_part6_ops0) : Prog (TpuEff nD τ sig (Elt F) (Pipeline.Sig Λ₀ (Fin 0) fun p => (pcfgs (F := F) p).Adm) .tc) PUnit) := by
  chain_rfl

/-- Window 7: one stretch of sixty operations. -/
theorem main_part7_chain (c : Dev nD) : main_part7 (F := F) c = (Pipeline.chainK [] (StableHlo.seq main_part7_ops0) : Prog (TpuEff nD τ sig (Elt F) (Pipeline.Sig Λ₀ (Fin 0) fun p => (pcfgs (F := F) p).Adm) .tc) PUnit) := by
  chain_rfl

/-- Window 8: one stretch of sixty operations. -/
theorem main_part8_chain (c : Dev nD) : main_part8 (F := F) c = (Pipeline.chainK [] (StableHlo.seq main_part8_ops0) : Prog (TpuEff nD τ sig (Elt F) (Pipeline.Sig Λ₀ (Fin 0) fun p => (pcfgs (F := F) p).Adm) .tc) PUnit) := by
  chain_rfl

/-- Window 9: one stretch of sixty operations. -/
theorem main_part9_chain (c : Dev nD) : main_part9 (F := F) c = (Pipeline.chainK [] (StableHlo.seq main_part9_ops0) : Prog (TpuEff nD τ sig (Elt F) (Pipeline.Sig Λ₀ (Fin 0) fun p => (pcfgs (F := F) p).Adm) .tc) PUnit) := by
  chain_rfl

/-- Window 10: one stretch of sixty operations. -/
theorem main_part10_chain (c : Dev nD) : main_part10 (F := F) c = (Pipeline.chainK [] (StableHlo.seq main_part10_ops0) : Prog (TpuEff nD τ sig (Elt F) (Pipeline.Sig Λ₀ (Fin 0) fun p => (pcfgs (F := F) p).Adm) .tc) PUnit) := by
  chain_rfl

/-- Window 11: one stretch of sixty operations. -/
theorem main_part11_chain (c : Dev nD) : main_part11 (F := F) c = (Pipeline.chainK [] (StableHlo.seq main_part11_ops0) : Prog (TpuEff nD τ sig (Elt F) (Pipeline.Sig Λ₀ (Fin 0) fun p => (pcfgs (F := F) p).Adm) .tc) PUnit) := by
  chain_rfl

/-- Window 12: one stretch of sixty operations. -/
theorem main_part12_chain (c : Dev nD) : main_part12 (F := F) c = (Pipeline.chainK [] (StableHlo.seq main_part12_ops0) : Prog (TpuEff nD τ sig (Elt F) (Pipeline.Sig Λ₀ (Fin 0) fun p => (pcfgs (F := F) p).Adm) .tc) PUnit) := by
  chain_rfl

/-- Window 13: one stretch of sixty operations. -/
theorem main_part13_chain (c : Dev nD) : main_part13 (F := F) c = (Pipeline.chainK [] (StableHlo.seq main_part13_ops0) : Prog (TpuEff nD τ sig (Elt F) (Pipeline.Sig Λ₀ (Fin 0) fun p => (pcfgs (F := F) p).Adm) .tc) PUnit) := by
  chain_rfl

/-- Window 14: one stretch of sixty operations. -/
theorem main_part14_chain (c : Dev nD) : main_part14 (F := F) c = (Pipeline.chainK [] (StableHlo.seq main_part14_ops0) : Prog (TpuEff nD τ sig (Elt F) (Pipeline.Sig Λ₀ (Fin 0) fun p => (pcfgs (F := F) p).Adm) .tc) PUnit) := by
  chain_rfl

/-- Window 15: one stretch of sixty operations. -/
theorem main_part15_chain (c : Dev nD) : main_part15 (F := F) c = (Pipeline.chainK [] (StableHlo.seq main_part15_ops0) : Prog (TpuEff nD τ sig (Elt F) (Pipeline.Sig Λ₀ (Fin 0) fun p => (pcfgs (F := F) p).Adm) .tc) PUnit) := by
  chain_rfl

/-- Window 16: one stretch of sixty operations. -/
theorem main_part16_chain (c : Dev nD) : main_part16 (F := F) c = (Pipeline.chainK [] (StableHlo.seq main_part16_ops0) : Prog (TpuEff nD τ sig (Elt F) (Pipeline.Sig Λ₀ (Fin 0) fun p => (pcfgs (F := F) p).Adm) .tc) PUnit) := by
  chain_rfl

/-- Window 17: one stretch of sixty operations. -/
theorem main_part17_chain (c : Dev nD) : main_part17 (F := F) c = (Pipeline.chainK [] (StableHlo.seq main_part17_ops0) : Prog (TpuEff nD τ sig (Elt F) (Pipeline.Sig Λ₀ (Fin 0) fun p => (pcfgs (F := F) p).Adm) .tc) PUnit) := by
  chain_rfl

/-- Window 18: one stretch of sixty operations. -/
theorem main_part18_chain (c : Dev nD) : main_part18 (F := F) c = (Pipeline.chainK [] (StableHlo.seq main_part18_ops0) : Prog (TpuEff nD τ sig (Elt F) (Pipeline.Sig Λ₀ (Fin 0) fun p => (pcfgs (F := F) p).Adm) .tc) PUnit) := by
  chain_rfl

/-- Window 19: one stretch of sixty operations. -/
theorem main_part19_chain (c : Dev nD) : main_part19 (F := F) c = (Pipeline.chainK [] (StableHlo.seq main_part19_ops0) : Prog (TpuEff nD τ sig (Elt F) (Pipeline.Sig Λ₀ (Fin 0) fun p => (pcfgs (F := F) p).Adm) .tc) PUnit) := by
  chain_rfl

/-- The last window: one stretch of sixteen operations, then the return. -/
theorem main_part20_chain (c : Dev nD) : main_part20 (F := F) c = (Pipeline.chain [StableHlo.seq main_part20_ops0] : Prog (TpuEff nD τ sig (Elt F) (Pipeline.Sig Λ₀ (Fin 0) fun p => (pcfgs (F := F) p).Adm) .tc) PUnit) := by
  chain_rfl

/-- The program is the sequence of all its stretches: the windows' equations joined at each window boundary. -/
theorem main_chain_windows (c : Dev nD) : main (F := F) c = (Pipeline.chain
  [ StableHlo.seq main_part0_ops0,
    StableHlo.seq main_part0_ops1,
    StableHlo.seq main_part0_ops2,
    StableHlo.seq main_part0_ops3,
    StableHlo.seq main_part0_ops4,
    StableHlo.seq main_part0_ops5,
    StableHlo.seq main_part0_ops6,
    StableHlo.seq main_part0_ops7,
    StableHlo.seq main_part0_ops8,
    StableHlo.seq main_part0_ops9,
    StableHlo.seq main_part0_ops10,
    StableHlo.seq main_part0_ops11,
    StableHlo.seq main_part0_ops12,
    StableHlo.seq main_part0_ops13,
    StableHlo.seq main_part0_ops14,
    StableHlo.seq main_part0_ops15,
    StableHlo.seq main_part0_ops16,
    StableHlo.seq main_part0_ops17,
    StableHlo.seq main_part0_ops18,
    StableHlo.seq main_part0_ops19,
    StableHlo.seq main_part0_ops20,
    StableHlo.seq main_part1_ops0,
    StableHlo.seq main_part2_ops0,
    StableHlo.seq main_part3_ops0,
    StableHlo.seq main_part4_ops0,
    StableHlo.seq main_part5_ops0,
    StableHlo.seq main_part6_ops0,
    StableHlo.seq main_part7_ops0,
    StableHlo.seq main_part8_ops0,
    StableHlo.seq main_part9_ops0,
    StableHlo.seq main_part10_ops0,
    StableHlo.seq main_part11_ops0,
    StableHlo.seq main_part12_ops0,
    StableHlo.seq main_part13_ops0,
    StableHlo.seq main_part14_ops0,
    StableHlo.seq main_part15_ops0,
    StableHlo.seq main_part16_ops0,
    StableHlo.seq main_part17_ops0,
    StableHlo.seq main_part18_ops0,
    StableHlo.seq main_part19_ops0,
    StableHlo.seq main_part20_ops0 ] : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c >>= fun _ => main_part3 (F := F) c >>= fun _ => main_part4 (F := F) c >>= fun _ => main_part5 (F := F) c >>= fun _ => main_part6 (F := F) c >>= fun _ => main_part7 (F := F) c >>= fun _ => main_part8 (F := F) c >>= fun _ => main_part9 (F := F) c >>= fun _ => main_part10 (F := F) c >>= fun _ => main_part11 (F := F) c >>= fun _ => main_part12 (F := F) c >>= fun _ => main_part13 (F := F) c >>= fun _ => main_part14 (F := F) c >>= fun _ => main_part15 (F := F) c >>= fun _ => main_part16 (F := F) c >>= fun _ => main_part17 (F := F) c >>= fun _ => main_part18 (F := F) c >>= fun _ => main_part19 (F := F) c >>= fun _ => main_part20 (F := F) c) = _
  rewrite [main_part20_chain, main_part19_chain, Pipeline.chainK_bind_chain, main_part18_chain, Pipeline.chainK_bind_chain, main_part17_chain, Pipeline.chainK_bind_chain, main_part16_chain, Pipeline.chainK_bind_chain, main_part15_chain, Pipeline.chainK_bind_chain, main_part14_chain, Pipeline.chainK_bind_chain, main_part13_chain, Pipeline.chainK_bind_chain, main_part12_chain, Pipeline.chainK_bind_chain, main_part11_chain, Pipeline.chainK_bind_chain, main_part10_chain, Pipeline.chainK_bind_chain, main_part9_chain, Pipeline.chainK_bind_chain, main_part8_chain, Pipeline.chainK_bind_chain, main_part7_chain, Pipeline.chainK_bind_chain, main_part6_chain, Pipeline.chainK_bind_chain, main_part5_chain, Pipeline.chainK_bind_chain, main_part4_chain, Pipeline.chainK_bind_chain, main_part3_chain, Pipeline.chainK_bind_chain, main_part2_chain, Pipeline.chainK_bind_chain, main_part1_chain, Pipeline.chainK_bind_chain, main_part0_chain, Pipeline.chainK_bind_chain]
  chain_rfl

/-! ## The program as one line of operations -/

/-- The stretches, in program order. -/
abbrev opsL : List (List (HloOp τ sig (Elt F))) :=
  [ main_part0_ops0,
    main_part0_ops1,
    main_part0_ops2,
    main_part0_ops3,
    main_part0_ops4,
    main_part0_ops5,
    main_part0_ops6,
    main_part0_ops7,
    main_part0_ops8,
    main_part0_ops9,
    main_part0_ops10,
    main_part0_ops11,
    main_part0_ops12,
    main_part0_ops13,
    main_part0_ops14,
    main_part0_ops15,
    main_part0_ops16,
    main_part0_ops17,
    main_part0_ops18,
    main_part0_ops19,
    main_part0_ops20,
    main_part1_ops0,
    main_part2_ops0,
    main_part3_ops0,
    main_part4_ops0,
    main_part5_ops0,
    main_part6_ops0,
    main_part7_ops0,
    main_part8_ops0,
    main_part9_ops0,
    main_part10_ops0,
    main_part11_ops0,
    main_part12_ops0,
    main_part13_ops0,
    main_part14_ops0,
    main_part15_ops0,
    main_part16_ops0,
    main_part17_ops0,
    main_part18_ops0,
    main_part19_ops0,
    main_part20_ops0 ]

/-- The program's 1365 operations, in order: the stretches appended, each to all that follow it (so that the
    line's head is its first stretch's head, found without going through the other forty). -/
abbrev ops : List (HloOp τ sig (Elt F)) :=
  main_part0_ops0 ++ (
  main_part0_ops1 ++ (
  main_part0_ops2 ++ (
  main_part0_ops3 ++ (
  main_part0_ops4 ++ (
  main_part0_ops5 ++ (
  main_part0_ops6 ++ (
  main_part0_ops7 ++ (
  main_part0_ops8 ++ (
  main_part0_ops9 ++ (
  main_part0_ops10 ++ (
  main_part0_ops11 ++ (
  main_part0_ops12 ++ (
  main_part0_ops13 ++ (
  main_part0_ops14 ++ (
  main_part0_ops15 ++ (
  main_part0_ops16 ++ (
  main_part0_ops17 ++ (
  main_part0_ops18 ++ (
  main_part0_ops19 ++ (
  main_part0_ops20 ++ (
  main_part1_ops0 ++ (
  main_part2_ops0 ++ (
  main_part3_ops0 ++ (
  main_part4_ops0 ++ (
  main_part5_ops0 ++ (
  main_part6_ops0 ++ (
  main_part7_ops0 ++ (
  main_part8_ops0 ++ (
  main_part9_ops0 ++ (
  main_part10_ops0 ++ (
  main_part11_ops0 ++ (
  main_part12_ops0 ++ (
  main_part13_ops0 ++ (
  main_part14_ops0 ++ (
  main_part15_ops0 ++ (
  main_part16_ops0 ++ (
  main_part17_ops0 ++ (
  main_part18_ops0 ++ (
  main_part19_ops0 ++ (
  main_part20_ops0))))))))))))))))))))))))))))))))))))))))

/-- The line is the concatenation of the stretches. -/
theorem ops_eq_flatten : (ops : List (HloOp τ sig (Elt F))) = opsL.flatten := by
  simp only [ops, opsL, List.flatten_cons, List.flatten_nil, List.append_nil]

/-- The program is its line of operations. -/
theorem main_eq (d : Dev nD) : main (F := F) d = StableHlo.seq (ops (F := F)) := by
  rw [main_chain_windows d, ops_eq_flatten]
  exact chain_map_seq opsL

/-- Each operation of the line touches TensorCore references only. -/
theorem ops_sub : (ops : List (HloOp τ sig (Elt F))).Forall fun op => op.bufs ⊆ StableHlo.tcRefs τ sig := by
  rw [ops_eq_flatten]
  exact forall_flatten opsL
    ⟨main_part0_ops0_sub, main_part0_ops1_sub, main_part0_ops2_sub, main_part0_ops3_sub, main_part0_ops4_sub, main_part0_ops5_sub, main_part0_ops6_sub, main_part0_ops7_sub, main_part0_ops8_sub, main_part0_ops9_sub, main_part0_ops10_sub, main_part0_ops11_sub, main_part0_ops12_sub, main_part0_ops13_sub, main_part0_ops14_sub, main_part0_ops15_sub, main_part0_ops16_sub, main_part0_ops17_sub, main_part0_ops18_sub, main_part0_ops19_sub, main_part0_ops20_sub, main_part1_ops0_sub, main_part2_ops0_sub, main_part3_ops0_sub, main_part4_ops0_sub, main_part5_ops0_sub, main_part6_ops0_sub, main_part7_ops0_sub, main_part8_ops0_sub, main_part9_ops0_sub, main_part10_ops0_sub, main_part11_ops0_sub, main_part12_ops0_sub, main_part13_ops0_sub, main_part14_ops0_sub, main_part15_ops0_sub, main_part16_ops0_sub, main_part17_ops0_sub, main_part18_ops0_sub, main_part19_ops0_sub, main_part20_ops0_sub⟩

/-! ## No operation leaves a buffer undetermined, none writes an argument

Each operation writes exactly its result buffer, at a value it determines; the result is never one of
the two arguments (the references are told apart by computation). -/

/-- An operation that determines what it writes and writes neither argument of the program. -/
structure Ok (op : HloOp τ sig (Elt F)) : Prop where
  fresh : op.fresh = ∅
  keep0 : (Proc.devRef .tc main_arg0 : DevRef τ sig) ∉ op.writes
  keep1 : (Proc.devRef .tc main_arg1 : DevRef τ sig) ∉ op.writes

/-- An operation that leaves nothing undetermined and writes the one buffer `y`, no argument, is such. -/
theorem Ok.of_writes {op : HloOp τ sig (Elt F)} {y : Ref sig .tc} (hf : op.fresh = ∅)
    (hw : op.writes = {(Proc.devRef .tc y : DevRef τ sig)}) (h0 : main_arg0 ≠ y) (h1 : main_arg1 ≠ y) : Ok op :=
  ⟨hf, by rw [hw, Finset.mem_singleton]; exact StableHlo.devRef_ne_of_ne h0,
       by rw [hw, Finset.mem_singleton]; exact StableHlo.devRef_ne_of_ne h1⟩

/-- The fact at one literal operation: its undetermined set and its written set by unfolding, the result
    told apart from each argument by computation. -/
local macro "ok" : term => `(Ok.of_writes rfl rfl (by decide) (by decide))
/-- The fact along a literal list, element by element. -/
local macro "forall_ok" : tactic => `(tactic| repeat (first | refine ⟨ok, ?_⟩ | exact ok))

theorem main_part0_ops0_ok : (main_part0_ops0 : List (HloOp τ sig (Elt F))).Forall Ok := by forall_ok
theorem main_part0_ops1_ok : (main_part0_ops1 : List (HloOp τ sig (Elt F))).Forall Ok := by forall_ok
theorem main_part0_ops2_ok : (main_part0_ops2 : List (HloOp τ sig (Elt F))).Forall Ok := by forall_ok
theorem main_part0_ops3_ok : (main_part0_ops3 : List (HloOp τ sig (Elt F))).Forall Ok := by forall_ok
theorem main_part0_ops4_ok : (main_part0_ops4 : List (HloOp τ sig (Elt F))).Forall Ok := by forall_ok
theorem main_part0_ops5_ok : (main_part0_ops5 : List (HloOp τ sig (Elt F))).Forall Ok := by forall_ok
theorem main_part0_ops6_ok : (main_part0_ops6 : List (HloOp τ sig (Elt F))).Forall Ok := by forall_ok
theorem main_part0_ops7_ok : (main_part0_ops7 : List (HloOp τ sig (Elt F))).Forall Ok := by forall_ok
theorem main_part0_ops8_ok : (main_part0_ops8 : List (HloOp τ sig (Elt F))).Forall Ok := by forall_ok
theorem main_part0_ops9_ok : (main_part0_ops9 : List (HloOp τ sig (Elt F))).Forall Ok := by forall_ok
theorem main_part0_ops10_ok : (main_part0_ops10 : List (HloOp τ sig (Elt F))).Forall Ok := by forall_ok
theorem main_part0_ops11_ok : (main_part0_ops11 : List (HloOp τ sig (Elt F))).Forall Ok := by forall_ok
theorem main_part0_ops12_ok : (main_part0_ops12 : List (HloOp τ sig (Elt F))).Forall Ok := by forall_ok
theorem main_part0_ops13_ok : (main_part0_ops13 : List (HloOp τ sig (Elt F))).Forall Ok := by forall_ok
theorem main_part0_ops14_ok : (main_part0_ops14 : List (HloOp τ sig (Elt F))).Forall Ok := by forall_ok
theorem main_part0_ops15_ok : (main_part0_ops15 : List (HloOp τ sig (Elt F))).Forall Ok := by forall_ok
theorem main_part0_ops16_ok : (main_part0_ops16 : List (HloOp τ sig (Elt F))).Forall Ok := by forall_ok
theorem main_part0_ops17_ok : (main_part0_ops17 : List (HloOp τ sig (Elt F))).Forall Ok := by forall_ok
theorem main_part0_ops18_ok : (main_part0_ops18 : List (HloOp τ sig (Elt F))).Forall Ok := by forall_ok
theorem main_part0_ops19_ok : (main_part0_ops19 : List (HloOp τ sig (Elt F))).Forall Ok := by forall_ok
theorem main_part0_ops20_ok : (main_part0_ops20 : List (HloOp τ sig (Elt F))).Forall Ok := by forall_ok
theorem main_part1_ops0_ok : (main_part1_ops0 : List (HloOp τ sig (Elt F))).Forall Ok := by forall_ok
theorem main_part2_ops0_ok : (main_part2_ops0 : List (HloOp τ sig (Elt F))).Forall Ok := by forall_ok
theorem main_part3_ops0_ok : (main_part3_ops0 : List (HloOp τ sig (Elt F))).Forall Ok := by forall_ok
theorem main_part4_ops0_ok : (main_part4_ops0 : List (HloOp τ sig (Elt F))).Forall Ok := by forall_ok
theorem main_part5_ops0_ok : (main_part5_ops0 : List (HloOp τ sig (Elt F))).Forall Ok := by forall_ok
theorem main_part6_ops0_ok : (main_part6_ops0 : List (HloOp τ sig (Elt F))).Forall Ok := by forall_ok
theorem main_part7_ops0_ok : (main_part7_ops0 : List (HloOp τ sig (Elt F))).Forall Ok := by forall_ok
theorem main_part8_ops0_ok : (main_part8_ops0 : List (HloOp τ sig (Elt F))).Forall Ok := by forall_ok
theorem main_part9_ops0_ok : (main_part9_ops0 : List (HloOp τ sig (Elt F))).Forall Ok := by forall_ok
theorem main_part10_ops0_ok : (main_part10_ops0 : List (HloOp τ sig (Elt F))).Forall Ok := by forall_ok
theorem main_part11_ops0_ok : (main_part11_ops0 : List (HloOp τ sig (Elt F))).Forall Ok := by forall_ok
theorem main_part12_ops0_ok : (main_part12_ops0 : List (HloOp τ sig (Elt F))).Forall Ok := by forall_ok
theorem main_part13_ops0_ok : (main_part13_ops0 : List (HloOp τ sig (Elt F))).Forall Ok := by forall_ok
theorem main_part14_ops0_ok : (main_part14_ops0 : List (HloOp τ sig (Elt F))).Forall Ok := by forall_ok
theorem main_part15_ops0_ok : (main_part15_ops0 : List (HloOp τ sig (Elt F))).Forall Ok := by forall_ok
theorem main_part16_ops0_ok : (main_part16_ops0 : List (HloOp τ sig (Elt F))).Forall Ok := by forall_ok
theorem main_part17_ops0_ok : (main_part17_ops0 : List (HloOp τ sig (Elt F))).Forall Ok := by forall_ok
theorem main_part18_ops0_ok : (main_part18_ops0 : List (HloOp τ sig (Elt F))).Forall Ok := by forall_ok
theorem main_part19_ops0_ok : (main_part19_ops0 : List (HloOp τ sig (Elt F))).Forall Ok := by forall_ok
theorem main_part20_ops0_ok : (main_part20_ops0 : List (HloOp τ sig (Elt F))).Forall Ok := by forall_ok

/-- Every operation of the line determines what it writes and writes neither argument. -/
theorem ops_ok : (ops : List (HloOp τ sig (Elt F))).Forall Ok := by
  rw [ops_eq_flatten]
  exact forall_flatten opsL
    ⟨main_part0_ops0_ok, main_part0_ops1_ok, main_part0_ops2_ok, main_part0_ops3_ok, main_part0_ops4_ok, main_part0_ops5_ok, main_part0_ops6_ok, main_part0_ops7_ok, main_part0_ops8_ok, main_part0_ops9_ok, main_part0_ops10_ok, main_part0_ops11_ok, main_part0_ops12_ok, main_part0_ops13_ok, main_part0_ops14_ok, main_part0_ops15_ok, main_part0_ops16_ok, main_part0_ops17_ok, main_part0_ops18_ok, main_part0_ops19_ok, main_part0_ops20_ok, main_part1_ops0_ok, main_part2_ops0_ok, main_part3_ops0_ok, main_part4_ops0_ok, main_part5_ops0_ok, main_part6_ops0_ok, main_part7_ops0_ok, main_part8_ops0_ok, main_part9_ops0_ok, main_part10_ops0_ok, main_part11_ops0_ok, main_part12_ops0_ok, main_part13_ops0_ok, main_part14_ops0_ok, main_part15_ops0_ok, main_part16_ops0_ok, main_part17_ops0_ok, main_part18_ops0_ok, main_part19_ops0_ok, main_part20_ops0_ok⟩

/-- No operation of the line leaves a buffer undetermined. -/
theorem ops_fresh : ∀ op ∈ (ops : List (HloOp τ sig (Elt F))), op.fresh = ∅ :=
  fun op hop => (List.forall_iff_forall_mem.mp (ops_ok (F := F)) op hop).fresh

/-- The first argument holds after the line what it held before. -/
theorem arg0_kept (V : Valuation τ sig (Elt F)) :
    StableHlo.after (ops (F := F)) V (Proc.devRef .tc main_arg0) = V (Proc.devRef .tc main_arg0) :=
  StableHlo.after_of_forall_not_mem (ops (F := F)) V fun op hop => (List.forall_iff_forall_mem.mp (ops_ok (F := F)) op hop).keep0

/-- The second argument holds after the line what it held before. -/
theorem arg1_kept (V : Valuation τ sig (Elt F)) :
    StableHlo.after (ops (F := F)) V (Proc.devRef .tc main_arg1) = V (Proc.devRef .tc main_arg1) :=
  StableHlo.after_of_forall_not_mem (ops (F := F)) V fun op hop => (List.forall_iff_forall_mem.mp (ops_ok (F := F)) op hop).keep1

/-! ## The run -/

/-- The signature scopes no buffer of the TensorCore. -/
theorem scopedRefs_eq : (Finset.univ.filter fun b : Ref sig .tc => b.isScoped) = ∅ := by decide
/-- The signature scopes no semaphore of the TensorCore. -/
theorem scopedSems_eq : (Finset.univ.filter fun sm : SemLoc sig => sm.isScoped .tc) = ∅ := by decide

/-- On every device, for any float values, from any memory with zero counters: every weakly fair execution of
    the reference terminates, and ends with each TensorCore buffer at the fold of the operations' results
    over its launch contents. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc),
        r.2.mem ((d.tc : Thread nD τ).loc b) = StableHlo.after (ops (F := F)) (StableHlo.launchContents m d) (Proc.devRef .tc b) :=
  StableHlo.run_seq scopedRefs_eq scopedSems_eq (defs (F := F)) (main (F := F)) (fun _ => ops (F := F)) (main_eq (F := F))
    (fun _ => ops_sub (F := F)) m ρ (hfresh := fun _ => ops_fresh (F := F))

/-- The reference runs and its two arguments end unchanged. -/
theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := F)) _ _).mono
    (fun _ h c => ⟨(h c main_arg0).trans (arg0_kept (F := F) _), (h c main_arg1).trans (arg1_kept (F := F) _)⟩) (run (F := F) m ρ)

end Cert.ReferenceIdeal.RunH

end
-- ==== Proof.LibAfter.lean ====
/-
  Reading a buffer after a line of host operations, line by line.

  A buffer that none of a line's operations writes holds after the line what it held before. When the references a line
  writes are listed, a reference outside the list is read past the whole line in one step; a run of several lines is read
  line by line from the last.
-/
import Idealize.ShloMosaic.Lib.StableHlo.Run

noncomputable section

namespace Cert.LibAfter

open Idealize.ShloMosaic Idealize.ShloMosaic.StableHlo

variable {τ : Topo} {sig : RefSig} {Val : EltTy → Type}

/-- Two lines one after the other: the second from what the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- An operation that writes one listed reference writes inside the list. -/
theorem single_sub {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map.mpr ⟨y, h, rfl⟩))

/-- A reference outside the list of a line's written references is read past the line. -/
theorem after_skip {W : List (Ref sig .tc)} (ops : List (HloOp τ sig Val))
    (hW : ops.Forall fun op => op.writes ⊆ (W.map (Proc.devRef (τ := τ) .tc)).toFinset)
    (V : Valuation τ sig Val) (r : Ref sig .tc) (hr : r ∉ W) :
    after ops V (Proc.devRef .tc r) = V (Proc.devRef .tc r) :=
  after_of_writes_sub ops V hW hr

end Cert.LibAfter

end
-- ==== Proof.KWalk.lean ====
import proofs.«409975_j2585570312579_2_alg».proof.Proof.Gen.KernelIdeal.Launch
import proofs.«409975_j2585570312579_2_alg».proof.Proof.LibAfter
import Idealize.ShloMosaic.Lib.Pipeline.Regions

set_option maxRecDepth 16384

noncomputable section

namespace Cert.KernelIdeal.Walk

open Idealize.ShloMosaic Idealize.ShloMosaic.StableHlo Cert.KernelIdeal Cert.KernelIdeal.Gen

variable {F : FTy → Type} [FloatOps F]

/-- The references line 0 (main_part0_ops0) writes, in order. -/
abbrev Wl0 : List (Ref sig .tc) := [main_v0, main_v1, main_v2, main_v3, main_c]
theorem hW0 : (main_part0_ops0 : List (HloOp τ sig (Elt F))).Forall fun op => op.writes ⊆ (Wl0.map (Proc.devRef (τ := τ) .tc)).toFinset :=
  ⟨LibAfter.single_sub (y := main_v0) (by decide), LibAfter.single_sub (y := main_v1) (by decide), LibAfter.single_sub (y := main_v2) (by decide), LibAfter.single_sub (y := main_v3) (by decide), LibAfter.single_sub (y := main_c) (by decide)⟩

/-- The references line 1 (main_part0_ops1) writes, in order. -/
abbrev Wl1 : List (Ref sig .tc) := [main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v4]
theorem hW1 : (main_part0_ops1 : List (HloOp τ sig (Elt F))).Forall fun op => op.writes ⊆ (Wl1.map (Proc.devRef (τ := τ) .tc)).toFinset :=
  ⟨LibAfter.single_sub (y := main_call0_v0) (by decide), LibAfter.single_sub (y := main_call0_v1) (by decide), LibAfter.single_sub (y := main_call0_v2) (by decide), LibAfter.single_sub (y := main_call0_v3) (by decide), LibAfter.single_sub (y := main_call0_v4) (by decide), LibAfter.single_sub (y := main_call0_v5) (by decide), LibAfter.single_sub (y := main_call0_v6) (by decide), LibAfter.single_sub (y := main_call0_v7) (by decide), LibAfter.single_sub (y := main_call0_v8) (by decide), LibAfter.single_sub (y := main_call0_c) (by decide), LibAfter.single_sub (y := main_call0_v9) (by decide), LibAfter.single_sub (y := main_call0_v10) (by decide), LibAfter.single_sub (y := main_call0_v11) (by decide), LibAfter.single_sub (y := main_call0_c_0) (by decide), LibAfter.single_sub (y := main_call0_v12) (by decide), LibAfter.single_sub (y := main_call0_v13) (by decide), LibAfter.single_sub (y := main_v4) (by decide)⟩

/-- The references line 2 (main_part0_ops2) writes, in order. -/
abbrev Wl2 : List (Ref sig .tc) := [main_v5, main_c_0]
theorem hW2 : (main_part0_ops2 : List (HloOp τ sig (Elt F))).Forall fun op => op.writes ⊆ (Wl2.map (Proc.devRef (τ := τ) .tc)).toFinset :=
  ⟨LibAfter.single_sub (y := main_v5) (by decide), LibAfter.single_sub (y := main_c_0) (by decide)⟩

/-- The references line 3 (main_part0_ops3) writes, in order. -/
abbrev Wl3 : List (Ref sig .tc) := [main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v6]
theorem hW3 : (main_part0_ops3 : List (HloOp τ sig (Elt F))).Forall fun op => op.writes ⊆ (Wl3.map (Proc.devRef (τ := τ) .tc)).toFinset :=
  ⟨LibAfter.single_sub (y := main_call1_v0) (by decide), LibAfter.single_sub (y := main_call1_v1) (by decide), LibAfter.single_sub (y := main_call1_v2) (by decide), LibAfter.single_sub (y := main_call1_v3) (by decide), LibAfter.single_sub (y := main_call1_v4) (by decide), LibAfter.single_sub (y := main_call1_v5) (by decide), LibAfter.single_sub (y := main_call1_v6) (by decide), LibAfter.single_sub (y := main_call1_v7) (by decide), LibAfter.single_sub (y := main_call1_v8) (by decide), LibAfter.single_sub (y := main_call1_c) (by decide), LibAfter.single_sub (y := main_call1_v9) (by decide), LibAfter.single_sub (y := main_call1_v10) (by decide), LibAfter.single_sub (y := main_call1_v11) (by decide), LibAfter.single_sub (y := main_call1_c_0) (by decide), LibAfter.single_sub (y := main_call1_v12) (by decide), LibAfter.single_sub (y := main_call1_v13) (by decide), LibAfter.single_sub (y := main_v6) (by decide)⟩

/-- The references line 4 (main_part0_ops4) writes, in order. -/
abbrev Wl4 : List (Ref sig .tc) := [main_v7, main_c_1]
theorem hW4 : (main_part0_ops4 : List (HloOp τ sig (Elt F))).Forall fun op => op.writes ⊆ (Wl4.map (Proc.devRef (τ := τ) .tc)).toFinset :=
  ⟨LibAfter.single_sub (y := main_v7) (by decide), LibAfter.single_sub (y := main_c_1) (by decide)⟩

/-- The references line 5 (main_part0_ops5) writes, in order. -/
abbrev Wl5 : List (Ref sig .tc) := [main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v8]
theorem hW5 : (main_part0_ops5 : List (HloOp τ sig (Elt F))).Forall fun op => op.writes ⊆ (Wl5.map (Proc.devRef (τ := τ) .tc)).toFinset :=
  ⟨LibAfter.single_sub (y := main_call2_v0) (by decide), LibAfter.single_sub (y := main_call2_v1) (by decide), LibAfter.single_sub (y := main_call2_v2) (by decide), LibAfter.single_sub (y := main_call2_v3) (by decide), LibAfter.single_sub (y := main_call2_v4) (by decide), LibAfter.single_sub (y := main_call2_v5) (by decide), LibAfter.single_sub (y := main_call2_v6) (by decide), LibAfter.single_sub (y := main_call2_v7) (by decide), LibAfter.single_sub (y := main_call2_v8) (by decide), LibAfter.single_sub (y := main_call2_c) (by decide), LibAfter.single_sub (y := main_call2_v9) (by decide), LibAfter.single_sub (y := main_call2_v10) (by decide), LibAfter.single_sub (y := main_call2_v11) (by decide), LibAfter.single_sub (y := main_call2_c_0) (by decide), LibAfter.single_sub (y := main_call2_v12) (by decide), LibAfter.single_sub (y := main_call2_v13) (by decide), LibAfter.single_sub (y := main_v8) (by decide)⟩

/-- The references line 6 (main_part0_ops6) writes, in order. -/
abbrev Wl6 : List (Ref sig .tc) := [main_v9, main_c_2]
theorem hW6 : (main_part0_ops6 : List (HloOp τ sig (Elt F))).Forall fun op => op.writes ⊆ (Wl6.map (Proc.devRef (τ := τ) .tc)).toFinset :=
  ⟨LibAfter.single_sub (y := main_v9) (by decide), LibAfter.single_sub (y := main_c_2) (by decide)⟩

/-- The references line 7 (main_part0_ops7) writes, in order. -/
abbrev Wl7 : List (Ref sig .tc) := [main_call3_v0, main_call3_v1, main_call3_v2, main_call3_v3, main_call3_v4, main_call3_v5, main_call3_v6, main_call3_v7, main_call3_v8, main_call3_c, main_call3_v9, main_call3_v10, main_call3_v11, main_call3_c_0, main_call3_v12, main_call3_v13, main_v10]
theorem hW7 : (main_part0_ops7 : List (HloOp τ sig (Elt F))).Forall fun op => op.writes ⊆ (Wl7.map (Proc.devRef (τ := τ) .tc)).toFinset :=
  ⟨LibAfter.single_sub (y := main_call3_v0) (by decide), LibAfter.single_sub (y := main_call3_v1) (by decide), LibAfter.single_sub (y := main_call3_v2) (by decide), LibAfter.single_sub (y := main_call3_v3) (by decide), LibAfter.single_sub (y := main_call3_v4) (by decide), LibAfter.single_sub (y := main_call3_v5) (by decide), LibAfter.single_sub (y := main_call3_v6) (by decide), LibAfter.single_sub (y := main_call3_v7) (by decide), LibAfter.single_sub (y := main_call3_v8) (by decide), LibAfter.single_sub (y := main_call3_c) (by decide), LibAfter.single_sub (y := main_call3_v9) (by decide), LibAfter.single_sub (y := main_call3_v10) (by decide), LibAfter.single_sub (y := main_call3_v11) (by decide), LibAfter.single_sub (y := main_call3_c_0) (by decide), LibAfter.single_sub (y := main_call3_v12) (by decide), LibAfter.single_sub (y := main_call3_v13) (by decide), LibAfter.single_sub (y := main_v10) (by decide)⟩

/-- The references line 8 (main_part0_ops8) writes, in order. -/
abbrev Wl8 : List (Ref sig .tc) := [main_v11, main_c_3]
theorem hW8 : (main_part0_ops8 : List (HloOp τ sig (Elt F))).Forall fun op => op.writes ⊆ (Wl8.map (Proc.devRef (τ := τ) .tc)).toFinset :=
  ⟨LibAfter.single_sub (y := main_v11) (by decide), LibAfter.single_sub (y := main_c_3) (by decide)⟩

/-- The references line 9 (main_part0_ops9) writes, in order. -/
abbrev Wl9 : List (Ref sig .tc) := [main_call4_v0, main_call4_c, main_call4_v1, main_call4_c_0, main_call4_v2, main_call4_v3, main_call4_v4, main_call4_c_1, main_call4_v5, main_call4_v6, main_call4_c_2, main_call4_v7, main_call4_v8, main_call4_c_3, main_call4_v9, main_call4_v10, main_call4_v11, main_call4_v12, main_call4_v13, main_call4_v14, main_v12]
theorem hW9 : (main_part0_ops9 : List (HloOp τ sig (Elt F))).Forall fun op => op.writes ⊆ (Wl9.map (Proc.devRef (τ := τ) .tc)).toFinset :=
  ⟨LibAfter.single_sub (y := main_call4_v0) (by decide), LibAfter.single_sub (y := main_call4_c) (by decide), LibAfter.single_sub (y := main_call4_v1) (by decide), LibAfter.single_sub (y := main_call4_c_0) (by decide), LibAfter.single_sub (y := main_call4_v2) (by decide), LibAfter.single_sub (y := main_call4_v3) (by decide), LibAfter.single_sub (y := main_call4_v4) (by decide), LibAfter.single_sub (y := main_call4_c_1) (by decide), LibAfter.single_sub (y := main_call4_v5) (by decide), LibAfter.single_sub (y := main_call4_v6) (by decide), LibAfter.single_sub (y := main_call4_c_2) (by decide), LibAfter.single_sub (y := main_call4_v7) (by decide), LibAfter.single_sub (y := main_call4_v8) (by decide), LibAfter.single_sub (y := main_call4_c_3) (by decide), LibAfter.single_sub (y := main_call4_v9) (by decide), LibAfter.single_sub (y := main_call4_v10) (by decide), LibAfter.single_sub (y := main_call4_v11) (by decide), LibAfter.single_sub (y := main_call4_v12) (by decide), LibAfter.single_sub (y := main_call4_v13) (by decide), LibAfter.single_sub (y := main_call4_v14) (by decide), LibAfter.single_sub (y := main_v12) (by decide)⟩

/-- The references line 10 (main_part0_ops10) writes, in order. -/
abbrev Wl10 : List (Ref sig .tc) := [main_v13, main_v14, main_c_4]
theorem hW10 : (main_part0_ops10 : List (HloOp τ sig (Elt F))).Forall fun op => op.writes ⊆ (Wl10.map (Proc.devRef (τ := τ) .tc)).toFinset :=
  ⟨LibAfter.single_sub (y := main_v13) (by decide), LibAfter.single_sub (y := main_v14) (by decide), LibAfter.single_sub (y := main_c_4) (by decide)⟩

/-- The references line 11 (main_part0_ops11) writes, in order. -/
abbrev Wl11 : List (Ref sig .tc) := [main_call5_v0, main_call5_c, main_call5_v1, main_call5_c_0, main_call5_v2, main_call5_v3, main_call5_v4, main_call5_c_1, main_call5_v5, main_call5_v6, main_call5_c_2, main_call5_v7, main_call5_v8, main_call5_c_3, main_call5_v9, main_call5_v10, main_call5_v11, main_call5_v12, main_call5_v13, main_call5_v14, main_v15]
theorem hW11 : (main_part0_ops11 : List (HloOp τ sig (Elt F))).Forall fun op => op.writes ⊆ (Wl11.map (Proc.devRef (τ := τ) .tc)).toFinset :=
  ⟨LibAfter.single_sub (y := main_call5_v0) (by decide), LibAfter.single_sub (y := main_call5_c) (by decide), LibAfter.single_sub (y := main_call5_v1) (by decide), LibAfter.single_sub (y := main_call5_c_0) (by decide), LibAfter.single_sub (y := main_call5_v2) (by decide), LibAfter.single_sub (y := main_call5_v3) (by decide), LibAfter.single_sub (y := main_call5_v4) (by decide), LibAfter.single_sub (y := main_call5_c_1) (by decide), LibAfter.single_sub (y := main_call5_v5) (by decide), LibAfter.single_sub (y := main_call5_v6) (by decide), LibAfter.single_sub (y := main_call5_c_2) (by decide), LibAfter.single_sub (y := main_call5_v7) (by decide), LibAfter.single_sub (y := main_call5_v8) (by decide), LibAfter.single_sub (y := main_call5_c_3) (by decide), LibAfter.single_sub (y := main_call5_v9) (by decide), LibAfter.single_sub (y := main_call5_v10) (by decide), LibAfter.single_sub (y := main_call5_v11) (by decide), LibAfter.single_sub (y := main_call5_v12) (by decide), LibAfter.single_sub (y := main_call5_v13) (by decide), LibAfter.single_sub (y := main_call5_v14) (by decide), LibAfter.single_sub (y := main_v15) (by decide)⟩

/-- The references line 12 (main_part0_ops12) writes, in order. -/
abbrev Wl12 : List (Ref sig .tc) := [main_v16, main_v17, main_c_5]
theorem hW12 : (main_part0_ops12 : List (HloOp τ sig (Elt F))).Forall fun op => op.writes ⊆ (Wl12.map (Proc.devRef (τ := τ) .tc)).toFinset :=
  ⟨LibAfter.single_sub (y := main_v16) (by decide), LibAfter.single_sub (y := main_v17) (by decide), LibAfter.single_sub (y := main_c_5) (by decide)⟩

/-- The references line 13 (main_part0_ops13) writes, in order. -/
abbrev Wl13 : List (Ref sig .tc) := [main_call6_v0, main_call6_c, main_call6_v1, main_call6_c_0, main_call6_v2, main_call6_v3, main_call6_v4, main_call6_c_1, main_call6_v5, main_call6_v6, main_call6_c_2, main_call6_v7, main_call6_v8, main_call6_c_3, main_call6_v9, main_call6_v10, main_call6_v11, main_call6_v12, main_call6_v13, main_call6_v14, main_v18]
theorem hW13 : (main_part0_ops13 : List (HloOp τ sig (Elt F))).Forall fun op => op.writes ⊆ (Wl13.map (Proc.devRef (τ := τ) .tc)).toFinset :=
  ⟨LibAfter.single_sub (y := main_call6_v0) (by decide), LibAfter.single_sub (y := main_call6_c) (by decide), LibAfter.single_sub (y := main_call6_v1) (by decide), LibAfter.single_sub (y := main_call6_c_0) (by decide), LibAfter.single_sub (y := main_call6_v2) (by decide), LibAfter.single_sub (y := main_call6_v3) (by decide), LibAfter.single_sub (y := main_call6_v4) (by decide), LibAfter.single_sub (y := main_call6_c_1) (by decide), LibAfter.single_sub (y := main_call6_v5) (by decide), LibAfter.single_sub (y := main_call6_v6) (by decide), LibAfter.single_sub (y := main_call6_c_2) (by decide), LibAfter.single_sub (y := main_call6_v7) (by decide), LibAfter.single_sub (y := main_call6_v8) (by decide), LibAfter.single_sub (y := main_call6_c_3) (by decide), LibAfter.single_sub (y := main_call6_v9) (by decide), LibAfter.single_sub (y := main_call6_v10) (by decide), LibAfter.single_sub (y := main_call6_v11) (by decide), LibAfter.single_sub (y := main_call6_v12) (by decide), LibAfter.single_sub (y := main_call6_v13) (by decide), LibAfter.single_sub (y := main_call6_v14) (by decide), LibAfter.single_sub (y := main_v18) (by decide)⟩

/-- The references line 14 (main_part0_ops14) writes, in order. -/
abbrev Wl14 : List (Ref sig .tc) := [main_v19, main_v20, main_c_6]
theorem hW14 : (main_part0_ops14 : List (HloOp τ sig (Elt F))).Forall fun op => op.writes ⊆ (Wl14.map (Proc.devRef (τ := τ) .tc)).toFinset :=
  ⟨LibAfter.single_sub (y := main_v19) (by decide), LibAfter.single_sub (y := main_v20) (by decide), LibAfter.single_sub (y := main_c_6) (by decide)⟩

/-- The references line 15 (main_part0_ops15) writes, in order. -/
abbrev Wl15 : List (Ref sig .tc) := [main_call7_v0, main_call7_c, main_call7_v1, main_call7_c_0, main_call7_v2, main_call7_v3, main_call7_v4, main_call7_c_1, main_call7_v5, main_call7_v6, main_call7_c_2, main_call7_v7, main_call7_v8, main_call7_c_3, main_call7_v9, main_call7_v10, main_call7_v11, main_call7_v12, main_call7_v13, main_call7_v14, main_v21]
theorem hW15 : (main_part0_ops15 : List (HloOp τ sig (Elt F))).Forall fun op => op.writes ⊆ (Wl15.map (Proc.devRef (τ := τ) .tc)).toFinset :=
  ⟨LibAfter.single_sub (y := main_call7_v0) (by decide), LibAfter.single_sub (y := main_call7_c) (by decide), LibAfter.single_sub (y := main_call7_v1) (by decide), LibAfter.single_sub (y := main_call7_c_0) (by decide), LibAfter.single_sub (y := main_call7_v2) (by decide), LibAfter.single_sub (y := main_call7_v3) (by decide), LibAfter.single_sub (y := main_call7_v4) (by decide), LibAfter.single_sub (y := main_call7_c_1) (by decide), LibAfter.single_sub (y := main_call7_v5) (by decide), LibAfter.single_sub (y := main_call7_v6) (by decide), LibAfter.single_sub (y := main_call7_c_2) (by decide), LibAfter.single_sub (y := main_call7_v7) (by decide), LibAfter.single_sub (y := main_call7_v8) (by decide), LibAfter.single_sub (y := main_call7_c_3) (by decide), LibAfter.single_sub (y := main_call7_v9) (by decide), LibAfter.single_sub (y := main_call7_v10) (by decide), LibAfter.single_sub (y := main_call7_v11) (by decide), LibAfter.single_sub (y := main_call7_v12) (by decide), LibAfter.single_sub (y := main_call7_v13) (by decide), LibAfter.single_sub (y := main_call7_v14) (by decide), LibAfter.single_sub (y := main_v21) (by decide)⟩

/-- The references line 16 (main_part0_ops16) writes, in order. -/
abbrev Wl16 : List (Ref sig .tc) := [main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51]
theorem hW16 : (main_part0_ops16 : List (HloOp τ sig (Elt F))).Forall fun op => op.writes ⊆ (Wl16.map (Proc.devRef (τ := τ) .tc)).toFinset :=
  ⟨LibAfter.single_sub (y := main_v22) (by decide), LibAfter.single_sub (y := main_v23) (by decide), LibAfter.single_sub (y := main_v24) (by decide), LibAfter.single_sub (y := main_v25) (by decide), LibAfter.single_sub (y := main_v26) (by decide), LibAfter.single_sub (y := main_v27) (by decide), LibAfter.single_sub (y := main_v28) (by decide), LibAfter.single_sub (y := main_v29) (by decide), LibAfter.single_sub (y := main_v30) (by decide), LibAfter.single_sub (y := main_v31) (by decide), LibAfter.single_sub (y := main_v32) (by decide), LibAfter.single_sub (y := main_v33) (by decide), LibAfter.single_sub (y := main_v34) (by decide), LibAfter.single_sub (y := main_v35) (by decide), LibAfter.single_sub (y := main_v36) (by decide), LibAfter.single_sub (y := main_v37) (by decide), LibAfter.single_sub (y := main_v38) (by decide), LibAfter.single_sub (y := main_v39) (by decide), LibAfter.single_sub (y := main_v40) (by decide), LibAfter.single_sub (y := main_v41) (by decide), LibAfter.single_sub (y := main_v42) (by decide), LibAfter.single_sub (y := main_v43) (by decide), LibAfter.single_sub (y := main_v44) (by decide), LibAfter.single_sub (y := main_v45) (by decide), LibAfter.single_sub (y := main_v46) (by decide), LibAfter.single_sub (y := main_v47) (by decide), LibAfter.single_sub (y := main_v48) (by decide), LibAfter.single_sub (y := main_v49) (by decide), LibAfter.single_sub (y := main_v50) (by decide), LibAfter.single_sub (y := main_v51) (by decide)⟩

/-- The references line 17 (main_part1_ops0) writes, in order. -/
abbrev Wl17 : List (Ref sig .tc) := [main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111]
theorem hW17 : (main_part1_ops0 : List (HloOp τ sig (Elt F))).Forall fun op => op.writes ⊆ (Wl17.map (Proc.devRef (τ := τ) .tc)).toFinset :=
  ⟨LibAfter.single_sub (y := main_v52) (by decide), LibAfter.single_sub (y := main_v53) (by decide), LibAfter.single_sub (y := main_v54) (by decide), LibAfter.single_sub (y := main_v55) (by decide), LibAfter.single_sub (y := main_v56) (by decide), LibAfter.single_sub (y := main_v57) (by decide), LibAfter.single_sub (y := main_v58) (by decide), LibAfter.single_sub (y := main_v59) (by decide), LibAfter.single_sub (y := main_v60) (by decide), LibAfter.single_sub (y := main_v61) (by decide), LibAfter.single_sub (y := main_v62) (by decide), LibAfter.single_sub (y := main_v63) (by decide), LibAfter.single_sub (y := main_v64) (by decide), LibAfter.single_sub (y := main_v65) (by decide), LibAfter.single_sub (y := main_v66) (by decide), LibAfter.single_sub (y := main_v67) (by decide), LibAfter.single_sub (y := main_v68) (by decide), LibAfter.single_sub (y := main_v69) (by decide), LibAfter.single_sub (y := main_v70) (by decide), LibAfter.single_sub (y := main_v71) (by decide), LibAfter.single_sub (y := main_v72) (by decide), LibAfter.single_sub (y := main_v73) (by decide), LibAfter.single_sub (y := main_v74) (by decide), LibAfter.single_sub (y := main_v75) (by decide), LibAfter.single_sub (y := main_v76) (by decide), LibAfter.single_sub (y := main_v77) (by decide), LibAfter.single_sub (y := main_v78) (by decide), LibAfter.single_sub (y := main_v79) (by decide), LibAfter.single_sub (y := main_v80) (by decide), LibAfter.single_sub (y := main_v81) (by decide), LibAfter.single_sub (y := main_v82) (by decide), LibAfter.single_sub (y := main_v83) (by decide), LibAfter.single_sub (y := main_v84) (by decide), LibAfter.single_sub (y := main_v85) (by decide), LibAfter.single_sub (y := main_v86) (by decide), LibAfter.single_sub (y := main_v87) (by decide), LibAfter.single_sub (y := main_v88) (by decide), LibAfter.single_sub (y := main_v89) (by decide), LibAfter.single_sub (y := main_v90) (by decide), LibAfter.single_sub (y := main_v91) (by decide), LibAfter.single_sub (y := main_v92) (by decide), LibAfter.single_sub (y := main_v93) (by decide), LibAfter.single_sub (y := main_v94) (by decide), LibAfter.single_sub (y := main_v95) (by decide), LibAfter.single_sub (y := main_v96) (by decide), LibAfter.single_sub (y := main_v97) (by decide), LibAfter.single_sub (y := main_v98) (by decide), LibAfter.single_sub (y := main_v99) (by decide), LibAfter.single_sub (y := main_v100) (by decide), LibAfter.single_sub (y := main_v101) (by decide), LibAfter.single_sub (y := main_v102) (by decide), LibAfter.single_sub (y := main_v103) (by decide), LibAfter.single_sub (y := main_v104) (by decide), LibAfter.single_sub (y := main_v105) (by decide), LibAfter.single_sub (y := main_v106) (by decide), LibAfter.single_sub (y := main_v107) (by decide), LibAfter.single_sub (y := main_v108) (by decide), LibAfter.single_sub (y := main_v109) (by decide), LibAfter.single_sub (y := main_v110) (by decide), LibAfter.single_sub (y := main_v111) (by decide)⟩

/-- The references line 18 (main_part2_ops0) writes, in order. -/
abbrev Wl18 : List (Ref sig .tc) := [main_v112, main_v113, main_v114, main_v115, main_v116, main_v117, main_v118, main_v119, main_v120, main_v121, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152, main_v153, main_v154, main_v155, main_v156, main_v157, main_v158, main_cst, main_v159, main_v160, main_v161, main_v162, main_v163, main_cst_7, main_v164, main_v165, main_v166, main_v167, main_v168, main_cst_8]
theorem hW18 : (main_part2_ops0 : List (HloOp τ sig (Elt F))).Forall fun op => op.writes ⊆ (Wl18.map (Proc.devRef (τ := τ) .tc)).toFinset :=
  ⟨LibAfter.single_sub (y := main_v112) (by decide), LibAfter.single_sub (y := main_v113) (by decide), LibAfter.single_sub (y := main_v114) (by decide), LibAfter.single_sub (y := main_v115) (by decide), LibAfter.single_sub (y := main_v116) (by decide), LibAfter.single_sub (y := main_v117) (by decide), LibAfter.single_sub (y := main_v118) (by decide), LibAfter.single_sub (y := main_v119) (by decide), LibAfter.single_sub (y := main_v120) (by decide), LibAfter.single_sub (y := main_v121) (by decide), LibAfter.single_sub (y := main_v122) (by decide), LibAfter.single_sub (y := main_v123) (by decide), LibAfter.single_sub (y := main_v124) (by decide), LibAfter.single_sub (y := main_v125) (by decide), LibAfter.single_sub (y := main_v126) (by decide), LibAfter.single_sub (y := main_v127) (by decide), LibAfter.single_sub (y := main_v128) (by decide), LibAfter.single_sub (y := main_v129) (by decide), LibAfter.single_sub (y := main_v130) (by decide), LibAfter.single_sub (y := main_v131) (by decide), LibAfter.single_sub (y := main_v132) (by decide), LibAfter.single_sub (y := main_v133) (by decide), LibAfter.single_sub (y := main_v134) (by decide), LibAfter.single_sub (y := main_v135) (by decide), LibAfter.single_sub (y := main_v136) (by decide), LibAfter.single_sub (y := main_v137) (by decide), LibAfter.single_sub (y := main_v138) (by decide), LibAfter.single_sub (y := main_v139) (by decide), LibAfter.single_sub (y := main_v140) (by decide), LibAfter.single_sub (y := main_v141) (by decide), LibAfter.single_sub (y := main_v142) (by decide), LibAfter.single_sub (y := main_v143) (by decide), LibAfter.single_sub (y := main_v144) (by decide), LibAfter.single_sub (y := main_v145) (by decide), LibAfter.single_sub (y := main_v146) (by decide), LibAfter.single_sub (y := main_v147) (by decide), LibAfter.single_sub (y := main_v148) (by decide), LibAfter.single_sub (y := main_v149) (by decide), LibAfter.single_sub (y := main_v150) (by decide), LibAfter.single_sub (y := main_v151) (by decide), LibAfter.single_sub (y := main_v152) (by decide), LibAfter.single_sub (y := main_v153) (by decide), LibAfter.single_sub (y := main_v154) (by decide), LibAfter.single_sub (y := main_v155) (by decide), LibAfter.single_sub (y := main_v156) (by decide), LibAfter.single_sub (y := main_v157) (by decide), LibAfter.single_sub (y := main_v158) (by decide), LibAfter.single_sub (y := main_cst) (by decide), LibAfter.single_sub (y := main_v159) (by decide), LibAfter.single_sub (y := main_v160) (by decide), LibAfter.single_sub (y := main_v161) (by decide), LibAfter.single_sub (y := main_v162) (by decide), LibAfter.single_sub (y := main_v163) (by decide), LibAfter.single_sub (y := main_cst_7) (by decide), LibAfter.single_sub (y := main_v164) (by decide), LibAfter.single_sub (y := main_v165) (by decide), LibAfter.single_sub (y := main_v166) (by decide), LibAfter.single_sub (y := main_v167) (by decide), LibAfter.single_sub (y := main_v168) (by decide), LibAfter.single_sub (y := main_cst_8) (by decide)⟩

/-- The references line 19 (main_part3_ops0) writes, in order. -/
abbrev Wl19 : List (Ref sig .tc) := [main_v169, main_v170, main_v171, main_v172, main_v173, main_cst_9, main_v174, main_v175, main_v176, main_v177, main_v178, main_cst_10, main_v179, main_v180, main_v181, main_v182, main_v183, main_cst_11, main_v184, main_v185, main_v186, main_v187, main_v188, main_cst_12, main_v189, main_v190, main_v191, main_v192, main_v193, main_cst_13, main_v194, main_v195, main_v196, main_v197, main_v198, main_cst_14, main_v199, main_v200, main_v201, main_v202, main_v203, main_cst_15, main_v204, main_v205, main_v206, main_v207, main_v208, main_cst_16, main_v209, main_v210, main_v211, main_v212, main_v213, main_cst_17, main_v214, main_v215, main_v216, main_v217, main_v218, main_cst_18]
theorem hW19 : (main_part3_ops0 : List (HloOp τ sig (Elt F))).Forall fun op => op.writes ⊆ (Wl19.map (Proc.devRef (τ := τ) .tc)).toFinset :=
  ⟨LibAfter.single_sub (y := main_v169) (by decide), LibAfter.single_sub (y := main_v170) (by decide), LibAfter.single_sub (y := main_v171) (by decide), LibAfter.single_sub (y := main_v172) (by decide), LibAfter.single_sub (y := main_v173) (by decide), LibAfter.single_sub (y := main_cst_9) (by decide), LibAfter.single_sub (y := main_v174) (by decide), LibAfter.single_sub (y := main_v175) (by decide), LibAfter.single_sub (y := main_v176) (by decide), LibAfter.single_sub (y := main_v177) (by decide), LibAfter.single_sub (y := main_v178) (by decide), LibAfter.single_sub (y := main_cst_10) (by decide), LibAfter.single_sub (y := main_v179) (by decide), LibAfter.single_sub (y := main_v180) (by decide), LibAfter.single_sub (y := main_v181) (by decide), LibAfter.single_sub (y := main_v182) (by decide), LibAfter.single_sub (y := main_v183) (by decide), LibAfter.single_sub (y := main_cst_11) (by decide), LibAfter.single_sub (y := main_v184) (by decide), LibAfter.single_sub (y := main_v185) (by decide), LibAfter.single_sub (y := main_v186) (by decide), LibAfter.single_sub (y := main_v187) (by decide), LibAfter.single_sub (y := main_v188) (by decide), LibAfter.single_sub (y := main_cst_12) (by decide), LibAfter.single_sub (y := main_v189) (by decide), LibAfter.single_sub (y := main_v190) (by decide), LibAfter.single_sub (y := main_v191) (by decide), LibAfter.single_sub (y := main_v192) (by decide), LibAfter.single_sub (y := main_v193) (by decide), LibAfter.single_sub (y := main_cst_13) (by decide), LibAfter.single_sub (y := main_v194) (by decide), LibAfter.single_sub (y := main_v195) (by decide), LibAfter.single_sub (y := main_v196) (by decide), LibAfter.single_sub (y := main_v197) (by decide), LibAfter.single_sub (y := main_v198) (by decide), LibAfter.single_sub (y := main_cst_14) (by decide), LibAfter.single_sub (y := main_v199) (by decide), LibAfter.single_sub (y := main_v200) (by decide), LibAfter.single_sub (y := main_v201) (by decide), LibAfter.single_sub (y := main_v202) (by decide), LibAfter.single_sub (y := main_v203) (by decide), LibAfter.single_sub (y := main_cst_15) (by decide), LibAfter.single_sub (y := main_v204) (by decide), LibAfter.single_sub (y := main_v205) (by decide), LibAfter.single_sub (y := main_v206) (by decide), LibAfter.single_sub (y := main_v207) (by decide), LibAfter.single_sub (y := main_v208) (by decide), LibAfter.single_sub (y := main_cst_16) (by decide), LibAfter.single_sub (y := main_v209) (by decide), LibAfter.single_sub (y := main_v210) (by decide), LibAfter.single_sub (y := main_v211) (by decide), LibAfter.single_sub (y := main_v212) (by decide), LibAfter.single_sub (y := main_v213) (by decide), LibAfter.single_sub (y := main_cst_17) (by decide), LibAfter.single_sub (y := main_v214) (by decide), LibAfter.single_sub (y := main_v215) (by decide), LibAfter.single_sub (y := main_v216) (by decide), LibAfter.single_sub (y := main_v217) (by decide), LibAfter.single_sub (y := main_v218) (by decide), LibAfter.single_sub (y := main_cst_18) (by decide)⟩

/-- The references line 20 (main_part4_ops0) writes, in order. -/
abbrev Wl20 : List (Ref sig .tc) := [main_v219, main_v220, main_v221, main_v222, main_v223, main_cst_19, main_v224, main_v225, main_v226, main_v227, main_v228, main_cst_20, main_v229, main_v230, main_v231, main_v232, main_v233, main_cst_21, main_v234, main_v235, main_v236, main_v237, main_v238, main_cst_22, main_v239, main_v240, main_v241, main_v242, main_v243, main_cst_23, main_v244, main_v245, main_v246, main_v247, main_v248, main_cst_24, main_v249, main_v250, main_v251, main_v252, main_v253, main_cst_25, main_v254, main_v255, main_v256, main_v257, main_v258, main_cst_26, main_v259, main_v260, main_v261, main_v262, main_v263, main_cst_27, main_v264, main_v265, main_v266, main_v267, main_v268, main_cst_28]
theorem hW20 : (main_part4_ops0 : List (HloOp τ sig (Elt F))).Forall fun op => op.writes ⊆ (Wl20.map (Proc.devRef (τ := τ) .tc)).toFinset :=
  ⟨LibAfter.single_sub (y := main_v219) (by decide), LibAfter.single_sub (y := main_v220) (by decide), LibAfter.single_sub (y := main_v221) (by decide), LibAfter.single_sub (y := main_v222) (by decide), LibAfter.single_sub (y := main_v223) (by decide), LibAfter.single_sub (y := main_cst_19) (by decide), LibAfter.single_sub (y := main_v224) (by decide), LibAfter.single_sub (y := main_v225) (by decide), LibAfter.single_sub (y := main_v226) (by decide), LibAfter.single_sub (y := main_v227) (by decide), LibAfter.single_sub (y := main_v228) (by decide), LibAfter.single_sub (y := main_cst_20) (by decide), LibAfter.single_sub (y := main_v229) (by decide), LibAfter.single_sub (y := main_v230) (by decide), LibAfter.single_sub (y := main_v231) (by decide), LibAfter.single_sub (y := main_v232) (by decide), LibAfter.single_sub (y := main_v233) (by decide), LibAfter.single_sub (y := main_cst_21) (by decide), LibAfter.single_sub (y := main_v234) (by decide), LibAfter.single_sub (y := main_v235) (by decide), LibAfter.single_sub (y := main_v236) (by decide), LibAfter.single_sub (y := main_v237) (by decide), LibAfter.single_sub (y := main_v238) (by decide), LibAfter.single_sub (y := main_cst_22) (by decide), LibAfter.single_sub (y := main_v239) (by decide), LibAfter.single_sub (y := main_v240) (by decide), LibAfter.single_sub (y := main_v241) (by decide), LibAfter.single_sub (y := main_v242) (by decide), LibAfter.single_sub (y := main_v243) (by decide), LibAfter.single_sub (y := main_cst_23) (by decide), LibAfter.single_sub (y := main_v244) (by decide), LibAfter.single_sub (y := main_v245) (by decide), LibAfter.single_sub (y := main_v246) (by decide), LibAfter.single_sub (y := main_v247) (by decide), LibAfter.single_sub (y := main_v248) (by decide), LibAfter.single_sub (y := main_cst_24) (by decide), LibAfter.single_sub (y := main_v249) (by decide), LibAfter.single_sub (y := main_v250) (by decide), LibAfter.single_sub (y := main_v251) (by decide), LibAfter.single_sub (y := main_v252) (by decide), LibAfter.single_sub (y := main_v253) (by decide), LibAfter.single_sub (y := main_cst_25) (by decide), LibAfter.single_sub (y := main_v254) (by decide), LibAfter.single_sub (y := main_v255) (by decide), LibAfter.single_sub (y := main_v256) (by decide), LibAfter.single_sub (y := main_v257) (by decide), LibAfter.single_sub (y := main_v258) (by decide), LibAfter.single_sub (y := main_cst_26) (by decide), LibAfter.single_sub (y := main_v259) (by decide), LibAfter.single_sub (y := main_v260) (by decide), LibAfter.single_sub (y := main_v261) (by decide), LibAfter.single_sub (y := main_v262) (by decide), LibAfter.single_sub (y := main_v263) (by decide), LibAfter.single_sub (y := main_cst_27) (by decide), LibAfter.single_sub (y := main_v264) (by decide), LibAfter.single_sub (y := main_v265) (by decide), LibAfter.single_sub (y := main_v266) (by decide), LibAfter.single_sub (y := main_v267) (by decide), LibAfter.single_sub (y := main_v268) (by decide), LibAfter.single_sub (y := main_cst_28) (by decide)⟩

/-- The references line 21 (main_part5_ops0) writes, in order. -/
abbrev Wl21 : List (Ref sig .tc) := [main_v269, main_v270, main_v271, main_v272, main_v273, main_cst_29, main_v274, main_v275, main_v276, main_v277, main_v278, main_cst_30, main_v279, main_cst_31, main_v280, main_cst_32, main_v281, main_cst_33, main_v282, main_cst_34, main_v283, main_cst_35, main_v284, main_cst_36, main_v285, main_cst_37, main_v286, main_cst_38, main_v287, main_cst_39, main_v288, main_cst_40, main_v289, main_cst_41, main_v290, main_cst_42, main_v291, main_cst_43, main_v292, main_cst_44, main_v293, main_cst_45, main_v294, main_v295, main_v296, main_v297, main_v298, main_v299, main_v300, main_v301, main_v302, main_v303, main_v304, main_v305, main_v306, main_v307, main_v308, main_v309, main_v310, main_v311]
theorem hW21 : (main_part5_ops0 : List (HloOp τ sig (Elt F))).Forall fun op => op.writes ⊆ (Wl21.map (Proc.devRef (τ := τ) .tc)).toFinset :=
  ⟨LibAfter.single_sub (y := main_v269) (by decide), LibAfter.single_sub (y := main_v270) (by decide), LibAfter.single_sub (y := main_v271) (by decide), LibAfter.single_sub (y := main_v272) (by decide), LibAfter.single_sub (y := main_v273) (by decide), LibAfter.single_sub (y := main_cst_29) (by decide), LibAfter.single_sub (y := main_v274) (by decide), LibAfter.single_sub (y := main_v275) (by decide), LibAfter.single_sub (y := main_v276) (by decide), LibAfter.single_sub (y := main_v277) (by decide), LibAfter.single_sub (y := main_v278) (by decide), LibAfter.single_sub (y := main_cst_30) (by decide), LibAfter.single_sub (y := main_v279) (by decide), LibAfter.single_sub (y := main_cst_31) (by decide), LibAfter.single_sub (y := main_v280) (by decide), LibAfter.single_sub (y := main_cst_32) (by decide), LibAfter.single_sub (y := main_v281) (by decide), LibAfter.single_sub (y := main_cst_33) (by decide), LibAfter.single_sub (y := main_v282) (by decide), LibAfter.single_sub (y := main_cst_34) (by decide), LibAfter.single_sub (y := main_v283) (by decide), LibAfter.single_sub (y := main_cst_35) (by decide), LibAfter.single_sub (y := main_v284) (by decide), LibAfter.single_sub (y := main_cst_36) (by decide), LibAfter.single_sub (y := main_v285) (by decide), LibAfter.single_sub (y := main_cst_37) (by decide), LibAfter.single_sub (y := main_v286) (by decide), LibAfter.single_sub (y := main_cst_38) (by decide), LibAfter.single_sub (y := main_v287) (by decide), LibAfter.single_sub (y := main_cst_39) (by decide), LibAfter.single_sub (y := main_v288) (by decide), LibAfter.single_sub (y := main_cst_40) (by decide), LibAfter.single_sub (y := main_v289) (by decide), LibAfter.single_sub (y := main_cst_41) (by decide), LibAfter.single_sub (y := main_v290) (by decide), LibAfter.single_sub (y := main_cst_42) (by decide), LibAfter.single_sub (y := main_v291) (by decide), LibAfter.single_sub (y := main_cst_43) (by decide), LibAfter.single_sub (y := main_v292) (by decide), LibAfter.single_sub (y := main_cst_44) (by decide), LibAfter.single_sub (y := main_v293) (by decide), LibAfter.single_sub (y := main_cst_45) (by decide), LibAfter.single_sub (y := main_v294) (by decide), LibAfter.single_sub (y := main_v295) (by decide), LibAfter.single_sub (y := main_v296) (by decide), LibAfter.single_sub (y := main_v297) (by decide), LibAfter.single_sub (y := main_v298) (by decide), LibAfter.single_sub (y := main_v299) (by decide), LibAfter.single_sub (y := main_v300) (by decide), LibAfter.single_sub (y := main_v301) (by decide), LibAfter.single_sub (y := main_v302) (by decide), LibAfter.single_sub (y := main_v303) (by decide), LibAfter.single_sub (y := main_v304) (by decide), LibAfter.single_sub (y := main_v305) (by decide), LibAfter.single_sub (y := main_v306) (by decide), LibAfter.single_sub (y := main_v307) (by decide), LibAfter.single_sub (y := main_v308) (by decide), LibAfter.single_sub (y := main_v309) (by decide), LibAfter.single_sub (y := main_v310) (by decide), LibAfter.single_sub (y := main_v311) (by decide)⟩

/-- The references line 22 (main_part6_ops0) writes, in order. -/
abbrev Wl22 : List (Ref sig .tc) := [main_v312, main_v313, main_v314, main_v315, main_v316, main_v317, main_v318, main_v319, main_v320, main_v321, main_v322, main_v323, main_v324, main_v325, main_v326, main_v327, main_v328, main_v329, main_v330, main_v331, main_v332, main_v333, main_v334, main_v335, main_v336, main_v337, main_v338, main_v339, main_v340, main_v341, main_v342, main_v343, main_v344, main_v345, main_v346, main_v347, main_v348, main_v349, main_v350, main_v351, main_v352, main_v353, main_v354, main_v355, main_v356, main_v357, main_v358, main_v359, main_v360, main_v361, main_v362, main_v363, main_v364, main_v365, main_v366, main_v367, main_v368, main_v369, main_v370, main_v371]
theorem hW22 : (main_part6_ops0 : List (HloOp τ sig (Elt F))).Forall fun op => op.writes ⊆ (Wl22.map (Proc.devRef (τ := τ) .tc)).toFinset :=
  ⟨LibAfter.single_sub (y := main_v312) (by decide), LibAfter.single_sub (y := main_v313) (by decide), LibAfter.single_sub (y := main_v314) (by decide), LibAfter.single_sub (y := main_v315) (by decide), LibAfter.single_sub (y := main_v316) (by decide), LibAfter.single_sub (y := main_v317) (by decide), LibAfter.single_sub (y := main_v318) (by decide), LibAfter.single_sub (y := main_v319) (by decide), LibAfter.single_sub (y := main_v320) (by decide), LibAfter.single_sub (y := main_v321) (by decide), LibAfter.single_sub (y := main_v322) (by decide), LibAfter.single_sub (y := main_v323) (by decide), LibAfter.single_sub (y := main_v324) (by decide), LibAfter.single_sub (y := main_v325) (by decide), LibAfter.single_sub (y := main_v326) (by decide), LibAfter.single_sub (y := main_v327) (by decide), LibAfter.single_sub (y := main_v328) (by decide), LibAfter.single_sub (y := main_v329) (by decide), LibAfter.single_sub (y := main_v330) (by decide), LibAfter.single_sub (y := main_v331) (by decide), LibAfter.single_sub (y := main_v332) (by decide), LibAfter.single_sub (y := main_v333) (by decide), LibAfter.single_sub (y := main_v334) (by decide), LibAfter.single_sub (y := main_v335) (by decide), LibAfter.single_sub (y := main_v336) (by decide), LibAfter.single_sub (y := main_v337) (by decide), LibAfter.single_sub (y := main_v338) (by decide), LibAfter.single_sub (y := main_v339) (by decide), LibAfter.single_sub (y := main_v340) (by decide), LibAfter.single_sub (y := main_v341) (by decide), LibAfter.single_sub (y := main_v342) (by decide), LibAfter.single_sub (y := main_v343) (by decide), LibAfter.single_sub (y := main_v344) (by decide), LibAfter.single_sub (y := main_v345) (by decide), LibAfter.single_sub (y := main_v346) (by decide), LibAfter.single_sub (y := main_v347) (by decide), LibAfter.single_sub (y := main_v348) (by decide), LibAfter.single_sub (y := main_v349) (by decide), LibAfter.single_sub (y := main_v350) (by decide), LibAfter.single_sub (y := main_v351) (by decide), LibAfter.single_sub (y := main_v352) (by decide), LibAfter.single_sub (y := main_v353) (by decide), LibAfter.single_sub (y := main_v354) (by decide), LibAfter.single_sub (y := main_v355) (by decide), LibAfter.single_sub (y := main_v356) (by decide), LibAfter.single_sub (y := main_v357) (by decide), LibAfter.single_sub (y := main_v358) (by decide), LibAfter.single_sub (y := main_v359) (by decide), LibAfter.single_sub (y := main_v360) (by decide), LibAfter.single_sub (y := main_v361) (by decide), LibAfter.single_sub (y := main_v362) (by decide), LibAfter.single_sub (y := main_v363) (by decide), LibAfter.single_sub (y := main_v364) (by decide), LibAfter.single_sub (y := main_v365) (by decide), LibAfter.single_sub (y := main_v366) (by decide), LibAfter.single_sub (y := main_v367) (by decide), LibAfter.single_sub (y := main_v368) (by decide), LibAfter.single_sub (y := main_v369) (by decide), LibAfter.single_sub (y := main_v370) (by decide), LibAfter.single_sub (y := main_v371) (by decide)⟩

/-- The references line 23 (main_part7_ops0) writes, in order. -/
abbrev Wl23 : List (Ref sig .tc) := [main_v372, main_v373, main_v374, main_v375, main_v376, main_v377, main_v378, main_v379, main_v380, main_v381, main_v382, main_v383, main_v384, main_v385, main_v386, main_v387, main_v388, main_v389, main_v390, main_v391, main_v392, main_v393, main_v394, main_v395, main_v396, main_v397, main_v398, main_v399, main_v400, main_v401, main_v402, main_v403, main_v404, main_v405, main_v406, main_v407, main_v408, main_v409, main_v410, main_v411, main_v412, main_v413, main_v414, main_v415, main_v416, main_v417, main_v418, main_v419, main_v420, main_v421, main_v422, main_v423, main_v424, main_v425, main_v426, main_v427, main_v428, main_v429, main_v430, main_v431]
theorem hW23 : (main_part7_ops0 : List (HloOp τ sig (Elt F))).Forall fun op => op.writes ⊆ (Wl23.map (Proc.devRef (τ := τ) .tc)).toFinset :=
  ⟨LibAfter.single_sub (y := main_v372) (by decide), LibAfter.single_sub (y := main_v373) (by decide), LibAfter.single_sub (y := main_v374) (by decide), LibAfter.single_sub (y := main_v375) (by decide), LibAfter.single_sub (y := main_v376) (by decide), LibAfter.single_sub (y := main_v377) (by decide), LibAfter.single_sub (y := main_v378) (by decide), LibAfter.single_sub (y := main_v379) (by decide), LibAfter.single_sub (y := main_v380) (by decide), LibAfter.single_sub (y := main_v381) (by decide), LibAfter.single_sub (y := main_v382) (by decide), LibAfter.single_sub (y := main_v383) (by decide), LibAfter.single_sub (y := main_v384) (by decide), LibAfter.single_sub (y := main_v385) (by decide), LibAfter.single_sub (y := main_v386) (by decide), LibAfter.single_sub (y := main_v387) (by decide), LibAfter.single_sub (y := main_v388) (by decide), LibAfter.single_sub (y := main_v389) (by decide), LibAfter.single_sub (y := main_v390) (by decide), LibAfter.single_sub (y := main_v391) (by decide), LibAfter.single_sub (y := main_v392) (by decide), LibAfter.single_sub (y := main_v393) (by decide), LibAfter.single_sub (y := main_v394) (by decide), LibAfter.single_sub (y := main_v395) (by decide), LibAfter.single_sub (y := main_v396) (by decide), LibAfter.single_sub (y := main_v397) (by decide), LibAfter.single_sub (y := main_v398) (by decide), LibAfter.single_sub (y := main_v399) (by decide), LibAfter.single_sub (y := main_v400) (by decide), LibAfter.single_sub (y := main_v401) (by decide), LibAfter.single_sub (y := main_v402) (by decide), LibAfter.single_sub (y := main_v403) (by decide), LibAfter.single_sub (y := main_v404) (by decide), LibAfter.single_sub (y := main_v405) (by decide), LibAfter.single_sub (y := main_v406) (by decide), LibAfter.single_sub (y := main_v407) (by decide), LibAfter.single_sub (y := main_v408) (by decide), LibAfter.single_sub (y := main_v409) (by decide), LibAfter.single_sub (y := main_v410) (by decide), LibAfter.single_sub (y := main_v411) (by decide), LibAfter.single_sub (y := main_v412) (by decide), LibAfter.single_sub (y := main_v413) (by decide), LibAfter.single_sub (y := main_v414) (by decide), LibAfter.single_sub (y := main_v415) (by decide), LibAfter.single_sub (y := main_v416) (by decide), LibAfter.single_sub (y := main_v417) (by decide), LibAfter.single_sub (y := main_v418) (by decide), LibAfter.single_sub (y := main_v419) (by decide), LibAfter.single_sub (y := main_v420) (by decide), LibAfter.single_sub (y := main_v421) (by decide), LibAfter.single_sub (y := main_v422) (by decide), LibAfter.single_sub (y := main_v423) (by decide), LibAfter.single_sub (y := main_v424) (by decide), LibAfter.single_sub (y := main_v425) (by decide), LibAfter.single_sub (y := main_v426) (by decide), LibAfter.single_sub (y := main_v427) (by decide), LibAfter.single_sub (y := main_v428) (by decide), LibAfter.single_sub (y := main_v429) (by decide), LibAfter.single_sub (y := main_v430) (by decide), LibAfter.single_sub (y := main_v431) (by decide)⟩

/-- The references line 24 (main_part8_ops0) writes, in order. -/
abbrev Wl24 : List (Ref sig .tc) := [main_v432, main_v433, main_v434, main_v435, main_v436, main_v437, main_v438, main_v439, main_v440, main_v441, main_v442, main_v443, main_v444, main_v445, main_v446, main_v447, main_v448, main_v449, main_v450, main_v451, main_v452, main_v453, main_v454, main_v455, main_v456, main_v457, main_v458, main_v459, main_v460, main_v461, main_v462, main_v463, main_v464, main_v465, main_v466, main_v467, main_v468, main_v469, main_v470, main_v471, main_v472, main_v473, main_v474, main_v475, main_v476, main_v477, main_v478, main_v479, main_v480, main_v481, main_v482, main_v483, main_v484, main_v485, main_v486, main_v487, main_v488, main_v489, main_v490, main_v491]
theorem hW24 : (main_part8_ops0 : List (HloOp τ sig (Elt F))).Forall fun op => op.writes ⊆ (Wl24.map (Proc.devRef (τ := τ) .tc)).toFinset :=
  ⟨LibAfter.single_sub (y := main_v432) (by decide), LibAfter.single_sub (y := main_v433) (by decide), LibAfter.single_sub (y := main_v434) (by decide), LibAfter.single_sub (y := main_v435) (by decide), LibAfter.single_sub (y := main_v436) (by decide), LibAfter.single_sub (y := main_v437) (by decide), LibAfter.single_sub (y := main_v438) (by decide), LibAfter.single_sub (y := main_v439) (by decide), LibAfter.single_sub (y := main_v440) (by decide), LibAfter.single_sub (y := main_v441) (by decide), LibAfter.single_sub (y := main_v442) (by decide), LibAfter.single_sub (y := main_v443) (by decide), LibAfter.single_sub (y := main_v444) (by decide), LibAfter.single_sub (y := main_v445) (by decide), LibAfter.single_sub (y := main_v446) (by decide), LibAfter.single_sub (y := main_v447) (by decide), LibAfter.single_sub (y := main_v448) (by decide), LibAfter.single_sub (y := main_v449) (by decide), LibAfter.single_sub (y := main_v450) (by decide), LibAfter.single_sub (y := main_v451) (by decide), LibAfter.single_sub (y := main_v452) (by decide), LibAfter.single_sub (y := main_v453) (by decide), LibAfter.single_sub (y := main_v454) (by decide), LibAfter.single_sub (y := main_v455) (by decide), LibAfter.single_sub (y := main_v456) (by decide), LibAfter.single_sub (y := main_v457) (by decide), LibAfter.single_sub (y := main_v458) (by decide), LibAfter.single_sub (y := main_v459) (by decide), LibAfter.single_sub (y := main_v460) (by decide), LibAfter.single_sub (y := main_v461) (by decide), LibAfter.single_sub (y := main_v462) (by decide), LibAfter.single_sub (y := main_v463) (by decide), LibAfter.single_sub (y := main_v464) (by decide), LibAfter.single_sub (y := main_v465) (by decide), LibAfter.single_sub (y := main_v466) (by decide), LibAfter.single_sub (y := main_v467) (by decide), LibAfter.single_sub (y := main_v468) (by decide), LibAfter.single_sub (y := main_v469) (by decide), LibAfter.single_sub (y := main_v470) (by decide), LibAfter.single_sub (y := main_v471) (by decide), LibAfter.single_sub (y := main_v472) (by decide), LibAfter.single_sub (y := main_v473) (by decide), LibAfter.single_sub (y := main_v474) (by decide), LibAfter.single_sub (y := main_v475) (by decide), LibAfter.single_sub (y := main_v476) (by decide), LibAfter.single_sub (y := main_v477) (by decide), LibAfter.single_sub (y := main_v478) (by decide), LibAfter.single_sub (y := main_v479) (by decide), LibAfter.single_sub (y := main_v480) (by decide), LibAfter.single_sub (y := main_v481) (by decide), LibAfter.single_sub (y := main_v482) (by decide), LibAfter.single_sub (y := main_v483) (by decide), LibAfter.single_sub (y := main_v484) (by decide), LibAfter.single_sub (y := main_v485) (by decide), LibAfter.single_sub (y := main_v486) (by decide), LibAfter.single_sub (y := main_v487) (by decide), LibAfter.single_sub (y := main_v488) (by decide), LibAfter.single_sub (y := main_v489) (by decide), LibAfter.single_sub (y := main_v490) (by decide), LibAfter.single_sub (y := main_v491) (by decide)⟩

/-- The references line 25 (main_part9_ops0) writes, in order. -/
abbrev Wl25 : List (Ref sig .tc) := [main_v492, main_v493, main_v494, main_v495, main_v496, main_v497, main_v498, main_v499, main_v500, main_v501, main_v502, main_v503, main_v504, main_v505, main_v506, main_v507, main_v508, main_v509, main_v510, main_v511, main_v512, main_v513, main_v514, main_v515, main_v516, main_v517, main_v518, main_v519, main_v520, main_v521, main_v522, main_v523, main_v524, main_v525, main_v526, main_v527, main_v528, main_v529, main_v530, main_v531, main_v532, main_v533, main_v534, main_v535, main_v536, main_v537, main_v538, main_v539, main_v540, main_v541, main_v542, main_v543, main_v544, main_v545, main_v546, main_v547, main_v548, main_v549, main_v550, main_v551]
theorem hW25 : (main_part9_ops0 : List (HloOp τ sig (Elt F))).Forall fun op => op.writes ⊆ (Wl25.map (Proc.devRef (τ := τ) .tc)).toFinset :=
  ⟨LibAfter.single_sub (y := main_v492) (by decide), LibAfter.single_sub (y := main_v493) (by decide), LibAfter.single_sub (y := main_v494) (by decide), LibAfter.single_sub (y := main_v495) (by decide), LibAfter.single_sub (y := main_v496) (by decide), LibAfter.single_sub (y := main_v497) (by decide), LibAfter.single_sub (y := main_v498) (by decide), LibAfter.single_sub (y := main_v499) (by decide), LibAfter.single_sub (y := main_v500) (by decide), LibAfter.single_sub (y := main_v501) (by decide), LibAfter.single_sub (y := main_v502) (by decide), LibAfter.single_sub (y := main_v503) (by decide), LibAfter.single_sub (y := main_v504) (by decide), LibAfter.single_sub (y := main_v505) (by decide), LibAfter.single_sub (y := main_v506) (by decide), LibAfter.single_sub (y := main_v507) (by decide), LibAfter.single_sub (y := main_v508) (by decide), LibAfter.single_sub (y := main_v509) (by decide), LibAfter.single_sub (y := main_v510) (by decide), LibAfter.single_sub (y := main_v511) (by decide), LibAfter.single_sub (y := main_v512) (by decide), LibAfter.single_sub (y := main_v513) (by decide), LibAfter.single_sub (y := main_v514) (by decide), LibAfter.single_sub (y := main_v515) (by decide), LibAfter.single_sub (y := main_v516) (by decide), LibAfter.single_sub (y := main_v517) (by decide), LibAfter.single_sub (y := main_v518) (by decide), LibAfter.single_sub (y := main_v519) (by decide), LibAfter.single_sub (y := main_v520) (by decide), LibAfter.single_sub (y := main_v521) (by decide), LibAfter.single_sub (y := main_v522) (by decide), LibAfter.single_sub (y := main_v523) (by decide), LibAfter.single_sub (y := main_v524) (by decide), LibAfter.single_sub (y := main_v525) (by decide), LibAfter.single_sub (y := main_v526) (by decide), LibAfter.single_sub (y := main_v527) (by decide), LibAfter.single_sub (y := main_v528) (by decide), LibAfter.single_sub (y := main_v529) (by decide), LibAfter.single_sub (y := main_v530) (by decide), LibAfter.single_sub (y := main_v531) (by decide), LibAfter.single_sub (y := main_v532) (by decide), LibAfter.single_sub (y := main_v533) (by decide), LibAfter.single_sub (y := main_v534) (by decide), LibAfter.single_sub (y := main_v535) (by decide), LibAfter.single_sub (y := main_v536) (by decide), LibAfter.single_sub (y := main_v537) (by decide), LibAfter.single_sub (y := main_v538) (by decide), LibAfter.single_sub (y := main_v539) (by decide), LibAfter.single_sub (y := main_v540) (by decide), LibAfter.single_sub (y := main_v541) (by decide), LibAfter.single_sub (y := main_v542) (by decide), LibAfter.single_sub (y := main_v543) (by decide), LibAfter.single_sub (y := main_v544) (by decide), LibAfter.single_sub (y := main_v545) (by decide), LibAfter.single_sub (y := main_v546) (by decide), LibAfter.single_sub (y := main_v547) (by decide), LibAfter.single_sub (y := main_v548) (by decide), LibAfter.single_sub (y := main_v549) (by decide), LibAfter.single_sub (y := main_v550) (by decide), LibAfter.single_sub (y := main_v551) (by decide)⟩

/-- The references line 26 (main_part10_ops0) writes, in order. -/
abbrev Wl26 : List (Ref sig .tc) := [main_v552, main_v553, main_v554, main_v555, main_v556, main_v557, main_v558, main_v559, main_v560, main_v561, main_v562, main_v563, main_v564, main_v565, main_v566, main_v567, main_v568, main_v569, main_v570, main_v571, main_v572, main_v573, main_v574, main_v575, main_cst_46, main_v576, main_v577]
theorem hW26 : (main_part10_ops0 : List (HloOp τ sig (Elt F))).Forall fun op => op.writes ⊆ (Wl26.map (Proc.devRef (τ := τ) .tc)).toFinset :=
  ⟨LibAfter.single_sub (y := main_v552) (by decide), LibAfter.single_sub (y := main_v553) (by decide), LibAfter.single_sub (y := main_v554) (by decide), LibAfter.single_sub (y := main_v555) (by decide), LibAfter.single_sub (y := main_v556) (by decide), LibAfter.single_sub (y := main_v557) (by decide), LibAfter.single_sub (y := main_v558) (by decide), LibAfter.single_sub (y := main_v559) (by decide), LibAfter.single_sub (y := main_v560) (by decide), LibAfter.single_sub (y := main_v561) (by decide), LibAfter.single_sub (y := main_v562) (by decide), LibAfter.single_sub (y := main_v563) (by decide), LibAfter.single_sub (y := main_v564) (by decide), LibAfter.single_sub (y := main_v565) (by decide), LibAfter.single_sub (y := main_v566) (by decide), LibAfter.single_sub (y := main_v567) (by decide), LibAfter.single_sub (y := main_v568) (by decide), LibAfter.single_sub (y := main_v569) (by decide), LibAfter.single_sub (y := main_v570) (by decide), LibAfter.single_sub (y := main_v571) (by decide), LibAfter.single_sub (y := main_v572) (by decide), LibAfter.single_sub (y := main_v573) (by decide), LibAfter.single_sub (y := main_v574) (by decide), LibAfter.single_sub (y := main_v575) (by decide), LibAfter.single_sub (y := main_cst_46) (by decide), LibAfter.single_sub (y := main_v576) (by decide), LibAfter.single_sub (y := main_v577) (by decide)⟩

/-- The references line 27 (main_part10_ops1) writes, in order. -/
abbrev Wl27 : List (Ref sig .tc) := [main_v578]
theorem hW27 : (main_part10_ops1 : List (HloOp τ sig (Elt F))).Forall fun op => op.writes ⊆ (Wl27.map (Proc.devRef (τ := τ) .tc)).toFinset :=
  LibAfter.single_sub (y := main_v578) (by decide)

/-- The references line 28 (main_part10_ops2) writes, in order. -/
abbrev Wl28 : List (Ref sig .tc) := [main_cst_47, main_cst_48]
theorem hW28 : (main_part10_ops2 : List (HloOp τ sig (Elt F))).Forall fun op => op.writes ⊆ (Wl28.map (Proc.devRef (τ := τ) .tc)).toFinset :=
  ⟨LibAfter.single_sub (y := main_cst_47) (by decide), LibAfter.single_sub (y := main_cst_48) (by decide)⟩

/-- The references line 29 (main_part10_ops3) writes, in order. -/
abbrev Wl29 : List (Ref sig .tc) := [main_call9_v0, main_call9_v1, main_call9_v2, main_call9_v3, main_call9_v4, main_v579]
theorem hW29 : (main_part10_ops3 : List (HloOp τ sig (Elt F))).Forall fun op => op.writes ⊆ (Wl29.map (Proc.devRef (τ := τ) .tc)).toFinset :=
  ⟨LibAfter.single_sub (y := main_call9_v0) (by decide), LibAfter.single_sub (y := main_call9_v1) (by decide), LibAfter.single_sub (y := main_call9_v2) (by decide), LibAfter.single_sub (y := main_call9_v3) (by decide), LibAfter.single_sub (y := main_call9_v4) (by decide), LibAfter.single_sub (y := main_v579) (by decide)⟩

/-- The references line 30 (main_part10_ops4) writes, in order. -/
abbrev Wl30 : List (Ref sig .tc) := [main_c_49, main_v580, main_v581, main_c_50, main_v582, main_v583, main_c_51, main_v584, main_v585, main_c_52, main_v586, main_v587, main_v588, main_c_53, main_v589, main_v590, main_c_54, main_v591, main_v592, main_v593, main_c_55, main_v594, main_v595, main_v596, main_c_56, main_v597, main_v598, main_c_57, main_v599]
theorem hW30 : (main_part10_ops4 : List (HloOp τ sig (Elt F))).Forall fun op => op.writes ⊆ (Wl30.map (Proc.devRef (τ := τ) .tc)).toFinset :=
  ⟨LibAfter.single_sub (y := main_c_49) (by decide), LibAfter.single_sub (y := main_v580) (by decide), LibAfter.single_sub (y := main_v581) (by decide), LibAfter.single_sub (y := main_c_50) (by decide), LibAfter.single_sub (y := main_v582) (by decide), LibAfter.single_sub (y := main_v583) (by decide), LibAfter.single_sub (y := main_c_51) (by decide), LibAfter.single_sub (y := main_v584) (by decide), LibAfter.single_sub (y := main_v585) (by decide), LibAfter.single_sub (y := main_c_52) (by decide), LibAfter.single_sub (y := main_v586) (by decide), LibAfter.single_sub (y := main_v587) (by decide), LibAfter.single_sub (y := main_v588) (by decide), LibAfter.single_sub (y := main_c_53) (by decide), LibAfter.single_sub (y := main_v589) (by decide), LibAfter.single_sub (y := main_v590) (by decide), LibAfter.single_sub (y := main_c_54) (by decide), LibAfter.single_sub (y := main_v591) (by decide), LibAfter.single_sub (y := main_v592) (by decide), LibAfter.single_sub (y := main_v593) (by decide), LibAfter.single_sub (y := main_c_55) (by decide), LibAfter.single_sub (y := main_v594) (by decide), LibAfter.single_sub (y := main_v595) (by decide), LibAfter.single_sub (y := main_v596) (by decide), LibAfter.single_sub (y := main_c_56) (by decide), LibAfter.single_sub (y := main_v597) (by decide), LibAfter.single_sub (y := main_v598) (by decide), LibAfter.single_sub (y := main_c_57) (by decide), LibAfter.single_sub (y := main_v599) (by decide)⟩

/-- The references line 31 (main_part11_ops0) writes, in order. -/
abbrev Wl31 : List (Ref sig .tc) := [main_v600, main_c_58, main_v601, main_v602, main_c_59, main_v603, main_v604, main_v605, main_c_60, main_v606, main_v607, main_c_61, main_v608, main_v609, main_v610, main_c_62, main_v611, main_v612, main_v613, main_c_63, main_v614, main_v615, main_c_64, main_v616, main_v617, main_c_65, main_v618, main_v619, main_c_66, main_v620, main_v621, main_v622, main_c_67, main_v623, main_v624, main_c_68, main_v625, main_v626, main_v627, main_c_69, main_v628, main_v629, main_v630, main_c_70, main_v631, main_v632, main_c_71, main_v633, main_v634, main_c_72, main_v635, main_v636, main_c_73, main_v637, main_v638, main_v639, main_c_74, main_v640, main_v641, main_c_75]
theorem hW31 : (main_part11_ops0 : List (HloOp τ sig (Elt F))).Forall fun op => op.writes ⊆ (Wl31.map (Proc.devRef (τ := τ) .tc)).toFinset :=
  ⟨LibAfter.single_sub (y := main_v600) (by decide), LibAfter.single_sub (y := main_c_58) (by decide), LibAfter.single_sub (y := main_v601) (by decide), LibAfter.single_sub (y := main_v602) (by decide), LibAfter.single_sub (y := main_c_59) (by decide), LibAfter.single_sub (y := main_v603) (by decide), LibAfter.single_sub (y := main_v604) (by decide), LibAfter.single_sub (y := main_v605) (by decide), LibAfter.single_sub (y := main_c_60) (by decide), LibAfter.single_sub (y := main_v606) (by decide), LibAfter.single_sub (y := main_v607) (by decide), LibAfter.single_sub (y := main_c_61) (by decide), LibAfter.single_sub (y := main_v608) (by decide), LibAfter.single_sub (y := main_v609) (by decide), LibAfter.single_sub (y := main_v610) (by decide), LibAfter.single_sub (y := main_c_62) (by decide), LibAfter.single_sub (y := main_v611) (by decide), LibAfter.single_sub (y := main_v612) (by decide), LibAfter.single_sub (y := main_v613) (by decide), LibAfter.single_sub (y := main_c_63) (by decide), LibAfter.single_sub (y := main_v614) (by decide), LibAfter.single_sub (y := main_v615) (by decide), LibAfter.single_sub (y := main_c_64) (by decide), LibAfter.single_sub (y := main_v616) (by decide), LibAfter.single_sub (y := main_v617) (by decide), LibAfter.single_sub (y := main_c_65) (by decide), LibAfter.single_sub (y := main_v618) (by decide), LibAfter.single_sub (y := main_v619) (by decide), LibAfter.single_sub (y := main_c_66) (by decide), LibAfter.single_sub (y := main_v620) (by decide), LibAfter.single_sub (y := main_v621) (by decide), LibAfter.single_sub (y := main_v622) (by decide), LibAfter.single_sub (y := main_c_67) (by decide), LibAfter.single_sub (y := main_v623) (by decide), LibAfter.single_sub (y := main_v624) (by decide), LibAfter.single_sub (y := main_c_68) (by decide), LibAfter.single_sub (y := main_v625) (by decide), LibAfter.single_sub (y := main_v626) (by decide), LibAfter.single_sub (y := main_v627) (by decide), LibAfter.single_sub (y := main_c_69) (by decide), LibAfter.single_sub (y := main_v628) (by decide), LibAfter.single_sub (y := main_v629) (by decide), LibAfter.single_sub (y := main_v630) (by decide), LibAfter.single_sub (y := main_c_70) (by decide), LibAfter.single_sub (y := main_v631) (by decide), LibAfter.single_sub (y := main_v632) (by decide), LibAfter.single_sub (y := main_c_71) (by decide), LibAfter.single_sub (y := main_v633) (by decide), LibAfter.single_sub (y := main_v634) (by decide), LibAfter.single_sub (y := main_c_72) (by decide), LibAfter.single_sub (y := main_v635) (by decide), LibAfter.single_sub (y := main_v636) (by decide), LibAfter.single_sub (y := main_c_73) (by decide), LibAfter.single_sub (y := main_v637) (by decide), LibAfter.single_sub (y := main_v638) (by decide), LibAfter.single_sub (y := main_v639) (by decide), LibAfter.single_sub (y := main_c_74) (by decide), LibAfter.single_sub (y := main_v640) (by decide), LibAfter.single_sub (y := main_v641) (by decide), LibAfter.single_sub (y := main_c_75) (by decide)⟩

/-- The references line 32 (main_part12_ops0) writes, in order. -/
abbrev Wl32 : List (Ref sig .tc) := [main_v642, main_v643, main_v644, main_c_76, main_v645, main_v646, main_v647, main_c_77, main_v648, main_v649, main_c_78, main_v650, main_v651, main_c_79, main_v652, main_v653, main_c_80, main_v654, main_v655, main_v656, main_c_81, main_v657, main_v658, main_c_82, main_v659, main_v660, main_v661, main_c_83, main_v662, main_v663, main_v664, main_c_84, main_v665, main_v666, main_c_85, main_v667, main_v668, main_c_86, main_v669, main_v670, main_c_87, main_v671, main_v672, main_v673, main_c_88, main_v674, main_v675, main_c_89, main_v676, main_v677, main_v678, main_c_90, main_v679, main_v680, main_v681, main_c_91, main_v682, main_v683, main_c_92, main_v684]
theorem hW32 : (main_part12_ops0 : List (HloOp τ sig (Elt F))).Forall fun op => op.writes ⊆ (Wl32.map (Proc.devRef (τ := τ) .tc)).toFinset :=
  ⟨LibAfter.single_sub (y := main_v642) (by decide), LibAfter.single_sub (y := main_v643) (by decide), LibAfter.single_sub (y := main_v644) (by decide), LibAfter.single_sub (y := main_c_76) (by decide), LibAfter.single_sub (y := main_v645) (by decide), LibAfter.single_sub (y := main_v646) (by decide), LibAfter.single_sub (y := main_v647) (by decide), LibAfter.single_sub (y := main_c_77) (by decide), LibAfter.single_sub (y := main_v648) (by decide), LibAfter.single_sub (y := main_v649) (by decide), LibAfter.single_sub (y := main_c_78) (by decide), LibAfter.single_sub (y := main_v650) (by decide), LibAfter.single_sub (y := main_v651) (by decide), LibAfter.single_sub (y := main_c_79) (by decide), LibAfter.single_sub (y := main_v652) (by decide), LibAfter.single_sub (y := main_v653) (by decide), LibAfter.single_sub (y := main_c_80) (by decide), LibAfter.single_sub (y := main_v654) (by decide), LibAfter.single_sub (y := main_v655) (by decide), LibAfter.single_sub (y := main_v656) (by decide), LibAfter.single_sub (y := main_c_81) (by decide), LibAfter.single_sub (y := main_v657) (by decide), LibAfter.single_sub (y := main_v658) (by decide), LibAfter.single_sub (y := main_c_82) (by decide), LibAfter.single_sub (y := main_v659) (by decide), LibAfter.single_sub (y := main_v660) (by decide), LibAfter.single_sub (y := main_v661) (by decide), LibAfter.single_sub (y := main_c_83) (by decide), LibAfter.single_sub (y := main_v662) (by decide), LibAfter.single_sub (y := main_v663) (by decide), LibAfter.single_sub (y := main_v664) (by decide), LibAfter.single_sub (y := main_c_84) (by decide), LibAfter.single_sub (y := main_v665) (by decide), LibAfter.single_sub (y := main_v666) (by decide), LibAfter.single_sub (y := main_c_85) (by decide), LibAfter.single_sub (y := main_v667) (by decide), LibAfter.single_sub (y := main_v668) (by decide), LibAfter.single_sub (y := main_c_86) (by decide), LibAfter.single_sub (y := main_v669) (by decide), LibAfter.single_sub (y := main_v670) (by decide), LibAfter.single_sub (y := main_c_87) (by decide), LibAfter.single_sub (y := main_v671) (by decide), LibAfter.single_sub (y := main_v672) (by decide), LibAfter.single_sub (y := main_v673) (by decide), LibAfter.single_sub (y := main_c_88) (by decide), LibAfter.single_sub (y := main_v674) (by decide), LibAfter.single_sub (y := main_v675) (by decide), LibAfter.single_sub (y := main_c_89) (by decide), LibAfter.single_sub (y := main_v676) (by decide), LibAfter.single_sub (y := main_v677) (by decide), LibAfter.single_sub (y := main_v678) (by decide), LibAfter.single_sub (y := main_c_90) (by decide), LibAfter.single_sub (y := main_v679) (by decide), LibAfter.single_sub (y := main_v680) (by decide), LibAfter.single_sub (y := main_v681) (by decide), LibAfter.single_sub (y := main_c_91) (by decide), LibAfter.single_sub (y := main_v682) (by decide), LibAfter.single_sub (y := main_v683) (by decide), LibAfter.single_sub (y := main_c_92) (by decide), LibAfter.single_sub (y := main_v684) (by decide)⟩

/-- The references line 33 (main_part13_ops0) writes, in order. -/
abbrev Wl33 : List (Ref sig .tc) := [main_v685, main_c_93, main_v686, main_v687, main_c_94, main_v688, main_v689, main_v690, main_c_95, main_v691, main_v692, main_c_96, main_v693, main_v694, main_v695, main_c_97, main_v696, main_v697, main_v698, main_c_98, main_v699, main_v700, main_c_99, main_v701, main_v702, main_c_100, main_v703, main_v704, main_c_101, main_v705, main_v706, main_v707, main_c_102, main_v708, main_v709, main_c_103, main_v710, main_v711, main_v712, main_c_104, main_v713, main_v714, main_v715, main_c_105, main_v716, main_v717, main_c_106, main_v718, main_v719, main_c_107, main_v720, main_v721, main_c_108, main_v722, main_v723, main_v724, main_c_109, main_v725, main_v726, main_c_110]
theorem hW33 : (main_part13_ops0 : List (HloOp τ sig (Elt F))).Forall fun op => op.writes ⊆ (Wl33.map (Proc.devRef (τ := τ) .tc)).toFinset :=
  ⟨LibAfter.single_sub (y := main_v685) (by decide), LibAfter.single_sub (y := main_c_93) (by decide), LibAfter.single_sub (y := main_v686) (by decide), LibAfter.single_sub (y := main_v687) (by decide), LibAfter.single_sub (y := main_c_94) (by decide), LibAfter.single_sub (y := main_v688) (by decide), LibAfter.single_sub (y := main_v689) (by decide), LibAfter.single_sub (y := main_v690) (by decide), LibAfter.single_sub (y := main_c_95) (by decide), LibAfter.single_sub (y := main_v691) (by decide), LibAfter.single_sub (y := main_v692) (by decide), LibAfter.single_sub (y := main_c_96) (by decide), LibAfter.single_sub (y := main_v693) (by decide), LibAfter.single_sub (y := main_v694) (by decide), LibAfter.single_sub (y := main_v695) (by decide), LibAfter.single_sub (y := main_c_97) (by decide), LibAfter.single_sub (y := main_v696) (by decide), LibAfter.single_sub (y := main_v697) (by decide), LibAfter.single_sub (y := main_v698) (by decide), LibAfter.single_sub (y := main_c_98) (by decide), LibAfter.single_sub (y := main_v699) (by decide), LibAfter.single_sub (y := main_v700) (by decide), LibAfter.single_sub (y := main_c_99) (by decide), LibAfter.single_sub (y := main_v701) (by decide), LibAfter.single_sub (y := main_v702) (by decide), LibAfter.single_sub (y := main_c_100) (by decide), LibAfter.single_sub (y := main_v703) (by decide), LibAfter.single_sub (y := main_v704) (by decide), LibAfter.single_sub (y := main_c_101) (by decide), LibAfter.single_sub (y := main_v705) (by decide), LibAfter.single_sub (y := main_v706) (by decide), LibAfter.single_sub (y := main_v707) (by decide), LibAfter.single_sub (y := main_c_102) (by decide), LibAfter.single_sub (y := main_v708) (by decide), LibAfter.single_sub (y := main_v709) (by decide), LibAfter.single_sub (y := main_c_103) (by decide), LibAfter.single_sub (y := main_v710) (by decide), LibAfter.single_sub (y := main_v711) (by decide), LibAfter.single_sub (y := main_v712) (by decide), LibAfter.single_sub (y := main_c_104) (by decide), LibAfter.single_sub (y := main_v713) (by decide), LibAfter.single_sub (y := main_v714) (by decide), LibAfter.single_sub (y := main_v715) (by decide), LibAfter.single_sub (y := main_c_105) (by decide), LibAfter.single_sub (y := main_v716) (by decide), LibAfter.single_sub (y := main_v717) (by decide), LibAfter.single_sub (y := main_c_106) (by decide), LibAfter.single_sub (y := main_v718) (by decide), LibAfter.single_sub (y := main_v719) (by decide), LibAfter.single_sub (y := main_c_107) (by decide), LibAfter.single_sub (y := main_v720) (by decide), LibAfter.single_sub (y := main_v721) (by decide), LibAfter.single_sub (y := main_c_108) (by decide), LibAfter.single_sub (y := main_v722) (by decide), LibAfter.single_sub (y := main_v723) (by decide), LibAfter.single_sub (y := main_v724) (by decide), LibAfter.single_sub (y := main_c_109) (by decide), LibAfter.single_sub (y := main_v725) (by decide), LibAfter.single_sub (y := main_v726) (by decide), LibAfter.single_sub (y := main_c_110) (by decide)⟩

/-- The references line 34 (main_part14_ops0) writes, in order. -/
abbrev Wl34 : List (Ref sig .tc) := [main_v727, main_v728, main_v729, main_c_111, main_v730, main_v731, main_v732, main_c_112, main_v733, main_v734, main_c_113, main_v735, main_v736, main_c_114, main_v737, main_v738, main_c_115, main_v739, main_v740, main_v741, main_c_116, main_v742, main_v743, main_c_117, main_v744, main_v745, main_v746, main_c_118, main_v747, main_v748, main_v749, main_c_119, main_v750, main_v751, main_c_120, main_v752, main_v753, main_c_121, main_v754, main_v755, main_c_122, main_v756, main_v757, main_v758, main_c_123, main_v759, main_v760, main_c_124, main_v761, main_v762, main_v763, main_c_125, main_v764, main_v765, main_v766, main_c_126, main_v767, main_v768, main_c_127, main_v769]
theorem hW34 : (main_part14_ops0 : List (HloOp τ sig (Elt F))).Forall fun op => op.writes ⊆ (Wl34.map (Proc.devRef (τ := τ) .tc)).toFinset :=
  ⟨LibAfter.single_sub (y := main_v727) (by decide), LibAfter.single_sub (y := main_v728) (by decide), LibAfter.single_sub (y := main_v729) (by decide), LibAfter.single_sub (y := main_c_111) (by decide), LibAfter.single_sub (y := main_v730) (by decide), LibAfter.single_sub (y := main_v731) (by decide), LibAfter.single_sub (y := main_v732) (by decide), LibAfter.single_sub (y := main_c_112) (by decide), LibAfter.single_sub (y := main_v733) (by decide), LibAfter.single_sub (y := main_v734) (by decide), LibAfter.single_sub (y := main_c_113) (by decide), LibAfter.single_sub (y := main_v735) (by decide), LibAfter.single_sub (y := main_v736) (by decide), LibAfter.single_sub (y := main_c_114) (by decide), LibAfter.single_sub (y := main_v737) (by decide), LibAfter.single_sub (y := main_v738) (by decide), LibAfter.single_sub (y := main_c_115) (by decide), LibAfter.single_sub (y := main_v739) (by decide), LibAfter.single_sub (y := main_v740) (by decide), LibAfter.single_sub (y := main_v741) (by decide), LibAfter.single_sub (y := main_c_116) (by decide), LibAfter.single_sub (y := main_v742) (by decide), LibAfter.single_sub (y := main_v743) (by decide), LibAfter.single_sub (y := main_c_117) (by decide), LibAfter.single_sub (y := main_v744) (by decide), LibAfter.single_sub (y := main_v745) (by decide), LibAfter.single_sub (y := main_v746) (by decide), LibAfter.single_sub (y := main_c_118) (by decide), LibAfter.single_sub (y := main_v747) (by decide), LibAfter.single_sub (y := main_v748) (by decide), LibAfter.single_sub (y := main_v749) (by decide), LibAfter.single_sub (y := main_c_119) (by decide), LibAfter.single_sub (y := main_v750) (by decide), LibAfter.single_sub (y := main_v751) (by decide), LibAfter.single_sub (y := main_c_120) (by decide), LibAfter.single_sub (y := main_v752) (by decide), LibAfter.single_sub (y := main_v753) (by decide), LibAfter.single_sub (y := main_c_121) (by decide), LibAfter.single_sub (y := main_v754) (by decide), LibAfter.single_sub (y := main_v755) (by decide), LibAfter.single_sub (y := main_c_122) (by decide), LibAfter.single_sub (y := main_v756) (by decide), LibAfter.single_sub (y := main_v757) (by decide), LibAfter.single_sub (y := main_v758) (by decide), LibAfter.single_sub (y := main_c_123) (by decide), LibAfter.single_sub (y := main_v759) (by decide), LibAfter.single_sub (y := main_v760) (by decide), LibAfter.single_sub (y := main_c_124) (by decide), LibAfter.single_sub (y := main_v761) (by decide), LibAfter.single_sub (y := main_v762) (by decide), LibAfter.single_sub (y := main_v763) (by decide), LibAfter.single_sub (y := main_c_125) (by decide), LibAfter.single_sub (y := main_v764) (by decide), LibAfter.single_sub (y := main_v765) (by decide), LibAfter.single_sub (y := main_v766) (by decide), LibAfter.single_sub (y := main_c_126) (by decide), LibAfter.single_sub (y := main_v767) (by decide), LibAfter.single_sub (y := main_v768) (by decide), LibAfter.single_sub (y := main_c_127) (by decide), LibAfter.single_sub (y := main_v769) (by decide)⟩

/-- The references line 35 (main_part15_ops0) writes, in order. -/
abbrev Wl35 : List (Ref sig .tc) := [main_v770, main_c_128, main_v771, main_v772, main_c_129, main_v773, main_v774, main_v775, main_c_130, main_v776, main_v777, main_c_131, main_v778, main_v779, main_v780, main_c_132, main_v781, main_v782, main_v783, main_c_133, main_v784, main_v785, main_c_134, main_v786, main_v787, main_c_135, main_v788, main_v789, main_c_136, main_v790, main_v791, main_v792, main_c_137, main_v793, main_v794, main_c_138, main_v795, main_v796, main_v797, main_c_139, main_v798, main_v799, main_v800, main_c_140, main_v801, main_v802, main_c_141, main_v803, main_v804, main_c_142, main_v805, main_v806, main_c_143, main_v807, main_v808, main_v809, main_c_144, main_v810, main_v811, main_c_145]
theorem hW35 : (main_part15_ops0 : List (HloOp τ sig (Elt F))).Forall fun op => op.writes ⊆ (Wl35.map (Proc.devRef (τ := τ) .tc)).toFinset :=
  ⟨LibAfter.single_sub (y := main_v770) (by decide), LibAfter.single_sub (y := main_c_128) (by decide), LibAfter.single_sub (y := main_v771) (by decide), LibAfter.single_sub (y := main_v772) (by decide), LibAfter.single_sub (y := main_c_129) (by decide), LibAfter.single_sub (y := main_v773) (by decide), LibAfter.single_sub (y := main_v774) (by decide), LibAfter.single_sub (y := main_v775) (by decide), LibAfter.single_sub (y := main_c_130) (by decide), LibAfter.single_sub (y := main_v776) (by decide), LibAfter.single_sub (y := main_v777) (by decide), LibAfter.single_sub (y := main_c_131) (by decide), LibAfter.single_sub (y := main_v778) (by decide), LibAfter.single_sub (y := main_v779) (by decide), LibAfter.single_sub (y := main_v780) (by decide), LibAfter.single_sub (y := main_c_132) (by decide), LibAfter.single_sub (y := main_v781) (by decide), LibAfter.single_sub (y := main_v782) (by decide), LibAfter.single_sub (y := main_v783) (by decide), LibAfter.single_sub (y := main_c_133) (by decide), LibAfter.single_sub (y := main_v784) (by decide), LibAfter.single_sub (y := main_v785) (by decide), LibAfter.single_sub (y := main_c_134) (by decide), LibAfter.single_sub (y := main_v786) (by decide), LibAfter.single_sub (y := main_v787) (by decide), LibAfter.single_sub (y := main_c_135) (by decide), LibAfter.single_sub (y := main_v788) (by decide), LibAfter.single_sub (y := main_v789) (by decide), LibAfter.single_sub (y := main_c_136) (by decide), LibAfter.single_sub (y := main_v790) (by decide), LibAfter.single_sub (y := main_v791) (by decide), LibAfter.single_sub (y := main_v792) (by decide), LibAfter.single_sub (y := main_c_137) (by decide), LibAfter.single_sub (y := main_v793) (by decide), LibAfter.single_sub (y := main_v794) (by decide), LibAfter.single_sub (y := main_c_138) (by decide), LibAfter.single_sub (y := main_v795) (by decide), LibAfter.single_sub (y := main_v796) (by decide), LibAfter.single_sub (y := main_v797) (by decide), LibAfter.single_sub (y := main_c_139) (by decide), LibAfter.single_sub (y := main_v798) (by decide), LibAfter.single_sub (y := main_v799) (by decide), LibAfter.single_sub (y := main_v800) (by decide), LibAfter.single_sub (y := main_c_140) (by decide), LibAfter.single_sub (y := main_v801) (by decide), LibAfter.single_sub (y := main_v802) (by decide), LibAfter.single_sub (y := main_c_141) (by decide), LibAfter.single_sub (y := main_v803) (by decide), LibAfter.single_sub (y := main_v804) (by decide), LibAfter.single_sub (y := main_c_142) (by decide), LibAfter.single_sub (y := main_v805) (by decide), LibAfter.single_sub (y := main_v806) (by decide), LibAfter.single_sub (y := main_c_143) (by decide), LibAfter.single_sub (y := main_v807) (by decide), LibAfter.single_sub (y := main_v808) (by decide), LibAfter.single_sub (y := main_v809) (by decide), LibAfter.single_sub (y := main_c_144) (by decide), LibAfter.single_sub (y := main_v810) (by decide), LibAfter.single_sub (y := main_v811) (by decide), LibAfter.single_sub (y := main_c_145) (by decide)⟩

/-- The references line 36 (main_part16_ops0) writes, in order. -/
abbrev Wl36 : List (Ref sig .tc) := [main_v812, main_v813, main_v814, main_c_146, main_v815, main_v816, main_v817, main_c_147, main_v818, main_v819, main_c_148, main_v820, main_v821, main_c_149, main_v822, main_v823, main_c_150, main_v824, main_v825, main_v826, main_c_151, main_v827, main_v828, main_c_152, main_v829, main_v830, main_v831, main_c_153, main_v832, main_v833, main_v834, main_c_154, main_v835, main_v836, main_c_155, main_v837, main_v838, main_c_156, main_v839, main_v840, main_c_157, main_v841, main_v842, main_v843, main_c_158, main_v844, main_v845, main_c_159, main_v846, main_v847, main_v848, main_c_160, main_v849, main_v850, main_v851, main_v852, main_v853, main_v854, main_v855, main_v856]
theorem hW36 : (main_part16_ops0 : List (HloOp τ sig (Elt F))).Forall fun op => op.writes ⊆ (Wl36.map (Proc.devRef (τ := τ) .tc)).toFinset :=
  ⟨LibAfter.single_sub (y := main_v812) (by decide), LibAfter.single_sub (y := main_v813) (by decide), LibAfter.single_sub (y := main_v814) (by decide), LibAfter.single_sub (y := main_c_146) (by decide), LibAfter.single_sub (y := main_v815) (by decide), LibAfter.single_sub (y := main_v816) (by decide), LibAfter.single_sub (y := main_v817) (by decide), LibAfter.single_sub (y := main_c_147) (by decide), LibAfter.single_sub (y := main_v818) (by decide), LibAfter.single_sub (y := main_v819) (by decide), LibAfter.single_sub (y := main_c_148) (by decide), LibAfter.single_sub (y := main_v820) (by decide), LibAfter.single_sub (y := main_v821) (by decide), LibAfter.single_sub (y := main_c_149) (by decide), LibAfter.single_sub (y := main_v822) (by decide), LibAfter.single_sub (y := main_v823) (by decide), LibAfter.single_sub (y := main_c_150) (by decide), LibAfter.single_sub (y := main_v824) (by decide), LibAfter.single_sub (y := main_v825) (by decide), LibAfter.single_sub (y := main_v826) (by decide), LibAfter.single_sub (y := main_c_151) (by decide), LibAfter.single_sub (y := main_v827) (by decide), LibAfter.single_sub (y := main_v828) (by decide), LibAfter.single_sub (y := main_c_152) (by decide), LibAfter.single_sub (y := main_v829) (by decide), LibAfter.single_sub (y := main_v830) (by decide), LibAfter.single_sub (y := main_v831) (by decide), LibAfter.single_sub (y := main_c_153) (by decide), LibAfter.single_sub (y := main_v832) (by decide), LibAfter.single_sub (y := main_v833) (by decide), LibAfter.single_sub (y := main_v834) (by decide), LibAfter.single_sub (y := main_c_154) (by decide), LibAfter.single_sub (y := main_v835) (by decide), LibAfter.single_sub (y := main_v836) (by decide), LibAfter.single_sub (y := main_c_155) (by decide), LibAfter.single_sub (y := main_v837) (by decide), LibAfter.single_sub (y := main_v838) (by decide), LibAfter.single_sub (y := main_c_156) (by decide), LibAfter.single_sub (y := main_v839) (by decide), LibAfter.single_sub (y := main_v840) (by decide), LibAfter.single_sub (y := main_c_157) (by decide), LibAfter.single_sub (y := main_v841) (by decide), LibAfter.single_sub (y := main_v842) (by decide), LibAfter.single_sub (y := main_v843) (by decide), LibAfter.single_sub (y := main_c_158) (by decide), LibAfter.single_sub (y := main_v844) (by decide), LibAfter.single_sub (y := main_v845) (by decide), LibAfter.single_sub (y := main_c_159) (by decide), LibAfter.single_sub (y := main_v846) (by decide), LibAfter.single_sub (y := main_v847) (by decide), LibAfter.single_sub (y := main_v848) (by decide), LibAfter.single_sub (y := main_c_160) (by decide), LibAfter.single_sub (y := main_v849) (by decide), LibAfter.single_sub (y := main_v850) (by decide), LibAfter.single_sub (y := main_v851) (by decide), LibAfter.single_sub (y := main_v852) (by decide), LibAfter.single_sub (y := main_v853) (by decide), LibAfter.single_sub (y := main_v854) (by decide), LibAfter.single_sub (y := main_v855) (by decide), LibAfter.single_sub (y := main_v856) (by decide)⟩

/-- The references line 37 (main_part17_ops0) writes, in order. -/
abbrev Wl37 : List (Ref sig .tc) := [main_v857, main_v858, main_v859, main_v860, main_v861, main_v862, main_v863, main_v864, main_v865, main_v866, main_v867, main_v868]
theorem hW37 : (main_part17_ops0 : List (HloOp τ sig (Elt F))).Forall fun op => op.writes ⊆ (Wl37.map (Proc.devRef (τ := τ) .tc)).toFinset :=
  ⟨LibAfter.single_sub (y := main_v857) (by decide), LibAfter.single_sub (y := main_v858) (by decide), LibAfter.single_sub (y := main_v859) (by decide), LibAfter.single_sub (y := main_v860) (by decide), LibAfter.single_sub (y := main_v861) (by decide), LibAfter.single_sub (y := main_v862) (by decide), LibAfter.single_sub (y := main_v863) (by decide), LibAfter.single_sub (y := main_v864) (by decide), LibAfter.single_sub (y := main_v865) (by decide), LibAfter.single_sub (y := main_v866) (by decide), LibAfter.single_sub (y := main_v867) (by decide), LibAfter.single_sub (y := main_v868) (by decide)⟩

/-- The references line 38 (main_part17_ops1) writes, in order. -/
abbrev Wl38 : List (Ref sig .tc) := [main_call10_c, main_call10_v0, main_call10_v1, main_call10_c_0, main_call10_v2, main_call10_v3, main_call10_v4, main_call10_v5, main_call10_c_1, main_call10_c_2, main_call10_v6, main_call10_v7, main_call10_v8, main_call10_v9, main_call10_v10, main_call10_v11, main_call10_c_3, main_call10_v12, main_call10_v13, main_call10_v14, main_call10_cst, main_call10_v15, main_v869]
theorem hW38 : (main_part17_ops1 : List (HloOp τ sig (Elt F))).Forall fun op => op.writes ⊆ (Wl38.map (Proc.devRef (τ := τ) .tc)).toFinset :=
  ⟨LibAfter.single_sub (y := main_call10_c) (by decide), LibAfter.single_sub (y := main_call10_v0) (by decide), LibAfter.single_sub (y := main_call10_v1) (by decide), LibAfter.single_sub (y := main_call10_c_0) (by decide), LibAfter.single_sub (y := main_call10_v2) (by decide), LibAfter.single_sub (y := main_call10_v3) (by decide), LibAfter.single_sub (y := main_call10_v4) (by decide), LibAfter.single_sub (y := main_call10_v5) (by decide), LibAfter.single_sub (y := main_call10_c_1) (by decide), LibAfter.single_sub (y := main_call10_c_2) (by decide), LibAfter.single_sub (y := main_call10_v6) (by decide), LibAfter.single_sub (y := main_call10_v7) (by decide), LibAfter.single_sub (y := main_call10_v8) (by decide), LibAfter.single_sub (y := main_call10_v9) (by decide), LibAfter.single_sub (y := main_call10_v10) (by decide), LibAfter.single_sub (y := main_call10_v11) (by decide), LibAfter.single_sub (y := main_call10_c_3) (by decide), LibAfter.single_sub (y := main_call10_v12) (by decide), LibAfter.single_sub (y := main_call10_v13) (by decide), LibAfter.single_sub (y := main_call10_v14) (by decide), LibAfter.single_sub (y := main_call10_cst) (by decide), LibAfter.single_sub (y := main_call10_v15) (by decide), LibAfter.single_sub (y := main_v869) (by decide)⟩

/-- Line 1 with each operation's function at the buffers' own types. -/
abbrev main_part0_ops1_plain : List (HloOp τ sig (Elt F)) :=
  [ StableHlo.unary main_c main_call0_v0 ((id) : (⟨S_, .i32⟩ : BufTy).Contents (Elt F) → (⟨S_, .i32⟩ : BufTy).Contents (Elt F)),
    StableHlo.unary main_call0_v0 main_call0_v1 (((broadcastInDim S4x1x256x256 ![] bcast_S_S4x1x256x256)) : (⟨S_, .i32⟩ : BufTy).Contents (Elt F) → (⟨S4x1x256x256, .i32⟩ : BufTy).Contents (Elt F)),
    StableHlo.binary main_v0 main_call0_v1 main_call0_v2 ((Host.divsi) : (⟨S4x1x256x256, .i32⟩ : BufTy).Contents (Elt F) → (⟨S4x1x256x256, .i32⟩ : BufTy).Contents (Elt F) → (⟨S4x1x256x256, .i32⟩ : BufTy).Contents (Elt F)),
    StableHlo.unary main_v0 main_call0_v3 ((signi) : (⟨S4x1x256x256, .i32⟩ : BufTy).Contents (Elt F) → (⟨S4x1x256x256, .i32⟩ : BufTy).Contents (Elt F)),
    StableHlo.unary main_call0_v0 main_call0_v4 ((signi) : (⟨S_, .i32⟩ : BufTy).Contents (Elt F) → (⟨S_, .i32⟩ : BufTy).Contents (Elt F)),
    StableHlo.unary main_call0_v4 main_call0_v5 (((broadcastInDim S4x1x256x256 ![] bcast_S_S4x1x256x256)) : (⟨S_, .i32⟩ : BufTy).Contents (Elt F) → (⟨S4x1x256x256, .i32⟩ : BufTy).Contents (Elt F)),
    StableHlo.binary main_call0_v3 main_call0_v5 main_call0_v6 (((cmpi .ne)) : (⟨S4x1x256x256, .i32⟩ : BufTy).Contents (Elt F) → (⟨S4x1x256x256, .i32⟩ : BufTy).Contents (Elt F) → (⟨S4x1x256x256, .i1⟩ : BufTy).Contents (Elt F)),
    StableHlo.unary main_call0_v0 main_call0_v7 (((broadcastInDim S4x1x256x256 ![] bcast_S_S4x1x256x256)) : (⟨S_, .i32⟩ : BufTy).Contents (Elt F) → (⟨S4x1x256x256, .i32⟩ : BufTy).Contents (Elt F)),
    StableHlo.binary main_v0 main_call0_v7 main_call0_v8 ((Host.remsi) : (⟨S4x1x256x256, .i32⟩ : BufTy).Contents (Elt F) → (⟨S4x1x256x256, .i32⟩ : BufTy).Contents (Elt F) → (⟨S4x1x256x256, .i32⟩ : BufTy).Contents (Elt F)),
    StableHlo.nullary main_call0_c ((constantI S_ 32 0#32) : (⟨S_, .i32⟩ : BufTy).Contents (Elt F)),
    StableHlo.unary main_call0_c main_call0_v9 (((broadcastInDim S4x1x256x256 ![] bcast_S_S4x1x256x256)) : (⟨S_, .i32⟩ : BufTy).Contents (Elt F) → (⟨S4x1x256x256, .i32⟩ : BufTy).Contents (Elt F)),
    StableHlo.binary main_call0_v8 main_call0_v9 main_call0_v10 (((cmpi .ne)) : (⟨S4x1x256x256, .i32⟩ : BufTy).Contents (Elt F) → (⟨S4x1x256x256, .i32⟩ : BufTy).Contents (Elt F) → (⟨S4x1x256x256, .i1⟩ : BufTy).Contents (Elt F)),
    StableHlo.binary main_call0_v6 main_call0_v10 main_call0_v11 ((andi) : (⟨S4x1x256x256, .i1⟩ : BufTy).Contents (Elt F) → (⟨S4x1x256x256, .i1⟩ : BufTy).Contents (Elt F) → (⟨S4x1x256x256, .i1⟩ : BufTy).Contents (Elt F)),
    StableHlo.nullary main_call0_c_0 ((constantI S_ 32 1#32) : (⟨S_, .i32⟩ : BufTy).Contents (Elt F)),
    StableHlo.unary main_call0_c_0 main_call0_v12 (((broadcastInDim S4x1x256x256 ![] bcast_S_S4x1x256x256)) : (⟨S_, .i32⟩ : BufTy).Contents (Elt F) → (⟨S4x1x256x256, .i32⟩ : BufTy).Contents (Elt F)),
    StableHlo.binary main_call0_v2 main_call0_v12 main_call0_v13 ((subi) : (⟨S4x1x256x256, .i32⟩ : BufTy).Contents (Elt F) → (⟨S4x1x256x256, .i32⟩ : BufTy).Contents (Elt F) → (⟨S4x1x256x256, .i32⟩ : BufTy).Contents (Elt F)),
    StableHlo.ternary main_call0_v11 main_call0_v13 main_call0_v2 main_v4 ((select) : (⟨S4x1x256x256, .i1⟩ : BufTy).Contents (Elt F) → (⟨S4x1x256x256, .i32⟩ : BufTy).Contents (Elt F) → (⟨S4x1x256x256, .i32⟩ : BufTy).Contents (Elt F) → (⟨S4x1x256x256, .i32⟩ : BufTy).Contents (Elt F)) ]
theorem main_part0_ops1_plain_eq : (main_part0_ops1 : List (HloOp τ sig (Elt F))) = main_part0_ops1_plain := by
  chain_rfl

/-- Line 3 with each operation's function at the buffers' own types. -/
abbrev main_part0_ops3_plain : List (HloOp τ sig (Elt F)) :=
  [ StableHlo.unary main_c_0 main_call1_v0 ((id) : (⟨S_, .i32⟩ : BufTy).Contents (Elt F) → (⟨S_, .i32⟩ : BufTy).Contents (Elt F)),
    StableHlo.unary main_call1_v0 main_call1_v1 (((broadcastInDim S4x1x256x256 ![] bcast_S_S4x1x256x256)) : (⟨S_, .i32⟩ : BufTy).Contents (Elt F) → (⟨S4x1x256x256, .i32⟩ : BufTy).Contents (Elt F)),
    StableHlo.binary main_v1 main_call1_v1 main_call1_v2 ((Host.divsi) : (⟨S4x1x256x256, .i32⟩ : BufTy).Contents (Elt F) → (⟨S4x1x256x256, .i32⟩ : BufTy).Contents (Elt F) → (⟨S4x1x256x256, .i32⟩ : BufTy).Contents (Elt F)),
    StableHlo.unary main_v1 main_call1_v3 ((signi) : (⟨S4x1x256x256, .i32⟩ : BufTy).Contents (Elt F) → (⟨S4x1x256x256, .i32⟩ : BufTy).Contents (Elt F)),
    StableHlo.unary main_call1_v0 main_call1_v4 ((signi) : (⟨S_, .i32⟩ : BufTy).Contents (Elt F) → (⟨S_, .i32⟩ : BufTy).Contents (Elt F)),
    StableHlo.unary main_call1_v4 main_call1_v5 (((broadcastInDim S4x1x256x256 ![] bcast_S_S4x1x256x256)) : (⟨S_, .i32⟩ : BufTy).Contents (Elt F) → (⟨S4x1x256x256, .i32⟩ : BufTy).Contents (Elt F)),
    StableHlo.binary main_call1_v3 main_call1_v5 main_call1_v6 (((cmpi .ne)) : (⟨S4x1x256x256, .i32⟩ : BufTy).Contents (Elt F) → (⟨S4x1x256x256, .i32⟩ : BufTy).Contents (Elt F) → (⟨S4x1x256x256, .i1⟩ : BufTy).Contents (Elt F)),
    StableHlo.unary main_call1_v0 main_call1_v7 (((broadcastInDim S4x1x256x256 ![] bcast_S_S4x1x256x256)) : (⟨S_, .i32⟩ : BufTy).Contents (Elt F) → (⟨S4x1x256x256, .i32⟩ : BufTy).Contents (Elt F)),
    StableHlo.binary main_v1 main_call1_v7 main_call1_v8 ((Host.remsi) : (⟨S4x1x256x256, .i32⟩ : BufTy).Contents (Elt F) → (⟨S4x1x256x256, .i32⟩ : BufTy).Contents (Elt F) → (⟨S4x1x256x256, .i32⟩ : BufTy).Contents (Elt F)),
    StableHlo.nullary main_call1_c ((constantI S_ 32 0#32) : (⟨S_, .i32⟩ : BufTy).Contents (Elt F)),
    StableHlo.unary main_call1_c main_call1_v9 (((broadcastInDim S4x1x256x256 ![] bcast_S_S4x1x256x256)) : (⟨S_, .i32⟩ : BufTy).Contents (Elt F) → (⟨S4x1x256x256, .i32⟩ : BufTy).Contents (Elt F)),
    StableHlo.binary main_call1_v8 main_call1_v9 main_call1_v10 (((cmpi .ne)) : (⟨S4x1x256x256, .i32⟩ : BufTy).Contents (Elt F) → (⟨S4x1x256x256, .i32⟩ : BufTy).Contents (Elt F) → (⟨S4x1x256x256, .i1⟩ : BufTy).Contents (Elt F)),
    StableHlo.binary main_call1_v6 main_call1_v10 main_call1_v11 ((andi) : (⟨S4x1x256x256, .i1⟩ : BufTy).Contents (Elt F) → (⟨S4x1x256x256, .i1⟩ : BufTy).Contents (Elt F) → (⟨S4x1x256x256, .i1⟩ : BufTy).Contents (Elt F)),
    StableHlo.nullary main_call1_c_0 ((constantI S_ 32 1#32) : (⟨S_, .i32⟩ : BufTy).Contents (Elt F)),
    StableHlo.unary main_call1_c_0 main_call1_v12 (((broadcastInDim S4x1x256x256 ![] bcast_S_S4x1x256x256)) : (⟨S_, .i32⟩ : BufTy).Contents (Elt F) → (⟨S4x1x256x256, .i32⟩ : BufTy).Contents (Elt F)),
    StableHlo.binary main_call1_v2 main_call1_v12 main_call1_v13 ((subi) : (⟨S4x1x256x256, .i32⟩ : BufTy).Contents (Elt F) → (⟨S4x1x256x256, .i32⟩ : BufTy).Contents (Elt F) → (⟨S4x1x256x256, .i32⟩ : BufTy).Contents (Elt F)),
    StableHlo.ternary main_call1_v11 main_call1_v13 main_call1_v2 main_v6 ((select) : (⟨S4x1x256x256, .i1⟩ : BufTy).Contents (Elt F) → (⟨S4x1x256x256, .i32⟩ : BufTy).Contents (Elt F) → (⟨S4x1x256x256, .i32⟩ : BufTy).Contents (Elt F) → (⟨S4x1x256x256, .i32⟩ : BufTy).Contents (Elt F)) ]
theorem main_part0_ops3_plain_eq : (main_part0_ops3 : List (HloOp τ sig (Elt F))) = main_part0_ops3_plain := by
  chain_rfl

/-- Line 5 with each operation's function at the buffers' own types. -/
abbrev main_part0_ops5_plain : List (HloOp τ sig (Elt F)) :=
  [ StableHlo.unary main_c_1 main_call2_v0 ((id) : (⟨S_, .i32⟩ : BufTy).Contents (Elt F) → (⟨S_, .i32⟩ : BufTy).Contents (Elt F)),
    StableHlo.unary main_call2_v0 main_call2_v1 (((broadcastInDim S4x1x256x256 ![] bcast_S_S4x1x256x256)) : (⟨S_, .i32⟩ : BufTy).Contents (Elt F) → (⟨S4x1x256x256, .i32⟩ : BufTy).Contents (Elt F)),
    StableHlo.binary main_v2 main_call2_v1 main_call2_v2 ((Host.divsi) : (⟨S4x1x256x256, .i32⟩ : BufTy).Contents (Elt F) → (⟨S4x1x256x256, .i32⟩ : BufTy).Contents (Elt F) → (⟨S4x1x256x256, .i32⟩ : BufTy).Contents (Elt F)),
    StableHlo.unary main_v2 main_call2_v3 ((signi) : (⟨S4x1x256x256, .i32⟩ : BufTy).Contents (Elt F) → (⟨S4x1x256x256, .i32⟩ : BufTy).Contents (Elt F)),
    StableHlo.unary main_call2_v0 main_call2_v4 ((signi) : (⟨S_, .i32⟩ : BufTy).Contents (Elt F) → (⟨S_, .i32⟩ : BufTy).Contents (Elt F)),
    StableHlo.unary main_call2_v4 main_call2_v5 (((broadcastInDim S4x1x256x256 ![] bcast_S_S4x1x256x256)) : (⟨S_, .i32⟩ : BufTy).Contents (Elt F) → (⟨S4x1x256x256, .i32⟩ : BufTy).Contents (Elt F)),
    StableHlo.binary main_call2_v3 main_call2_v5 main_call2_v6 (((cmpi .ne)) : (⟨S4x1x256x256, .i32⟩ : BufTy).Contents (Elt F) → (⟨S4x1x256x256, .i32⟩ : BufTy).Contents (Elt F) → (⟨S4x1x256x256, .i1⟩ : BufTy).Contents (Elt F)),
    StableHlo.unary main_call2_v0 main_call2_v7 (((broadcastInDim S4x1x256x256 ![] bcast_S_S4x1x256x256)) : (⟨S_, .i32⟩ : BufTy).Contents (Elt F) → (⟨S4x1x256x256, .i32⟩ : BufTy).Contents (Elt F)),
    StableHlo.binary main_v2 main_call2_v7 main_call2_v8 ((Host.remsi) : (⟨S4x1x256x256, .i32⟩ : BufTy).Contents (Elt F) → (⟨S4x1x256x256, .i32⟩ : BufTy).Contents (Elt F) → (⟨S4x1x256x256, .i32⟩ : BufTy).Contents (Elt F)),
    StableHlo.nullary main_call2_c ((constantI S_ 32 0#32) : (⟨S_, .i32⟩ : BufTy).Contents (Elt F)),
    StableHlo.unary main_call2_c main_call2_v9 (((broadcastInDim S4x1x256x256 ![] bcast_S_S4x1x256x256)) : (⟨S_, .i32⟩ : BufTy).Contents (Elt F) → (⟨S4x1x256x256, .i32⟩ : BufTy).Contents (Elt F)),
    StableHlo.binary main_call2_v8 main_call2_v9 main_call2_v10 (((cmpi .ne)) : (⟨S4x1x256x256, .i32⟩ : BufTy).Contents (Elt F) → (⟨S4x1x256x256, .i32⟩ : BufTy).Contents (Elt F) → (⟨S4x1x256x256, .i1⟩ : BufTy).Contents (Elt F)),
    StableHlo.binary main_call2_v6 main_call2_v10 main_call2_v11 ((andi) : (⟨S4x1x256x256, .i1⟩ : BufTy).Contents (Elt F) → (⟨S4x1x256x256, .i1⟩ : BufTy).Contents (Elt F) → (⟨S4x1x256x256, .i1⟩ : BufTy).Contents (Elt F)),
    StableHlo.nullary main_call2_c_0 ((constantI S_ 32 1#32) : (⟨S_, .i32⟩ : BufTy).Contents (Elt F)),
    StableHlo.unary main_call2_c_0 main_call2_v12 (((broadcastInDim S4x1x256x256 ![] bcast_S_S4x1x256x256)) : (⟨S_, .i32⟩ : BufTy).Contents (Elt F) → (⟨S4x1x256x256, .i32⟩ : BufTy).Contents (Elt F)),
    StableHlo.binary main_call2_v2 main_call2_v12 main_call2_v13 ((subi) : (⟨S4x1x256x256, .i32⟩ : BufTy).Contents (Elt F) → (⟨S4x1x256x256, .i32⟩ : BufTy).Contents (Elt F) → (⟨S4x1x256x256, .i32⟩ : BufTy).Contents (Elt F)),
    StableHlo.ternary main_call2_v11 main_call2_v13 main_call2_v2 main_v8 ((select) : (⟨S4x1x256x256, .i1⟩ : BufTy).Contents (Elt F) → (⟨S4x1x256x256, .i32⟩ : BufTy).Contents (Elt F) → (⟨S4x1x256x256, .i32⟩ : BufTy).Contents (Elt F) → (⟨S4x1x256x256, .i32⟩ : BufTy).Contents (Elt F)) ]
theorem main_part0_ops5_plain_eq : (main_part0_ops5 : List (HloOp τ sig (Elt F))) = main_part0_ops5_plain := by
  chain_rfl

/-- Line 7 with each operation's function at the buffers' own types. -/
abbrev main_part0_ops7_plain : List (HloOp τ sig (Elt F)) :=
  [ StableHlo.unary main_c_2 main_call3_v0 ((id) : (⟨S_, .i32⟩ : BufTy).Contents (Elt F) → (⟨S_, .i32⟩ : BufTy).Contents (Elt F)),
    StableHlo.unary main_call3_v0 main_call3_v1 (((broadcastInDim S4x1x256x256 ![] bcast_S_S4x1x256x256)) : (⟨S_, .i32⟩ : BufTy).Contents (Elt F) → (⟨S4x1x256x256, .i32⟩ : BufTy).Contents (Elt F)),
    StableHlo.binary main_v3 main_call3_v1 main_call3_v2 ((Host.divsi) : (⟨S4x1x256x256, .i32⟩ : BufTy).Contents (Elt F) → (⟨S4x1x256x256, .i32⟩ : BufTy).Contents (Elt F) → (⟨S4x1x256x256, .i32⟩ : BufTy).Contents (Elt F)),
    StableHlo.unary main_v3 main_call3_v3 ((signi) : (⟨S4x1x256x256, .i32⟩ : BufTy).Contents (Elt F) → (⟨S4x1x256x256, .i32⟩ : BufTy).Contents (Elt F)),
    StableHlo.unary main_call3_v0 main_call3_v4 ((signi) : (⟨S_, .i32⟩ : BufTy).Contents (Elt F) → (⟨S_, .i32⟩ : BufTy).Contents (Elt F)),
    StableHlo.unary main_call3_v4 main_call3_v5 (((broadcastInDim S4x1x256x256 ![] bcast_S_S4x1x256x256)) : (⟨S_, .i32⟩ : BufTy).Contents (Elt F) → (⟨S4x1x256x256, .i32⟩ : BufTy).Contents (Elt F)),
    StableHlo.binary main_call3_v3 main_call3_v5 main_call3_v6 (((cmpi .ne)) : (⟨S4x1x256x256, .i32⟩ : BufTy).Contents (Elt F) → (⟨S4x1x256x256, .i32⟩ : BufTy).Contents (Elt F) → (⟨S4x1x256x256, .i1⟩ : BufTy).Contents (Elt F)),
    StableHlo.unary main_call3_v0 main_call3_v7 (((broadcastInDim S4x1x256x256 ![] bcast_S_S4x1x256x256)) : (⟨S_, .i32⟩ : BufTy).Contents (Elt F) → (⟨S4x1x256x256, .i32⟩ : BufTy).Contents (Elt F)),
    StableHlo.binary main_v3 main_call3_v7 main_call3_v8 ((Host.remsi) : (⟨S4x1x256x256, .i32⟩ : BufTy).Contents (Elt F) → (⟨S4x1x256x256, .i32⟩ : BufTy).Contents (Elt F) → (⟨S4x1x256x256, .i32⟩ : BufTy).Contents (Elt F)),
    StableHlo.nullary main_call3_c ((constantI S_ 32 0#32) : (⟨S_, .i32⟩ : BufTy).Contents (Elt F)),
    StableHlo.unary main_call3_c main_call3_v9 (((broadcastInDim S4x1x256x256 ![] bcast_S_S4x1x256x256)) : (⟨S_, .i32⟩ : BufTy).Contents (Elt F) → (⟨S4x1x256x256, .i32⟩ : BufTy).Contents (Elt F)),
    StableHlo.binary main_call3_v8 main_call3_v9 main_call3_v10 (((cmpi .ne)) : (⟨S4x1x256x256, .i32⟩ : BufTy).Contents (Elt F) → (⟨S4x1x256x256, .i32⟩ : BufTy).Contents (Elt F) → (⟨S4x1x256x256, .i1⟩ : BufTy).Contents (Elt F)),
    StableHlo.binary main_call3_v6 main_call3_v10 main_call3_v11 ((andi) : (⟨S4x1x256x256, .i1⟩ : BufTy).Contents (Elt F) → (⟨S4x1x256x256, .i1⟩ : BufTy).Contents (Elt F) → (⟨S4x1x256x256, .i1⟩ : BufTy).Contents (Elt F)),
    StableHlo.nullary main_call3_c_0 ((constantI S_ 32 1#32) : (⟨S_, .i32⟩ : BufTy).Contents (Elt F)),
    StableHlo.unary main_call3_c_0 main_call3_v12 (((broadcastInDim S4x1x256x256 ![] bcast_S_S4x1x256x256)) : (⟨S_, .i32⟩ : BufTy).Contents (Elt F) → (⟨S4x1x256x256, .i32⟩ : BufTy).Contents (Elt F)),
    StableHlo.binary main_call3_v2 main_call3_v12 main_call3_v13 ((subi) : (⟨S4x1x256x256, .i32⟩ : BufTy).Contents (Elt F) → (⟨S4x1x256x256, .i32⟩ : BufTy).Contents (Elt F) → (⟨S4x1x256x256, .i32⟩ : BufTy).Contents (Elt F)),
    StableHlo.ternary main_call3_v11 main_call3_v13 main_call3_v2 main_v10 ((select) : (⟨S4x1x256x256, .i1⟩ : BufTy).Contents (Elt F) → (⟨S4x1x256x256, .i32⟩ : BufTy).Contents (Elt F) → (⟨S4x1x256x256, .i32⟩ : BufTy).Contents (Elt F) → (⟨S4x1x256x256, .i32⟩ : BufTy).Contents (Elt F)) ]
theorem main_part0_ops7_plain_eq : (main_part0_ops7 : List (HloOp τ sig (Elt F))) = main_part0_ops7_plain := by
  chain_rfl

/-- Line 9 with each operation's function at the buffers' own types. -/
abbrev main_part0_ops9_plain : List (HloOp τ sig (Elt F)) :=
  [ StableHlo.unary main_c_3 main_call4_v0 ((id) : (⟨S_, .i32⟩ : BufTy).Contents (Elt F) → (⟨S_, .i32⟩ : BufTy).Contents (Elt F)),
    StableHlo.nullary main_call4_c ((constantI S_ 32 0#32) : (⟨S_, .i32⟩ : BufTy).Contents (Elt F)),
    StableHlo.binary main_call4_v0 main_call4_c main_call4_v1 (((cmpi .eq)) : (⟨S_, .i32⟩ : BufTy).Contents (Elt F) → (⟨S_, .i32⟩ : BufTy).Contents (Elt F) → (⟨S_, .i1⟩ : BufTy).Contents (Elt F)),
    StableHlo.nullary main_call4_c_0 ((constantI S_ 32 1#32) : (⟨S_, .i32⟩ : BufTy).Contents (Elt F)),
    StableHlo.ternary main_call4_v1 main_call4_c_0 main_call4_v0 main_call4_v2 ((select) : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_call4_call0.v0.ref main_call4_v3 ((broadcastInDim S4x1x256x256 ![] bcast_S_S4x1x256x256)),
    StableHlo.binary main_v0 main_call4_v3 main_call4_v4 ((Host.remsi) : (⟨S4x1x256x256, .i32⟩ : BufTy).Contents (Elt F) → (⟨S4x1x256x256, .i32⟩ : BufTy).Contents (Elt F) → (⟨S4x1x256x256, .i32⟩ : BufTy).Contents (Elt F)),
    StableHlo.nullary main_call4_c_1 ((constantI S_ 32 0#32) : (⟨S_, .i32⟩ : BufTy).Contents (Elt F)),
    StableHlo.unary main_call4_c_1 main_call4_v5 (((broadcastInDim S4x1x256x256 ![] bcast_S_S4x1x256x256)) : (⟨S_, .i32⟩ : BufTy).Contents (Elt F) → (⟨S4x1x256x256, .i32⟩ : BufTy).Contents (Elt F)),
    StableHlo.binary main_call4_v4 main_call4_v5 main_call4_v6 (((cmpi .ne)) : (⟨S4x1x256x256, .i32⟩ : BufTy).Contents (Elt F) → (⟨S4x1x256x256, .i32⟩ : BufTy).Contents (Elt F) → (⟨S4x1x256x256, .i1⟩ : BufTy).Contents (Elt F)),
    StableHlo.nullary main_call4_c_2 ((constantI S_ 32 0#32) : (⟨S_, .i32⟩ : BufTy).Contents (Elt F)),
    StableHlo.unary main_call4_c_2 main_call4_v7 (((broadcastInDim S4x1x256x256 ![] bcast_S_S4x1x256x256)) : (⟨S_, .i32⟩ : BufTy).Contents (Elt F) → (⟨S4x1x256x256, .i32⟩ : BufTy).Contents (Elt F)),
    StableHlo.binary main_call4_v4 main_call4_v7 main_call4_v8 (((cmpi .slt)) : (⟨S4x1x256x256, .i32⟩ : BufTy).Contents (Elt F) → (⟨S4x1x256x256, .i32⟩ : BufTy).Contents (Elt F) → (⟨S4x1x256x256, .i1⟩ : BufTy).Contents (Elt F)),
    StableHlo.nullary main_call4_c_3 ((constantI S_ 32 0#32) : (⟨S_, .i32⟩ : BufTy).Contents (Elt F)),
    StableHlo.binary main_call4_call0.v0.ref main_call4_c_3 main_call4_v9 ((cmpi .slt)),
    StableHlo.unary main_call4_v9 main_call4_v10 (((broadcastInDim S4x1x256x256 ![] bcast_S_S4x1x256x256)) : (⟨S_, .i1⟩ : BufTy).Contents (Elt F) → (⟨S4x1x256x256, .i1⟩ : BufTy).Contents (Elt F)),
    StableHlo.binary main_call4_v8 main_call4_v10 main_call4_v11 (((cmpi .ne)) : (⟨S4x1x256x256, .i1⟩ : BufTy).Contents (Elt F) → (⟨S4x1x256x256, .i1⟩ : BufTy).Contents (Elt F) → (⟨S4x1x256x256, .i1⟩ : BufTy).Contents (Elt F)),
    StableHlo.binary main_call4_v11 main_call4_v6 main_call4_v12 ((andi) : (⟨S4x1x256x256, .i1⟩ : BufTy).Contents (Elt F) → (⟨S4x1x256x256, .i1⟩ : BufTy).Contents (Elt F) → (⟨S4x1x256x256, .i1⟩ : BufTy).Contents (Elt F)),
    StableHlo.unary main_call4_call0.v0.ref main_call4_v13 ((broadcastInDim S4x1x256x256 ![] bcast_S_S4x1x256x256)),
    StableHlo.binary main_call4_v4 main_call4_v13 main_call4_v14 ((addi) : (⟨S4x1x256x256, .i32⟩ : BufTy).Contents (Elt F) → (⟨S4x1x256x256, .i32⟩ : BufTy).Contents (Elt F) → (⟨S4x1x256x256, .i32⟩ : BufTy).Contents (Elt F)),
    StableHlo.ternary main_call4_v12 main_call4_v14 main_call4_v4 main_v12 ((select) : (⟨S4x1x256x256, .i1⟩ : BufTy).Contents (Elt F) → (⟨S4x1x256x256, .i32⟩ : BufTy).Contents (Elt F) → (⟨S4x1x256x256, .i32⟩ : BufTy).Contents (Elt F) → (⟨S4x1x256x256, .i32⟩ : BufTy).Contents (Elt F)) ]
theorem main_part0_ops9_plain_eq : (main_part0_ops9 : List (HloOp τ sig (Elt F))) = main_part0_ops9_plain := by
  chain_rfl

/-- Line 11 with each operation's function at the buffers' own types. -/
abbrev main_part0_ops11_plain : List (HloOp τ sig (Elt F)) :=
  [ StableHlo.unary main_c_4 main_call5_v0 ((id) : (⟨S_, .i32⟩ : BufTy).Contents (Elt F) → (⟨S_, .i32⟩ : BufTy).Contents (Elt F)),
    StableHlo.nullary main_call5_c ((constantI S_ 32 0#32) : (⟨S_, .i32⟩ : BufTy).Contents (Elt F)),
    StableHlo.binary main_call5_v0 main_call5_c main_call5_v1 (((cmpi .eq)) : (⟨S_, .i32⟩ : BufTy).Contents (Elt F) → (⟨S_, .i32⟩ : BufTy).Contents (Elt F) → (⟨S_, .i1⟩ : BufTy).Contents (Elt F)),
    StableHlo.nullary main_call5_c_0 ((constantI S_ 32 1#32) : (⟨S_, .i32⟩ : BufTy).Contents (Elt F)),
    StableHlo.ternary main_call5_v1 main_call5_c_0 main_call5_v0 main_call5_v2 ((select) : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_call5_call0.v0.ref main_call5_v3 ((broadcastInDim S4x1x256x256 ![] bcast_S_S4x1x256x256)),
    StableHlo.binary main_v1 main_call5_v3 main_call5_v4 ((Host.remsi) : (⟨S4x1x256x256, .i32⟩ : BufTy).Contents (Elt F) → (⟨S4x1x256x256, .i32⟩ : BufTy).Contents (Elt F) → (⟨S4x1x256x256, .i32⟩ : BufTy).Contents (Elt F)),
    StableHlo.nullary main_call5_c_1 ((constantI S_ 32 0#32) : (⟨S_, .i32⟩ : BufTy).Contents (Elt F)),
    StableHlo.unary main_call5_c_1 main_call5_v5 (((broadcastInDim S4x1x256x256 ![] bcast_S_S4x1x256x256)) : (⟨S_, .i32⟩ : BufTy).Contents (Elt F) → (⟨S4x1x256x256, .i32⟩ : BufTy).Contents (Elt F)),
    StableHlo.binary main_call5_v4 main_call5_v5 main_call5_v6 (((cmpi .ne)) : (⟨S4x1x256x256, .i32⟩ : BufTy).Contents (Elt F) → (⟨S4x1x256x256, .i32⟩ : BufTy).Contents (Elt F) → (⟨S4x1x256x256, .i1⟩ : BufTy).Contents (Elt F)),
    StableHlo.nullary main_call5_c_2 ((constantI S_ 32 0#32) : (⟨S_, .i32⟩ : BufTy).Contents (Elt F)),
    StableHlo.unary main_call5_c_2 main_call5_v7 (((broadcastInDim S4x1x256x256 ![] bcast_S_S4x1x256x256)) : (⟨S_, .i32⟩ : BufTy).Contents (Elt F) → (⟨S4x1x256x256, .i32⟩ : BufTy).Contents (Elt F)),
    StableHlo.binary main_call5_v4 main_call5_v7 main_call5_v8 (((cmpi .slt)) : (⟨S4x1x256x256, .i32⟩ : BufTy).Contents (Elt F) → (⟨S4x1x256x256, .i32⟩ : BufTy).Contents (Elt F) → (⟨S4x1x256x256, .i1⟩ : BufTy).Contents (Elt F)),
    StableHlo.nullary main_call5_c_3 ((constantI S_ 32 0#32) : (⟨S_, .i32⟩ : BufTy).Contents (Elt F)),
    StableHlo.binary main_call5_call0.v0.ref main_call5_c_3 main_call5_v9 ((cmpi .slt)),
    StableHlo.unary main_call5_v9 main_call5_v10 (((broadcastInDim S4x1x256x256 ![] bcast_S_S4x1x256x256)) : (⟨S_, .i1⟩ : BufTy).Contents (Elt F) → (⟨S4x1x256x256, .i1⟩ : BufTy).Contents (Elt F)),
    StableHlo.binary main_call5_v8 main_call5_v10 main_call5_v11 (((cmpi .ne)) : (⟨S4x1x256x256, .i1⟩ : BufTy).Contents (Elt F) → (⟨S4x1x256x256, .i1⟩ : BufTy).Contents (Elt F) → (⟨S4x1x256x256, .i1⟩ : BufTy).Contents (Elt F)),
    StableHlo.binary main_call5_v11 main_call5_v6 main_call5_v12 ((andi) : (⟨S4x1x256x256, .i1⟩ : BufTy).Contents (Elt F) → (⟨S4x1x256x256, .i1⟩ : BufTy).Contents (Elt F) → (⟨S4x1x256x256, .i1⟩ : BufTy).Contents (Elt F)),
    StableHlo.unary main_call5_call0.v0.ref main_call5_v13 ((broadcastInDim S4x1x256x256 ![] bcast_S_S4x1x256x256)),
    StableHlo.binary main_call5_v4 main_call5_v13 main_call5_v14 ((addi) : (⟨S4x1x256x256, .i32⟩ : BufTy).Contents (Elt F) → (⟨S4x1x256x256, .i32⟩ : BufTy).Contents (Elt F) → (⟨S4x1x256x256, .i32⟩ : BufTy).Contents (Elt F)),
    StableHlo.ternary main_call5_v12 main_call5_v14 main_call5_v4 main_v15 ((select) : (⟨S4x1x256x256, .i1⟩ : BufTy).Contents (Elt F) → (⟨S4x1x256x256, .i32⟩ : BufTy).Contents (Elt F) → (⟨S4x1x256x256, .i32⟩ : BufTy).Contents (Elt F) → (⟨S4x1x256x256, .i32⟩ : BufTy).Contents (Elt F)) ]
theorem main_part0_ops11_plain_eq : (main_part0_ops11 : List (HloOp τ sig (Elt F))) = main_part0_ops11_plain := by
  chain_rfl

/-- Line 13 with each operation's function at the buffers' own types. -/
abbrev main_part0_ops13_plain : List (HloOp τ sig (Elt F)) :=
  [ StableHlo.unary main_c_5 main_call6_v0 ((id) : (⟨S_, .i32⟩ : BufTy).Contents (Elt F) → (⟨S_, .i32⟩ : BufTy).Contents (Elt F)),
    StableHlo.nullary main_call6_c ((constantI S_ 32 0#32) : (⟨S_, .i32⟩ : BufTy).Contents (Elt F)),
    StableHlo.binary main_call6_v0 main_call6_c main_call6_v1 (((cmpi .eq)) : (⟨S_, .i32⟩ : BufTy).Contents (Elt F) → (⟨S_, .i32⟩ : BufTy).Contents (Elt F) → (⟨S_, .i1⟩ : BufTy).Contents (Elt F)),
    StableHlo.nullary main_call6_c_0 ((constantI S_ 32 1#32) : (⟨S_, .i32⟩ : BufTy).Contents (Elt F)),
    StableHlo.ternary main_call6_v1 main_call6_c_0 main_call6_v0 main_call6_v2 ((select) : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_call6_call0.v0.ref main_call6_v3 ((broadcastInDim S4x1x256x256 ![] bcast_S_S4x1x256x256)),
    StableHlo.binary main_v2 main_call6_v3 main_call6_v4 ((Host.remsi) : (⟨S4x1x256x256, .i32⟩ : BufTy).Contents (Elt F) → (⟨S4x1x256x256, .i32⟩ : BufTy).Contents (Elt F) → (⟨S4x1x256x256, .i32⟩ : BufTy).Contents (Elt F)),
    StableHlo.nullary main_call6_c_1 ((constantI S_ 32 0#32) : (⟨S_, .i32⟩ : BufTy).Contents (Elt F)),
    StableHlo.unary main_call6_c_1 main_call6_v5 (((broadcastInDim S4x1x256x256 ![] bcast_S_S4x1x256x256)) : (⟨S_, .i32⟩ : BufTy).Contents (Elt F) → (⟨S4x1x256x256, .i32⟩ : BufTy).Contents (Elt F)),
    StableHlo.binary main_call6_v4 main_call6_v5 main_call6_v6 (((cmpi .ne)) : (⟨S4x1x256x256, .i32⟩ : BufTy).Contents (Elt F) → (⟨S4x1x256x256, .i32⟩ : BufTy).Contents (Elt F) → (⟨S4x1x256x256, .i1⟩ : BufTy).Contents (Elt F)),
    StableHlo.nullary main_call6_c_2 ((constantI S_ 32 0#32) : (⟨S_, .i32⟩ : BufTy).Contents (Elt F)),
    StableHlo.unary main_call6_c_2 main_call6_v7 (((broadcastInDim S4x1x256x256 ![] bcast_S_S4x1x256x256)) : (⟨S_, .i32⟩ : BufTy).Contents (Elt F) → (⟨S4x1x256x256, .i32⟩ : BufTy).Contents (Elt F)),
    StableHlo.binary main_call6_v4 main_call6_v7 main_call6_v8 (((cmpi .slt)) : (⟨S4x1x256x256, .i32⟩ : BufTy).Contents (Elt F) → (⟨S4x1x256x256, .i32⟩ : BufTy).Contents (Elt F) → (⟨S4x1x256x256, .i1⟩ : BufTy).Contents (Elt F)),
    StableHlo.nullary main_call6_c_3 ((constantI S_ 32 0#32) : (⟨S_, .i32⟩ : BufTy).Contents (Elt F)),
    StableHlo.binary main_call6_call0.v0.ref main_call6_c_3 main_call6_v9 ((cmpi .slt)),
    StableHlo.unary main_call6_v9 main_call6_v10 (((broadcastInDim S4x1x256x256 ![] bcast_S_S4x1x256x256)) : (⟨S_, .i1⟩ : BufTy).Contents (Elt F) → (⟨S4x1x256x256, .i1⟩ : BufTy).Contents (Elt F)),
    StableHlo.binary main_call6_v8 main_call6_v10 main_call6_v11 (((cmpi .ne)) : (⟨S4x1x256x256, .i1⟩ : BufTy).Contents (Elt F) → (⟨S4x1x256x256, .i1⟩ : BufTy).Contents (Elt F) → (⟨S4x1x256x256, .i1⟩ : BufTy).Contents (Elt F)),
    StableHlo.binary main_call6_v11 main_call6_v6 main_call6_v12 ((andi) : (⟨S4x1x256x256, .i1⟩ : BufTy).Contents (Elt F) → (⟨S4x1x256x256, .i1⟩ : BufTy).Contents (Elt F) → (⟨S4x1x256x256, .i1⟩ : BufTy).Contents (Elt F)),
    StableHlo.unary main_call6_call0.v0.ref main_call6_v13 ((broadcastInDim S4x1x256x256 ![] bcast_S_S4x1x256x256)),
    StableHlo.binary main_call6_v4 main_call6_v13 main_call6_v14 ((addi) : (⟨S4x1x256x256, .i32⟩ : BufTy).Contents (Elt F) → (⟨S4x1x256x256, .i32⟩ : BufTy).Contents (Elt F) → (⟨S4x1x256x256, .i32⟩ : BufTy).Contents (Elt F)),
    StableHlo.ternary main_call6_v12 main_call6_v14 main_call6_v4 main_v18 ((select) : (⟨S4x1x256x256, .i1⟩ : BufTy).Contents (Elt F) → (⟨S4x1x256x256, .i32⟩ : BufTy).Contents (Elt F) → (⟨S4x1x256x256, .i32⟩ : BufTy).Contents (Elt F) → (⟨S4x1x256x256, .i32⟩ : BufTy).Contents (Elt F)) ]
theorem main_part0_ops13_plain_eq : (main_part0_ops13 : List (HloOp τ sig (Elt F))) = main_part0_ops13_plain := by
  chain_rfl

/-- Line 15 with each operation's function at the buffers' own types. -/
abbrev main_part0_ops15_plain : List (HloOp τ sig (Elt F)) :=
  [ StableHlo.unary main_c_6 main_call7_v0 ((id) : (⟨S_, .i32⟩ : BufTy).Contents (Elt F) → (⟨S_, .i32⟩ : BufTy).Contents (Elt F)),
    StableHlo.nullary main_call7_c ((constantI S_ 32 0#32) : (⟨S_, .i32⟩ : BufTy).Contents (Elt F)),
    StableHlo.binary main_call7_v0 main_call7_c main_call7_v1 (((cmpi .eq)) : (⟨S_, .i32⟩ : BufTy).Contents (Elt F) → (⟨S_, .i32⟩ : BufTy).Contents (Elt F) → (⟨S_, .i1⟩ : BufTy).Contents (Elt F)),
    StableHlo.nullary main_call7_c_0 ((constantI S_ 32 1#32) : (⟨S_, .i32⟩ : BufTy).Contents (Elt F)),
    StableHlo.ternary main_call7_v1 main_call7_c_0 main_call7_v0 main_call7_v2 ((select) : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_call7_call0.v0.ref main_call7_v3 ((broadcastInDim S4x1x256x256 ![] bcast_S_S4x1x256x256)),
    StableHlo.binary main_v3 main_call7_v3 main_call7_v4 ((Host.remsi) : (⟨S4x1x256x256, .i32⟩ : BufTy).Contents (Elt F) → (⟨S4x1x256x256, .i32⟩ : BufTy).Contents (Elt F) → (⟨S4x1x256x256, .i32⟩ : BufTy).Contents (Elt F)),
    StableHlo.nullary main_call7_c_1 ((constantI S_ 32 0#32) : (⟨S_, .i32⟩ : BufTy).Contents (Elt F)),
    StableHlo.unary main_call7_c_1 main_call7_v5 (((broadcastInDim S4x1x256x256 ![] bcast_S_S4x1x256x256)) : (⟨S_, .i32⟩ : BufTy).Contents (Elt F) → (⟨S4x1x256x256, .i32⟩ : BufTy).Contents (Elt F)),
    StableHlo.binary main_call7_v4 main_call7_v5 main_call7_v6 (((cmpi .ne)) : (⟨S4x1x256x256, .i32⟩ : BufTy).Contents (Elt F) → (⟨S4x1x256x256, .i32⟩ : BufTy).Contents (Elt F) → (⟨S4x1x256x256, .i1⟩ : BufTy).Contents (Elt F)),
    StableHlo.nullary main_call7_c_2 ((constantI S_ 32 0#32) : (⟨S_, .i32⟩ : BufTy).Contents (Elt F)),
    StableHlo.unary main_call7_c_2 main_call7_v7 (((broadcastInDim S4x1x256x256 ![] bcast_S_S4x1x256x256)) : (⟨S_, .i32⟩ : BufTy).Contents (Elt F) → (⟨S4x1x256x256, .i32⟩ : BufTy).Contents (Elt F)),
    StableHlo.binary main_call7_v4 main_call7_v7 main_call7_v8 (((cmpi .slt)) : (⟨S4x1x256x256, .i32⟩ : BufTy).Contents (Elt F) → (⟨S4x1x256x256, .i32⟩ : BufTy).Contents (Elt F) → (⟨S4x1x256x256, .i1⟩ : BufTy).Contents (Elt F)),
    StableHlo.nullary main_call7_c_3 ((constantI S_ 32 0#32) : (⟨S_, .i32⟩ : BufTy).Contents (Elt F)),
    StableHlo.binary main_call7_call0.v0.ref main_call7_c_3 main_call7_v9 ((cmpi .slt)),
    StableHlo.unary main_call7_v9 main_call7_v10 (((broadcastInDim S4x1x256x256 ![] bcast_S_S4x1x256x256)) : (⟨S_, .i1⟩ : BufTy).Contents (Elt F) → (⟨S4x1x256x256, .i1⟩ : BufTy).Contents (Elt F)),
    StableHlo.binary main_call7_v8 main_call7_v10 main_call7_v11 (((cmpi .ne)) : (⟨S4x1x256x256, .i1⟩ : BufTy).Contents (Elt F) → (⟨S4x1x256x256, .i1⟩ : BufTy).Contents (Elt F) → (⟨S4x1x256x256, .i1⟩ : BufTy).Contents (Elt F)),
    StableHlo.binary main_call7_v11 main_call7_v6 main_call7_v12 ((andi) : (⟨S4x1x256x256, .i1⟩ : BufTy).Contents (Elt F) → (⟨S4x1x256x256, .i1⟩ : BufTy).Contents (Elt F) → (⟨S4x1x256x256, .i1⟩ : BufTy).Contents (Elt F)),
    StableHlo.unary main_call7_call0.v0.ref main_call7_v13 ((broadcastInDim S4x1x256x256 ![] bcast_S_S4x1x256x256)),
    StableHlo.binary main_call7_v4 main_call7_v13 main_call7_v14 ((addi) : (⟨S4x1x256x256, .i32⟩ : BufTy).Contents (Elt F) → (⟨S4x1x256x256, .i32⟩ : BufTy).Contents (Elt F) → (⟨S4x1x256x256, .i32⟩ : BufTy).Contents (Elt F)),
    StableHlo.ternary main_call7_v12 main_call7_v14 main_call7_v4 main_v21 ((select) : (⟨S4x1x256x256, .i1⟩ : BufTy).Contents (Elt F) → (⟨S4x1x256x256, .i32⟩ : BufTy).Contents (Elt F) → (⟨S4x1x256x256, .i32⟩ : BufTy).Contents (Elt F) → (⟨S4x1x256x256, .i32⟩ : BufTy).Contents (Elt F)) ]
theorem main_part0_ops15_plain_eq : (main_part0_ops15 : List (HloOp τ sig (Elt F))) = main_part0_ops15_plain := by
  chain_rfl

/-- Line 27 with each operation's function at the buffers' own types. -/
abbrev main_part10_ops1_plain : List (HloOp τ sig (Elt F)) :=
  [ StableHlo.unary main_v577 main_v578 ((Host.roundeven) : (⟨S83521x16, .f32⟩ : BufTy).Contents (Elt F) → (⟨S83521x16, .f32⟩ : BufTy).Contents (Elt F)) ]
theorem main_part10_ops1_plain_eq : (main_part10_ops1 : List (HloOp τ sig (Elt F))) = main_part10_ops1_plain := by
  chain_rfl

/-- Line 29 with each operation's function at the buffers' own types. -/
abbrev main_part10_ops3_plain : List (HloOp τ sig (Elt F)) :=
  [ StableHlo.unary main_cst_47 main_call9_v0 ((id) : (⟨S_, .f32⟩ : BufTy).Contents (Elt F) → (⟨S_, .f32⟩ : BufTy).Contents (Elt F)),
    StableHlo.unary main_call9_v0 main_call9_v1 (((broadcastInDim S83521x16 ![] bcast_S_S83521x16)) : (⟨S_, .f32⟩ : BufTy).Contents (Elt F) → (⟨S83521x16, .f32⟩ : BufTy).Contents (Elt F)),
    StableHlo.binary main_call9_v1 main_v578 main_call9_v2 ((maximumf) : (⟨S83521x16, .f32⟩ : BufTy).Contents (Elt F) → (⟨S83521x16, .f32⟩ : BufTy).Contents (Elt F) → (⟨S83521x16, .f32⟩ : BufTy).Contents (Elt F)),
    StableHlo.unary main_cst_48 main_call9_v3 ((id) : (⟨S_, .f32⟩ : BufTy).Contents (Elt F) → (⟨S_, .f32⟩ : BufTy).Contents (Elt F)),
    StableHlo.unary main_call9_v3 main_call9_v4 (((broadcastInDim S83521x16 ![] bcast_S_S83521x16)) : (⟨S_, .f32⟩ : BufTy).Contents (Elt F) → (⟨S83521x16, .f32⟩ : BufTy).Contents (Elt F)),
    StableHlo.binary main_call9_v4 main_call9_v2 main_v579 ((minimumf) : (⟨S83521x16, .f32⟩ : BufTy).Contents (Elt F) → (⟨S83521x16, .f32⟩ : BufTy).Contents (Elt F) → (⟨S83521x16, .f32⟩ : BufTy).Contents (Elt F)) ]
theorem main_part10_ops3_plain_eq : (main_part10_ops3 : List (HloOp τ sig (Elt F))) = main_part10_ops3_plain := by
  chain_rfl

/-- Line 38 with each operation's function at the buffers' own types. -/
abbrev main_part17_ops1_plain : List (HloOp τ sig (Elt F)) :=
  [ StableHlo.nullary main_call10_c ((constantI S_ 32 0#32) : (⟨S_, .i32⟩ : BufTy).Contents (Elt F)),
    StableHlo.unary main_call10_c main_call10_v0 (((broadcastInDim S262144x16 ![] bcast_S_S262144x16)) : (⟨S_, .i32⟩ : BufTy).Contents (Elt F) → (⟨S262144x16, .i32⟩ : BufTy).Contents (Elt F)),
    StableHlo.binary main_v868 main_call10_v0 main_call10_v1 (((cmpi .slt)) : (⟨S262144x16, .i32⟩ : BufTy).Contents (Elt F) → (⟨S262144x16, .i32⟩ : BufTy).Contents (Elt F) → (⟨S262144x16, .i1⟩ : BufTy).Contents (Elt F)),
    StableHlo.nullary main_call10_c_0 ((constantI S_ 32 83521#32) : (⟨S_, .i32⟩ : BufTy).Contents (Elt F)),
    StableHlo.unary main_call10_c_0 main_call10_v2 (((broadcastInDim S262144x16 ![] bcast_S_S262144x16)) : (⟨S_, .i32⟩ : BufTy).Contents (Elt F) → (⟨S262144x16, .i32⟩ : BufTy).Contents (Elt F)),
    StableHlo.binary main_v868 main_call10_v2 main_call10_v3 ((addi) : (⟨S262144x16, .i32⟩ : BufTy).Contents (Elt F) → (⟨S262144x16, .i32⟩ : BufTy).Contents (Elt F) → (⟨S262144x16, .i32⟩ : BufTy).Contents (Elt F)),
    StableHlo.ternary main_call10_v1 main_call10_v3 main_v868 main_call10_v4 ((select) : (⟨S262144x16, .i1⟩ : BufTy).Contents (Elt F) → (⟨S262144x16, .i32⟩ : BufTy).Contents (Elt F) → (⟨S262144x16, .i32⟩ : BufTy).Contents (Elt F) → (⟨S262144x16, .i32⟩ : BufTy).Contents (Elt F)),
    StableHlo.unary main_call10_call0.v0.ref main_call10_v5 ((broadcastInDim S262144x16x1 ![0, 1] bcast_S262144x16_S262144x16x1_0_1)),
    StableHlo.nullary main_call10_c_1 ((constantI S1 32 83520#32) : (⟨S1, .i32⟩ : BufTy).Contents (Elt F)),
    StableHlo.nullary main_call10_c_2 ((constantI S_ 32 0#32) : (⟨S_, .i32⟩ : BufTy).Contents (Elt F)),
    StableHlo.unary main_call10_c_2 main_call10_v6 (((broadcastInDim S262144x16x1 ![] bcast_S_S262144x16x1)) : (⟨S_, .i32⟩ : BufTy).Contents (Elt F) → (⟨S262144x16x1, .i32⟩ : BufTy).Contents (Elt F)),
    StableHlo.binary main_call10_v5 main_call10_v6 main_call10_v7 (((cmpi .sge)) : (⟨S262144x16x1, .i32⟩ : BufTy).Contents (Elt F) → (⟨S262144x16x1, .i32⟩ : BufTy).Contents (Elt F) → (⟨S262144x16x1, .i1⟩ : BufTy).Contents (Elt F)),
    StableHlo.unary main_call10_c_1 main_call10_v8 (((broadcastInDim S1x1x1 ![2] bcast_S1_S1x1x1_2)) : (⟨S1, .i32⟩ : BufTy).Contents (Elt F) → (⟨S1x1x1, .i32⟩ : BufTy).Contents (Elt F)),
    StableHlo.unary main_call10_v8 main_call10_v9 (((broadcastInDim S262144x16x1 ![0, 1, 2] bcast_S1x1x1_S262144x16x1_0_1_2)) : (⟨S1x1x1, .i32⟩ : BufTy).Contents (Elt F) → (⟨S262144x16x1, .i32⟩ : BufTy).Contents (Elt F)),
    StableHlo.binary main_call10_v5 main_call10_v9 main_call10_v10 (((cmpi .sle)) : (⟨S262144x16x1, .i32⟩ : BufTy).Contents (Elt F) → (⟨S262144x16x1, .i32⟩ : BufTy).Contents (Elt F) → (⟨S262144x16x1, .i1⟩ : BufTy).Contents (Elt F)),
    StableHlo.binary main_call10_v7 main_call10_v10 main_call10_v11 ((andi) : (⟨S262144x16x1, .i1⟩ : BufTy).Contents (Elt F) → (⟨S262144x16x1, .i1⟩ : BufTy).Contents (Elt F) → (⟨S262144x16x1, .i1⟩ : BufTy).Contents (Elt F)),
    StableHlo.nullary main_call10_c_3 ((constantI S_ 1 1#1) : (⟨S_, .i1⟩ : BufTy).Contents (Elt F)),
    StableHlo.binary main_call10_v11 main_call10_c_3 main_call10_v12 (((fun x v => Host.reduce IntOp.andi x v reducesTo_S262144x16x1_S262144x16_d2 h_S_)) : (⟨S262144x16x1, .i1⟩ : BufTy).Contents (Elt F) → (⟨S_, .i1⟩ : BufTy).Contents (Elt F) → (⟨S262144x16, .i1⟩ : BufTy).Contents (Elt F)),
    StableHlo.binary main_v579 main_call10_v5 main_call10_v13 (((fun x i => Host.gather gather_S83521x16_S262144x16x1_S262144x16x16_2_0_n_n_0_2_116 x i)) : (⟨S83521x16, .f32⟩ : BufTy).Contents (Elt F) → (⟨S262144x16x1, .i32⟩ : BufTy).Contents (Elt F) → (⟨S262144x16x16, .f32⟩ : BufTy).Contents (Elt F)),
    StableHlo.unary main_call10_v12 main_call10_v14 (((broadcastInDim S262144x16x16 ![0, 1] bcast_S262144x16_S262144x16x16_0_1)) : (⟨S262144x16, .i1⟩ : BufTy).Contents (Elt F) → (⟨S262144x16x16, .i1⟩ : BufTy).Contents (Elt F)),
    StableHlo.nullary main_call10_cst ((constant S_ .f32 0x7FC00000#32) : (⟨S_, .f32⟩ : BufTy).Contents (Elt F)),
    StableHlo.unary main_call10_cst main_call10_v15 (((broadcastInDim S262144x16x16 ![] bcast_S_S262144x16x16)) : (⟨S_, .f32⟩ : BufTy).Contents (Elt F) → (⟨S262144x16x16, .f32⟩ : BufTy).Contents (Elt F)),
    StableHlo.ternary main_call10_v14 main_call10_v13 main_call10_v15 main_v869 ((select) : (⟨S262144x16x16, .i1⟩ : BufTy).Contents (Elt F) → (⟨S262144x16x16, .f32⟩ : BufTy).Contents (Elt F) → (⟨S262144x16x16, .f32⟩ : BufTy).Contents (Elt F) → (⟨S262144x16x16, .f32⟩ : BufTy).Contents (Elt F)) ]
theorem main_part17_ops1_plain_eq : (main_part17_ops1 : List (HloOp τ sig (Elt F))) = main_part17_ops1_plain := by
  chain_rfl

variable (V : Valuation τ sig (Elt F))

/-- The buffer contents before line 0: the given ones. -/
def W0 : Valuation τ sig (Elt F) := V
/-- The buffer contents after line 0. -/
@[irreducible] def W1 : Valuation τ sig (Elt F) := after main_part0_ops0 (W0 V)
/-- The buffer contents after line 1. -/
@[irreducible] def W2 : Valuation τ sig (Elt F) := after main_part0_ops1 (W1 V)
/-- The buffer contents after line 2. -/
@[irreducible] def W3 : Valuation τ sig (Elt F) := after main_part0_ops2 (W2 V)
/-- The buffer contents after line 3. -/
@[irreducible] def W4 : Valuation τ sig (Elt F) := after main_part0_ops3 (W3 V)
/-- The buffer contents after line 4. -/
@[irreducible] def W5 : Valuation τ sig (Elt F) := after main_part0_ops4 (W4 V)
/-- The buffer contents after line 5. -/
@[irreducible] def W6 : Valuation τ sig (Elt F) := after main_part0_ops5 (W5 V)
/-- The buffer contents after line 6. -/
@[irreducible] def W7 : Valuation τ sig (Elt F) := after main_part0_ops6 (W6 V)
/-- The buffer contents after line 7. -/
@[irreducible] def W8 : Valuation τ sig (Elt F) := after main_part0_ops7 (W7 V)
/-- The buffer contents after line 8. -/
@[irreducible] def W9 : Valuation τ sig (Elt F) := after main_part0_ops8 (W8 V)
/-- The buffer contents after line 9. -/
@[irreducible] def W10 : Valuation τ sig (Elt F) := after main_part0_ops9 (W9 V)
/-- The buffer contents after line 10. -/
@[irreducible] def W11 : Valuation τ sig (Elt F) := after main_part0_ops10 (W10 V)
/-- The buffer contents after line 11. -/
@[irreducible] def W12 : Valuation τ sig (Elt F) := after main_part0_ops11 (W11 V)
/-- The buffer contents after line 12. -/
@[irreducible] def W13 : Valuation τ sig (Elt F) := after main_part0_ops12 (W12 V)
/-- The buffer contents after line 13. -/
@[irreducible] def W14 : Valuation τ sig (Elt F) := after main_part0_ops13 (W13 V)
/-- The buffer contents after line 14. -/
@[irreducible] def W15 : Valuation τ sig (Elt F) := after main_part0_ops14 (W14 V)
/-- The buffer contents after line 15. -/
@[irreducible] def W16 : Valuation τ sig (Elt F) := after main_part0_ops15 (W15 V)
/-- The buffer contents after line 16. -/
@[irreducible] def W17 : Valuation τ sig (Elt F) := after main_part0_ops16 (W16 V)
/-- The buffer contents after line 17. -/
@[irreducible] def W18 : Valuation τ sig (Elt F) := after main_part1_ops0 (W17 V)
/-- The buffer contents after line 18. -/
@[irreducible] def W19 : Valuation τ sig (Elt F) := after main_part2_ops0 (W18 V)
/-- The buffer contents after line 19. -/
@[irreducible] def W20 : Valuation τ sig (Elt F) := after main_part3_ops0 (W19 V)
/-- The buffer contents after line 20. -/
@[irreducible] def W21 : Valuation τ sig (Elt F) := after main_part4_ops0 (W20 V)
/-- The buffer contents after line 21. -/
@[irreducible] def W22 : Valuation τ sig (Elt F) := after main_part5_ops0 (W21 V)
/-- The buffer contents after line 22. -/
@[irreducible] def W23 : Valuation τ sig (Elt F) := after main_part6_ops0 (W22 V)
/-- The buffer contents after line 23. -/
@[irreducible] def W24 : Valuation τ sig (Elt F) := after main_part7_ops0 (W23 V)
/-- The buffer contents after line 24. -/
@[irreducible] def W25 : Valuation τ sig (Elt F) := after main_part8_ops0 (W24 V)
/-- The buffer contents after line 25. -/
@[irreducible] def W26 : Valuation τ sig (Elt F) := after main_part9_ops0 (W25 V)
/-- The buffer contents after line 26. -/
@[irreducible] def W27 : Valuation τ sig (Elt F) := after main_part10_ops0 (W26 V)
/-- The buffer contents after line 27. -/
@[irreducible] def W28 : Valuation τ sig (Elt F) := after main_part10_ops1 (W27 V)
/-- The buffer contents after line 28. -/
@[irreducible] def W29 : Valuation τ sig (Elt F) := after main_part10_ops2 (W28 V)
/-- The buffer contents after line 29. -/
@[irreducible] def W30 : Valuation τ sig (Elt F) := after main_part10_ops3 (W29 V)
/-- The buffer contents after line 30. -/
@[irreducible] def W31 : Valuation τ sig (Elt F) := after main_part10_ops4 (W30 V)
/-- The buffer contents after line 31. -/
@[irreducible] def W32 : Valuation τ sig (Elt F) := after main_part11_ops0 (W31 V)
/-- The buffer contents after line 32. -/
@[irreducible] def W33 : Valuation τ sig (Elt F) := after main_part12_ops0 (W32 V)
/-- The buffer contents after line 33. -/
@[irreducible] def W34 : Valuation τ sig (Elt F) := after main_part13_ops0 (W33 V)
/-- The buffer contents after line 34. -/
@[irreducible] def W35 : Valuation τ sig (Elt F) := after main_part14_ops0 (W34 V)
/-- The buffer contents after line 35. -/
@[irreducible] def W36 : Valuation τ sig (Elt F) := after main_part15_ops0 (W35 V)
/-- The buffer contents after line 36. -/
@[irreducible] def W37 : Valuation τ sig (Elt F) := after main_part16_ops0 (W36 V)
/-- The buffer contents after line 37. -/
@[irreducible] def W38 : Valuation τ sig (Elt F) := after main_part17_ops0 (W37 V)
/-- The buffer contents after line 38. -/
@[irreducible] def W39 : Valuation τ sig (Elt F) := after main_part17_ops1 (W38 V)

theorem skip0 (r : Ref sig .tc) (h : r ∉ Wl0) : W1 V (no_index (Proc.devRef .tc r)) = W0 V (Proc.devRef .tc r) := by
  unfold W1; exact LibAfter.after_skip _ hW0 _ r h
theorem into0 (r : Ref sig .tc) (h : r ∈ Wl0) : W1 V (no_index (Proc.devRef .tc r)) = after main_part0_ops0 (W0 V) (Proc.devRef .tc r) := by
  unfold W1; rfl
theorem skip1 (r : Ref sig .tc) (h : r ∉ Wl1) : W2 V (no_index (Proc.devRef .tc r)) = W1 V (Proc.devRef .tc r) := by
  unfold W2; exact LibAfter.after_skip _ hW1 _ r h
theorem into1 (r : Ref sig .tc) (h : r ∈ Wl1) : W2 V (no_index (Proc.devRef .tc r)) = after main_part0_ops1_plain (W1 V) (Proc.devRef .tc r) := by
  unfold W2; rw [main_part0_ops1_plain_eq]
theorem skip2 (r : Ref sig .tc) (h : r ∉ Wl2) : W3 V (no_index (Proc.devRef .tc r)) = W2 V (Proc.devRef .tc r) := by
  unfold W3; exact LibAfter.after_skip _ hW2 _ r h
theorem into2 (r : Ref sig .tc) (h : r ∈ Wl2) : W3 V (no_index (Proc.devRef .tc r)) = after main_part0_ops2 (W2 V) (Proc.devRef .tc r) := by
  unfold W3; rfl
theorem skip3 (r : Ref sig .tc) (h : r ∉ Wl3) : W4 V (no_index (Proc.devRef .tc r)) = W3 V (Proc.devRef .tc r) := by
  unfold W4; exact LibAfter.after_skip _ hW3 _ r h
theorem into3 (r : Ref sig .tc) (h : r ∈ Wl3) : W4 V (no_index (Proc.devRef .tc r)) = after main_part0_ops3_plain (W3 V) (Proc.devRef .tc r) := by
  unfold W4; rw [main_part0_ops3_plain_eq]
theorem skip4 (r : Ref sig .tc) (h : r ∉ Wl4) : W5 V (no_index (Proc.devRef .tc r)) = W4 V (Proc.devRef .tc r) := by
  unfold W5; exact LibAfter.after_skip _ hW4 _ r h
theorem into4 (r : Ref sig .tc) (h : r ∈ Wl4) : W5 V (no_index (Proc.devRef .tc r)) = after main_part0_ops4 (W4 V) (Proc.devRef .tc r) := by
  unfold W5; rfl
theorem skip5 (r : Ref sig .tc) (h : r ∉ Wl5) : W6 V (no_index (Proc.devRef .tc r)) = W5 V (Proc.devRef .tc r) := by
  unfold W6; exact LibAfter.after_skip _ hW5 _ r h
theorem into5 (r : Ref sig .tc) (h : r ∈ Wl5) : W6 V (no_index (Proc.devRef .tc r)) = after main_part0_ops5_plain (W5 V) (Proc.devRef .tc r) := by
  unfold W6; rw [main_part0_ops5_plain_eq]
theorem skip6 (r : Ref sig .tc) (h : r ∉ Wl6) : W7 V (no_index (Proc.devRef .tc r)) = W6 V (Proc.devRef .tc r) := by
  unfold W7; exact LibAfter.after_skip _ hW6 _ r h
theorem into6 (r : Ref sig .tc) (h : r ∈ Wl6) : W7 V (no_index (Proc.devRef .tc r)) = after main_part0_ops6 (W6 V) (Proc.devRef .tc r) := by
  unfold W7; rfl
theorem skip7 (r : Ref sig .tc) (h : r ∉ Wl7) : W8 V (no_index (Proc.devRef .tc r)) = W7 V (Proc.devRef .tc r) := by
  unfold W8; exact LibAfter.after_skip _ hW7 _ r h
theorem into7 (r : Ref sig .tc) (h : r ∈ Wl7) : W8 V (no_index (Proc.devRef .tc r)) = after main_part0_ops7_plain (W7 V) (Proc.devRef .tc r) := by
  unfold W8; rw [main_part0_ops7_plain_eq]
theorem skip8 (r : Ref sig .tc) (h : r ∉ Wl8) : W9 V (no_index (Proc.devRef .tc r)) = W8 V (Proc.devRef .tc r) := by
  unfold W9; exact LibAfter.after_skip _ hW8 _ r h
theorem into8 (r : Ref sig .tc) (h : r ∈ Wl8) : W9 V (no_index (Proc.devRef .tc r)) = after main_part0_ops8 (W8 V) (Proc.devRef .tc r) := by
  unfold W9; rfl
theorem skip9 (r : Ref sig .tc) (h : r ∉ Wl9) : W10 V (no_index (Proc.devRef .tc r)) = W9 V (Proc.devRef .tc r) := by
  unfold W10; exact LibAfter.after_skip _ hW9 _ r h
theorem into9 (r : Ref sig .tc) (h : r ∈ Wl9) : W10 V (no_index (Proc.devRef .tc r)) = after main_part0_ops9_plain (W9 V) (Proc.devRef .tc r) := by
  unfold W10; rw [main_part0_ops9_plain_eq]
theorem skip10 (r : Ref sig .tc) (h : r ∉ Wl10) : W11 V (no_index (Proc.devRef .tc r)) = W10 V (Proc.devRef .tc r) := by
  unfold W11; exact LibAfter.after_skip _ hW10 _ r h
theorem into10 (r : Ref sig .tc) (h : r ∈ Wl10) : W11 V (no_index (Proc.devRef .tc r)) = after main_part0_ops10 (W10 V) (Proc.devRef .tc r) := by
  unfold W11; rfl
theorem skip11 (r : Ref sig .tc) (h : r ∉ Wl11) : W12 V (no_index (Proc.devRef .tc r)) = W11 V (Proc.devRef .tc r) := by
  unfold W12; exact LibAfter.after_skip _ hW11 _ r h
theorem into11 (r : Ref sig .tc) (h : r ∈ Wl11) : W12 V (no_index (Proc.devRef .tc r)) = after main_part0_ops11_plain (W11 V) (Proc.devRef .tc r) := by
  unfold W12; rw [main_part0_ops11_plain_eq]
theorem skip12 (r : Ref sig .tc) (h : r ∉ Wl12) : W13 V (no_index (Proc.devRef .tc r)) = W12 V (Proc.devRef .tc r) := by
  unfold W13; exact LibAfter.after_skip _ hW12 _ r h
theorem into12 (r : Ref sig .tc) (h : r ∈ Wl12) : W13 V (no_index (Proc.devRef .tc r)) = after main_part0_ops12 (W12 V) (Proc.devRef .tc r) := by
  unfold W13; rfl
theorem skip13 (r : Ref sig .tc) (h : r ∉ Wl13) : W14 V (no_index (Proc.devRef .tc r)) = W13 V (Proc.devRef .tc r) := by
  unfold W14; exact LibAfter.after_skip _ hW13 _ r h
theorem into13 (r : Ref sig .tc) (h : r ∈ Wl13) : W14 V (no_index (Proc.devRef .tc r)) = after main_part0_ops13_plain (W13 V) (Proc.devRef .tc r) := by
  unfold W14; rw [main_part0_ops13_plain_eq]
theorem skip14 (r : Ref sig .tc) (h : r ∉ Wl14) : W15 V (no_index (Proc.devRef .tc r)) = W14 V (Proc.devRef .tc r) := by
  unfold W15; exact LibAfter.after_skip _ hW14 _ r h
theorem into14 (r : Ref sig .tc) (h : r ∈ Wl14) : W15 V (no_index (Proc.devRef .tc r)) = after main_part0_ops14 (W14 V) (Proc.devRef .tc r) := by
  unfold W15; rfl
theorem skip15 (r : Ref sig .tc) (h : r ∉ Wl15) : W16 V (no_index (Proc.devRef .tc r)) = W15 V (Proc.devRef .tc r) := by
  unfold W16; exact LibAfter.after_skip _ hW15 _ r h
theorem into15 (r : Ref sig .tc) (h : r ∈ Wl15) : W16 V (no_index (Proc.devRef .tc r)) = after main_part0_ops15_plain (W15 V) (Proc.devRef .tc r) := by
  unfold W16; rw [main_part0_ops15_plain_eq]
theorem skip16 (r : Ref sig .tc) (h : r ∉ Wl16) : W17 V (no_index (Proc.devRef .tc r)) = W16 V (Proc.devRef .tc r) := by
  unfold W17; exact LibAfter.after_skip _ hW16 _ r h
theorem into16 (r : Ref sig .tc) (h : r ∈ Wl16) : W17 V (no_index (Proc.devRef .tc r)) = after main_part0_ops16 (W16 V) (Proc.devRef .tc r) := by
  unfold W17; rfl
theorem skip17 (r : Ref sig .tc) (h : r ∉ Wl17) : W18 V (no_index (Proc.devRef .tc r)) = W17 V (Proc.devRef .tc r) := by
  unfold W18; exact LibAfter.after_skip _ hW17 _ r h
theorem into17 (r : Ref sig .tc) (h : r ∈ Wl17) : W18 V (no_index (Proc.devRef .tc r)) = after main_part1_ops0 (W17 V) (Proc.devRef .tc r) := by
  unfold W18; rfl
theorem skip18 (r : Ref sig .tc) (h : r ∉ Wl18) : W19 V (no_index (Proc.devRef .tc r)) = W18 V (Proc.devRef .tc r) := by
  unfold W19; exact LibAfter.after_skip _ hW18 _ r h
theorem into18 (r : Ref sig .tc) (h : r ∈ Wl18) : W19 V (no_index (Proc.devRef .tc r)) = after main_part2_ops0 (W18 V) (Proc.devRef .tc r) := by
  unfold W19; rfl
theorem skip19 (r : Ref sig .tc) (h : r ∉ Wl19) : W20 V (no_index (Proc.devRef .tc r)) = W19 V (Proc.devRef .tc r) := by
  unfold W20; exact LibAfter.after_skip _ hW19 _ r h
theorem into19 (r : Ref sig .tc) (h : r ∈ Wl19) : W20 V (no_index (Proc.devRef .tc r)) = after main_part3_ops0 (W19 V) (Proc.devRef .tc r) := by
  unfold W20; rfl
theorem skip20 (r : Ref sig .tc) (h : r ∉ Wl20) : W21 V (no_index (Proc.devRef .tc r)) = W20 V (Proc.devRef .tc r) := by
  unfold W21; exact LibAfter.after_skip _ hW20 _ r h
theorem into20 (r : Ref sig .tc) (h : r ∈ Wl20) : W21 V (no_index (Proc.devRef .tc r)) = after main_part4_ops0 (W20 V) (Proc.devRef .tc r) := by
  unfold W21; rfl
theorem skip21 (r : Ref sig .tc) (h : r ∉ Wl21) : W22 V (no_index (Proc.devRef .tc r)) = W21 V (Proc.devRef .tc r) := by
  unfold W22; exact LibAfter.after_skip _ hW21 _ r h
theorem into21 (r : Ref sig .tc) (h : r ∈ Wl21) : W22 V (no_index (Proc.devRef .tc r)) = after main_part5_ops0 (W21 V) (Proc.devRef .tc r) := by
  unfold W22; rfl
theorem skip22 (r : Ref sig .tc) (h : r ∉ Wl22) : W23 V (no_index (Proc.devRef .tc r)) = W22 V (Proc.devRef .tc r) := by
  unfold W23; exact LibAfter.after_skip _ hW22 _ r h
theorem into22 (r : Ref sig .tc) (h : r ∈ Wl22) : W23 V (no_index (Proc.devRef .tc r)) = after main_part6_ops0 (W22 V) (Proc.devRef .tc r) := by
  unfold W23; rfl
theorem skip23 (r : Ref sig .tc) (h : r ∉ Wl23) : W24 V (no_index (Proc.devRef .tc r)) = W23 V (Proc.devRef .tc r) := by
  unfold W24; exact LibAfter.after_skip _ hW23 _ r h
theorem into23 (r : Ref sig .tc) (h : r ∈ Wl23) : W24 V (no_index (Proc.devRef .tc r)) = after main_part7_ops0 (W23 V) (Proc.devRef .tc r) := by
  unfold W24; rfl
theorem skip24 (r : Ref sig .tc) (h : r ∉ Wl24) : W25 V (no_index (Proc.devRef .tc r)) = W24 V (Proc.devRef .tc r) := by
  unfold W25; exact LibAfter.after_skip _ hW24 _ r h
theorem into24 (r : Ref sig .tc) (h : r ∈ Wl24) : W25 V (no_index (Proc.devRef .tc r)) = after main_part8_ops0 (W24 V) (Proc.devRef .tc r) := by
  unfold W25; rfl
theorem skip25 (r : Ref sig .tc) (h : r ∉ Wl25) : W26 V (no_index (Proc.devRef .tc r)) = W25 V (Proc.devRef .tc r) := by
  unfold W26; exact LibAfter.after_skip _ hW25 _ r h
theorem into25 (r : Ref sig .tc) (h : r ∈ Wl25) : W26 V (no_index (Proc.devRef .tc r)) = after main_part9_ops0 (W25 V) (Proc.devRef .tc r) := by
  unfold W26; rfl
theorem skip26 (r : Ref sig .tc) (h : r ∉ Wl26) : W27 V (no_index (Proc.devRef .tc r)) = W26 V (Proc.devRef .tc r) := by
  unfold W27; exact LibAfter.after_skip _ hW26 _ r h
theorem into26 (r : Ref sig .tc) (h : r ∈ Wl26) : W27 V (no_index (Proc.devRef .tc r)) = after main_part10_ops0 (W26 V) (Proc.devRef .tc r) := by
  unfold W27; rfl
theorem skip27 (r : Ref sig .tc) (h : r ∉ Wl27) : W28 V (no_index (Proc.devRef .tc r)) = W27 V (Proc.devRef .tc r) := by
  unfold W28; exact LibAfter.after_skip _ hW27 _ r h
theorem into27 (r : Ref sig .tc) (h : r ∈ Wl27) : W28 V (no_index (Proc.devRef .tc r)) = after main_part10_ops1_plain (W27 V) (Proc.devRef .tc r) := by
  unfold W28; rw [main_part10_ops1_plain_eq]
theorem skip28 (r : Ref sig .tc) (h : r ∉ Wl28) : W29 V (no_index (Proc.devRef .tc r)) = W28 V (Proc.devRef .tc r) := by
  unfold W29; exact LibAfter.after_skip _ hW28 _ r h
theorem into28 (r : Ref sig .tc) (h : r ∈ Wl28) : W29 V (no_index (Proc.devRef .tc r)) = after main_part10_ops2 (W28 V) (Proc.devRef .tc r) := by
  unfold W29; rfl
theorem skip29 (r : Ref sig .tc) (h : r ∉ Wl29) : W30 V (no_index (Proc.devRef .tc r)) = W29 V (Proc.devRef .tc r) := by
  unfold W30; exact LibAfter.after_skip _ hW29 _ r h
theorem into29 (r : Ref sig .tc) (h : r ∈ Wl29) : W30 V (no_index (Proc.devRef .tc r)) = after main_part10_ops3_plain (W29 V) (Proc.devRef .tc r) := by
  unfold W30; rw [main_part10_ops3_plain_eq]
theorem skip30 (r : Ref sig .tc) (h : r ∉ Wl30) : W31 V (no_index (Proc.devRef .tc r)) = W30 V (Proc.devRef .tc r) := by
  unfold W31; exact LibAfter.after_skip _ hW30 _ r h
theorem into30 (r : Ref sig .tc) (h : r ∈ Wl30) : W31 V (no_index (Proc.devRef .tc r)) = after main_part10_ops4 (W30 V) (Proc.devRef .tc r) := by
  unfold W31; rfl
theorem skip31 (r : Ref sig .tc) (h : r ∉ Wl31) : W32 V (no_index (Proc.devRef .tc r)) = W31 V (Proc.devRef .tc r) := by
  unfold W32; exact LibAfter.after_skip _ hW31 _ r h
theorem into31 (r : Ref sig .tc) (h : r ∈ Wl31) : W32 V (no_index (Proc.devRef .tc r)) = after main_part11_ops0 (W31 V) (Proc.devRef .tc r) := by
  unfold W32; rfl
theorem skip32 (r : Ref sig .tc) (h : r ∉ Wl32) : W33 V (no_index (Proc.devRef .tc r)) = W32 V (Proc.devRef .tc r) := by
  unfold W33; exact LibAfter.after_skip _ hW32 _ r h
theorem into32 (r : Ref sig .tc) (h : r ∈ Wl32) : W33 V (no_index (Proc.devRef .tc r)) = after main_part12_ops0 (W32 V) (Proc.devRef .tc r) := by
  unfold W33; rfl
theorem skip33 (r : Ref sig .tc) (h : r ∉ Wl33) : W34 V (no_index (Proc.devRef .tc r)) = W33 V (Proc.devRef .tc r) := by
  unfold W34; exact LibAfter.after_skip _ hW33 _ r h
theorem into33 (r : Ref sig .tc) (h : r ∈ Wl33) : W34 V (no_index (Proc.devRef .tc r)) = after main_part13_ops0 (W33 V) (Proc.devRef .tc r) := by
  unfold W34; rfl
theorem skip34 (r : Ref sig .tc) (h : r ∉ Wl34) : W35 V (no_index (Proc.devRef .tc r)) = W34 V (Proc.devRef .tc r) := by
  unfold W35; exact LibAfter.after_skip _ hW34 _ r h
theorem into34 (r : Ref sig .tc) (h : r ∈ Wl34) : W35 V (no_index (Proc.devRef .tc r)) = after main_part14_ops0 (W34 V) (Proc.devRef .tc r) := by
  unfold W35; rfl
theorem skip35 (r : Ref sig .tc) (h : r ∉ Wl35) : W36 V (no_index (Proc.devRef .tc r)) = W35 V (Proc.devRef .tc r) := by
  unfold W36; exact LibAfter.after_skip _ hW35 _ r h
theorem into35 (r : Ref sig .tc) (h : r ∈ Wl35) : W36 V (no_index (Proc.devRef .tc r)) = after main_part15_ops0 (W35 V) (Proc.devRef .tc r) := by
  unfold W36; rfl
theorem skip36 (r : Ref sig .tc) (h : r ∉ Wl36) : W37 V (no_index (Proc.devRef .tc r)) = W36 V (Proc.devRef .tc r) := by
  unfold W37; exact LibAfter.after_skip _ hW36 _ r h
theorem into36 (r : Ref sig .tc) (h : r ∈ Wl36) : W37 V (no_index (Proc.devRef .tc r)) = after main_part16_ops0 (W36 V) (Proc.devRef .tc r) := by
  unfold W37; rfl
theorem skip37 (r : Ref sig .tc) (h : r ∉ Wl37) : W38 V (no_index (Proc.devRef .tc r)) = W37 V (Proc.devRef .tc r) := by
  unfold W38; exact LibAfter.after_skip _ hW37 _ r h
theorem into37 (r : Ref sig .tc) (h : r ∈ Wl37) : W38 V (no_index (Proc.devRef .tc r)) = after main_part17_ops0 (W37 V) (Proc.devRef .tc r) := by
  unfold W38; rfl
theorem skip38 (r : Ref sig .tc) (h : r ∉ Wl38) : W39 V (no_index (Proc.devRef .tc r)) = W38 V (Proc.devRef .tc r) := by
  unfold W39; exact LibAfter.after_skip _ hW38 _ r h
theorem into38 (r : Ref sig .tc) (h : r ∈ Wl38) : W39 V (no_index (Proc.devRef .tc r)) = after main_part17_ops1_plain (W38 V) (Proc.devRef .tc r) := by
  unfold W39; rw [main_part17_ops1_plain_eq]

end Cert.KernelIdeal.Walk

end
-- ==== Proof.Spec.lean ====
/-
  What both programs compute, as one function of the quantised table, the sixteen corner index columns and the sixteen
  corner weight columns.

  A pixel n has sixteen corners k. Corner k names a row of the table (its start word read signed and clamped into the
  table) and carries a weight. The value at (n, ch) is the weighted sum over the corners of the named rows' entries in
  column ch, scaled by 1/16. The result image is that [262144 × 16] array re-laid as [4, 1, 256, 256, 4, 4], its two middle
  pairs of axes interleaved, and flattened to [4, 1, 1024, 1024] (the pixel shuffle).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev SN : Shape := ⟨1, ![262144]⟩
abbrev SN1 : Shape := ⟨2, ![262144, 1]⟩
abbrev SN16 : Shape := ⟨2, ![262144, 16]⟩
abbrev ST : Shape := ⟨2, ![83521, 16]⟩

/-- The table row a start word names: the word read signed, clamped into [0, 83520]. -/
def rowOf (w : BitVec 32) : Fin 83521 := ⟨min w.toInt.toNat 83520, by omega⟩

/-- The interpolated value at (n, ch): the sum over the sixteen corners of the table's entry at (the corner's row, ch)
    times the corner's weight, scaled by 1/16. -/
def combine (T : FVec Ideal ST .f32) (idx : Fin 16 → IVec SN 32) (wt : Fin 16 → FVec Ideal SN1 .f32) : FVec Ideal SN16 .f32 :=
  fun i => (∑ k : Fin 16, T (ix2 (rowOf (idx k (ix1 (i 0)))) (i 1)) * wt k (ix2 (i 0) 0)) * ((1 / 16 : ℝ) : EReal)

/-- Every corner's start word lies in the table: [0, 83520] read signed. -/
def InRange (idx : Fin 16 → IVec SN 32) : Prop :=
  ∀ (k : Fin 16) (n : Fin 262144), 0 ≤ (idx k (ix1 n)).toInt ∧ (idx k (ix1 n)).toInt ≤ 83520

end Cert.Spec

end
-- ==== Proof.KDefs.lean ====
import proofs.«409975_j2585570312579_2_alg».proof.Proof.KWalk
import proofs.«409975_j2585570312579_2_alg».proof.Proof.Spec
import Idealize.ShloMosaic.PureOps.Ideal
import Idealize.ShloMosaic.Lib.Pipeline.Regions

set_option maxRecDepth 100000

noncomputable section

namespace Cert.KernelIdeal.Glue

open Idealize.ShloMosaic Idealize.ShloMosaic.StableHlo Idealize.ShloMosaic.ValueIdx Cert.KernelIdeal Cert.KernelIdeal.Gen Cert.Spec

/-- The sixteen-column concatenation read at its result: the columns' contents side by side. -/
theorem cat_result_main_v575 {F' : FTy → Type} [FloatOps F'] (F : Valuation τ sig (Elt F')) :
    (StableHlo.nary ![main_v559, main_v560, main_v561, main_v562, main_v563, main_v564, main_v565, main_v566, main_v567, main_v568, main_v569, main_v570, main_v571, main_v572, main_v573, main_v574] main_v575 (fun u => concatenate S262144x16 1 [⟨S262144x1, u 0⟩, ⟨S262144x1, u 1⟩, ⟨S262144x1, u 2⟩, ⟨S262144x1, u 3⟩, ⟨S262144x1, u 4⟩, ⟨S262144x1, u 5⟩, ⟨S262144x1, u 6⟩, ⟨S262144x1, u 7⟩, ⟨S262144x1, u 8⟩, ⟨S262144x1, u 9⟩, ⟨S262144x1, u 10⟩, ⟨S262144x1, u 11⟩, ⟨S262144x1, u 12⟩, ⟨S262144x1, u 13⟩, ⟨S262144x1, u 14⟩, ⟨S262144x1, u 15⟩] concatenates_S262144x1_S262144x1_S262144x1_S262144x1_S262144x1_S262144x1_S262144x1_S262144x1_S262144x1_S262144x1_S262144x1_S262144x1_S262144x1_S262144x1_S262144x1_S262144x1_S262144x16_d1)).result F (no_index (Proc.devRef .tc main_v575))
      = concatenate S262144x16 1 [⟨S262144x1, F (Proc.devRef .tc main_v559)⟩, ⟨S262144x1, F (Proc.devRef .tc main_v560)⟩, ⟨S262144x1, F (Proc.devRef .tc main_v561)⟩, ⟨S262144x1, F (Proc.devRef .tc main_v562)⟩, ⟨S262144x1, F (Proc.devRef .tc main_v563)⟩, ⟨S262144x1, F (Proc.devRef .tc main_v564)⟩, ⟨S262144x1, F (Proc.devRef .tc main_v565)⟩, ⟨S262144x1, F (Proc.devRef .tc main_v566)⟩, ⟨S262144x1, F (Proc.devRef .tc main_v567)⟩, ⟨S262144x1, F (Proc.devRef .tc main_v568)⟩, ⟨S262144x1, F (Proc.devRef .tc main_v569)⟩, ⟨S262144x1, F (Proc.devRef .tc main_v570)⟩, ⟨S262144x1, F (Proc.devRef .tc main_v571)⟩, ⟨S262144x1, F (Proc.devRef .tc main_v572)⟩, ⟨S262144x1, F (Proc.devRef .tc main_v573)⟩, ⟨S262144x1, F (Proc.devRef .tc main_v574)⟩] concatenates_S262144x1_S262144x1_S262144x1_S262144x1_S262144x1_S262144x1_S262144x1_S262144x1_S262144x1_S262144x1_S262144x1_S262144x1_S262144x1_S262144x1_S262144x1_S262144x1_S262144x16_d1 := by
  rw [StableHlo.nary_result]; rfl

/-- The sixteen-column concatenation read at its result: the columns' contents side by side. -/
theorem cat_result_main_v868 {F' : FTy → Type} [FloatOps F'] (F : Valuation τ sig (Elt F')) :
    (StableHlo.nary ![main_v852, main_v853, main_v854, main_v855, main_v856, main_v857, main_v858, main_v859, main_v860, main_v861, main_v862, main_v863, main_v864, main_v865, main_v866, main_v867] main_v868 (fun u => concatenate S262144x16 1 [⟨S262144x1, u 0⟩, ⟨S262144x1, u 1⟩, ⟨S262144x1, u 2⟩, ⟨S262144x1, u 3⟩, ⟨S262144x1, u 4⟩, ⟨S262144x1, u 5⟩, ⟨S262144x1, u 6⟩, ⟨S262144x1, u 7⟩, ⟨S262144x1, u 8⟩, ⟨S262144x1, u 9⟩, ⟨S262144x1, u 10⟩, ⟨S262144x1, u 11⟩, ⟨S262144x1, u 12⟩, ⟨S262144x1, u 13⟩, ⟨S262144x1, u 14⟩, ⟨S262144x1, u 15⟩] concatenates_S262144x1_S262144x1_S262144x1_S262144x1_S262144x1_S262144x1_S262144x1_S262144x1_S262144x1_S262144x1_S262144x1_S262144x1_S262144x1_S262144x1_S262144x1_S262144x1_S262144x16_d1)).result F (no_index (Proc.devRef .tc main_v868))
      = concatenate S262144x16 1 [⟨S262144x1, F (Proc.devRef .tc main_v852)⟩, ⟨S262144x1, F (Proc.devRef .tc main_v853)⟩, ⟨S262144x1, F (Proc.devRef .tc main_v854)⟩, ⟨S262144x1, F (Proc.devRef .tc main_v855)⟩, ⟨S262144x1, F (Proc.devRef .tc main_v856)⟩, ⟨S262144x1, F (Proc.devRef .tc main_v857)⟩, ⟨S262144x1, F (Proc.devRef .tc main_v858)⟩, ⟨S262144x1, F (Proc.devRef .tc main_v859)⟩, ⟨S262144x1, F (Proc.devRef .tc main_v860)⟩, ⟨S262144x1, F (Proc.devRef .tc main_v861)⟩, ⟨S262144x1, F (Proc.devRef .tc main_v862)⟩, ⟨S262144x1, F (Proc.devRef .tc main_v863)⟩, ⟨S262144x1, F (Proc.devRef .tc main_v864)⟩, ⟨S262144x1, F (Proc.devRef .tc main_v865)⟩, ⟨S262144x1, F (Proc.devRef .tc main_v866)⟩, ⟨S262144x1, F (Proc.devRef .tc main_v867)⟩] concatenates_S262144x1_S262144x1_S262144x1_S262144x1_S262144x1_S262144x1_S262144x1_S262144x1_S262144x1_S262144x1_S262144x1_S262144x1_S262144x1_S262144x1_S262144x1_S262144x1_S262144x16_d1 := by
  rw [StableHlo.nary_result]; rfl

/-- Read every buffer line by line from the last line down to line 0. -/
macro "walk_all" : tactic => `(tactic| simp (disch := decide) only [cat_result_main_v575, cat_result_main_v868, Walk.skip38, Walk.skip37, Walk.skip36, Walk.skip35, Walk.skip34, Walk.skip33, Walk.skip32, Walk.skip31, Walk.skip30, Walk.skip29, Walk.skip28, Walk.skip27, Walk.skip26, Walk.skip25, Walk.skip24, Walk.skip23, Walk.skip22, Walk.skip21, Walk.skip20, Walk.skip19, Walk.skip18, Walk.skip17, Walk.skip16, Walk.skip15, Walk.skip14, Walk.skip13, Walk.skip12, Walk.skip11, Walk.skip10, Walk.skip9, Walk.skip8, Walk.skip7, Walk.skip6, Walk.skip5, Walk.skip4, Walk.skip3, Walk.skip2, Walk.skip1, Walk.skip0, Walk.into38, Walk.into37, Walk.into36, Walk.into35, Walk.into34, Walk.into33, Walk.into32, Walk.into31, Walk.into30, Walk.into29, Walk.into28, Walk.into27, Walk.into26, Walk.into25, Walk.into24, Walk.into23, Walk.into22, Walk.into21, Walk.into20, Walk.into19, Walk.into18, Walk.into17, Walk.into16, Walk.into15, Walk.into14, Walk.into13, Walk.into12, Walk.into11, Walk.into10, Walk.into9, Walk.into8, Walk.into7, Walk.into6, Walk.into5, Walk.into4, Walk.into3, Walk.into2, Walk.into1, Walk.into0, Walk.main_part17_ops1_plain, main_part17_ops0, main_part16_ops0, main_part15_ops0, main_part14_ops0, main_part13_ops0, main_part12_ops0, main_part11_ops0, main_part10_ops4, Walk.main_part10_ops3_plain, main_part10_ops2, Walk.main_part10_ops1_plain, main_part10_ops0, main_part9_ops0, main_part8_ops0, main_part7_ops0, main_part6_ops0, main_part5_ops0, main_part4_ops0, main_part3_ops0, main_part2_ops0, main_part1_ops0, main_part0_ops16, Walk.main_part0_ops15_plain, main_part0_ops14, Walk.main_part0_ops13_plain, main_part0_ops12, Walk.main_part0_ops11_plain, main_part0_ops10, Walk.main_part0_ops9_plain, main_part0_ops8, Walk.main_part0_ops7_plain, main_part0_ops6, Walk.main_part0_ops5_plain, main_part0_ops4, Walk.main_part0_ops3_plain, main_part0_ops2, Walk.main_part0_ops1_plain, main_part0_ops0, after_cons, after_nil, nullary_result', unary_result', binary_result', ternary_result', quaternary_result', reshape_result', nullary_result_ne', unary_result_ne', binary_result_ne', ternary_result_ne', quaternary_result_ne', reshape_result_ne', nary_result_ne'])
/-- Read every buffer line by line from the last line down to line 26. -/
macro "walk_from26" : tactic => `(tactic| simp (disch := decide) only [cat_result_main_v575, cat_result_main_v868, Walk.skip38, Walk.skip37, Walk.skip36, Walk.skip35, Walk.skip34, Walk.skip33, Walk.skip32, Walk.skip31, Walk.skip30, Walk.skip29, Walk.skip28, Walk.skip27, Walk.skip26, Walk.into38, Walk.into37, Walk.into36, Walk.into35, Walk.into34, Walk.into33, Walk.into32, Walk.into31, Walk.into30, Walk.into29, Walk.into28, Walk.into27, Walk.into26, Walk.main_part17_ops1_plain, main_part17_ops0, main_part16_ops0, main_part15_ops0, main_part14_ops0, main_part13_ops0, main_part12_ops0, main_part11_ops0, main_part10_ops4, Walk.main_part10_ops3_plain, main_part10_ops2, Walk.main_part10_ops1_plain, main_part10_ops0, after_cons, after_nil, nullary_result', unary_result', binary_result', ternary_result', quaternary_result', reshape_result', nullary_result_ne', unary_result_ne', binary_result_ne', ternary_result_ne', quaternary_result_ne', reshape_result_ne', nary_result_ne'])
/-- Read every buffer line by line from the last line down to line 30. -/
macro "walk_from30" : tactic => `(tactic| simp (disch := decide) only [cat_result_main_v575, cat_result_main_v868, Walk.skip38, Walk.skip37, Walk.skip36, Walk.skip35, Walk.skip34, Walk.skip33, Walk.skip32, Walk.skip31, Walk.skip30, Walk.into38, Walk.into37, Walk.into36, Walk.into35, Walk.into34, Walk.into33, Walk.into32, Walk.into31, Walk.into30, Walk.main_part17_ops1_plain, main_part17_ops0, main_part16_ops0, main_part15_ops0, main_part14_ops0, main_part13_ops0, main_part12_ops0, main_part11_ops0, main_part10_ops4, after_cons, after_nil, nullary_result', unary_result', binary_result', ternary_result', quaternary_result', reshape_result', nullary_result_ne', unary_result_ne', binary_result_ne', ternary_result_ne', quaternary_result_ne', reshape_result_ne', nary_result_ne'])
/-- Read every buffer line by line from the last line down to line 36. -/
macro "walk_from36" : tactic => `(tactic| simp (disch := decide) only [cat_result_main_v575, cat_result_main_v868, Walk.skip38, Walk.skip37, Walk.skip36, Walk.into38, Walk.into37, Walk.into36, Walk.main_part17_ops1_plain, main_part17_ops0, main_part16_ops0, after_cons, after_nil, nullary_result', unary_result', binary_result', ternary_result', quaternary_result', reshape_result', nullary_result_ne', unary_result_ne', binary_result_ne', ternary_result_ne', quaternary_result_ne', reshape_result_ne', nary_result_ne'])
/-- Read every buffer line by line from the last line down to line 38. -/
macro "walk_from38" : tactic => `(tactic| simp (disch := decide) only [cat_result_main_v575, cat_result_main_v868, Walk.skip38, Walk.into38, Walk.main_part17_ops1_plain, after_cons, after_nil, nullary_result', unary_result', binary_result', ternary_result', quaternary_result', reshape_result', nullary_result_ne', unary_result_ne', binary_result_ne', ternary_result_ne', quaternary_result_ne', reshape_result_ne', nary_result_ne'])

variable (m : (ℓ : Loc nD τ sig) → Buf (Elt Ideal) ℓ) (c : Dev nD)

/-- Core c's buffers as launched. -/
abbrev M0 : Valuation τ sig (Elt Ideal) := fun b => m (c, b)
/-- Core c's buffers when the region is entered, read line by line. -/
abbrev Wk : Valuation τ sig (Elt Ideal) := Walk.W39 (M0 m c)

/-- The sixteen weight columns, the sixteen corner index arrays, and the quantised table. -/
abbrev wtK : Fin 16 → FVec Ideal SN1 .f32 := ![Wk m c (Proc.devRef .tc main_v559), Wk m c (Proc.devRef .tc main_v560), Wk m c (Proc.devRef .tc main_v561), Wk m c (Proc.devRef .tc main_v562), Wk m c (Proc.devRef .tc main_v563), Wk m c (Proc.devRef .tc main_v564), Wk m c (Proc.devRef .tc main_v565), Wk m c (Proc.devRef .tc main_v566), Wk m c (Proc.devRef .tc main_v567), Wk m c (Proc.devRef .tc main_v568), Wk m c (Proc.devRef .tc main_v569), Wk m c (Proc.devRef .tc main_v570), Wk m c (Proc.devRef .tc main_v571), Wk m c (Proc.devRef .tc main_v572), Wk m c (Proc.devRef .tc main_v573), Wk m c (Proc.devRef .tc main_v574)]
abbrev idxK : Fin 16 → IVec SN 32 := ![Wk m c (Proc.devRef .tc main_v596), Wk m c (Proc.devRef .tc main_v613), Wk m c (Proc.devRef .tc main_v630), Wk m c (Proc.devRef .tc main_v647), Wk m c (Proc.devRef .tc main_v664), Wk m c (Proc.devRef .tc main_v681), Wk m c (Proc.devRef .tc main_v698), Wk m c (Proc.devRef .tc main_v715), Wk m c (Proc.devRef .tc main_v732), Wk m c (Proc.devRef .tc main_v749), Wk m c (Proc.devRef .tc main_v766), Wk m c (Proc.devRef .tc main_v783), Wk m c (Proc.devRef .tc main_v800), Wk m c (Proc.devRef .tc main_v817), Wk m c (Proc.devRef .tc main_v834), Wk m c (Proc.devRef .tc main_v851)]
abbrev wqK : FVec Ideal ST .f32 := Wk m c (Proc.devRef .tc main_v579)

end Cert.KernelIdeal.Glue

end
-- ==== Proof.KPayload.lean ====
/-
  The value one grid point stores, read at an index. Over a block x0 : [1024, 16, 16] and a block x1 : [1024, 16]
  the body multiplies x0 by x1 spread along the last axis, sums the product over the middle axis from the zero
  accumulator, and scales by the constant whose pattern is 0x3D800000. At (p, q) that is
      (∑ k, x0[p, k, q] · x1[p, k]) · c.
  The three layout facts it rests on are stated first, each at coordinates: the column view of a [1024, 16]
  vector, the spread of a column along a new last axis, and the index the middle-axis sum inserts into.
-/
import proofs.«409975_j2585570312579_2_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Val

open Idealize.ShloMosaic Idealize.ShloMosaic.ValueIdx Cert.KernelIdeal Cert.KernelIdeal.Gen

/-- The column form of a row-major reshape: a [1024, 16] vector viewed [1024, 16, 1] reads (p, k) at (p, k, 0). -/
theorem column_apply (v : FVec Ideal S1024x16 .f32) (p : Fin 1024) (k : Fin 16) (z : Fin 1) :
    shapeCast S1024x16x1 v shapeCasts_S1024x16_S1024x16x1 (ix3 p k z) = v (ix2 p k) := by
  refine shapeCast_apply v _ _ _ ?_
  rw [Shape.rowMajor_val_two, Shape.rowMajor_val_three]
  have hz := z.isLt
  show p.val * 16 + k.val = (p.val * 16 + k.val) * 1 + z.val
  omega

/-- The index a sum over the middle axis inserts its coordinate into: (p, q) with k inserted is (p, k, q). -/
theorem lift_mid (p : Fin 1024) (q k : Fin 16) :
    reduces_S1024x16x16_S1024x16.lift (ix2 p q) k = ix3 p k q := by
  funext a
  match a with
  | ⟨0, _⟩ => exact Fin.ext rfl
  | ⟨1, _⟩ => exact Fin.ext rfl
  | ⟨2, _⟩ => exact Fin.ext rfl

/-- A [1024, 16, 1] column broadcast along the last axis reads (p, k, 0) at every (p, k, q). -/
theorem spread_apply (v : FVec Ideal S1024x16x1 .f32) (p : Fin 1024) (k q : Fin 16) :
    broadcastTo S1024x16x16 v broadcasts_S1024x16x1_S1024x16x16 (ix3 p k q) = v (ix3 p k (0 : Fin 1)) := by
  refine broadcastTo_apply v _ _ _ fun a => ?_
  match a with
  | ⟨0, _⟩ => rfl
  | ⟨1, _⟩ => rfl
  | ⟨2, _⟩ => rfl

/-- The stored value at (p, q): the sum over k of x0[p, k, q] · x1[p, k], times the scalar 2⁻⁴'s pattern. -/
theorem pay_apply (x0 : Vec Ideal S1024x16x16 .f32) (x1 : Vec Ideal S1024x16 .f32) (p : Fin 1024) (q : Fin 16) :
    k0_pay1 (F := Ideal) x0 x1 (ix2 p q)
      = (∑ k : Fin 16, x0 (ix3 p k q) * x1 (ix2 p k)) * Ideal.ofBits .f32 0x3D800000#32 := by
  unfold k0_pay1
  simp only [shapeCast_self]
  rw [mulf_apply, broadcast_apply]
  refine congrArg₂ (· * ·) ((Ideal.multiReduction_add_single _ _ reduces_S1024x16x16_S1024x16 _ _ (ix2 p q)).trans ?_) rfl
  show ∑ k : Fin 16, _ = _
  refine Finset.sum_congr rfl fun k _ => ?_
  rw [lift_mid, mulf_apply, spread_apply, column_apply]

end Cert.KernelIdeal.Val
-- ==== Proof.KValue.lean ====
/-
  The value of the program's one region and of the three host operations after it, at the extended reals.

  The region runs over 256 points. Point t reads rows 1024·t … 1024·t + 1023 of a [262144, 16, 16] array g and of a
  [262144, 16] array w, and overwrites the same rows of a [262144, 16] output array with, at (p, q),
      (∑ k, g[row, k, q] · w[row, k]) · c,
  where c is the scalar constant the body multiplies by. Each point's three blocks are the same rows of their
  arrays, and the 256 row blocks tile the output array, so after the region it holds the one function G g w of the
  whole input arrays. The three operations after the region — a view as [4, 1, 256, 256, 4, 4], the exchange of the
  fourth and fifth axes, a view as [4, 1, 1024, 1024] — are kept as one function, shuffle, applied to it. The
  two argument arrays are written by nothing and end as launched.
-/
import proofs.«409975_j2585570312579_2_alg».proof.Proof.KPayload
import proofs.«409975_j2585570312579_2_alg».proof.Proof.KFrame
import Idealize.ShloMosaic.Lib.Pipeline.Value
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

/-- The whole output array as one function of the two whole input arrays: at (r, q) the sum over k of
    g[r, k, q] · w[r, k], times the scalar constant. -/
def G (g : FVec Ideal S262144x16x16 .f32) (w : FVec Ideal S262144x16 .f32) : FVec Ideal S262144x16 .f32 :=
  fun i => (∑ k : Fin 16, g (ix3 (i 0) k (i 1)) * w (ix2 (i 0) k)) * Ideal.ofBits .f32 0x3D800000#32

theorem zero2 : (![0, 0] : Fin 2 → Nat) = fun _ => 0 := funext fun a => by fin_cases a <;> rfl
theorem zero3 : (![0, 0, 0] : Fin 3 → Nat) = fun _ => 0 := funext fun a => by fin_cases a <;> rfl

/-- The three index maps over the grid: point t stages block t of each array along the long axis and block 0 along the others. -/
theorem index_maps : ∀ t : Fin cfg0.N, win0_2.index t (0 : Fin 2) = t.val ∧ win0_2.index t (1 : Fin 2) = 0
    ∧ win0_0.index t (0 : Fin 3) = t.val ∧ win0_0.index t (1 : Fin 3) = 0 ∧ win0_0.index t (2 : Fin 3) = 0
    ∧ win0_1.index t (0 : Fin 2) = t.val ∧ win0_1.index t (1 : Fin 2) = 0 :=
  (by decide +kernel : ∀ t : Fin grid0.N, _)

/-- One stored element against G: if the blocks x0, x1 read the arrays g, w along row i 0 — x0[p, k, q] = g[i 0, k, i 1]
    and x1[p, k] = w[i 0, k] for every k — then the stored value at (p, q) is G g w at i. -/
theorem stored_eq (g : FVec Ideal S262144x16x16 .f32) (w : FVec Ideal S262144x16 .f32)
    (x0 : Vec Ideal S1024x16x16 .f32) (x1 : Vec Ideal S1024x16 .f32) (i : S262144x16.Idx) (p : Fin 1024) (q : Fin 16)
    (h0 : ∀ k : Fin 16, x0 (ix3 p k q) = g (ix3 (i 0) k (i 1)))
    (h1 : ∀ k : Fin 16, x1 (ix2 p k) = w (ix2 (i 0) k)) :
    k0_pay1 (F := Ideal) x0 x1 (ix2 p q) = G g w i := by
  rw [pay_apply]
  unfold G
  simp only [h0, h1]

/-- Over ANY two arrays g, w: the body's result on block t of g and block t of w is block t of G g w. -/
theorem block_eq (g : FVec Ideal S262144x16x16 .f32) (w : FVec Ideal S262144x16 .f32) (t : Fin cfg0.N) :
    (cfg0.win 2).cut (grid0.coords t)
        (GenH.out0_2 (F := Ideal) (((cfg0.win 0).blk t).view.read (Elt Ideal) g) (((cfg0.win 1).blk t).view.read (Elt Ideal) w))
      = ((cfg0.win 2).blk t).view.read (Elt Ideal) (G g w) := by
  unfold GenH.out0_2
  rw [View.canon_unit_zero zero2]
  simp only [View.ld_unit_zero (S := S1024x16x16) zero3, View.ld_unit_zero (S := S1024x16) zero2]
  obtain ⟨e0, e1, e2, e3, e4, e5, e6⟩ := index_maps t
  funext j
  obtain ⟨p, q, rfl⟩ : ∃ (p : Fin 1024) (q : Fin 16), j = ix2 p q := ⟨j 0, j 1, eq_ix2 j⟩
  show k0_pay1 (((cfg0.win 0).blk t).view.read (Elt Ideal) g) (((cfg0.win 1).blk t).view.read (Elt Ideal) w) (ix2 p q)
    = G g w (((cfg0.win 2).blk t).view.emb (ix2 p q))
  refine stored_eq g w _ _ _ p q (fun k => ?_) (fun k => ?_)
  · show g (((cfg0.win 0).blk t).view.emb (ix3 p k q)) = g _
    refine congrArg g (funext fun a => Fin.ext ?_)
    match a with
    | ⟨0, _⟩ => show win0_0.index t (0 : Fin 3) * 1024 + 1 * p.val = win0_2.index t (0 : Fin 2) * 1024 + 1 * p.val; omega
    | ⟨1, _⟩ => show win0_0.index t (1 : Fin 3) * 16 + 1 * k.val = k.val; omega
    | ⟨2, _⟩ => show win0_0.index t (2 : Fin 3) * 16 + 1 * q.val = win0_2.index t (1 : Fin 2) * 16 + 1 * q.val; omega
  · show w (((cfg0.win 1).blk t).view.emb (ix2 p k)) = w _
    refine congrArg w (funext fun a => Fin.ext ?_)
    match a with
    | ⟨0, _⟩ => show win0_1.index t (0 : Fin 2) * 1024 + 1 * p.val = win0_2.index t (0 : Fin 2) * 1024 + 1 * p.val; omega
    | ⟨1, _⟩ => show win0_1.index t (1 : Fin 2) * 16 + 1 * k.val = k.val; omega

/-- What point t writes back is block t of G of the two input arrays as the region finds them. -/
theorem flushed_eq (c : Dev nD) (t : Fin cfg0.N) :
    (GenH.dats (F := Ideal) m 0 c).flushed 2 t
      = ((cfg0.win 2).blk t).view.read (Elt Ideal) (G (GenH.V m c main_v869) (GenH.V m c main_v575)) := by
  show (cfg0.win 2).cut (grid0.coords t) ((GenH.dats m 0 c).after 2 t) = _
  rw [GenH.after0_2]
  exact block_eq (GenH.V m c main_v869) (GenH.V m c main_v575) t

/-- An index of the output array is in point t's block iff each coordinate is in the block's range on its axis. -/
theorem mem_block (t : Fin cfg0.N) (i : S262144x16.Idx) :
    i ∈ ((cfg0.win 2).blk t).view.set ↔ ∀ a : Fin 2, win0_2.index t a * S1024x16.size a ≤ (i a).val
      ∧ (i a).val < win0_2.index t a * S1024x16.size a + S1024x16.size a := by
  show i ∈ ((View.whole main_v870).slice (win0_2.rect t)).set ↔ _
  rw [View.set_slice_whole, Rect.mem_set_unit]
  exact Iff.rfl

/-- Every index of the output array is in some point's block: row r is in block r / 1024. -/
theorem covered (i : S262144x16.Idx) :
    ∃ t : Fin cfg0.N, (cfg0.win 2).flush t = true ∧ i ∈ ((cfg0.win 2).blk t).view.set := by
  have hi0 : (i 0).val < 262144 := (i 0).isLt
  have hi1 : (i 1).val < 16 := (i 1).isLt
  have hN : cfg0.N = 256 := N_0
  have ht : (i 0).val / 1024 < cfg0.N := by rw [hN]; omega
  obtain ⟨e0, e1, -⟩ := index_maps ⟨(i 0).val / 1024, ht⟩
  refine ⟨⟨(i 0).val / 1024, ht⟩, flush0_2 _, ?_⟩
  rw [mem_block]
  intro a
  match a with
  | ⟨0, _⟩ =>
    show win0_2.index ⟨(i 0).val / 1024, ht⟩ (0 : Fin 2) * 1024 ≤ (i 0).val
      ∧ (i 0).val < win0_2.index ⟨(i 0).val / 1024, ht⟩ (0 : Fin 2) * 1024 + 1024
    rw [e0]
    show (i 0).val / 1024 * 1024 ≤ (i 0).val ∧ (i 0).val < (i 0).val / 1024 * 1024 + 1024
    omega
  | ⟨1, _⟩ =>
    show win0_2.index ⟨(i 0).val / 1024, ht⟩ (1 : Fin 2) * 16 ≤ (i 1).val
      ∧ (i 1).val < win0_2.index ⟨(i 0).val / 1024, ht⟩ (1 : Fin 2) * 16 + 16
    rw [e1]
    omega

/-- The output array after the region is G of the two input arrays as the region finds them. -/
theorem final2 (c : Dev nD) :
    (GenH.dats (F := Ideal) m 0 c).arrAt 2 cfg0.N = G (GenH.V m c main_v869) (GenH.V m c main_v575) :=
  (GenH.dats m 0 c).arrAt_eq_of_cover 2 (G (GenH.V m c main_v869) (GenH.V m c main_v575))
    (fun t _ => flushed_eq m c t) covered

/-- The three host operations after the region, composed: a [262144, 16] array viewed [4, 1, 256, 256, 4, 4], its
    fourth and fifth axes exchanged, and the result viewed [4, 1, 1024, 1024]. -/
def shuffle (X : FVec Ideal S262144x16 .f32) : FVec Ideal S4x1x1024x1024 .f32 :=
  shapeCast S4x1x1024x1024
    (transpose S4x1x256x4x256x4 [0, 1, 2, 4, 3, 5]
      (shapeCast S4x1x256x256x4x4 X shapeCasts_S262144x16_S4x1x256x256x4x4)
      transposes_S4x1x256x256x4x4_S4x1x256x4x256x4_0_1_2_4_3_5)
    shapeCasts_S4x1x256x4x256x4_S4x1x1024x1024

/-- The region's output array, as the operations after the region find it, is G of the two input arrays. -/
theorem tail_input (c : Dev nD) :
    Pipeline.withArrays (cfgs 0).spec c (GenH.V0 m c) (fun w => (GenH.dats (F := Ideal) m 0 c).arrAt w (cfgs 0).N)
        (Proc.devRef .tc main_v870)
      = G (GenH.V m c main_v869) (GenH.V m c main_v575) :=
  (Pipeline.withArrays_arr spec0 launch0.win.arr_inj c _ _ 2).trans (final2 m c)

/-- The program's result: the three operations after the region applied to the region's output array. -/
theorem result_eq (c : Dev nD) :
    Pipeline.afterTail₀ cfgs (GenH.dats (F := Ideal) m) 0 (GenH.V0 m) [hostOps1] c main_v873
      = shuffle (G (GenH.V m c main_v869) (GenH.V m c main_v575)) := by
  unfold Pipeline.afterTail₀
  show StableHlo.after hostOps1 _ (Proc.devRef .tc main_v873) = _
  after_results
  rw [tail_input]
  rfl

/-- The run, read: the result array at the tail of G of the two input arrays as the region finds them, both
    argument arrays as launched. -/
theorem run_value : θ_run (defs (F := Ideal)) (onTc (τ := τ) (main (F := Ideal))) ⟨m, fun _ => 0, ρ⟩
    (fun r => ∀ c : Dev nD,
      r.2.mem ((c.tc : Thread nD τ).loc main_v873) = shuffle (G (GenH.V m c main_v869) (GenH.V m c main_v575))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v873 (Pipeline.mem_restRefs_of main_v873 (by decide) (by decide))).trans (result_eq m c),
     ((h c).2 main_arg0 (Pipeline.mem_restRefs_of main_arg0 (by decide) (by decide))).trans (GenH.W_main_arg0 m (GenH.dats m) c),
     ((h c).2 main_arg1 (Pipeline.mem_restRefs_of main_arg1 (by decide) (by decide))).trans (GenH.W_main_arg1 m (GenH.dats m) c)⟩)
    (GenH.run_main m ρ)

end Cert.KernelIdeal.Val

end
-- ==== Proof.LibRows.lean ====
/-
  Row gathers and accumulating row scatters read at an index.

  A table of N rows of width C is read, or accumulated into, at rows named by a column of n start indices
  (an [n × 1] array of words). Reading: result row p is the table's row at start index p, read signed and clamped
  into [0, N − 1]. Accumulating: update row e lands on the operand row its start index names, read signed and NOT
  clamped, and is dropped when that is no row of the operand; entry (r, c) of the result is the operand's entry plus the
  sum of the entries (e, c) of the update rows e that land on r.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.LibRows

open Idealize.ShloMosaic Idealize.ShloMosaic.ValueIdx Idealize.ShloMosaic.StableHlo.Predicate

/-- The table row a start index names when it is READ: the word read signed, clamped into [0, N − 1]. -/
def rowOf {N n w : ℕ} (hN : 0 < N) (idx : IVec ⟨2, ![n, 1]⟩ w) (p : Fin n) : Fin N :=
  ⟨min (idx (ixP p)).toInt.toNat (N - 1), by omega⟩

/-- A row gather read at (p, q): the table at (row of start index p, q). The five hypotheses are the printed
    dimension numbers, each closed by `rfl` at a use. -/
theorem gather_rows {α : Type} {N C n w : ℕ} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (hN : 0 < N) (p : Fin n) (q : Fin C) :
    Host.gather d x idx (ix2 p q) = x (ix2 (rowOf hN idx p) q) := by
  unfold Host.gather
  congr 1
  funext a
  apply Fin.ext
  have hnb : ∀ a : Fin 2, a ∉ d.operandBatchingDims := fun a => by rw [hob]; exact List.not_mem_nil
  -- the result's batch axes are axis 0 alone, its offset axes axis 1 alone
  have hbd : ∀ X ∈ d.batchDims, X = (0 : Fin 2) := by
    intro X hX
    have : d.batchDims = [(0 : Fin 2)] := by unfold GatherDims.batchDims; rw [hoff]; rfl
    rw [this] at hX; exact List.mem_singleton.mp hX
  have hod : ∀ X ∈ d.offsetDims, X = (1 : Fin 2) := by
    intro X hX; rw [hoff] at hX; exact List.mem_singleton.mp hX
  have e0 : ∀ X : Fin 2, X = 0 → ((ix2 p q : (⟨2, ![n, C]⟩ : Shape).Idx) X).val = p.val := by rintro _ rfl; rfl
  have e1 : ∀ X : Fin 2, X = 1 → ((ix2 p q : (⟨2, ![n, C]⟩ : Shape).Idx) X).val = q.val := by rintro _ rfl; rfl
  match a with
  | ⟨0, _⟩ =>
    -- axis 0 is collapsed and start-indexed: its slice has size 1, so the start is clamped into [0, N − 1]
    have hsl : d.sliceSizes 0 = 1 := d.slice_collapsed 0 (by rw [hcoll]; exact List.mem_singleton.mpr rfl)
    have hk : (0 : Fin 2) ∉ d.sKept := by rw [GatherDims.mem_sKept, hcoll]; simp
    have hm : (0 : Fin 2) ∈ d.startIndexMap := by rw [hsim]; exact List.mem_singleton.mpr rfl
    show d.start (ix2 p q) idx 0 + d.batchCoord (ix2 p q) 0 + d.offCoord (ix2 p q) 0 = min (idx (ixP p)).toInt.toNat (N - 1)
    rw [GatherDims.batchCoord_eq_zero _ _ _ (hnb 0), GatherDims.offCoord_eq_zero _ _ _ hk]
    unfold GatherDims.start
    rw [dif_pos hm]
    show min _ (N - d.sliceSizes 0) = _
    rw [hsl]
    congr 3
    congr 1
    funext b
    apply Fin.ext
    match b with
    | ⟨0, _⟩ =>
      unfold GatherDims.siIdx
      rw [dif_neg (by rw [hivd]; exact Nat.zero_ne_one)]
      unfold GatherDims.siCoord
      simp only [Fin.val_cast]
      exact e0 _ (hbd _ (List.getElem_mem _))
    | ⟨1, _⟩ =>
      unfold GatherDims.siIdx
      rw [dif_pos (by rw [hivd])]
      show List.idxOf (0 : Fin 2) d.startIndexMap = 0
      rw [hsim]; simp
  | ⟨1, _⟩ =>
    -- axis 1 is the one offset axis: no start, and the offset coordinate is the result's column
    have hk : (1 : Fin 2) ∈ d.sKept := by rw [GatherDims.mem_sKept, hcoll, hob]; simp
    have hm : (1 : Fin 2) ∉ d.startIndexMap := by rw [hsim]; simp
    show d.start (ix2 p q) idx 1 + d.batchCoord (ix2 p q) 1 + d.offCoord (ix2 p q) 1 = q.val
    rw [GatherDims.batchCoord_eq_zero _ _ _ (hnb 1)]
    unfold GatherDims.start GatherDims.offCoord
    rw [dif_neg hm, dif_pos hk]
    simp only [Nat.zero_add, Nat.add_zero]
    exact e1 _ (hod _ (List.getElem_mem _))

/-- Where update entry (e, c) of an accumulating row scatter lands: on (r, c') exactly when start index e, read signed,
    is r and the columns agree. -/
theorem scatter_rows_resultIdx {N C n w : ℕ} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (idx : IVec ⟨2, ![n, 1]⟩ w) (e : Fin n) (c : Fin C) (r : Fin N) (c' : Fin C) :
    d.resultIdx? (ix2 e c) idx = some (ix2 r c') ↔ (idx (ixP e)).toInt = (r.val : ℤ) ∧ c = c' := by
  -- the update's scatter axes are axis 0 alone, its window axes axis 1 alone
  have hus : ∀ X ∈ d.uScatter, X = (0 : Fin 2) := by
    intro X hX
    have : d.uScatter = [(0 : Fin 2)] := by unfold ScatterDims.uScatter; rw [huw]; rfl
    rw [this] at hX; exact List.mem_singleton.mp hX
  have huwd : ∀ X ∈ d.updateWindowDims, X = (1 : Fin 2) := by
    intro X hX; rw [huw] at hX; exact List.mem_singleton.mp hX
  have e0 : ∀ X : Fin 2, X = 0 → ((ix2 e c : (⟨2, ![n, C]⟩ : Shape).Idx) X).val = e.val := by rintro _ rfl; rfl
  have e1 : ∀ X : Fin 2, X = 1 → ((ix2 e c : (⟨2, ![n, C]⟩ : Shape).Idx) X).val = c.val := by rintro _ rfl; rfl
  have hmem_sKept : ∀ a : Fin 2, a ∈ d.sKept ↔ a ∉ d.insertedWindowDims := fun a => by
    simp [ScatterDims.sKept, Shape.kept, List.mem_filter, List.mem_finRange]
  -- the start of the window: the index word, read signed, on axis 0; nothing on axis 1
  have hs0 : d.start (ix2 e c) idx 0 = (idx (ixP e)).toInt := by
    have hm : (0 : Fin 2) ∈ d.scatterDimsToOperandDims := by rw [hsd]; exact List.mem_singleton.mpr rfl
    unfold ScatterDims.start
    rw [dif_pos hm]
    congr 2
    funext b
    apply Fin.ext
    match b with
    | ⟨0, _⟩ =>
      unfold ScatterDims.siIdx
      rw [dif_neg (by rw [hivd]; exact Nat.zero_ne_one)]
      unfold ScatterDims.siCoord
      simp only [Fin.val_cast]
      exact e0 _ (hus _ (List.getElem_mem _))
    | ⟨1, _⟩ =>
      unfold ScatterDims.siIdx
      rw [dif_pos (by rw [hivd])]
      show List.idxOf (0 : Fin 2) d.scatterDimsToOperandDims = 0
      rw [hsd]; simp
  have hs1 : d.start (ix2 e c) idx 1 = 0 := by
    have hm : (1 : Fin 2) ∉ d.scatterDimsToOperandDims := by rw [hsd]; simp
    unfold ScatterDims.start
    rw [dif_neg hm]
  -- the window coordinate: nothing on the inserted axis 0; the update's column on axis 1
  have hw0 : d.window (ix2 e c) 0 = 0 := by
    have hk : (0 : Fin 2) ∉ d.sKept := by rw [hmem_sKept, hiw]; simp
    unfold ScatterDims.window
    rw [dif_neg hk]
  have hw1 : d.window (ix2 e c) 1 = c.val := by
    have hk : (1 : Fin 2) ∈ d.sKept := by rw [hmem_sKept, hiw]; simp
    unfold ScatterDims.window
    rw [dif_pos hk]
    exact e1 _ (huwd _ (List.getElem_mem _))
  have hr := r.isLt
  have hc := c.isLt
  have hc' := c'.isLt
  unfold ScatterDims.resultIdx?
  constructor
  · intro h
    split at h
    · next hin =>
      have hf := Option.some.inj h
      have h0 := congrArg (fun f => (f 0).val) hf
      have h1 := congrArg (fun f => (f 1).val) hf
      simp only [hs0, hw0, hs1, hw1] at h0 h1
      have hin0 := (hin 0).1
      rw [hs0, hw0] at hin0
      change ((idx (ixP e)).toInt + ((0 : ℕ) : ℤ)).toNat = r.val at h0
      change ((0 : ℤ) + (c.val : ℤ)).toNat = c'.val at h1
      refine ⟨by omega, Fin.ext (by omega)⟩
    · exact absurd h (by simp)
  · rintro ⟨hi, rfl⟩
    have hin : ∀ a, 0 ≤ d.start (ix2 e c) idx a + d.window (ix2 e c) a ∧
        d.start (ix2 e c) idx a + (d.window (ix2 e c) a : ℤ) < ((⟨2, ![N, C]⟩ : Shape).size a : ℤ) := by
      intro a
      match a with
      | ⟨0, _⟩ =>
        show 0 ≤ d.start (ix2 e c) idx 0 + (d.window (ix2 e c) 0 : ℤ) ∧ d.start (ix2 e c) idx 0 + (d.window (ix2 e c) 0 : ℤ) < (N : ℤ)
        rw [hs0, hw0, hi]; omega
      | ⟨1, _⟩ =>
        show 0 ≤ d.start (ix2 e c) idx 1 + (d.window (ix2 e c) 1 : ℤ) ∧ d.start (ix2 e c) idx 1 + (d.window (ix2 e c) 1 : ℤ) < (C : ℤ)
        rw [hs1, hw1]; omega
    rw [dif_pos hin]
    congr 1
    funext a
    apply Fin.ext
    match a with
    | ⟨0, _⟩ =>
      show (d.start (ix2 e c) idx 0 + (d.window (ix2 e c) 0 : ℤ)).toNat = r.val
      rw [hs0, hw0, hi]; omega
    | ⟨1, _⟩ =>
      show (d.start (ix2 e c) idx 1 + (d.window (ix2 e c) 1 : ℤ)).toNat = c.val
      rw [hs1, hw1]; omega

/-- The accumulating row scatter at the extended reals, read at (r, c): the operand's entry plus the sum over the update
    rows that land on r of their entry in column c. -/
theorem scatterAdd_rows {φ : FTy} {N C n w : ℕ} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (x : FVec Ideal ⟨2, ![N, C]⟩ φ) (idx : IVec ⟨2, ![n, 1]⟩ w)
    (upd : FVec Ideal ⟨2, ![n, C]⟩ φ) (r : Fin N) (c : Fin C) :
    Host.scatterAdd d x idx upd (ix2 r c)
      = x (ix2 r c) + ∑ e ∈ Finset.univ.filter (fun e : Fin n => (idx (ixP e)).toInt = (r.val : ℤ)), upd (ix2 e c) := by
  show x (ix2 r c) + ∑ j ∈ Finset.univ.filter (fun j => d.resultIdx? j idx = some (ix2 r c)), upd j = _
  congr 1
  rw [Finset.sum_filter, sum_idx2, Finset.sum_filter]
  refine Finset.sum_congr rfl fun a _ => ?_
  simp only [scatter_rows_resultIdx d huw hiw hsd hivd]
  by_cases ha : (idx (ixP a)).toInt = (r.val : ℤ)
  · simp only [ha, true_and, if_true]
    rw [Finset.sum_ite_eq']
    simp
  · simp only [ha, false_and, if_false]
    exact Finset.sum_const_zero

/-- An accumulating scatter of real entries into real entries has real entries, whatever its dimension numbers and
    indices: each entry is the operand's plus a finite sum of updates. -/
theorem scatterAdd_real {φ : FTy} {s si su : Shape} {w : ℕ} (d : ScatterDims s si su) (x : FVec Ideal s φ) (idx : IVec si w)
    (upd : FVec Ideal su φ) (hx : ∀ i, ∃ r : ℝ, x i = (r : EReal)) (hu : ∀ j, ∃ r : ℝ, upd j = (r : EReal)) (i : s.Idx) :
    ∃ r : ℝ, Host.scatterAdd d x idx upd i = (r : EReal) := by
  -- a finite sum of real updates is real
  have hsum : ∀ S : Finset su.Idx, ∃ b : ℝ, ∑ j ∈ S, upd j = (b : EReal) := by
    classical
    intro S
    induction S using Finset.induction_on with
    | empty => exact ⟨0, by rw [Finset.sum_empty, EReal.coe_zero]⟩
    | insert j S hj ih =>
      obtain ⟨b, hb⟩ := ih
      obtain ⟨u, hu'⟩ := hu j
      exact ⟨u + b, by rw [Finset.sum_insert hj, hb, hu', EReal.coe_add]⟩
  obtain ⟨a, ha⟩ := hx i
  obtain ⟨b, hb⟩ := hsum (Finset.univ.filter (fun j => d.resultIdx? j idx = some i))
  refine ⟨a + b, ?_⟩
  show x i + ∑ j ∈ Finset.univ.filter (fun j => d.resultIdx? j idx = some i), upd j = _
  rw [ha, hb, EReal.coe_add]

end Cert.LibRows

end
-- ==== Proof.GatherK.lean ====
/-
  The kernel side's filling row lookup and its sixteen-column concatenations, read at an index.

  idx2 : i32[262144, 16] holds, at (n, k), corner k's start index of pixel n. The lookup adds 83521 to a negative
  index, views the result as [262144, 16, 1], gathers rows of a table T : f32[83521, 16] (the gather clamps a start
  into the table) into [262144, 16, 16], and replaces by a fill value every (n, k) whose wrapped index is not in
  [0, 83520]. When every index lies in [0, 83520] nothing is wrapped and nothing is replaced: the result at
  (n, k, q) is T at (the row idx2 (n, k) names, q).

  Sixteen [262144, 1] columns laid side by side along axis 1 give a [262144, 16] array whose entry (p, k) is
  column k's entry (p, 0); a length-262144 vector viewed as a [262144, 1] column has entry (p, 0) the vector's entry p.
-/
import proofs.«409975_j2585570312579_2_alg».proof.Proof.Spec
import proofs.«409975_j2585570312579_2_alg».proof.Proof.LibRows
import Idealize.ShloMosaic.PureOps.Ideal
import Idealize.ShloMosaic.Lib.ValueIdx
import Idealize.ShloMosaic.Lib.ValueLayout
import Idealize.ShloMosaic.Lib.Pipeline.Value
import Idealize.ShloMosaic.Lib.ReduceAll
import Idealize.ShloMosaic.Lib.StableHlo.Predicate

noncomputable section

namespace Cert.GatherK

open Idealize.ShloMosaic Idealize.ShloMosaic.ValueIdx Cert.Spec
open Idealize.ShloMosaic.StableHlo.Predicate

abbrev S0 : Shape := ⟨0, ![]⟩
abbrev S1 : Shape := ⟨1, ![1]⟩
abbrev S111 : Shape := ⟨3, ![1, 1, 1]⟩
abbrev SNK : Shape := SN16
abbrev SNK1 : Shape := ⟨3, ![262144, 16, 1]⟩
abbrev SNKC : Shape := ⟨3, ![262144, 16, 16]⟩

/-! ## The definitions -/

/-- The wrapped start indices as a [262144, 16, 1] array: 83521 added to a negative index. -/
def wrap3 (hb0 : S0.BroadcastsInDim SNK (![] : Fin 0 → Fin SNK.rank))
    (hcol : SNK.BroadcastsInDim SNK1 (![0, 1] : Fin 2 → Fin SNK1.rank)) (i : IVec SNK 32) : IVec SNK1 32 :=
  broadcastInDim SNK1 ![0, 1] hcol (select (cmpi .slt i (broadcastInDim SNK ![] hb0 (constantI S0 32 0#32)))
    (addi i (broadcastInDim SNK ![] hb0 (constantI S0 32 83521#32))) i)

/-- The filling lookup: the rows the wrapped indices name, a fill value where a wrapped index is outside [0, 83520]. -/
def takeFill {F : FTy → Type} [FloatOps F]
    (hb0 : S0.BroadcastsInDim SNK (![] : Fin 0 → Fin SNK.rank))
    (hcol : SNK.BroadcastsInDim SNK1 (![0, 1] : Fin 2 → Fin SNK1.rank))
    (hb01 : S0.BroadcastsInDim SNK1 (![] : Fin 0 → Fin SNK1.rank))
    (h1 : S1.BroadcastsInDim S111 (![2] : Fin 1 → Fin S111.rank))
    (h111 : S111.BroadcastsInDim SNK1 (![0, 1, 2] : Fin 3 → Fin SNK1.rank))
    (hred : SNK1.ReducesTo [2] SNK) (hu : 0 < S0.numel)
    (hm : SNK.BroadcastsInDim SNKC (![0, 1] : Fin 2 → Fin SNKC.rank))
    (hbf : S0.BroadcastsInDim SNKC (![] : Fin 0 → Fin SNKC.rank))
    (d : GatherDims ST SNK1 SNKC) (T : FVec F ST .f32) (i : IVec SNK 32) : FVec F SNKC .f32 :=
  select (broadcastInDim SNKC ![0, 1] hm (Host.reduce IntOp.andi
      (andi (cmpi .sge (wrap3 hb0 hcol i) (broadcastInDim SNK1 ![] hb01 (constantI S0 32 0#32)))
        (cmpi .sle (wrap3 hb0 hcol i)
          (broadcastInDim SNK1 ![0, 1, 2] h111 (broadcastInDim S111 ![2] h1 (constantI S1 32 83520#32)))))
      (constantI S0 1 1#1) hred hu))
    (Host.gather d T (wrap3 hb0 hcol i)) (broadcastInDim SNKC ![] hbf (constant S0 .f32 0x7FC00000#32))

/-- Sixteen [262144, 1] columns laid side by side along axis 1. -/
def cat16 {α : Type}
    (hcat : Shape.Concatenates [SN1, SN1, SN1, SN1, SN1, SN1, SN1, SN1, SN1, SN1, SN1, SN1, SN1, SN1, SN1, SN1] SN16 1)
    (u : Fin 16 → SN1.Idx → α) : SN16.Idx → α :=
  concatenate SN16 1 [⟨SN1, u 0⟩, ⟨SN1, u 1⟩, ⟨SN1, u 2⟩, ⟨SN1, u 3⟩, ⟨SN1, u 4⟩, ⟨SN1, u 5⟩, ⟨SN1, u 6⟩, ⟨SN1, u 7⟩,
    ⟨SN1, u 8⟩, ⟨SN1, u 9⟩, ⟨SN1, u 10⟩, ⟨SN1, u 11⟩, ⟨SN1, u 12⟩, ⟨SN1, u 13⟩, ⟨SN1, u 14⟩, ⟨SN1, u 15⟩] hcat

/-! ## The row gather at an index -/

/-- An entry of a list whose members and whose position are given by equations: the named list's entry at the named
    position. -/
private theorem getElem_val {β : Type} {l : List β} {n : ℕ} (h : n < l.length) (l' : List β) (n' : ℕ) (v : β)
    (hl : l = l') (hn : n = n') (hv : l'[n']? = some v) : l[n] = v :=
  (List.getElem_eq_iff h).2 (by rw [hl, hn]; exact hv)

/-- The rank-3 row gather read at (p, k, q): the table at (the row start index (p, k, 0) names, q). The five
    hypotheses are the printed dimension numbers. -/
theorem gather3_apply {α : Type} (d : GatherDims ST SNK1 SNKC)
    (hoff : d.offsetDims = [2]) (hcoll : d.collapsedSliceDims = [0]) (hob : d.operandBatchingDims = [])
    (hsim : d.startIndexMap = [0]) (hivd : d.indexVectorDim = 2)
    (x : ST.Idx → α) (i3 : IVec SNK1 32) (p : Fin 262144) (k : Fin 16) (q : Fin 16) :
    Host.gather d x i3 (ix3 p k q) = x (ix2 (rowOf (i3 (ix3 p k 0))) q) := by
  unfold Host.gather
  congr 1
  funext a
  apply Fin.ext
  have hnb : ∀ a : Fin 2, a ∉ d.operandBatchingDims := fun a => by rw [hob]; exact List.not_mem_nil
  -- the result's batch axes are axes 0 and 1, its offset axes axis 2 alone
  have hbd : d.batchDims = [(0 : Fin 3), 1] := by unfold GatherDims.batchDims; rw [hoff]; rfl
  have hsk : d.siKept = [(0 : Fin 3), 1] := by unfold GatherDims.siKept; rw [hivd]; rfl
  have hod : ∀ X ∈ d.offsetDims, X = (2 : Fin 3) := by
    intro X hX; rw [hoff] at hX; exact List.mem_singleton.mp hX
  have e0 : ∀ X : Fin 3, X = 0 → ((ix3 p k q : SNKC.Idx) X).val = p.val := by rintro _ rfl; rfl
  have e1 : ∀ X : Fin 3, X = 1 → ((ix3 p k q : SNKC.Idx) X).val = k.val := by rintro _ rfl; rfl
  have e2 : ∀ X : Fin 3, X = 2 → ((ix3 p k q : SNKC.Idx) X).val = q.val := by rintro _ rfl; rfl
  match a with
  | ⟨0, _⟩ =>
    -- axis 0 is collapsed and start-indexed: its slice has size 1, so the start is clamped into [0, 83520]
    have hsl : d.sliceSizes 0 = 1 := d.slice_collapsed 0 (by rw [hcoll]; exact List.mem_singleton.mpr rfl)
    have hk : (0 : Fin 2) ∉ d.sKept := by rw [GatherDims.mem_sKept, hcoll]; simp
    have hm : (0 : Fin 2) ∈ d.startIndexMap := by rw [hsim]; exact List.mem_singleton.mpr rfl
    show d.start (ix3 p k q) i3 0 + d.batchCoord (ix3 p k q) 0 + d.offCoord (ix3 p k q) 0
      = min (i3 (ix3 p k 0)).toInt.toNat 83520
    rw [GatherDims.batchCoord_eq_zero _ _ _ (hnb 0), GatherDims.offCoord_eq_zero _ _ _ hk]
    unfold GatherDims.start
    rw [dif_pos hm]
    show min _ (83521 - d.sliceSizes 0) = _
    rw [hsl]
    congr 3
    congr 1
    funext b
    apply Fin.ext
    match b with
    | ⟨0, _⟩ =>
      unfold GatherDims.siIdx
      rw [dif_neg (by rw [hivd]; exact Nat.zero_ne_add_one 1)]
      unfold GatherDims.siCoord
      simp only [Fin.val_cast]
      exact e0 _ (getElem_val _ _ 0 0 hbd (by rw [hsk]; rfl) rfl)
    | ⟨1, _⟩ =>
      unfold GatherDims.siIdx
      rw [dif_neg (by rw [hivd]; exact Nat.succ_ne_self 1 |>.symm)]
      unfold GatherDims.siCoord
      simp only [Fin.val_cast]
      exact e1 _ (getElem_val _ _ 1 1 hbd (by rw [hsk]; rfl) rfl)
    | ⟨2, _⟩ =>
      unfold GatherDims.siIdx
      rw [dif_pos (by rw [hivd])]
      show List.idxOf (0 : Fin 2) d.startIndexMap = 0
      rw [hsim]; simp
  | ⟨1, _⟩ =>
    -- axis 1 is the one offset axis: no start, and the offset coordinate is the result's last coordinate
    have hk : (1 : Fin 2) ∈ d.sKept := by rw [GatherDims.mem_sKept, hcoll, hob]; simp
    have hm : (1 : Fin 2) ∉ d.startIndexMap := by rw [hsim]; simp
    show d.start (ix3 p k q) i3 1 + d.batchCoord (ix3 p k q) 1 + d.offCoord (ix3 p k q) 1 = q.val
    rw [GatherDims.batchCoord_eq_zero _ _ _ (hnb 1)]
    unfold GatherDims.start GatherDims.offCoord
    rw [dif_neg hm, dif_pos hk]
    simp only [Nat.zero_add, Nat.add_zero]
    exact e2 _ (hod _ (List.getElem_mem _))

/-! ## Words in the table's range -/

/-- A word whose signed reading lies in [0, 83520] has that reading unsigned too. -/
private theorem toNat_le_of_range (w : BitVec 32) (h0 : 0 ≤ w.toInt) (h1 : w.toInt ≤ 83520) : w.toNat ≤ 83520 := by
  have hlt := w.isLt
  have h := BitVec.toInt_eq_toNat_cond w
  by_cases hc : 2 * w.toNat < 2 ^ 32
  · rw [if_pos hc] at h; omega
  · rw [if_neg hc] at h; omega

/-- A left fold by `and` from 1 over words that are all 1 is 1. -/
private theorem foldl_andi_ones {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hl => by
    rw [List.foldl_cons]
    exact foldl_andi_ones f l _ (IntOp.andi_eq_one.2 ⟨h, hl a List.mem_cons_self⟩)
      (fun n hn => hl n (List.mem_cons_of_mem _ hn))

/-! ## The filling lookup at an index -/

/-- A start index in [0, 83520] is not wrapped: the [262144, 16, 1] view at (n, k, c) is the index at (n, k). -/
theorem wrap3_apply (hb0 : S0.BroadcastsInDim SNK (![] : Fin 0 → Fin SNK.rank))
    (hcol : SNK.BroadcastsInDim SNK1 (![0, 1] : Fin 2 → Fin SNK1.rank)) (i : IVec SNK 32)
    (n : Fin 262144) (k : Fin 16) (c : Fin 1)
    (h0 : 0 ≤ (i (ix2 n k)).toInt) (h1 : (i (ix2 n k)).toInt ≤ 83520) :
    wrap3 hb0 hcol i (ix3 n k c) = i (ix2 n k) := by
  have hle := toNat_le_of_range _ h0 h1
  unfold wrap3
  rw [broadcastInDim_apply _ hcol _ (ix3 n k c) (ix2 n k) (fun a => match a with | ⟨0, _⟩ => rfl | ⟨1, _⟩ => rfl)]
  rw [select_apply]
  have hz : cmpi .slt i (broadcastInDim SNK ![] hb0 (constantI S0 32 0#32)) (ix2 n k) = 0#1 := by
    show IntOp.cmpi .slt (i (ix2 n k)) 0#32 = 0#1
    refine eq_zero_of_ne_one fun h => ?_
    have h' : (i (ix2 n k)).toNat < 0 := (slt_iff_toNat (by omega) (by decide)).1 h
    omega
  rw [hz, select_zero]

/-- With every start index in [0, 83520] the "wrapped index is in the table" mask is 1 everywhere. -/
private theorem mask_apply (hb0 : S0.BroadcastsInDim SNK (![] : Fin 0 → Fin SNK.rank))
    (hcol : SNK.BroadcastsInDim SNK1 (![0, 1] : Fin 2 → Fin SNK1.rank))
    (hb01 : S0.BroadcastsInDim SNK1 (![] : Fin 0 → Fin SNK1.rank))
    (h1 : S1.BroadcastsInDim S111 (![2] : Fin 1 → Fin S111.rank))
    (h111 : S111.BroadcastsInDim SNK1 (![0, 1, 2] : Fin 3 → Fin SNK1.rank))
    (hred : SNK1.ReducesTo [2] SNK) (hu : 0 < S0.numel) (i : IVec SNK 32)
    (hi : ∀ (n : Fin 262144) (k : Fin 16), 0 ≤ (i (ix2 n k)).toInt ∧ (i (ix2 n k)).toInt ≤ 83520) (j : SNK.Idx) :
    Host.reduce IntOp.andi
      (andi (cmpi .sge (wrap3 hb0 hcol i) (broadcastInDim SNK1 ![] hb01 (constantI S0 32 0#32)))
        (cmpi .sle (wrap3 hb0 hcol i)
          (broadcastInDim SNK1 ![0, 1, 2] h111 (broadcastInDim S111 ![2] h1 (constantI S1 32 83520#32)))))
      (constantI S0 1 1#1) hred hu j = 1#1 := by
  rw [Host.reduce_eq_foldl]
  refine foldl_andi_ones _ _ _ rfl fun idx _ => ?_
  obtain ⟨a, b, c, rfl⟩ : ∃ a b c, idx = ix3 a b c := ⟨_, _, _, eq_ix3 idx⟩
  obtain ⟨h0, h1'⟩ := hi a b
  have hle := toNat_le_of_range _ h0 h1'
  show IntOp.andi (IntOp.cmpi .sge (wrap3 hb0 hcol i (ix3 a b c)) 0#32)
    (IntOp.cmpi .sle (wrap3 hb0 hcol i (ix3 a b c)) 83520#32) = 1#1
  rw [wrap3_apply hb0 hcol i a b c h0 h1']
  exact IntOp.andi_eq_one.2 ⟨(sge_iff_toNat (by omega) (by decide)).2 (Nat.zero_le _),
    (sle_iff_toNat (by omega) (by decide)).2 hle⟩

/-- The filling lookup read at (p, k, q) when every start index lies in [0, 83520]: the table at (the row index
    (p, k) names, q). -/
theorem takeFill_apply (hb0 : S0.BroadcastsInDim SNK (![] : Fin 0 → Fin SNK.rank))
    (hcol : SNK.BroadcastsInDim SNK1 (![0, 1] : Fin 2 → Fin SNK1.rank))
    (hb01 : S0.BroadcastsInDim SNK1 (![] : Fin 0 → Fin SNK1.rank))
    (h1 : S1.BroadcastsInDim S111 (![2] : Fin 1 → Fin S111.rank))
    (h111 : S111.BroadcastsInDim SNK1 (![0, 1, 2] : Fin 3 → Fin SNK1.rank))
    (hred : SNK1.ReducesTo [2] SNK) (hu : 0 < S0.numel)
    (hm : SNK.BroadcastsInDim SNKC (![0, 1] : Fin 2 → Fin SNKC.rank))
    (hbf : S0.BroadcastsInDim SNKC (![] : Fin 0 → Fin SNKC.rank))
    (d : GatherDims ST SNK1 SNKC)
    (hoff : d.offsetDims = [2]) (hcoll : d.collapsedSliceDims = [0]) (hob : d.operandBatchingDims = [])
    (hsim : d.startIndexMap = [0]) (hivd : d.indexVectorDim = 2)
    (T : FVec Ideal ST .f32) (i : IVec SNK 32)
    (hi : ∀ (n : Fin 262144) (k : Fin 16), 0 ≤ (i (ix2 n k)).toInt ∧ (i (ix2 n k)).toInt ≤ 83520)
    (p : Fin 262144) (k : Fin 16) (q : Fin 16) :
    takeFill (F := Ideal) hb0 hcol hb01 h1 h111 hred hu hm hbf d T i (ix3 p k q)
      = T (ix2 (rowOf (i (ix2 p k))) q) := by
  unfold takeFill
  rw [select_apply]
  rw [broadcastInDim_apply _ hm _ (ix3 p k q) (ix2 p k) (fun a => match a with | ⟨0, _⟩ => rfl | ⟨1, _⟩ => rfl)]
  rw [mask_apply hb0 hcol hb01 h1 h111 hred hu i hi, select_one, gather3_apply d hoff hcoll hob hsim hivd,
    wrap3_apply hb0 hcol i p k 0 (hi p k).1 (hi p k).2]

/-! ## Sixteen columns side by side, and a vector as a column -/

/-- Sixteen [262144, 1] columns side by side, read at (p, k): column k at (p, 0). -/
theorem cat16_apply {α : Type}
    (hcat : Shape.Concatenates [SN1, SN1, SN1, SN1, SN1, SN1, SN1, SN1, SN1, SN1, SN1, SN1, SN1, SN1, SN1, SN1] SN16 1)
    (u : Fin 16 → SN1.Idx → α) (p : Fin 262144) (k : Fin 16) :
    cat16 hcat u (ix2 p k) = u k (ix2 p 0) := by
  unfold cat16
  exact concatenate_ofFn_unit_apply (t := SN16) (s₁ := SN1) 1 u hcat rfl rfl (ix2 p k) k rfl (ix2 p 0)
    (fun b hb => match b, hb with
      | ⟨0, _⟩, _ => rfl
      | ⟨1, _⟩, hb => absurd rfl hb)

/-- A length-262144 vector viewed as a [262144, 1] column, read at (p, 0): the vector at p. -/
theorem col_apply {α : Type} (hc : SN.BroadcastsInDim SN1 (![0] : Fin 1 → Fin SN1.rank)) (x : SN.Idx → α)
    (p : Fin 262144) : broadcastInDim SN1 ![0] hc x (ix2 p 0) = x (ix1 p) :=
  broadcastInDim_apply _ hc x (ix2 p 0) (ix1 p) (fun a => match a with | ⟨0, _⟩ => rfl)

end Cert.GatherK

end
-- ==== Proof.IdxRange.lean ====
/-
  Word arithmetic for table look-ups. A pixel word x in [0, 255] (a 32-bit word read signed) has
  floor(x / 16) in [0, 15]; an index ((qa + da)·4913 + (qb + db)·289 + (qc + dc)·17) + (qd + dd)
  built from four such quotients and four steps da, db, dc, dd in {0, 1} neither wraps in 32 bits
  nor leaves [0, 16·5220] = [0, 83520]. Slices and reshapes of an array keep its entries, hence
  any bound on them.
-/
import Idealize.ShloMosaic.PureOps
import Idealize.ShloMosaic.PureOps.Ideal
import Idealize.ShloMosaic.Lib.ValueIdx
import Idealize.ShloMosaic.Lib.StableHlo.Predicate
import Idealize.ShloMosaic.Lib.Pipeline.Value
import Idealize.ShloMosaic.Lib.Decide

namespace Cert.IdxRange

open Idealize.ShloMosaic

abbrev S0 : Shape := ⟨0, ![]⟩
abbrev S4 : Shape := ⟨4, ![4, 1, 256, 256]⟩
abbrev SN : Shape := ⟨1, ![262144]⟩

/-- Every entry of the array, read as a signed integer, lies in [lo, hi]. -/
def InWords (lo hi : ℤ) {s : Shape} (x : IVec s 32) : Prop := ∀ i, lo ≤ (x i).toInt ∧ (x i).toInt ≤ hi

/-! ## Slices and reshapes: every entry of the result is an entry of the operand -/

theorem slice_range {s t : Shape} (off : Fin s.rank → Nat) (h : s.Slices off t) (x : IVec s 32) (lo hi : ℤ)
    (hx : InWords lo hi x) : InWords lo hi (extractStridedSlice t off x h) :=
  fun _ => hx _

theorem shapeCast_range {s t : Shape} (h : s.ShapeCasts t) (x : IVec s 32) (lo hi : ℤ)
    (hx : InWords lo hi x) : InWords lo hi (shapeCast t x h) :=
  fun _ => hx _

/-! ## Floor division by 16

The quotient rounded toward zero, lowered by one where the signs of dividend and divisor differ
and the remainder is not zero. -/

def floorDiv16 (h0 : S0.BroadcastsInDim S4 (![] : Fin 0 → Fin S4.rank)) (A : IVec S4 32) : IVec S4 32 :=
  select (andi (cmpi .ne (signi A) (broadcastInDim S4 ![] h0 (signi (id (constantI S0 32 16#32))))) (cmpi .ne (Host.remsi A (broadcastInDim S4 ![] h0 (id (constantI S0 32 16#32)))) (broadcastInDim S4 ![] h0 (constantI S0 32 0#32))))
    (subi (Host.divsi A (broadcastInDim S4 ![] h0 (id (constantI S0 32 16#32)))) (broadcastInDim S4 ![] h0 (constantI S0 32 1#32)))
    (Host.divsi A (broadcastInDim S4 ![] h0 (id (constantI S0 32 16#32))))

/-- The sign word of a word: 0, -1 or 1. -/
def sgn (a : BitVec 32) : BitVec 32 := if a = 0 then 0 else if a.msb then -1 else 1

/-- Floor division by 16 at one word. -/
def fd16 (a : BitVec 32) : BitVec 32 :=
  Scalar.select
    (IntOp.andi (IntOp.cmpi .ne (sgn a) (sgn 16#32)) (IntOp.cmpi .ne (IntOp.remsi .host a 16#32) 0#32))
    (IntOp.subi (IntOp.divsi .host a 16#32) 1#32)
    (IntOp.divsi .host a 16#32)

/-- The array operation is the word operation at every index. -/
theorem floorDiv16_apply (h0 : S0.BroadcastsInDim S4 (![] : Fin 0 → Fin S4.rank)) (A : IVec S4 32) (i : S4.Idx) :
    floorDiv16 h0 A i = fd16 (A i) := rfl

/-- The 256 pixel words, one by one: each quotient lies in [0, 15]. -/
theorem fd16_table : ∀ k : Fin 256,
    0 ≤ (fd16 (BitVec.ofNat 32 k.val)).toInt ∧ (fd16 (BitVec.ofNat 32 k.val)).toInt ≤ 15 := by
  decide +kernel

/-- A word whose signed value lies in [0, n], with n below 2³¹, has unsigned value at most n. -/
theorem toNat_lt_of_toInt {a : BitVec 32} (h1 : 0 ≤ a.toInt) (n : ℕ) (hn : n < 2 ^ 31) (h2 : a.toInt ≤ n) :
    a.toNat ≤ n := by
  have hb := a.isLt
  have e := BitVec.toInt_eq_toNat_cond a
  split at e <;> omega

theorem floorDiv16_range (h0 : S0.BroadcastsInDim S4 (![] : Fin 0 → Fin S4.rank)) (A : IVec S4 32)
    (hA : InWords 0 255 A) : InWords 0 15 (floorDiv16 h0 A) := by
  intro i
  rw [floorDiv16_apply]
  obtain ⟨h1, h2⟩ := hA i
  have hlt : (A i).toNat < 256 := by
    have := toNat_lt_of_toInt h1 255 (by norm_num) h2
    omega
  have e : A i = BitVec.ofNat 32 (A i).toNat :=
    BitVec.eq_of_toNat_eq (by rw [BitVec.toNat_ofNat]; exact (Nat.mod_eq_of_lt (A i).isLt).symm)
  rw [e]
  exact fd16_table ⟨(A i).toNat, hlt⟩

/-! ## The corner index -/

def cornerIdx (h0n : S0.BroadcastsInDim SN (![] : Fin 0 → Fin SN.rank)) (ia ib ic id : IVec SN 32) (da db dc dd : BitVec 32) : IVec SN 32 :=
  addi (addi (addi (muli (addi ia (broadcastInDim SN ![] h0n (constantI S0 32 da))) (broadcastInDim SN ![] h0n (constantI S0 32 4913#32))) (muli (addi ib (broadcastInDim SN ![] h0n (constantI S0 32 db))) (broadcastInDim SN ![] h0n (constantI S0 32 289#32)))) (muli (addi ic (broadcastInDim SN ![] h0n (constantI S0 32 dc))) (broadcastInDim SN ![] h0n (constantI S0 32 17#32)))) (addi id (broadcastInDim SN ![] h0n (constantI S0 32 dd)))

/-- The array operation is the word expression at every index. -/
theorem cornerIdx_apply (h0n : S0.BroadcastsInDim SN (![] : Fin 0 → Fin SN.rank)) (ia ib ic id : IVec SN 32)
    (da db dc dd : BitVec 32) (i : SN.Idx) :
    cornerIdx h0n ia ib ic id da db dc dd i
      = (((ia i + da) * 4913#32 + (ib i + db) * 289#32) + (ic i + dc) * 17#32) + (id i + dd) := rfl

/-- With quotients at most 15 and steps at most 1, no sum or product reaches 2³² and the value is
    at most 16·4913 + 16·289 + 16·17 + 16 = 83520. -/
theorem corner_word (a b c d da db dc dd : BitVec 32)
    (ha : a.toNat ≤ 15) (hb : b.toNat ≤ 15) (hc : c.toNat ≤ 15) (hd : d.toNat ≤ 15)
    (hda : da.toNat ≤ 1) (hdb : db.toNat ≤ 1) (hdc : dc.toNat ≤ 1) (hdd : dd.toNat ≤ 1) :
    ((((a + da) * 4913#32 + (b + db) * 289#32) + (c + dc) * 17#32) + (d + dd)).toNat ≤ 83520 := by
  have e1 : (a + da).toNat = a.toNat + da.toNat := by rw [BitVec.toNat_add]; omega
  have e2 : (b + db).toNat = b.toNat + db.toNat := by rw [BitVec.toNat_add]; omega
  have e3 : (c + dc).toNat = c.toNat + dc.toNat := by rw [BitVec.toNat_add]; omega
  have e4 : (d + dd).toNat = d.toNat + dd.toNat := by rw [BitVec.toNat_add]; omega
  have m1 : ((a + da) * 4913#32).toNat = (a.toNat + da.toNat) * 4913 := by
    rw [BitVec.toNat_mul, e1, BitVec.toNat_ofNat]; omega
  have m2 : ((b + db) * 289#32).toNat = (b.toNat + db.toNat) * 289 := by
    rw [BitVec.toNat_mul, e2, BitVec.toNat_ofNat]; omega
  have m3 : ((c + dc) * 17#32).toNat = (c.toNat + dc.toNat) * 17 := by
    rw [BitVec.toNat_mul, e3, BitVec.toNat_ofNat]; omega
  have s1 : ((a + da) * 4913#32 + (b + db) * 289#32).toNat
      = (a.toNat + da.toNat) * 4913 + (b.toNat + db.toNat) * 289 := by
    rw [BitVec.toNat_add, m1, m2]; omega
  have s2 : (((a + da) * 4913#32 + (b + db) * 289#32) + (c + dc) * 17#32).toNat
      = (a.toNat + da.toNat) * 4913 + (b.toNat + db.toNat) * 289 + (c.toNat + dc.toNat) * 17 := by
    rw [BitVec.toNat_add, s1, m3]; omega
  rw [BitVec.toNat_add, s2, e4]
  clear e1 e2 e3 e4 m1 m2 m3 s1 s2
  have hX : (a.toNat + da.toNat) * 4913 + (b.toNat + db.toNat) * 289 + (c.toNat + dc.toNat) * 17
      + (d.toNat + dd.toNat) ≤ 83520 := by omega
  rw [Nat.mod_eq_of_lt (by omega)]
  exact hX

theorem step_le_one {d : BitVec 32} (h : d = 0#32 ∨ d = 1#32) : d.toNat ≤ 1 := by
  rcases h with rfl | rfl <;> decide

theorem cornerIdx_range (h0n : S0.BroadcastsInDim SN (![] : Fin 0 → Fin SN.rank)) (ia ib ic id : IVec SN 32)
    (ha : InWords 0 15 ia) (hb : InWords 0 15 ib) (hc : InWords 0 15 ic) (hd : InWords 0 15 id)
    (da db dc dd : BitVec 32) (hda : da = 0#32 ∨ da = 1#32) (hdb : db = 0#32 ∨ db = 1#32)
    (hdc : dc = 0#32 ∨ dc = 1#32) (hdd : dd = 0#32 ∨ dd = 1#32) :
    InWords 0 83520 (cornerIdx h0n ia ib ic id da db dc dd) := by
  intro i
  rw [cornerIdx_apply]
  have h := corner_word (ia i) (ib i) (ic i) (id i) da db dc dd
    (toNat_lt_of_toInt (ha i).1 15 (by norm_num) (ha i).2)
    (toNat_lt_of_toInt (hb i).1 15 (by norm_num) (hb i).2)
    (toNat_lt_of_toInt (hc i).1 15 (by norm_num) (hc i).2)
    (toNat_lt_of_toInt (hd i).1 15 (by norm_num) (hd i).2)
    (step_le_one hda) (step_le_one hdb) (step_le_one hdc) (step_le_one hdd)
  rw [StableHlo.Predicate.toInt_eq_toNat_of_lt (by omega)]
  omega

end Cert.IdxRange
-- ==== Proof.Algebra.lean ====
/- Pure facts about the extended reals at the ideal instance: the float literals the two programs
   spell, as the reals their patterns denote; division by sixteen as the product with one sixteenth;
   a left-nested sum of sixteen terms from zero as the sum over the index type; and the rounding
   written `x + (round x - x)`, which is `round x` on a real number. No program is read here. -/
import Idealize.ShloMosaic.PureOps.Ideal
import Idealize.ShloMosaic.PureOps.Ideal.Laws
import Idealize.ShloMosaic.Lib.ValueIdx
import Mathlib.Data.EReal.Basic
import Mathlib.Data.EReal.Operations
import Mathlib.Algebra.BigOperators.Fin

noncomputable section

namespace Cert.Alg

open Idealize.ShloMosaic

/-- The pattern `0x3D800000` denotes one sixteenth. -/
theorem ofBits_sixteenth : Ideal.ofBits .f32 0x3D800000#32 = ((1 / 16 : ℝ) : EReal) := by
  simp [Ideal.ofBits, Ideal.ieee, -EReal.coe_mul]; norm_num

/-- The pattern `0x41800000` denotes sixteen. -/
theorem ofBits_sixteen : Ideal.ofBits .f32 0x41800000#32 = ((16 : ℝ) : EReal) := by
  simp [Ideal.ofBits, Ideal.ieee, -EReal.coe_mul]; norm_num

/-- The all-zero pattern denotes zero. -/
theorem ofBits_zero : Ideal.ofBits .f32 0x00000000#32 = 0 := by
  simp [Ideal.ofBits, Ideal.ieee]

/-- The pattern `0x42FE0000` denotes one hundred and twenty-seven. -/
theorem ofBits_127 : Ideal.ofBits .f32 0x42FE0000#32 = ((127 : ℝ) : EReal) := by
  simp [Ideal.ofBits, Ideal.ieee, -EReal.coe_mul]; norm_num

/-- Division by the literal sixteen is the product with one sixteenth, at every extended real. -/
theorem div_sixteen (x : EReal) :
    Ideal.div x (Ideal.ofBits .f32 0x41800000#32) = x * ((1 / 16 : ℝ) : EReal) := by
  rw [ofBits_sixteen]
  exact Ideal.div_coe (by norm_num) x

/-- Sixteen terms added one by one to zero, from the left, are the sum over the index type. -/
theorem fold16 (t : Fin 16 → EReal) :
    (((((((((((((((((0 : EReal) + t 0) + t 1) + t 2) + t 3) + t 4) + t 5) + t 6) + t 7) + t 8)
      + t 9) + t 10) + t 11) + t 12) + t 13) + t 14) + t 15) = ∑ k : Fin 16, t k := by
  simp only [Fin.sum_univ_castSucc, Fin.sum_univ_zero]
  rfl

/-- On a real number, `x + (round x - x)` is `round x`: the two real differences cancel. -/
theorem round_ste (x : EReal) (hx : ∃ r : ℝ, x = (r : EReal)) :
    x + (Ideal.liftRound Ideal.roundHalfEven x - x) = Ideal.liftRound Ideal.roundHalfEven x := by
  obtain ⟨r, rfl⟩ := hx
  rw [Ideal.liftRound_coe, ← EReal.coe_sub, ← EReal.coe_add]
  congr 1
  ring

/-- The same, entry by entry, for an array of real numbers. -/
theorem round_ste_vec {s : Shape} (x : FVec Ideal s .f32) (hx : ∀ i, ∃ r : ℝ, x i = (r : EReal)) :
    addf x (subf (Host.roundeven x) x) = Host.roundeven x := by
  funext i
  rw [ValueIdx.addf_apply, ValueIdx.subf_apply]
  exact round_ste (x i) (hx i)

/-- A real number times one hundred and twenty-seven is a real number. -/
theorem mul127_real {s : Shape} (w : FVec Ideal s .f32) (hw : ∀ i, ∃ r : ℝ, w i = (r : EReal))
    (i : s.Idx) : ∃ r : ℝ, mulf w (fun _ => Ideal.ofBits .f32 0x42FE0000#32) i = (r : EReal) := by
  obtain ⟨r, hr⟩ := hw i
  refine ⟨r * 127, ?_⟩
  rw [ValueIdx.mulf_apply, hr, ofBits_127, ← EReal.coe_mul]

end Cert.Alg

end
-- ==== Proof.PreDecode.lean ====
/-
  The printed precondition, read back. The precondition is the conjunction of three reductions by "and" over all
  positions: every |weight| entry is below +∞, every img entry is at least 0 and at most 255 (both read signed).
  When the conjunction is 1 each reduction is 1, so each compared position is 1; a comparison word that is 1 says
  its operands are so ordered. For the weights: an extended real whose absolute value max x (-x) is below ⊤ is
  neither ⊤ nor ⊥, hence a real number.
-/
import proofs.«409975_j2585570312579_2_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreDecode

open Idealize.ShloMosaic

/-- The scalar shape has one index. -/
instance : Subsingleton Cert.Pre_finite_inputs.S_.Idx := ⟨fun a b => funext fun d => d.elim0⟩

/-- The three conjuncts, each at every position, as comparison words equal to 1. -/
theorem conjuncts {F : FTy → Type} [FloatOps F] (img : IVec Cert.Pre_finite_inputs.S4x1x257x257 32)
    (weight : FVec F Cert.Pre_finite_inputs.S83521x16 .f32)
    (h : Cert.Pre_finite_inputs.fn (F := F) img weight = fun _ => 1#1) :
    (∀ i, FloatOps.cmpf .olt (FloatOps.hostAbsf (weight i)) (FloatOps.ofBits (F := F) .f32 0x7F800000#32) = 1#1)
      ∧ (∀ i, IntOp.cmpi .sge (img i) 0#32 = 1#1) ∧ (∀ i, IntOp.cmpi .sle (img i) 255#32 = 1#1) := by
  have e := congrFun h ValueIdx.ix0
  dsimp only [Cert.Pre_finite_inputs.fn] at e
  obtain ⟨e12, e3⟩ := IntOp.andi_eq_one.1 e
  obtain ⟨e1, e2⟩ := IntOp.andi_eq_one.1 e12
  refine ⟨fun i => ?_, fun i => ?_, fun i => ?_⟩
  · exact Host.reduce_andi_all _ _ _ _ _ e1 i
  · exact Host.reduce_andi_all _ _ _ _ _ e2 i
  · exact Host.reduce_andi_all _ _ _ _ _ e3 i

/-- Every img entry lies in [0, 255], whatever the float instance. -/
theorem img_range' {F : FTy → Type} [FloatOps F] (img : IVec Cert.Pre_finite_inputs.S4x1x257x257 32)
    (weight : FVec F Cert.Pre_finite_inputs.S83521x16 .f32)
    (h : Cert.Pre_finite_inputs.fn (F := F) img weight = fun _ => 1#1) :
    ∀ i, 0 ≤ (img i).toInt ∧ (img i).toInt ≤ 255 := by
  obtain ⟨-, h0, h255⟩ := conjuncts img weight h
  intro i
  have a := IntOp.cmpi_sge.1 (h0 i)
  have b := IntOp.cmpi_sle.1 (h255 i)
  have z : (0#32 : BitVec 32).toInt = 0 := by decide
  have t : (255#32 : BitVec 32).toInt = 255 := by decide
  rw [z] at a; rw [t] at b
  exact ⟨a, b⟩

theorem img_range (img : IVec Cert.Pre_finite_inputs.S4x1x257x257 32)
    (weight : FVec Ideal Cert.Pre_finite_inputs.S83521x16 .f32)
    (h : Cert.Pre_finite_inputs.fn (F := Ideal) img weight = fun _ => 1#1) :
    ∀ i, 0 ≤ (img i).toInt ∧ (img i).toInt ≤ 255 :=
  img_range' img weight h

/-- An extended real whose absolute value is below ⊤ is a real number. -/
theorem real_of_abs_lt_top (x : EReal) (hx : max x (-x) < ⊤) : ∃ r : ℝ, x = (r : EReal) := by
  induction x using EReal.rec with
  | bot => simp at hx
  | top => simp at hx
  | coe r => exact ⟨r, rfl⟩

/-- Every weight entry is a real number. -/
theorem weight_real (img : IVec Cert.Pre_finite_inputs.S4x1x257x257 32)
    (weight : FVec Ideal Cert.Pre_finite_inputs.S83521x16 .f32)
    (h : Cert.Pre_finite_inputs.fn (F := Ideal) img weight = fun _ => 1#1) :
    ∀ i, ∃ r : ℝ, weight i = (r : EReal) := by
  obtain ⟨hw, -, -⟩ := conjuncts img weight h
  intro i
  have e := hw i
  have top : Ideal.ofBits .f32 0x7F800000#32 = ⊤ := by simp [Ideal.ofBits, Ideal.ieee]
  change Ideal.cmp .olt (max (weight i) (-(weight i))) (Ideal.ofBits .f32 0x7F800000#32) = 1#1 at e
  rw [top] at e
  simp only [Ideal.cmp, StableHlo.Predicate.ofBool_eq_one_iff, decide_eq_true_eq] at e
  exact real_of_abs_lt_top _ e

end Cert.PreDecode

end
-- ==== Proof.KGlue.lean ====
/-
  The idealized kernel program's value in the vocabulary it shares with the reference.

  The host operations before the program's one region are read line by line. The region is entered with: the sixteen
  weight columns laid side by side (a [262144, 16] array whose entry (p, k) is weight column k at (p, 0)); the sixteen
  corner index arrays, each viewed as a column, laid side by side (entry (p, k) is corner k's start word of pixel p);
  and the filling row lookup of the quantised table at those start words. Corner k's index array is
  ((qa + da)·4913 + (qb + db)·289 + (qc + dc)·17) + (qd + dd), where qa … qd are the four shifted slices of the image
  floor-divided by sixteen and (da, db, dc, dd) are the binary digits of k. Under the precondition the image entries
  lie in [0, 255], so the quotients lie in [0, 15] and every start word in [0, 83520]: the lookup neither wraps nor
  fills, and reads at (p, k, q) the table's entry at (the row the start word names, q). The region's function of its
  two input arrays — at (p, q) the sum over k of lookup (p, k, q) · weight (p, k), times one sixteenth — is therefore
  the interpolation of the quantised table at the sixteen index arrays with the sixteen weight columns, and the
  program's result is its pixel shuffle.
-/
import proofs.«409975_j2585570312579_2_alg».proof.Proof.KDefs
import proofs.«409975_j2585570312579_2_alg».proof.Proof.KValue
import proofs.«409975_j2585570312579_2_alg».proof.Proof.GatherK
import proofs.«409975_j2585570312579_2_alg».proof.Proof.IdxRange
import proofs.«409975_j2585570312579_2_alg».proof.Proof.Algebra
import proofs.«409975_j2585570312579_2_alg».proof.Proof.PreDecode
import proofs.«409975_j2585570312579_2_alg».proof.Proof.LibAfter
import proofs.«409975_j2585570312579_2_alg».proof.Defs
import Idealize.ShloMosaic.Lib.Pipeline.Regions

set_option maxRecDepth 100000
set_option maxHeartbeats 40000000
set_option Elab.async false

noncomputable section

namespace Cert.KernelIdeal.Glue

open Idealize.ShloMosaic Idealize.ShloMosaic.StableHlo Idealize.ShloMosaic.ValueIdx Cert.KernelIdeal Cert.KernelIdeal.Gen Cert.Spec
open Idealize.ShloMosaic.TcCoe Idealize.SL.Sem
open scoped BigOperators

/-! ## Sixteen columns side by side, read at the concatenation's result -/

/-- The sixteen weight columns' concatenation read at its result, as the columns' contents side by side. -/
theorem cat_wt {F' : FTy → Type} [FloatOps F'] (F : Valuation τ sig (Elt F')) :
    (StableHlo.nary ![main_v559, main_v560, main_v561, main_v562, main_v563, main_v564, main_v565, main_v566, main_v567, main_v568, main_v569, main_v570, main_v571, main_v572, main_v573, main_v574] main_v575 (fun u => concatenate S262144x16 1 [⟨S262144x1, u 0⟩, ⟨S262144x1, u 1⟩, ⟨S262144x1, u 2⟩, ⟨S262144x1, u 3⟩, ⟨S262144x1, u 4⟩, ⟨S262144x1, u 5⟩, ⟨S262144x1, u 6⟩, ⟨S262144x1, u 7⟩, ⟨S262144x1, u 8⟩, ⟨S262144x1, u 9⟩, ⟨S262144x1, u 10⟩, ⟨S262144x1, u 11⟩, ⟨S262144x1, u 12⟩, ⟨S262144x1, u 13⟩, ⟨S262144x1, u 14⟩, ⟨S262144x1, u 15⟩] concatenates_S262144x1_S262144x1_S262144x1_S262144x1_S262144x1_S262144x1_S262144x1_S262144x1_S262144x1_S262144x1_S262144x1_S262144x1_S262144x1_S262144x1_S262144x1_S262144x1_S262144x16_d1)).result F (no_index (Proc.devRef .tc main_v575))
      = GatherK.cat16 concatenates_S262144x1_S262144x1_S262144x1_S262144x1_S262144x1_S262144x1_S262144x1_S262144x1_S262144x1_S262144x1_S262144x1_S262144x1_S262144x1_S262144x1_S262144x1_S262144x1_S262144x16_d1 ![F (Proc.devRef .tc main_v559), F (Proc.devRef .tc main_v560), F (Proc.devRef .tc main_v561), F (Proc.devRef .tc main_v562), F (Proc.devRef .tc main_v563), F (Proc.devRef .tc main_v564), F (Proc.devRef .tc main_v565), F (Proc.devRef .tc main_v566), F (Proc.devRef .tc main_v567), F (Proc.devRef .tc main_v568), F (Proc.devRef .tc main_v569), F (Proc.devRef .tc main_v570), F (Proc.devRef .tc main_v571), F (Proc.devRef .tc main_v572), F (Proc.devRef .tc main_v573), F (Proc.devRef .tc main_v574)] := by
  rw [StableHlo.nary_result]; rfl

/-- The sixteen index columns' concatenation read at its result, as the columns' contents side by side. -/
theorem cat_ix {F' : FTy → Type} [FloatOps F'] (F : Valuation τ sig (Elt F')) :
    (StableHlo.nary ![main_v852, main_v853, main_v854, main_v855, main_v856, main_v857, main_v858, main_v859, main_v860, main_v861, main_v862, main_v863, main_v864, main_v865, main_v866, main_v867] main_v868 (fun u => concatenate S262144x16 1 [⟨S262144x1, u 0⟩, ⟨S262144x1, u 1⟩, ⟨S262144x1, u 2⟩, ⟨S262144x1, u 3⟩, ⟨S262144x1, u 4⟩, ⟨S262144x1, u 5⟩, ⟨S262144x1, u 6⟩, ⟨S262144x1, u 7⟩, ⟨S262144x1, u 8⟩, ⟨S262144x1, u 9⟩, ⟨S262144x1, u 10⟩, ⟨S262144x1, u 11⟩, ⟨S262144x1, u 12⟩, ⟨S262144x1, u 13⟩, ⟨S262144x1, u 14⟩, ⟨S262144x1, u 15⟩] concatenates_S262144x1_S262144x1_S262144x1_S262144x1_S262144x1_S262144x1_S262144x1_S262144x1_S262144x1_S262144x1_S262144x1_S262144x1_S262144x1_S262144x1_S262144x1_S262144x1_S262144x16_d1)).result F (no_index (Proc.devRef .tc main_v868))
      = GatherK.cat16 concatenates_S262144x1_S262144x1_S262144x1_S262144x1_S262144x1_S262144x1_S262144x1_S262144x1_S262144x1_S262144x1_S262144x1_S262144x1_S262144x1_S262144x1_S262144x1_S262144x1_S262144x16_d1 ![F (Proc.devRef .tc main_v852), F (Proc.devRef .tc main_v853), F (Proc.devRef .tc main_v854), F (Proc.devRef .tc main_v855), F (Proc.devRef .tc main_v856), F (Proc.devRef .tc main_v857), F (Proc.devRef .tc main_v858), F (Proc.devRef .tc main_v859), F (Proc.devRef .tc main_v860), F (Proc.devRef .tc main_v861), F (Proc.devRef .tc main_v862), F (Proc.devRef .tc main_v863), F (Proc.devRef .tc main_v864), F (Proc.devRef .tc main_v865), F (Proc.devRef .tc main_v866), F (Proc.devRef .tc main_v867)] := by
  rw [StableHlo.nary_result]; rfl

/-! ## The region's function and the interpolation at an index -/

/-- The region's function read at (p, q), its scalar constant as one sixteenth. -/
theorem G_apply (g : FVec Ideal S262144x16x16 .f32) (w : FVec Ideal S262144x16 .f32) (p : Fin 262144) (q : Fin 16) :
    Val.G g w (ix2 p q) = (∑ k : Fin 16, g (ix3 p k q) * w (ix2 p k)) * ((1 / 16 : ℝ) : EReal) := by
  unfold Val.G
  rw [Alg.ofBits_sixteenth]

/-- The interpolation read at (p, q). -/
theorem combine_apply (T : FVec Ideal ST .f32) (idx : Fin 16 → IVec SN 32) (wt : Fin 16 → FVec Ideal SN1 .f32)
    (p : Fin 262144) (q : Fin 16) :
    combine T idx wt (ix2 p q)
      = (∑ k : Fin 16, T (ix2 (rowOf (idx k (ix1 p))) q) * wt k (ix2 p 0)) * ((1 / 16 : ℝ) : EReal) := rfl

/-! ## The lines of host operations -/

/-- The host operations before the region, in order, as thirty-nine consecutive lines. -/
theorem flat_eq {F : FTy → Type} [FloatOps F] :
    List.flatten [hostOps0 (F := F), hostOps0_1 (F := F), hostOps0_2 (F := F), hostOps0_3 (F := F), hostOps0_4 (F := F), hostOps0_5 (F := F), hostOps0_6 (F := F), hostOps0_7 (F := F), hostOps0_8 (F := F), hostOps0_9 (F := F), hostOps0_10 (F := F), hostOps0_11 (F := F), hostOps0_12 (F := F), hostOps0_13 (F := F), hostOps0_14 (F := F), hostOps0_15 (F := F), hostOps0_16 (F := F), hostOps0_17 (F := F), hostOps0_18 (F := F), hostOps0_19 (F := F), hostOps0_20 (F := F), hostOps0_21 (F := F)]
      = main_part0_ops0 ++ (main_part0_ops1 ++ (main_part0_ops2 ++ (main_part0_ops3 ++ (main_part0_ops4 ++ (main_part0_ops5 ++ (main_part0_ops6 ++ (main_part0_ops7 ++ (main_part0_ops8 ++ (main_part0_ops9 ++ (main_part0_ops10 ++ (main_part0_ops11 ++ (main_part0_ops12 ++ (main_part0_ops13 ++ (main_part0_ops14 ++ (main_part0_ops15 ++ (main_part0_ops16 ++ (main_part1_ops0 ++ (main_part2_ops0 ++ (main_part3_ops0 ++ (main_part4_ops0 ++ (main_part5_ops0 ++ (main_part6_ops0 ++ (main_part7_ops0 ++ (main_part8_ops0 ++ (main_part9_ops0 ++ (main_part10_ops0 ++ (main_part10_ops1 ++ (main_part10_ops2 ++ (main_part10_ops3 ++ (main_part10_ops4 ++ (main_part11_ops0 ++ (main_part12_ops0 ++ (main_part13_ops0 ++ (main_part14_ops0 ++ (main_part15_ops0 ++ (main_part16_ops0 ++ (main_part17_ops0 ++ (main_part17_ops1)))))))))))))))))))))))))))))))))))))) := by
  chain_rfl

variable (m : (ℓ : Loc nD τ sig) → Buf (Elt Ideal) ℓ) (c : Dev nD)

/-- The buffers when the region is entered are the buffers read line by line. -/
theorem V0_eq : GenH.V0 m c = Wk m c := by
  have h : GenH.V0 m c = StableHlo.after (List.flatten [hostOps0 (F := Ideal), hostOps0_1 (F := Ideal), hostOps0_2 (F := Ideal), hostOps0_3 (F := Ideal), hostOps0_4 (F := Ideal), hostOps0_5 (F := Ideal), hostOps0_6 (F := Ideal), hostOps0_7 (F := Ideal), hostOps0_8 (F := Ideal), hostOps0_9 (F := Ideal), hostOps0_10 (F := Ideal), hostOps0_11 (F := Ideal), hostOps0_12 (F := Ideal), hostOps0_13 (F := Ideal), hostOps0_14 (F := Ideal), hostOps0_15 (F := Ideal), hostOps0_16 (F := Ideal), hostOps0_17 (F := Ideal), hostOps0_18 (F := Ideal), hostOps0_19 (F := Ideal), hostOps0_20 (F := Ideal), hostOps0_21 (F := Ideal)]) (M0 m c) := rfl
  rw [h, flat_eq]
  simp only [LibAfter.after_append]
  unfold Wk Walk.W39 Walk.W38 Walk.W37 Walk.W36 Walk.W35 Walk.W34 Walk.W33 Walk.W32 Walk.W31 Walk.W30 Walk.W29 Walk.W28 Walk.W27 Walk.W26 Walk.W25 Walk.W24 Walk.W23 Walk.W22 Walk.W21 Walk.W20 Walk.W19 Walk.W18 Walk.W17 Walk.W16 Walk.W15 Walk.W14 Walk.W13 Walk.W12 Walk.W11 Walk.W10 Walk.W9 Walk.W8 Walk.W7 Walk.W6 Walk.W5 Walk.W4 Walk.W3 Walk.W2 Walk.W1 Walk.W0
  rfl

/-- One buffer when the region is entered, read line by line. -/
theorem V_eq (b : Ref sig .tc) : GenH.V m c b = Wk m c (Proc.devRef .tc b) :=
  congrFun (V0_eq m c) (Proc.devRef .tc b)

/-! ## The buffers the region is entered with -/

/-- The filling row lookup's result, from the quantised table and the stacked index columns. -/
theorem take_eq : Wk m c (Proc.devRef .tc main_v869)
    = GatherK.takeFill (F := Ideal) bcast_S_S262144x16 bcast_S262144x16_S262144x16x1_0_1 bcast_S_S262144x16x1 bcast_S1_S1x1x1_2 bcast_S1x1x1_S262144x16x1_0_1_2
        reducesTo_S262144x16x1_S262144x16_d2 h_S_ bcast_S262144x16_S262144x16x16_0_1 bcast_S_S262144x16x16
        gather_S83521x16_S262144x16x1_S262144x16x16_2_0_n_n_0_2_116 (Wk m c (Proc.devRef .tc main_v579)) (Wk m c (Proc.devRef .tc main_v868)) := by
  walk_from38
  chain_rfl

/-- The stacked weights: column k is weight column k. -/
theorem weights_eq : Wk m c (Proc.devRef .tc main_v575) = GatherK.cat16 concatenates_S262144x1_S262144x1_S262144x1_S262144x1_S262144x1_S262144x1_S262144x1_S262144x1_S262144x1_S262144x1_S262144x1_S262144x1_S262144x1_S262144x1_S262144x1_S262144x1_S262144x16_d1
    ![Wk m c (Proc.devRef .tc main_v559), Wk m c (Proc.devRef .tc main_v560), Wk m c (Proc.devRef .tc main_v561), Wk m c (Proc.devRef .tc main_v562), Wk m c (Proc.devRef .tc main_v563), Wk m c (Proc.devRef .tc main_v564), Wk m c (Proc.devRef .tc main_v565), Wk m c (Proc.devRef .tc main_v566), Wk m c (Proc.devRef .tc main_v567), Wk m c (Proc.devRef .tc main_v568), Wk m c (Proc.devRef .tc main_v569), Wk m c (Proc.devRef .tc main_v570), Wk m c (Proc.devRef .tc main_v571), Wk m c (Proc.devRef .tc main_v572), Wk m c (Proc.devRef .tc main_v573), Wk m c (Proc.devRef .tc main_v574)] := by
  simp (disch := decide) only [cat_wt, cat_ix, Walk.skip38, Walk.skip37, Walk.skip36, Walk.skip35, Walk.skip34, Walk.skip33, Walk.skip32, Walk.skip31, Walk.skip30, Walk.skip29, Walk.skip28, Walk.skip27, Walk.skip26, Walk.into38, Walk.into37, Walk.into36, Walk.into35, Walk.into34, Walk.into33, Walk.into32, Walk.into31, Walk.into30, Walk.into29, Walk.into28, Walk.into27, Walk.into26, Walk.main_part17_ops1_plain, main_part17_ops0, main_part16_ops0, main_part15_ops0, main_part14_ops0, main_part13_ops0, main_part12_ops0, main_part11_ops0, main_part10_ops4, Walk.main_part10_ops3_plain, main_part10_ops2, Walk.main_part10_ops1_plain, main_part10_ops0, after_cons, after_nil, nullary_result', unary_result', binary_result', ternary_result', quaternary_result', reshape_result', nullary_result_ne', unary_result_ne', binary_result_ne', ternary_result_ne', quaternary_result_ne', reshape_result_ne', nary_result_ne']

/-- The stacked indices: column k is corner k's index array as a column. -/
theorem indices_eq : Wk m c (Proc.devRef .tc main_v868) = GatherK.cat16 concatenates_S262144x1_S262144x1_S262144x1_S262144x1_S262144x1_S262144x1_S262144x1_S262144x1_S262144x1_S262144x1_S262144x1_S262144x1_S262144x1_S262144x1_S262144x1_S262144x1_S262144x16_d1
    ![broadcastInDim S262144x1 ![0] bcast_S262144_S262144x1_0 (Wk m c (Proc.devRef .tc main_v596)), broadcastInDim S262144x1 ![0] bcast_S262144_S262144x1_0 (Wk m c (Proc.devRef .tc main_v613)), broadcastInDim S262144x1 ![0] bcast_S262144_S262144x1_0 (Wk m c (Proc.devRef .tc main_v630)), broadcastInDim S262144x1 ![0] bcast_S262144_S262144x1_0 (Wk m c (Proc.devRef .tc main_v647)), broadcastInDim S262144x1 ![0] bcast_S262144_S262144x1_0 (Wk m c (Proc.devRef .tc main_v664)), broadcastInDim S262144x1 ![0] bcast_S262144_S262144x1_0 (Wk m c (Proc.devRef .tc main_v681)), broadcastInDim S262144x1 ![0] bcast_S262144_S262144x1_0 (Wk m c (Proc.devRef .tc main_v698)), broadcastInDim S262144x1 ![0] bcast_S262144_S262144x1_0 (Wk m c (Proc.devRef .tc main_v715)), broadcastInDim S262144x1 ![0] bcast_S262144_S262144x1_0 (Wk m c (Proc.devRef .tc main_v732)), broadcastInDim S262144x1 ![0] bcast_S262144_S262144x1_0 (Wk m c (Proc.devRef .tc main_v749)), broadcastInDim S262144x1 ![0] bcast_S262144_S262144x1_0 (Wk m c (Proc.devRef .tc main_v766)), broadcastInDim S262144x1 ![0] bcast_S262144_S262144x1_0 (Wk m c (Proc.devRef .tc main_v783)), broadcastInDim S262144x1 ![0] bcast_S262144_S262144x1_0 (Wk m c (Proc.devRef .tc main_v800)), broadcastInDim S262144x1 ![0] bcast_S262144_S262144x1_0 (Wk m c (Proc.devRef .tc main_v817)), broadcastInDim S262144x1 ![0] bcast_S262144_S262144x1_0 (Wk m c (Proc.devRef .tc main_v834)), broadcastInDim S262144x1 ![0] bcast_S262144_S262144x1_0 (Wk m c (Proc.devRef .tc main_v851))] := by
  simp (disch := decide) only [cat_wt, cat_ix, Walk.skip38, Walk.skip37, Walk.skip36, Walk.into38, Walk.into37, Walk.into36, Walk.main_part17_ops1_plain, main_part17_ops0, main_part16_ops0, after_cons, after_nil, nullary_result', unary_result', binary_result', ternary_result', quaternary_result', reshape_result', nullary_result_ne', unary_result_ne', binary_result_ne', ternary_result_ne', quaternary_result_ne', reshape_result_ne', nary_result_ne']

/-! ## The sixteen corner index arrays -/

/-- Corner 0's index array from the four quotient arrays. -/
theorem idx0_eq : Wk m c (Proc.devRef .tc main_v596) = IdxRange.cornerIdx bcast_S_S262144 (Wk m c (Proc.devRef .tc main_v5)) (Wk m c (Proc.devRef .tc main_v7)) (Wk m c (Proc.devRef .tc main_v9)) (Wk m c (Proc.devRef .tc main_v11)) 0#32 0#32 0#32 0#32 := by
  walk_from30
  chain_rfl

/-- Corner 1's index array from the four quotient arrays. -/
theorem idx1_eq : Wk m c (Proc.devRef .tc main_v613) = IdxRange.cornerIdx bcast_S_S262144 (Wk m c (Proc.devRef .tc main_v5)) (Wk m c (Proc.devRef .tc main_v7)) (Wk m c (Proc.devRef .tc main_v9)) (Wk m c (Proc.devRef .tc main_v11)) 0#32 0#32 0#32 1#32 := by
  walk_from30
  chain_rfl

/-- Corner 2's index array from the four quotient arrays. -/
theorem idx2_eq : Wk m c (Proc.devRef .tc main_v630) = IdxRange.cornerIdx bcast_S_S262144 (Wk m c (Proc.devRef .tc main_v5)) (Wk m c (Proc.devRef .tc main_v7)) (Wk m c (Proc.devRef .tc main_v9)) (Wk m c (Proc.devRef .tc main_v11)) 0#32 0#32 1#32 0#32 := by
  walk_from30
  chain_rfl

/-- Corner 3's index array from the four quotient arrays. -/
theorem idx3_eq : Wk m c (Proc.devRef .tc main_v647) = IdxRange.cornerIdx bcast_S_S262144 (Wk m c (Proc.devRef .tc main_v5)) (Wk m c (Proc.devRef .tc main_v7)) (Wk m c (Proc.devRef .tc main_v9)) (Wk m c (Proc.devRef .tc main_v11)) 0#32 0#32 1#32 1#32 := by
  walk_from30
  chain_rfl

/-- Corner 4's index array from the four quotient arrays. -/
theorem idx4_eq : Wk m c (Proc.devRef .tc main_v664) = IdxRange.cornerIdx bcast_S_S262144 (Wk m c (Proc.devRef .tc main_v5)) (Wk m c (Proc.devRef .tc main_v7)) (Wk m c (Proc.devRef .tc main_v9)) (Wk m c (Proc.devRef .tc main_v11)) 0#32 1#32 0#32 0#32 := by
  walk_from30
  chain_rfl

/-- Corner 5's index array from the four quotient arrays. -/
theorem idx5_eq : Wk m c (Proc.devRef .tc main_v681) = IdxRange.cornerIdx bcast_S_S262144 (Wk m c (Proc.devRef .tc main_v5)) (Wk m c (Proc.devRef .tc main_v7)) (Wk m c (Proc.devRef .tc main_v9)) (Wk m c (Proc.devRef .tc main_v11)) 0#32 1#32 0#32 1#32 := by
  walk_from30
  chain_rfl

/-- Corner 6's index array from the four quotient arrays. -/
theorem idx6_eq : Wk m c (Proc.devRef .tc main_v698) = IdxRange.cornerIdx bcast_S_S262144 (Wk m c (Proc.devRef .tc main_v5)) (Wk m c (Proc.devRef .tc main_v7)) (Wk m c (Proc.devRef .tc main_v9)) (Wk m c (Proc.devRef .tc main_v11)) 0#32 1#32 1#32 0#32 := by
  walk_from30
  chain_rfl

/-- Corner 7's index array from the four quotient arrays. -/
theorem idx7_eq : Wk m c (Proc.devRef .tc main_v715) = IdxRange.cornerIdx bcast_S_S262144 (Wk m c (Proc.devRef .tc main_v5)) (Wk m c (Proc.devRef .tc main_v7)) (Wk m c (Proc.devRef .tc main_v9)) (Wk m c (Proc.devRef .tc main_v11)) 0#32 1#32 1#32 1#32 := by
  walk_from30
  chain_rfl

/-- Corner 8's index array from the four quotient arrays. -/
theorem idx8_eq : Wk m c (Proc.devRef .tc main_v732) = IdxRange.cornerIdx bcast_S_S262144 (Wk m c (Proc.devRef .tc main_v5)) (Wk m c (Proc.devRef .tc main_v7)) (Wk m c (Proc.devRef .tc main_v9)) (Wk m c (Proc.devRef .tc main_v11)) 1#32 0#32 0#32 0#32 := by
  walk_from30
  chain_rfl

/-- Corner 9's index array from the four quotient arrays. -/
theorem idx9_eq : Wk m c (Proc.devRef .tc main_v749) = IdxRange.cornerIdx bcast_S_S262144 (Wk m c (Proc.devRef .tc main_v5)) (Wk m c (Proc.devRef .tc main_v7)) (Wk m c (Proc.devRef .tc main_v9)) (Wk m c (Proc.devRef .tc main_v11)) 1#32 0#32 0#32 1#32 := by
  walk_from30
  chain_rfl

/-- Corner 10's index array from the four quotient arrays. -/
theorem idx10_eq : Wk m c (Proc.devRef .tc main_v766) = IdxRange.cornerIdx bcast_S_S262144 (Wk m c (Proc.devRef .tc main_v5)) (Wk m c (Proc.devRef .tc main_v7)) (Wk m c (Proc.devRef .tc main_v9)) (Wk m c (Proc.devRef .tc main_v11)) 1#32 0#32 1#32 0#32 := by
  walk_from30
  chain_rfl

/-- Corner 11's index array from the four quotient arrays. -/
theorem idx11_eq : Wk m c (Proc.devRef .tc main_v783) = IdxRange.cornerIdx bcast_S_S262144 (Wk m c (Proc.devRef .tc main_v5)) (Wk m c (Proc.devRef .tc main_v7)) (Wk m c (Proc.devRef .tc main_v9)) (Wk m c (Proc.devRef .tc main_v11)) 1#32 0#32 1#32 1#32 := by
  walk_from30
  chain_rfl

/-- Corner 12's index array from the four quotient arrays. -/
theorem idx12_eq : Wk m c (Proc.devRef .tc main_v800) = IdxRange.cornerIdx bcast_S_S262144 (Wk m c (Proc.devRef .tc main_v5)) (Wk m c (Proc.devRef .tc main_v7)) (Wk m c (Proc.devRef .tc main_v9)) (Wk m c (Proc.devRef .tc main_v11)) 1#32 1#32 0#32 0#32 := by
  walk_from30
  chain_rfl

/-- Corner 13's index array from the four quotient arrays. -/
theorem idx13_eq : Wk m c (Proc.devRef .tc main_v817) = IdxRange.cornerIdx bcast_S_S262144 (Wk m c (Proc.devRef .tc main_v5)) (Wk m c (Proc.devRef .tc main_v7)) (Wk m c (Proc.devRef .tc main_v9)) (Wk m c (Proc.devRef .tc main_v11)) 1#32 1#32 0#32 1#32 := by
  walk_from30
  chain_rfl

/-- Corner 14's index array from the four quotient arrays. -/
theorem idx14_eq : Wk m c (Proc.devRef .tc main_v834) = IdxRange.cornerIdx bcast_S_S262144 (Wk m c (Proc.devRef .tc main_v5)) (Wk m c (Proc.devRef .tc main_v7)) (Wk m c (Proc.devRef .tc main_v9)) (Wk m c (Proc.devRef .tc main_v11)) 1#32 1#32 1#32 0#32 := by
  walk_from30
  chain_rfl

/-- Corner 15's index array from the four quotient arrays. -/
theorem idx15_eq : Wk m c (Proc.devRef .tc main_v851) = IdxRange.cornerIdx bcast_S_S262144 (Wk m c (Proc.devRef .tc main_v5)) (Wk m c (Proc.devRef .tc main_v7)) (Wk m c (Proc.devRef .tc main_v9)) (Wk m c (Proc.devRef .tc main_v11)) 1#32 1#32 1#32 1#32 := by
  walk_from30
  chain_rfl

/-! ## The four quotient arrays -/

/-- Quotient array 0: the image slice at offset (0, 0, 0, 0), floor-divided by sixteen, flattened. -/
theorem ia0_eq : Wk m c (Proc.devRef .tc main_v5) = shapeCast S262144 (IdxRange.floorDiv16 bcast_S_S4x1x256x256 (extractStridedSlice S4x1x256x256 ![0, 0, 0, 0] (M0 m c (Proc.devRef .tc main_arg0)) slices_S4x1x257x257_S4x1x256x256_0_0_0_0)) shapeCasts_S4x1x256x256_S262144 := by
  walk_all
  chain_rfl

/-- Quotient array 1: the image slice at offset (0, 0, 0, 1), floor-divided by sixteen, flattened. -/
theorem ia1_eq : Wk m c (Proc.devRef .tc main_v7) = shapeCast S262144 (IdxRange.floorDiv16 bcast_S_S4x1x256x256 (extractStridedSlice S4x1x256x256 ![0, 0, 0, 1] (M0 m c (Proc.devRef .tc main_arg0)) slices_S4x1x257x257_S4x1x256x256_0_0_0_1)) shapeCasts_S4x1x256x256_S262144 := by
  walk_all
  chain_rfl

/-- Quotient array 2: the image slice at offset (0, 0, 1, 0), floor-divided by sixteen, flattened. -/
theorem ia2_eq : Wk m c (Proc.devRef .tc main_v9) = shapeCast S262144 (IdxRange.floorDiv16 bcast_S_S4x1x256x256 (extractStridedSlice S4x1x256x256 ![0, 0, 1, 0] (M0 m c (Proc.devRef .tc main_arg0)) slices_S4x1x257x257_S4x1x256x256_0_0_1_0)) shapeCasts_S4x1x256x256_S262144 := by
  walk_all
  chain_rfl

/-- Quotient array 3: the image slice at offset (0, 0, 1, 1), floor-divided by sixteen, flattened. -/
theorem ia3_eq : Wk m c (Proc.devRef .tc main_v11) = shapeCast S262144 (IdxRange.floorDiv16 bcast_S_S4x1x256x256 (extractStridedSlice S4x1x256x256 ![0, 0, 1, 1] (M0 m c (Proc.devRef .tc main_arg0)) slices_S4x1x257x257_S4x1x256x256_0_0_1_1)) shapeCasts_S4x1x256x256_S262144 := by
  walk_all
  chain_rfl

/-! ## The start words' range, and the value -/

/-- Every corner's start word names a row of the table: the image entries lie in [0, 255], their quotients by sixteen
    in [0, 15], and a corner index built from four quotients and four steps of 0 or 1 in [0, 83520]. -/
theorem inRangeK (hpre : Cert.Pre_KernelIdeal m) : InRange (idxK m c) := by
  have himg : IdxRange.InWords 0 255 (M0 m c (Proc.devRef .tc main_arg0)) := PreDecode.img_range _ _ (hpre c)
  have q0 : IdxRange.InWords 0 15 (Wk m c (Proc.devRef .tc main_v5)) := by
    rw [ia0_eq]
    exact IdxRange.shapeCast_range _ _ 0 15 (IdxRange.floorDiv16_range _ _ (IdxRange.slice_range _ _ _ 0 255 himg))
  have q1 : IdxRange.InWords 0 15 (Wk m c (Proc.devRef .tc main_v7)) := by
    rw [ia1_eq]
    exact IdxRange.shapeCast_range _ _ 0 15 (IdxRange.floorDiv16_range _ _ (IdxRange.slice_range _ _ _ 0 255 himg))
  have q2 : IdxRange.InWords 0 15 (Wk m c (Proc.devRef .tc main_v9)) := by
    rw [ia2_eq]
    exact IdxRange.shapeCast_range _ _ 0 15 (IdxRange.floorDiv16_range _ _ (IdxRange.slice_range _ _ _ 0 255 himg))
  have q3 : IdxRange.InWords 0 15 (Wk m c (Proc.devRef .tc main_v11)) := by
    rw [ia3_eq]
    exact IdxRange.shapeCast_range _ _ 0 15 (IdxRange.floorDiv16_range _ _ (IdxRange.slice_range _ _ _ 0 255 himg))
  have z : (0#32 : BitVec 32) = 0#32 ∨ (0#32 : BitVec 32) = 1#32 := Or.inl rfl
  have o : (1#32 : BitVec 32) = 0#32 ∨ (1#32 : BitVec 32) = 1#32 := Or.inr rfl
  have H : ∀ k : Fin 16, IdxRange.InWords 0 83520 (idxK m c k) := by
    intro k
    fin_cases k
    · show IdxRange.InWords 0 83520 (Wk m c (Proc.devRef .tc main_v596))
      rw [idx0_eq]
      exact IdxRange.cornerIdx_range _ _ _ _ _ q0 q1 q2 q3 _ _ _ _ z z z z
    · show IdxRange.InWords 0 83520 (Wk m c (Proc.devRef .tc main_v613))
      rw [idx1_eq]
      exact IdxRange.cornerIdx_range _ _ _ _ _ q0 q1 q2 q3 _ _ _ _ z z z o
    · show IdxRange.InWords 0 83520 (Wk m c (Proc.devRef .tc main_v630))
      rw [idx2_eq]
      exact IdxRange.cornerIdx_range _ _ _ _ _ q0 q1 q2 q3 _ _ _ _ z z o z
    · show IdxRange.InWords 0 83520 (Wk m c (Proc.devRef .tc main_v647))
      rw [idx3_eq]
      exact IdxRange.cornerIdx_range _ _ _ _ _ q0 q1 q2 q3 _ _ _ _ z z o o
    · show IdxRange.InWords 0 83520 (Wk m c (Proc.devRef .tc main_v664))
      rw [idx4_eq]
      exact IdxRange.cornerIdx_range _ _ _ _ _ q0 q1 q2 q3 _ _ _ _ z o z z
    · show IdxRange.InWords 0 83520 (Wk m c (Proc.devRef .tc main_v681))
      rw [idx5_eq]
      exact IdxRange.cornerIdx_range _ _ _ _ _ q0 q1 q2 q3 _ _ _ _ z o z o
    · show IdxRange.InWords 0 83520 (Wk m c (Proc.devRef .tc main_v698))
      rw [idx6_eq]
      exact IdxRange.cornerIdx_range _ _ _ _ _ q0 q1 q2 q3 _ _ _ _ z o o z
    · show IdxRange.InWords 0 83520 (Wk m c (Proc.devRef .tc main_v715))
      rw [idx7_eq]
      exact IdxRange.cornerIdx_range _ _ _ _ _ q0 q1 q2 q3 _ _ _ _ z o o o
    · show IdxRange.InWords 0 83520 (Wk m c (Proc.devRef .tc main_v732))
      rw [idx8_eq]
      exact IdxRange.cornerIdx_range _ _ _ _ _ q0 q1 q2 q3 _ _ _ _ o z z z
    · show IdxRange.InWords 0 83520 (Wk m c (Proc.devRef .tc main_v749))
      rw [idx9_eq]
      exact IdxRange.cornerIdx_range _ _ _ _ _ q0 q1 q2 q3 _ _ _ _ o z z o
    · show IdxRange.InWords 0 83520 (Wk m c (Proc.devRef .tc main_v766))
      rw [idx10_eq]
      exact IdxRange.cornerIdx_range _ _ _ _ _ q0 q1 q2 q3 _ _ _ _ o z o z
    · show IdxRange.InWords 0 83520 (Wk m c (Proc.devRef .tc main_v783))
      rw [idx11_eq]
      exact IdxRange.cornerIdx_range _ _ _ _ _ q0 q1 q2 q3 _ _ _ _ o z o o
    · show IdxRange.InWords 0 83520 (Wk m c (Proc.devRef .tc main_v800))
      rw [idx12_eq]
      exact IdxRange.cornerIdx_range _ _ _ _ _ q0 q1 q2 q3 _ _ _ _ o o z z
    · show IdxRange.InWords 0 83520 (Wk m c (Proc.devRef .tc main_v817))
      rw [idx13_eq]
      exact IdxRange.cornerIdx_range _ _ _ _ _ q0 q1 q2 q3 _ _ _ _ o o z o
    · show IdxRange.InWords 0 83520 (Wk m c (Proc.devRef .tc main_v834))
      rw [idx14_eq]
      exact IdxRange.cornerIdx_range _ _ _ _ _ q0 q1 q2 q3 _ _ _ _ o o o z
    · show IdxRange.InWords 0 83520 (Wk m c (Proc.devRef .tc main_v851))
      rw [idx15_eq]
      exact IdxRange.cornerIdx_range _ _ _ _ _ q0 q1 q2 q3 _ _ _ _ o o o o
  exact fun k n => H k (ix1 n)

/-- The region's output array as the interpolation: at (p, q) the lookup's entry (p, k, q) is the table's entry at
    (the row corner k's start word names, q), and the stacked weights' entry (p, k) is weight column k at (p, 0). -/
theorem value_eq (hpre : Cert.Pre_KernelIdeal m) :
    Val.G (Wk m c (Proc.devRef .tc main_v869)) (Wk m c (Proc.devRef .tc main_v575)) = combine (wqK m c) (idxK m c) (wtK m c) := by
  have hR := inRangeK m c hpre
  have hidx : ∀ (n : Fin 262144) (k : Fin 16), Wk m c (Proc.devRef .tc main_v868) (ix2 n k) = idxK m c k (ix1 n) := by
    intro n k
    rw [indices_eq, GatherK.cat16_apply]
    fin_cases k <;> exact GatherK.col_apply bcast_S262144_S262144x1_0 _ n
  have hwt : ∀ (n : Fin 262144) (k : Fin 16), Wk m c (Proc.devRef .tc main_v575) (ix2 n k) = wtK m c k (ix2 n 0) := by
    intro n k
    rw [weights_eq, GatherK.cat16_apply]
  have hi : ∀ (n : Fin 262144) (k : Fin 16), 0 ≤ (Wk m c (Proc.devRef .tc main_v868) (ix2 n k)).toInt
      ∧ (Wk m c (Proc.devRef .tc main_v868) (ix2 n k)).toInt ≤ 83520 := by
    intro n k
    rw [hidx]
    exact hR k n
  funext i
  obtain ⟨p, q, rfl⟩ : ∃ (p : Fin 262144) (q : Fin 16), i = ix2 p q := ⟨i 0, i 1, eq_ix2 i⟩
  rw [G_apply, combine_apply]
  refine congrArg (· * _) (Finset.sum_congr rfl fun k _ => ?_)
  rw [take_eq, GatherK.takeFill_apply _ _ _ _ _ _ _ _ _ _ rfl rfl rfl rfl rfl _ _ hi, hidx, hwt]

/-- The run, read in the shared vocabulary: the result array is the pixel shuffle of the interpolation of the quantised
    table at the sixteen corner index arrays with the sixteen weight columns; both argument arrays end as launched. -/
theorem kernel_value (ρ : Dev nD → PrngReg) (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v873) = Val.shuffle (combine (wqK m c) (idxK m c) (wtK m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => by
    obtain ⟨h1, h2, h3⟩ := h c
    refine ⟨?_, h2, h3⟩
    rw [h1, V_eq, V_eq, value_eq m c hpre]) (Val.run_value m ρ)

end Cert.KernelIdeal.Glue

end
-- ==== Proof.RWalk.lean ====
import proofs.«409975_j2585570312579_2_alg».proof.Proof.RefOps
import proofs.«409975_j2585570312579_2_alg».proof.Proof.LibAfter
import Idealize.ShloMosaic.Lib.Pipeline.Regions

set_option maxRecDepth 16384

noncomputable section

namespace Cert.ReferenceIdeal.Walk

open Idealize.ShloMosaic Idealize.ShloMosaic.StableHlo Cert.ReferenceIdeal Cert.ReferenceIdeal.Gen Cert.ReferenceIdeal.RunH

variable {F : FTy → Type} [FloatOps F]

/-- The references line 0 (main_part0_ops0) writes, in order. -/
abbrev Wl0 : List (Ref sig .tc) := [main_cst, main_v0, main_v1]
theorem hW0 : (main_part0_ops0 : List (HloOp τ sig (Elt F))).Forall fun op => op.writes ⊆ (Wl0.map (Proc.devRef (τ := τ) .tc)).toFinset :=
  ⟨LibAfter.single_sub (y := main_cst) (by decide), LibAfter.single_sub (y := main_v0) (by decide), LibAfter.single_sub (y := main_v1) (by decide)⟩

/-- The references line 1 (main_part0_ops1) writes, in order. -/
abbrev Wl1 : List (Ref sig .tc) := [main_v2]
theorem hW1 : (main_part0_ops1 : List (HloOp τ sig (Elt F))).Forall fun op => op.writes ⊆ (Wl1.map (Proc.devRef (τ := τ) .tc)).toFinset :=
  LibAfter.single_sub (y := main_v2) (by decide)

/-- The references line 2 (main_part0_ops2) writes, in order. -/
abbrev Wl2 : List (Ref sig .tc) := [main_v3, main_v4, main_cst_0, main_cst_1]
theorem hW2 : (main_part0_ops2 : List (HloOp τ sig (Elt F))).Forall fun op => op.writes ⊆ (Wl2.map (Proc.devRef (τ := τ) .tc)).toFinset :=
  ⟨LibAfter.single_sub (y := main_v3) (by decide), LibAfter.single_sub (y := main_v4) (by decide), LibAfter.single_sub (y := main_cst_0) (by decide), LibAfter.single_sub (y := main_cst_1) (by decide)⟩

/-- The references line 3 (main_part0_ops3) writes, in order. -/
abbrev Wl3 : List (Ref sig .tc) := [main_call1_v0, main_call1_v1, main_call1_v2, main_call1_v3, main_call1_v4, main_v5]
theorem hW3 : (main_part0_ops3 : List (HloOp τ sig (Elt F))).Forall fun op => op.writes ⊆ (Wl3.map (Proc.devRef (τ := τ) .tc)).toFinset :=
  ⟨LibAfter.single_sub (y := main_call1_v0) (by decide), LibAfter.single_sub (y := main_call1_v1) (by decide), LibAfter.single_sub (y := main_call1_v2) (by decide), LibAfter.single_sub (y := main_call1_v3) (by decide), LibAfter.single_sub (y := main_call1_v4) (by decide), LibAfter.single_sub (y := main_v5) (by decide)⟩

/-- The references line 4 (main_part0_ops4) writes, in order. -/
abbrev Wl4 : List (Ref sig .tc) := [main_v6, main_v7, main_v8, main_v9, main_c]
theorem hW4 : (main_part0_ops4 : List (HloOp τ sig (Elt F))).Forall fun op => op.writes ⊆ (Wl4.map (Proc.devRef (τ := τ) .tc)).toFinset :=
  ⟨LibAfter.single_sub (y := main_v6) (by decide), LibAfter.single_sub (y := main_v7) (by decide), LibAfter.single_sub (y := main_v8) (by decide), LibAfter.single_sub (y := main_v9) (by decide), LibAfter.single_sub (y := main_c) (by decide)⟩

/-- The references line 5 (main_part0_ops5) writes, in order. -/
abbrev Wl5 : List (Ref sig .tc) := [main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v10]
theorem hW5 : (main_part0_ops5 : List (HloOp τ sig (Elt F))).Forall fun op => op.writes ⊆ (Wl5.map (Proc.devRef (τ := τ) .tc)).toFinset :=
  ⟨LibAfter.single_sub (y := main_call2_v0) (by decide), LibAfter.single_sub (y := main_call2_v1) (by decide), LibAfter.single_sub (y := main_call2_v2) (by decide), LibAfter.single_sub (y := main_call2_v3) (by decide), LibAfter.single_sub (y := main_call2_v4) (by decide), LibAfter.single_sub (y := main_call2_v5) (by decide), LibAfter.single_sub (y := main_call2_v6) (by decide), LibAfter.single_sub (y := main_call2_v7) (by decide), LibAfter.single_sub (y := main_call2_v8) (by decide), LibAfter.single_sub (y := main_call2_c) (by decide), LibAfter.single_sub (y := main_call2_v9) (by decide), LibAfter.single_sub (y := main_call2_v10) (by decide), LibAfter.single_sub (y := main_call2_v11) (by decide), LibAfter.single_sub (y := main_call2_c_0) (by decide), LibAfter.single_sub (y := main_call2_v12) (by decide), LibAfter.single_sub (y := main_call2_v13) (by decide), LibAfter.single_sub (y := main_v10) (by decide)⟩

/-- The references line 6 (main_part0_ops6) writes, in order. -/
abbrev Wl6 : List (Ref sig .tc) := [main_v11, main_c_2]
theorem hW6 : (main_part0_ops6 : List (HloOp τ sig (Elt F))).Forall fun op => op.writes ⊆ (Wl6.map (Proc.devRef (τ := τ) .tc)).toFinset :=
  ⟨LibAfter.single_sub (y := main_v11) (by decide), LibAfter.single_sub (y := main_c_2) (by decide)⟩

/-- The references line 7 (main_part0_ops7) writes, in order. -/
abbrev Wl7 : List (Ref sig .tc) := [main_call3_v0, main_call3_v1, main_call3_v2, main_call3_v3, main_call3_v4, main_call3_v5, main_call3_v6, main_call3_v7, main_call3_v8, main_call3_c, main_call3_v9, main_call3_v10, main_call3_v11, main_call3_c_0, main_call3_v12, main_call3_v13, main_v12]
theorem hW7 : (main_part0_ops7 : List (HloOp τ sig (Elt F))).Forall fun op => op.writes ⊆ (Wl7.map (Proc.devRef (τ := τ) .tc)).toFinset :=
  ⟨LibAfter.single_sub (y := main_call3_v0) (by decide), LibAfter.single_sub (y := main_call3_v1) (by decide), LibAfter.single_sub (y := main_call3_v2) (by decide), LibAfter.single_sub (y := main_call3_v3) (by decide), LibAfter.single_sub (y := main_call3_v4) (by decide), LibAfter.single_sub (y := main_call3_v5) (by decide), LibAfter.single_sub (y := main_call3_v6) (by decide), LibAfter.single_sub (y := main_call3_v7) (by decide), LibAfter.single_sub (y := main_call3_v8) (by decide), LibAfter.single_sub (y := main_call3_c) (by decide), LibAfter.single_sub (y := main_call3_v9) (by decide), LibAfter.single_sub (y := main_call3_v10) (by decide), LibAfter.single_sub (y := main_call3_v11) (by decide), LibAfter.single_sub (y := main_call3_c_0) (by decide), LibAfter.single_sub (y := main_call3_v12) (by decide), LibAfter.single_sub (y := main_call3_v13) (by decide), LibAfter.single_sub (y := main_v12) (by decide)⟩

/-- The references line 8 (main_part0_ops8) writes, in order. -/
abbrev Wl8 : List (Ref sig .tc) := [main_v13, main_c_3]
theorem hW8 : (main_part0_ops8 : List (HloOp τ sig (Elt F))).Forall fun op => op.writes ⊆ (Wl8.map (Proc.devRef (τ := τ) .tc)).toFinset :=
  ⟨LibAfter.single_sub (y := main_v13) (by decide), LibAfter.single_sub (y := main_c_3) (by decide)⟩

/-- The references line 9 (main_part0_ops9) writes, in order. -/
abbrev Wl9 : List (Ref sig .tc) := [main_call4_v0, main_call4_v1, main_call4_v2, main_call4_v3, main_call4_v4, main_call4_v5, main_call4_v6, main_call4_v7, main_call4_v8, main_call4_c, main_call4_v9, main_call4_v10, main_call4_v11, main_call4_c_0, main_call4_v12, main_call4_v13, main_v14]
theorem hW9 : (main_part0_ops9 : List (HloOp τ sig (Elt F))).Forall fun op => op.writes ⊆ (Wl9.map (Proc.devRef (τ := τ) .tc)).toFinset :=
  ⟨LibAfter.single_sub (y := main_call4_v0) (by decide), LibAfter.single_sub (y := main_call4_v1) (by decide), LibAfter.single_sub (y := main_call4_v2) (by decide), LibAfter.single_sub (y := main_call4_v3) (by decide), LibAfter.single_sub (y := main_call4_v4) (by decide), LibAfter.single_sub (y := main_call4_v5) (by decide), LibAfter.single_sub (y := main_call4_v6) (by decide), LibAfter.single_sub (y := main_call4_v7) (by decide), LibAfter.single_sub (y := main_call4_v8) (by decide), LibAfter.single_sub (y := main_call4_c) (by decide), LibAfter.single_sub (y := main_call4_v9) (by decide), LibAfter.single_sub (y := main_call4_v10) (by decide), LibAfter.single_sub (y := main_call4_v11) (by decide), LibAfter.single_sub (y := main_call4_c_0) (by decide), LibAfter.single_sub (y := main_call4_v12) (by decide), LibAfter.single_sub (y := main_call4_v13) (by decide), LibAfter.single_sub (y := main_v14) (by decide)⟩

/-- The references line 10 (main_part0_ops10) writes, in order. -/
abbrev Wl10 : List (Ref sig .tc) := [main_v15, main_c_4]
theorem hW10 : (main_part0_ops10 : List (HloOp τ sig (Elt F))).Forall fun op => op.writes ⊆ (Wl10.map (Proc.devRef (τ := τ) .tc)).toFinset :=
  ⟨LibAfter.single_sub (y := main_v15) (by decide), LibAfter.single_sub (y := main_c_4) (by decide)⟩

/-- The references line 11 (main_part0_ops11) writes, in order. -/
abbrev Wl11 : List (Ref sig .tc) := [main_call5_v0, main_call5_v1, main_call5_v2, main_call5_v3, main_call5_v4, main_call5_v5, main_call5_v6, main_call5_v7, main_call5_v8, main_call5_c, main_call5_v9, main_call5_v10, main_call5_v11, main_call5_c_0, main_call5_v12, main_call5_v13, main_v16]
theorem hW11 : (main_part0_ops11 : List (HloOp τ sig (Elt F))).Forall fun op => op.writes ⊆ (Wl11.map (Proc.devRef (τ := τ) .tc)).toFinset :=
  ⟨LibAfter.single_sub (y := main_call5_v0) (by decide), LibAfter.single_sub (y := main_call5_v1) (by decide), LibAfter.single_sub (y := main_call5_v2) (by decide), LibAfter.single_sub (y := main_call5_v3) (by decide), LibAfter.single_sub (y := main_call5_v4) (by decide), LibAfter.single_sub (y := main_call5_v5) (by decide), LibAfter.single_sub (y := main_call5_v6) (by decide), LibAfter.single_sub (y := main_call5_v7) (by decide), LibAfter.single_sub (y := main_call5_v8) (by decide), LibAfter.single_sub (y := main_call5_c) (by decide), LibAfter.single_sub (y := main_call5_v9) (by decide), LibAfter.single_sub (y := main_call5_v10) (by decide), LibAfter.single_sub (y := main_call5_v11) (by decide), LibAfter.single_sub (y := main_call5_c_0) (by decide), LibAfter.single_sub (y := main_call5_v12) (by decide), LibAfter.single_sub (y := main_call5_v13) (by decide), LibAfter.single_sub (y := main_v16) (by decide)⟩

/-- The references line 12 (main_part0_ops12) writes, in order. -/
abbrev Wl12 : List (Ref sig .tc) := [main_v17, main_c_5]
theorem hW12 : (main_part0_ops12 : List (HloOp τ sig (Elt F))).Forall fun op => op.writes ⊆ (Wl12.map (Proc.devRef (τ := τ) .tc)).toFinset :=
  ⟨LibAfter.single_sub (y := main_v17) (by decide), LibAfter.single_sub (y := main_c_5) (by decide)⟩

/-- The references line 13 (main_part0_ops13) writes, in order. -/
abbrev Wl13 : List (Ref sig .tc) := [main_call6_v0, main_call6_c, main_call6_v1, main_call6_c_0, main_call6_v2, main_call6_v3, main_call6_v4, main_call6_c_1, main_call6_v5, main_call6_v6, main_call6_c_2, main_call6_v7, main_call6_v8, main_call6_c_3, main_call6_v9, main_call6_v10, main_call6_v11, main_call6_v12, main_call6_v13, main_call6_v14, main_v18]
theorem hW13 : (main_part0_ops13 : List (HloOp τ sig (Elt F))).Forall fun op => op.writes ⊆ (Wl13.map (Proc.devRef (τ := τ) .tc)).toFinset :=
  ⟨LibAfter.single_sub (y := main_call6_v0) (by decide), LibAfter.single_sub (y := main_call6_c) (by decide), LibAfter.single_sub (y := main_call6_v1) (by decide), LibAfter.single_sub (y := main_call6_c_0) (by decide), LibAfter.single_sub (y := main_call6_v2) (by decide), LibAfter.single_sub (y := main_call6_v3) (by decide), LibAfter.single_sub (y := main_call6_v4) (by decide), LibAfter.single_sub (y := main_call6_c_1) (by decide), LibAfter.single_sub (y := main_call6_v5) (by decide), LibAfter.single_sub (y := main_call6_v6) (by decide), LibAfter.single_sub (y := main_call6_c_2) (by decide), LibAfter.single_sub (y := main_call6_v7) (by decide), LibAfter.single_sub (y := main_call6_v8) (by decide), LibAfter.single_sub (y := main_call6_c_3) (by decide), LibAfter.single_sub (y := main_call6_v9) (by decide), LibAfter.single_sub (y := main_call6_v10) (by decide), LibAfter.single_sub (y := main_call6_v11) (by decide), LibAfter.single_sub (y := main_call6_v12) (by decide), LibAfter.single_sub (y := main_call6_v13) (by decide), LibAfter.single_sub (y := main_call6_v14) (by decide), LibAfter.single_sub (y := main_v18) (by decide)⟩

/-- The references line 14 (main_part0_ops14) writes, in order. -/
abbrev Wl14 : List (Ref sig .tc) := [main_v19, main_v20, main_c_6]
theorem hW14 : (main_part0_ops14 : List (HloOp τ sig (Elt F))).Forall fun op => op.writes ⊆ (Wl14.map (Proc.devRef (τ := τ) .tc)).toFinset :=
  ⟨LibAfter.single_sub (y := main_v19) (by decide), LibAfter.single_sub (y := main_v20) (by decide), LibAfter.single_sub (y := main_c_6) (by decide)⟩

/-- The references line 15 (main_part0_ops15) writes, in order. -/
abbrev Wl15 : List (Ref sig .tc) := [main_call7_v0, main_call7_c, main_call7_v1, main_call7_c_0, main_call7_v2, main_call7_v3, main_call7_v4, main_call7_c_1, main_call7_v5, main_call7_v6, main_call7_c_2, main_call7_v7, main_call7_v8, main_call7_c_3, main_call7_v9, main_call7_v10, main_call7_v11, main_call7_v12, main_call7_v13, main_call7_v14, main_v21]
theorem hW15 : (main_part0_ops15 : List (HloOp τ sig (Elt F))).Forall fun op => op.writes ⊆ (Wl15.map (Proc.devRef (τ := τ) .tc)).toFinset :=
  ⟨LibAfter.single_sub (y := main_call7_v0) (by decide), LibAfter.single_sub (y := main_call7_c) (by decide), LibAfter.single_sub (y := main_call7_v1) (by decide), LibAfter.single_sub (y := main_call7_c_0) (by decide), LibAfter.single_sub (y := main_call7_v2) (by decide), LibAfter.single_sub (y := main_call7_v3) (by decide), LibAfter.single_sub (y := main_call7_v4) (by decide), LibAfter.single_sub (y := main_call7_c_1) (by decide), LibAfter.single_sub (y := main_call7_v5) (by decide), LibAfter.single_sub (y := main_call7_v6) (by decide), LibAfter.single_sub (y := main_call7_c_2) (by decide), LibAfter.single_sub (y := main_call7_v7) (by decide), LibAfter.single_sub (y := main_call7_v8) (by decide), LibAfter.single_sub (y := main_call7_c_3) (by decide), LibAfter.single_sub (y := main_call7_v9) (by decide), LibAfter.single_sub (y := main_call7_v10) (by decide), LibAfter.single_sub (y := main_call7_v11) (by decide), LibAfter.single_sub (y := main_call7_v12) (by decide), LibAfter.single_sub (y := main_call7_v13) (by decide), LibAfter.single_sub (y := main_call7_v14) (by decide), LibAfter.single_sub (y := main_v21) (by decide)⟩

/-- The references line 16 (main_part0_ops16) writes, in order. -/
abbrev Wl16 : List (Ref sig .tc) := [main_v22, main_v23, main_c_7]
theorem hW16 : (main_part0_ops16 : List (HloOp τ sig (Elt F))).Forall fun op => op.writes ⊆ (Wl16.map (Proc.devRef (τ := τ) .tc)).toFinset :=
  ⟨LibAfter.single_sub (y := main_v22) (by decide), LibAfter.single_sub (y := main_v23) (by decide), LibAfter.single_sub (y := main_c_7) (by decide)⟩

/-- The references line 17 (main_part0_ops17) writes, in order. -/
abbrev Wl17 : List (Ref sig .tc) := [main_call8_v0, main_call8_c, main_call8_v1, main_call8_c_0, main_call8_v2, main_call8_v3, main_call8_v4, main_call8_c_1, main_call8_v5, main_call8_v6, main_call8_c_2, main_call8_v7, main_call8_v8, main_call8_c_3, main_call8_v9, main_call8_v10, main_call8_v11, main_call8_v12, main_call8_v13, main_call8_v14, main_v24]
theorem hW17 : (main_part0_ops17 : List (HloOp τ sig (Elt F))).Forall fun op => op.writes ⊆ (Wl17.map (Proc.devRef (τ := τ) .tc)).toFinset :=
  ⟨LibAfter.single_sub (y := main_call8_v0) (by decide), LibAfter.single_sub (y := main_call8_c) (by decide), LibAfter.single_sub (y := main_call8_v1) (by decide), LibAfter.single_sub (y := main_call8_c_0) (by decide), LibAfter.single_sub (y := main_call8_v2) (by decide), LibAfter.single_sub (y := main_call8_v3) (by decide), LibAfter.single_sub (y := main_call8_v4) (by decide), LibAfter.single_sub (y := main_call8_c_1) (by decide), LibAfter.single_sub (y := main_call8_v5) (by decide), LibAfter.single_sub (y := main_call8_v6) (by decide), LibAfter.single_sub (y := main_call8_c_2) (by decide), LibAfter.single_sub (y := main_call8_v7) (by decide), LibAfter.single_sub (y := main_call8_v8) (by decide), LibAfter.single_sub (y := main_call8_c_3) (by decide), LibAfter.single_sub (y := main_call8_v9) (by decide), LibAfter.single_sub (y := main_call8_v10) (by decide), LibAfter.single_sub (y := main_call8_v11) (by decide), LibAfter.single_sub (y := main_call8_v12) (by decide), LibAfter.single_sub (y := main_call8_v13) (by decide), LibAfter.single_sub (y := main_call8_v14) (by decide), LibAfter.single_sub (y := main_v24) (by decide)⟩

/-- The references line 18 (main_part0_ops18) writes, in order. -/
abbrev Wl18 : List (Ref sig .tc) := [main_v25, main_v26, main_c_8]
theorem hW18 : (main_part0_ops18 : List (HloOp τ sig (Elt F))).Forall fun op => op.writes ⊆ (Wl18.map (Proc.devRef (τ := τ) .tc)).toFinset :=
  ⟨LibAfter.single_sub (y := main_v25) (by decide), LibAfter.single_sub (y := main_v26) (by decide), LibAfter.single_sub (y := main_c_8) (by decide)⟩

/-- The references line 19 (main_part0_ops19) writes, in order. -/
abbrev Wl19 : List (Ref sig .tc) := [main_call9_v0, main_call9_c, main_call9_v1, main_call9_c_0, main_call9_v2, main_call9_v3, main_call9_v4, main_call9_c_1, main_call9_v5, main_call9_v6, main_call9_c_2, main_call9_v7, main_call9_v8, main_call9_c_3, main_call9_v9, main_call9_v10, main_call9_v11, main_call9_v12, main_call9_v13, main_call9_v14, main_v27]
theorem hW19 : (main_part0_ops19 : List (HloOp τ sig (Elt F))).Forall fun op => op.writes ⊆ (Wl19.map (Proc.devRef (τ := τ) .tc)).toFinset :=
  ⟨LibAfter.single_sub (y := main_call9_v0) (by decide), LibAfter.single_sub (y := main_call9_c) (by decide), LibAfter.single_sub (y := main_call9_v1) (by decide), LibAfter.single_sub (y := main_call9_c_0) (by decide), LibAfter.single_sub (y := main_call9_v2) (by decide), LibAfter.single_sub (y := main_call9_v3) (by decide), LibAfter.single_sub (y := main_call9_v4) (by decide), LibAfter.single_sub (y := main_call9_c_1) (by decide), LibAfter.single_sub (y := main_call9_v5) (by decide), LibAfter.single_sub (y := main_call9_v6) (by decide), LibAfter.single_sub (y := main_call9_c_2) (by decide), LibAfter.single_sub (y := main_call9_v7) (by decide), LibAfter.single_sub (y := main_call9_v8) (by decide), LibAfter.single_sub (y := main_call9_c_3) (by decide), LibAfter.single_sub (y := main_call9_v9) (by decide), LibAfter.single_sub (y := main_call9_v10) (by decide), LibAfter.single_sub (y := main_call9_v11) (by decide), LibAfter.single_sub (y := main_call9_v12) (by decide), LibAfter.single_sub (y := main_call9_v13) (by decide), LibAfter.single_sub (y := main_call9_v14) (by decide), LibAfter.single_sub (y := main_v27) (by decide)⟩

/-- The references line 20 (main_part0_ops20) writes, in order. -/
abbrev Wl20 : List (Ref sig .tc) := [main_v28, main_v29, main_v30, main_v31, main_v32, main_v33, main_v34, main_v35, main_v36, main_v37, main_v38, main_v39, main_v40, main_v41, main_v42, main_v43, main_v44, main_v45, main_v46, main_v47, main_v48]
theorem hW20 : (main_part0_ops20 : List (HloOp τ sig (Elt F))).Forall fun op => op.writes ⊆ (Wl20.map (Proc.devRef (τ := τ) .tc)).toFinset :=
  ⟨LibAfter.single_sub (y := main_v28) (by decide), LibAfter.single_sub (y := main_v29) (by decide), LibAfter.single_sub (y := main_v30) (by decide), LibAfter.single_sub (y := main_v31) (by decide), LibAfter.single_sub (y := main_v32) (by decide), LibAfter.single_sub (y := main_v33) (by decide), LibAfter.single_sub (y := main_v34) (by decide), LibAfter.single_sub (y := main_v35) (by decide), LibAfter.single_sub (y := main_v36) (by decide), LibAfter.single_sub (y := main_v37) (by decide), LibAfter.single_sub (y := main_v38) (by decide), LibAfter.single_sub (y := main_v39) (by decide), LibAfter.single_sub (y := main_v40) (by decide), LibAfter.single_sub (y := main_v41) (by decide), LibAfter.single_sub (y := main_v42) (by decide), LibAfter.single_sub (y := main_v43) (by decide), LibAfter.single_sub (y := main_v44) (by decide), LibAfter.single_sub (y := main_v45) (by decide), LibAfter.single_sub (y := main_v46) (by decide), LibAfter.single_sub (y := main_v47) (by decide), LibAfter.single_sub (y := main_v48) (by decide)⟩

/-- The references line 21 (main_part1_ops0) writes, in order. -/
abbrev Wl21 : List (Ref sig .tc) := [main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108]
theorem hW21 : (main_part1_ops0 : List (HloOp τ sig (Elt F))).Forall fun op => op.writes ⊆ (Wl21.map (Proc.devRef (τ := τ) .tc)).toFinset :=
  ⟨LibAfter.single_sub (y := main_v49) (by decide), LibAfter.single_sub (y := main_v50) (by decide), LibAfter.single_sub (y := main_v51) (by decide), LibAfter.single_sub (y := main_v52) (by decide), LibAfter.single_sub (y := main_v53) (by decide), LibAfter.single_sub (y := main_v54) (by decide), LibAfter.single_sub (y := main_v55) (by decide), LibAfter.single_sub (y := main_v56) (by decide), LibAfter.single_sub (y := main_v57) (by decide), LibAfter.single_sub (y := main_v58) (by decide), LibAfter.single_sub (y := main_v59) (by decide), LibAfter.single_sub (y := main_v60) (by decide), LibAfter.single_sub (y := main_v61) (by decide), LibAfter.single_sub (y := main_v62) (by decide), LibAfter.single_sub (y := main_v63) (by decide), LibAfter.single_sub (y := main_v64) (by decide), LibAfter.single_sub (y := main_v65) (by decide), LibAfter.single_sub (y := main_v66) (by decide), LibAfter.single_sub (y := main_v67) (by decide), LibAfter.single_sub (y := main_v68) (by decide), LibAfter.single_sub (y := main_v69) (by decide), LibAfter.single_sub (y := main_v70) (by decide), LibAfter.single_sub (y := main_v71) (by decide), LibAfter.single_sub (y := main_v72) (by decide), LibAfter.single_sub (y := main_v73) (by decide), LibAfter.single_sub (y := main_v74) (by decide), LibAfter.single_sub (y := main_v75) (by decide), LibAfter.single_sub (y := main_v76) (by decide), LibAfter.single_sub (y := main_v77) (by decide), LibAfter.single_sub (y := main_v78) (by decide), LibAfter.single_sub (y := main_v79) (by decide), LibAfter.single_sub (y := main_v80) (by decide), LibAfter.single_sub (y := main_v81) (by decide), LibAfter.single_sub (y := main_v82) (by decide), LibAfter.single_sub (y := main_v83) (by decide), LibAfter.single_sub (y := main_v84) (by decide), LibAfter.single_sub (y := main_v85) (by decide), LibAfter.single_sub (y := main_v86) (by decide), LibAfter.single_sub (y := main_v87) (by decide), LibAfter.single_sub (y := main_v88) (by decide), LibAfter.single_sub (y := main_v89) (by decide), LibAfter.single_sub (y := main_v90) (by decide), LibAfter.single_sub (y := main_v91) (by decide), LibAfter.single_sub (y := main_v92) (by decide), LibAfter.single_sub (y := main_v93) (by decide), LibAfter.single_sub (y := main_v94) (by decide), LibAfter.single_sub (y := main_v95) (by decide), LibAfter.single_sub (y := main_v96) (by decide), LibAfter.single_sub (y := main_v97) (by decide), LibAfter.single_sub (y := main_v98) (by decide), LibAfter.single_sub (y := main_v99) (by decide), LibAfter.single_sub (y := main_v100) (by decide), LibAfter.single_sub (y := main_v101) (by decide), LibAfter.single_sub (y := main_v102) (by decide), LibAfter.single_sub (y := main_v103) (by decide), LibAfter.single_sub (y := main_v104) (by decide), LibAfter.single_sub (y := main_v105) (by decide), LibAfter.single_sub (y := main_v106) (by decide), LibAfter.single_sub (y := main_v107) (by decide), LibAfter.single_sub (y := main_v108) (by decide)⟩

/-- The references line 22 (main_part2_ops0) writes, in order. -/
abbrev Wl22 : List (Ref sig .tc) := [main_v109, main_v110, main_v111, main_v112, main_v113, main_v114, main_v115, main_v116, main_v117, main_v118, main_v119, main_v120, main_v121, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152, main_v153, main_v154, main_v155, main_v156, main_v157, main_v158, main_v159, main_v160, main_v161, main_v162, main_v163, main_v164, main_cst_9, main_v165, main_v166, main_v167]
theorem hW22 : (main_part2_ops0 : List (HloOp τ sig (Elt F))).Forall fun op => op.writes ⊆ (Wl22.map (Proc.devRef (τ := τ) .tc)).toFinset :=
  ⟨LibAfter.single_sub (y := main_v109) (by decide), LibAfter.single_sub (y := main_v110) (by decide), LibAfter.single_sub (y := main_v111) (by decide), LibAfter.single_sub (y := main_v112) (by decide), LibAfter.single_sub (y := main_v113) (by decide), LibAfter.single_sub (y := main_v114) (by decide), LibAfter.single_sub (y := main_v115) (by decide), LibAfter.single_sub (y := main_v116) (by decide), LibAfter.single_sub (y := main_v117) (by decide), LibAfter.single_sub (y := main_v118) (by decide), LibAfter.single_sub (y := main_v119) (by decide), LibAfter.single_sub (y := main_v120) (by decide), LibAfter.single_sub (y := main_v121) (by decide), LibAfter.single_sub (y := main_v122) (by decide), LibAfter.single_sub (y := main_v123) (by decide), LibAfter.single_sub (y := main_v124) (by decide), LibAfter.single_sub (y := main_v125) (by decide), LibAfter.single_sub (y := main_v126) (by decide), LibAfter.single_sub (y := main_v127) (by decide), LibAfter.single_sub (y := main_v128) (by decide), LibAfter.single_sub (y := main_v129) (by decide), LibAfter.single_sub (y := main_v130) (by decide), LibAfter.single_sub (y := main_v131) (by decide), LibAfter.single_sub (y := main_v132) (by decide), LibAfter.single_sub (y := main_v133) (by decide), LibAfter.single_sub (y := main_v134) (by decide), LibAfter.single_sub (y := main_v135) (by decide), LibAfter.single_sub (y := main_v136) (by decide), LibAfter.single_sub (y := main_v137) (by decide), LibAfter.single_sub (y := main_v138) (by decide), LibAfter.single_sub (y := main_v139) (by decide), LibAfter.single_sub (y := main_v140) (by decide), LibAfter.single_sub (y := main_v141) (by decide), LibAfter.single_sub (y := main_v142) (by decide), LibAfter.single_sub (y := main_v143) (by decide), LibAfter.single_sub (y := main_v144) (by decide), LibAfter.single_sub (y := main_v145) (by decide), LibAfter.single_sub (y := main_v146) (by decide), LibAfter.single_sub (y := main_v147) (by decide), LibAfter.single_sub (y := main_v148) (by decide), LibAfter.single_sub (y := main_v149) (by decide), LibAfter.single_sub (y := main_v150) (by decide), LibAfter.single_sub (y := main_v151) (by decide), LibAfter.single_sub (y := main_v152) (by decide), LibAfter.single_sub (y := main_v153) (by decide), LibAfter.single_sub (y := main_v154) (by decide), LibAfter.single_sub (y := main_v155) (by decide), LibAfter.single_sub (y := main_v156) (by decide), LibAfter.single_sub (y := main_v157) (by decide), LibAfter.single_sub (y := main_v158) (by decide), LibAfter.single_sub (y := main_v159) (by decide), LibAfter.single_sub (y := main_v160) (by decide), LibAfter.single_sub (y := main_v161) (by decide), LibAfter.single_sub (y := main_v162) (by decide), LibAfter.single_sub (y := main_v163) (by decide), LibAfter.single_sub (y := main_v164) (by decide), LibAfter.single_sub (y := main_cst_9) (by decide), LibAfter.single_sub (y := main_v165) (by decide), LibAfter.single_sub (y := main_v166) (by decide), LibAfter.single_sub (y := main_v167) (by decide)⟩

/-- The references line 23 (main_part3_ops0) writes, in order. -/
abbrev Wl23 : List (Ref sig .tc) := [main_v168, main_v169, main_cst_10, main_v170, main_v171, main_v172, main_v173, main_v174, main_cst_11, main_v175, main_v176, main_v177, main_v178, main_v179, main_cst_12, main_v180, main_v181, main_v182, main_v183, main_v184, main_cst_13, main_v185, main_v186, main_v187, main_v188, main_v189, main_cst_14, main_v190, main_v191, main_v192, main_v193, main_v194, main_cst_15, main_v195, main_v196, main_v197, main_v198, main_v199, main_cst_16, main_v200, main_v201, main_v202, main_v203, main_v204, main_cst_17, main_v205, main_v206, main_v207, main_v208, main_v209, main_cst_18, main_v210, main_v211, main_v212, main_v213, main_v214, main_cst_19, main_v215, main_v216, main_v217]
theorem hW23 : (main_part3_ops0 : List (HloOp τ sig (Elt F))).Forall fun op => op.writes ⊆ (Wl23.map (Proc.devRef (τ := τ) .tc)).toFinset :=
  ⟨LibAfter.single_sub (y := main_v168) (by decide), LibAfter.single_sub (y := main_v169) (by decide), LibAfter.single_sub (y := main_cst_10) (by decide), LibAfter.single_sub (y := main_v170) (by decide), LibAfter.single_sub (y := main_v171) (by decide), LibAfter.single_sub (y := main_v172) (by decide), LibAfter.single_sub (y := main_v173) (by decide), LibAfter.single_sub (y := main_v174) (by decide), LibAfter.single_sub (y := main_cst_11) (by decide), LibAfter.single_sub (y := main_v175) (by decide), LibAfter.single_sub (y := main_v176) (by decide), LibAfter.single_sub (y := main_v177) (by decide), LibAfter.single_sub (y := main_v178) (by decide), LibAfter.single_sub (y := main_v179) (by decide), LibAfter.single_sub (y := main_cst_12) (by decide), LibAfter.single_sub (y := main_v180) (by decide), LibAfter.single_sub (y := main_v181) (by decide), LibAfter.single_sub (y := main_v182) (by decide), LibAfter.single_sub (y := main_v183) (by decide), LibAfter.single_sub (y := main_v184) (by decide), LibAfter.single_sub (y := main_cst_13) (by decide), LibAfter.single_sub (y := main_v185) (by decide), LibAfter.single_sub (y := main_v186) (by decide), LibAfter.single_sub (y := main_v187) (by decide), LibAfter.single_sub (y := main_v188) (by decide), LibAfter.single_sub (y := main_v189) (by decide), LibAfter.single_sub (y := main_cst_14) (by decide), LibAfter.single_sub (y := main_v190) (by decide), LibAfter.single_sub (y := main_v191) (by decide), LibAfter.single_sub (y := main_v192) (by decide), LibAfter.single_sub (y := main_v193) (by decide), LibAfter.single_sub (y := main_v194) (by decide), LibAfter.single_sub (y := main_cst_15) (by decide), LibAfter.single_sub (y := main_v195) (by decide), LibAfter.single_sub (y := main_v196) (by decide), LibAfter.single_sub (y := main_v197) (by decide), LibAfter.single_sub (y := main_v198) (by decide), LibAfter.single_sub (y := main_v199) (by decide), LibAfter.single_sub (y := main_cst_16) (by decide), LibAfter.single_sub (y := main_v200) (by decide), LibAfter.single_sub (y := main_v201) (by decide), LibAfter.single_sub (y := main_v202) (by decide), LibAfter.single_sub (y := main_v203) (by decide), LibAfter.single_sub (y := main_v204) (by decide), LibAfter.single_sub (y := main_cst_17) (by decide), LibAfter.single_sub (y := main_v205) (by decide), LibAfter.single_sub (y := main_v206) (by decide), LibAfter.single_sub (y := main_v207) (by decide), LibAfter.single_sub (y := main_v208) (by decide), LibAfter.single_sub (y := main_v209) (by decide), LibAfter.single_sub (y := main_cst_18) (by decide), LibAfter.single_sub (y := main_v210) (by decide), LibAfter.single_sub (y := main_v211) (by decide), LibAfter.single_sub (y := main_v212) (by decide), LibAfter.single_sub (y := main_v213) (by decide), LibAfter.single_sub (y := main_v214) (by decide), LibAfter.single_sub (y := main_cst_19) (by decide), LibAfter.single_sub (y := main_v215) (by decide), LibAfter.single_sub (y := main_v216) (by decide), LibAfter.single_sub (y := main_v217) (by decide)⟩

/-- The references line 24 (main_part4_ops0) writes, in order. -/
abbrev Wl24 : List (Ref sig .tc) := [main_v218, main_v219, main_cst_20, main_v220, main_v221, main_v222, main_v223, main_v224, main_cst_21, main_v225, main_v226, main_v227, main_v228, main_v229, main_cst_22, main_v230, main_v231, main_v232, main_v233, main_v234, main_cst_23, main_v235, main_v236, main_v237, main_v238, main_v239, main_cst_24, main_v240, main_v241, main_v242, main_v243, main_v244, main_cst_25, main_v245, main_v246, main_v247, main_v248, main_v249, main_cst_26, main_v250, main_v251, main_v252, main_v253, main_v254, main_cst_27, main_v255, main_v256, main_v257, main_v258, main_v259, main_cst_28, main_v260, main_v261, main_v262, main_v263, main_v264, main_cst_29, main_v265, main_v266, main_v267]
theorem hW24 : (main_part4_ops0 : List (HloOp τ sig (Elt F))).Forall fun op => op.writes ⊆ (Wl24.map (Proc.devRef (τ := τ) .tc)).toFinset :=
  ⟨LibAfter.single_sub (y := main_v218) (by decide), LibAfter.single_sub (y := main_v219) (by decide), LibAfter.single_sub (y := main_cst_20) (by decide), LibAfter.single_sub (y := main_v220) (by decide), LibAfter.single_sub (y := main_v221) (by decide), LibAfter.single_sub (y := main_v222) (by decide), LibAfter.single_sub (y := main_v223) (by decide), LibAfter.single_sub (y := main_v224) (by decide), LibAfter.single_sub (y := main_cst_21) (by decide), LibAfter.single_sub (y := main_v225) (by decide), LibAfter.single_sub (y := main_v226) (by decide), LibAfter.single_sub (y := main_v227) (by decide), LibAfter.single_sub (y := main_v228) (by decide), LibAfter.single_sub (y := main_v229) (by decide), LibAfter.single_sub (y := main_cst_22) (by decide), LibAfter.single_sub (y := main_v230) (by decide), LibAfter.single_sub (y := main_v231) (by decide), LibAfter.single_sub (y := main_v232) (by decide), LibAfter.single_sub (y := main_v233) (by decide), LibAfter.single_sub (y := main_v234) (by decide), LibAfter.single_sub (y := main_cst_23) (by decide), LibAfter.single_sub (y := main_v235) (by decide), LibAfter.single_sub (y := main_v236) (by decide), LibAfter.single_sub (y := main_v237) (by decide), LibAfter.single_sub (y := main_v238) (by decide), LibAfter.single_sub (y := main_v239) (by decide), LibAfter.single_sub (y := main_cst_24) (by decide), LibAfter.single_sub (y := main_v240) (by decide), LibAfter.single_sub (y := main_v241) (by decide), LibAfter.single_sub (y := main_v242) (by decide), LibAfter.single_sub (y := main_v243) (by decide), LibAfter.single_sub (y := main_v244) (by decide), LibAfter.single_sub (y := main_cst_25) (by decide), LibAfter.single_sub (y := main_v245) (by decide), LibAfter.single_sub (y := main_v246) (by decide), LibAfter.single_sub (y := main_v247) (by decide), LibAfter.single_sub (y := main_v248) (by decide), LibAfter.single_sub (y := main_v249) (by decide), LibAfter.single_sub (y := main_cst_26) (by decide), LibAfter.single_sub (y := main_v250) (by decide), LibAfter.single_sub (y := main_v251) (by decide), LibAfter.single_sub (y := main_v252) (by decide), LibAfter.single_sub (y := main_v253) (by decide), LibAfter.single_sub (y := main_v254) (by decide), LibAfter.single_sub (y := main_cst_27) (by decide), LibAfter.single_sub (y := main_v255) (by decide), LibAfter.single_sub (y := main_v256) (by decide), LibAfter.single_sub (y := main_v257) (by decide), LibAfter.single_sub (y := main_v258) (by decide), LibAfter.single_sub (y := main_v259) (by decide), LibAfter.single_sub (y := main_cst_28) (by decide), LibAfter.single_sub (y := main_v260) (by decide), LibAfter.single_sub (y := main_v261) (by decide), LibAfter.single_sub (y := main_v262) (by decide), LibAfter.single_sub (y := main_v263) (by decide), LibAfter.single_sub (y := main_v264) (by decide), LibAfter.single_sub (y := main_cst_29) (by decide), LibAfter.single_sub (y := main_v265) (by decide), LibAfter.single_sub (y := main_v266) (by decide), LibAfter.single_sub (y := main_v267) (by decide)⟩

/-- The references line 25 (main_part5_ops0) writes, in order. -/
abbrev Wl25 : List (Ref sig .tc) := [main_v268, main_v269, main_cst_30, main_v270, main_v271, main_v272, main_v273, main_v274, main_cst_31, main_v275, main_v276, main_v277, main_v278, main_v279, main_cst_32, main_v280, main_v281, main_v282, main_v283, main_v284, main_cst_33, main_v285, main_cst_34, main_v286, main_cst_35, main_v287, main_cst_36, main_v288, main_cst_37, main_v289, main_cst_38, main_v290, main_cst_39, main_v291, main_cst_40, main_v292, main_cst_41, main_v293, main_cst_42, main_v294, main_cst_43, main_v295, main_cst_44, main_v296, main_cst_45, main_v297, main_cst_46, main_v298, main_cst_47, main_v299, main_cst_48, main_v300, main_v301, main_v302, main_v303, main_v304, main_v305, main_v306, main_v307, main_v308]
theorem hW25 : (main_part5_ops0 : List (HloOp τ sig (Elt F))).Forall fun op => op.writes ⊆ (Wl25.map (Proc.devRef (τ := τ) .tc)).toFinset :=
  ⟨LibAfter.single_sub (y := main_v268) (by decide), LibAfter.single_sub (y := main_v269) (by decide), LibAfter.single_sub (y := main_cst_30) (by decide), LibAfter.single_sub (y := main_v270) (by decide), LibAfter.single_sub (y := main_v271) (by decide), LibAfter.single_sub (y := main_v272) (by decide), LibAfter.single_sub (y := main_v273) (by decide), LibAfter.single_sub (y := main_v274) (by decide), LibAfter.single_sub (y := main_cst_31) (by decide), LibAfter.single_sub (y := main_v275) (by decide), LibAfter.single_sub (y := main_v276) (by decide), LibAfter.single_sub (y := main_v277) (by decide), LibAfter.single_sub (y := main_v278) (by decide), LibAfter.single_sub (y := main_v279) (by decide), LibAfter.single_sub (y := main_cst_32) (by decide), LibAfter.single_sub (y := main_v280) (by decide), LibAfter.single_sub (y := main_v281) (by decide), LibAfter.single_sub (y := main_v282) (by decide), LibAfter.single_sub (y := main_v283) (by decide), LibAfter.single_sub (y := main_v284) (by decide), LibAfter.single_sub (y := main_cst_33) (by decide), LibAfter.single_sub (y := main_v285) (by decide), LibAfter.single_sub (y := main_cst_34) (by decide), LibAfter.single_sub (y := main_v286) (by decide), LibAfter.single_sub (y := main_cst_35) (by decide), LibAfter.single_sub (y := main_v287) (by decide), LibAfter.single_sub (y := main_cst_36) (by decide), LibAfter.single_sub (y := main_v288) (by decide), LibAfter.single_sub (y := main_cst_37) (by decide), LibAfter.single_sub (y := main_v289) (by decide), LibAfter.single_sub (y := main_cst_38) (by decide), LibAfter.single_sub (y := main_v290) (by decide), LibAfter.single_sub (y := main_cst_39) (by decide), LibAfter.single_sub (y := main_v291) (by decide), LibAfter.single_sub (y := main_cst_40) (by decide), LibAfter.single_sub (y := main_v292) (by decide), LibAfter.single_sub (y := main_cst_41) (by decide), LibAfter.single_sub (y := main_v293) (by decide), LibAfter.single_sub (y := main_cst_42) (by decide), LibAfter.single_sub (y := main_v294) (by decide), LibAfter.single_sub (y := main_cst_43) (by decide), LibAfter.single_sub (y := main_v295) (by decide), LibAfter.single_sub (y := main_cst_44) (by decide), LibAfter.single_sub (y := main_v296) (by decide), LibAfter.single_sub (y := main_cst_45) (by decide), LibAfter.single_sub (y := main_v297) (by decide), LibAfter.single_sub (y := main_cst_46) (by decide), LibAfter.single_sub (y := main_v298) (by decide), LibAfter.single_sub (y := main_cst_47) (by decide), LibAfter.single_sub (y := main_v299) (by decide), LibAfter.single_sub (y := main_cst_48) (by decide), LibAfter.single_sub (y := main_v300) (by decide), LibAfter.single_sub (y := main_v301) (by decide), LibAfter.single_sub (y := main_v302) (by decide), LibAfter.single_sub (y := main_v303) (by decide), LibAfter.single_sub (y := main_v304) (by decide), LibAfter.single_sub (y := main_v305) (by decide), LibAfter.single_sub (y := main_v306) (by decide), LibAfter.single_sub (y := main_v307) (by decide), LibAfter.single_sub (y := main_v308) (by decide)⟩

/-- The references line 26 (main_part6_ops0) writes, in order. -/
abbrev Wl26 : List (Ref sig .tc) := [main_v309, main_v310, main_v311, main_v312, main_v313, main_v314, main_v315, main_v316, main_v317, main_v318, main_v319, main_v320, main_v321, main_v322, main_v323, main_v324, main_v325, main_v326, main_v327, main_v328, main_v329, main_v330, main_v331, main_v332, main_v333, main_v334, main_v335, main_v336, main_v337, main_v338, main_v339, main_v340, main_v341, main_v342, main_v343, main_v344, main_v345, main_v346, main_v347, main_v348, main_v349, main_v350, main_v351, main_v352, main_v353, main_v354, main_v355, main_v356, main_v357, main_v358, main_v359, main_v360, main_v361, main_v362, main_v363, main_v364, main_v365, main_v366, main_v367, main_v368]
theorem hW26 : (main_part6_ops0 : List (HloOp τ sig (Elt F))).Forall fun op => op.writes ⊆ (Wl26.map (Proc.devRef (τ := τ) .tc)).toFinset :=
  ⟨LibAfter.single_sub (y := main_v309) (by decide), LibAfter.single_sub (y := main_v310) (by decide), LibAfter.single_sub (y := main_v311) (by decide), LibAfter.single_sub (y := main_v312) (by decide), LibAfter.single_sub (y := main_v313) (by decide), LibAfter.single_sub (y := main_v314) (by decide), LibAfter.single_sub (y := main_v315) (by decide), LibAfter.single_sub (y := main_v316) (by decide), LibAfter.single_sub (y := main_v317) (by decide), LibAfter.single_sub (y := main_v318) (by decide), LibAfter.single_sub (y := main_v319) (by decide), LibAfter.single_sub (y := main_v320) (by decide), LibAfter.single_sub (y := main_v321) (by decide), LibAfter.single_sub (y := main_v322) (by decide), LibAfter.single_sub (y := main_v323) (by decide), LibAfter.single_sub (y := main_v324) (by decide), LibAfter.single_sub (y := main_v325) (by decide), LibAfter.single_sub (y := main_v326) (by decide), LibAfter.single_sub (y := main_v327) (by decide), LibAfter.single_sub (y := main_v328) (by decide), LibAfter.single_sub (y := main_v329) (by decide), LibAfter.single_sub (y := main_v330) (by decide), LibAfter.single_sub (y := main_v331) (by decide), LibAfter.single_sub (y := main_v332) (by decide), LibAfter.single_sub (y := main_v333) (by decide), LibAfter.single_sub (y := main_v334) (by decide), LibAfter.single_sub (y := main_v335) (by decide), LibAfter.single_sub (y := main_v336) (by decide), LibAfter.single_sub (y := main_v337) (by decide), LibAfter.single_sub (y := main_v338) (by decide), LibAfter.single_sub (y := main_v339) (by decide), LibAfter.single_sub (y := main_v340) (by decide), LibAfter.single_sub (y := main_v341) (by decide), LibAfter.single_sub (y := main_v342) (by decide), LibAfter.single_sub (y := main_v343) (by decide), LibAfter.single_sub (y := main_v344) (by decide), LibAfter.single_sub (y := main_v345) (by decide), LibAfter.single_sub (y := main_v346) (by decide), LibAfter.single_sub (y := main_v347) (by decide), LibAfter.single_sub (y := main_v348) (by decide), LibAfter.single_sub (y := main_v349) (by decide), LibAfter.single_sub (y := main_v350) (by decide), LibAfter.single_sub (y := main_v351) (by decide), LibAfter.single_sub (y := main_v352) (by decide), LibAfter.single_sub (y := main_v353) (by decide), LibAfter.single_sub (y := main_v354) (by decide), LibAfter.single_sub (y := main_v355) (by decide), LibAfter.single_sub (y := main_v356) (by decide), LibAfter.single_sub (y := main_v357) (by decide), LibAfter.single_sub (y := main_v358) (by decide), LibAfter.single_sub (y := main_v359) (by decide), LibAfter.single_sub (y := main_v360) (by decide), LibAfter.single_sub (y := main_v361) (by decide), LibAfter.single_sub (y := main_v362) (by decide), LibAfter.single_sub (y := main_v363) (by decide), LibAfter.single_sub (y := main_v364) (by decide), LibAfter.single_sub (y := main_v365) (by decide), LibAfter.single_sub (y := main_v366) (by decide), LibAfter.single_sub (y := main_v367) (by decide), LibAfter.single_sub (y := main_v368) (by decide)⟩

/-- The references line 27 (main_part7_ops0) writes, in order. -/
abbrev Wl27 : List (Ref sig .tc) := [main_v369, main_v370, main_v371, main_v372, main_v373, main_v374, main_v375, main_v376, main_v377, main_v378, main_v379, main_v380, main_v381, main_v382, main_v383, main_v384, main_v385, main_v386, main_v387, main_v388, main_v389, main_v390, main_v391, main_v392, main_v393, main_v394, main_v395, main_v396, main_v397, main_v398, main_v399, main_v400, main_v401, main_v402, main_v403, main_v404, main_v405, main_v406, main_v407, main_v408, main_v409, main_v410, main_v411, main_v412, main_v413, main_v414, main_v415, main_v416, main_v417, main_v418, main_v419, main_v420, main_v421, main_v422, main_v423, main_v424, main_v425, main_v426, main_v427, main_v428]
theorem hW27 : (main_part7_ops0 : List (HloOp τ sig (Elt F))).Forall fun op => op.writes ⊆ (Wl27.map (Proc.devRef (τ := τ) .tc)).toFinset :=
  ⟨LibAfter.single_sub (y := main_v369) (by decide), LibAfter.single_sub (y := main_v370) (by decide), LibAfter.single_sub (y := main_v371) (by decide), LibAfter.single_sub (y := main_v372) (by decide), LibAfter.single_sub (y := main_v373) (by decide), LibAfter.single_sub (y := main_v374) (by decide), LibAfter.single_sub (y := main_v375) (by decide), LibAfter.single_sub (y := main_v376) (by decide), LibAfter.single_sub (y := main_v377) (by decide), LibAfter.single_sub (y := main_v378) (by decide), LibAfter.single_sub (y := main_v379) (by decide), LibAfter.single_sub (y := main_v380) (by decide), LibAfter.single_sub (y := main_v381) (by decide), LibAfter.single_sub (y := main_v382) (by decide), LibAfter.single_sub (y := main_v383) (by decide), LibAfter.single_sub (y := main_v384) (by decide), LibAfter.single_sub (y := main_v385) (by decide), LibAfter.single_sub (y := main_v386) (by decide), LibAfter.single_sub (y := main_v387) (by decide), LibAfter.single_sub (y := main_v388) (by decide), LibAfter.single_sub (y := main_v389) (by decide), LibAfter.single_sub (y := main_v390) (by decide), LibAfter.single_sub (y := main_v391) (by decide), LibAfter.single_sub (y := main_v392) (by decide), LibAfter.single_sub (y := main_v393) (by decide), LibAfter.single_sub (y := main_v394) (by decide), LibAfter.single_sub (y := main_v395) (by decide), LibAfter.single_sub (y := main_v396) (by decide), LibAfter.single_sub (y := main_v397) (by decide), LibAfter.single_sub (y := main_v398) (by decide), LibAfter.single_sub (y := main_v399) (by decide), LibAfter.single_sub (y := main_v400) (by decide), LibAfter.single_sub (y := main_v401) (by decide), LibAfter.single_sub (y := main_v402) (by decide), LibAfter.single_sub (y := main_v403) (by decide), LibAfter.single_sub (y := main_v404) (by decide), LibAfter.single_sub (y := main_v405) (by decide), LibAfter.single_sub (y := main_v406) (by decide), LibAfter.single_sub (y := main_v407) (by decide), LibAfter.single_sub (y := main_v408) (by decide), LibAfter.single_sub (y := main_v409) (by decide), LibAfter.single_sub (y := main_v410) (by decide), LibAfter.single_sub (y := main_v411) (by decide), LibAfter.single_sub (y := main_v412) (by decide), LibAfter.single_sub (y := main_v413) (by decide), LibAfter.single_sub (y := main_v414) (by decide), LibAfter.single_sub (y := main_v415) (by decide), LibAfter.single_sub (y := main_v416) (by decide), LibAfter.single_sub (y := main_v417) (by decide), LibAfter.single_sub (y := main_v418) (by decide), LibAfter.single_sub (y := main_v419) (by decide), LibAfter.single_sub (y := main_v420) (by decide), LibAfter.single_sub (y := main_v421) (by decide), LibAfter.single_sub (y := main_v422) (by decide), LibAfter.single_sub (y := main_v423) (by decide), LibAfter.single_sub (y := main_v424) (by decide), LibAfter.single_sub (y := main_v425) (by decide), LibAfter.single_sub (y := main_v426) (by decide), LibAfter.single_sub (y := main_v427) (by decide), LibAfter.single_sub (y := main_v428) (by decide)⟩

/-- The references line 28 (main_part8_ops0) writes, in order. -/
abbrev Wl28 : List (Ref sig .tc) := [main_v429, main_v430, main_v431, main_v432, main_v433, main_v434, main_v435, main_v436, main_v437, main_v438, main_v439, main_v440, main_v441, main_v442, main_v443, main_v444, main_v445, main_v446, main_v447, main_v448, main_v449, main_v450, main_v451, main_v452, main_v453, main_v454, main_v455, main_v456, main_v457, main_v458, main_v459, main_v460, main_v461, main_v462, main_v463, main_v464, main_v465, main_v466, main_v467, main_v468, main_v469, main_v470, main_v471, main_v472, main_v473, main_v474, main_v475, main_v476, main_v477, main_v478, main_v479, main_v480, main_v481, main_v482, main_v483, main_v484, main_v485, main_v486, main_v487, main_v488]
theorem hW28 : (main_part8_ops0 : List (HloOp τ sig (Elt F))).Forall fun op => op.writes ⊆ (Wl28.map (Proc.devRef (τ := τ) .tc)).toFinset :=
  ⟨LibAfter.single_sub (y := main_v429) (by decide), LibAfter.single_sub (y := main_v430) (by decide), LibAfter.single_sub (y := main_v431) (by decide), LibAfter.single_sub (y := main_v432) (by decide), LibAfter.single_sub (y := main_v433) (by decide), LibAfter.single_sub (y := main_v434) (by decide), LibAfter.single_sub (y := main_v435) (by decide), LibAfter.single_sub (y := main_v436) (by decide), LibAfter.single_sub (y := main_v437) (by decide), LibAfter.single_sub (y := main_v438) (by decide), LibAfter.single_sub (y := main_v439) (by decide), LibAfter.single_sub (y := main_v440) (by decide), LibAfter.single_sub (y := main_v441) (by decide), LibAfter.single_sub (y := main_v442) (by decide), LibAfter.single_sub (y := main_v443) (by decide), LibAfter.single_sub (y := main_v444) (by decide), LibAfter.single_sub (y := main_v445) (by decide), LibAfter.single_sub (y := main_v446) (by decide), LibAfter.single_sub (y := main_v447) (by decide), LibAfter.single_sub (y := main_v448) (by decide), LibAfter.single_sub (y := main_v449) (by decide), LibAfter.single_sub (y := main_v450) (by decide), LibAfter.single_sub (y := main_v451) (by decide), LibAfter.single_sub (y := main_v452) (by decide), LibAfter.single_sub (y := main_v453) (by decide), LibAfter.single_sub (y := main_v454) (by decide), LibAfter.single_sub (y := main_v455) (by decide), LibAfter.single_sub (y := main_v456) (by decide), LibAfter.single_sub (y := main_v457) (by decide), LibAfter.single_sub (y := main_v458) (by decide), LibAfter.single_sub (y := main_v459) (by decide), LibAfter.single_sub (y := main_v460) (by decide), LibAfter.single_sub (y := main_v461) (by decide), LibAfter.single_sub (y := main_v462) (by decide), LibAfter.single_sub (y := main_v463) (by decide), LibAfter.single_sub (y := main_v464) (by decide), LibAfter.single_sub (y := main_v465) (by decide), LibAfter.single_sub (y := main_v466) (by decide), LibAfter.single_sub (y := main_v467) (by decide), LibAfter.single_sub (y := main_v468) (by decide), LibAfter.single_sub (y := main_v469) (by decide), LibAfter.single_sub (y := main_v470) (by decide), LibAfter.single_sub (y := main_v471) (by decide), LibAfter.single_sub (y := main_v472) (by decide), LibAfter.single_sub (y := main_v473) (by decide), LibAfter.single_sub (y := main_v474) (by decide), LibAfter.single_sub (y := main_v475) (by decide), LibAfter.single_sub (y := main_v476) (by decide), LibAfter.single_sub (y := main_v477) (by decide), LibAfter.single_sub (y := main_v478) (by decide), LibAfter.single_sub (y := main_v479) (by decide), LibAfter.single_sub (y := main_v480) (by decide), LibAfter.single_sub (y := main_v481) (by decide), LibAfter.single_sub (y := main_v482) (by decide), LibAfter.single_sub (y := main_v483) (by decide), LibAfter.single_sub (y := main_v484) (by decide), LibAfter.single_sub (y := main_v485) (by decide), LibAfter.single_sub (y := main_v486) (by decide), LibAfter.single_sub (y := main_v487) (by decide), LibAfter.single_sub (y := main_v488) (by decide)⟩

/-- The references line 29 (main_part9_ops0) writes, in order. -/
abbrev Wl29 : List (Ref sig .tc) := [main_v489, main_v490, main_v491, main_v492, main_v493, main_v494, main_v495, main_v496, main_v497, main_v498, main_v499, main_v500, main_v501, main_v502, main_v503, main_v504, main_v505, main_v506, main_v507, main_v508, main_v509, main_v510, main_v511, main_v512, main_v513, main_v514, main_v515, main_v516, main_v517, main_v518, main_v519, main_v520, main_v521, main_v522, main_v523, main_v524, main_v525, main_v526, main_v527, main_v528, main_v529, main_v530, main_v531, main_v532, main_v533, main_v534, main_v535, main_v536, main_v537, main_v538, main_v539, main_v540, main_v541, main_v542, main_v543, main_v544, main_v545, main_v546, main_v547, main_v548]
theorem hW29 : (main_part9_ops0 : List (HloOp τ sig (Elt F))).Forall fun op => op.writes ⊆ (Wl29.map (Proc.devRef (τ := τ) .tc)).toFinset :=
  ⟨LibAfter.single_sub (y := main_v489) (by decide), LibAfter.single_sub (y := main_v490) (by decide), LibAfter.single_sub (y := main_v491) (by decide), LibAfter.single_sub (y := main_v492) (by decide), LibAfter.single_sub (y := main_v493) (by decide), LibAfter.single_sub (y := main_v494) (by decide), LibAfter.single_sub (y := main_v495) (by decide), LibAfter.single_sub (y := main_v496) (by decide), LibAfter.single_sub (y := main_v497) (by decide), LibAfter.single_sub (y := main_v498) (by decide), LibAfter.single_sub (y := main_v499) (by decide), LibAfter.single_sub (y := main_v500) (by decide), LibAfter.single_sub (y := main_v501) (by decide), LibAfter.single_sub (y := main_v502) (by decide), LibAfter.single_sub (y := main_v503) (by decide), LibAfter.single_sub (y := main_v504) (by decide), LibAfter.single_sub (y := main_v505) (by decide), LibAfter.single_sub (y := main_v506) (by decide), LibAfter.single_sub (y := main_v507) (by decide), LibAfter.single_sub (y := main_v508) (by decide), LibAfter.single_sub (y := main_v509) (by decide), LibAfter.single_sub (y := main_v510) (by decide), LibAfter.single_sub (y := main_v511) (by decide), LibAfter.single_sub (y := main_v512) (by decide), LibAfter.single_sub (y := main_v513) (by decide), LibAfter.single_sub (y := main_v514) (by decide), LibAfter.single_sub (y := main_v515) (by decide), LibAfter.single_sub (y := main_v516) (by decide), LibAfter.single_sub (y := main_v517) (by decide), LibAfter.single_sub (y := main_v518) (by decide), LibAfter.single_sub (y := main_v519) (by decide), LibAfter.single_sub (y := main_v520) (by decide), LibAfter.single_sub (y := main_v521) (by decide), LibAfter.single_sub (y := main_v522) (by decide), LibAfter.single_sub (y := main_v523) (by decide), LibAfter.single_sub (y := main_v524) (by decide), LibAfter.single_sub (y := main_v525) (by decide), LibAfter.single_sub (y := main_v526) (by decide), LibAfter.single_sub (y := main_v527) (by decide), LibAfter.single_sub (y := main_v528) (by decide), LibAfter.single_sub (y := main_v529) (by decide), LibAfter.single_sub (y := main_v530) (by decide), LibAfter.single_sub (y := main_v531) (by decide), LibAfter.single_sub (y := main_v532) (by decide), LibAfter.single_sub (y := main_v533) (by decide), LibAfter.single_sub (y := main_v534) (by decide), LibAfter.single_sub (y := main_v535) (by decide), LibAfter.single_sub (y := main_v536) (by decide), LibAfter.single_sub (y := main_v537) (by decide), LibAfter.single_sub (y := main_v538) (by decide), LibAfter.single_sub (y := main_v539) (by decide), LibAfter.single_sub (y := main_v540) (by decide), LibAfter.single_sub (y := main_v541) (by decide), LibAfter.single_sub (y := main_v542) (by decide), LibAfter.single_sub (y := main_v543) (by decide), LibAfter.single_sub (y := main_v544) (by decide), LibAfter.single_sub (y := main_v545) (by decide), LibAfter.single_sub (y := main_v546) (by decide), LibAfter.single_sub (y := main_v547) (by decide), LibAfter.single_sub (y := main_v548) (by decide)⟩

/-- The references line 30 (main_part10_ops0) writes, in order. -/
abbrev Wl30 : List (Ref sig .tc) := [main_v549, main_v550, main_v551, main_v552, main_v553, main_v554, main_v555, main_v556, main_v557, main_v558, main_v559, main_v560, main_v561, main_v562, main_v563, main_v564, main_cst_49, main_v565, main_c_50, main_v566, main_v567, main_c_51, main_v568, main_v569, main_c_52, main_v570, main_v571, main_c_53, main_v572, main_v573, main_v574, main_c_54, main_v575, main_v576, main_c_55, main_v577, main_v578, main_v579, main_c_56, main_v580, main_v581, main_v582, main_v583, main_c_57, main_v584, main_v585, main_c_58, main_v586, main_v587, main_v588, main_v589, main_v590, main_v591, main_v592, main_v593, main_c_59, main_v594, main_v595, main_c_60, main_v596]
theorem hW30 : (main_part10_ops0 : List (HloOp τ sig (Elt F))).Forall fun op => op.writes ⊆ (Wl30.map (Proc.devRef (τ := τ) .tc)).toFinset :=
  ⟨LibAfter.single_sub (y := main_v549) (by decide), LibAfter.single_sub (y := main_v550) (by decide), LibAfter.single_sub (y := main_v551) (by decide), LibAfter.single_sub (y := main_v552) (by decide), LibAfter.single_sub (y := main_v553) (by decide), LibAfter.single_sub (y := main_v554) (by decide), LibAfter.single_sub (y := main_v555) (by decide), LibAfter.single_sub (y := main_v556) (by decide), LibAfter.single_sub (y := main_v557) (by decide), LibAfter.single_sub (y := main_v558) (by decide), LibAfter.single_sub (y := main_v559) (by decide), LibAfter.single_sub (y := main_v560) (by decide), LibAfter.single_sub (y := main_v561) (by decide), LibAfter.single_sub (y := main_v562) (by decide), LibAfter.single_sub (y := main_v563) (by decide), LibAfter.single_sub (y := main_v564) (by decide), LibAfter.single_sub (y := main_cst_49) (by decide), LibAfter.single_sub (y := main_v565) (by decide), LibAfter.single_sub (y := main_c_50) (by decide), LibAfter.single_sub (y := main_v566) (by decide), LibAfter.single_sub (y := main_v567) (by decide), LibAfter.single_sub (y := main_c_51) (by decide), LibAfter.single_sub (y := main_v568) (by decide), LibAfter.single_sub (y := main_v569) (by decide), LibAfter.single_sub (y := main_c_52) (by decide), LibAfter.single_sub (y := main_v570) (by decide), LibAfter.single_sub (y := main_v571) (by decide), LibAfter.single_sub (y := main_c_53) (by decide), LibAfter.single_sub (y := main_v572) (by decide), LibAfter.single_sub (y := main_v573) (by decide), LibAfter.single_sub (y := main_v574) (by decide), LibAfter.single_sub (y := main_c_54) (by decide), LibAfter.single_sub (y := main_v575) (by decide), LibAfter.single_sub (y := main_v576) (by decide), LibAfter.single_sub (y := main_c_55) (by decide), LibAfter.single_sub (y := main_v577) (by decide), LibAfter.single_sub (y := main_v578) (by decide), LibAfter.single_sub (y := main_v579) (by decide), LibAfter.single_sub (y := main_c_56) (by decide), LibAfter.single_sub (y := main_v580) (by decide), LibAfter.single_sub (y := main_v581) (by decide), LibAfter.single_sub (y := main_v582) (by decide), LibAfter.single_sub (y := main_v583) (by decide), LibAfter.single_sub (y := main_c_57) (by decide), LibAfter.single_sub (y := main_v584) (by decide), LibAfter.single_sub (y := main_v585) (by decide), LibAfter.single_sub (y := main_c_58) (by decide), LibAfter.single_sub (y := main_v586) (by decide), LibAfter.single_sub (y := main_v587) (by decide), LibAfter.single_sub (y := main_v588) (by decide), LibAfter.single_sub (y := main_v589) (by decide), LibAfter.single_sub (y := main_v590) (by decide), LibAfter.single_sub (y := main_v591) (by decide), LibAfter.single_sub (y := main_v592) (by decide), LibAfter.single_sub (y := main_v593) (by decide), LibAfter.single_sub (y := main_c_59) (by decide), LibAfter.single_sub (y := main_v594) (by decide), LibAfter.single_sub (y := main_v595) (by decide), LibAfter.single_sub (y := main_c_60) (by decide), LibAfter.single_sub (y := main_v596) (by decide)⟩

/-- The references line 31 (main_part11_ops0) writes, in order. -/
abbrev Wl31 : List (Ref sig .tc) := [main_v597, main_c_61, main_v598, main_v599, main_c_62, main_v600, main_v601, main_v602, main_c_63, main_v603, main_v604, main_c_64, main_v605, main_v606, main_v607, main_c_65, main_v608, main_v609, main_v610, main_v611, main_c_66, main_v612, main_v613, main_c_67, main_v614, main_v615, main_v616, main_v617, main_v618, main_v619, main_v620, main_v621, main_c_68, main_v622, main_v623, main_c_69, main_v624, main_v625, main_c_70, main_v626, main_v627, main_c_71, main_v628, main_v629, main_v630, main_c_72, main_v631, main_v632, main_c_73, main_v633, main_v634, main_v635, main_c_74, main_v636, main_v637, main_v638, main_v639, main_c_75, main_v640, main_v641]
theorem hW31 : (main_part11_ops0 : List (HloOp τ sig (Elt F))).Forall fun op => op.writes ⊆ (Wl31.map (Proc.devRef (τ := τ) .tc)).toFinset :=
  ⟨LibAfter.single_sub (y := main_v597) (by decide), LibAfter.single_sub (y := main_c_61) (by decide), LibAfter.single_sub (y := main_v598) (by decide), LibAfter.single_sub (y := main_v599) (by decide), LibAfter.single_sub (y := main_c_62) (by decide), LibAfter.single_sub (y := main_v600) (by decide), LibAfter.single_sub (y := main_v601) (by decide), LibAfter.single_sub (y := main_v602) (by decide), LibAfter.single_sub (y := main_c_63) (by decide), LibAfter.single_sub (y := main_v603) (by decide), LibAfter.single_sub (y := main_v604) (by decide), LibAfter.single_sub (y := main_c_64) (by decide), LibAfter.single_sub (y := main_v605) (by decide), LibAfter.single_sub (y := main_v606) (by decide), LibAfter.single_sub (y := main_v607) (by decide), LibAfter.single_sub (y := main_c_65) (by decide), LibAfter.single_sub (y := main_v608) (by decide), LibAfter.single_sub (y := main_v609) (by decide), LibAfter.single_sub (y := main_v610) (by decide), LibAfter.single_sub (y := main_v611) (by decide), LibAfter.single_sub (y := main_c_66) (by decide), LibAfter.single_sub (y := main_v612) (by decide), LibAfter.single_sub (y := main_v613) (by decide), LibAfter.single_sub (y := main_c_67) (by decide), LibAfter.single_sub (y := main_v614) (by decide), LibAfter.single_sub (y := main_v615) (by decide), LibAfter.single_sub (y := main_v616) (by decide), LibAfter.single_sub (y := main_v617) (by decide), LibAfter.single_sub (y := main_v618) (by decide), LibAfter.single_sub (y := main_v619) (by decide), LibAfter.single_sub (y := main_v620) (by decide), LibAfter.single_sub (y := main_v621) (by decide), LibAfter.single_sub (y := main_c_68) (by decide), LibAfter.single_sub (y := main_v622) (by decide), LibAfter.single_sub (y := main_v623) (by decide), LibAfter.single_sub (y := main_c_69) (by decide), LibAfter.single_sub (y := main_v624) (by decide), LibAfter.single_sub (y := main_v625) (by decide), LibAfter.single_sub (y := main_c_70) (by decide), LibAfter.single_sub (y := main_v626) (by decide), LibAfter.single_sub (y := main_v627) (by decide), LibAfter.single_sub (y := main_c_71) (by decide), LibAfter.single_sub (y := main_v628) (by decide), LibAfter.single_sub (y := main_v629) (by decide), LibAfter.single_sub (y := main_v630) (by decide), LibAfter.single_sub (y := main_c_72) (by decide), LibAfter.single_sub (y := main_v631) (by decide), LibAfter.single_sub (y := main_v632) (by decide), LibAfter.single_sub (y := main_c_73) (by decide), LibAfter.single_sub (y := main_v633) (by decide), LibAfter.single_sub (y := main_v634) (by decide), LibAfter.single_sub (y := main_v635) (by decide), LibAfter.single_sub (y := main_c_74) (by decide), LibAfter.single_sub (y := main_v636) (by decide), LibAfter.single_sub (y := main_v637) (by decide), LibAfter.single_sub (y := main_v638) (by decide), LibAfter.single_sub (y := main_v639) (by decide), LibAfter.single_sub (y := main_c_75) (by decide), LibAfter.single_sub (y := main_v640) (by decide), LibAfter.single_sub (y := main_v641) (by decide)⟩

/-- The references line 32 (main_part12_ops0) writes, in order. -/
abbrev Wl32 : List (Ref sig .tc) := [main_c_76, main_v642, main_v643, main_v644, main_v645, main_v646, main_v647, main_v648, main_v649, main_c_77, main_v650, main_v651, main_c_78, main_v652, main_v653, main_c_79, main_v654, main_v655, main_c_80, main_v656, main_v657, main_v658, main_c_81, main_v659, main_v660, main_c_82, main_v661, main_v662, main_v663, main_c_83, main_v664, main_v665, main_v666, main_v667, main_c_84, main_v668, main_v669, main_c_85, main_v670, main_v671, main_v672, main_v673, main_v674, main_v675, main_v676, main_v677, main_c_86, main_v678, main_v679, main_c_87, main_v680, main_v681, main_c_88, main_v682, main_v683, main_c_89, main_v684, main_v685, main_v686, main_c_90]
theorem hW32 : (main_part12_ops0 : List (HloOp τ sig (Elt F))).Forall fun op => op.writes ⊆ (Wl32.map (Proc.devRef (τ := τ) .tc)).toFinset :=
  ⟨LibAfter.single_sub (y := main_c_76) (by decide), LibAfter.single_sub (y := main_v642) (by decide), LibAfter.single_sub (y := main_v643) (by decide), LibAfter.single_sub (y := main_v644) (by decide), LibAfter.single_sub (y := main_v645) (by decide), LibAfter.single_sub (y := main_v646) (by decide), LibAfter.single_sub (y := main_v647) (by decide), LibAfter.single_sub (y := main_v648) (by decide), LibAfter.single_sub (y := main_v649) (by decide), LibAfter.single_sub (y := main_c_77) (by decide), LibAfter.single_sub (y := main_v650) (by decide), LibAfter.single_sub (y := main_v651) (by decide), LibAfter.single_sub (y := main_c_78) (by decide), LibAfter.single_sub (y := main_v652) (by decide), LibAfter.single_sub (y := main_v653) (by decide), LibAfter.single_sub (y := main_c_79) (by decide), LibAfter.single_sub (y := main_v654) (by decide), LibAfter.single_sub (y := main_v655) (by decide), LibAfter.single_sub (y := main_c_80) (by decide), LibAfter.single_sub (y := main_v656) (by decide), LibAfter.single_sub (y := main_v657) (by decide), LibAfter.single_sub (y := main_v658) (by decide), LibAfter.single_sub (y := main_c_81) (by decide), LibAfter.single_sub (y := main_v659) (by decide), LibAfter.single_sub (y := main_v660) (by decide), LibAfter.single_sub (y := main_c_82) (by decide), LibAfter.single_sub (y := main_v661) (by decide), LibAfter.single_sub (y := main_v662) (by decide), LibAfter.single_sub (y := main_v663) (by decide), LibAfter.single_sub (y := main_c_83) (by decide), LibAfter.single_sub (y := main_v664) (by decide), LibAfter.single_sub (y := main_v665) (by decide), LibAfter.single_sub (y := main_v666) (by decide), LibAfter.single_sub (y := main_v667) (by decide), LibAfter.single_sub (y := main_c_84) (by decide), LibAfter.single_sub (y := main_v668) (by decide), LibAfter.single_sub (y := main_v669) (by decide), LibAfter.single_sub (y := main_c_85) (by decide), LibAfter.single_sub (y := main_v670) (by decide), LibAfter.single_sub (y := main_v671) (by decide), LibAfter.single_sub (y := main_v672) (by decide), LibAfter.single_sub (y := main_v673) (by decide), LibAfter.single_sub (y := main_v674) (by decide), LibAfter.single_sub (y := main_v675) (by decide), LibAfter.single_sub (y := main_v676) (by decide), LibAfter.single_sub (y := main_v677) (by decide), LibAfter.single_sub (y := main_c_86) (by decide), LibAfter.single_sub (y := main_v678) (by decide), LibAfter.single_sub (y := main_v679) (by decide), LibAfter.single_sub (y := main_c_87) (by decide), LibAfter.single_sub (y := main_v680) (by decide), LibAfter.single_sub (y := main_v681) (by decide), LibAfter.single_sub (y := main_c_88) (by decide), LibAfter.single_sub (y := main_v682) (by decide), LibAfter.single_sub (y := main_v683) (by decide), LibAfter.single_sub (y := main_c_89) (by decide), LibAfter.single_sub (y := main_v684) (by decide), LibAfter.single_sub (y := main_v685) (by decide), LibAfter.single_sub (y := main_v686) (by decide), LibAfter.single_sub (y := main_c_90) (by decide)⟩

/-- The references line 33 (main_part13_ops0) writes, in order. -/
abbrev Wl33 : List (Ref sig .tc) := [main_v687, main_v688, main_c_91, main_v689, main_v690, main_v691, main_c_92, main_v692, main_v693, main_v694, main_v695, main_c_93, main_v696, main_v697, main_c_94, main_v698, main_v699, main_v700, main_v701, main_v702, main_v703, main_v704, main_v705, main_c_95, main_v706, main_v707, main_c_96, main_v708, main_v709, main_c_97, main_v710, main_v711, main_c_98, main_v712, main_v713, main_v714, main_c_99, main_v715, main_v716, main_c_100, main_v717, main_v718, main_v719, main_c_101, main_v720, main_v721, main_v722, main_v723, main_c_102, main_v724, main_v725, main_c_103, main_v726, main_v727, main_v728, main_v729, main_v730, main_v731, main_v732, main_v733]
theorem hW33 : (main_part13_ops0 : List (HloOp τ sig (Elt F))).Forall fun op => op.writes ⊆ (Wl33.map (Proc.devRef (τ := τ) .tc)).toFinset :=
  ⟨LibAfter.single_sub (y := main_v687) (by decide), LibAfter.single_sub (y := main_v688) (by decide), LibAfter.single_sub (y := main_c_91) (by decide), LibAfter.single_sub (y := main_v689) (by decide), LibAfter.single_sub (y := main_v690) (by decide), LibAfter.single_sub (y := main_v691) (by decide), LibAfter.single_sub (y := main_c_92) (by decide), LibAfter.single_sub (y := main_v692) (by decide), LibAfter.single_sub (y := main_v693) (by decide), LibAfter.single_sub (y := main_v694) (by decide), LibAfter.single_sub (y := main_v695) (by decide), LibAfter.single_sub (y := main_c_93) (by decide), LibAfter.single_sub (y := main_v696) (by decide), LibAfter.single_sub (y := main_v697) (by decide), LibAfter.single_sub (y := main_c_94) (by decide), LibAfter.single_sub (y := main_v698) (by decide), LibAfter.single_sub (y := main_v699) (by decide), LibAfter.single_sub (y := main_v700) (by decide), LibAfter.single_sub (y := main_v701) (by decide), LibAfter.single_sub (y := main_v702) (by decide), LibAfter.single_sub (y := main_v703) (by decide), LibAfter.single_sub (y := main_v704) (by decide), LibAfter.single_sub (y := main_v705) (by decide), LibAfter.single_sub (y := main_c_95) (by decide), LibAfter.single_sub (y := main_v706) (by decide), LibAfter.single_sub (y := main_v707) (by decide), LibAfter.single_sub (y := main_c_96) (by decide), LibAfter.single_sub (y := main_v708) (by decide), LibAfter.single_sub (y := main_v709) (by decide), LibAfter.single_sub (y := main_c_97) (by decide), LibAfter.single_sub (y := main_v710) (by decide), LibAfter.single_sub (y := main_v711) (by decide), LibAfter.single_sub (y := main_c_98) (by decide), LibAfter.single_sub (y := main_v712) (by decide), LibAfter.single_sub (y := main_v713) (by decide), LibAfter.single_sub (y := main_v714) (by decide), LibAfter.single_sub (y := main_c_99) (by decide), LibAfter.single_sub (y := main_v715) (by decide), LibAfter.single_sub (y := main_v716) (by decide), LibAfter.single_sub (y := main_c_100) (by decide), LibAfter.single_sub (y := main_v717) (by decide), LibAfter.single_sub (y := main_v718) (by decide), LibAfter.single_sub (y := main_v719) (by decide), LibAfter.single_sub (y := main_c_101) (by decide), LibAfter.single_sub (y := main_v720) (by decide), LibAfter.single_sub (y := main_v721) (by decide), LibAfter.single_sub (y := main_v722) (by decide), LibAfter.single_sub (y := main_v723) (by decide), LibAfter.single_sub (y := main_c_102) (by decide), LibAfter.single_sub (y := main_v724) (by decide), LibAfter.single_sub (y := main_v725) (by decide), LibAfter.single_sub (y := main_c_103) (by decide), LibAfter.single_sub (y := main_v726) (by decide), LibAfter.single_sub (y := main_v727) (by decide), LibAfter.single_sub (y := main_v728) (by decide), LibAfter.single_sub (y := main_v729) (by decide), LibAfter.single_sub (y := main_v730) (by decide), LibAfter.single_sub (y := main_v731) (by decide), LibAfter.single_sub (y := main_v732) (by decide), LibAfter.single_sub (y := main_v733) (by decide)⟩

/-- The references line 34 (main_part14_ops0) writes, in order. -/
abbrev Wl34 : List (Ref sig .tc) := [main_c_104, main_v734, main_v735, main_c_105, main_v736, main_v737, main_c_106, main_v738, main_v739, main_c_107, main_v740, main_v741, main_v742, main_c_108, main_v743, main_v744, main_c_109, main_v745, main_v746, main_v747, main_c_110, main_v748, main_v749, main_v750, main_v751, main_c_111, main_v752, main_v753, main_c_112, main_v754, main_v755, main_v756, main_v757, main_v758, main_v759, main_v760, main_v761, main_c_113, main_v762, main_v763, main_c_114, main_v764, main_v765, main_c_115, main_v766, main_v767, main_c_116, main_v768, main_v769, main_v770, main_c_117, main_v771, main_v772, main_c_118, main_v773, main_v774, main_v775, main_c_119, main_v776, main_v777]
theorem hW34 : (main_part14_ops0 : List (HloOp τ sig (Elt F))).Forall fun op => op.writes ⊆ (Wl34.map (Proc.devRef (τ := τ) .tc)).toFinset :=
  ⟨LibAfter.single_sub (y := main_c_104) (by decide), LibAfter.single_sub (y := main_v734) (by decide), LibAfter.single_sub (y := main_v735) (by decide), LibAfter.single_sub (y := main_c_105) (by decide), LibAfter.single_sub (y := main_v736) (by decide), LibAfter.single_sub (y := main_v737) (by decide), LibAfter.single_sub (y := main_c_106) (by decide), LibAfter.single_sub (y := main_v738) (by decide), LibAfter.single_sub (y := main_v739) (by decide), LibAfter.single_sub (y := main_c_107) (by decide), LibAfter.single_sub (y := main_v740) (by decide), LibAfter.single_sub (y := main_v741) (by decide), LibAfter.single_sub (y := main_v742) (by decide), LibAfter.single_sub (y := main_c_108) (by decide), LibAfter.single_sub (y := main_v743) (by decide), LibAfter.single_sub (y := main_v744) (by decide), LibAfter.single_sub (y := main_c_109) (by decide), LibAfter.single_sub (y := main_v745) (by decide), LibAfter.single_sub (y := main_v746) (by decide), LibAfter.single_sub (y := main_v747) (by decide), LibAfter.single_sub (y := main_c_110) (by decide), LibAfter.single_sub (y := main_v748) (by decide), LibAfter.single_sub (y := main_v749) (by decide), LibAfter.single_sub (y := main_v750) (by decide), LibAfter.single_sub (y := main_v751) (by decide), LibAfter.single_sub (y := main_c_111) (by decide), LibAfter.single_sub (y := main_v752) (by decide), LibAfter.single_sub (y := main_v753) (by decide), LibAfter.single_sub (y := main_c_112) (by decide), LibAfter.single_sub (y := main_v754) (by decide), LibAfter.single_sub (y := main_v755) (by decide), LibAfter.single_sub (y := main_v756) (by decide), LibAfter.single_sub (y := main_v757) (by decide), LibAfter.single_sub (y := main_v758) (by decide), LibAfter.single_sub (y := main_v759) (by decide), LibAfter.single_sub (y := main_v760) (by decide), LibAfter.single_sub (y := main_v761) (by decide), LibAfter.single_sub (y := main_c_113) (by decide), LibAfter.single_sub (y := main_v762) (by decide), LibAfter.single_sub (y := main_v763) (by decide), LibAfter.single_sub (y := main_c_114) (by decide), LibAfter.single_sub (y := main_v764) (by decide), LibAfter.single_sub (y := main_v765) (by decide), LibAfter.single_sub (y := main_c_115) (by decide), LibAfter.single_sub (y := main_v766) (by decide), LibAfter.single_sub (y := main_v767) (by decide), LibAfter.single_sub (y := main_c_116) (by decide), LibAfter.single_sub (y := main_v768) (by decide), LibAfter.single_sub (y := main_v769) (by decide), LibAfter.single_sub (y := main_v770) (by decide), LibAfter.single_sub (y := main_c_117) (by decide), LibAfter.single_sub (y := main_v771) (by decide), LibAfter.single_sub (y := main_v772) (by decide), LibAfter.single_sub (y := main_c_118) (by decide), LibAfter.single_sub (y := main_v773) (by decide), LibAfter.single_sub (y := main_v774) (by decide), LibAfter.single_sub (y := main_v775) (by decide), LibAfter.single_sub (y := main_c_119) (by decide), LibAfter.single_sub (y := main_v776) (by decide), LibAfter.single_sub (y := main_v777) (by decide)⟩

/-- The references line 35 (main_part15_ops0) writes, in order. -/
abbrev Wl35 : List (Ref sig .tc) := [main_v778, main_v779, main_c_120, main_v780, main_v781, main_c_121, main_v782, main_v783, main_v784, main_v785, main_v786, main_v787, main_v788, main_v789, main_c_122, main_v790, main_v791, main_c_123, main_v792, main_v793, main_c_124, main_v794, main_v795, main_c_125, main_v796, main_v797, main_v798, main_c_126, main_v799, main_v800, main_c_127, main_v801, main_v802, main_v803, main_c_128, main_v804, main_v805, main_v806, main_v807, main_c_129, main_v808, main_v809, main_c_130, main_v810, main_v811, main_v812, main_v813, main_v814, main_v815, main_v816, main_v817, main_c_131, main_v818, main_v819, main_c_132, main_v820, main_v821, main_c_133, main_v822, main_v823]
theorem hW35 : (main_part15_ops0 : List (HloOp τ sig (Elt F))).Forall fun op => op.writes ⊆ (Wl35.map (Proc.devRef (τ := τ) .tc)).toFinset :=
  ⟨LibAfter.single_sub (y := main_v778) (by decide), LibAfter.single_sub (y := main_v779) (by decide), LibAfter.single_sub (y := main_c_120) (by decide), LibAfter.single_sub (y := main_v780) (by decide), LibAfter.single_sub (y := main_v781) (by decide), LibAfter.single_sub (y := main_c_121) (by decide), LibAfter.single_sub (y := main_v782) (by decide), LibAfter.single_sub (y := main_v783) (by decide), LibAfter.single_sub (y := main_v784) (by decide), LibAfter.single_sub (y := main_v785) (by decide), LibAfter.single_sub (y := main_v786) (by decide), LibAfter.single_sub (y := main_v787) (by decide), LibAfter.single_sub (y := main_v788) (by decide), LibAfter.single_sub (y := main_v789) (by decide), LibAfter.single_sub (y := main_c_122) (by decide), LibAfter.single_sub (y := main_v790) (by decide), LibAfter.single_sub (y := main_v791) (by decide), LibAfter.single_sub (y := main_c_123) (by decide), LibAfter.single_sub (y := main_v792) (by decide), LibAfter.single_sub (y := main_v793) (by decide), LibAfter.single_sub (y := main_c_124) (by decide), LibAfter.single_sub (y := main_v794) (by decide), LibAfter.single_sub (y := main_v795) (by decide), LibAfter.single_sub (y := main_c_125) (by decide), LibAfter.single_sub (y := main_v796) (by decide), LibAfter.single_sub (y := main_v797) (by decide), LibAfter.single_sub (y := main_v798) (by decide), LibAfter.single_sub (y := main_c_126) (by decide), LibAfter.single_sub (y := main_v799) (by decide), LibAfter.single_sub (y := main_v800) (by decide), LibAfter.single_sub (y := main_c_127) (by decide), LibAfter.single_sub (y := main_v801) (by decide), LibAfter.single_sub (y := main_v802) (by decide), LibAfter.single_sub (y := main_v803) (by decide), LibAfter.single_sub (y := main_c_128) (by decide), LibAfter.single_sub (y := main_v804) (by decide), LibAfter.single_sub (y := main_v805) (by decide), LibAfter.single_sub (y := main_v806) (by decide), LibAfter.single_sub (y := main_v807) (by decide), LibAfter.single_sub (y := main_c_129) (by decide), LibAfter.single_sub (y := main_v808) (by decide), LibAfter.single_sub (y := main_v809) (by decide), LibAfter.single_sub (y := main_c_130) (by decide), LibAfter.single_sub (y := main_v810) (by decide), LibAfter.single_sub (y := main_v811) (by decide), LibAfter.single_sub (y := main_v812) (by decide), LibAfter.single_sub (y := main_v813) (by decide), LibAfter.single_sub (y := main_v814) (by decide), LibAfter.single_sub (y := main_v815) (by decide), LibAfter.single_sub (y := main_v816) (by decide), LibAfter.single_sub (y := main_v817) (by decide), LibAfter.single_sub (y := main_c_131) (by decide), LibAfter.single_sub (y := main_v818) (by decide), LibAfter.single_sub (y := main_v819) (by decide), LibAfter.single_sub (y := main_c_132) (by decide), LibAfter.single_sub (y := main_v820) (by decide), LibAfter.single_sub (y := main_v821) (by decide), LibAfter.single_sub (y := main_c_133) (by decide), LibAfter.single_sub (y := main_v822) (by decide), LibAfter.single_sub (y := main_v823) (by decide)⟩

/-- The references line 36 (main_part16_ops0) writes, in order. -/
abbrev Wl36 : List (Ref sig .tc) := [main_c_134, main_v824, main_v825, main_v826, main_c_135, main_v827, main_v828, main_c_136, main_v829, main_v830, main_v831, main_c_137, main_v832, main_v833, main_v834, main_v835, main_c_138, main_v836, main_v837, main_c_139, main_v838, main_v839, main_v840, main_v841, main_v842, main_v843, main_v844, main_v845, main_c_140, main_v846, main_v847, main_c_141, main_v848, main_v849, main_c_142, main_v850, main_v851, main_c_143, main_v852, main_v853, main_v854, main_c_144, main_v855, main_v856, main_c_145, main_v857, main_v858, main_v859, main_c_146, main_v860, main_v861, main_v862, main_v863, main_c_147, main_v864, main_v865, main_c_148, main_v866, main_v867, main_v868]
theorem hW36 : (main_part16_ops0 : List (HloOp τ sig (Elt F))).Forall fun op => op.writes ⊆ (Wl36.map (Proc.devRef (τ := τ) .tc)).toFinset :=
  ⟨LibAfter.single_sub (y := main_c_134) (by decide), LibAfter.single_sub (y := main_v824) (by decide), LibAfter.single_sub (y := main_v825) (by decide), LibAfter.single_sub (y := main_v826) (by decide), LibAfter.single_sub (y := main_c_135) (by decide), LibAfter.single_sub (y := main_v827) (by decide), LibAfter.single_sub (y := main_v828) (by decide), LibAfter.single_sub (y := main_c_136) (by decide), LibAfter.single_sub (y := main_v829) (by decide), LibAfter.single_sub (y := main_v830) (by decide), LibAfter.single_sub (y := main_v831) (by decide), LibAfter.single_sub (y := main_c_137) (by decide), LibAfter.single_sub (y := main_v832) (by decide), LibAfter.single_sub (y := main_v833) (by decide), LibAfter.single_sub (y := main_v834) (by decide), LibAfter.single_sub (y := main_v835) (by decide), LibAfter.single_sub (y := main_c_138) (by decide), LibAfter.single_sub (y := main_v836) (by decide), LibAfter.single_sub (y := main_v837) (by decide), LibAfter.single_sub (y := main_c_139) (by decide), LibAfter.single_sub (y := main_v838) (by decide), LibAfter.single_sub (y := main_v839) (by decide), LibAfter.single_sub (y := main_v840) (by decide), LibAfter.single_sub (y := main_v841) (by decide), LibAfter.single_sub (y := main_v842) (by decide), LibAfter.single_sub (y := main_v843) (by decide), LibAfter.single_sub (y := main_v844) (by decide), LibAfter.single_sub (y := main_v845) (by decide), LibAfter.single_sub (y := main_c_140) (by decide), LibAfter.single_sub (y := main_v846) (by decide), LibAfter.single_sub (y := main_v847) (by decide), LibAfter.single_sub (y := main_c_141) (by decide), LibAfter.single_sub (y := main_v848) (by decide), LibAfter.single_sub (y := main_v849) (by decide), LibAfter.single_sub (y := main_c_142) (by decide), LibAfter.single_sub (y := main_v850) (by decide), LibAfter.single_sub (y := main_v851) (by decide), LibAfter.single_sub (y := main_c_143) (by decide), LibAfter.single_sub (y := main_v852) (by decide), LibAfter.single_sub (y := main_v853) (by decide), LibAfter.single_sub (y := main_v854) (by decide), LibAfter.single_sub (y := main_c_144) (by decide), LibAfter.single_sub (y := main_v855) (by decide), LibAfter.single_sub (y := main_v856) (by decide), LibAfter.single_sub (y := main_c_145) (by decide), LibAfter.single_sub (y := main_v857) (by decide), LibAfter.single_sub (y := main_v858) (by decide), LibAfter.single_sub (y := main_v859) (by decide), LibAfter.single_sub (y := main_c_146) (by decide), LibAfter.single_sub (y := main_v860) (by decide), LibAfter.single_sub (y := main_v861) (by decide), LibAfter.single_sub (y := main_v862) (by decide), LibAfter.single_sub (y := main_v863) (by decide), LibAfter.single_sub (y := main_c_147) (by decide), LibAfter.single_sub (y := main_v864) (by decide), LibAfter.single_sub (y := main_v865) (by decide), LibAfter.single_sub (y := main_c_148) (by decide), LibAfter.single_sub (y := main_v866) (by decide), LibAfter.single_sub (y := main_v867) (by decide), LibAfter.single_sub (y := main_v868) (by decide)⟩

/-- The references line 37 (main_part17_ops0) writes, in order. -/
abbrev Wl37 : List (Ref sig .tc) := [main_v869, main_v870, main_v871, main_v872, main_v873, main_c_149, main_v874, main_v875, main_c_150, main_v876, main_v877, main_c_151, main_v878, main_v879, main_c_152, main_v880, main_v881, main_v882, main_c_153, main_v883, main_v884, main_c_154, main_v885, main_v886, main_v887, main_c_155, main_v888, main_v889, main_v890, main_v891, main_c_156, main_v892, main_v893, main_c_157, main_v894, main_v895, main_v896, main_v897, main_v898, main_v899, main_v900, main_v901, main_c_158, main_v902, main_v903, main_c_159, main_v904, main_v905, main_c_160, main_v906, main_v907, main_c_161, main_v908, main_v909, main_v910, main_c_162, main_v911, main_v912, main_c_163, main_v913]
theorem hW37 : (main_part17_ops0 : List (HloOp τ sig (Elt F))).Forall fun op => op.writes ⊆ (Wl37.map (Proc.devRef (τ := τ) .tc)).toFinset :=
  ⟨LibAfter.single_sub (y := main_v869) (by decide), LibAfter.single_sub (y := main_v870) (by decide), LibAfter.single_sub (y := main_v871) (by decide), LibAfter.single_sub (y := main_v872) (by decide), LibAfter.single_sub (y := main_v873) (by decide), LibAfter.single_sub (y := main_c_149) (by decide), LibAfter.single_sub (y := main_v874) (by decide), LibAfter.single_sub (y := main_v875) (by decide), LibAfter.single_sub (y := main_c_150) (by decide), LibAfter.single_sub (y := main_v876) (by decide), LibAfter.single_sub (y := main_v877) (by decide), LibAfter.single_sub (y := main_c_151) (by decide), LibAfter.single_sub (y := main_v878) (by decide), LibAfter.single_sub (y := main_v879) (by decide), LibAfter.single_sub (y := main_c_152) (by decide), LibAfter.single_sub (y := main_v880) (by decide), LibAfter.single_sub (y := main_v881) (by decide), LibAfter.single_sub (y := main_v882) (by decide), LibAfter.single_sub (y := main_c_153) (by decide), LibAfter.single_sub (y := main_v883) (by decide), LibAfter.single_sub (y := main_v884) (by decide), LibAfter.single_sub (y := main_c_154) (by decide), LibAfter.single_sub (y := main_v885) (by decide), LibAfter.single_sub (y := main_v886) (by decide), LibAfter.single_sub (y := main_v887) (by decide), LibAfter.single_sub (y := main_c_155) (by decide), LibAfter.single_sub (y := main_v888) (by decide), LibAfter.single_sub (y := main_v889) (by decide), LibAfter.single_sub (y := main_v890) (by decide), LibAfter.single_sub (y := main_v891) (by decide), LibAfter.single_sub (y := main_c_156) (by decide), LibAfter.single_sub (y := main_v892) (by decide), LibAfter.single_sub (y := main_v893) (by decide), LibAfter.single_sub (y := main_c_157) (by decide), LibAfter.single_sub (y := main_v894) (by decide), LibAfter.single_sub (y := main_v895) (by decide), LibAfter.single_sub (y := main_v896) (by decide), LibAfter.single_sub (y := main_v897) (by decide), LibAfter.single_sub (y := main_v898) (by decide), LibAfter.single_sub (y := main_v899) (by decide), LibAfter.single_sub (y := main_v900) (by decide), LibAfter.single_sub (y := main_v901) (by decide), LibAfter.single_sub (y := main_c_158) (by decide), LibAfter.single_sub (y := main_v902) (by decide), LibAfter.single_sub (y := main_v903) (by decide), LibAfter.single_sub (y := main_c_159) (by decide), LibAfter.single_sub (y := main_v904) (by decide), LibAfter.single_sub (y := main_v905) (by decide), LibAfter.single_sub (y := main_c_160) (by decide), LibAfter.single_sub (y := main_v906) (by decide), LibAfter.single_sub (y := main_v907) (by decide), LibAfter.single_sub (y := main_c_161) (by decide), LibAfter.single_sub (y := main_v908) (by decide), LibAfter.single_sub (y := main_v909) (by decide), LibAfter.single_sub (y := main_v910) (by decide), LibAfter.single_sub (y := main_c_162) (by decide), LibAfter.single_sub (y := main_v911) (by decide), LibAfter.single_sub (y := main_v912) (by decide), LibAfter.single_sub (y := main_c_163) (by decide), LibAfter.single_sub (y := main_v913) (by decide)⟩

/-- The references line 38 (main_part18_ops0) writes, in order. -/
abbrev Wl38 : List (Ref sig .tc) := [main_v914, main_v915, main_c_164, main_v916, main_v917, main_v918, main_v919, main_c_165, main_v920, main_v921, main_c_166, main_v922, main_v923, main_v924, main_v925, main_v926, main_v927, main_v928, main_v929, main_c_167, main_v930, main_v931, main_c_168, main_v932, main_v933, main_c_169, main_v934, main_v935, main_c_170, main_v936, main_v937, main_v938, main_c_171, main_v939, main_v940, main_c_172, main_v941, main_v942, main_v943, main_c_173, main_v944, main_v945, main_v946, main_v947, main_c_174, main_v948, main_v949, main_c_175, main_v950, main_v951, main_v952, main_v953, main_v954, main_v955, main_v956, main_v957, main_c_176, main_v958, main_v959, main_c_177]
theorem hW38 : (main_part18_ops0 : List (HloOp τ sig (Elt F))).Forall fun op => op.writes ⊆ (Wl38.map (Proc.devRef (τ := τ) .tc)).toFinset :=
  ⟨LibAfter.single_sub (y := main_v914) (by decide), LibAfter.single_sub (y := main_v915) (by decide), LibAfter.single_sub (y := main_c_164) (by decide), LibAfter.single_sub (y := main_v916) (by decide), LibAfter.single_sub (y := main_v917) (by decide), LibAfter.single_sub (y := main_v918) (by decide), LibAfter.single_sub (y := main_v919) (by decide), LibAfter.single_sub (y := main_c_165) (by decide), LibAfter.single_sub (y := main_v920) (by decide), LibAfter.single_sub (y := main_v921) (by decide), LibAfter.single_sub (y := main_c_166) (by decide), LibAfter.single_sub (y := main_v922) (by decide), LibAfter.single_sub (y := main_v923) (by decide), LibAfter.single_sub (y := main_v924) (by decide), LibAfter.single_sub (y := main_v925) (by decide), LibAfter.single_sub (y := main_v926) (by decide), LibAfter.single_sub (y := main_v927) (by decide), LibAfter.single_sub (y := main_v928) (by decide), LibAfter.single_sub (y := main_v929) (by decide), LibAfter.single_sub (y := main_c_167) (by decide), LibAfter.single_sub (y := main_v930) (by decide), LibAfter.single_sub (y := main_v931) (by decide), LibAfter.single_sub (y := main_c_168) (by decide), LibAfter.single_sub (y := main_v932) (by decide), LibAfter.single_sub (y := main_v933) (by decide), LibAfter.single_sub (y := main_c_169) (by decide), LibAfter.single_sub (y := main_v934) (by decide), LibAfter.single_sub (y := main_v935) (by decide), LibAfter.single_sub (y := main_c_170) (by decide), LibAfter.single_sub (y := main_v936) (by decide), LibAfter.single_sub (y := main_v937) (by decide), LibAfter.single_sub (y := main_v938) (by decide), LibAfter.single_sub (y := main_c_171) (by decide), LibAfter.single_sub (y := main_v939) (by decide), LibAfter.single_sub (y := main_v940) (by decide), LibAfter.single_sub (y := main_c_172) (by decide), LibAfter.single_sub (y := main_v941) (by decide), LibAfter.single_sub (y := main_v942) (by decide), LibAfter.single_sub (y := main_v943) (by decide), LibAfter.single_sub (y := main_c_173) (by decide), LibAfter.single_sub (y := main_v944) (by decide), LibAfter.single_sub (y := main_v945) (by decide), LibAfter.single_sub (y := main_v946) (by decide), LibAfter.single_sub (y := main_v947) (by decide), LibAfter.single_sub (y := main_c_174) (by decide), LibAfter.single_sub (y := main_v948) (by decide), LibAfter.single_sub (y := main_v949) (by decide), LibAfter.single_sub (y := main_c_175) (by decide), LibAfter.single_sub (y := main_v950) (by decide), LibAfter.single_sub (y := main_v951) (by decide), LibAfter.single_sub (y := main_v952) (by decide), LibAfter.single_sub (y := main_v953) (by decide), LibAfter.single_sub (y := main_v954) (by decide), LibAfter.single_sub (y := main_v955) (by decide), LibAfter.single_sub (y := main_v956) (by decide), LibAfter.single_sub (y := main_v957) (by decide), LibAfter.single_sub (y := main_c_176) (by decide), LibAfter.single_sub (y := main_v958) (by decide), LibAfter.single_sub (y := main_v959) (by decide), LibAfter.single_sub (y := main_c_177) (by decide)⟩

/-- The references line 39 (main_part19_ops0) writes, in order. -/
abbrev Wl39 : List (Ref sig .tc) := [main_v960, main_v961, main_c_178, main_v962, main_v963, main_c_179, main_v964, main_v965, main_v966, main_c_180, main_v967, main_v968, main_c_181, main_v969, main_v970, main_v971, main_c_182, main_v972, main_v973, main_v974, main_v975, main_c_183, main_v976, main_v977, main_c_184, main_v978, main_v979, main_v980, main_v981, main_v982, main_v983, main_v984, main_v985, main_c_185, main_v986, main_v987, main_c_186, main_v988, main_v989, main_c_187, main_v990, main_v991, main_c_188, main_v992, main_v993, main_v994, main_c_189, main_v995, main_v996, main_c_190, main_v997, main_v998, main_v999, main_c_191, main_v1000, main_v1001, main_v1002, main_v1003, main_c_192, main_v1004]
theorem hW39 : (main_part19_ops0 : List (HloOp τ sig (Elt F))).Forall fun op => op.writes ⊆ (Wl39.map (Proc.devRef (τ := τ) .tc)).toFinset :=
  ⟨LibAfter.single_sub (y := main_v960) (by decide), LibAfter.single_sub (y := main_v961) (by decide), LibAfter.single_sub (y := main_c_178) (by decide), LibAfter.single_sub (y := main_v962) (by decide), LibAfter.single_sub (y := main_v963) (by decide), LibAfter.single_sub (y := main_c_179) (by decide), LibAfter.single_sub (y := main_v964) (by decide), LibAfter.single_sub (y := main_v965) (by decide), LibAfter.single_sub (y := main_v966) (by decide), LibAfter.single_sub (y := main_c_180) (by decide), LibAfter.single_sub (y := main_v967) (by decide), LibAfter.single_sub (y := main_v968) (by decide), LibAfter.single_sub (y := main_c_181) (by decide), LibAfter.single_sub (y := main_v969) (by decide), LibAfter.single_sub (y := main_v970) (by decide), LibAfter.single_sub (y := main_v971) (by decide), LibAfter.single_sub (y := main_c_182) (by decide), LibAfter.single_sub (y := main_v972) (by decide), LibAfter.single_sub (y := main_v973) (by decide), LibAfter.single_sub (y := main_v974) (by decide), LibAfter.single_sub (y := main_v975) (by decide), LibAfter.single_sub (y := main_c_183) (by decide), LibAfter.single_sub (y := main_v976) (by decide), LibAfter.single_sub (y := main_v977) (by decide), LibAfter.single_sub (y := main_c_184) (by decide), LibAfter.single_sub (y := main_v978) (by decide), LibAfter.single_sub (y := main_v979) (by decide), LibAfter.single_sub (y := main_v980) (by decide), LibAfter.single_sub (y := main_v981) (by decide), LibAfter.single_sub (y := main_v982) (by decide), LibAfter.single_sub (y := main_v983) (by decide), LibAfter.single_sub (y := main_v984) (by decide), LibAfter.single_sub (y := main_v985) (by decide), LibAfter.single_sub (y := main_c_185) (by decide), LibAfter.single_sub (y := main_v986) (by decide), LibAfter.single_sub (y := main_v987) (by decide), LibAfter.single_sub (y := main_c_186) (by decide), LibAfter.single_sub (y := main_v988) (by decide), LibAfter.single_sub (y := main_v989) (by decide), LibAfter.single_sub (y := main_c_187) (by decide), LibAfter.single_sub (y := main_v990) (by decide), LibAfter.single_sub (y := main_v991) (by decide), LibAfter.single_sub (y := main_c_188) (by decide), LibAfter.single_sub (y := main_v992) (by decide), LibAfter.single_sub (y := main_v993) (by decide), LibAfter.single_sub (y := main_v994) (by decide), LibAfter.single_sub (y := main_c_189) (by decide), LibAfter.single_sub (y := main_v995) (by decide), LibAfter.single_sub (y := main_v996) (by decide), LibAfter.single_sub (y := main_c_190) (by decide), LibAfter.single_sub (y := main_v997) (by decide), LibAfter.single_sub (y := main_v998) (by decide), LibAfter.single_sub (y := main_v999) (by decide), LibAfter.single_sub (y := main_c_191) (by decide), LibAfter.single_sub (y := main_v1000) (by decide), LibAfter.single_sub (y := main_v1001) (by decide), LibAfter.single_sub (y := main_v1002) (by decide), LibAfter.single_sub (y := main_v1003) (by decide), LibAfter.single_sub (y := main_c_192) (by decide), LibAfter.single_sub (y := main_v1004) (by decide)⟩

/-- The references line 40 (main_part20_ops0) writes, in order. -/
abbrev Wl40 : List (Ref sig .tc) := [main_v1005, main_c_193, main_v1006, main_v1007, main_v1008, main_v1009, main_v1010, main_v1011, main_v1012, main_v1013, main_cst_194, main_v1014, main_v1015, main_v1016, main_v1017, main_v1018]
theorem hW40 : (main_part20_ops0 : List (HloOp τ sig (Elt F))).Forall fun op => op.writes ⊆ (Wl40.map (Proc.devRef (τ := τ) .tc)).toFinset :=
  ⟨LibAfter.single_sub (y := main_v1005) (by decide), LibAfter.single_sub (y := main_c_193) (by decide), LibAfter.single_sub (y := main_v1006) (by decide), LibAfter.single_sub (y := main_v1007) (by decide), LibAfter.single_sub (y := main_v1008) (by decide), LibAfter.single_sub (y := main_v1009) (by decide), LibAfter.single_sub (y := main_v1010) (by decide), LibAfter.single_sub (y := main_v1011) (by decide), LibAfter.single_sub (y := main_v1012) (by decide), LibAfter.single_sub (y := main_v1013) (by decide), LibAfter.single_sub (y := main_cst_194) (by decide), LibAfter.single_sub (y := main_v1014) (by decide), LibAfter.single_sub (y := main_v1015) (by decide), LibAfter.single_sub (y := main_v1016) (by decide), LibAfter.single_sub (y := main_v1017) (by decide), LibAfter.single_sub (y := main_v1018) (by decide)⟩

/-- Line 1 with each operation's function at the buffers' own types. -/
abbrev main_part0_ops1_plain : List (HloOp τ sig (Elt F)) :=
  [ StableHlo.unary main_v1 main_v2 ((Host.roundeven) : (⟨S83521x16, .f32⟩ : BufTy).Contents (Elt F) → (⟨S83521x16, .f32⟩ : BufTy).Contents (Elt F)) ]
theorem main_part0_ops1_plain_eq : (main_part0_ops1 : List (HloOp τ sig (Elt F))) = main_part0_ops1_plain := by
  chain_rfl

/-- Line 3 with each operation's function at the buffers' own types. -/
abbrev main_part0_ops3_plain : List (HloOp τ sig (Elt F)) :=
  [ StableHlo.unary main_cst_0 main_call1_v0 ((id) : (⟨S_, .f32⟩ : BufTy).Contents (Elt F) → (⟨S_, .f32⟩ : BufTy).Contents (Elt F)),
    StableHlo.unary main_call1_v0 main_call1_v1 (((broadcastInDim S83521x16 ![] bcast_S_S83521x16)) : (⟨S_, .f32⟩ : BufTy).Contents (Elt F) → (⟨S83521x16, .f32⟩ : BufTy).Contents (Elt F)),
    StableHlo.binary main_call1_v1 main_v4 main_call1_v2 ((maximumf) : (⟨S83521x16, .f32⟩ : BufTy).Contents (Elt F) → (⟨S83521x16, .f32⟩ : BufTy).Contents (Elt F) → (⟨S83521x16, .f32⟩ : BufTy).Contents (Elt F)),
    StableHlo.unary main_cst_1 main_call1_v3 ((id) : (⟨S_, .f32⟩ : BufTy).Contents (Elt F) → (⟨S_, .f32⟩ : BufTy).Contents (Elt F)),
    StableHlo.unary main_call1_v3 main_call1_v4 (((broadcastInDim S83521x16 ![] bcast_S_S83521x16)) : (⟨S_, .f32⟩ : BufTy).Contents (Elt F) → (⟨S83521x16, .f32⟩ : BufTy).Contents (Elt F)),
    StableHlo.binary main_call1_v4 main_call1_v2 main_v5 ((minimumf) : (⟨S83521x16, .f32⟩ : BufTy).Contents (Elt F) → (⟨S83521x16, .f32⟩ : BufTy).Contents (Elt F) → (⟨S83521x16, .f32⟩ : BufTy).Contents (Elt F)) ]
theorem main_part0_ops3_plain_eq : (main_part0_ops3 : List (HloOp τ sig (Elt F))) = main_part0_ops3_plain := by
  chain_rfl

/-- Line 5 with each operation's function at the buffers' own types. -/
abbrev main_part0_ops5_plain : List (HloOp τ sig (Elt F)) :=
  [ StableHlo.unary main_c main_call2_v0 ((id) : (⟨S_, .i32⟩ : BufTy).Contents (Elt F) → (⟨S_, .i32⟩ : BufTy).Contents (Elt F)),
    StableHlo.unary main_call2_v0 main_call2_v1 (((broadcastInDim S4x1x256x256 ![] bcast_S_S4x1x256x256)) : (⟨S_, .i32⟩ : BufTy).Contents (Elt F) → (⟨S4x1x256x256, .i32⟩ : BufTy).Contents (Elt F)),
    StableHlo.binary main_v6 main_call2_v1 main_call2_v2 ((Host.divsi) : (⟨S4x1x256x256, .i32⟩ : BufTy).Contents (Elt F) → (⟨S4x1x256x256, .i32⟩ : BufTy).Contents (Elt F) → (⟨S4x1x256x256, .i32⟩ : BufTy).Contents (Elt F)),
    StableHlo.unary main_v6 main_call2_v3 ((signi) : (⟨S4x1x256x256, .i32⟩ : BufTy).Contents (Elt F) → (⟨S4x1x256x256, .i32⟩ : BufTy).Contents (Elt F)),
    StableHlo.unary main_call2_v0 main_call2_v4 ((signi) : (⟨S_, .i32⟩ : BufTy).Contents (Elt F) → (⟨S_, .i32⟩ : BufTy).Contents (Elt F)),
    StableHlo.unary main_call2_v4 main_call2_v5 (((broadcastInDim S4x1x256x256 ![] bcast_S_S4x1x256x256)) : (⟨S_, .i32⟩ : BufTy).Contents (Elt F) → (⟨S4x1x256x256, .i32⟩ : BufTy).Contents (Elt F)),
    StableHlo.binary main_call2_v3 main_call2_v5 main_call2_v6 (((cmpi .ne)) : (⟨S4x1x256x256, .i32⟩ : BufTy).Contents (Elt F) → (⟨S4x1x256x256, .i32⟩ : BufTy).Contents (Elt F) → (⟨S4x1x256x256, .i1⟩ : BufTy).Contents (Elt F)),
    StableHlo.unary main_call2_v0 main_call2_v7 (((broadcastInDim S4x1x256x256 ![] bcast_S_S4x1x256x256)) : (⟨S_, .i32⟩ : BufTy).Contents (Elt F) → (⟨S4x1x256x256, .i32⟩ : BufTy).Contents (Elt F)),
    StableHlo.binary main_v6 main_call2_v7 main_call2_v8 ((Host.remsi) : (⟨S4x1x256x256, .i32⟩ : BufTy).Contents (Elt F) → (⟨S4x1x256x256, .i32⟩ : BufTy).Contents (Elt F) → (⟨S4x1x256x256, .i32⟩ : BufTy).Contents (Elt F)),
    StableHlo.nullary main_call2_c ((constantI S_ 32 0#32) : (⟨S_, .i32⟩ : BufTy).Contents (Elt F)),
    StableHlo.unary main_call2_c main_call2_v9 (((broadcastInDim S4x1x256x256 ![] bcast_S_S4x1x256x256)) : (⟨S_, .i32⟩ : BufTy).Contents (Elt F) → (⟨S4x1x256x256, .i32⟩ : BufTy).Contents (Elt F)),
    StableHlo.binary main_call2_v8 main_call2_v9 main_call2_v10 (((cmpi .ne)) : (⟨S4x1x256x256, .i32⟩ : BufTy).Contents (Elt F) → (⟨S4x1x256x256, .i32⟩ : BufTy).Contents (Elt F) → (⟨S4x1x256x256, .i1⟩ : BufTy).Contents (Elt F)),
    StableHlo.binary main_call2_v6 main_call2_v10 main_call2_v11 ((andi) : (⟨S4x1x256x256, .i1⟩ : BufTy).Contents (Elt F) → (⟨S4x1x256x256, .i1⟩ : BufTy).Contents (Elt F) → (⟨S4x1x256x256, .i1⟩ : BufTy).Contents (Elt F)),
    StableHlo.nullary main_call2_c_0 ((constantI S_ 32 1#32) : (⟨S_, .i32⟩ : BufTy).Contents (Elt F)),
    StableHlo.unary main_call2_c_0 main_call2_v12 (((broadcastInDim S4x1x256x256 ![] bcast_S_S4x1x256x256)) : (⟨S_, .i32⟩ : BufTy).Contents (Elt F) → (⟨S4x1x256x256, .i32⟩ : BufTy).Contents (Elt F)),
    StableHlo.binary main_call2_v2 main_call2_v12 main_call2_v13 ((subi) : (⟨S4x1x256x256, .i32⟩ : BufTy).Contents (Elt F) → (⟨S4x1x256x256, .i32⟩ : BufTy).Contents (Elt F) → (⟨S4x1x256x256, .i32⟩ : BufTy).Contents (Elt F)),
    StableHlo.ternary main_call2_v11 main_call2_v13 main_call2_v2 main_v10 ((select) : (⟨S4x1x256x256, .i1⟩ : BufTy).Contents (Elt F) → (⟨S4x1x256x256, .i32⟩ : BufTy).Contents (Elt F) → (⟨S4x1x256x256, .i32⟩ : BufTy).Contents (Elt F) → (⟨S4x1x256x256, .i32⟩ : BufTy).Contents (Elt F)) ]
theorem main_part0_ops5_plain_eq : (main_part0_ops5 : List (HloOp τ sig (Elt F))) = main_part0_ops5_plain := by
  chain_rfl

/-- Line 7 with each operation's function at the buffers' own types. -/
abbrev main_part0_ops7_plain : List (HloOp τ sig (Elt F)) :=
  [ StableHlo.unary main_c_2 main_call3_v0 ((id) : (⟨S_, .i32⟩ : BufTy).Contents (Elt F) → (⟨S_, .i32⟩ : BufTy).Contents (Elt F)),
    StableHlo.unary main_call3_v0 main_call3_v1 (((broadcastInDim S4x1x256x256 ![] bcast_S_S4x1x256x256)) : (⟨S_, .i32⟩ : BufTy).Contents (Elt F) → (⟨S4x1x256x256, .i32⟩ : BufTy).Contents (Elt F)),
    StableHlo.binary main_v7 main_call3_v1 main_call3_v2 ((Host.divsi) : (⟨S4x1x256x256, .i32⟩ : BufTy).Contents (Elt F) → (⟨S4x1x256x256, .i32⟩ : BufTy).Contents (Elt F) → (⟨S4x1x256x256, .i32⟩ : BufTy).Contents (Elt F)),
    StableHlo.unary main_v7 main_call3_v3 ((signi) : (⟨S4x1x256x256, .i32⟩ : BufTy).Contents (Elt F) → (⟨S4x1x256x256, .i32⟩ : BufTy).Contents (Elt F)),
    StableHlo.unary main_call3_v0 main_call3_v4 ((signi) : (⟨S_, .i32⟩ : BufTy).Contents (Elt F) → (⟨S_, .i32⟩ : BufTy).Contents (Elt F)),
    StableHlo.unary main_call3_v4 main_call3_v5 (((broadcastInDim S4x1x256x256 ![] bcast_S_S4x1x256x256)) : (⟨S_, .i32⟩ : BufTy).Contents (Elt F) → (⟨S4x1x256x256, .i32⟩ : BufTy).Contents (Elt F)),
    StableHlo.binary main_call3_v3 main_call3_v5 main_call3_v6 (((cmpi .ne)) : (⟨S4x1x256x256, .i32⟩ : BufTy).Contents (Elt F) → (⟨S4x1x256x256, .i32⟩ : BufTy).Contents (Elt F) → (⟨S4x1x256x256, .i1⟩ : BufTy).Contents (Elt F)),
    StableHlo.unary main_call3_v0 main_call3_v7 (((broadcastInDim S4x1x256x256 ![] bcast_S_S4x1x256x256)) : (⟨S_, .i32⟩ : BufTy).Contents (Elt F) → (⟨S4x1x256x256, .i32⟩ : BufTy).Contents (Elt F)),
    StableHlo.binary main_v7 main_call3_v7 main_call3_v8 ((Host.remsi) : (⟨S4x1x256x256, .i32⟩ : BufTy).Contents (Elt F) → (⟨S4x1x256x256, .i32⟩ : BufTy).Contents (Elt F) → (⟨S4x1x256x256, .i32⟩ : BufTy).Contents (Elt F)),
    StableHlo.nullary main_call3_c ((constantI S_ 32 0#32) : (⟨S_, .i32⟩ : BufTy).Contents (Elt F)),
    StableHlo.unary main_call3_c main_call3_v9 (((broadcastInDim S4x1x256x256 ![] bcast_S_S4x1x256x256)) : (⟨S_, .i32⟩ : BufTy).Contents (Elt F) → (⟨S4x1x256x256, .i32⟩ : BufTy).Contents (Elt F)),
    StableHlo.binary main_call3_v8 main_call3_v9 main_call3_v10 (((cmpi .ne)) : (⟨S4x1x256x256, .i32⟩ : BufTy).Contents (Elt F) → (⟨S4x1x256x256, .i32⟩ : BufTy).Contents (Elt F) → (⟨S4x1x256x256, .i1⟩ : BufTy).Contents (Elt F)),
    StableHlo.binary main_call3_v6 main_call3_v10 main_call3_v11 ((andi) : (⟨S4x1x256x256, .i1⟩ : BufTy).Contents (Elt F) → (⟨S4x1x256x256, .i1⟩ : BufTy).Contents (Elt F) → (⟨S4x1x256x256, .i1⟩ : BufTy).Contents (Elt F)),
    StableHlo.nullary main_call3_c_0 ((constantI S_ 32 1#32) : (⟨S_, .i32⟩ : BufTy).Contents (Elt F)),
    StableHlo.unary main_call3_c_0 main_call3_v12 (((broadcastInDim S4x1x256x256 ![] bcast_S_S4x1x256x256)) : (⟨S_, .i32⟩ : BufTy).Contents (Elt F) → (⟨S4x1x256x256, .i32⟩ : BufTy).Contents (Elt F)),
    StableHlo.binary main_call3_v2 main_call3_v12 main_call3_v13 ((subi) : (⟨S4x1x256x256, .i32⟩ : BufTy).Contents (Elt F) → (⟨S4x1x256x256, .i32⟩ : BufTy).Contents (Elt F) → (⟨S4x1x256x256, .i32⟩ : BufTy).Contents (Elt F)),
    StableHlo.ternary main_call3_v11 main_call3_v13 main_call3_v2 main_v12 ((select) : (⟨S4x1x256x256, .i1⟩ : BufTy).Contents (Elt F) → (⟨S4x1x256x256, .i32⟩ : BufTy).Contents (Elt F) → (⟨S4x1x256x256, .i32⟩ : BufTy).Contents (Elt F) → (⟨S4x1x256x256, .i32⟩ : BufTy).Contents (Elt F)) ]
theorem main_part0_ops7_plain_eq : (main_part0_ops7 : List (HloOp τ sig (Elt F))) = main_part0_ops7_plain := by
  chain_rfl

/-- Line 9 with each operation's function at the buffers' own types. -/
abbrev main_part0_ops9_plain : List (HloOp τ sig (Elt F)) :=
  [ StableHlo.unary main_c_3 main_call4_v0 ((id) : (⟨S_, .i32⟩ : BufTy).Contents (Elt F) → (⟨S_, .i32⟩ : BufTy).Contents (Elt F)),
    StableHlo.unary main_call4_v0 main_call4_v1 (((broadcastInDim S4x1x256x256 ![] bcast_S_S4x1x256x256)) : (⟨S_, .i32⟩ : BufTy).Contents (Elt F) → (⟨S4x1x256x256, .i32⟩ : BufTy).Contents (Elt F)),
    StableHlo.binary main_v8 main_call4_v1 main_call4_v2 ((Host.divsi) : (⟨S4x1x256x256, .i32⟩ : BufTy).Contents (Elt F) → (⟨S4x1x256x256, .i32⟩ : BufTy).Contents (Elt F) → (⟨S4x1x256x256, .i32⟩ : BufTy).Contents (Elt F)),
    StableHlo.unary main_v8 main_call4_v3 ((signi) : (⟨S4x1x256x256, .i32⟩ : BufTy).Contents (Elt F) → (⟨S4x1x256x256, .i32⟩ : BufTy).Contents (Elt F)),
    StableHlo.unary main_call4_v0 main_call4_v4 ((signi) : (⟨S_, .i32⟩ : BufTy).Contents (Elt F) → (⟨S_, .i32⟩ : BufTy).Contents (Elt F)),
    StableHlo.unary main_call4_v4 main_call4_v5 (((broadcastInDim S4x1x256x256 ![] bcast_S_S4x1x256x256)) : (⟨S_, .i32⟩ : BufTy).Contents (Elt F) → (⟨S4x1x256x256, .i32⟩ : BufTy).Contents (Elt F)),
    StableHlo.binary main_call4_v3 main_call4_v5 main_call4_v6 (((cmpi .ne)) : (⟨S4x1x256x256, .i32⟩ : BufTy).Contents (Elt F) → (⟨S4x1x256x256, .i32⟩ : BufTy).Contents (Elt F) → (⟨S4x1x256x256, .i1⟩ : BufTy).Contents (Elt F)),
    StableHlo.unary main_call4_v0 main_call4_v7 (((broadcastInDim S4x1x256x256 ![] bcast_S_S4x1x256x256)) : (⟨S_, .i32⟩ : BufTy).Contents (Elt F) → (⟨S4x1x256x256, .i32⟩ : BufTy).Contents (Elt F)),
    StableHlo.binary main_v8 main_call4_v7 main_call4_v8 ((Host.remsi) : (⟨S4x1x256x256, .i32⟩ : BufTy).Contents (Elt F) → (⟨S4x1x256x256, .i32⟩ : BufTy).Contents (Elt F) → (⟨S4x1x256x256, .i32⟩ : BufTy).Contents (Elt F)),
    StableHlo.nullary main_call4_c ((constantI S_ 32 0#32) : (⟨S_, .i32⟩ : BufTy).Contents (Elt F)),
    StableHlo.unary main_call4_c main_call4_v9 (((broadcastInDim S4x1x256x256 ![] bcast_S_S4x1x256x256)) : (⟨S_, .i32⟩ : BufTy).Contents (Elt F) → (⟨S4x1x256x256, .i32⟩ : BufTy).Contents (Elt F)),
    StableHlo.binary main_call4_v8 main_call4_v9 main_call4_v10 (((cmpi .ne)) : (⟨S4x1x256x256, .i32⟩ : BufTy).Contents (Elt F) → (⟨S4x1x256x256, .i32⟩ : BufTy).Contents (Elt F) → (⟨S4x1x256x256, .i1⟩ : BufTy).Contents (Elt F)),
    StableHlo.binary main_call4_v6 main_call4_v10 main_call4_v11 ((andi) : (⟨S4x1x256x256, .i1⟩ : BufTy).Contents (Elt F) → (⟨S4x1x256x256, .i1⟩ : BufTy).Contents (Elt F) → (⟨S4x1x256x256, .i1⟩ : BufTy).Contents (Elt F)),
    StableHlo.nullary main_call4_c_0 ((constantI S_ 32 1#32) : (⟨S_, .i32⟩ : BufTy).Contents (Elt F)),
    StableHlo.unary main_call4_c_0 main_call4_v12 (((broadcastInDim S4x1x256x256 ![] bcast_S_S4x1x256x256)) : (⟨S_, .i32⟩ : BufTy).Contents (Elt F) → (⟨S4x1x256x256, .i32⟩ : BufTy).Contents (Elt F)),
    StableHlo.binary main_call4_v2 main_call4_v12 main_call4_v13 ((subi) : (⟨S4x1x256x256, .i32⟩ : BufTy).Contents (Elt F) → (⟨S4x1x256x256, .i32⟩ : BufTy).Contents (Elt F) → (⟨S4x1x256x256, .i32⟩ : BufTy).Contents (Elt F)),
    StableHlo.ternary main_call4_v11 main_call4_v13 main_call4_v2 main_v14 ((select) : (⟨S4x1x256x256, .i1⟩ : BufTy).Contents (Elt F) → (⟨S4x1x256x256, .i32⟩ : BufTy).Contents (Elt F) → (⟨S4x1x256x256, .i32⟩ : BufTy).Contents (Elt F) → (⟨S4x1x256x256, .i32⟩ : BufTy).Contents (Elt F)) ]
theorem main_part0_ops9_plain_eq : (main_part0_ops9 : List (HloOp τ sig (Elt F))) = main_part0_ops9_plain := by
  chain_rfl

/-- Line 11 with each operation's function at the buffers' own types. -/
abbrev main_part0_ops11_plain : List (HloOp τ sig (Elt F)) :=
  [ StableHlo.unary main_c_4 main_call5_v0 ((id) : (⟨S_, .i32⟩ : BufTy).Contents (Elt F) → (⟨S_, .i32⟩ : BufTy).Contents (Elt F)),
    StableHlo.unary main_call5_v0 main_call5_v1 (((broadcastInDim S4x1x256x256 ![] bcast_S_S4x1x256x256)) : (⟨S_, .i32⟩ : BufTy).Contents (Elt F) → (⟨S4x1x256x256, .i32⟩ : BufTy).Contents (Elt F)),
    StableHlo.binary main_v9 main_call5_v1 main_call5_v2 ((Host.divsi) : (⟨S4x1x256x256, .i32⟩ : BufTy).Contents (Elt F) → (⟨S4x1x256x256, .i32⟩ : BufTy).Contents (Elt F) → (⟨S4x1x256x256, .i32⟩ : BufTy).Contents (Elt F)),
    StableHlo.unary main_v9 main_call5_v3 ((signi) : (⟨S4x1x256x256, .i32⟩ : BufTy).Contents (Elt F) → (⟨S4x1x256x256, .i32⟩ : BufTy).Contents (Elt F)),
    StableHlo.unary main_call5_v0 main_call5_v4 ((signi) : (⟨S_, .i32⟩ : BufTy).Contents (Elt F) → (⟨S_, .i32⟩ : BufTy).Contents (Elt F)),
    StableHlo.unary main_call5_v4 main_call5_v5 (((broadcastInDim S4x1x256x256 ![] bcast_S_S4x1x256x256)) : (⟨S_, .i32⟩ : BufTy).Contents (Elt F) → (⟨S4x1x256x256, .i32⟩ : BufTy).Contents (Elt F)),
    StableHlo.binary main_call5_v3 main_call5_v5 main_call5_v6 (((cmpi .ne)) : (⟨S4x1x256x256, .i32⟩ : BufTy).Contents (Elt F) → (⟨S4x1x256x256, .i32⟩ : BufTy).Contents (Elt F) → (⟨S4x1x256x256, .i1⟩ : BufTy).Contents (Elt F)),
    StableHlo.unary main_call5_v0 main_call5_v7 (((broadcastInDim S4x1x256x256 ![] bcast_S_S4x1x256x256)) : (⟨S_, .i32⟩ : BufTy).Contents (Elt F) → (⟨S4x1x256x256, .i32⟩ : BufTy).Contents (Elt F)),
    StableHlo.binary main_v9 main_call5_v7 main_call5_v8 ((Host.remsi) : (⟨S4x1x256x256, .i32⟩ : BufTy).Contents (Elt F) → (⟨S4x1x256x256, .i32⟩ : BufTy).Contents (Elt F) → (⟨S4x1x256x256, .i32⟩ : BufTy).Contents (Elt F)),
    StableHlo.nullary main_call5_c ((constantI S_ 32 0#32) : (⟨S_, .i32⟩ : BufTy).Contents (Elt F)),
    StableHlo.unary main_call5_c main_call5_v9 (((broadcastInDim S4x1x256x256 ![] bcast_S_S4x1x256x256)) : (⟨S_, .i32⟩ : BufTy).Contents (Elt F) → (⟨S4x1x256x256, .i32⟩ : BufTy).Contents (Elt F)),
    StableHlo.binary main_call5_v8 main_call5_v9 main_call5_v10 (((cmpi .ne)) : (⟨S4x1x256x256, .i32⟩ : BufTy).Contents (Elt F) → (⟨S4x1x256x256, .i32⟩ : BufTy).Contents (Elt F) → (⟨S4x1x256x256, .i1⟩ : BufTy).Contents (Elt F)),
    StableHlo.binary main_call5_v6 main_call5_v10 main_call5_v11 ((andi) : (⟨S4x1x256x256, .i1⟩ : BufTy).Contents (Elt F) → (⟨S4x1x256x256, .i1⟩ : BufTy).Contents (Elt F) → (⟨S4x1x256x256, .i1⟩ : BufTy).Contents (Elt F)),
    StableHlo.nullary main_call5_c_0 ((constantI S_ 32 1#32) : (⟨S_, .i32⟩ : BufTy).Contents (Elt F)),
    StableHlo.unary main_call5_c_0 main_call5_v12 (((broadcastInDim S4x1x256x256 ![] bcast_S_S4x1x256x256)) : (⟨S_, .i32⟩ : BufTy).Contents (Elt F) → (⟨S4x1x256x256, .i32⟩ : BufTy).Contents (Elt F)),
    StableHlo.binary main_call5_v2 main_call5_v12 main_call5_v13 ((subi) : (⟨S4x1x256x256, .i32⟩ : BufTy).Contents (Elt F) → (⟨S4x1x256x256, .i32⟩ : BufTy).Contents (Elt F) → (⟨S4x1x256x256, .i32⟩ : BufTy).Contents (Elt F)),
    StableHlo.ternary main_call5_v11 main_call5_v13 main_call5_v2 main_v16 ((select) : (⟨S4x1x256x256, .i1⟩ : BufTy).Contents (Elt F) → (⟨S4x1x256x256, .i32⟩ : BufTy).Contents (Elt F) → (⟨S4x1x256x256, .i32⟩ : BufTy).Contents (Elt F) → (⟨S4x1x256x256, .i32⟩ : BufTy).Contents (Elt F)) ]
theorem main_part0_ops11_plain_eq : (main_part0_ops11 : List (HloOp τ sig (Elt F))) = main_part0_ops11_plain := by
  chain_rfl

/-- Line 13 with each operation's function at the buffers' own types. -/
abbrev main_part0_ops13_plain : List (HloOp τ sig (Elt F)) :=
  [ StableHlo.unary main_c_5 main_call6_v0 ((id) : (⟨S_, .i32⟩ : BufTy).Contents (Elt F) → (⟨S_, .i32⟩ : BufTy).Contents (Elt F)),
    StableHlo.nullary main_call6_c ((constantI S_ 32 0#32) : (⟨S_, .i32⟩ : BufTy).Contents (Elt F)),
    StableHlo.binary main_call6_v0 main_call6_c main_call6_v1 (((cmpi .eq)) : (⟨S_, .i32⟩ : BufTy).Contents (Elt F) → (⟨S_, .i32⟩ : BufTy).Contents (Elt F) → (⟨S_, .i1⟩ : BufTy).Contents (Elt F)),
    StableHlo.nullary main_call6_c_0 ((constantI S_ 32 1#32) : (⟨S_, .i32⟩ : BufTy).Contents (Elt F)),
    StableHlo.ternary main_call6_v1 main_call6_c_0 main_call6_v0 main_call6_v2 ((select) : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_call6_v2 main_call6_v3 (((broadcastInDim S4x1x256x256 ![] bcast_S_S4x1x256x256)) : (⟨S_, .i32⟩ : BufTy).Contents (Elt F) → (⟨S4x1x256x256, .i32⟩ : BufTy).Contents (Elt F)),
    StableHlo.binary main_v6 main_call6_v3 main_call6_v4 ((Host.remsi) : (⟨S4x1x256x256, .i32⟩ : BufTy).Contents (Elt F) → (⟨S4x1x256x256, .i32⟩ : BufTy).Contents (Elt F) → (⟨S4x1x256x256, .i32⟩ : BufTy).Contents (Elt F)),
    StableHlo.nullary main_call6_c_1 ((constantI S_ 32 0#32) : (⟨S_, .i32⟩ : BufTy).Contents (Elt F)),
    StableHlo.unary main_call6_c_1 main_call6_v5 (((broadcastInDim S4x1x256x256 ![] bcast_S_S4x1x256x256)) : (⟨S_, .i32⟩ : BufTy).Contents (Elt F) → (⟨S4x1x256x256, .i32⟩ : BufTy).Contents (Elt F)),
    StableHlo.binary main_call6_v4 main_call6_v5 main_call6_v6 (((cmpi .ne)) : (⟨S4x1x256x256, .i32⟩ : BufTy).Contents (Elt F) → (⟨S4x1x256x256, .i32⟩ : BufTy).Contents (Elt F) → (⟨S4x1x256x256, .i1⟩ : BufTy).Contents (Elt F)),
    StableHlo.nullary main_call6_c_2 ((constantI S_ 32 0#32) : (⟨S_, .i32⟩ : BufTy).Contents (Elt F)),
    StableHlo.unary main_call6_c_2 main_call6_v7 (((broadcastInDim S4x1x256x256 ![] bcast_S_S4x1x256x256)) : (⟨S_, .i32⟩ : BufTy).Contents (Elt F) → (⟨S4x1x256x256, .i32⟩ : BufTy).Contents (Elt F)),
    StableHlo.binary main_call6_v4 main_call6_v7 main_call6_v8 (((cmpi .slt)) : (⟨S4x1x256x256, .i32⟩ : BufTy).Contents (Elt F) → (⟨S4x1x256x256, .i32⟩ : BufTy).Contents (Elt F) → (⟨S4x1x256x256, .i1⟩ : BufTy).Contents (Elt F)),
    StableHlo.nullary main_call6_c_3 ((constantI S_ 32 0#32) : (⟨S_, .i32⟩ : BufTy).Contents (Elt F)),
    StableHlo.binary main_call6_v2 main_call6_c_3 main_call6_v9 (((cmpi .slt)) : (⟨S_, .i32⟩ : BufTy).Contents (Elt F) → (⟨S_, .i32⟩ : BufTy).Contents (Elt F) → (⟨S_, .i1⟩ : BufTy).Contents (Elt F)),
    StableHlo.unary main_call6_v9 main_call6_v10 (((broadcastInDim S4x1x256x256 ![] bcast_S_S4x1x256x256)) : (⟨S_, .i1⟩ : BufTy).Contents (Elt F) → (⟨S4x1x256x256, .i1⟩ : BufTy).Contents (Elt F)),
    StableHlo.binary main_call6_v8 main_call6_v10 main_call6_v11 (((cmpi .ne)) : (⟨S4x1x256x256, .i1⟩ : BufTy).Contents (Elt F) → (⟨S4x1x256x256, .i1⟩ : BufTy).Contents (Elt F) → (⟨S4x1x256x256, .i1⟩ : BufTy).Contents (Elt F)),
    StableHlo.binary main_call6_v11 main_call6_v6 main_call6_v12 ((andi) : (⟨S4x1x256x256, .i1⟩ : BufTy).Contents (Elt F) → (⟨S4x1x256x256, .i1⟩ : BufTy).Contents (Elt F) → (⟨S4x1x256x256, .i1⟩ : BufTy).Contents (Elt F)),
    StableHlo.unary main_call6_v2 main_call6_v13 (((broadcastInDim S4x1x256x256 ![] bcast_S_S4x1x256x256)) : (⟨S_, .i32⟩ : BufTy).Contents (Elt F) → (⟨S4x1x256x256, .i32⟩ : BufTy).Contents (Elt F)),
    StableHlo.binary main_call6_v4 main_call6_v13 main_call6_v14 ((addi) : (⟨S4x1x256x256, .i32⟩ : BufTy).Contents (Elt F) → (⟨S4x1x256x256, .i32⟩ : BufTy).Contents (Elt F) → (⟨S4x1x256x256, .i32⟩ : BufTy).Contents (Elt F)),
    StableHlo.ternary main_call6_v12 main_call6_v14 main_call6_v4 main_v18 ((select) : (⟨S4x1x256x256, .i1⟩ : BufTy).Contents (Elt F) → (⟨S4x1x256x256, .i32⟩ : BufTy).Contents (Elt F) → (⟨S4x1x256x256, .i32⟩ : BufTy).Contents (Elt F) → (⟨S4x1x256x256, .i32⟩ : BufTy).Contents (Elt F)) ]
theorem main_part0_ops13_plain_eq : (main_part0_ops13 : List (HloOp τ sig (Elt F))) = main_part0_ops13_plain := by
  chain_rfl

/-- Line 15 with each operation's function at the buffers' own types. -/
abbrev main_part0_ops15_plain : List (HloOp τ sig (Elt F)) :=
  [ StableHlo.unary main_c_6 main_call7_v0 ((id) : (⟨S_, .i32⟩ : BufTy).Contents (Elt F) → (⟨S_, .i32⟩ : BufTy).Contents (Elt F)),
    StableHlo.nullary main_call7_c ((constantI S_ 32 0#32) : (⟨S_, .i32⟩ : BufTy).Contents (Elt F)),
    StableHlo.binary main_call7_v0 main_call7_c main_call7_v1 (((cmpi .eq)) : (⟨S_, .i32⟩ : BufTy).Contents (Elt F) → (⟨S_, .i32⟩ : BufTy).Contents (Elt F) → (⟨S_, .i1⟩ : BufTy).Contents (Elt F)),
    StableHlo.nullary main_call7_c_0 ((constantI S_ 32 1#32) : (⟨S_, .i32⟩ : BufTy).Contents (Elt F)),
    StableHlo.ternary main_call7_v1 main_call7_c_0 main_call7_v0 main_call7_v2 ((select) : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_call7_v2 main_call7_v3 (((broadcastInDim S4x1x256x256 ![] bcast_S_S4x1x256x256)) : (⟨S_, .i32⟩ : BufTy).Contents (Elt F) → (⟨S4x1x256x256, .i32⟩ : BufTy).Contents (Elt F)),
    StableHlo.binary main_v7 main_call7_v3 main_call7_v4 ((Host.remsi) : (⟨S4x1x256x256, .i32⟩ : BufTy).Contents (Elt F) → (⟨S4x1x256x256, .i32⟩ : BufTy).Contents (Elt F) → (⟨S4x1x256x256, .i32⟩ : BufTy).Contents (Elt F)),
    StableHlo.nullary main_call7_c_1 ((constantI S_ 32 0#32) : (⟨S_, .i32⟩ : BufTy).Contents (Elt F)),
    StableHlo.unary main_call7_c_1 main_call7_v5 (((broadcastInDim S4x1x256x256 ![] bcast_S_S4x1x256x256)) : (⟨S_, .i32⟩ : BufTy).Contents (Elt F) → (⟨S4x1x256x256, .i32⟩ : BufTy).Contents (Elt F)),
    StableHlo.binary main_call7_v4 main_call7_v5 main_call7_v6 (((cmpi .ne)) : (⟨S4x1x256x256, .i32⟩ : BufTy).Contents (Elt F) → (⟨S4x1x256x256, .i32⟩ : BufTy).Contents (Elt F) → (⟨S4x1x256x256, .i1⟩ : BufTy).Contents (Elt F)),
    StableHlo.nullary main_call7_c_2 ((constantI S_ 32 0#32) : (⟨S_, .i32⟩ : BufTy).Contents (Elt F)),
    StableHlo.unary main_call7_c_2 main_call7_v7 (((broadcastInDim S4x1x256x256 ![] bcast_S_S4x1x256x256)) : (⟨S_, .i32⟩ : BufTy).Contents (Elt F) → (⟨S4x1x256x256, .i32⟩ : BufTy).Contents (Elt F)),
    StableHlo.binary main_call7_v4 main_call7_v7 main_call7_v8 (((cmpi .slt)) : (⟨S4x1x256x256, .i32⟩ : BufTy).Contents (Elt F) → (⟨S4x1x256x256, .i32⟩ : BufTy).Contents (Elt F) → (⟨S4x1x256x256, .i1⟩ : BufTy).Contents (Elt F)),
    StableHlo.nullary main_call7_c_3 ((constantI S_ 32 0#32) : (⟨S_, .i32⟩ : BufTy).Contents (Elt F)),
    StableHlo.binary main_call7_v2 main_call7_c_3 main_call7_v9 (((cmpi .slt)) : (⟨S_, .i32⟩ : BufTy).Contents (Elt F) → (⟨S_, .i32⟩ : BufTy).Contents (Elt F) → (⟨S_, .i1⟩ : BufTy).Contents (Elt F)),
    StableHlo.unary main_call7_v9 main_call7_v10 (((broadcastInDim S4x1x256x256 ![] bcast_S_S4x1x256x256)) : (⟨S_, .i1⟩ : BufTy).Contents (Elt F) → (⟨S4x1x256x256, .i1⟩ : BufTy).Contents (Elt F)),
    StableHlo.binary main_call7_v8 main_call7_v10 main_call7_v11 (((cmpi .ne)) : (⟨S4x1x256x256, .i1⟩ : BufTy).Contents (Elt F) → (⟨S4x1x256x256, .i1⟩ : BufTy).Contents (Elt F) → (⟨S4x1x256x256, .i1⟩ : BufTy).Contents (Elt F)),
    StableHlo.binary main_call7_v11 main_call7_v6 main_call7_v12 ((andi) : (⟨S4x1x256x256, .i1⟩ : BufTy).Contents (Elt F) → (⟨S4x1x256x256, .i1⟩ : BufTy).Contents (Elt F) → (⟨S4x1x256x256, .i1⟩ : BufTy).Contents (Elt F)),
    StableHlo.unary main_call7_v2 main_call7_v13 (((broadcastInDim S4x1x256x256 ![] bcast_S_S4x1x256x256)) : (⟨S_, .i32⟩ : BufTy).Contents (Elt F) → (⟨S4x1x256x256, .i32⟩ : BufTy).Contents (Elt F)),
    StableHlo.binary main_call7_v4 main_call7_v13 main_call7_v14 ((addi) : (⟨S4x1x256x256, .i32⟩ : BufTy).Contents (Elt F) → (⟨S4x1x256x256, .i32⟩ : BufTy).Contents (Elt F) → (⟨S4x1x256x256, .i32⟩ : BufTy).Contents (Elt F)),
    StableHlo.ternary main_call7_v12 main_call7_v14 main_call7_v4 main_v21 ((select) : (⟨S4x1x256x256, .i1⟩ : BufTy).Contents (Elt F) → (⟨S4x1x256x256, .i32⟩ : BufTy).Contents (Elt F) → (⟨S4x1x256x256, .i32⟩ : BufTy).Contents (Elt F) → (⟨S4x1x256x256, .i32⟩ : BufTy).Contents (Elt F)) ]
theorem main_part0_ops15_plain_eq : (main_part0_ops15 : List (HloOp τ sig (Elt F))) = main_part0_ops15_plain := by
  chain_rfl

/-- Line 17 with each operation's function at the buffers' own types. -/
abbrev main_part0_ops17_plain : List (HloOp τ sig (Elt F)) :=
  [ StableHlo.unary main_c_7 main_call8_v0 ((id) : (⟨S_, .i32⟩ : BufTy).Contents (Elt F) → (⟨S_, .i32⟩ : BufTy).Contents (Elt F)),
    StableHlo.nullary main_call8_c ((constantI S_ 32 0#32) : (⟨S_, .i32⟩ : BufTy).Contents (Elt F)),
    StableHlo.binary main_call8_v0 main_call8_c main_call8_v1 (((cmpi .eq)) : (⟨S_, .i32⟩ : BufTy).Contents (Elt F) → (⟨S_, .i32⟩ : BufTy).Contents (Elt F) → (⟨S_, .i1⟩ : BufTy).Contents (Elt F)),
    StableHlo.nullary main_call8_c_0 ((constantI S_ 32 1#32) : (⟨S_, .i32⟩ : BufTy).Contents (Elt F)),
    StableHlo.ternary main_call8_v1 main_call8_c_0 main_call8_v0 main_call8_v2 ((select) : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_call8_v2 main_call8_v3 (((broadcastInDim S4x1x256x256 ![] bcast_S_S4x1x256x256)) : (⟨S_, .i32⟩ : BufTy).Contents (Elt F) → (⟨S4x1x256x256, .i32⟩ : BufTy).Contents (Elt F)),
    StableHlo.binary main_v8 main_call8_v3 main_call8_v4 ((Host.remsi) : (⟨S4x1x256x256, .i32⟩ : BufTy).Contents (Elt F) → (⟨S4x1x256x256, .i32⟩ : BufTy).Contents (Elt F) → (⟨S4x1x256x256, .i32⟩ : BufTy).Contents (Elt F)),
    StableHlo.nullary main_call8_c_1 ((constantI S_ 32 0#32) : (⟨S_, .i32⟩ : BufTy).Contents (Elt F)),
    StableHlo.unary main_call8_c_1 main_call8_v5 (((broadcastInDim S4x1x256x256 ![] bcast_S_S4x1x256x256)) : (⟨S_, .i32⟩ : BufTy).Contents (Elt F) → (⟨S4x1x256x256, .i32⟩ : BufTy).Contents (Elt F)),
    StableHlo.binary main_call8_v4 main_call8_v5 main_call8_v6 (((cmpi .ne)) : (⟨S4x1x256x256, .i32⟩ : BufTy).Contents (Elt F) → (⟨S4x1x256x256, .i32⟩ : BufTy).Contents (Elt F) → (⟨S4x1x256x256, .i1⟩ : BufTy).Contents (Elt F)),
    StableHlo.nullary main_call8_c_2 ((constantI S_ 32 0#32) : (⟨S_, .i32⟩ : BufTy).Contents (Elt F)),
    StableHlo.unary main_call8_c_2 main_call8_v7 (((broadcastInDim S4x1x256x256 ![] bcast_S_S4x1x256x256)) : (⟨S_, .i32⟩ : BufTy).Contents (Elt F) → (⟨S4x1x256x256, .i32⟩ : BufTy).Contents (Elt F)),
    StableHlo.binary main_call8_v4 main_call8_v7 main_call8_v8 (((cmpi .slt)) : (⟨S4x1x256x256, .i32⟩ : BufTy).Contents (Elt F) → (⟨S4x1x256x256, .i32⟩ : BufTy).Contents (Elt F) → (⟨S4x1x256x256, .i1⟩ : BufTy).Contents (Elt F)),
    StableHlo.nullary main_call8_c_3 ((constantI S_ 32 0#32) : (⟨S_, .i32⟩ : BufTy).Contents (Elt F)),
    StableHlo.binary main_call8_v2 main_call8_c_3 main_call8_v9 (((cmpi .slt)) : (⟨S_, .i32⟩ : BufTy).Contents (Elt F) → (⟨S_, .i32⟩ : BufTy).Contents (Elt F) → (⟨S_, .i1⟩ : BufTy).Contents (Elt F)),
    StableHlo.unary main_call8_v9 main_call8_v10 (((broadcastInDim S4x1x256x256 ![] bcast_S_S4x1x256x256)) : (⟨S_, .i1⟩ : BufTy).Contents (Elt F) → (⟨S4x1x256x256, .i1⟩ : BufTy).Contents (Elt F)),
    StableHlo.binary main_call8_v8 main_call8_v10 main_call8_v11 (((cmpi .ne)) : (⟨S4x1x256x256, .i1⟩ : BufTy).Contents (Elt F) → (⟨S4x1x256x256, .i1⟩ : BufTy).Contents (Elt F) → (⟨S4x1x256x256, .i1⟩ : BufTy).Contents (Elt F)),
    StableHlo.binary main_call8_v11 main_call8_v6 main_call8_v12 ((andi) : (⟨S4x1x256x256, .i1⟩ : BufTy).Contents (Elt F) → (⟨S4x1x256x256, .i1⟩ : BufTy).Contents (Elt F) → (⟨S4x1x256x256, .i1⟩ : BufTy).Contents (Elt F)),
    StableHlo.unary main_call8_v2 main_call8_v13 (((broadcastInDim S4x1x256x256 ![] bcast_S_S4x1x256x256)) : (⟨S_, .i32⟩ : BufTy).Contents (Elt F) → (⟨S4x1x256x256, .i32⟩ : BufTy).Contents (Elt F)),
    StableHlo.binary main_call8_v4 main_call8_v13 main_call8_v14 ((addi) : (⟨S4x1x256x256, .i32⟩ : BufTy).Contents (Elt F) → (⟨S4x1x256x256, .i32⟩ : BufTy).Contents (Elt F) → (⟨S4x1x256x256, .i32⟩ : BufTy).Contents (Elt F)),
    StableHlo.ternary main_call8_v12 main_call8_v14 main_call8_v4 main_v24 ((select) : (⟨S4x1x256x256, .i1⟩ : BufTy).Contents (Elt F) → (⟨S4x1x256x256, .i32⟩ : BufTy).Contents (Elt F) → (⟨S4x1x256x256, .i32⟩ : BufTy).Contents (Elt F) → (⟨S4x1x256x256, .i32⟩ : BufTy).Contents (Elt F)) ]
theorem main_part0_ops17_plain_eq : (main_part0_ops17 : List (HloOp τ sig (Elt F))) = main_part0_ops17_plain := by
  chain_rfl

/-- Line 19 with each operation's function at the buffers' own types. -/
abbrev main_part0_ops19_plain : List (HloOp τ sig (Elt F)) :=
  [ StableHlo.unary main_c_8 main_call9_v0 ((id) : (⟨S_, .i32⟩ : BufTy).Contents (Elt F) → (⟨S_, .i32⟩ : BufTy).Contents (Elt F)),
    StableHlo.nullary main_call9_c ((constantI S_ 32 0#32) : (⟨S_, .i32⟩ : BufTy).Contents (Elt F)),
    StableHlo.binary main_call9_v0 main_call9_c main_call9_v1 (((cmpi .eq)) : (⟨S_, .i32⟩ : BufTy).Contents (Elt F) → (⟨S_, .i32⟩ : BufTy).Contents (Elt F) → (⟨S_, .i1⟩ : BufTy).Contents (Elt F)),
    StableHlo.nullary main_call9_c_0 ((constantI S_ 32 1#32) : (⟨S_, .i32⟩ : BufTy).Contents (Elt F)),
    StableHlo.ternary main_call9_v1 main_call9_c_0 main_call9_v0 main_call9_v2 ((select) : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_call9_v2 main_call9_v3 (((broadcastInDim S4x1x256x256 ![] bcast_S_S4x1x256x256)) : (⟨S_, .i32⟩ : BufTy).Contents (Elt F) → (⟨S4x1x256x256, .i32⟩ : BufTy).Contents (Elt F)),
    StableHlo.binary main_v9 main_call9_v3 main_call9_v4 ((Host.remsi) : (⟨S4x1x256x256, .i32⟩ : BufTy).Contents (Elt F) → (⟨S4x1x256x256, .i32⟩ : BufTy).Contents (Elt F) → (⟨S4x1x256x256, .i32⟩ : BufTy).Contents (Elt F)),
    StableHlo.nullary main_call9_c_1 ((constantI S_ 32 0#32) : (⟨S_, .i32⟩ : BufTy).Contents (Elt F)),
    StableHlo.unary main_call9_c_1 main_call9_v5 (((broadcastInDim S4x1x256x256 ![] bcast_S_S4x1x256x256)) : (⟨S_, .i32⟩ : BufTy).Contents (Elt F) → (⟨S4x1x256x256, .i32⟩ : BufTy).Contents (Elt F)),
    StableHlo.binary main_call9_v4 main_call9_v5 main_call9_v6 (((cmpi .ne)) : (⟨S4x1x256x256, .i32⟩ : BufTy).Contents (Elt F) → (⟨S4x1x256x256, .i32⟩ : BufTy).Contents (Elt F) → (⟨S4x1x256x256, .i1⟩ : BufTy).Contents (Elt F)),
    StableHlo.nullary main_call9_c_2 ((constantI S_ 32 0#32) : (⟨S_, .i32⟩ : BufTy).Contents (Elt F)),
    StableHlo.unary main_call9_c_2 main_call9_v7 (((broadcastInDim S4x1x256x256 ![] bcast_S_S4x1x256x256)) : (⟨S_, .i32⟩ : BufTy).Contents (Elt F) → (⟨S4x1x256x256, .i32⟩ : BufTy).Contents (Elt F)),
    StableHlo.binary main_call9_v4 main_call9_v7 main_call9_v8 (((cmpi .slt)) : (⟨S4x1x256x256, .i32⟩ : BufTy).Contents (Elt F) → (⟨S4x1x256x256, .i32⟩ : BufTy).Contents (Elt F) → (⟨S4x1x256x256, .i1⟩ : BufTy).Contents (Elt F)),
    StableHlo.nullary main_call9_c_3 ((constantI S_ 32 0#32) : (⟨S_, .i32⟩ : BufTy).Contents (Elt F)),
    StableHlo.binary main_call9_v2 main_call9_c_3 main_call9_v9 (((cmpi .slt)) : (⟨S_, .i32⟩ : BufTy).Contents (Elt F) → (⟨S_, .i32⟩ : BufTy).Contents (Elt F) → (⟨S_, .i1⟩ : BufTy).Contents (Elt F)),
    StableHlo.unary main_call9_v9 main_call9_v10 (((broadcastInDim S4x1x256x256 ![] bcast_S_S4x1x256x256)) : (⟨S_, .i1⟩ : BufTy).Contents (Elt F) → (⟨S4x1x256x256, .i1⟩ : BufTy).Contents (Elt F)),
    StableHlo.binary main_call9_v8 main_call9_v10 main_call9_v11 (((cmpi .ne)) : (⟨S4x1x256x256, .i1⟩ : BufTy).Contents (Elt F) → (⟨S4x1x256x256, .i1⟩ : BufTy).Contents (Elt F) → (⟨S4x1x256x256, .i1⟩ : BufTy).Contents (Elt F)),
    StableHlo.binary main_call9_v11 main_call9_v6 main_call9_v12 ((andi) : (⟨S4x1x256x256, .i1⟩ : BufTy).Contents (Elt F) → (⟨S4x1x256x256, .i1⟩ : BufTy).Contents (Elt F) → (⟨S4x1x256x256, .i1⟩ : BufTy).Contents (Elt F)),
    StableHlo.unary main_call9_v2 main_call9_v13 (((broadcastInDim S4x1x256x256 ![] bcast_S_S4x1x256x256)) : (⟨S_, .i32⟩ : BufTy).Contents (Elt F) → (⟨S4x1x256x256, .i32⟩ : BufTy).Contents (Elt F)),
    StableHlo.binary main_call9_v4 main_call9_v13 main_call9_v14 ((addi) : (⟨S4x1x256x256, .i32⟩ : BufTy).Contents (Elt F) → (⟨S4x1x256x256, .i32⟩ : BufTy).Contents (Elt F) → (⟨S4x1x256x256, .i32⟩ : BufTy).Contents (Elt F)),
    StableHlo.ternary main_call9_v12 main_call9_v14 main_call9_v4 main_v27 ((select) : (⟨S4x1x256x256, .i1⟩ : BufTy).Contents (Elt F) → (⟨S4x1x256x256, .i32⟩ : BufTy).Contents (Elt F) → (⟨S4x1x256x256, .i32⟩ : BufTy).Contents (Elt F) → (⟨S4x1x256x256, .i32⟩ : BufTy).Contents (Elt F)) ]
theorem main_part0_ops19_plain_eq : (main_part0_ops19 : List (HloOp τ sig (Elt F))) = main_part0_ops19_plain := by
  chain_rfl

variable (V : Valuation τ sig (Elt F))

/-- The buffer contents before line 0: the given ones. -/
def W0 : Valuation τ sig (Elt F) := V
/-- The buffer contents after line 0. -/
@[irreducible] def W1 : Valuation τ sig (Elt F) := after main_part0_ops0 (W0 V)
/-- The buffer contents after line 1. -/
@[irreducible] def W2 : Valuation τ sig (Elt F) := after main_part0_ops1 (W1 V)
/-- The buffer contents after line 2. -/
@[irreducible] def W3 : Valuation τ sig (Elt F) := after main_part0_ops2 (W2 V)
/-- The buffer contents after line 3. -/
@[irreducible] def W4 : Valuation τ sig (Elt F) := after main_part0_ops3 (W3 V)
/-- The buffer contents after line 4. -/
@[irreducible] def W5 : Valuation τ sig (Elt F) := after main_part0_ops4 (W4 V)
/-- The buffer contents after line 5. -/
@[irreducible] def W6 : Valuation τ sig (Elt F) := after main_part0_ops5 (W5 V)
/-- The buffer contents after line 6. -/
@[irreducible] def W7 : Valuation τ sig (Elt F) := after main_part0_ops6 (W6 V)
/-- The buffer contents after line 7. -/
@[irreducible] def W8 : Valuation τ sig (Elt F) := after main_part0_ops7 (W7 V)
/-- The buffer contents after line 8. -/
@[irreducible] def W9 : Valuation τ sig (Elt F) := after main_part0_ops8 (W8 V)
/-- The buffer contents after line 9. -/
@[irreducible] def W10 : Valuation τ sig (Elt F) := after main_part0_ops9 (W9 V)
/-- The buffer contents after line 10. -/
@[irreducible] def W11 : Valuation τ sig (Elt F) := after main_part0_ops10 (W10 V)
/-- The buffer contents after line 11. -/
@[irreducible] def W12 : Valuation τ sig (Elt F) := after main_part0_ops11 (W11 V)
/-- The buffer contents after line 12. -/
@[irreducible] def W13 : Valuation τ sig (Elt F) := after main_part0_ops12 (W12 V)
/-- The buffer contents after line 13. -/
@[irreducible] def W14 : Valuation τ sig (Elt F) := after main_part0_ops13 (W13 V)
/-- The buffer contents after line 14. -/
@[irreducible] def W15 : Valuation τ sig (Elt F) := after main_part0_ops14 (W14 V)
/-- The buffer contents after line 15. -/
@[irreducible] def W16 : Valuation τ sig (Elt F) := after main_part0_ops15 (W15 V)
/-- The buffer contents after line 16. -/
@[irreducible] def W17 : Valuation τ sig (Elt F) := after main_part0_ops16 (W16 V)
/-- The buffer contents after line 17. -/
@[irreducible] def W18 : Valuation τ sig (Elt F) := after main_part0_ops17 (W17 V)
/-- The buffer contents after line 18. -/
@[irreducible] def W19 : Valuation τ sig (Elt F) := after main_part0_ops18 (W18 V)
/-- The buffer contents after line 19. -/
@[irreducible] def W20 : Valuation τ sig (Elt F) := after main_part0_ops19 (W19 V)
/-- The buffer contents after line 20. -/
@[irreducible] def W21 : Valuation τ sig (Elt F) := after main_part0_ops20 (W20 V)
/-- The buffer contents after line 21. -/
@[irreducible] def W22 : Valuation τ sig (Elt F) := after main_part1_ops0 (W21 V)
/-- The buffer contents after line 22. -/
@[irreducible] def W23 : Valuation τ sig (Elt F) := after main_part2_ops0 (W22 V)
/-- The buffer contents after line 23. -/
@[irreducible] def W24 : Valuation τ sig (Elt F) := after main_part3_ops0 (W23 V)
/-- The buffer contents after line 24. -/
@[irreducible] def W25 : Valuation τ sig (Elt F) := after main_part4_ops0 (W24 V)
/-- The buffer contents after line 25. -/
@[irreducible] def W26 : Valuation τ sig (Elt F) := after main_part5_ops0 (W25 V)
/-- The buffer contents after line 26. -/
@[irreducible] def W27 : Valuation τ sig (Elt F) := after main_part6_ops0 (W26 V)
/-- The buffer contents after line 27. -/
@[irreducible] def W28 : Valuation τ sig (Elt F) := after main_part7_ops0 (W27 V)
/-- The buffer contents after line 28. -/
@[irreducible] def W29 : Valuation τ sig (Elt F) := after main_part8_ops0 (W28 V)
/-- The buffer contents after line 29. -/
@[irreducible] def W30 : Valuation τ sig (Elt F) := after main_part9_ops0 (W29 V)
/-- The buffer contents after line 30. -/
@[irreducible] def W31 : Valuation τ sig (Elt F) := after main_part10_ops0 (W30 V)
/-- The buffer contents after line 31. -/
@[irreducible] def W32 : Valuation τ sig (Elt F) := after main_part11_ops0 (W31 V)
/-- The buffer contents after line 32. -/
@[irreducible] def W33 : Valuation τ sig (Elt F) := after main_part12_ops0 (W32 V)
/-- The buffer contents after line 33. -/
@[irreducible] def W34 : Valuation τ sig (Elt F) := after main_part13_ops0 (W33 V)
/-- The buffer contents after line 34. -/
@[irreducible] def W35 : Valuation τ sig (Elt F) := after main_part14_ops0 (W34 V)
/-- The buffer contents after line 35. -/
@[irreducible] def W36 : Valuation τ sig (Elt F) := after main_part15_ops0 (W35 V)
/-- The buffer contents after line 36. -/
@[irreducible] def W37 : Valuation τ sig (Elt F) := after main_part16_ops0 (W36 V)
/-- The buffer contents after line 37. -/
@[irreducible] def W38 : Valuation τ sig (Elt F) := after main_part17_ops0 (W37 V)
/-- The buffer contents after line 38. -/
@[irreducible] def W39 : Valuation τ sig (Elt F) := after main_part18_ops0 (W38 V)
/-- The buffer contents after line 39. -/
@[irreducible] def W40 : Valuation τ sig (Elt F) := after main_part19_ops0 (W39 V)
/-- The buffer contents after line 40. -/
@[irreducible] def W41 : Valuation τ sig (Elt F) := after main_part20_ops0 (W40 V)

theorem skip0 (r : Ref sig .tc) (h : r ∉ Wl0) : W1 V (no_index (Proc.devRef .tc r)) = W0 V (Proc.devRef .tc r) := by
  unfold W1; exact LibAfter.after_skip _ hW0 _ r h
theorem into0 (r : Ref sig .tc) (h : r ∈ Wl0) : W1 V (no_index (Proc.devRef .tc r)) = after main_part0_ops0 (W0 V) (Proc.devRef .tc r) := by
  unfold W1; rfl
theorem skip1 (r : Ref sig .tc) (h : r ∉ Wl1) : W2 V (no_index (Proc.devRef .tc r)) = W1 V (Proc.devRef .tc r) := by
  unfold W2; exact LibAfter.after_skip _ hW1 _ r h
theorem into1 (r : Ref sig .tc) (h : r ∈ Wl1) : W2 V (no_index (Proc.devRef .tc r)) = after main_part0_ops1_plain (W1 V) (Proc.devRef .tc r) := by
  unfold W2; rw [main_part0_ops1_plain_eq]
theorem skip2 (r : Ref sig .tc) (h : r ∉ Wl2) : W3 V (no_index (Proc.devRef .tc r)) = W2 V (Proc.devRef .tc r) := by
  unfold W3; exact LibAfter.after_skip _ hW2 _ r h
theorem into2 (r : Ref sig .tc) (h : r ∈ Wl2) : W3 V (no_index (Proc.devRef .tc r)) = after main_part0_ops2 (W2 V) (Proc.devRef .tc r) := by
  unfold W3; rfl
theorem skip3 (r : Ref sig .tc) (h : r ∉ Wl3) : W4 V (no_index (Proc.devRef .tc r)) = W3 V (Proc.devRef .tc r) := by
  unfold W4; exact LibAfter.after_skip _ hW3 _ r h
theorem into3 (r : Ref sig .tc) (h : r ∈ Wl3) : W4 V (no_index (Proc.devRef .tc r)) = after main_part0_ops3_plain (W3 V) (Proc.devRef .tc r) := by
  unfold W4; rw [main_part0_ops3_plain_eq]
theorem skip4 (r : Ref sig .tc) (h : r ∉ Wl4) : W5 V (no_index (Proc.devRef .tc r)) = W4 V (Proc.devRef .tc r) := by
  unfold W5; exact LibAfter.after_skip _ hW4 _ r h
theorem into4 (r : Ref sig .tc) (h : r ∈ Wl4) : W5 V (no_index (Proc.devRef .tc r)) = after main_part0_ops4 (W4 V) (Proc.devRef .tc r) := by
  unfold W5; rfl
theorem skip5 (r : Ref sig .tc) (h : r ∉ Wl5) : W6 V (no_index (Proc.devRef .tc r)) = W5 V (Proc.devRef .tc r) := by
  unfold W6; exact LibAfter.after_skip _ hW5 _ r h
theorem into5 (r : Ref sig .tc) (h : r ∈ Wl5) : W6 V (no_index (Proc.devRef .tc r)) = after main_part0_ops5_plain (W5 V) (Proc.devRef .tc r) := by
  unfold W6; rw [main_part0_ops5_plain_eq]
theorem skip6 (r : Ref sig .tc) (h : r ∉ Wl6) : W7 V (no_index (Proc.devRef .tc r)) = W6 V (Proc.devRef .tc r) := by
  unfold W7; exact LibAfter.after_skip _ hW6 _ r h
theorem into6 (r : Ref sig .tc) (h : r ∈ Wl6) : W7 V (no_index (Proc.devRef .tc r)) = after main_part0_ops6 (W6 V) (Proc.devRef .tc r) := by
  unfold W7; rfl
theorem skip7 (r : Ref sig .tc) (h : r ∉ Wl7) : W8 V (no_index (Proc.devRef .tc r)) = W7 V (Proc.devRef .tc r) := by
  unfold W8; exact LibAfter.after_skip _ hW7 _ r h
theorem into7 (r : Ref sig .tc) (h : r ∈ Wl7) : W8 V (no_index (Proc.devRef .tc r)) = after main_part0_ops7_plain (W7 V) (Proc.devRef .tc r) := by
  unfold W8; rw [main_part0_ops7_plain_eq]
theorem skip8 (r : Ref sig .tc) (h : r ∉ Wl8) : W9 V (no_index (Proc.devRef .tc r)) = W8 V (Proc.devRef .tc r) := by
  unfold W9; exact LibAfter.after_skip _ hW8 _ r h
theorem into8 (r : Ref sig .tc) (h : r ∈ Wl8) : W9 V (no_index (Proc.devRef .tc r)) = after main_part0_ops8 (W8 V) (Proc.devRef .tc r) := by
  unfold W9; rfl
theorem skip9 (r : Ref sig .tc) (h : r ∉ Wl9) : W10 V (no_index (Proc.devRef .tc r)) = W9 V (Proc.devRef .tc r) := by
  unfold W10; exact LibAfter.after_skip _ hW9 _ r h
theorem into9 (r : Ref sig .tc) (h : r ∈ Wl9) : W10 V (no_index (Proc.devRef .tc r)) = after main_part0_ops9_plain (W9 V) (Proc.devRef .tc r) := by
  unfold W10; rw [main_part0_ops9_plain_eq]
theorem skip10 (r : Ref sig .tc) (h : r ∉ Wl10) : W11 V (no_index (Proc.devRef .tc r)) = W10 V (Proc.devRef .tc r) := by
  unfold W11; exact LibAfter.after_skip _ hW10 _ r h
theorem into10 (r : Ref sig .tc) (h : r ∈ Wl10) : W11 V (no_index (Proc.devRef .tc r)) = after main_part0_ops10 (W10 V) (Proc.devRef .tc r) := by
  unfold W11; rfl
theorem skip11 (r : Ref sig .tc) (h : r ∉ Wl11) : W12 V (no_index (Proc.devRef .tc r)) = W11 V (Proc.devRef .tc r) := by
  unfold W12; exact LibAfter.after_skip _ hW11 _ r h
theorem into11 (r : Ref sig .tc) (h : r ∈ Wl11) : W12 V (no_index (Proc.devRef .tc r)) = after main_part0_ops11_plain (W11 V) (Proc.devRef .tc r) := by
  unfold W12; rw [main_part0_ops11_plain_eq]
theorem skip12 (r : Ref sig .tc) (h : r ∉ Wl12) : W13 V (no_index (Proc.devRef .tc r)) = W12 V (Proc.devRef .tc r) := by
  unfold W13; exact LibAfter.after_skip _ hW12 _ r h
theorem into12 (r : Ref sig .tc) (h : r ∈ Wl12) : W13 V (no_index (Proc.devRef .tc r)) = after main_part0_ops12 (W12 V) (Proc.devRef .tc r) := by
  unfold W13; rfl
theorem skip13 (r : Ref sig .tc) (h : r ∉ Wl13) : W14 V (no_index (Proc.devRef .tc r)) = W13 V (Proc.devRef .tc r) := by
  unfold W14; exact LibAfter.after_skip _ hW13 _ r h
theorem into13 (r : Ref sig .tc) (h : r ∈ Wl13) : W14 V (no_index (Proc.devRef .tc r)) = after main_part0_ops13_plain (W13 V) (Proc.devRef .tc r) := by
  unfold W14; rw [main_part0_ops13_plain_eq]
theorem skip14 (r : Ref sig .tc) (h : r ∉ Wl14) : W15 V (no_index (Proc.devRef .tc r)) = W14 V (Proc.devRef .tc r) := by
  unfold W15; exact LibAfter.after_skip _ hW14 _ r h
theorem into14 (r : Ref sig .tc) (h : r ∈ Wl14) : W15 V (no_index (Proc.devRef .tc r)) = after main_part0_ops14 (W14 V) (Proc.devRef .tc r) := by
  unfold W15; rfl
theorem skip15 (r : Ref sig .tc) (h : r ∉ Wl15) : W16 V (no_index (Proc.devRef .tc r)) = W15 V (Proc.devRef .tc r) := by
  unfold W16; exact LibAfter.after_skip _ hW15 _ r h
theorem into15 (r : Ref sig .tc) (h : r ∈ Wl15) : W16 V (no_index (Proc.devRef .tc r)) = after main_part0_ops15_plain (W15 V) (Proc.devRef .tc r) := by
  unfold W16; rw [main_part0_ops15_plain_eq]
theorem skip16 (r : Ref sig .tc) (h : r ∉ Wl16) : W17 V (no_index (Proc.devRef .tc r)) = W16 V (Proc.devRef .tc r) := by
  unfold W17; exact LibAfter.after_skip _ hW16 _ r h
theorem into16 (r : Ref sig .tc) (h : r ∈ Wl16) : W17 V (no_index (Proc.devRef .tc r)) = after main_part0_ops16 (W16 V) (Proc.devRef .tc r) := by
  unfold W17; rfl
theorem skip17 (r : Ref sig .tc) (h : r ∉ Wl17) : W18 V (no_index (Proc.devRef .tc r)) = W17 V (Proc.devRef .tc r) := by
  unfold W18; exact LibAfter.after_skip _ hW17 _ r h
theorem into17 (r : Ref sig .tc) (h : r ∈ Wl17) : W18 V (no_index (Proc.devRef .tc r)) = after main_part0_ops17_plain (W17 V) (Proc.devRef .tc r) := by
  unfold W18; rw [main_part0_ops17_plain_eq]
theorem skip18 (r : Ref sig .tc) (h : r ∉ Wl18) : W19 V (no_index (Proc.devRef .tc r)) = W18 V (Proc.devRef .tc r) := by
  unfold W19; exact LibAfter.after_skip _ hW18 _ r h
theorem into18 (r : Ref sig .tc) (h : r ∈ Wl18) : W19 V (no_index (Proc.devRef .tc r)) = after main_part0_ops18 (W18 V) (Proc.devRef .tc r) := by
  unfold W19; rfl
theorem skip19 (r : Ref sig .tc) (h : r ∉ Wl19) : W20 V (no_index (Proc.devRef .tc r)) = W19 V (Proc.devRef .tc r) := by
  unfold W20; exact LibAfter.after_skip _ hW19 _ r h
theorem into19 (r : Ref sig .tc) (h : r ∈ Wl19) : W20 V (no_index (Proc.devRef .tc r)) = after main_part0_ops19_plain (W19 V) (Proc.devRef .tc r) := by
  unfold W20; rw [main_part0_ops19_plain_eq]
theorem skip20 (r : Ref sig .tc) (h : r ∉ Wl20) : W21 V (no_index (Proc.devRef .tc r)) = W20 V (Proc.devRef .tc r) := by
  unfold W21; exact LibAfter.after_skip _ hW20 _ r h
theorem into20 (r : Ref sig .tc) (h : r ∈ Wl20) : W21 V (no_index (Proc.devRef .tc r)) = after main_part0_ops20 (W20 V) (Proc.devRef .tc r) := by
  unfold W21; rfl
theorem skip21 (r : Ref sig .tc) (h : r ∉ Wl21) : W22 V (no_index (Proc.devRef .tc r)) = W21 V (Proc.devRef .tc r) := by
  unfold W22; exact LibAfter.after_skip _ hW21 _ r h
theorem into21 (r : Ref sig .tc) (h : r ∈ Wl21) : W22 V (no_index (Proc.devRef .tc r)) = after main_part1_ops0 (W21 V) (Proc.devRef .tc r) := by
  unfold W22; rfl
theorem skip22 (r : Ref sig .tc) (h : r ∉ Wl22) : W23 V (no_index (Proc.devRef .tc r)) = W22 V (Proc.devRef .tc r) := by
  unfold W23; exact LibAfter.after_skip _ hW22 _ r h
theorem into22 (r : Ref sig .tc) (h : r ∈ Wl22) : W23 V (no_index (Proc.devRef .tc r)) = after main_part2_ops0 (W22 V) (Proc.devRef .tc r) := by
  unfold W23; rfl
theorem skip23 (r : Ref sig .tc) (h : r ∉ Wl23) : W24 V (no_index (Proc.devRef .tc r)) = W23 V (Proc.devRef .tc r) := by
  unfold W24; exact LibAfter.after_skip _ hW23 _ r h
theorem into23 (r : Ref sig .tc) (h : r ∈ Wl23) : W24 V (no_index (Proc.devRef .tc r)) = after main_part3_ops0 (W23 V) (Proc.devRef .tc r) := by
  unfold W24; rfl
theorem skip24 (r : Ref sig .tc) (h : r ∉ Wl24) : W25 V (no_index (Proc.devRef .tc r)) = W24 V (Proc.devRef .tc r) := by
  unfold W25; exact LibAfter.after_skip _ hW24 _ r h
theorem into24 (r : Ref sig .tc) (h : r ∈ Wl24) : W25 V (no_index (Proc.devRef .tc r)) = after main_part4_ops0 (W24 V) (Proc.devRef .tc r) := by
  unfold W25; rfl
theorem skip25 (r : Ref sig .tc) (h : r ∉ Wl25) : W26 V (no_index (Proc.devRef .tc r)) = W25 V (Proc.devRef .tc r) := by
  unfold W26; exact LibAfter.after_skip _ hW25 _ r h
theorem into25 (r : Ref sig .tc) (h : r ∈ Wl25) : W26 V (no_index (Proc.devRef .tc r)) = after main_part5_ops0 (W25 V) (Proc.devRef .tc r) := by
  unfold W26; rfl
theorem skip26 (r : Ref sig .tc) (h : r ∉ Wl26) : W27 V (no_index (Proc.devRef .tc r)) = W26 V (Proc.devRef .tc r) := by
  unfold W27; exact LibAfter.after_skip _ hW26 _ r h
theorem into26 (r : Ref sig .tc) (h : r ∈ Wl26) : W27 V (no_index (Proc.devRef .tc r)) = after main_part6_ops0 (W26 V) (Proc.devRef .tc r) := by
  unfold W27; rfl
theorem skip27 (r : Ref sig .tc) (h : r ∉ Wl27) : W28 V (no_index (Proc.devRef .tc r)) = W27 V (Proc.devRef .tc r) := by
  unfold W28; exact LibAfter.after_skip _ hW27 _ r h
theorem into27 (r : Ref sig .tc) (h : r ∈ Wl27) : W28 V (no_index (Proc.devRef .tc r)) = after main_part7_ops0 (W27 V) (Proc.devRef .tc r) := by
  unfold W28; rfl
theorem skip28 (r : Ref sig .tc) (h : r ∉ Wl28) : W29 V (no_index (Proc.devRef .tc r)) = W28 V (Proc.devRef .tc r) := by
  unfold W29; exact LibAfter.after_skip _ hW28 _ r h
theorem into28 (r : Ref sig .tc) (h : r ∈ Wl28) : W29 V (no_index (Proc.devRef .tc r)) = after main_part8_ops0 (W28 V) (Proc.devRef .tc r) := by
  unfold W29; rfl
theorem skip29 (r : Ref sig .tc) (h : r ∉ Wl29) : W30 V (no_index (Proc.devRef .tc r)) = W29 V (Proc.devRef .tc r) := by
  unfold W30; exact LibAfter.after_skip _ hW29 _ r h
theorem into29 (r : Ref sig .tc) (h : r ∈ Wl29) : W30 V (no_index (Proc.devRef .tc r)) = after main_part9_ops0 (W29 V) (Proc.devRef .tc r) := by
  unfold W30; rfl
theorem skip30 (r : Ref sig .tc) (h : r ∉ Wl30) : W31 V (no_index (Proc.devRef .tc r)) = W30 V (Proc.devRef .tc r) := by
  unfold W31; exact LibAfter.after_skip _ hW30 _ r h
theorem into30 (r : Ref sig .tc) (h : r ∈ Wl30) : W31 V (no_index (Proc.devRef .tc r)) = after main_part10_ops0 (W30 V) (Proc.devRef .tc r) := by
  unfold W31; rfl
theorem skip31 (r : Ref sig .tc) (h : r ∉ Wl31) : W32 V (no_index (Proc.devRef .tc r)) = W31 V (Proc.devRef .tc r) := by
  unfold W32; exact LibAfter.after_skip _ hW31 _ r h
theorem into31 (r : Ref sig .tc) (h : r ∈ Wl31) : W32 V (no_index (Proc.devRef .tc r)) = after main_part11_ops0 (W31 V) (Proc.devRef .tc r) := by
  unfold W32; rfl
theorem skip32 (r : Ref sig .tc) (h : r ∉ Wl32) : W33 V (no_index (Proc.devRef .tc r)) = W32 V (Proc.devRef .tc r) := by
  unfold W33; exact LibAfter.after_skip _ hW32 _ r h
theorem into32 (r : Ref sig .tc) (h : r ∈ Wl32) : W33 V (no_index (Proc.devRef .tc r)) = after main_part12_ops0 (W32 V) (Proc.devRef .tc r) := by
  unfold W33; rfl
theorem skip33 (r : Ref sig .tc) (h : r ∉ Wl33) : W34 V (no_index (Proc.devRef .tc r)) = W33 V (Proc.devRef .tc r) := by
  unfold W34; exact LibAfter.after_skip _ hW33 _ r h
theorem into33 (r : Ref sig .tc) (h : r ∈ Wl33) : W34 V (no_index (Proc.devRef .tc r)) = after main_part13_ops0 (W33 V) (Proc.devRef .tc r) := by
  unfold W34; rfl
theorem skip34 (r : Ref sig .tc) (h : r ∉ Wl34) : W35 V (no_index (Proc.devRef .tc r)) = W34 V (Proc.devRef .tc r) := by
  unfold W35; exact LibAfter.after_skip _ hW34 _ r h
theorem into34 (r : Ref sig .tc) (h : r ∈ Wl34) : W35 V (no_index (Proc.devRef .tc r)) = after main_part14_ops0 (W34 V) (Proc.devRef .tc r) := by
  unfold W35; rfl
theorem skip35 (r : Ref sig .tc) (h : r ∉ Wl35) : W36 V (no_index (Proc.devRef .tc r)) = W35 V (Proc.devRef .tc r) := by
  unfold W36; exact LibAfter.after_skip _ hW35 _ r h
theorem into35 (r : Ref sig .tc) (h : r ∈ Wl35) : W36 V (no_index (Proc.devRef .tc r)) = after main_part15_ops0 (W35 V) (Proc.devRef .tc r) := by
  unfold W36; rfl
theorem skip36 (r : Ref sig .tc) (h : r ∉ Wl36) : W37 V (no_index (Proc.devRef .tc r)) = W36 V (Proc.devRef .tc r) := by
  unfold W37; exact LibAfter.after_skip _ hW36 _ r h
theorem into36 (r : Ref sig .tc) (h : r ∈ Wl36) : W37 V (no_index (Proc.devRef .tc r)) = after main_part16_ops0 (W36 V) (Proc.devRef .tc r) := by
  unfold W37; rfl
theorem skip37 (r : Ref sig .tc) (h : r ∉ Wl37) : W38 V (no_index (Proc.devRef .tc r)) = W37 V (Proc.devRef .tc r) := by
  unfold W38; exact LibAfter.after_skip _ hW37 _ r h
theorem into37 (r : Ref sig .tc) (h : r ∈ Wl37) : W38 V (no_index (Proc.devRef .tc r)) = after main_part17_ops0 (W37 V) (Proc.devRef .tc r) := by
  unfold W38; rfl
theorem skip38 (r : Ref sig .tc) (h : r ∉ Wl38) : W39 V (no_index (Proc.devRef .tc r)) = W38 V (Proc.devRef .tc r) := by
  unfold W39; exact LibAfter.after_skip _ hW38 _ r h
theorem into38 (r : Ref sig .tc) (h : r ∈ Wl38) : W39 V (no_index (Proc.devRef .tc r)) = after main_part18_ops0 (W38 V) (Proc.devRef .tc r) := by
  unfold W39; rfl
theorem skip39 (r : Ref sig .tc) (h : r ∉ Wl39) : W40 V (no_index (Proc.devRef .tc r)) = W39 V (Proc.devRef .tc r) := by
  unfold W40; exact LibAfter.after_skip _ hW39 _ r h
theorem into39 (r : Ref sig .tc) (h : r ∈ Wl39) : W40 V (no_index (Proc.devRef .tc r)) = after main_part19_ops0 (W39 V) (Proc.devRef .tc r) := by
  unfold W40; rfl
theorem skip40 (r : Ref sig .tc) (h : r ∉ Wl40) : W41 V (no_index (Proc.devRef .tc r)) = W40 V (Proc.devRef .tc r) := by
  unfold W41; exact LibAfter.after_skip _ hW40 _ r h
theorem into40 (r : Ref sig .tc) (h : r ∈ Wl40) : W41 V (no_index (Proc.devRef .tc r)) = after main_part20_ops0 (W40 V) (Proc.devRef .tc r) := by
  unfold W41; rfl

end Cert.ReferenceIdeal.Walk

end
-- ==== Proof.RDefs.lean ====
import proofs.«409975_j2585570312579_2_alg».proof.Proof.RWalk
import proofs.«409975_j2585570312579_2_alg».proof.Proof.RefRun
import proofs.«409975_j2585570312579_2_alg».proof.Proof.Spec
import Idealize.ShloMosaic.PureOps.Ideal
import Idealize.ShloMosaic.Lib.Pipeline.Regions

set_option maxRecDepth 100000

noncomputable section

namespace Cert.ReferenceIdeal.Glue

open Idealize.ShloMosaic Idealize.ShloMosaic.StableHlo Idealize.ShloMosaic.ValueIdx Cert.ReferenceIdeal Cert.ReferenceIdeal.Gen Cert.ReferenceIdeal.RunH Cert.Spec

/-- Read every buffer line by line from the last line down to line 0. -/
macro "rwalk_all" : tactic => `(tactic| simp (disch := decide) only [Walk.skip40, Walk.skip39, Walk.skip38, Walk.skip37, Walk.skip36, Walk.skip35, Walk.skip34, Walk.skip33, Walk.skip32, Walk.skip31, Walk.skip30, Walk.skip29, Walk.skip28, Walk.skip27, Walk.skip26, Walk.skip25, Walk.skip24, Walk.skip23, Walk.skip22, Walk.skip21, Walk.skip20, Walk.skip19, Walk.skip18, Walk.skip17, Walk.skip16, Walk.skip15, Walk.skip14, Walk.skip13, Walk.skip12, Walk.skip11, Walk.skip10, Walk.skip9, Walk.skip8, Walk.skip7, Walk.skip6, Walk.skip5, Walk.skip4, Walk.skip3, Walk.skip2, Walk.skip1, Walk.skip0, Walk.into40, Walk.into39, Walk.into38, Walk.into37, Walk.into36, Walk.into35, Walk.into34, Walk.into33, Walk.into32, Walk.into31, Walk.into30, Walk.into29, Walk.into28, Walk.into27, Walk.into26, Walk.into25, Walk.into24, Walk.into23, Walk.into22, Walk.into21, Walk.into20, Walk.into19, Walk.into18, Walk.into17, Walk.into16, Walk.into15, Walk.into14, Walk.into13, Walk.into12, Walk.into11, Walk.into10, Walk.into9, Walk.into8, Walk.into7, Walk.into6, Walk.into5, Walk.into4, Walk.into3, Walk.into2, Walk.into1, Walk.into0, main_part20_ops0, main_part19_ops0, main_part18_ops0, main_part17_ops0, main_part16_ops0, main_part15_ops0, main_part14_ops0, main_part13_ops0, main_part12_ops0, main_part11_ops0, main_part10_ops0, main_part9_ops0, main_part8_ops0, main_part7_ops0, main_part6_ops0, main_part5_ops0, main_part4_ops0, main_part3_ops0, main_part2_ops0, main_part1_ops0, main_part0_ops20, Walk.main_part0_ops19_plain, main_part0_ops18, Walk.main_part0_ops17_plain, main_part0_ops16, Walk.main_part0_ops15_plain, main_part0_ops14, Walk.main_part0_ops13_plain, main_part0_ops12, Walk.main_part0_ops11_plain, main_part0_ops10, Walk.main_part0_ops9_plain, main_part0_ops8, Walk.main_part0_ops7_plain, main_part0_ops6, Walk.main_part0_ops5_plain, main_part0_ops4, Walk.main_part0_ops3_plain, main_part0_ops2, Walk.main_part0_ops1_plain, main_part0_ops0, after_cons, after_nil, nullary_result', unary_result', binary_result', ternary_result', quaternary_result', reshape_result', nullary_result_ne', unary_result_ne', binary_result_ne', ternary_result_ne', quaternary_result_ne', reshape_result_ne', nary_result_ne'])
/-- Read every buffer line by line from the last line down to line 30. -/
macro "rwalk_from30" : tactic => `(tactic| simp (disch := decide) only [Walk.skip40, Walk.skip39, Walk.skip38, Walk.skip37, Walk.skip36, Walk.skip35, Walk.skip34, Walk.skip33, Walk.skip32, Walk.skip31, Walk.skip30, Walk.into40, Walk.into39, Walk.into38, Walk.into37, Walk.into36, Walk.into35, Walk.into34, Walk.into33, Walk.into32, Walk.into31, Walk.into30, main_part20_ops0, main_part19_ops0, main_part18_ops0, main_part17_ops0, main_part16_ops0, main_part15_ops0, main_part14_ops0, main_part13_ops0, main_part12_ops0, main_part11_ops0, main_part10_ops0, after_cons, after_nil, nullary_result', unary_result', binary_result', ternary_result', quaternary_result', reshape_result', nullary_result_ne', unary_result_ne', binary_result_ne', ternary_result_ne', quaternary_result_ne', reshape_result_ne', nary_result_ne'])
/-- Read every buffer line by line from the last line down to line 40. -/
macro "rwalk_from40" : tactic => `(tactic| simp (disch := decide) only [Walk.skip40, Walk.into40, main_part20_ops0, after_cons, after_nil, nullary_result', unary_result', binary_result', ternary_result', quaternary_result', reshape_result', nullary_result_ne', unary_result_ne', binary_result_ne', ternary_result_ne', quaternary_result_ne', reshape_result_ne', nary_result_ne'])

variable (m : (ℓ : Loc nD τ sig) → Buf (Elt Ideal) ℓ) (c : Dev nD)

/-- Core c's buffers after the host lines, read line by line. -/
abbrev WR : Valuation τ sig (Elt Ideal) := Walk.W41 (launchContents m c)

/-- The sixteen weight columns, the sixteen corner index arrays, and the quantised table. -/
abbrev wtR : Fin 16 → FVec Ideal SN1 .f32 := ![WR m c (Proc.devRef .tc main_v583), WR m c (Proc.devRef .tc main_v611), WR m c (Proc.devRef .tc main_v639), WR m c (Proc.devRef .tc main_v667), WR m c (Proc.devRef .tc main_v695), WR m c (Proc.devRef .tc main_v723), WR m c (Proc.devRef .tc main_v751), WR m c (Proc.devRef .tc main_v779), WR m c (Proc.devRef .tc main_v807), WR m c (Proc.devRef .tc main_v835), WR m c (Proc.devRef .tc main_v863), WR m c (Proc.devRef .tc main_v891), WR m c (Proc.devRef .tc main_v919), WR m c (Proc.devRef .tc main_v947), WR m c (Proc.devRef .tc main_v975), WR m c (Proc.devRef .tc main_v1003)]
abbrev idxR : Fin 16 → IVec SN 32 := ![WR m c (Proc.devRef .tc main_v582), WR m c (Proc.devRef .tc main_v610), WR m c (Proc.devRef .tc main_v638), WR m c (Proc.devRef .tc main_v666), WR m c (Proc.devRef .tc main_v694), WR m c (Proc.devRef .tc main_v722), WR m c (Proc.devRef .tc main_v750), WR m c (Proc.devRef .tc main_v778), WR m c (Proc.devRef .tc main_v806), WR m c (Proc.devRef .tc main_v834), WR m c (Proc.devRef .tc main_v862), WR m c (Proc.devRef .tc main_v890), WR m c (Proc.devRef .tc main_v918), WR m c (Proc.devRef .tc main_v946), WR m c (Proc.devRef .tc main_v974), WR m c (Proc.devRef .tc main_v1002)]
abbrev wqR : FVec Ideal ST .f32 := WR m c (Proc.devRef .tc main_v5)

end Cert.ReferenceIdeal.Glue

end
-- ==== Proof.GatherR.lean ====
/-
  The reference's sixteen-corner accumulation, read at an index.

  With T the table [83521 × 16], per corner k a column of start words idx k and a column of weights wt k, the reference
  starts from the zero array [262144 × 16] and adds, corner after corner, the weight column laid along the rows times the
  rows of T the (wrapped) start words name; the total is divided by sixteen. A wrapped start word is the word itself when
  it is not negative. At (p, q) the accumulation is therefore
      ((((0 + wt 0 p · T[row 0 p, q]) + …) + wt 15 p · T[row 15 p, q]) / 16 = (Σ_k T[row k p, q] · wt k p) · (1/16),
  which is the interpolated value of the specification, at every extended real.
-/
import proofs.«409975_j2585570312579_2_alg».proof.Proof.Spec
import proofs.«409975_j2585570312579_2_alg».proof.Proof.Algebra
import proofs.«409975_j2585570312579_2_alg».proof.Proof.LibRows
import Idealize.ShloMosaic.PureOps.Ideal
import Idealize.ShloMosaic.Lib.ValueIdx
import Idealize.ShloMosaic.Lib.ValueLayout
import Idealize.ShloMosaic.Lib.Pipeline.Value
import Idealize.ShloMosaic.Lib.StableHlo.Predicate

noncomputable section

namespace Cert.GatherR

open Idealize.ShloMosaic Idealize.ShloMosaic.ValueIdx Cert.Spec

/-- The scalar shape. -/
abbrev S0 : Shape := ⟨0, ![]⟩

/-- The wrapped start words of one corner, as an [n × 1] column: a negative word is shifted up by the table's height. -/
def wrapCol (h0n : S0.BroadcastsInDim SN (![] : Fin 0 → Fin SN.rank))
    (hcol : SN.BroadcastsInDim SN1 (![0] : Fin 1 → Fin SN1.rank)) (i : IVec SN 32) : IVec SN1 32 :=
  broadcastInDim SN1 ![0] hcol
    (select (cmpi .slt i (broadcastInDim SN ![] h0n (constantI S0 32 0#32)))
      (addi i (broadcastInDim SN ![] h0n (constantI S0 32 83521#32))) i)

/-- One corner's contribution: its weight column laid along the rows, times the table rows its start words name. -/
def term (h0n : S0.BroadcastsInDim SN (![] : Fin 0 → Fin SN.rank))
    (hcol : SN.BroadcastsInDim SN1 (![0] : Fin 1 → Fin SN1.rank))
    (h16 : SN1.BroadcastsInDim SN16 (![0, 1] : Fin 2 → Fin SN16.rank))
    (d : GatherDims ST SN1 SN16) (T : FVec Ideal ST .f32) (i : IVec SN 32) (w : FVec Ideal SN1 .f32) :
    FVec Ideal SN16 .f32 :=
  mulf (broadcastInDim SN16 ![0, 1] h16 w) (Host.gather d T (wrapCol h0n hcol i))

/-- The zero array the accumulation starts from. -/
def zeros (h0s : S0.BroadcastsInDim SN16 (![] : Fin 0 → Fin SN16.rank)) : FVec Ideal SN16 .f32 :=
  broadcastInDim SN16 ![] h0s (constant (F := Ideal) S0 .f32 0x00000000#32)

/-- The sixteen contributions added one by one to zero, corner 0 first. -/
def acc (h0n : S0.BroadcastsInDim SN (![] : Fin 0 → Fin SN.rank))
    (hcol : SN.BroadcastsInDim SN1 (![0] : Fin 1 → Fin SN1.rank))
    (h16 : SN1.BroadcastsInDim SN16 (![0, 1] : Fin 2 → Fin SN16.rank))
    (h0s : S0.BroadcastsInDim SN16 (![] : Fin 0 → Fin SN16.rank))
    (d : GatherDims ST SN1 SN16) (T : FVec Ideal ST .f32) (idx : Fin 16 → IVec SN 32)
    (wt : Fin 16 → FVec Ideal SN1 .f32) : FVec Ideal SN16 .f32 :=
  addf (addf (addf (addf (addf (addf (addf (addf (addf (addf (addf (addf (addf (addf (addf (addf (zeros h0s)
    (term h0n hcol h16 d T (idx 0) (wt 0)))
    (term h0n hcol h16 d T (idx 1) (wt 1)))
    (term h0n hcol h16 d T (idx 2) (wt 2)))
    (term h0n hcol h16 d T (idx 3) (wt 3)))
    (term h0n hcol h16 d T (idx 4) (wt 4)))
    (term h0n hcol h16 d T (idx 5) (wt 5)))
    (term h0n hcol h16 d T (idx 6) (wt 6)))
    (term h0n hcol h16 d T (idx 7) (wt 7)))
    (term h0n hcol h16 d T (idx 8) (wt 8)))
    (term h0n hcol h16 d T (idx 9) (wt 9)))
    (term h0n hcol h16 d T (idx 10) (wt 10)))
    (term h0n hcol h16 d T (idx 11) (wt 11)))
    (term h0n hcol h16 d T (idx 12) (wt 12)))
    (term h0n hcol h16 d T (idx 13) (wt 13)))
    (term h0n hcol h16 d T (idx 14) (wt 14)))
    (term h0n hcol h16 d T (idx 15) (wt 15))

/-- The reference's value: the accumulation divided by sixteen. -/
def refValue (h0n : S0.BroadcastsInDim SN (![] : Fin 0 → Fin SN.rank))
    (hcol : SN.BroadcastsInDim SN1 (![0] : Fin 1 → Fin SN1.rank))
    (h16 : SN1.BroadcastsInDim SN16 (![0, 1] : Fin 2 → Fin SN16.rank))
    (h0s : S0.BroadcastsInDim SN16 (![] : Fin 0 → Fin SN16.rank))
    (d : GatherDims ST SN1 SN16) (T : FVec Ideal ST .f32) (idx : Fin 16 → IVec SN 32)
    (wt : Fin 16 → FVec Ideal SN1 .f32) : FVec Ideal SN16 .f32 :=
  Host.divf (acc h0n hcol h16 h0s d T idx wt)
    (broadcastInDim SN16 ![] h0s (constant (F := Ideal) S0 .f32 0x41800000#32))

/-- A word that is not negative is not below zero in the signed order. -/
theorem slt_zero_of_nonneg (w : BitVec 32) (hw : 0 ≤ w.toInt) : IntOp.cmpi .slt w 0#32 = 0#1 := by
  have h0 : (0#32 : BitVec 32).toInt = 0 := by decide
  have : w.slt 0#32 = false := by
    simp only [BitVec.slt, h0, decide_eq_false_iff_not, not_lt]
    exact hw
  unfold IntOp.cmpi
  show BitVec.ofBool (w.slt 0#32) = 0#1
  rw [this]
  rfl

/-- The wrapped column at row p is the start word itself, when that word is not negative. -/
theorem wrapCol_apply (h0n : S0.BroadcastsInDim SN (![] : Fin 0 → Fin SN.rank))
    (hcol : SN.BroadcastsInDim SN1 (![0] : Fin 1 → Fin SN1.rank)) (i : IVec SN 32) (p : Fin 262144)
    (hi : 0 ≤ (i (ix1 p)).toInt) :
    wrapCol h0n hcol i (StableHlo.Predicate.ixP p) = i (ix1 p) := by
  unfold wrapCol
  rw [broadcastInDim_apply (![0] : Fin 1 → Fin SN1.rank) hcol _ (StableHlo.Predicate.ixP p) (ix1 p)
    (fun a => by match a with | ⟨0, _⟩ => rfl)]
  rw [select_apply]
  show Scalar.select (IntOp.cmpi .slt (i (ix1 p)) 0#32) _ (i (ix1 p)) = i (ix1 p)
  rw [slt_zero_of_nonneg _ hi, select_zero]

/-- One corner's contribution at (p, q): the weight at p times the table's entry at (the corner's row, q). -/
theorem term_apply (h0n : S0.BroadcastsInDim SN (![] : Fin 0 → Fin SN.rank))
    (hcol : SN.BroadcastsInDim SN1 (![0] : Fin 1 → Fin SN1.rank))
    (h16 : SN1.BroadcastsInDim SN16 (![0, 1] : Fin 2 → Fin SN16.rank))
    (d : GatherDims ST SN1 SN16) (hoff : d.offsetDims = [1]) (hcoll : d.collapsedSliceDims = [0])
    (hob : d.operandBatchingDims = []) (hsim : d.startIndexMap = [0]) (hivd : d.indexVectorDim = 1)
    (T : FVec Ideal ST .f32) (i : IVec SN 32) (w : FVec Ideal SN1 .f32)
    (hi : ∀ n : Fin 262144, 0 ≤ (i (ix1 n)).toInt) (p : Fin 262144) (q : Fin 16) :
    term h0n hcol h16 d T i w (ix2 p q) = w (ix2 p 0) * T (ix2 (rowOf (i (ix1 p))) q) := by
  unfold term
  rw [mulf_apply]
  rw [broadcastInDim_apply (![0, 1] : Fin 2 → Fin SN16.rank) h16 w (ix2 p q) (ix2 p 0)
    (fun a => by match a with | ⟨0, _⟩ => rfl | ⟨1, _⟩ => rfl)]
  rw [Cert.LibRows.gather_rows d hoff hcoll hob hsim hivd T (wrapCol h0n hcol i) (by norm_num) p q]
  have hrow : Cert.LibRows.rowOf (N := 83521) (by norm_num) (wrapCol h0n hcol i) p = rowOf (i (ix1 p)) := by
    apply Fin.ext
    show min (wrapCol h0n hcol i (StableHlo.Predicate.ixP p)).toInt.toNat (83521 - 1) = min (i (ix1 p)).toInt.toNat 83520
    rw [wrapCol_apply h0n hcol i p (hi p)]
  rw [hrow]

/-- The reference's value is the specification's interpolated value, when every start word lies in the table. -/
theorem refValue_eq (h0n : S0.BroadcastsInDim SN (![] : Fin 0 → Fin SN.rank))
    (hcol : SN.BroadcastsInDim SN1 (![0] : Fin 1 → Fin SN1.rank))
    (h16 : SN1.BroadcastsInDim SN16 (![0, 1] : Fin 2 → Fin SN16.rank))
    (h0s : S0.BroadcastsInDim SN16 (![] : Fin 0 → Fin SN16.rank))
    (d : GatherDims ST SN1 SN16) (hoff : d.offsetDims = [1]) (hcoll : d.collapsedSliceDims = [0])
    (hob : d.operandBatchingDims = []) (hsim : d.startIndexMap = [0]) (hivd : d.indexVectorDim = 1)
    (T : FVec Ideal ST .f32) (idx : Fin 16 → IVec SN 32) (wt : Fin 16 → FVec Ideal SN1 .f32)
    (hr : InRange idx) :
    refValue h0n hcol h16 h0s d T idx wt = combine T idx wt := by
  funext i
  obtain ⟨p, q, rfl⟩ : ∃ (p : Fin 262144) (q : Fin 16), i = ix2 p q := ⟨i 0, i 1, eq_ix2 i⟩
  have ht : ∀ k : Fin 16, term h0n hcol h16 d T (idx k) (wt k) (ix2 p q)
      = wt k (ix2 p 0) * T (ix2 (rowOf (idx k (ix1 p))) q) := fun k =>
    term_apply h0n hcol h16 d hoff hcoll hob hsim hivd T (idx k) (wt k) (fun n => (hr k n).1) p q
  have hz : zeros h0s (ix2 p q) = 0 := Cert.Alg.ofBits_zero
  show Ideal.div (acc h0n hcol h16 h0s d T idx wt (ix2 p q)) (Ideal.ofBits .f32 0x41800000#32)
    = (∑ k : Fin 16, T (ix2 (rowOf (idx k (ix1 p))) q) * wt k (ix2 p 0)) * ((1 / 16 : ℝ) : EReal)
  rw [Cert.Alg.div_sixteen]
  congr 1
  unfold acc
  simp only [addf_apply, ht, hz]
  rw [Cert.Alg.fold16 (fun k => wt k (ix2 p 0) * T (ix2 (rowOf (idx k (ix1 p))) q))]
  exact Finset.sum_congr rfl (fun k _ => mul_comm _ _)

end Cert.GatherR

end
-- ==== Proof.RGlue.lean ====
/-
  The idealized reference program's result, as a function of the quantised table, the sixteen corner index arrays and
  the sixteen corner weight columns.

  The host program is a straight line of tensor operations, read line by line. From the line that starts the
  accumulation on, each corner k contributes its weight column laid along the rows times the rows of the quantised table
  that its (wrapped) index array names; the sixteen contributions are added one by one to the zero array, and the total is
  divided by sixteen. That array is then re-laid as [4, 1, 256, 256, 4, 4], its two middle pairs of axes interleaved, and
  flattened to [4, 1, 1024, 1024] (the pixel shuffle). When every corner's start word lies in the table, the scaled
  accumulation is the interpolated value of the specification, so the result buffer holds its pixel shuffle; the two
  arguments of the program are left as launched.
-/
import proofs.«409975_j2585570312579_2_alg».proof.Proof.RDefs
import proofs.«409975_j2585570312579_2_alg».proof.Proof.RefRun
import proofs.«409975_j2585570312579_2_alg».proof.Proof.GatherR
import proofs.«409975_j2585570312579_2_alg».proof.Proof.Algebra
import proofs.«409975_j2585570312579_2_alg».proof.Proof.LibAfter
import Idealize.ShloMosaic.Lib.Pipeline.Regions

set_option maxRecDepth 100000
-- reading eleven lines of sixty operations each takes more steps than the default allows
set_option maxHeartbeats 0
set_option Elab.async false

noncomputable section

namespace Cert.ReferenceIdeal.Glue

open Idealize.ShloMosaic Idealize.ShloMosaic.StableHlo Idealize.ShloMosaic.ValueIdx Cert.ReferenceIdeal Cert.ReferenceIdeal.Gen Cert.ReferenceIdeal.RunH Cert.Spec

variable (m : (ℓ : Loc nD τ sig) → Buf (Elt Ideal) ℓ) (c : Dev nD)

/-- The whole line of host operations, run from the launch contents, leaves the buffers the line-by-line reading names. -/
theorem ops_eq : StableHlo.after (RunH.ops (F := Ideal)) (launchContents m c) = WR m c := by
  simp only [LibAfter.after_append]
  unfold WR Walk.W41 Walk.W40 Walk.W39 Walk.W38 Walk.W37 Walk.W36 Walk.W35 Walk.W34 Walk.W33 Walk.W32 Walk.W31 Walk.W30 Walk.W29 Walk.W28 Walk.W27 Walk.W26 Walk.W25 Walk.W24 Walk.W23 Walk.W22 Walk.W21 Walk.W20 Walk.W19 Walk.W18 Walk.W17 Walk.W16 Walk.W15 Walk.W14 Walk.W13 Walk.W12 Walk.W11 Walk.W10 Walk.W9 Walk.W8 Walk.W7 Walk.W6 Walk.W5 Walk.W4 Walk.W3 Walk.W2 Walk.W1 Walk.W0
  rfl

/-- The last accumulator divided by sixteen is the sixteen-corner accumulation of the quantised table's rows. -/
theorem acc_eq : WR m c (Proc.devRef .tc main_v1015) = GatherR.refValue bcast_S_S262144 bcast_S262144_S262144x1_0 bcast_S262144x1_S262144x16_0_1 bcast_S_S262144x16
    gather_S83521x16_S262144x1_S262144x16_1_0_n_n_0_1_116 (WR m c (Proc.devRef .tc main_v5))
    ![WR m c (Proc.devRef .tc main_v582), WR m c (Proc.devRef .tc main_v610), WR m c (Proc.devRef .tc main_v638), WR m c (Proc.devRef .tc main_v666), WR m c (Proc.devRef .tc main_v694), WR m c (Proc.devRef .tc main_v722), WR m c (Proc.devRef .tc main_v750), WR m c (Proc.devRef .tc main_v778), WR m c (Proc.devRef .tc main_v806), WR m c (Proc.devRef .tc main_v834), WR m c (Proc.devRef .tc main_v862), WR m c (Proc.devRef .tc main_v890), WR m c (Proc.devRef .tc main_v918), WR m c (Proc.devRef .tc main_v946), WR m c (Proc.devRef .tc main_v974), WR m c (Proc.devRef .tc main_v1002)]
    ![WR m c (Proc.devRef .tc main_v583), WR m c (Proc.devRef .tc main_v611), WR m c (Proc.devRef .tc main_v639), WR m c (Proc.devRef .tc main_v667), WR m c (Proc.devRef .tc main_v695), WR m c (Proc.devRef .tc main_v723), WR m c (Proc.devRef .tc main_v751), WR m c (Proc.devRef .tc main_v779), WR m c (Proc.devRef .tc main_v807), WR m c (Proc.devRef .tc main_v835), WR m c (Proc.devRef .tc main_v863), WR m c (Proc.devRef .tc main_v891), WR m c (Proc.devRef .tc main_v919), WR m c (Proc.devRef .tc main_v947), WR m c (Proc.devRef .tc main_v975), WR m c (Proc.devRef .tc main_v1003)] := by
  rwalk_from30
  chain_rfl

/-- The pixel shuffle: the [262144 × 16] array re-laid as [4, 1, 256, 256, 4, 4], its two middle pairs of axes
    interleaved, and flattened to [4, 1, 1024, 1024]. -/
def shuffleR (X : FVec Ideal S262144x16 .f32) : FVec Ideal S4x1x1024x1024 .f32 :=
  shapeCast S4x1x1024x1024
    (transpose S4x1x256x4x256x4 [0, 1, 2, 4, 3, 5]
      (shapeCast S4x1x256x256x4x4 X shapeCasts_S262144x16_S4x1x256x256x4x4)
      transposes_S4x1x256x256x4x4_S4x1x256x4x256x4_0_1_2_4_3_5)
    shapeCasts_S4x1x256x4x256x4_S4x1x1024x1024

/-- The result buffer is the pixel shuffle of the scaled accumulation. -/
theorem shuffle_eq : WR m c (Proc.devRef .tc main_v1018) = shuffleR (WR m c (Proc.devRef .tc main_v1015)) := by
  rwalk_from40
  chain_rfl

/-- Every fair execution of the idealized reference program ends with the result buffer at the pixel shuffle of the
    interpolated value, when every corner's start word lies in the table, and with its two arguments as launched. -/
theorem reference_value (ρ : Dev nD → PrngReg) (hr : ∀ c : Dev nD, InRange (idxR m c)) :
    θ_run (defs (F := Ideal)) (onTc (τ := τ) (main (F := Ideal))) ⟨m, fun _ => 0, ρ⟩ (fun r => ∀ c : Dev nD,
      r.2.mem ((c.tc : Thread nD τ).loc main_v1018) = shuffleR (combine (wqR m c) (idxR m c) (wtR m c))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run _ _ _).mono (fun r h c => ?_) (RunH.run (F := Ideal) m ρ)
  refine ⟨?_, ?_, ?_⟩
  · rw [h c main_v1018, congrFun (ops_eq m c) _, shuffle_eq, acc_eq,
      GatherR.refValue_eq _ _ _ _ _ rfl rfl rfl rfl rfl _ _ _ (hr c)]
  · exact (h c main_arg0).trans (RunH.arg0_kept _)
  · exact (h c main_arg1).trans (RunH.arg1_kept _)

end Cert.ReferenceIdeal.Glue

end
-- ==== Proof.CorrWtA.lean ====
/-
  The two idealized programs compute the same weight columns, the same corner index arrays and the same quantised table
  from inputs that agree: their host lines before the gathers are the same operations on the same inputs, and the one
  place they differ — the reference rounds by x + (round x − x), the kernel by round x — agrees on real numbers.
-/
import proofs.«409975_j2585570312579_2_alg».proof.Proof.KDefs
import proofs.«409975_j2585570312579_2_alg».proof.Proof.RDefs
import proofs.«409975_j2585570312579_2_alg».proof.Proof.Algebra
import proofs.«409975_j2585570312579_2_alg».proof.Proof.PreDecode
import proofs.«409975_j2585570312579_2_alg».proof.Defs
import Idealize.ShloMosaic.Lib.Pipeline.Regions

set_option maxRecDepth 100000
set_option maxHeartbeats 0
set_option Elab.async false

noncomputable section

namespace Cert.CorrWtA

open Idealize.ShloMosaic Idealize.ShloMosaic.StableHlo Idealize.ShloMosaic.ValueIdx Cert.Spec

variable (mK : (ℓ : Loc Cert.KernelIdeal.nD Cert.KernelIdeal.τ Cert.KernelIdeal.sig) → Buf (Elt Ideal) ℓ)
  (mR : (ℓ : Loc Cert.ReferenceIdeal.nD Cert.ReferenceIdeal.τ Cert.ReferenceIdeal.sig) → Buf (Elt Ideal) ℓ)
  (c : Dev 1)

/-- The reference's launch contents of the image are the kernel's. -/
theorem leaf0 (h0 : mR ((c.tc : Thread Cert.ReferenceIdeal.nD Cert.ReferenceIdeal.τ).loc Cert.ReferenceIdeal.main_arg0) = mK ((c.tc : Thread Cert.KernelIdeal.nD Cert.KernelIdeal.τ).loc Cert.KernelIdeal.main_arg0)) : Cert.ReferenceIdeal.Walk.W0 (launchContents mR c) (Proc.devRef .tc Cert.ReferenceIdeal.main_arg0)
    = Cert.KernelIdeal.Walk.W0 (Cert.KernelIdeal.Glue.M0 mK c) (Proc.devRef .tc Cert.KernelIdeal.main_arg0) := h0
theorem leaf1 (h1 : mR ((c.tc : Thread Cert.ReferenceIdeal.nD Cert.ReferenceIdeal.τ).loc Cert.ReferenceIdeal.main_arg1) = mK ((c.tc : Thread Cert.KernelIdeal.nD Cert.KernelIdeal.τ).loc Cert.KernelIdeal.main_arg1)) : Cert.ReferenceIdeal.Walk.W0 (launchContents mR c) (Proc.devRef .tc Cert.ReferenceIdeal.main_arg1)
    = Cert.KernelIdeal.Walk.W0 (Cert.KernelIdeal.Glue.M0 mK c) (Proc.devRef .tc Cert.KernelIdeal.main_arg1) := h1

/-- Weight columns 0 to 7 agree. -/
theorem wtA (h0 : mR ((c.tc : Thread Cert.ReferenceIdeal.nD Cert.ReferenceIdeal.τ).loc Cert.ReferenceIdeal.main_arg0) = mK ((c.tc : Thread Cert.KernelIdeal.nD Cert.KernelIdeal.τ).loc Cert.KernelIdeal.main_arg0)) :
    ((Cert.ReferenceIdeal.Glue.WR mR c (Proc.devRef .tc Cert.ReferenceIdeal.main_v583) : FVec Ideal SN1 .f32) = Cert.KernelIdeal.Glue.Wk mK c (Proc.devRef .tc Cert.KernelIdeal.main_v559)) ∧
    ((Cert.ReferenceIdeal.Glue.WR mR c (Proc.devRef .tc Cert.ReferenceIdeal.main_v611) : FVec Ideal SN1 .f32) = Cert.KernelIdeal.Glue.Wk mK c (Proc.devRef .tc Cert.KernelIdeal.main_v560)) ∧
    ((Cert.ReferenceIdeal.Glue.WR mR c (Proc.devRef .tc Cert.ReferenceIdeal.main_v639) : FVec Ideal SN1 .f32) = Cert.KernelIdeal.Glue.Wk mK c (Proc.devRef .tc Cert.KernelIdeal.main_v561)) ∧
    ((Cert.ReferenceIdeal.Glue.WR mR c (Proc.devRef .tc Cert.ReferenceIdeal.main_v667) : FVec Ideal SN1 .f32) = Cert.KernelIdeal.Glue.Wk mK c (Proc.devRef .tc Cert.KernelIdeal.main_v562)) ∧
    ((Cert.ReferenceIdeal.Glue.WR mR c (Proc.devRef .tc Cert.ReferenceIdeal.main_v695) : FVec Ideal SN1 .f32) = Cert.KernelIdeal.Glue.Wk mK c (Proc.devRef .tc Cert.KernelIdeal.main_v563)) ∧
    ((Cert.ReferenceIdeal.Glue.WR mR c (Proc.devRef .tc Cert.ReferenceIdeal.main_v723) : FVec Ideal SN1 .f32) = Cert.KernelIdeal.Glue.Wk mK c (Proc.devRef .tc Cert.KernelIdeal.main_v564)) ∧
    ((Cert.ReferenceIdeal.Glue.WR mR c (Proc.devRef .tc Cert.ReferenceIdeal.main_v751) : FVec Ideal SN1 .f32) = Cert.KernelIdeal.Glue.Wk mK c (Proc.devRef .tc Cert.KernelIdeal.main_v565)) ∧
    ((Cert.ReferenceIdeal.Glue.WR mR c (Proc.devRef .tc Cert.ReferenceIdeal.main_v779) : FVec Ideal SN1 .f32) = Cert.KernelIdeal.Glue.Wk mK c (Proc.devRef .tc Cert.KernelIdeal.main_v566)) := by
  rwalk_all
  walk_all
  rw [leaf0 mK mR c h0]
  refine ⟨?_, ?_, ?_, ?_, ?_, ?_, ?_, ?_⟩ <;> chain_rfl

end Cert.CorrWtA

end
-- ==== Proof.CorrWtB.lean ====
/-
  The two idealized programs compute the same weight columns, the same corner index arrays and the same quantised table
  from inputs that agree: their host lines before the gathers are the same operations on the same inputs, and the one
  place they differ — the reference rounds by x + (round x − x), the kernel by round x — agrees on real numbers.
-/
import proofs.«409975_j2585570312579_2_alg».proof.Proof.KDefs
import proofs.«409975_j2585570312579_2_alg».proof.Proof.RDefs
import proofs.«409975_j2585570312579_2_alg».proof.Proof.Algebra
import proofs.«409975_j2585570312579_2_alg».proof.Proof.PreDecode
import proofs.«409975_j2585570312579_2_alg».proof.Defs
import Idealize.ShloMosaic.Lib.Pipeline.Regions

set_option maxRecDepth 100000
set_option maxHeartbeats 0
set_option Elab.async false

noncomputable section

namespace Cert.CorrWtB

open Idealize.ShloMosaic Idealize.ShloMosaic.StableHlo Idealize.ShloMosaic.ValueIdx Cert.Spec

variable (mK : (ℓ : Loc Cert.KernelIdeal.nD Cert.KernelIdeal.τ Cert.KernelIdeal.sig) → Buf (Elt Ideal) ℓ)
  (mR : (ℓ : Loc Cert.ReferenceIdeal.nD Cert.ReferenceIdeal.τ Cert.ReferenceIdeal.sig) → Buf (Elt Ideal) ℓ)
  (c : Dev 1)

/-- The reference's launch contents of the image are the kernel's. -/
theorem leaf0 (h0 : mR ((c.tc : Thread Cert.ReferenceIdeal.nD Cert.ReferenceIdeal.τ).loc Cert.ReferenceIdeal.main_arg0) = mK ((c.tc : Thread Cert.KernelIdeal.nD Cert.KernelIdeal.τ).loc Cert.KernelIdeal.main_arg0)) : Cert.ReferenceIdeal.Walk.W0 (launchContents mR c) (Proc.devRef .tc Cert.ReferenceIdeal.main_arg0)
    = Cert.KernelIdeal.Walk.W0 (Cert.KernelIdeal.Glue.M0 mK c) (Proc.devRef .tc Cert.KernelIdeal.main_arg0) := h0
theorem leaf1 (h1 : mR ((c.tc : Thread Cert.ReferenceIdeal.nD Cert.ReferenceIdeal.τ).loc Cert.ReferenceIdeal.main_arg1) = mK ((c.tc : Thread Cert.KernelIdeal.nD Cert.KernelIdeal.τ).loc Cert.KernelIdeal.main_arg1)) : Cert.ReferenceIdeal.Walk.W0 (launchContents mR c) (Proc.devRef .tc Cert.ReferenceIdeal.main_arg1)
    = Cert.KernelIdeal.Walk.W0 (Cert.KernelIdeal.Glue.M0 mK c) (Proc.devRef .tc Cert.KernelIdeal.main_arg1) := h1

/-- Weight columns 8 to 15 agree. -/
theorem wtB (h0 : mR ((c.tc : Thread Cert.ReferenceIdeal.nD Cert.ReferenceIdeal.τ).loc Cert.ReferenceIdeal.main_arg0) = mK ((c.tc : Thread Cert.KernelIdeal.nD Cert.KernelIdeal.τ).loc Cert.KernelIdeal.main_arg0)) :
    ((Cert.ReferenceIdeal.Glue.WR mR c (Proc.devRef .tc Cert.ReferenceIdeal.main_v807) : FVec Ideal SN1 .f32) = Cert.KernelIdeal.Glue.Wk mK c (Proc.devRef .tc Cert.KernelIdeal.main_v567)) ∧
    ((Cert.ReferenceIdeal.Glue.WR mR c (Proc.devRef .tc Cert.ReferenceIdeal.main_v835) : FVec Ideal SN1 .f32) = Cert.KernelIdeal.Glue.Wk mK c (Proc.devRef .tc Cert.KernelIdeal.main_v568)) ∧
    ((Cert.ReferenceIdeal.Glue.WR mR c (Proc.devRef .tc Cert.ReferenceIdeal.main_v863) : FVec Ideal SN1 .f32) = Cert.KernelIdeal.Glue.Wk mK c (Proc.devRef .tc Cert.KernelIdeal.main_v569)) ∧
    ((Cert.ReferenceIdeal.Glue.WR mR c (Proc.devRef .tc Cert.ReferenceIdeal.main_v891) : FVec Ideal SN1 .f32) = Cert.KernelIdeal.Glue.Wk mK c (Proc.devRef .tc Cert.KernelIdeal.main_v570)) ∧
    ((Cert.ReferenceIdeal.Glue.WR mR c (Proc.devRef .tc Cert.ReferenceIdeal.main_v919) : FVec Ideal SN1 .f32) = Cert.KernelIdeal.Glue.Wk mK c (Proc.devRef .tc Cert.KernelIdeal.main_v571)) ∧
    ((Cert.ReferenceIdeal.Glue.WR mR c (Proc.devRef .tc Cert.ReferenceIdeal.main_v947) : FVec Ideal SN1 .f32) = Cert.KernelIdeal.Glue.Wk mK c (Proc.devRef .tc Cert.KernelIdeal.main_v572)) ∧
    ((Cert.ReferenceIdeal.Glue.WR mR c (Proc.devRef .tc Cert.ReferenceIdeal.main_v975) : FVec Ideal SN1 .f32) = Cert.KernelIdeal.Glue.Wk mK c (Proc.devRef .tc Cert.KernelIdeal.main_v573)) ∧
    ((Cert.ReferenceIdeal.Glue.WR mR c (Proc.devRef .tc Cert.ReferenceIdeal.main_v1003) : FVec Ideal SN1 .f32) = Cert.KernelIdeal.Glue.Wk mK c (Proc.devRef .tc Cert.KernelIdeal.main_v574)) := by
  rwalk_all
  walk_all
  rw [leaf0 mK mR c h0]
  refine ⟨?_, ?_, ?_, ?_, ?_, ?_, ?_, ?_⟩ <;> chain_rfl

end Cert.CorrWtB

end
-- ==== Proof.CorrIdx.lean ====
/-
  The two idealized programs compute the same weight columns, the same corner index arrays and the same quantised table
  from inputs that agree: their host lines before the gathers are the same operations on the same inputs, and the one
  place they differ — the reference rounds by x + (round x − x), the kernel by round x — agrees on real numbers.
-/
import proofs.«409975_j2585570312579_2_alg».proof.Proof.KDefs
import proofs.«409975_j2585570312579_2_alg».proof.Proof.RDefs
import proofs.«409975_j2585570312579_2_alg».proof.Proof.Algebra
import proofs.«409975_j2585570312579_2_alg».proof.Proof.PreDecode
import proofs.«409975_j2585570312579_2_alg».proof.Defs
import Idealize.ShloMosaic.Lib.Pipeline.Regions

set_option maxRecDepth 100000
set_option maxHeartbeats 0
set_option Elab.async false

noncomputable section

namespace Cert.CorrIdx

open Idealize.ShloMosaic Idealize.ShloMosaic.StableHlo Idealize.ShloMosaic.ValueIdx Cert.Spec

variable (mK : (ℓ : Loc Cert.KernelIdeal.nD Cert.KernelIdeal.τ Cert.KernelIdeal.sig) → Buf (Elt Ideal) ℓ)
  (mR : (ℓ : Loc Cert.ReferenceIdeal.nD Cert.ReferenceIdeal.τ Cert.ReferenceIdeal.sig) → Buf (Elt Ideal) ℓ)
  (c : Dev 1)

/-- The reference's launch contents of the image are the kernel's. -/
theorem leaf0 (h0 : mR ((c.tc : Thread Cert.ReferenceIdeal.nD Cert.ReferenceIdeal.τ).loc Cert.ReferenceIdeal.main_arg0) = mK ((c.tc : Thread Cert.KernelIdeal.nD Cert.KernelIdeal.τ).loc Cert.KernelIdeal.main_arg0)) : Cert.ReferenceIdeal.Walk.W0 (launchContents mR c) (Proc.devRef .tc Cert.ReferenceIdeal.main_arg0)
    = Cert.KernelIdeal.Walk.W0 (Cert.KernelIdeal.Glue.M0 mK c) (Proc.devRef .tc Cert.KernelIdeal.main_arg0) := h0
theorem leaf1 (h1 : mR ((c.tc : Thread Cert.ReferenceIdeal.nD Cert.ReferenceIdeal.τ).loc Cert.ReferenceIdeal.main_arg1) = mK ((c.tc : Thread Cert.KernelIdeal.nD Cert.KernelIdeal.τ).loc Cert.KernelIdeal.main_arg1)) : Cert.ReferenceIdeal.Walk.W0 (launchContents mR c) (Proc.devRef .tc Cert.ReferenceIdeal.main_arg1)
    = Cert.KernelIdeal.Walk.W0 (Cert.KernelIdeal.Glue.M0 mK c) (Proc.devRef .tc Cert.KernelIdeal.main_arg1) := h1

/-- The sixteen corner index arrays agree. -/
theorem idxAll (h0 : mR ((c.tc : Thread Cert.ReferenceIdeal.nD Cert.ReferenceIdeal.τ).loc Cert.ReferenceIdeal.main_arg0) = mK ((c.tc : Thread Cert.KernelIdeal.nD Cert.KernelIdeal.τ).loc Cert.KernelIdeal.main_arg0)) :
    ((Cert.ReferenceIdeal.Glue.WR mR c (Proc.devRef .tc Cert.ReferenceIdeal.main_v582) : IVec SN 32) = Cert.KernelIdeal.Glue.Wk mK c (Proc.devRef .tc Cert.KernelIdeal.main_v596)) ∧
    ((Cert.ReferenceIdeal.Glue.WR mR c (Proc.devRef .tc Cert.ReferenceIdeal.main_v610) : IVec SN 32) = Cert.KernelIdeal.Glue.Wk mK c (Proc.devRef .tc Cert.KernelIdeal.main_v613)) ∧
    ((Cert.ReferenceIdeal.Glue.WR mR c (Proc.devRef .tc Cert.ReferenceIdeal.main_v638) : IVec SN 32) = Cert.KernelIdeal.Glue.Wk mK c (Proc.devRef .tc Cert.KernelIdeal.main_v630)) ∧
    ((Cert.ReferenceIdeal.Glue.WR mR c (Proc.devRef .tc Cert.ReferenceIdeal.main_v666) : IVec SN 32) = Cert.KernelIdeal.Glue.Wk mK c (Proc.devRef .tc Cert.KernelIdeal.main_v647)) ∧
    ((Cert.ReferenceIdeal.Glue.WR mR c (Proc.devRef .tc Cert.ReferenceIdeal.main_v694) : IVec SN 32) = Cert.KernelIdeal.Glue.Wk mK c (Proc.devRef .tc Cert.KernelIdeal.main_v664)) ∧
    ((Cert.ReferenceIdeal.Glue.WR mR c (Proc.devRef .tc Cert.ReferenceIdeal.main_v722) : IVec SN 32) = Cert.KernelIdeal.Glue.Wk mK c (Proc.devRef .tc Cert.KernelIdeal.main_v681)) ∧
    ((Cert.ReferenceIdeal.Glue.WR mR c (Proc.devRef .tc Cert.ReferenceIdeal.main_v750) : IVec SN 32) = Cert.KernelIdeal.Glue.Wk mK c (Proc.devRef .tc Cert.KernelIdeal.main_v698)) ∧
    ((Cert.ReferenceIdeal.Glue.WR mR c (Proc.devRef .tc Cert.ReferenceIdeal.main_v778) : IVec SN 32) = Cert.KernelIdeal.Glue.Wk mK c (Proc.devRef .tc Cert.KernelIdeal.main_v715)) ∧
    ((Cert.ReferenceIdeal.Glue.WR mR c (Proc.devRef .tc Cert.ReferenceIdeal.main_v806) : IVec SN 32) = Cert.KernelIdeal.Glue.Wk mK c (Proc.devRef .tc Cert.KernelIdeal.main_v732)) ∧
    ((Cert.ReferenceIdeal.Glue.WR mR c (Proc.devRef .tc Cert.ReferenceIdeal.main_v834) : IVec SN 32) = Cert.KernelIdeal.Glue.Wk mK c (Proc.devRef .tc Cert.KernelIdeal.main_v749)) ∧
    ((Cert.ReferenceIdeal.Glue.WR mR c (Proc.devRef .tc Cert.ReferenceIdeal.main_v862) : IVec SN 32) = Cert.KernelIdeal.Glue.Wk mK c (Proc.devRef .tc Cert.KernelIdeal.main_v766)) ∧
    ((Cert.ReferenceIdeal.Glue.WR mR c (Proc.devRef .tc Cert.ReferenceIdeal.main_v890) : IVec SN 32) = Cert.KernelIdeal.Glue.Wk mK c (Proc.devRef .tc Cert.KernelIdeal.main_v783)) ∧
    ((Cert.ReferenceIdeal.Glue.WR mR c (Proc.devRef .tc Cert.ReferenceIdeal.main_v918) : IVec SN 32) = Cert.KernelIdeal.Glue.Wk mK c (Proc.devRef .tc Cert.KernelIdeal.main_v800)) ∧
    ((Cert.ReferenceIdeal.Glue.WR mR c (Proc.devRef .tc Cert.ReferenceIdeal.main_v946) : IVec SN 32) = Cert.KernelIdeal.Glue.Wk mK c (Proc.devRef .tc Cert.KernelIdeal.main_v817)) ∧
    ((Cert.ReferenceIdeal.Glue.WR mR c (Proc.devRef .tc Cert.ReferenceIdeal.main_v974) : IVec SN 32) = Cert.KernelIdeal.Glue.Wk mK c (Proc.devRef .tc Cert.KernelIdeal.main_v834)) ∧
    ((Cert.ReferenceIdeal.Glue.WR mR c (Proc.devRef .tc Cert.ReferenceIdeal.main_v1002) : IVec SN 32) = Cert.KernelIdeal.Glue.Wk mK c (Proc.devRef .tc Cert.KernelIdeal.main_v851)) := by
  rwalk_all
  walk_all
  rw [leaf0 mK mR c h0]
  refine ⟨?_, ?_, ?_, ?_, ?_, ?_, ?_, ?_, ?_, ?_, ?_, ?_, ?_, ?_, ?_, ?_⟩ <;> chain_rfl

end Cert.CorrIdx

end
-- ==== Proof.CorrWq.lean ====
/-
  The two idealized programs compute the same weight columns, the same corner index arrays and the same quantised table
  from inputs that agree: their host lines before the gathers are the same operations on the same inputs, and the one
  place they differ — the reference rounds by x + (round x − x), the kernel by round x — agrees on real numbers.
-/
import proofs.«409975_j2585570312579_2_alg».proof.Proof.KDefs
import proofs.«409975_j2585570312579_2_alg».proof.Proof.RDefs
import proofs.«409975_j2585570312579_2_alg».proof.Proof.Algebra
import proofs.«409975_j2585570312579_2_alg».proof.Proof.PreDecode
import proofs.«409975_j2585570312579_2_alg».proof.Defs
import Idealize.ShloMosaic.Lib.Pipeline.Regions

set_option maxRecDepth 100000
set_option maxHeartbeats 0
set_option Elab.async false

noncomputable section

namespace Cert.CorrWq

open Idealize.ShloMosaic Idealize.ShloMosaic.StableHlo Idealize.ShloMosaic.ValueIdx Cert.Spec

variable (mK : (ℓ : Loc Cert.KernelIdeal.nD Cert.KernelIdeal.τ Cert.KernelIdeal.sig) → Buf (Elt Ideal) ℓ)
  (mR : (ℓ : Loc Cert.ReferenceIdeal.nD Cert.ReferenceIdeal.τ Cert.ReferenceIdeal.sig) → Buf (Elt Ideal) ℓ)
  (c : Dev 1)

/-- The reference's launch contents of the image are the kernel's. -/
theorem leaf0 (h0 : mR ((c.tc : Thread Cert.ReferenceIdeal.nD Cert.ReferenceIdeal.τ).loc Cert.ReferenceIdeal.main_arg0) = mK ((c.tc : Thread Cert.KernelIdeal.nD Cert.KernelIdeal.τ).loc Cert.KernelIdeal.main_arg0)) : Cert.ReferenceIdeal.Walk.W0 (launchContents mR c) (Proc.devRef .tc Cert.ReferenceIdeal.main_arg0)
    = Cert.KernelIdeal.Walk.W0 (Cert.KernelIdeal.Glue.M0 mK c) (Proc.devRef .tc Cert.KernelIdeal.main_arg0) := h0
theorem leaf1 (h1 : mR ((c.tc : Thread Cert.ReferenceIdeal.nD Cert.ReferenceIdeal.τ).loc Cert.ReferenceIdeal.main_arg1) = mK ((c.tc : Thread Cert.KernelIdeal.nD Cert.KernelIdeal.τ).loc Cert.KernelIdeal.main_arg1)) : Cert.ReferenceIdeal.Walk.W0 (launchContents mR c) (Proc.devRef .tc Cert.ReferenceIdeal.main_arg1)
    = Cert.KernelIdeal.Walk.W0 (Cert.KernelIdeal.Glue.M0 mK c) (Proc.devRef .tc Cert.KernelIdeal.main_arg1) := h1

/-- The quantised tables agree when every weight is a real number. -/
theorem wq (h1 : mR ((c.tc : Thread Cert.ReferenceIdeal.nD Cert.ReferenceIdeal.τ).loc Cert.ReferenceIdeal.main_arg1) = mK ((c.tc : Thread Cert.KernelIdeal.nD Cert.KernelIdeal.τ).loc Cert.KernelIdeal.main_arg1))
    (hw : ∀ i, ∃ r : ℝ, (mK ((c.tc : Thread Cert.KernelIdeal.nD Cert.KernelIdeal.τ).loc Cert.KernelIdeal.main_arg1)) i = (r : EReal)) :
    (Cert.ReferenceIdeal.Glue.WR mR c (Proc.devRef .tc Cert.ReferenceIdeal.main_v5) : FVec Ideal ST .f32) = Cert.KernelIdeal.Glue.Wk mK c (Proc.devRef .tc Cert.KernelIdeal.main_v579) := by
  rwalk_all
  walk_all
  rw [leaf1 mK mR c h1]
  have hx : ∀ i, ∃ r : ℝ, (mulf (Cert.KernelIdeal.Walk.W0 (Cert.KernelIdeal.Glue.M0 mK c) (Proc.devRef .tc Cert.KernelIdeal.main_arg1))
      (broadcastInDim Cert.ReferenceIdeal.S83521x16 ![] Cert.ReferenceIdeal.Gen.bcast_S_S83521x16 (constant (F := Ideal) Cert.ReferenceIdeal.S_ .f32 0x42FE0000#32))) i = (r : EReal) :=
    fun i => Cert.Alg.mul127_real _ hw i
  rw [Cert.Alg.round_ste_vec _ hx]

end Cert.CorrWq

end
-- ==== Proof.Corr.lean ====
/-
  The reference's weight columns, corner index arrays and quantised table are the kernel's, as arrays.
-/
import proofs.«409975_j2585570312579_2_alg».proof.Proof.CorrWtA
import proofs.«409975_j2585570312579_2_alg».proof.Proof.CorrWtB
import proofs.«409975_j2585570312579_2_alg».proof.Proof.CorrIdx
import proofs.«409975_j2585570312579_2_alg».proof.Proof.CorrWq

set_option maxRecDepth 100000

noncomputable section

namespace Cert.Corr

open Idealize.ShloMosaic Idealize.ShloMosaic.StableHlo Idealize.ShloMosaic.ValueIdx Cert.Spec

variable (mK : (ℓ : Loc Cert.KernelIdeal.nD Cert.KernelIdeal.τ Cert.KernelIdeal.sig) → Buf (Elt Ideal) ℓ)
  (mR : (ℓ : Loc Cert.ReferenceIdeal.nD Cert.ReferenceIdeal.τ Cert.ReferenceIdeal.sig) → Buf (Elt Ideal) ℓ)
  (c : Dev 1)

/-- The sixteen corner index arrays agree. -/
theorem idx_eq (h0 : mR ((c.tc : Thread Cert.ReferenceIdeal.nD Cert.ReferenceIdeal.τ).loc Cert.ReferenceIdeal.main_arg0) = mK ((c.tc : Thread Cert.KernelIdeal.nD Cert.KernelIdeal.τ).loc Cert.KernelIdeal.main_arg0)) : Cert.ReferenceIdeal.Glue.idxR mR c = Cert.KernelIdeal.Glue.idxK mK c := by
  obtain ⟨e0, e1, e2, e3, e4, e5, e6, e7, e8, e9, e10, e11, e12, e13, e14, e15⟩ := Cert.CorrIdx.idxAll mK mR c h0
  funext k
  fin_cases k
  exacts [e0, e1, e2, e3, e4, e5, e6, e7, e8, e9, e10, e11, e12, e13, e14, e15]

/-- The sixteen weight columns agree. -/
theorem wt_eq (h0 : mR ((c.tc : Thread Cert.ReferenceIdeal.nD Cert.ReferenceIdeal.τ).loc Cert.ReferenceIdeal.main_arg0) = mK ((c.tc : Thread Cert.KernelIdeal.nD Cert.KernelIdeal.τ).loc Cert.KernelIdeal.main_arg0)) : Cert.ReferenceIdeal.Glue.wtR mR c = Cert.KernelIdeal.Glue.wtK mK c := by
  obtain ⟨e0, e1, e2, e3, e4, e5, e6, e7⟩ := Cert.CorrWtA.wtA mK mR c h0
  obtain ⟨e8, e9, e10, e11, e12, e13, e14, e15⟩ := Cert.CorrWtB.wtB mK mR c h0
  funext k
  fin_cases k
  exacts [e0, e1, e2, e3, e4, e5, e6, e7, e8, e9, e10, e11, e12, e13, e14, e15]

/-- The quantised tables agree when every weight is a real number. -/
theorem wq_eq (h1 : mR ((c.tc : Thread Cert.ReferenceIdeal.nD Cert.ReferenceIdeal.τ).loc Cert.ReferenceIdeal.main_arg1) = mK ((c.tc : Thread Cert.KernelIdeal.nD Cert.KernelIdeal.τ).loc Cert.KernelIdeal.main_arg1))
    (hw : ∀ i, ∃ r : ℝ, (mK ((c.tc : Thread Cert.KernelIdeal.nD Cert.KernelIdeal.τ).loc Cert.KernelIdeal.main_arg1)) i = (r : EReal)) :
    Cert.ReferenceIdeal.Glue.wqR mR c = Cert.KernelIdeal.Glue.wqK mK c :=
  Cert.CorrWq.wq mK mR c h1 hw

end Cert.Corr

end
-- ==== Proof.lean ====
/-
  The certificate: the three programs run to the end without a fault and leave their inputs unchanged, and the two
  idealized programs, run from inputs that agree, end with the same image.

  Per pixel n the programs form sixteen corner indices into the quantised table and sixteen simplex weights from the
  four neighbouring pixel words. The kernel gathers the sixteen table rows first and combines them in one region,
  (Σ_k row_k · weight_k) · (1/16); the reference accumulates weight_k · row_k corner by corner from zero and divides by 16.
  On the extended reals the two agree by commutativity, associativity and x / 16 = x · (1/16). The rows agree because
  every pixel word lies in [0, 255], so every corner index lies in the table and the kernel's filling lookup is the
  reference's clamping one; the tables agree because x + (round x − x) = round x for a real x, and every weight is real.
-/
import proofs.«409975_j2585570312579_2_alg».proof.Defs
import proofs.«409975_j2585570312579_2_alg».proof.Proof.Gen.Kernel
import proofs.«409975_j2585570312579_2_alg».proof.Proof.Gen.KernelIdeal
import proofs.«409975_j2585570312579_2_alg».proof.Proof.Gen.ReferenceIdeal
import proofs.«409975_j2585570312579_2_alg».proof.Proof.Gen.Pre_finite_inputs
import proofs.«409975_j2585570312579_2_alg».proof.Proof.KFrameBits
import proofs.«409975_j2585570312579_2_alg».proof.Proof.KFrame
import proofs.«409975_j2585570312579_2_alg».proof.Proof.RefRun
import proofs.«409975_j2585570312579_2_alg».proof.Proof.KGlue
import proofs.«409975_j2585570312579_2_alg».proof.Proof.RGlue
import proofs.«409975_j2585570312579_2_alg».proof.Proof.Corr
import proofs.«409975_j2585570312579_2_alg».proof.Proof.PreDecode
import Idealize.ShloMosaic.Adequacy
import Idealize.ShloMosaic.Init

set_option maxRecDepth 100000

noncomputable section

namespace Cert.Proof

open Idealize.ShloMosaic Idealize.SL.Sem

/-- The pixel shuffle is the same re-laying in both programs. -/
theorem shuffle_same (X : FVec Ideal Cert.Spec.SN16 .f32) :
    Cert.ReferenceIdeal.Glue.shuffleR X = Cert.KernelIdeal.Val.shuffle X := rfl

theorem frame_k : Cert.frame_Kernel := fun m ρ _ => Cert.Kernel.GenH.frame m ρ
theorem frame_ki : Cert.frame_KernelIdeal := fun m ρ _ => Cert.KernelIdeal.GenH.frame m ρ
theorem frame_ri : Cert.frame_ReferenceIdeal := fun m ρ _ => Cert.ReferenceIdeal.RunH.frame m ρ

theorem algebraic : Cert.algebraic_KernelIdeal_ReferenceIdeal := by
  intro m g m' g' hpre hagree
  have hw : ∀ c : Dev Cert.KernelIdeal.nD, ∀ i, ∃ r : ℝ, (m ((c.tc : Thread Cert.KernelIdeal.nD Cert.KernelIdeal.τ).loc Cert.KernelIdeal.main_arg1)) i = (r : EReal) :=
    fun c => Cert.PreDecode.weight_real _ _ (hpre c)
  have hidx : ∀ c, Cert.ReferenceIdeal.Glue.idxR m' c = Cert.KernelIdeal.Glue.idxK m c := fun c => Cert.Corr.idx_eq m m' c (hagree c).1
  have hwt : ∀ c, Cert.ReferenceIdeal.Glue.wtR m' c = Cert.KernelIdeal.Glue.wtK m c := fun c => Cert.Corr.wt_eq m m' c (hagree c).1
  have hwq : ∀ c, Cert.ReferenceIdeal.Glue.wqR m' c = Cert.KernelIdeal.Glue.wqK m c := fun c => Cert.Corr.wq_eq m m' c (hagree c).2 (hw c)
  refine ⟨fun c => Cert.KernelIdeal.Val.shuffle (Cert.Spec.combine (Cert.KernelIdeal.Glue.wqK m c) (Cert.KernelIdeal.Glue.idxK m c) (Cert.KernelIdeal.Glue.wtK m c)),
    Cert.KernelIdeal.Glue.kernel_value m g hpre, ?_⟩
  refine (θ_run Cert.ReferenceIdeal.defs _ _).mono (fun r h c => ?_)
    (Cert.ReferenceIdeal.Glue.reference_value m' g' (fun c => by rw [hidx c]; exact Cert.KernelIdeal.Glue.inRangeK m c hpre))
  refine ⟨?_, (h c).2.1, (h c).2.2⟩
  rw [(h c).1, hidx c, hwt c, hwq c]
  exact shuffle_same _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
